-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S200000x2 : Shape := ⟨2, ![200000, 2]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S200000x2 : S_.BroadcastsInDim S200000x2 (![] : Fin 0 → Fin S200000x2.rank)
  reducesTo_S200000x2_S_d0_1 : S200000x2.ReducesTo [0, 1] S_

variable [Facts]

def fn_part1 {F : FTy → Type} [FloatOps F] (main_v10 : IVec S_ 1) (main_v15 : IVec S200000x2 1) (main_c_5 : IVec S_ 1) : IVec S_ 1 :=
  let main_v16 : IVec S_ 1 := (fun x v => Host.reduce IntOp.andi x v reducesTo_S200000x2_S_d0_1 h_S_) main_v15 main_c_5
  let main_v17 : IVec S_ 1 := andi main_v10 main_v16
  main_v17

def fn {F : FTy → Type} [FloatOps F] (main_arg0 : FVec F S100000x256 .f32) (main_arg1 : IVec S200000x2 32) (main_arg2 : IVec S200000x2 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_c_0 : IVec S_ 32 := constantI S_ 32 0#32
  let main_v4 : IVec S200000x2 32 := broadcastInDim S200000x2 ![] bcast_S_S200000x2 main_c_0
  let main_v5 : IVec S200000x2 1 := cmpi .sge main_arg1 main_v4
  let main_c_1 : IVec S_ 32 := constantI S_ 32 100000#32
  let main_v6 : IVec S200000x2 32 := broadcastInDim S200000x2 ![] bcast_S_S200000x2 main_c_1
  let main_v7 : IVec S200000x2 1 := cmpi .slt main_arg1 main_v6
  let main_v8 : IVec S200000x2 1 := andi main_v5 main_v7
  let main_c_2 : IVec S_ 1 := constantI S_ 1 1#1
  let main_v9 : IVec S_ 1 := (fun x v => Host.reduce IntOp.andi x v reducesTo_S200000x2_S_d0_1 h_S_) main_v8 main_c_2
  let main_v10 : IVec S_ 1 := andi main_v3 main_v9
  let main_c_3 : IVec S_ 32 := constantI S_ 32 0#32
  let main_v11 : IVec S200000x2 32 := broadcastInDim S200000x2 ![] bcast_S_S200000x2 main_c_3
  let main_v12 : IVec S200000x2 1 := cmpi .sge main_arg2 main_v11
  let main_c_4 : IVec S_ 32 := constantI S_ 32 100000#32
  let main_v13 : IVec S200000x2 32 := broadcastInDim S200000x2 ![] bcast_S_S200000x2 main_c_4
  let main_v14 : IVec S200000x2 1 := cmpi .slt main_arg2 main_v13
  let main_v15 : IVec S200000x2 1 := andi main_v12 main_v14
  let main_c_5 : IVec S_ 1 := constantI S_ 1 1#1
  fn_part1 (F := F) main_v10 main_v15 main_c_5
-- ==== Kernel.lean ====
abbrev S100000x256 : Shape := ⟨2, ![100000, 256]⟩
abbrev S200000x2 : Shape := ⟨2, ![200000, 2]⟩
abbrev S100000x1x256 : Shape := ⟨3, ![100000, 1, 256]⟩
abbrev S200000x1 : Shape := ⟨2, ![200000, 1]⟩
abbrev S200000 : Shape := ⟨1, ![200000]⟩
abbrev S25000 : Shape := ⟨1, ![25000]⟩
abbrev S1x1 : Shape := ⟨2, ![1, 1]⟩
abbrev S1x1x256 : Shape := ⟨3, ![1, 1, 256]⟩
abbrev S1 : Shape := ⟨1, ![1]⟩
abbrev S1x256 : Shape := ⟨2, ![1, 256]⟩
abbrev S_ : Shape := ⟨0, ![]⟩

abbrev nBuf : Space → Nat
  | .hbm => 63
  | .vmem => 80
  | .smem => 32
  | _ => 0

abbrev bufTy : (tb : Table) → Fin (tcTables nBuf tb) → BufTy
  | .hbm, ⟨0, _⟩ => ⟨S100000x256, .f32⟩
  | .hbm, ⟨1, _⟩ => ⟨S200000x2, .i32⟩
  | .hbm, ⟨2, _⟩ => ⟨S200000x2, .i32⟩
  | .hbm, ⟨3, _⟩ => ⟨S100000x1x256, .f32⟩
  | .hbm, ⟨4, _⟩ => ⟨S200000x1, .i32⟩
  | .hbm, ⟨5, _⟩ => ⟨S200000, .i32⟩
  | .hbm, ⟨6, _⟩ => ⟨S200000x1, .i32⟩
  | .hbm, ⟨7, _⟩ => ⟨S200000, .i32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S1x1, .f32⟩
  | .hbm, ⟨13, _⟩ => ⟨S_, .f32⟩
  | .hbm, ⟨14, _⟩ => ⟨S_, .f32⟩
  | .hbm, ⟨15, _⟩ => ⟨S1x1, .f32⟩
  | .hbm, ⟨16, _⟩ => ⟨S_, .f32⟩
  | .hbm, ⟨17, _⟩ => ⟨S_, .f32⟩
  | .hbm, ⟨18, _⟩ => ⟨S1x1, .f32⟩
  | .hbm, ⟨19, _⟩ => ⟨S_, .f32⟩
  | .hbm, ⟨20, _⟩ => ⟨S_, .f32⟩
  | .hbm, ⟨21, _⟩ => ⟨S1x1, .f32⟩
  | .hbm, ⟨22, _⟩ => ⟨S_, .f32⟩
  | .hbm, ⟨23, _⟩ => ⟨S_, .f32⟩
  | .hbm, ⟨24, _⟩ => ⟨S1x1, .f32⟩
  | .hbm, ⟨25, _⟩ => ⟨S_, .f32⟩
  | .hbm, ⟨26, _⟩ => ⟨S_, .f32⟩
  | .hbm, ⟨27, _⟩ => ⟨S1x1, .f32⟩
  | .hbm, ⟨28, _⟩ => ⟨S_, .f32⟩
  | .hbm, ⟨29, _⟩ => ⟨S_, .f32⟩
  | .hbm, ⟨30, _⟩ => ⟨S1x1, .f32⟩
  | .hbm, ⟨31, _⟩ => ⟨S_, .f32⟩
  | .hbm, ⟨32, _⟩ => ⟨S_, .f32⟩
  | .hbm, ⟨33, _⟩ => ⟨S200000x1, .i32⟩
  | .hbm, ⟨34, _⟩ => ⟨S200000, .i32⟩
  | .hbm, ⟨35, _⟩ => ⟨S200000x1, .i32⟩
  | .hbm, ⟨36, _⟩ => ⟨S200000, .i32⟩
  | .hbm, ⟨37, _⟩ => ⟨S1x1, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x1, .f32⟩
  | .hbm, ⟨42, _⟩ => ⟨S_, .f32⟩
  | .hbm, ⟨43, _⟩ => ⟨S_, .f32⟩
  | .hbm, ⟨44, _⟩ => ⟨S1x1, .f32⟩
  | .hbm, ⟨45, _⟩ => ⟨S_, .f32⟩
  | .hbm, ⟨46, _⟩ => ⟨S_, .f32⟩
  | .hbm, ⟨47, _⟩ => ⟨S1x1, .f32⟩
  | .hbm, ⟨48, _⟩ => ⟨S_, .f32⟩
  | .hbm, ⟨49, _⟩ => ⟨S_, .f32⟩
  | .hbm, ⟨50, _⟩ => ⟨S1x1, .f32⟩
  | .hbm, ⟨51, _⟩ => ⟨S_, .f32⟩
  | .hbm, ⟨52, _⟩ => ⟨S_, .f32⟩
  | .hbm, ⟨53, _⟩ => ⟨S1x1, .f32⟩
  | .hbm, ⟨54, _⟩ => ⟨S_, .f32⟩
  | .hbm, ⟨55, _⟩ => ⟨S_, .f32⟩
  | .hbm, ⟨56, _⟩ => ⟨S1x1, .f32⟩
  | .hbm, ⟨57, _⟩ => ⟨S_, .f32⟩
  | .hbm, ⟨58, _⟩ => ⟨S_, .f32⟩
  | .hbm, ⟨59, _⟩ => ⟨S1x1, .f32⟩
  | .hbm, ⟨60, _⟩ => ⟨S_, .f32⟩
  | .hbm, ⟨61, _⟩ => ⟨S_, .f32⟩
  | .hbm, ⟨62, _⟩ => ⟨S_, .f32⟩
  | .local _ .vmem, ⟨0, _⟩ => ⟨S1x1x256, .f32⟩
  | .local _ .vmem, ⟨1, _⟩ => ⟨S1x1x256, .f32⟩
  | .local _ .vmem, ⟨2, _⟩ => ⟨S1x1x256, .f32⟩
  | .local _ .vmem, ⟨3, _⟩ => ⟨S1x1x256, .f32⟩
  | .local _ .vmem, ⟨4, _⟩ => ⟨S1x1, .f32⟩
  | .local _ .vmem, ⟨5, _⟩ => ⟨S1x1x256, .f32⟩
  | .local _ .vmem, ⟨6, _⟩ => ⟨S1x1x256, .f32⟩
  | .local _ .vmem, ⟨7, _⟩ => ⟨S1x1x256, .f32⟩
  | .local _ .vmem, ⟨8, _⟩ => ⟨S1x1x256, .f32⟩
  | .local _ .vmem, ⟨9, _⟩ => ⟨S1x1, .f32⟩
  | .local _ .vmem, ⟨10, _⟩ => ⟨S1x1x256, .f32⟩
  | .local _ .vmem, ⟨11, _⟩ => ⟨S1x1x256, .f32⟩
  | .local _ .vmem, ⟨12, _⟩ => ⟨S1x1x256, .f32⟩
  | .local _ .vmem, ⟨13, _⟩ => ⟨S1x1x256, .f32⟩
  | .local _ .vmem, ⟨14, _⟩ => ⟨S1x1, .f32⟩
  | .local _ .vmem, ⟨15, _⟩ => ⟨S1x1x256, .f32⟩
  | .local _ .vmem, ⟨16, _⟩ => ⟨S1x1x256, .f32⟩
  | .local _ .vmem, ⟨17, _⟩ => ⟨S1x1x256, .f32⟩
  | .local _ .vmem, ⟨18, _⟩ => ⟨S1x1x256, .f32⟩
  | .local _ .vmem, ⟨19, _⟩ => ⟨S1x1, .f32⟩
  | .local _ .vmem, ⟨20, _⟩ => ⟨S1x1x256, .f32⟩
  | .local _ .vmem, ⟨21, _⟩ => ⟨S1x1x256, .f32⟩
  | .local _ .vmem, ⟨22, _⟩ => ⟨S1x1x256, .f32⟩
  | .local _ .vmem, ⟨23, _⟩ => ⟨S1x1x256, .f32⟩
  | .local _ .vmem, ⟨24, _⟩ => ⟨S1x1, .f32⟩
  | .local _ .vmem, ⟨25, _⟩ => ⟨S1x1x256, .f32⟩
  | .local _ .vmem, ⟨26, _⟩ => ⟨S1x1x256, .f32⟩
  | .local _ .vmem, ⟨27, _⟩ => ⟨S1x1x256, .f32⟩
  | .local _ .vmem, ⟨28, _⟩ => ⟨S1x1x256, .f32⟩
  | .local _ .vmem, ⟨29, _⟩ => ⟨S1x1, .f32⟩
  | .local _ .vmem, ⟨30, _⟩ => ⟨S1x1x256, .f32⟩
  | .local _ .vmem, ⟨31, _⟩ => ⟨S1x1x256, .f32⟩
  | .local _ .vmem, ⟨32, _⟩ => ⟨S1x1x256, .f32⟩
  | .local _ .vmem, ⟨33, _⟩ => ⟨S1x1x256, .f32⟩
  | .local _ .vmem, ⟨34, _⟩ => ⟨S1x1, .f32⟩
  | .local _ .vmem, ⟨35, _⟩ => ⟨S1x1x256, .f32⟩
  | .local _ .vmem, ⟨36, _⟩ => ⟨S1x1x256, .f32⟩
  | .local _ .vmem, ⟨37, _⟩ => ⟨S1x1x256, .f32⟩
  | .local _ .vmem, ⟨38, _⟩ => ⟨S1x1x256, .f32⟩
  | .local _ .vmem, ⟨39, _⟩ => ⟨S1x1, .f32⟩
  | .local _ .vmem, ⟨40, _⟩ => ⟨S1x1x256, .f32⟩
  | .local _ .vmem, ⟨41, _⟩ => ⟨S1x1x256, .f32⟩
  | .local _ .vmem, ⟨42, _⟩ => ⟨S1x1x256, .f32⟩
  | .local _ .vmem, ⟨43, _⟩ => ⟨S1x1x256, .f32⟩
  | .local _ .vmem, ⟨44, _⟩ => ⟨S1x1, .f32⟩
  | .local _ .vmem, ⟨45, _⟩ => ⟨S1x1x256, .f32⟩
  | .local _ .vmem, ⟨46, _⟩ => ⟨S1x1x256, .f32⟩
  | .local _ .vmem, ⟨47, _⟩ => ⟨S1x1x256, .f32⟩
  | .local _ .vmem, ⟨48, _⟩ => ⟨S1x1x256, .f32⟩
  | .local _ .vmem, ⟨49, _⟩ => ⟨S1x1, .f32⟩
  | .local _ .vmem, ⟨50, _⟩ => ⟨S1x1x256, .f32⟩
  | .local _ .vmem, ⟨51, _⟩ => ⟨S1x1x256, .f32⟩
  | .local _ .vmem, ⟨52, _⟩ => ⟨S1x1x256, .f32⟩
  | .local _ .vmem, ⟨53, _⟩ => ⟨S1x1x256, .f32⟩
  | .local _ .vmem, ⟨54, _⟩ => ⟨S1x1, .f32⟩
  | .local _ .vmem, ⟨55, _⟩ => ⟨S1x1x256, .f32⟩
  | .local _ .vmem, ⟨56, _⟩ => ⟨S1x1x256, .f32⟩
  | .local _ .vmem, ⟨57, _⟩ => ⟨S1x1x256, .f32⟩
  | .local _ .vmem, ⟨58, _⟩ => ⟨S1x1x256, .f32⟩
  | .local _ .vmem, ⟨59, _⟩ => ⟨S1x1, .f32⟩
  | .local _ .vmem, ⟨60, _⟩ => ⟨S1x1x256, .f32⟩
  | .local _ .vmem, ⟨61, _⟩ => ⟨S1x1x256, .f32⟩
  | .local _ .vmem, ⟨62, _⟩ => ⟨S1x1x256, .f32⟩
  | .local _ .vmem, ⟨63, _⟩ => ⟨S1x1x256, .f32⟩
  | .local _ .vmem, ⟨64, _⟩ => ⟨S1x1, .f32⟩
  | .local _ .vmem, ⟨65, _⟩ => ⟨S1x1x256, .f32⟩
  | .local _ .vmem, ⟨66, _⟩ => ⟨S1x1x256, .f32⟩
  | .local _ .vmem, ⟨67, _⟩ => ⟨S1x1x256, .f32⟩
  | .local _ .vmem, ⟨68, _⟩ => ⟨S1x1x256, .f32⟩
  | .local _ .vmem, ⟨69, _⟩ => ⟨S1x1, .f32⟩
  | .local _ .vmem, ⟨70, _⟩ => ⟨S1x1x256, .f32⟩
  | .local _ .vmem, ⟨71, _⟩ => ⟨S1x1x256, .f32⟩
  | .local _ .vmem, ⟨72, _⟩ => ⟨S1x1x256, .f32⟩
  | .local _ .vmem, ⟨73, _⟩ => ⟨S1x1x256, .f32⟩
  | .local _ .vmem, ⟨74, _⟩ => ⟨S1x1, .f32⟩
  | .local _ .vmem, ⟨75, _⟩ => ⟨S1x1x256, .f32⟩
  | .local _ .vmem, ⟨76, _⟩ => ⟨S1x1x256, .f32⟩
  | .local _ .vmem, ⟨77, _⟩ => ⟨S1x1x256, .f32⟩
  | .local _ .vmem, ⟨78, _⟩ => ⟨S1x1x256, .f32⟩
  | .local _ .vmem, ⟨79, _⟩ => ⟨S1x1, .f32⟩
  | .local _ .smem, ⟨0, _⟩ => ⟨S25000, .i32⟩
  | .local _ .smem, ⟨1, _⟩ => ⟨S25000, .i32⟩
  | .local _ .smem, ⟨2, _⟩ => ⟨S25000, .i32⟩
  | .local _ .smem, ⟨3, _⟩ => ⟨S25000, .i32⟩
  | .local _ .smem, ⟨4, _⟩ => ⟨S25000, .i32⟩
  | .local _ .smem, ⟨5, _⟩ => ⟨S25000, .i32⟩
  | .local _ .smem, ⟨6, _⟩ => ⟨S25000, .i32⟩
  | .local _ .smem, ⟨7, _⟩ => ⟨S25000, .i32⟩
  | .local _ .smem, ⟨8, _⟩ => ⟨S25000, .i32⟩
  | .local _ .smem, ⟨9, _⟩ => ⟨S25000, .i32⟩
  | .local _ .smem, ⟨10, _⟩ => ⟨S25000, .i32⟩
  | .local _ .smem, ⟨11, _⟩ => ⟨S25000, .i32⟩
  | .local _ .smem, ⟨12, _⟩ => ⟨S25000, .i32⟩
  | .local _ .smem, ⟨13, _⟩ => ⟨S25000, .i32⟩
  | .local _ .smem, ⟨14, _⟩ => ⟨S25000, .i32⟩
  | .local _ .smem, ⟨15, _⟩ => ⟨S25000, .i32⟩
  | .local _ .smem, ⟨16, _⟩ => ⟨S25000, .i32⟩
  | .local _ .smem, ⟨17, _⟩ => ⟨S25000, .i32⟩
  | .local _ .smem, ⟨18, _⟩ => ⟨S25000, .i32⟩
  | .local _ .smem, ⟨19, _⟩ => ⟨S25000, .i32⟩
  | .local _ .smem, ⟨20, _⟩ => ⟨S25000, .i32⟩
  | .local _ .smem, ⟨21, _⟩ => ⟨S25000, .i32⟩
  | .local _ .smem, ⟨22, _⟩ => ⟨S25000, .i32⟩
  | .local _ .smem, ⟨23, _⟩ => ⟨S25000, .i32⟩
  | .local _ .smem, ⟨24, _⟩ => ⟨S25000, .i32⟩
  | .local _ .smem, ⟨25, _⟩ => ⟨S25000, .i32⟩
  | .local _ .smem, ⟨26, _⟩ => ⟨S25000, .i32⟩
  | .local _ .smem, ⟨27, _⟩ => ⟨S25000, .i32⟩
  | .local _ .smem, ⟨28, _⟩ => ⟨S25000, .i32⟩
  | .local _ .smem, ⟨29, _⟩ => ⟨S25000, .i32⟩
  | .local _ .smem, ⟨30, _⟩ => ⟨S25000, .i32⟩
  | .local _ .smem, ⟨31, _⟩ => ⟨S25000, .i32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v12 : Ref sig .tc := ⟨.hbm, 12, rfl⟩
abbrev main_v13 : Ref sig .tc := ⟨.hbm, 13, rfl⟩
abbrev main_v14 : Ref sig .tc := ⟨.hbm, 14, rfl⟩
abbrev main_v17 : Ref sig .tc := ⟨.hbm, 15, rfl⟩
abbrev main_v18 : Ref sig .tc := ⟨.hbm, 16, rfl⟩
abbrev main_v19 : Ref sig .tc := ⟨.hbm, 17, rfl⟩
abbrev main_v22 : Ref sig .tc := ⟨.hbm, 18, rfl⟩
abbrev main_v23 : Ref sig .tc := ⟨.hbm, 19, rfl⟩
abbrev main_v24 : Ref sig .tc := ⟨.hbm, 20, rfl⟩
abbrev main_v27 : Ref sig .tc := ⟨.hbm, 21, rfl⟩
abbrev main_v28 : Ref sig .tc := ⟨.hbm, 22, rfl⟩
abbrev main_v29 : Ref sig .tc := ⟨.hbm, 23, rfl⟩
abbrev main_v32 : Ref sig .tc := ⟨.hbm, 24, rfl⟩
abbrev main_v33 : Ref sig .tc := ⟨.hbm, 25, rfl⟩
abbrev main_v34 : Ref sig .tc := ⟨.hbm, 26, rfl⟩
abbrev main_v37 : Ref sig .tc := ⟨.hbm, 27, rfl⟩
abbrev main_v38 : Ref sig .tc := ⟨.hbm, 28, rfl⟩
abbrev main_v39 : Ref sig .tc := ⟨.hbm, 29, rfl⟩
abbrev main_v42 : Ref sig .tc := ⟨.hbm, 30, rfl⟩
abbrev main_v43 : Ref sig .tc := ⟨.hbm, 31, rfl⟩
abbrev main_v44 : Ref sig .tc := ⟨.hbm, 32, rfl⟩
abbrev main_v45 : Ref sig .tc := ⟨.hbm, 33, rfl⟩
abbrev main_v46 : Ref sig .tc := ⟨.hbm, 34, rfl⟩
abbrev main_v47 : Ref sig .tc := ⟨.hbm, 35, rfl⟩
abbrev main_v48 : Ref sig .tc := ⟨.hbm, 36, rfl⟩
abbrev main_v51 : Ref sig .tc := ⟨.hbm, 37, rfl⟩
abbrev main_v52 : Ref sig .tc := ⟨.hbm, 38, rfl⟩
abbrev main_cst_0 : Ref sig .tc := ⟨.hbm, 39, rfl⟩
abbrev main_v53 : Ref sig .tc := ⟨.hbm, 40, rfl⟩
abbrev main_v56 : Ref sig .tc := ⟨.hbm, 41, rfl⟩
abbrev main_v57 : Ref sig .tc := ⟨.hbm, 42, rfl⟩
abbrev main_v58 : Ref sig .tc := ⟨.hbm, 43, rfl⟩
abbrev main_v61 : Ref sig .tc := ⟨.hbm, 44, rfl⟩
abbrev main_v62 : Ref sig .tc := ⟨.hbm, 45, rfl⟩
abbrev main_v63 : Ref sig .tc := ⟨.hbm, 46, rfl⟩
abbrev main_v66 : Ref sig .tc := ⟨.hbm, 47, rfl⟩
abbrev main_v67 : Ref sig .tc := ⟨.hbm, 48, rfl⟩
abbrev main_v68 : Ref sig .tc := ⟨.hbm, 49, rfl⟩
abbrev main_v71 : Ref sig .tc := ⟨.hbm, 50, rfl⟩
abbrev main_v72 : Ref sig .tc := ⟨.hbm, 51, rfl⟩
abbrev main_v73 : Ref sig .tc := ⟨.hbm, 52, rfl⟩
abbrev main_v76 : Ref sig .tc := ⟨.hbm, 53, rfl⟩
abbrev main_v77 : Ref sig .tc := ⟨.hbm, 54, rfl⟩
abbrev main_v78 : Ref sig .tc := ⟨.hbm, 55, rfl⟩
abbrev main_v81 : Ref sig .tc := ⟨.hbm, 56, rfl⟩
abbrev main_v82 : Ref sig .tc := ⟨.hbm, 57, rfl⟩
abbrev main_v83 : Ref sig .tc := ⟨.hbm, 58, rfl⟩
abbrev main_v86 : Ref sig .tc := ⟨.hbm, 59, rfl⟩
abbrev main_v87 : Ref sig .tc := ⟨.hbm, 60, rfl⟩
abbrev main_v88 : Ref sig .tc := ⟨.hbm, 61, rfl⟩
abbrev main_v89 : Ref sig .tc := ⟨.hbm, 62, rfl⟩
abbrev main_v5 : Ref sig .tc := ⟨.smem, 0, rfl⟩
abbrev main_v6 : Ref sig .tc := ⟨.smem, 1, rfl⟩
abbrev main_v10 : Ref sig .tc := ⟨.smem, 2, rfl⟩
abbrev main_v11 : Ref sig .tc := ⟨.smem, 3, rfl⟩
abbrev main_v15 : Ref sig .tc := ⟨.smem, 4, rfl⟩
abbrev main_v16 : Ref sig .tc := ⟨.smem, 5, rfl⟩
abbrev main_v20 : Ref sig .tc := ⟨.smem, 6, rfl⟩
abbrev main_v21 : Ref sig .tc := ⟨.smem, 7, rfl⟩
abbrev main_v25 : Ref sig .tc := ⟨.smem, 8, rfl⟩
abbrev main_v26 : Ref sig .tc := ⟨.smem, 9, rfl⟩
abbrev main_v30 : Ref sig .tc := ⟨.smem, 10, rfl⟩
abbrev main_v31 : Ref sig .tc := ⟨.smem, 11, rfl⟩
abbrev main_v35 : Ref sig .tc := ⟨.smem, 12, rfl⟩
abbrev main_v36 : Ref sig .tc := ⟨.smem, 13, rfl⟩
abbrev main_v40 : Ref sig .tc := ⟨.smem, 14, rfl⟩
abbrev main_v41 : Ref sig .tc := ⟨.smem, 15, rfl⟩
abbrev main_v49 : Ref sig .tc := ⟨.smem, 16, rfl⟩
abbrev main_v50 : Ref sig .tc := ⟨.smem, 17, rfl⟩
abbrev main_v54 : Ref sig .tc := ⟨.smem, 18, rfl⟩
abbrev main_v55 : Ref sig .tc := ⟨.smem, 19, rfl⟩
abbrev main_v59 : Ref sig .tc := ⟨.smem, 20, rfl⟩
abbrev main_v60 : Ref sig .tc := ⟨.smem, 21, rfl⟩
abbrev main_v64 : Ref sig .tc := ⟨.smem, 22, rfl⟩
abbrev main_v65 : Ref sig .tc := ⟨.smem, 23, rfl⟩
abbrev main_v69 : Ref sig .tc := ⟨.smem, 24, rfl⟩
abbrev main_v70 : Ref sig .tc := ⟨.smem, 25, rfl⟩
abbrev main_v74 : Ref sig .tc := ⟨.smem, 26, rfl⟩
abbrev main_v75 : Ref sig .tc := ⟨.smem, 27, rfl⟩
abbrev main_v79 : Ref sig .tc := ⟨.smem, 28, rfl⟩
abbrev main_v80 : Ref sig .tc := ⟨.smem, 29, rfl⟩
abbrev main_v84 : Ref sig .tc := ⟨.smem, 30, rfl⟩
abbrev main_v85 : Ref sig .tc := ⟨.smem, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg1_1 : Ref sig .tc := ⟨.vmem, 38, rfl⟩
abbrev cc7_stg2_0 : Ref sig .tc := ⟨.vmem, 39, rfl⟩
abbrev cc8_stg0_0 : Ref sig .tc := ⟨.vmem, 40, rfl⟩
abbrev cc8_stg0_1 : Ref sig .tc := ⟨.vmem, 41, rfl⟩
abbrev cc8_stg1_0 : Ref sig .tc := ⟨.vmem, 42, rfl⟩
abbrev cc8_stg1_1 : Ref sig .tc := ⟨.vmem, 43, rfl⟩
abbrev cc8_stg2_0 : Ref sig .tc := ⟨.vmem, 44, rfl⟩
abbrev cc9_stg0_0 : Ref sig .tc := ⟨.vmem, 45, rfl⟩
abbrev cc9_stg0_1 : Ref sig .tc := ⟨.vmem, 46, rfl⟩
abbrev cc9_stg1_0 : Ref sig .tc := ⟨.vmem, 47, rfl⟩
abbrev cc9_stg1_1 : Ref sig .tc := ⟨.vmem, 48, rfl⟩
abbrev cc9_stg2_0 : Ref sig .tc := ⟨.vmem, 49, rfl⟩
abbrev cc10_stg0_0 : Ref sig .tc := ⟨.vmem, 50, rfl⟩
abbrev cc10_stg0_1 : Ref sig .tc := ⟨.vmem, 51, rfl⟩
abbrev cc10_stg1_0 : Ref sig .tc := ⟨.vmem, 52, rfl⟩
abbrev cc10_stg1_1 : Ref sig .tc := ⟨.vmem, 53, rfl⟩
abbrev cc10_stg2_0 : Ref sig .tc := ⟨.vmem, 54, rfl⟩
abbrev cc11_stg0_0 : Ref sig .tc := ⟨.vmem, 55, rfl⟩
abbrev cc11_stg0_1 : Ref sig .tc := ⟨.vmem, 56, rfl⟩
abbrev cc11_stg1_0 : Ref sig .tc := ⟨.vmem, 57, rfl⟩
abbrev cc11_stg1_1 : Ref sig .tc := ⟨.vmem, 58, rfl⟩
abbrev cc11_stg2_0 : Ref sig .tc := ⟨.vmem, 59, rfl⟩
abbrev cc12_stg0_0 : Ref sig .tc := ⟨.vmem, 60, rfl⟩
abbrev cc12_stg0_1 : Ref sig .tc := ⟨.vmem, 61, rfl⟩
abbrev cc12_stg1_0 : Ref sig .tc := ⟨.vmem, 62, rfl⟩
abbrev cc12_stg1_1 : Ref sig .tc := ⟨.vmem, 63, rfl⟩
abbrev cc12_stg2_0 : Ref sig .tc := ⟨.vmem, 64, rfl⟩
abbrev cc13_stg0_0 : Ref sig .tc := ⟨.vmem, 65, rfl⟩
abbrev cc13_stg0_1 : Ref sig .tc := ⟨.vmem, 66, rfl⟩
abbrev cc13_stg1_0 : Ref sig .tc := ⟨.vmem, 67, rfl⟩
abbrev cc13_stg1_1 : Ref sig .tc := ⟨.vmem, 68, rfl⟩
abbrev cc13_stg2_0 : Ref sig .tc := ⟨.vmem, 69, rfl⟩
abbrev cc14_stg0_0 : Ref sig .tc := ⟨.vmem, 70, rfl⟩
abbrev cc14_stg0_1 : Ref sig .tc := ⟨.vmem, 71, rfl⟩
abbrev cc14_stg1_0 : Ref sig .tc := ⟨.vmem, 72, rfl⟩
abbrev cc14_stg1_1 : Ref sig .tc := ⟨.vmem, 73, rfl⟩
abbrev cc14_stg2_0 : Ref sig .tc := ⟨.vmem, 74, rfl⟩
abbrev cc15_stg0_0 : Ref sig .tc := ⟨.vmem, 75, rfl⟩
abbrev cc15_stg0_1 : Ref sig .tc := ⟨.vmem, 76, rfl⟩
abbrev cc15_stg1_0 : Ref sig .tc := ⟨.vmem, 77, rfl⟩
abbrev cc15_stg1_1 : Ref sig .tc := ⟨.vmem, 78, rfl⟩
abbrev cc15_stg2_0 : Ref sig .tc := ⟨.vmem, 79, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc7_sem0_0 : DmaSem sig := 35
abbrev cc7_sem0_1 : DmaSem sig := 36
abbrev cc7_sem1_0 : DmaSem sig := 37
abbrev cc7_sem1_1 : DmaSem sig := 38
abbrev cc7_sem2_0 : DmaSem sig := 39
abbrev cc8_sem0_0 : DmaSem sig := 40
abbrev cc8_sem0_1 : DmaSem sig := 41
abbrev cc8_sem1_0 : DmaSem sig := 42
abbrev cc8_sem1_1 : DmaSem sig := 43
abbrev cc8_sem2_0 : DmaSem sig := 44
abbrev cc9_sem0_0 : DmaSem sig := 45
abbrev cc9_sem0_1 : DmaSem sig := 46
abbrev cc9_sem1_0 : DmaSem sig := 47
abbrev cc9_sem1_1 : DmaSem sig := 48
abbrev cc9_sem2_0 : DmaSem sig := 49
abbrev cc10_sem0_0 : DmaSem sig := 50
abbrev cc10_sem0_1 : DmaSem sig := 51
abbrev cc10_sem1_0 : DmaSem sig := 52
abbrev cc10_sem1_1 : DmaSem sig := 53
abbrev cc10_sem2_0 : DmaSem sig := 54
abbrev cc11_sem0_0 : DmaSem sig := 55
abbrev cc11_sem0_1 : DmaSem sig := 56
abbrev cc11_sem1_0 : DmaSem sig := 57
abbrev cc11_sem1_1 : DmaSem sig := 58
abbrev cc11_sem2_0 : DmaSem sig := 59
abbrev cc12_sem0_0 : DmaSem sig := 60
abbrev cc12_sem0_1 : DmaSem sig := 61
abbrev cc12_sem1_0 : DmaSem sig := 62
abbrev cc12_sem1_1 : DmaSem sig := 63
abbrev cc12_sem2_0 : DmaSem sig := 64
abbrev cc13_sem0_0 : DmaSem sig := 65
abbrev cc13_sem0_1 : DmaSem sig := 66
abbrev cc13_sem1_0 : DmaSem sig := 67
abbrev cc13_sem1_1 : DmaSem sig := 68
abbrev cc13_sem2_0 : DmaSem sig := 69
abbrev cc14_sem0_0 : DmaSem sig := 70
abbrev cc14_sem0_1 : DmaSem sig := 71
abbrev cc14_sem1_0 : DmaSem sig := 72
abbrev cc14_sem1_1 : DmaSem sig := 73
abbrev cc14_sem2_0 : DmaSem sig := 74
abbrev cc15_sem0_0 : DmaSem sig := 75
abbrev cc15_sem0_1 : DmaSem sig := 76
abbrev cc15_sem1_0 : DmaSem sig := 77
abbrev cc15_sem1_1 : DmaSem sig := 78
abbrev cc15_sem2_0 : DmaSem sig := 79

abbrev nD : Nat := 1
abbrev τ : Topo := Topo.v7x

variable {F : FTy → Type} [FloatOps F]

abbrev grid0 : Pipeline.Grid := ⟨1, ![25000], ![false]⟩

abbrev pre0 : Pipeline.Prefetch sig := ⟨2, ![main_v5.idx, main_v6.idx], fun | 0 => main_v5.names | 1 => main_v6.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S25000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S25000.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![25000], ![false]⟩

abbrev pre1 : Pipeline.Prefetch sig := ⟨2, ![main_v10.idx, main_v11.idx], fun | 0 => main_v10.names | 1 => main_v11.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (k1_off1_inb : ∀ i : grid1.Coords, ∀ a, (k1_off1 i) a + S1.size a ≤ S25000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_1 (k1_off1_inb : ∀ i : grid1.Coords, ∀ a, (k1_off1 i) a + S1.size a ≤ S25000.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25000], ![false]⟩

abbrev pre2 : Pipeline.Prefetch sig := ⟨2, ![main_v15.idx, main_v16.idx], fun | 0 => main_v15.names | 1 => main_v16.names | ⟨_ + 2, h⟩ => absurd h (Nat.not_lt.2 (Nat.le_add_left _ _)), fun | 0 => rfl | 1 => rfl | ⟨_ + 2, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S25000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_1 (k2_off1_inb : ∀ i : grid2.Coords, ∀ a, (k2_off1 i) a + S1.size a ≤ S25000.size a) (numel1_S1 : S1.numel = 1) (pf : pre2.Contents (Elt F)) (i : grid2.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k2_off1_inb i)) numel1_S1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x1x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev grid3 : Pipeline.Grid := ⟨1, ![25000], ![false]⟩

abbrev pre3 : Pipeline.Prefetch sig := ⟨2, ![main_v20.idx, main_v21.idx], fun | 0 => main_v20.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def cc3_transform_0 (k3_off1_inb : ∀ i : grid3.Coords, ∀ a, (k3_off1 i) a + S1.size a ≤ S25000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_1 (k3_off1_inb : ∀ i : grid3.Coords, ∀ a, (k3_off1 i) a + S1.size a ≤ S25000.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S1x1x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1x1x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev grid4 : Pipeline.Grid := ⟨1, ![25000], ![false]⟩

abbrev pre4 : Pipeline.Prefetch sig := ⟨2, ![main_v25.idx, main_v26.idx], fun | 0 => main_v25.names | 1 => main_v26.names | ⟨_ + 2, h⟩ => absurd h (Nat.not_lt.2 (Nat.le_add_left _ _)), fun | 0 => rfl | 1 => rfl | ⟨_ + 2, h⟩ => absurd h (Nat.not_lt.2 (Nat.le_add_left _ _))⟩

def k4_off1 (i : grid4.Coords) : Fin 1 → Nat :=
  let arg0 : BitVec 32 := BitVec.ofNat 32 (i 0).val
  let v0 : Index := Scalar.indexCast arg0
  ![v0.toNat]
def cc4_transform_0 (k4_off1_inb : ∀ i : grid4.Coords, ∀ a, (k4_off1 i) a + S1.size a ≤ S25000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_1 (k4_off1_inb : ∀ i : grid4.Coords, ∀ a, (k4_off1 i) a + S1.size a ≤ S25000.size a) (numel1_S1 : S1.numel = 1) (pf : pre4.Contents (Elt F)) (i : grid4.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k4_off1_inb i)) numel1_S1
  let c0_i32 : BitVec 32 := 0#32
  let c0_i32_0 : BitVec 32 := 0#32
  let c0_i32_1 : BitVec 32 := 0#32
  ![v1.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S1x1x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![25000], ![false]⟩

abbrev pre5 : Pipeline.Prefetch sig := ⟨2, ![main_v30.idx, main_v31.idx], fun | 0 => main_v30.names | 1 => main_v31.names | ⟨_ + 2, h⟩ => absurd h (Nat.not_lt.2 (Nat.le_add_left _ _)), fun | 0 => rfl | 1 => rfl | ⟨_ + 2, h⟩ => absurd h (Nat.not_lt.2 (Nat.le_add_left _ _))⟩

def k5_off1 (i : grid5.Coords) : Fin 1 → Nat :=
  let arg0 : BitVec 32 := BitVec.ofNat 32 (i 0).val
  let v0 : Index := Scalar.indexCast arg0
  ![v0.toNat]
def cc5_transform_0 (k5_off1_inb : ∀ i : grid5.Coords, ∀ a, (k5_off1 i) a + S1.size a ≤ S25000.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_1 (k5_off1_inb : ∀ i : grid5.Coords, ∀ a, (k5_off1 i) a + S1.size a ≤ S25000.size a) (numel1_S1 : S1.numel = 1) (pf : pre5.Contents (Elt F)) (i : grid5.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k5_off1_inb i)) numel1_S1
  let c0_i32 : BitVec 32 := 0#32
  let c0_i32_0 : BitVec 32 := 0#32
  let c0_i32_1 : BitVec 32 := 0#32
  ![v1.toNat, c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S1x1x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S1x1x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev grid6 : Pipeline.Grid := ⟨1, ![25000], ![false]⟩

abbrev pre6 : Pipeline.Prefetch sig := ⟨2, ![main_v35.idx, main_v36.idx], fun | 0 => main_v35.names | 1 => main_v36.names | ⟨_ + 2, h⟩ => absurd h (Nat.not_lt.2 (Nat.le_add_left _ _)), fun | 0 => rfl | 1 => rfl | ⟨_ + 2, h⟩ => absurd h (Nat.not_lt.2 (Nat.le_add_left _ _))⟩

def k6_off1 (i : grid6.Coords) : Fin 1 → Nat :=
  let arg0 : BitVec 32 := BitVec.ofNat 32 (i 0).val
  let v0 : Index := Scalar.indexCast arg0
  ![v0.toNat]
def cc6_transform_0 (k6_off1_inb : ∀ i : grid6.Coords, ∀ a, (k6_off1 i) a + S1.size a ≤ S25000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_1 (k6_off1_inb : ∀ i : grid6.Coords, ∀ a, (k6_off1 i) a + S1.size a ≤ S25000.size a) (numel1_S1 : S1.numel = 1) (pf : pre6.Contents (Elt F)) (i : grid6.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k6_off1_inb i)) numel1_S1
  let c0_i32 : BitVec 32 := 0#32
  let c0_i32_0 : BitVec 32 := 0#32
  let c0_i32_1 : BitVec 32 := 0#32
  ![v1.toNat, c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S1x1x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S1x1x256 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![25000], ![false]⟩

abbrev pre7 : Pipeline.Prefetch sig := ⟨2, ![main_v40.idx, main_v41.idx], fun | 0 => main_v40.names | 1 => main_v41.names | ⟨_ + 2, h⟩ => absurd h (Nat.not_lt.2 (Nat.le_add_left _ _)), fun | 0 => rfl | 1 => rfl | ⟨_ + 2, h⟩ => absurd h (Nat.not_lt.2 (Nat.le_add_left _ _))⟩

def k7_off1 (i : grid7.Coords) : Fin 1 → Nat :=
  let arg0 : BitVec 32 := BitVec.ofNat 32 (i 0).val
  let v0 : Index := Scalar.indexCast arg0
  ![v0.toNat]
def cc7_transform_0 (k7_off1_inb : ∀ i : grid7.Coords, ∀ a, (k7_off1 i) a + S1.size a ≤ S25000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_1 (k7_off1_inb : ∀ i : grid7.Coords, ∀ a, (k7_off1 i) a + S1.size a ≤ S25000.size a) (numel1_S1 : S1.numel = 1) (pf : pre7.Contents (Elt F)) (i : grid7.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k7_off1_inb i)) numel1_S1
  let c0_i32 : BitVec 32 := 0#32
  let c0_i32_0 : BitVec 32 := 0#32
  let c0_i32_1 : BitVec 32 := 0#32
  ![v1.toNat, c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S1x1x256 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S1x1x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![25000], ![false]⟩

abbrev pre8 : Pipeline.Prefetch sig := ⟨2, ![main_v49.idx, main_v50.idx], fun | 0 => main_v49.names | 1 => main_v50.names | ⟨_ + 2, h⟩ => absurd h (Nat.not_lt.2 (Nat.le_add_left _ _)), fun | 0 => rfl | 1 => rfl | ⟨_ + 2, h⟩ => absurd h (Nat.not_lt.2 (Nat.le_add_left _ _))⟩

def k8_off1 (i : grid8.Coords) : Fin 1 → Nat :=
  let arg0 : BitVec 32 := BitVec.ofNat 32 (i 0).val
  let v0 : Index := Scalar.indexCast arg0
  ![v0.toNat]
def cc8_transform_0 (k8_off1_inb : ∀ i : grid8.Coords, ∀ a, (k8_off1 i) a + S1.size a ≤ S25000.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_1 (k8_off1_inb : ∀ i : grid8.Coords, ∀ a, (k8_off1 i) a + S1.size a ≤ S25000.size a) (numel1_S1 : S1.numel = 1) (pf : pre8.Contents (Elt F)) (i : grid8.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k8_off1_inb i)) numel1_S1
  let c0_i32 : BitVec 32 := 0#32
  let c0_i32_0 : BitVec 32 := 0#32
  let c0_i32_1 : BitVec 32 := 0#32
  ![v1.toNat, c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S1x1x256 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S1x1x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x1 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev grid9 : Pipeline.Grid := ⟨1, ![25000], ![false]⟩

abbrev pre9 : Pipeline.Prefetch sig := ⟨2, ![main_v54.idx, main_v55.idx], fun | 0 => main_v54.names | 1 => main_v55.names | ⟨_ + 2, h⟩ => absurd h (Nat.not_lt.2 (Nat.le_add_left _ _)), fun | 0 => rfl | 1 => rfl | ⟨_ + 2, h⟩ => absurd h (Nat.not_lt.2 (Nat.le_add_left _ _))⟩

def k9_off1 (i : grid9.Coords) : Fin 1 → Nat :=
  let arg0 : BitVec 32 := BitVec.ofNat 32 (i 0).val
  let v0 : Index := Scalar.indexCast arg0
  ![v0.toNat]
def cc9_transform_0 (k9_off1_inb : ∀ i : grid9.Coords, ∀ a, (k9_off1 i) a + S1.size a ≤ S25000.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_1 (k9_off1_inb : ∀ i : grid9.Coords, ∀ a, (k9_off1 i) a + S1.size a ≤ S25000.size a) (numel1_S1 : S1.numel = 1) (pf : pre9.Contents (Elt F)) (i : grid9.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k9_off1_inb i)) numel1_S1
  let c0_i32 : BitVec 32 := 0#32
  let c0_i32_0 : BitVec 32 := 0#32
  let c0_i32_1 : BitVec 32 := 0#32
  ![v1.toNat, c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S1x1x256 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S1x1x256 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x1 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev grid10 : Pipeline.Grid := ⟨1, ![25000], ![false]⟩

abbrev pre10 : Pipeline.Prefetch sig := ⟨2, ![main_v59.idx, main_v60.idx], fun | 0 => main_v59.names | 1 => main_v60.names | ⟨_ + 2, h⟩ => absurd h (Nat.not_lt.2 (Nat.le_add_left _ _)), fun | 0 => rfl | 1 => rfl | ⟨_ + 2, h⟩ => absurd h (Nat.not_lt.2 (Nat.le_add_left _ _))⟩

def k10_off1 (i : grid10.Coords) : Fin 1 → Nat :=
  let arg0 : BitVec 32 := BitVec.ofNat 32 (i 0).val
  let v0 : Index := Scalar.indexCast arg0
  ![v0.toNat]
def cc10_transform_0 (k10_off1_inb : ∀ i : grid10.Coords, ∀ a, (k10_off1 i) a + S1.size a ≤ S25000.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_1 (k10_off1_inb : ∀ i : grid10.Coords, ∀ a, (k10_off1 i) a + S1.size a ≤ S25000.size a) (numel1_S1 : S1.numel = 1) (pf : pre10.Contents (Elt F)) (i : grid10.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k10_off1_inb i)) numel1_S1
  let c0_i32 : BitVec 32 := 0#32
  let c0_i32_0 : BitVec 32 := 0#32
  let c0_i32_1 : BitVec 32 := 0#32
  ![v1.toNat, c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S1x1x256 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S1x1x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S1x1 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![25000], ![false]⟩

abbrev pre11 : Pipeline.Prefetch sig := ⟨2, ![main_v64.idx, main_v65.idx], fun | 0 => main_v64.names | 1 => main_v65.names | ⟨_ + 2, h⟩ => absurd h (Nat.not_lt.2 (Nat.le_add_left _ _)), fun | 0 => rfl | 1 => rfl | ⟨_ + 2, h⟩ => absurd h (Nat.not_lt.2 (Nat.le_add_left _ _))⟩

def k11_off1 (i : grid11.Coords) : Fin 1 → Nat :=
  let arg0 : BitVec 32 := BitVec.ofNat 32 (i 0).val
  let v0 : Index := Scalar.indexCast arg0
  ![v0.toNat]
def cc11_transform_0 (k11_off1_inb : ∀ i : grid11.Coords, ∀ a, (k11_off1 i) a + S1.size a ≤ S25000.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_1 (k11_off1_inb : ∀ i : grid11.Coords, ∀ a, (k11_off1 i) a + S1.size a ≤ S25000.size a) (numel1_S1 : S1.numel = 1) (pf : pre11.Contents (Elt F)) (i : grid11.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k11_off1_inb i)) numel1_S1
  let c0_i32 : BitVec 32 := 0#32
  let c0_i32_0 : BitVec 32 := 0#32
  let c0_i32_1 : BitVec 32 := 0#32
  ![v1.toNat, c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S1x1x256 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S1x1x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x1 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev grid12 : Pipeline.Grid := ⟨1, ![25000], ![false]⟩

abbrev pre12 : Pipeline.Prefetch sig := ⟨2, ![main_v69.idx, main_v70.idx], fun | 0 => main_v69.names | 1 => main_v70.names | ⟨_ + 2, h⟩ => absurd h (Nat.not_lt.2 (Nat.le_add_left _ _)), fun | 0 => rfl | 1 => rfl | ⟨_ + 2, h⟩ => absurd h (Nat.not_lt.2 (Nat.le_add_left _ _))⟩

def k12_off1 (i : grid12.Coords) : Fin 1 → Nat :=
  let arg0 : BitVec 32 := BitVec.ofNat 32 (i 0).val
  let v0 : Index := Scalar.indexCast arg0
  ![v0.toNat]
def cc12_transform_0 (k12_off1_inb : ∀ i : grid12.Coords, ∀ a, (k12_off1 i) a + S1.size a ≤ S25000.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_1 (k12_off1_inb : ∀ i : grid12.Coords, ∀ a, (k12_off1 i) a + S1.size a ≤ S25000.size a) (numel1_S1 : S1.numel = 1) (pf : pre12.Contents (Elt F)) (i : grid12.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k12_off1_inb i)) numel1_S1
  let c0_i32 : BitVec 32 := 0#32
  let c0_i32_0 : BitVec 32 := 0#32
  let c0_i32_1 : BitVec 32 := 0#32
  ![v1.toNat, c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S1x1x256 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S1x1x256 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S1x1 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev grid13 : Pipeline.Grid := ⟨1, ![25000], ![false]⟩

abbrev pre13 : Pipeline.Prefetch sig := ⟨2, ![main_v74.idx, main_v75.idx], fun | 0 => main_v74.names | 1 => main_v75.names | ⟨_ + 2, h⟩ => absurd h (Nat.not_lt.2 (Nat.le_add_left _ _)), fun | 0 => rfl | 1 => rfl | ⟨_ + 2, h⟩ => absurd h (Nat.not_lt.2 (Nat.le_add_left _ _))⟩

def k13_off1 (i : grid13.Coords) : Fin 1 → Nat :=
  let arg0 : BitVec 32 := BitVec.ofNat 32 (i 0).val
  let v0 : Index := Scalar.indexCast arg0
  ![v0.toNat]
def cc13_transform_0 (k13_off1_inb : ∀ i : grid13.Coords, ∀ a, (k13_off1 i) a + S1.size a ≤ S25000.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_1 (k13_off1_inb : ∀ i : grid13.Coords, ∀ a, (k13_off1 i) a + S1.size a ≤ S25000.size a) (numel1_S1 : S1.numel = 1) (pf : pre13.Contents (Elt F)) (i : grid13.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k13_off1_inb i)) numel1_S1
  let c0_i32 : BitVec 32 := 0#32
  let c0_i32_0 : BitVec 32 := 0#32
  let c0_i32_1 : BitVec 32 := 0#32
  ![v1.toNat, c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S1x1x256 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1x1x256 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S1x1 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev grid14 : Pipeline.Grid := ⟨1, ![25000], ![false]⟩

abbrev pre14 : Pipeline.Prefetch sig := ⟨2, ![main_v79.idx, main_v80.idx], fun | 0 => main_v79.names | 1 => main_v80.names | ⟨_ + 2, h⟩ => absurd h (Nat.not_lt.2 (Nat.le_add_left _ _)), fun | 0 => rfl | 1 => rfl | ⟨_ + 2, h⟩ => absurd h (Nat.not_lt.2 (Nat.le_add_left _ _))⟩

def k14_off1 (i : grid14.Coords) : Fin 1 → Nat :=
  let arg0 : BitVec 32 := BitVec.ofNat 32 (i 0).val
  let v0 : Index := Scalar.indexCast arg0
  ![v0.toNat]
def cc14_transform_0 (k14_off1_inb : ∀ i : grid14.Coords, ∀ a, (k14_off1 i) a + S1.size a ≤ S25000.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_1 (k14_off1_inb : ∀ i : grid14.Coords, ∀ a, (k14_off1 i) a + S1.size a ≤ S25000.size a) (numel1_S1 : S1.numel = 1) (pf : pre14.Contents (Elt F)) (i : grid14.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k14_off1_inb i)) numel1_S1
  let c0_i32 : BitVec 32 := 0#32
  let c0_i32_0 : BitVec 32 := 0#32
  let c0_i32_1 : BitVec 32 := 0#32
  ![v1.toNat, c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S1x1x256 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 2 → Memref sig .tc .vmem S1x1x256 .f32 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![true]

abbrev stage14_2 : Fin 1 → Memref sig .tc .vmem S1x1 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev grid15 : Pipeline.Grid := ⟨1, ![25000], ![false]⟩

abbrev pre15 : Pipeline.Prefetch sig := ⟨2, ![main_v84.idx, main_v85.idx], fun | 0 => main_v84.names | 1 => main_v85.names | ⟨_ + 2, h⟩ => absurd h (Nat.not_lt.2 (Nat.le_add_left _ _)), fun | 0 => rfl | 1 => rfl | ⟨_ + 2, h⟩ => absurd h (Nat.not_lt.2 (Nat.le_add_left _ _))⟩

def k15_off1 (i : grid15.Coords) : Fin 1 → Nat :=
  let arg0 : BitVec 32 := BitVec.ofNat 32 (i 0).val
  let v0 : Index := Scalar.indexCast arg0
  ![v0.toNat]
def cc15_transform_0 (k15_off1_inb : ∀ i : grid15.Coords, ∀ a, (k15_off1 i) a + S1.size a ≤ S25000.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 0 (Rect.unit (s := S25000) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_1 (k15_off1_inb : ∀ i : grid15.Coords, ∀ a, (k15_off1 i) a + S1.size a ≤ S25000.size a) (numel1_S1 : S1.numel = 1) (pf : pre15.Contents (Elt F)) (i : grid15.Coords) : Fin 3 → Nat :=
  let arg0 : BitVec 32 := BitVec.ofNat 32 (i 0).val
  let v0 : Index := Scalar.indexCast arg0
  let v1 : BitVec 32 := pf.at 1 (Rect.unit (s := S25000) ![v0.toNat] S1.size (k15_off1_inb i)) numel1_S1
  let c0_i32 : BitVec 32 := 0#32
  let c0_i32_0 : BitVec 32 := 0#32
  let c0_i32_1 : BitVec 32 := 0#32
  ![v1.toNat, c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage15_0 : Fin 2 → Memref sig .tc .vmem S1x1x256 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 2 → Memref sig .tc .vmem S1x1x256 .f32 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![true]

abbrev stage15_2 : Fin 1 → Memref sig .tc .vmem S1x1 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

class Facts₀ : Prop where
  shapeCasts_S100000x256_S100000x1x256 : S100000x256.ShapeCasts S100000x1x256
  slices_S200000x2_S200000x1_0_0 : S200000x2.Slices ![0, 0] S200000x1
  shapeCasts_S200000x1_S200000 : S200000x1.ShapeCasts S200000
  slices_S200000x2_S200000x1_0_1 : S200000x2.Slices ![0, 1] S200000x1
  slices_S200000_S25000_0 : S200000.Slices ![0] S25000
  numel1_S1 : S1.numel = 1
  inb_S1x1_S1x1_0_0 : ∀ a, (![0, 0] : Fin 2 → Nat) a + S1x1.size a ≤ S1x1.size a
  h_S1x1 : 0 < S1x1.numel
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  reduces_S1x256_S1 : S1x256.Reduces [1] S1
  shapeCasts_S1_S1x1 : S1.ShapeCasts S1x1
  shapeCasts_S1x1_S1x1 : S1x1.ShapeCasts S1x1
  shapeCasts_S1x1_S_ : S1x1.ShapeCasts S_
  slices_S200000_S25000_25000 : S200000.Slices ![25000] S25000
  slices_S200000_S25000_50000 : S200000.Slices ![50000] S25000
  slices_S200000_S25000_75000 : S200000.Slices ![75000] S25000
  slices_S200000_S25000_100000 : S200000.Slices ![100000] S25000
  slices_S200000_S25000_125000 : S200000.Slices ![125000] S25000
  slices_S200000_S25000_150000 : S200000.Slices ![150000] S25000
  slices_S200000_S25000_175000 : S200000.Slices ![175000] S25000
  hrank0 : 0 < grid0.rank
  k0_off1_inb : ∀ i : grid0.Coords, ∀ a, (k0_off1 i) a + S1.size a ≤ S25000.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  k1_off1_inb : ∀ i : grid1.Coords, ∀ a, (k1_off1 i) a + S1.size a ≤ S25000.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  k2_off1_inb : ∀ i : grid2.Coords, ∀ a, (k2_off1 i) a + S1.size a ≤ S25000.size a
  hstage2_0 : ∀ j, (stage2_0 j).IsWhole
  nbuf2_0 : grid2.bufCount reads2_0 false = 2
  hreads2_0 : ∀ {F : FTy → Type} [FloatOps F] (pf : pre2.Contents (Elt F)) (i i' : grid2.Coords), (∀ a, reads2_0 a = true → i a = i' a) → cc2_transform_0 k2_off1_inb numel1_S1 pf i = cc2_transform_0 k2_off1_inb numel1_S1 pf i'
  hstage2_1 : ∀ j, (stage2_1 j).IsWhole
  nbuf2_1 : grid2.bufCount reads2_1 false = 2
  hreads2_1 : ∀ {F : FTy → Type} [FloatOps F] (pf : pre2.Contents (Elt F)) (i i' : grid2.Coords), (∀ a, reads2_1 a = true → i a = i' a) → cc2_transform_1 k2_off1_inb numel1_S1 pf i = cc2_transform_1 k2_off1_inb numel1_S1 pf i'
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hrank3 : 0 < grid3.rank
  k3_off1_inb : ∀ i : grid3.Coords, ∀ a, (k3_off1 i) a + S1.size a ≤ S25000.size a
  hstage3_0 : ∀ j, (stage3_0 j).IsWhole
  nbuf3_0 : grid3.bufCount reads3_0 false = 2
  hreads3_0 : ∀ {F : FTy → Type} [FloatOps F] (pf : pre3.Contents (Elt F)) (i i' : grid3.Coords), (∀ a, reads3_0 a = true → i a = i' a) → cc3_transform_0 k3_off1_inb numel1_S1 pf i = cc3_transform_0 k3_off1_inb numel1_S1 pf i'
  hstage3_1 : ∀ j, (stage3_1 j).IsWhole
  nbuf3_1 : grid3.bufCount reads3_1 false = 2
  hreads3_1 : ∀ {F : FTy → Type} [FloatOps F] (pf : pre3.Contents (Elt F)) (i i' : grid3.Coords), (∀ a, reads3_1 a = true → i a = i' a) → cc3_transform_1 k3_off1_inb numel1_S1 pf i = cc3_transform_1 k3_off1_inb numel1_S1 pf i'
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x1.size a ≤ S1x1.size a
  hwx3_2 : ∀ i : grid3.Coords, EltTy.bits .f32 = 32 ∨ (Rect.block (s := S1x1) S1x1.size (cc3_transform_2 i) (hinb3_2 i)).WholeWords (EltTy.packing .f32)
  hrank4 : 0 < grid4.rank
  k4_off1_inb : ∀ i : grid4.Coords, ∀ a, (k4_off1 i) a + S1.size a ≤ S25000.size a
  hstage4_0 : ∀ j, (stage4_0 j).IsWhole
  nbuf4_0 : grid4.bufCount reads4_0 false = 2
  hreads4_0 : ∀ {F : FTy → Type} [FloatOps F] (pf : pre4.Contents (Elt F)) (i i' : grid4.Coords), (∀ a, reads4_0 a = true → i a = i' a) → cc4_transform_0 k4_off1_inb numel1_S1 pf i = cc4_transform_0 k4_off1_inb numel1_S1 pf i'
  hstage4_1 : ∀ j, (stage4_1 j).IsWhole
  nbuf4_1 : grid4.bufCount reads4_1 false = 2
  hreads4_1 : ∀ {F : FTy → Type} [FloatOps F] (pf : pre4.Contents (Elt F)) (i i' : grid4.Coords), (∀ a, reads4_1 a = true → i a = i' a) → cc4_transform_1 k4_off1_inb numel1_S1 pf i = cc4_transform_1 k4_off1_inb numel1_S1 pf i'
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hrank5 : 0 < grid5.rank
  k5_off1_inb : ∀ i : grid5.Coords, ∀ a, (k5_off1 i) a + S1.size a ≤ S25000.size a
  hstage5_0 : ∀ j, (stage5_0 j).IsWhole
  nbuf5_0 : grid5.bufCount reads5_0 false = 2
  hreads5_0 : ∀ {F : FTy → Type} [FloatOps F] (pf : pre5.Contents (Elt F)) (i i' : grid5.Coords), (∀ a, reads5_0 a = true → i a = i' a) → cc5_transform_0 k5_off1_inb numel1_S1 pf i = cc5_transform_0 k5_off1_inb numel1_S1 pf i'
  hstage5_1 : ∀ j, (stage5_1 j).IsWhole
  nbuf5_1 : grid5.bufCount reads5_1 false = 2
  hreads5_1 : ∀ {F : FTy → Type} [FloatOps F] (pf : pre5.Contents (Elt F)) (i i' : grid5.Coords), (∀ a, reads5_1 a = true → i a = i' a) → cc5_transform_1 k5_off1_inb numel1_S1 pf i = cc5_transform_1 k5_off1_inb numel1_S1 pf i'
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x1.size a ≤ S1x1.size a
  hwx5_2 : ∀ i : grid5.Coords, EltTy.bits .f32 = 32 ∨ (Rect.block (s := S1x1) S1x1.size (cc5_transform_2 i) (hinb5_2 i)).WholeWords (EltTy.packing .f32)
  hrank6 : 0 < grid6.rank
  k6_off1_inb : ∀ i : grid6.Coords, ∀ a, (k6_off1 i) a + S1.size a ≤ S25000.size a
  hstage6_0 : ∀ j, (stage6_0 j).IsWhole
  nbuf6_0 : grid6.bufCount reads6_0 false = 2
  hreads6_0 : ∀ {F : FTy → Type} [FloatOps F] (pf : pre6.Contents (Elt F)) (i i' : grid6.Coords), (∀ a, reads6_0 a = true → i a = i' a) → cc6_transform_0 k6_off1_inb numel1_S1 pf i = cc6_transform_0 k6_off1_inb numel1_S1 pf i'
  hstage6_1 : ∀ j, (stage6_1 j).IsWhole
  nbuf6_1 : grid6.bufCount reads6_1 false = 2
  hreads6_1 : ∀ {F : FTy → Type} [FloatOps F] (pf : pre6.Contents (Elt F)) (i i' : grid6.Coords), (∀ a, reads6_1 a = true → i a = i' a) → cc6_transform_1 k6_off1_inb numel1_S1 pf i = cc6_transform_1 k6_off1_inb numel1_S1 pf i'
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hrank7 : 0 < grid7.rank
  k7_off1_inb : ∀ i : grid7.Coords, ∀ a, (k7_off1 i) a + S1.size a ≤ S25000.size a
  hstage7_0 : ∀ j, (stage7_0 j).IsWhole
  nbuf7_0 : grid7.bufCount reads7_0 false = 2
  hreads7_0 : ∀ {F : FTy → Type} [FloatOps F] (pf : pre7.Contents (Elt F)) (i i' : grid7.Coords), (∀ a, reads7_0 a = true → i a = i' a) → cc7_transform_0 k7_off1_inb numel1_S1 pf i = cc7_transform_0 k7_off1_inb numel1_S1 pf i'
  hstage7_1 : ∀ j, (stage7_1 j).IsWhole
  nbuf7_1 : grid7.bufCount reads7_1 false = 2
  hreads7_1 : ∀ {F : FTy → Type} [FloatOps F] (pf : pre7.Contents (Elt F)) (i i' : grid7.Coords), (∀ a, reads7_1 a = true → i a = i' a) → cc7_transform_1 k7_off1_inb numel1_S1 pf i = cc7_transform_1 k7_off1_inb numel1_S1 pf i'
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hrank8 : 0 < grid8.rank
  k8_off1_inb : ∀ i : grid8.Coords, ∀ a, (k8_off1 i) a + S1.size a ≤ S25000.size a
  hstage8_0 : ∀ j, (stage8_0 j).IsWhole
  nbuf8_0 : grid8.bufCount reads8_0 false = 2
  hreads8_0 : ∀ {F : FTy → Type} [FloatOps F] (pf : pre8.Contents (Elt F)) (i i' : grid8.Coords), (∀ a, reads8_0 a = true → i a = i' a) → cc8_transform_0 k8_off1_inb numel1_S1 pf i = cc8_transform_0 k8_off1_inb numel1_S1 pf i'
  hstage8_1 : ∀ j, (stage8_1 j).IsWhole
  nbuf8_1 : grid8.bufCount reads8_1 false = 2
  hreads8_1 : ∀ {F : FTy → Type} [FloatOps F] (pf : pre8.Contents (Elt F)) (i i' : grid8.Coords), (∀ a, reads8_1 a = true → i a = i' a) → cc8_transform_1 k8_off1_inb numel1_S1 pf i = cc8_transform_1 k8_off1_inb numel1_S1 pf i'
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x1.size a ≤ S1x1.size a
  hwx8_2 : ∀ i : grid8.Coords, EltTy.bits .f32 = 32 ∨ (Rect.block (s := S1x1) S1x1.size (cc8_transform_2 i) (hinb8_2 i)).WholeWords (EltTy.packing .f32)
  hrank9 : 0 < grid9.rank
  k9_off1_inb : ∀ i : grid9.Coords, ∀ a, (k9_off1 i) a + S1.size a ≤ S25000.size a
  hstage9_0 : ∀ j, (stage9_0 j).IsWhole
  nbuf9_0 : grid9.bufCount reads9_0 false = 2
  hreads9_0 : ∀ {F : FTy → Type} [FloatOps F] (pf : pre9.Contents (Elt F)) (i i' : grid9.Coords), (∀ a, reads9_0 a = true → i a = i' a) → cc9_transform_0 k9_off1_inb numel1_S1 pf i = cc9_transform_0 k9_off1_inb numel1_S1 pf i'
  hstage9_1 : ∀ j, (stage9_1 j).IsWhole
  nbuf9_1 : grid9.bufCount reads9_1 false = 2
  hreads9_1 : ∀ {F : FTy → Type} [FloatOps F] (pf : pre9.Contents (Elt F)) (i i' : grid9.Coords), (∀ a, reads9_1 a = true → i a = i' a) → cc9_transform_1 k9_off1_inb numel1_S1 pf i = cc9_transform_1 k9_off1_inb numel1_S1 pf i'
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x1.size a ≤ S1x1.size a
  hwx9_2 : ∀ i : grid9.Coords, EltTy.bits .f32 = 32 ∨ (Rect.block (s := S1x1) S1x1.size (cc9_transform_2 i) (hinb9_2 i)).WholeWords (EltTy.packing .f32)
  hrank10 : 0 < grid10.rank
  k10_off1_inb : ∀ i : grid10.Coords, ∀ a, (k10_off1 i) a + S1.size a ≤ S25000.size a
  hstage10_0 : ∀ j, (stage10_0 j).IsWhole
  nbuf10_0 : grid10.bufCount reads10_0 false = 2
  hreads10_0 : ∀ {F : FTy → Type} [FloatOps F] (pf : pre10.Contents (Elt F)) (i i' : grid10.Coords), (∀ a, reads10_0 a = true → i a = i' a) → cc10_transform_0 k10_off1_inb numel1_S1 pf i = cc10_transform_0 k10_off1_inb numel1_S1 pf i'
  hstage10_1 : ∀ j, (stage10_1 j).IsWhole
  nbuf10_1 : grid10.bufCount reads10_1 false = 2
  hreads10_1 : ∀ {F : FTy → Type} [FloatOps F] (pf : pre10.Contents (Elt F)) (i i' : grid10.Coords), (∀ a, reads10_1 a = true → i a = i' a) → cc10_transform_1 k10_off1_inb numel1_S1 pf i = cc10_transform_1 k10_off1_inb numel1_S1 pf i'
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x1.size a ≤ S1x1.size a
  hwx10_2 : ∀ i : grid10.Coords, EltTy.bits .f32 = 32 ∨ (Rect.block (s := S1x1) S1x1.size (cc10_transform_2 i) (hinb10_2 i)).WholeWords (EltTy.packing .f32)
  hrank11 : 0 < grid11.rank
  k11_off1_inb : ∀ i : grid11.Coords, ∀ a, (k11_off1 i) a + S1.size a ≤ S25000.size a
  hstage11_0 : ∀ j, (stage11_0 j).IsWhole
  nbuf11_0 : grid11.bufCount reads11_0 false = 2
  hreads11_0 : ∀ {F : FTy → Type} [FloatOps F] (pf : pre11.Contents (Elt F)) (i i' : grid11.Coords), (∀ a, reads11_0 a = true → i a = i' a) → cc11_transform_0 k11_off1_inb numel1_S1 pf i = cc11_transform_0 k11_off1_inb numel1_S1 pf i'
  hstage11_1 : ∀ j, (stage11_1 j).IsWhole
  nbuf11_1 : grid11.bufCount reads11_1 false = 2
  hreads11_1 : ∀ {F : FTy → Type} [FloatOps F] (pf : pre11.Contents (Elt F)) (i i' : grid11.Coords), (∀ a, reads11_1 a = true → i a = i' a) → cc11_transform_1 k11_off1_inb numel1_S1 pf i = cc11_transform_1 k11_off1_inb numel1_S1 pf i'
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x1.size a ≤ S1x1.size a
  hwx11_2 : ∀ i : grid11.Coords, EltTy.bits .f32 = 32 ∨ (Rect.block (s := S1x1) S1x1.size (cc11_transform_2 i) (hinb11_2 i)).WholeWords (EltTy.packing .f32)
  hrank12 : 0 < grid12.rank
  k12_off1_inb : ∀ i : grid12.Coords, ∀ a, (k12_off1 i) a + S1.size a ≤ S25000.size a
  hstage12_0 : ∀ j, (stage12_0 j).IsWhole
  nbuf12_0 : grid12.bufCount reads12_0 false = 2
  hreads12_0 : ∀ {F : FTy → Type} [FloatOps F] (pf : pre12.Contents (Elt F)) (i i' : grid12.Coords), (∀ a, reads12_0 a = true → i a = i' a) → cc12_transform_0 k12_off1_inb numel1_S1 pf i = cc12_transform_0 k12_off1_inb numel1_S1 pf i'
  hstage12_1 : ∀ j, (stage12_1 j).IsWhole
  nbuf12_1 : grid12.bufCount reads12_1 false = 2
  hreads12_1 : ∀ {F : FTy → Type} [FloatOps F] (pf : pre12.Contents (Elt F)) (i i' : grid12.Coords), (∀ a, reads12_1 a = true → i a = i' a) → cc12_transform_1 k12_off1_inb numel1_S1 pf i = cc12_transform_1 k12_off1_inb numel1_S1 pf i'
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x1.size a ≤ S1x1.size a
  hwx12_2 : ∀ i : grid12.Coords, EltTy.bits .f32 = 32 ∨ (Rect.block (s := S1x1) S1x1.size (cc12_transform_2 i) (hinb12_2 i)).WholeWords (EltTy.packing .f32)
  hrank13 : 0 < grid13.rank
  k13_off1_inb : ∀ i : grid13.Coords, ∀ a, (k13_off1 i) a + S1.size a ≤ S25000.size a
  hstage13_0 : ∀ j, (stage13_0 j).IsWhole
  nbuf13_0 : grid13.bufCount reads13_0 false = 2
  hreads13_0 : ∀ {F : FTy → Type} [FloatOps F] (pf : pre13.Contents (Elt F)) (i i' : grid13.Coords), (∀ a, reads13_0 a = true → i a = i' a) → cc13_transform_0 k13_off1_inb numel1_S1 pf i = cc13_transform_0 k13_off1_inb numel1_S1 pf i'
  hstage13_1 : ∀ j, (stage13_1 j).IsWhole
  nbuf13_1 : grid13.bufCount reads13_1 false = 2
  hreads13_1 : ∀ {F : FTy → Type} [FloatOps F] (pf : pre13.Contents (Elt F)) (i i' : grid13.Coords), (∀ a, reads13_1 a = true → i a = i' a) → cc13_transform_1 k13_off1_inb numel1_S1 pf i = cc13_transform_1 k13_off1_inb numel1_S1 pf i'
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x1.size a ≤ S1x1.size a
  hwx13_2 : ∀ i : grid13.Coords, EltTy.bits .f32 = 32 ∨ (Rect.block (s := S1x1) S1x1.size (cc13_transform_2 i) (hinb13_2 i)).WholeWords (EltTy.packing .f32)
  hrank14 : 0 < grid14.rank
  k14_off1_inb : ∀ i : grid14.Coords, ∀ a, (k14_off1 i) a + S1.size a ≤ S25000.size a
  hstage14_0 : ∀ j, (stage14_0 j).IsWhole
  nbuf14_0 : grid14.bufCount reads14_0 false = 2
  hreads14_0 : ∀ {F : FTy → Type} [FloatOps F] (pf : pre14.Contents (Elt F)) (i i' : grid14.Coords), (∀ a, reads14_0 a = true → i a = i' a) → cc14_transform_0 k14_off1_inb numel1_S1 pf i = cc14_transform_0 k14_off1_inb numel1_S1 pf i'
  hstage14_1 : ∀ j, (stage14_1 j).IsWhole
  nbuf14_1 : grid14.bufCount reads14_1 false = 2
  hreads14_1 : ∀ {F : FTy → Type} [FloatOps F] (pf : pre14.Contents (Elt F)) (i i' : grid14.Coords), (∀ a, reads14_1 a = true → i a = i' a) → cc14_transform_1 k14_off1_inb numel1_S1 pf i = cc14_transform_1 k14_off1_inb numel1_S1 pf i'
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x1.size a ≤ S1x1.size a
  hwx14_2 : ∀ i : grid14.Coords, EltTy.bits .f32 = 32 ∨ (Rect.block (s := S1x1) S1x1.size (cc14_transform_2 i) (hinb14_2 i)).WholeWords (EltTy.packing .f32)
  hrank15 : 0 < grid15.rank
  k15_off1_inb : ∀ i : grid15.Coords, ∀ a, (k15_off1 i) a + S1.size a ≤ S25000.size a
  hstage15_0 : ∀ j, (stage15_0 j).IsWhole
  nbuf15_0 : grid15.bufCount reads15_0 false = 2
  hreads15_0 : ∀ {F : FTy → Type} [FloatOps F] (pf : pre15.Contents (Elt F)) (i i' : grid15.Coords), (∀ a, reads15_0 a = true → i a = i' a) → cc15_transform_0 k15_off1_inb numel1_S1 pf i = cc15_transform_0 k15_off1_inb numel1_S1 pf i'
  hstage15_1 : ∀ j, (stage15_1 j).IsWhole
  nbuf15_1 : grid15.bufCount reads15_1 false = 2
  hreads15_1 : ∀ {F : FTy → Type} [FloatOps F] (pf : pre15.Contents (Elt F)) (i i' : grid15.Coords), (∀ a, reads15_1 a = true → i a = i' a) → cc15_transform_1 k15_off1_inb numel1_S1 pf i = cc15_transform_1 k15_off1_inb numel1_S1 pf i'
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x1.size a ≤ S1x1.size a
  hwx15_2 : ∀ i : grid15.Coords, EltTy.bits .f32 = 32 ∨ (Rect.block (s := S1x1) S1x1.size (cc15_transform_2 i) (hinb15_2 i)).WholeWords (EltTy.packing .f32)

variable [Facts₀]

abbrev spec0_0 : Pipeline.WinSpec sig grid0.rank :=
  Pipeline.WinSpec.ofSpec (Memref.whole main_v0) S1x1x256.size reads0_0 false false 2 stage0_0 sem0_0 nbuf0_0 hstage0_0

abbrev spec0_1 : Pipeline.WinSpec sig grid0.rank :=
  Pipeline.WinSpec.ofSpec (Memref.whole main_v0) S1x1x256.size reads0_1 false false 2 stage0_1 sem0_1 nbuf0_1 hstage0_1

abbrev spec0_2 : Pipeline.WinSpec sig grid0.rank :=
  Pipeline.WinSpec.ofSpec (Memref.whole main_v7) S1x1.size reads0_2 true true 1 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x256.size a ≤ S100000x1x256.size a), EltTy.bits .f32 = 32 ∨ (Rect.block (s := S100000x1x256) S1x1x256.size (cc0_transform_0 k0_off1_inb numel1_S1 pf i) h).WholeWords (EltTy.packing .f32)) ∧
  (∀ i : grid0.Coords, ∃ h : (∀ a, (cc0_transform_1 k0_off1_inb numel1_S1 pf i a + 1) * S1x1x256.size a ≤ S100000x1x256.size a), EltTy.bits .f32 = 32 ∨ (Rect.block (s := S100000x1x256) S1x1x256.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))
abbrev spec1_0 : Pipeline.WinSpec sig grid1.rank :=
  Pipeline.WinSpec.ofSpec (Memref.whole main_v0) S1x1x256.size reads1_0 false false 2 stage1_0 sem1_0 nbuf1_0 hstage1_0

abbrev spec1_1 : Pipeline.WinSpec sig grid1.rank :=
  Pipeline.WinSpec.ofSpec (Memref.whole main_v0) S1x1x256.size reads1_1 false false 2 stage1_1 sem1_1 nbuf1_1 hstage1_1

abbrev spec1_2 : Pipeline.WinSpec sig grid1.rank :=
  Pipeline.WinSpec.ofSpec (Memref.whole main_v12) S1x1.size reads1_2 true true 1 stage1_2 sem1_2 nbuf1_2 hstage1_2

abbrev spec1 : Fin 3 → Pipeline.WinSpec sig grid1.rank := fun | 0 => spec1_0 | 1 => spec1_1 | 2 => spec1_2 | ⟨_ + 3, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | ⟨_ + 3, h⟩ => absurd h (Nat.not_lt.2 (Nat.le_add_left _ _))
abbrev ix1 (pf : pre1.Contents (Elt F)) : (w : Fin 3) → grid1.Coords → Fin (spec1 w).shape.rank → Nat := fun | 0 => cc1_transform_0 k1_off1_inb numel1_S1 pf | 1 => cc1_transform_1 k1_off1_inb numel1_S1 pf | 2 => cc1_transform_2 | ⟨_ + 3, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 | ⟨_ + 3, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x1x256.size a ≤ S100000x1x256.size a), EltTy.bits .f32 = 32 ∨ (Rect.block (s := S100000x1x256) S1x1x256.size (cc1_transform_0 k1_off1_inb numel1_S1 pf i) h).WholeWords (EltTy.packing .f32)) ∧
  (∀ i : grid1.Coords, ∃ h : (∀ a, (cc1_transform_1 k1_off1_inb numel1_S1 pf i a + 1) * S1x1x256.size a ≤ S100000x1x256.size a), EltTy.bits .f32 = 32 ∨ (Rect.block (s := S100000x1x256) S1x1x256.size (cc1_transform_1 k1_off1_inb numel1_S1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2 i).elim fun h _ => h a | 2 => hinb1_2 | ⟨_ + 3, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2 i).elim fun _ h => h | 2 => hwx1_2 | ⟨_ + 3, h⟩ => absurd h (Nat.not_lt.2 (Nat.le_add_left _ _))
abbrev spec2_0 : Pipeline.WinSpec sig grid2.rank :=
  Pipeline.WinSpec.ofSpec (Memref.whole main_v0) S1x1x256.size reads2_0 false false 2 stage2_0 sem2_0 nbuf2_0 hstage2_0

abbrev spec2_1 : Pipeline.WinSpec sig grid2.rank :=
  Pipeline.WinSpec.ofSpec (Memref.whole main_v0) S1x1x256.size reads2_1 false false 2 stage2_1 sem2_1 nbuf2_1 hstage2_1

abbrev spec2_2 : Pipeline.WinSpec sig grid2.rank :=
  Pipeline.WinSpec.ofSpec (Memref.whole main_v17) S1x1.size reads2_2 true true 1 stage2_2 sem2_2 nbuf2_2 hstage2_2

abbrev spec2 : Fin 3 → Pipeline.WinSpec sig grid2.rank := fun | 0 => spec2_0 | 1 => spec2_1 | 2 => spec2_2 | ⟨_ + 3, h⟩ => absurd h (Nat.not_lt.2 (Nat.le_add_left _ _))
theorem hcount2 : ∀ w, grid2.bufCount (spec2 w).reads (spec2 w).sync = (spec2 w).nbuf := fun | 0 => nbuf2_0 | 1 => nbuf2_1 | 2 => nbuf2_2 | ⟨_ + 3, h⟩ => absurd h (Nat.not_lt.2 (Nat.le_add_left _ _))
abbrev ix2 (pf : pre2.Contents (Elt F)) : (w : Fin 3) → grid2.Coords → Fin (spec2 w).shape.rank → Nat := fun | 0 => cc2_transform_0 k2_off1_inb numel1_S1 pf | 1 => cc2_transform_1 k2_off1_inb numel1_S1 pf | 2 => cc2_transform_2 | ⟨_ + 3, h⟩ => absurd h (Nat.not_lt.2 (Nat.le_add_left _ _))
theorem hreads2 : ∀ (pf : pre2.Contents (Elt F)) w (i i' : grid2.Coords), (∀ a, (spec2 w).reads a = true → i a = i' a) → ix2 pf w i = ix2 pf w i' := fun pf => fun | 0 => hreads2_0 pf | 1 => hreads2_1 pf | 2 => hreads2_2 | ⟨_ + 3, h⟩ => absurd h (Nat.not_lt.2 (Nat.le_add_left _ _))
def ok2 (pf : pre2.Contents (Elt F)) : Prop :=
  (∀ i : grid2.Coords, ∃ h : (∀ a, (cc2_transform_0 k2_off1_inb numel1_S1 pf i a + 1) * S1x1x256.size a ≤ S100000x1x256.size a), EltTy.bits .f32 = 32 ∨ (Rect.block (s := S100000x1x256) S1x1x256.size (cc2_transform_0 k2_off1_inb numel1_S1 pf i) h).WholeWords (EltTy.packing .f32)) ∧
  (∀ i : grid2.Coords, ∃ h : (∀ a, (cc2_transform_1 k2_off1_inb numel1_S1 pf i a + 1) * S1x1x256.size a ≤ S100000x1x256.size a), EltTy.bits .f32 = 32 ∨ (Rect.block (s := S100000x1x256) S1x1x256.size (cc2_transform_1 k2_off1_inb numel1_S1 pf i) h).WholeWords (EltTy.packing .f32))
instance (pf : pre2.Contents (Elt F)) : Decidable (ok2 pf) := decidable_of_iff' _ (Iff.of_eq (ok2.eq_1 pf))
theorem hinb2 : ∀ (pf : pre2.Contents (Elt F)), ok2 pf → ∀ w (i : grid2.Coords) a, (ix2 pf w i a + 1) * (spec2 w).size a ≤ (spec2 w).shape.size a :=
  fun pf hok => fun | 0 => fun i a => (hok.1 i).elim fun h _ => h a | 1 => fun i a => (hok.2 i).elim fun h _ => h a | 2 => hinb2_2 | ⟨_ + 3, h⟩ => absurd h (Nat.not_lt.2 (Nat.le_add_left _ _))
theorem hwx2 : ∀ (pf : pre2.Contents (Elt F)) (hok : ok2 pf) w (i : grid2.Coords), (spec2 w).elt.bits = 32 ∨ (Rect.block (spec2 w).size (ix2 pf w i) (hinb2 pf hok w i)).WholeWords (spec2 w).elt.packing :=
  fun pf hok => fun | 0 => fun i => (hok.1 i).elim fun _ h => h | 1 => fun i => (hok.2 i).elim fun _ h => h | 2 => hwx2_2 | ⟨_ + 3, h⟩ => absurd h (Nat.not_lt.2 (Nat.le_add_left _ _))
abbrev spec3_0 : Pipeline.WinSpec sig grid3.rank :=
  Pipeline.WinSpec.ofSpec (Memref.whole main_v0) S1x1x256.size reads3_0 false false 2 stage3_0 sem3_0 nbuf3_0 hstage3_0

abbrev spec3_1 : Pipeline.WinSpec sig grid3.rank :=
  Pipeline.WinSpec.ofSpec (Memref.whole main_v0) S1x1x256.size reads3_1 false false 2 stage3_1 sem3_1 nbuf3_1 hstage3_1

abbrev spec3_2 : Pipeline.WinSpec sig grid3.rank :=
  Pipeline.WinSpec.ofSpec (Memref.whole main_v22) S1x1.size reads3_2 true true 1 stage3_2 sem3_2 nbuf3_2 hstage3_2

abbrev spec3 : Fin 3 → Pipeline.WinSpec sig grid3.rank := fun | 0 => spec3_0 | 1 => spec3_1 | 2 => spec3_2 | ⟨_ + 3, h⟩ => absurd h (Nat.not_lt.2 (Nat.le_add_left _ _))
theorem hcount3 : ∀ w, grid3.bufCount (spec3 w).reads (spec3 w).sync = (spec3 w).nbuf := fun | 0 => nbuf3_0 | 1 => nbuf3_1 | 2 => nbuf3_2 | ⟨_ + 3, h⟩ => absurd h (Nat.not_lt.2 (Nat.le_add_left _ _))
abbrev ix3 (pf : pre3.Contents (Elt F)) : (w : Fin 3) → grid3.Coords → Fin (spec3 w).shape.rank → Nat := fun | 0 => cc3_transform_0 k3_off1_inb numel1_S1 pf | 1 => cc3_transform_1 k3_off1_inb numel1_S1 pf | 2 => cc3_transform_2 | ⟨_ + 3, h⟩ => absurd h (Nat.not_lt.2 (Nat.le_add_left _ _))
theorem hreads3 : ∀ (pf : pre3.Contents (Elt F)) w (i i' : grid3.Coords), (∀ a, (spec3 w).reads a = true → i a = i' a) → ix3 pf w i = ix3 pf w i' := fun pf => fun | 0 => hreads3_0 pf | 1 => hreads3_1 pf | 2 => hreads3_2 | ⟨_ + 3, h⟩ => absurd h (Nat.not_lt.2 (Nat.le_add_left _ _))
def ok3 (pf : pre3.Contents (Elt F)) : Prop :=
  (∀ i : grid3.Coords, ∃ h : (∀ a, (cc3_transform_0 k3_off1_inb numel1_S1 pf i a + 1) * S1x1x256.size a ≤ S100000x1x256.size a), EltTy.bits .f32 = 32 ∨ (Rect.block (s := S100000x1x256) S1x1x256.size (cc3_transform_0 k3_off1_inb numel1_S1 pf i) h).WholeWords (EltTy.packing .f32)) ∧
  (∀ i : grid3.Coords, ∃ h : (∀ a, (cc3_transform_1 k3_off1_inb numel1_S1 pf i a + 1) * S1x1x256.size a ≤ S100000x1x256.size a), EltTy.bits .f32 = 32 ∨ (Rect.block (s := S100000x1x256) S1x1x256.size (cc3_transform_1 k3_off1_inb numel1_S1 pf i) h).WholeWords (EltTy.packing .f32))
instance (pf : pre3.Contents (Elt F)) : Decidable (ok3 pf) := decidable_of_iff' _ (Iff.of_eq (ok3.eq_1 pf))
theorem hinb3 : ∀ (pf : pre3.Contents (Elt F)), ok3 pf → ∀ w (i : grid3.Coords) a, (ix3 pf w i a + 1) * (spec3 w).size a ≤ (spec3 w).shape.size a :=
  fun pf hok => fun | 0 => fun i a => (hok.1 i).elim fun h _ => h a | 1 => fun i a => (hok.2 i).elim fun h _ => h a | 2 => hinb3_2 | ⟨_ + 3, h⟩ => absurd h (Nat.not_lt.2 (Nat.le_add_left _ _))
theorem hwx3 : ∀ (pf : pre3.Contents (Elt F)) (hok : ok3 pf) w (i : grid3.Coords), (spec3 w).elt.bits = 32 ∨ (Rect.block (spec3 w).size (ix3 pf w i) (hinb3 pf hok w i)).WholeWords (spec3 w).elt.packing :=
  fun pf hok => fun | 0 => fun i => (hok.1 i).elim fun _ h => h | 1 => fun i => (hok.2 i).elim fun _ h => h | 2 => hwx3_2 | ⟨_ + 3, h⟩ => absurd h (Nat.not_lt.2 (Nat.le_add_left _ _))
abbrev spec4_0 : Pipeline.WinSpec sig grid4.rank :=
  Pipeline.WinSpec.ofSpec (Memref.whole main_v0) S1x1x256.size reads4_0 false false 2 stage4_0 sem4_0 nbuf4_0 hstage4_0

abbrev spec4_1 : Pipeline.WinSpec sig grid4.rank :=
  Pipeline.WinSpec.ofSpec (Memref.whole main_v0) S1x1x256.size reads4_1 false false 2 stage4_1 sem4_1 nbuf4_1 hstage4_1

abbrev spec4_2 : Pipeline.WinSpec sig grid4.rank :=
  Pipeline.WinSpec.ofSpec (Memref.whole main_v27) S1x1.size reads4_2 true true 1 stage4_2 sem4_2 nbuf4_2 hstage4_2

abbrev spec4 : Fin 3 → Pipeline.WinSpec sig grid4.rank := fun | 0 => spec4_0 | 1 => spec4_1 | 2 => spec4_2 | ⟨_ + 3, h⟩ => absurd h (Nat.not_lt.2 (Nat.le_add_left _ _))
theorem hcount4 : ∀ w, grid4.bufCount (spec4 w).reads (spec4 w).sync = (spec4 w).nbuf := fun | 0 => nbuf4_0 | 1 => nbuf4_1 | 2 => nbuf4_2 | ⟨_ + 3, h⟩ => absurd h (Nat.not_lt.2 (Nat.le_add_left _ _))
abbrev ix4 (pf : pre4.Contents (Elt F)) : (w : Fin 3) → grid4.Coords → Fin (spec4 w).shape.rank → Nat := fun | 0 => cc4_transform_0 k4_off1_inb numel1_S1 pf | 1 => cc4_transform_1 k4_off1_inb numel1_S1 pf | 2 => cc4_transform_2 | ⟨_ + 3, h⟩ => absurd h (Nat.not_lt.2 (Nat.le_add_left _ _))
theorem hreads4 : ∀ (pf : pre4.Contents (Elt F)) w (i i' : grid4.Coords), (∀ a, (spec4 w).reads a = true → i a = i' a) → ix4 pf w i = ix4 pf w i' := fun pf => fun | 0 => hreads4_0 pf | 1 => hreads4_1 pf | 2 => hreads4_2 | ⟨_ + 3, h⟩ => absurd h (Nat.not_lt.2 (Nat.le_add_left _ _))
def ok4 (pf : pre4.Contents (Elt F)) : Prop :=
  (∀ i : grid4.Coords, ∃ h : (∀ a, (cc4_transform_0 k4_off1_inb numel1_S1 pf i a + 1) * S1x1x256.size a ≤ S100000x1x256.size a), EltTy.bits .f32 = 32 ∨ (Rect.block (s := S100000x1x256) S1x1x256.size (cc4_transform_0 k4_off1_inb numel1_S1 pf i) h).WholeWords (EltTy.packing .f32)) ∧
  (∀ i : grid4.Coords, ∃ h : (∀ a, (cc4_transform_1 k4_off1_inb numel1_S1 pf i a + 1) * S1x1x256.size a ≤ S100000x1x256.size a), EltTy.bits .f32 = 32 ∨ (Rect.block (s := S100000x1x256) S1x1x256.size (cc4_transform_1 k4_off1_inb numel1_S1 pf i) h).WholeWords (EltTy.packing .f32))
instance (pf : pre4.Contents (Elt F)) : Decidable (ok4 pf) := decidable_of_iff' _ (Iff.of_eq (ok4.eq_1 pf))
theorem hinb4 : ∀ (pf : pre4.Contents (Elt F)), ok4 pf → ∀ w (i : grid4.Coords) a, (ix4 pf w i a + 1) * (spec4 w).size a ≤ (spec4 w).shape.size a :=
  fun pf hok => fun | 0 => fun i a => (hok.1 i).elim fun h _ => h a | 1 => fun i a => (hok.2 i).elim fun h _ => h a | 2 => hinb4_2 | ⟨_ + 3, h⟩ => absurd h (Nat.not_lt.2 (Nat.le_add_left _ _))
theorem hwx4 : ∀ (pf : pre4.Contents (Elt F)) (hok : ok4 pf) w (i : grid4.Coords), (spec4 w).elt.bits = 32 ∨ (Rect.block (spec4 w).size (ix4 pf w i) (hinb4 pf hok w i)).WholeWords (spec4 w).elt.packing :=
  fun pf hok => fun | 0 => fun i => (hok.1 i).elim fun _ h => h | 1 => fun i => (hok.2 i).elim fun _ h => h | 2 => hwx4_2 | ⟨_ + 3, h⟩ => absurd h (Nat.not_lt.2 (Nat.le_add_left _ _))
abbrev spec5_0 : Pipeline.WinSpec sig grid5.rank :=
  Pipeline.WinSpec.ofSpec (Memref.whole main_v0) S1x1x256.size reads5_0 false false 2 stage5_0 sem5_0 nbuf5_0 hstage5_0

abbrev spec5_1 : Pipeline.WinSpec sig grid5.rank :=
  Pipeline.WinSpec.ofSpec (Memref.whole main_v0) S1x1x256.size reads5_1 false false 2 stage5_1 sem5_1 nbuf5_1 hstage5_1

abbrev spec5_2 : Pipeline.WinSpec sig grid5.rank :=
  Pipeline.WinSpec.ofSpec (Memref.whole main_v32) S1x1.size reads5_2 true true 1 stage5_2 sem5_2 nbuf5_2 hstage5_2

abbrev spec5 : Fin 3 → Pipeline.WinSpec sig grid5.rank := fun | 0 => spec5_0 | 1 => spec5_1 | 2 => spec5_2 | ⟨_ + 3, h⟩ => absurd h (Nat.not_lt.2 (Nat.le_add_left _ _))
theorem hcount5 : ∀ w, grid5.bufCount (spec5 w).reads (spec5 w).sync = (spec5 w).nbuf := fun | 0 => nbuf5_0 | 1 => nbuf5_1 | 2 => nbuf5_2 | ⟨_ + 3, h⟩ => absurd h (Nat.not_lt.2 (Nat.le_add_left _ _))
abbrev ix5 (pf : pre5.Contents (Elt F)) : (w : Fin 3) → grid5.Coords → Fin (spec5 w).shape.rank → Nat := fun | 0 => cc5_transform_0 k5_off1_inb numel1_S1 pf | 1 => cc5_transform_1 k5_off1_inb numel1_S1 pf | 2 => cc5_transform_2 | ⟨_ + 3, h⟩ => absurd h (Nat.not_lt.2 (Nat.le_add_left _ _))
theorem hreads5 : ∀ (pf : pre5.Contents (Elt F)) w (i i' : grid5.Coords), (∀ a, (spec5 w).reads a = true → i a = i' a) → ix5 pf w i = ix5 pf w i' := fun pf => fun | 0 => hreads5_0 pf | 1 => hreads5_1 pf | 2 => hreads5_2 | ⟨_ + 3, h⟩ => absurd h (Nat.not_lt.2 (Nat.le_add_left _ _))
def ok5 (pf : pre5.Contents (Elt F)) : Prop :=
  (∀ i : grid5.Coords, ∃ h : (∀ a, (cc5_transform_0 k5_off1_inb numel1_S1 pf i a + 1) * S1x1x256.size a ≤ S100000x1x256.size a), EltTy.bits .f32 = 32 ∨ (Rect.block (s := S100000x1x256) S1x1x256.size (cc5_transform_0 k5_off1_inb numel1_S1 pf i) h).WholeWords (EltTy.packing .f32)) ∧
  (∀ i : grid5.Coords, ∃ h : (∀ a, (cc5_transform_1 k5_off1_inb numel1_S1 pf i a + 1) * S1x1x256.size a ≤ S100000x1x256.size a), EltTy.bits .f32 = 32 ∨ (Rect.block (s := S100000x1x256) S1x1x256.size (cc5_transform_1 k5_off1_inb numel1_S1 pf i) h).WholeWords (EltTy.packing .f32))
instance (pf : pre5.Contents (Elt F)) : Decidable (ok5 pf) := decidable_of_iff' _ (Iff.of_eq (ok5.eq_1 pf))
theorem hinb5 : ∀ (pf : pre5.Contents (Elt F)), ok5 pf → ∀ w (i : grid5.Coords) a, (ix5 pf w i a + 1) * (spec5 w).size a ≤ (spec5 w).shape.size a :=
  fun pf hok => fun | 0 => fun i a => (hok.1 i).elim fun h _ => h a | 1 => fun i a => (hok.2 i).elim fun h _ => h a | 2 => hinb5_2 | ⟨_ + 3, h⟩ => absurd h (Nat.not_lt.2 (Nat.le_add_left _ _))
theorem hwx5 : ∀ (pf : pre5.Contents (Elt F)) (hok : ok5 pf) w (i : grid5.Coords), (spec5 w).elt.bits = 32 ∨ (Rect.block (spec5 w).size (ix5 pf w i) (hinb5 pf hok w i)).WholeWords (spec5 w).elt.packing :=
  fun pf hok => fun | 0 => fun i => (hok.1 i).elim fun _ h => h | 1 => fun i => (hok.2 i).elim fun _ h => h | 2 => hwx5_2 | ⟨_ + 3, h⟩ => absurd h (Nat.not_lt.2 (Nat.le_add_left _ _))
abbrev spec6_0 : Pipeline.WinSpec sig grid6.rank :=
  Pipeline.WinSpec.ofSpec (Memref.whole main_v0) S1x1x256.size reads6_0 false false 2 stage6_0 sem6_0 nbuf6_0 hstage6_0

abbrev spec6_1 : Pipeline.WinSpec sig grid6.rank :=
  Pipeline.WinSpec.ofSpec (Memref.whole main_v0) S1x1x256.size reads6_1 false false 2 stage6_1 sem6_1 nbuf6_1 hstage6_1

abbrev spec6_2 : Pipeline.WinSpec sig grid6.rank :=
  Pipeline.WinSpec.ofSpec (Memref.whole main_v37) S1x1.size reads6_2 true true 1 stage6_2 sem6_2 nbuf6_2 hstage6_2

abbrev spec6 : Fin 3 → Pipeline.WinSpec sig grid6.rank := fun | 0 => spec6_0 | 1 => spec6_1 | 2 => spec6_2 | ⟨_ + 3, h⟩ => absurd h (Nat.not_lt.2 (Nat.le_add_left _ _))
theorem hcount6 : ∀ w, grid6.bufCount (spec6 w).reads (spec6 w).sync = (spec6 w).nbuf := fun | 0 => nbuf6_0 | 1 => nbuf6_1 | 2 => nbuf6_2 | ⟨_ + 3, h⟩ => absurd h (Nat.not_lt.2 (Nat.le_add_left _ _))
abbrev ix6 (pf : pre6.Contents (Elt F)) : (w : Fin 3) → grid6.Coords → Fin (spec6 w).shape.rank → Nat := fun | 0 => cc6_transform_0 k6_off1_inb numel1_S1 pf | 1 => cc6_transform_1 k6_off1_inb numel1_S1 pf | 2 => cc6_transform_2 | ⟨_ + 3, h⟩ => absurd h (Nat.not_lt.2 (Nat.le_add_left _ _))
theorem hreads6 : ∀ (pf : pre6.Contents (Elt F)) w (i i' : grid6.Coords), (∀ a, (spec6 w).reads a = true → i a = i' a) → ix6 pf w i = ix6 pf w i' := fun pf => fun | 0 => hreads6_0 pf | 1 => hreads6_1 pf | 2 => hreads6_2 | ⟨_ + 3, h⟩ => absurd h (Nat.not_lt.2 (Nat.le_add_left _ _))
def ok6 (pf : pre6.Contents (Elt F)) : Prop :=
  (∀ i : grid6.Coords, ∃ h : (∀ a, (cc6_transform_0 k6_off1_inb numel1_S1 pf i a + 1) * S1x1x256.size a ≤ S100000x1x256.size a), EltTy.bits .f32 = 32 ∨ (Rect.block (s := S100000x1x256) S1x1x256.size (cc6_transform_0 k6_off1_inb numel1_S1 pf i) h).WholeWords (EltTy.packing .f32)) ∧
  (∀ i : grid6.Coords, ∃ h : (∀ a, (cc6_transform_1 k6_off1_inb numel1_S1 pf i a + 1) * S1x1x256.size a ≤ S100000x1x256.size a), EltTy.bits .f32 = 32 ∨ (Rect.block (s := S100000x1x256) S1x1x256.size (cc6_transform_1 k6_off1_inb numel1_S1 pf i) h).WholeWords (EltTy.packing .f32))
instance (pf : pre6.Contents (Elt F)) : Decidable (ok6 pf) := decidable_of_iff' _ (Iff.of_eq (ok6.eq_1 pf))
theorem hinb6 : ∀ (pf : pre6.Contents (Elt F)), ok6 pf → ∀ w (i : grid6.Coords) a, (ix6 pf w i a + 1) * (spec6 w).size a ≤ (spec6 w).shape.size a :=
  fun pf hok => fun | 0 => fun i a => (hok.1 i).elim fun h _ => h a | 1 => fun i a => (hok.2 i).elim fun h _ => h a | 2 => hinb6_2 | ⟨_ + 3, h⟩ => absurd h (Nat.not_lt.2 (Nat.le_add_left _ _))
theorem hwx6 : ∀ (pf : pre6.Contents (Elt F)) (hok : ok6 pf) w (i : grid6.Coords), (spec6 w).elt.bits = 32 ∨ (Rect.block (spec6 w).size (ix6 pf w i) (hinb6 pf hok w i)).WholeWords (spec6 w).elt.packing :=
  fun pf hok => fun | 0 => fun i => (hok.1 i).elim fun _ h => h | 1 => fun i => (hok.2 i).elim fun _ h => h | 2 => hwx6_2 | ⟨_ + 3, h⟩ => absurd h (Nat.not_lt.2 (Nat.le_add_left _ _))
abbrev spec7_0 : Pipeline.WinSpec sig grid7.rank :=
  Pipeline.WinSpec.ofSpec (Memref.whole main_v0) S1x1x256.size reads7_0 false false 2 stage7_0 sem7_0 nbuf7_0 hstage7_0

abbrev spec7_1 : Pipeline.WinSpec sig grid7.rank :=
  Pipeline.WinSpec.ofSpec (Memref.whole main_v0) S1x1x256.size reads7_1 false false 2 stage7_1 sem7_1 nbuf7_1 hstage7_1

abbrev spec7_2 : Pipeline.WinSpec sig grid7.rank :=
  Pipeline.WinSpec.ofSpec (Memref.whole main_v42) S1x1.size reads7_2 true true 1 stage7_2 sem7_2 nbuf7_2 hstage7_2

abbrev spec7 : Fin 3 → Pipeline.WinSpec sig grid7.rank := fun | 0 => spec7_0 | 1 => spec7_1 | 2 => spec7_2 | ⟨_ + 3, h⟩ => absurd h (Nat.not_lt.2 (Nat.le_add_left _ _))
theorem hcount7 : ∀ w, grid7.bufCount (spec7 w).reads (spec7 w).sync = (spec7 w).nbuf := fun | 0 => nbuf7_0 | 1 => nbuf7_1 | 2 => nbuf7_2 | ⟨_ + 3, h⟩ => absurd h (Nat.not_lt.2 (Nat.le_add_left _ _))
abbrev ix7 (pf : pre7.Contents (Elt F)) : (w : Fin 3) → grid7.Coords → Fin (spec7 w).shape.rank → Nat := fun | 0 => cc7_transform_0 k7_off1_inb numel1_S1 pf | 1 => cc7_transform_1 k7_off1_inb numel1_S1 pf | 2 => cc7_transform_2 | ⟨_ + 3, h⟩ => absurd h (Nat.not_lt.2 (Nat.le_add_left _ _))
theorem hreads7 : ∀ (pf : pre7.Contents (Elt F)) w (i i' : grid7.Coords), (∀ a, (spec7 w).reads a = true → i a = i' a) → ix7 pf w i = ix7 pf w i' := fun pf => fun | 0 => hreads7_0 pf | 1 => hreads7_1 pf | 2 => hreads7_2 | ⟨_ + 3, h⟩ => absurd h (Nat.not_lt.2 (Nat.le_add_left _ _))
def ok7 (pf : pre7.Contents (Elt F)) : Prop :=
  (∀ i : grid7.Coords, ∃ h : (∀ a, (cc7_transform_0 k7_off1_inb numel1_S1 pf i a + 1) * S1x1x256.size a ≤ S100000x1x256.size a), EltTy.bits .f32 = 32 ∨ (Rect.block (s := S100000x1x256) S1x1x256.size (cc7_transform_0 k7_off1_inb numel1_S1 pf i) h).WholeWords (EltTy.packing .f32)) ∧
  (∀ i : grid7.Coords, ∃ h : (∀ a, (cc7_transform_1 k7_off1_inb numel1_S1 pf i a + 1) * S1x1x256.size a ≤ S100000x1x256.size a), EltTy.bits .f32 = 32 ∨ (Rect.block (s := S100000x1x256) S1x1x256.size (cc7_transform_1 k7_off1_inb numel1_S1 pf i) h).WholeWords (EltTy.packing .f32))
instance (pf : pre7.Contents (Elt F)) : Decidable (ok7 pf) := decidable_of_iff' _ (Iff.of_eq (ok7.eq_1 pf))
theorem hinb7 : ∀ (pf : pre7.Contents (Elt F)), ok7 pf → ∀ w (i : grid7.Coords) a, (ix7 pf w i a + 1) * (spec7 w).size a ≤ (spec7 w).shape.size a :=
  fun pf hok => fun | 0 => fun i a => (hok.1 i).elim fun h _ => h a | 1 => fun i a => (hok.2 i).elim fun h _ => h a | 2 => hinb7_2 | ⟨_ + 3, h⟩ => absurd h (Nat.not_lt.2 (Nat.le_add_left _ _))
theorem hwx7 : ∀ (pf : pre7.Contents (Elt F)) (hok : ok7 pf) w (i : grid7.Coords), (spec7 w).elt.bits = 32 ∨ (Rect.block (spec7 w).size (ix7 pf w i) (hinb7 pf hok w i)).WholeWords (spec7 w).elt.packing :=
  fun pf hok => fun | 0 => fun i => (hok.1 i).elim fun _ h => h | 1 => fun i => (hok.2 i).elim fun _ h => h | 2 => hwx7_2 | ⟨_ + 3, h⟩ => absurd h (Nat.not_lt.2 (Nat.le_add_left _ _))
abbrev spec8_0 : Pipeline.WinSpec sig grid8.rank :=
  Pipeline.WinSpec.ofSpec (Memref.whole main_v0) S1x1x256.size reads8_0 false false 2 stage8_0 sem8_0 nbuf8_0 hstage8_0

abbrev spec8_1 : Pipeline.WinSpec sig grid8.rank :=
  Pipeline.WinSpec.ofSpec (Memref.whole main_v0) S1x1x256.size reads8_1 false false 2 stage8_1 sem8_1 nbuf8_1 hstage8_1

abbrev spec8_2 : Pipeline.WinSpec sig grid8.rank :=
  Pipeline.WinSpec.ofSpec (Memref.whole main_v51) S1x1.size reads8_2 true true 1 stage8_2 sem8_2 nbuf8_2 hstage8_2

abbrev spec8 : Fin 3 → Pipeline.WinSpec sig grid8.rank := fun | 0 => spec8_0 | 1 => spec8_1 | 2 => spec8_2 | ⟨_ + 3, h⟩ => absurd h (Nat.not_lt.2 (Nat.le_add_left _ _))
theorem hcount8 : ∀ w, grid8.bufCount (spec8 w).reads (spec8 w).sync = (spec8 w).nbuf := fun | 0 => nbuf8_0 | 1 => nbuf8_1 | 2 => nbuf8_2 | ⟨_ + 3, h⟩ => absurd h (Nat.not_lt.2 (Nat.le_add_left _ _))
abbrev ix8 (pf : pre8.Contents (Elt F)) : (w : Fin 3) → grid8.Coords → Fin (spec8 w).shape.rank → Nat := fun | 0 => cc8_transform_0 k8_off1_inb numel1_S1 pf | 1 => cc8_transform_1 k8_off1_inb numel1_S1 pf | 2 => cc8_transform_2 | ⟨_ + 3, h⟩ => absurd h (Nat.not_lt.2 (Nat.le_add_left _ _))
theorem hreads8 : ∀ (pf : pre8.Contents (Elt F)) w (i i' : grid8.Coords), (∀ a, (spec8 w).reads a = true → i a = i' a) → ix8 pf w i = ix8 pf w i' := fun pf => fun | 0 => hreads8_0 pf | 1 => hreads8_1 pf | 2 => hreads8_2 | ⟨_ + 3, h⟩ => absurd h (Nat.not_lt.2 (Nat.le_add_left _ _))
def ok8 (pf : pre8.Contents (Elt F)) : Prop :=
  (∀ i : grid8.Coords, ∃ h : (∀ a, (cc8_transform_0 k8_off1_inb numel1_S1 pf i a + 1) * S1x1x256.size a ≤ S100000x1x256.size a), EltTy.bits .f32 = 32 ∨ (Rect.block (s := S100000x1x256) S1x1x256.size (cc8_transform_0 k8_off1_inb numel1_S1 pf i) h).WholeWords (EltTy.packing .f32)) ∧
  (∀ i : grid8.Coords, ∃ h : (∀ a, (cc8_transform_1 k8_off1_inb numel1_S1 pf i a + 1) * S1x1x256.size a ≤ S100000x1x256.size a), EltTy.bits .f32 = 32 ∨ (Rect.block (s := S100000x1x256) S1x1x256.size (cc8_transform_1 k8_off1_inb numel1_S1 pf i) h).WholeWords (EltTy.packing .f32))
instance (pf : pre8.Contents (Elt F)) : Decidable (ok8 pf) := decidable_of_iff' _ (Iff.of_eq (ok8.eq_1 pf))
theorem hinb8 : ∀ (pf : pre8.Contents (Elt F)), ok8 pf → ∀ w (i : grid8.Coords) a, (ix8 pf w i a + 1) * (spec8 w).size a ≤ (spec8 w).shape.size a :=
  fun pf hok => fun | 0 => fun i a => (hok.1 i).elim fun h _ => h a | 1 => fun i a => (hok.2 i).elim fun h _ => h a | 2 => hinb8_2 | ⟨_ + 3, h⟩ => absurd h (Nat.not_lt.2 (Nat.le_add_left _ _))
theorem hwx8 : ∀ (pf : pre8.Contents (Elt F)) (hok : ok8 pf) w (i : grid8.Coords), (spec8 w).elt.bits = 32 ∨ (Rect.block (spec8 w).size (ix8 pf w i) (hinb8 pf hok w i)).WholeWords (spec8 w).elt.packing :=
  fun pf hok => fun | 0 => fun i => (hok.1 i).elim fun _ h => h | 1 => fun i => (hok.2 i).elim fun _ h => h | 2 => hwx8_2 | ⟨_ + 3, h⟩ => absurd h (Nat.not_lt.2 (Nat.le_add_left _ _))
abbrev spec9_0 : Pipeline.WinSpec sig grid9.rank :=
  Pipeline.WinSpec.ofSpec (Memref.whole main_v0) S1x1x256.size reads9_0 false false 2 stage9_0 sem9_0 nbuf9_0 hstage9_0

abbrev spec9_1 : Pipeline.WinSpec sig grid9.rank :=
  Pipeline.WinSpec.ofSpec (Memref.whole main_v0) S1x1x256.size reads9_1 false false 2 stage9_1 sem9_1 nbuf9_1 hstage9_1

abbrev spec9_2 : Pipeline.WinSpec sig grid9.rank :=
  Pipeline.WinSpec.ofSpec (Memref.whole main_v56) S1x1.size reads9_2 true true 1 stage9_2 sem9_2 nbuf9_2 hstage9_2

abbrev spec9 : Fin 3 → Pipeline.WinSpec sig grid9.rank := fun | 0 => spec9_0 | 1 => spec9_1 | 2 => spec9_2 | ⟨_ + 3, h⟩ => absurd h (Nat.not_lt.2 (Nat.le_add_left _ _))
theorem hcount9 : ∀ w, grid9.bufCount (spec9 w).reads (spec9 w).sync = (spec9 w).nbuf := fun | 0 => nbuf9_0 | 1 => nbuf9_1 | 2 => nbuf9_2 | ⟨_ + 3, h⟩ => absurd h (Nat.not_lt.2 (Nat.le_add_left _ _))
abbrev ix9 (pf : pre9.Contents (Elt F)) : (w : Fin 3) → grid9.Coords → Fin (spec9 w).shape.rank → Nat := fun | 0 => cc9_transform_0 k9_off1_inb numel1_S1 pf | 1 => cc9_transform_1 k9_off1_inb numel1_S1 pf | 2 => cc9_transform_2 | ⟨_ + 3, h⟩ => absurd h (Nat.not_lt.2 (Nat.le_add_left _ _))
theorem hreads9 : ∀ (pf : pre9.Contents (Elt F)) w (i i' : grid9.Coords), (∀ a, (spec9 w).reads a = true → i a = i' a) → ix9 pf w i = ix9 pf w i' := fun pf => fun | 0 => hreads9_0 pf | 1 => hreads9_1 pf | 2 => hreads9_2 | ⟨_ + 3, h⟩ => absurd h (Nat.not_lt.2 (Nat.le_add_left _ _))
def ok9 (pf : pre9.Contents (Elt F)) : Prop :=
  (∀ i : grid9.Coords, ∃ h : (∀ a, (cc9_transform_0 k9_off1_inb numel1_S1 pf i a + 1) * S1x1x256.size a ≤ S100000x1x256.size a), EltTy.bits .f32 = 32 ∨ (Rect.block (s := S100000x1x256) S1x1x256.size (cc9_transform_0 k9_off1_inb numel1_S1 pf i) h).WholeWords (EltTy.packing .f32)) ∧
  (∀ i : grid9.Coords, ∃ h : (∀ a, (cc9_transform_1 k9_off1_inb numel1_S1 pf i a + 1) * S1x1x256.size a ≤ S100000x1x256.size a), EltTy.bits .f32 = 32 ∨ (Rect.block (s := S100000x1x256) S1x1x256.size (cc9_transform_1 k9_off1_inb numel1_S1 pf i) h).WholeWords (EltTy.packing .f32))
instance (pf : pre9.Contents (Elt F)) : Decidable (ok9 pf) := decidable_of_iff' _ (Iff.of_eq (ok9.eq_1 pf))
theorem hinb9 : ∀ (pf : pre9.Contents (Elt F)), ok9 pf → ∀ w (i : grid9.Coords) a, (ix9 pf w i a + 1) * (spec9 w).size a ≤ (spec9 w).shape.size a :=
  fun pf hok => fun | 0 => fun i a => (hok.1 i).elim fun h _ => h a | 1 => fun i a => (hok.2 i).elim fun h _ => h a | 2 => hinb9_2 | ⟨_ + 3, h⟩ => absurd h (Nat.not_lt.2 (Nat.le_add_left _ _))
theorem hwx9 : ∀ (pf : pre9.Contents (Elt F)) (hok : ok9 pf) w (i : grid9.Coords), (spec9 w).elt.bits = 32 ∨ (Rect.block (spec9 w).size (ix9 pf w i) (hinb9 pf hok w i)).WholeWords (spec9 w).elt.packing :=
  fun pf hok => fun | 0 => fun i => (hok.1 i).elim fun _ h => h | 1 => fun i => (hok.2 i).elim fun _ h => h | 2 => hwx9_2 | ⟨_ + 3, h⟩ => absurd h (Nat.not_lt.2 (Nat.le_add_left _ _))
abbrev spec10_0 : Pipeline.WinSpec sig grid10.rank :=
  Pipeline.WinSpec.ofSpec (Memref.whole main_v0) S1x1x256.size reads10_0 false false 2 stage10_0 sem10_0 nbuf10_0 hstage10_0

abbrev spec10_1 : Pipeline.WinSpec sig grid10.rank :=
  Pipeline.WinSpec.ofSpec (Memref.whole main_v0) S1x1x256.size reads10_1 false false 2 stage10_1 sem10_1 nbuf10_1 hstage10_1

abbrev spec10_2 : Pipeline.WinSpec sig grid10.rank :=
  Pipeline.WinSpec.ofSpec (Memref.whole main_v61) S1x1.size reads10_2 true true 1 stage10_2 sem10_2 nbuf10_2 hstage10_2

abbrev spec10 : Fin 3 → Pipeline.WinSpec sig grid10.rank := fun | 0 => spec10_0 | 1 => spec10_1 | 2 => spec10_2 | ⟨_ + 3, h⟩ => absurd h (Nat.not_lt.2 (Nat.le_add_left _ _))
theorem hcount10 : ∀ w, grid10.bufCount (spec10 w).reads (spec10 w).sync = (spec10 w).nbuf := fun | 0 => nbuf10_0 | 1 => nbuf10_1 | 2 => nbuf10_2 | ⟨_ + 3, h⟩ => absurd h (Nat.not_lt.2 (Nat.le_add_left _ _))
abbrev ix10 (pf : pre10.Contents (Elt F)) : (w : Fin 3) → grid10.Coords → Fin (spec10 w).shape.rank → Nat := fun | 0 => cc10_transform_0 k10_off1_inb numel1_S1 pf | 1 => cc10_transform_1 k10_off1_inb numel1_S1 pf | 2 => cc10_transform_2 | ⟨_ + 3, h⟩ => absurd h (Nat.not_lt.2 (Nat.le_add_left _ _))
theorem hreads10 : ∀ (pf : pre10.Contents (Elt F)) w (i i' : grid10.Coords), (∀ a, (spec10 w).reads a = true → i a = i' a) → ix10 pf w i = ix10 pf w i' := fun pf => fun | 0 => hreads10_0 pf | 1 => hreads10_1 pf | 2 => hreads10_2 | ⟨_ + 3, h⟩ => absurd h (Nat.not_lt.2 (Nat.le_add_left _ _))
def ok10 (pf : pre10.Contents (Elt F)) : Prop :=
  (∀ i : grid10.Coords, ∃ h : (∀ a, (cc10_transform_0 k10_off1_inb numel1_S1 pf i a + 1) * S1x1x256.size a ≤ S100000x1x256.size a), EltTy.bits .f32 = 32 ∨ (Rect.block (s := S100000x1x256) S1x1x256.size (cc10_transform_0 k10_off1_inb numel1_S1 pf i) h).WholeWords (EltTy.packing .f32)) ∧
  (∀ i : grid10.Coords, ∃ h : (∀ a, (cc10_transform_1 k10_off1_inb numel1_S1 pf i a + 1) * S1x1x256.size a ≤ S100000x1x256.size a), EltTy.bits .f32 = 32 ∨ (Rect.block (s := S100000x1x256) S1x1x256.size (cc10_transform_1 k10_off1_inb numel1_S1 pf i) h).WholeWords (EltTy.packing .f32))
instance (pf : pre10.Contents (Elt F)) : Decidable (ok10 pf) := decidable_of_iff' _ (Iff.of_eq (ok10.eq_1 pf))
theorem hinb10 : ∀ (pf : pre10.Contents (Elt F)), ok10 pf → ∀ w (i : grid10.Coords) a, (ix10 pf w i a + 1) * (spec10 w).size a ≤ (spec10 w).shape.size a :=
  fun pf hok => fun | 0 => fun i a => (hok.1 i).elim fun h _ => h a | 1 => fun i a => (hok.2 i).elim fun h _ => h a | 2 => hinb10_2 | ⟨_ + 3, h⟩ => absurd h (Nat.not_lt.2 (Nat.le_add_left _ _))
theorem hwx10 : ∀ (pf : pre10.Contents (Elt F)) (hok : ok10 pf) w (i : grid10.Coords), (spec10 w).elt.bits = 32 ∨ (Rect.block (spec10 w).size (ix10 pf w i) (hinb10 pf hok w i)).WholeWords (spec10 w).elt.packing :=
  fun pf hok => fun | 0 => fun i => (hok.1 i).elim fun _ h => h | 1 => fun i => (hok.2 i).elim fun _ h => h | 2 => hwx10_2 | ⟨_ + 3, h⟩ => absurd h (Nat.not_lt.2 (Nat.le_add_left _ _))
abbrev spec11_0 : Pipeline.WinSpec sig grid11.rank :=
  Pipeline.WinSpec.ofSpec (Memref.whole main_v0) S1x1x256.size reads11_0 false false 2 stage11_0 sem11_0 nbuf11_0 hstage11_0

abbrev spec11_1 : Pipeline.WinSpec sig grid11.rank :=
  Pipeline.WinSpec.ofSpec (Memref.whole main_v0) S1x1x256.size reads11_1 false false 2 stage11_1 sem11_1 nbuf11_1 hstage11_1

abbrev spec11_2 : Pipeline.WinSpec sig grid11.rank :=
  Pipeline.WinSpec.ofSpec (Memref.whole main_v66) S1x1.size reads11_2 true true 1 stage11_2 sem11_2 nbuf11_2 hstage11_2

abbrev spec11 : Fin 3 → Pipeline.WinSpec sig grid11.rank := fun | 0 => spec11_0 | 1 => spec11_1 | 2 => spec11_2 | ⟨_ + 3, h⟩ => absurd h (Nat.not_lt.2 (Nat.le_add_left _ _))
theorem hcount11 : ∀ w, grid11.bufCount (spec11 w).reads (spec11 w).sync = (spec11 w).nbuf := fun | 0 => nbuf11_0 | 1 => nbuf11_1 | 2 => nbuf11_2 | ⟨_ + 3, h⟩ => absurd h (Nat.not_lt.2 (Nat.le_add_left _ _))
abbrev ix11 (pf : pre11.Contents (Elt F)) : (w : Fin 3) → grid11.Coords → Fin (spec11 w).shape.rank → Nat := fun | 0 => cc11_transform_0 k11_off1_inb numel1_S1 pf | 1 => cc11_transform_1 k11_off1_inb numel1_S1 pf | 2 => cc11_transform_2 | ⟨_ + 3, h⟩ => absurd h (Nat.not_lt.2 (Nat.le_add_left _ _))
theorem hreads11 : ∀ (pf : pre11.Contents (Elt F)) w (i i' : grid11.Coords), (∀ a, (spec11 w).reads a = true → i a = i' a) → ix11 pf w i = ix11 pf w i' := fun pf => fun | 0 => hreads11_0 pf | 1 => hreads11_1 pf | 2 => hreads11_2 | ⟨_ + 3, h⟩ => absurd h (Nat.not_lt.2 (Nat.le_add_left _ _))
def ok11 (pf : pre11.Contents (Elt F)) : Prop :=
  (∀ i : grid11.Coords, ∃ h : (∀ a, (cc11_transform_0 k11_off1_inb numel1_S1 pf i a + 1) * S1x1x256.size a ≤ S100000x1x256.size a), EltTy.bits .f32 = 32 ∨ (Rect.block (s := S100000x1x256) S1x1x256.size (cc11_transform_0 k11_off1_inb numel1_S1 pf i) h).WholeWords (EltTy.packing .f32)) ∧
  (∀ i : grid11.Coords, ∃ h : (∀ a, (cc11_transform_1 k11_off1_inb numel1_S1 pf i a + 1) * S1x1x256.size a ≤ S100000x1x256.size a), EltTy.bits .f32 = 32 ∨ (Rect.block (s := S100000x1x256) S1x1x256.size (cc11_transform_1 k11_off1_inb numel1_S1 pf i) h).WholeWords (EltTy.packing .f32))
instance (pf : pre11.Contents (Elt F)) : Decidable (ok11 pf) := decidable_of_iff' _ (Iff.of_eq (ok11.eq_1 pf))
theorem hinb11 : ∀ (pf : pre11.Contents (Elt F)), ok11 pf → ∀ w (i : grid11.Coords) a, (ix11 pf w i a + 1) * (spec11 w).size a ≤ (spec11 w).shape.size a :=
  fun pf hok => fun | 0 => fun i a => (hok.1 i).elim fun h _ => h a | 1 => fun i a => (hok.2 i).elim fun h _ => h a | 2 => hinb11_2 | ⟨_ + 3, h⟩ => absurd h (Nat.not_lt.2 (Nat.le_add_left _ _))
theorem hwx11 : ∀ (pf : pre11.Contents (Elt F)) (hok : ok11 pf) w (i : grid11.Coords), (spec11 w).elt.bits = 32 ∨ (Rect.block (spec11 w).size (ix11 pf w i) (hinb11 pf hok w i)).WholeWords (spec11 w).elt.packing :=
  fun pf hok => fun | 0 => fun i => (hok.1 i).elim fun _ h => h | 1 => fun i => (hok.2 i).elim fun _ h => h | 2 => hwx11_2 | ⟨_ + 3, h⟩ => absurd h (Nat.not_lt.2 (Nat.le_add_left _ _))
abbrev spec12_0 : Pipeline.WinSpec sig grid12.rank :=
  Pipeline.WinSpec.ofSpec (Memref.whole main_v0) S1x1x256.size reads12_0 false false 2 stage12_0 sem12_0 nbuf12_0 hstage12_0

abbrev spec12_1 : Pipeline.WinSpec sig grid12.rank :=
  Pipeline.WinSpec.ofSpec (Memref.whole main_v0) S1x1x256.size reads12_1 false false 2 stage12_1 sem12_1 nbuf12_1 hstage12_1

abbrev spec12_2 : Pipeline.WinSpec sig grid12.rank :=
  Pipeline.WinSpec.ofSpec (Memref.whole main_v71) S1x1.size reads12_2 true true 1 stage12_2 sem12_2 nbuf12_2 hstage12_2

abbrev spec12 : Fin 3 → Pipeline.WinSpec sig grid12.rank := fun | 0 => spec12_0 | 1 => spec12_1 | 2 => spec12_2 | ⟨_ + 3, h⟩ => absurd h (Nat.not_lt.2 (Nat.le_add_left _ _))
theorem hcount12 : ∀ w, grid12.bufCount (spec12 w).reads (spec12 w).sync = (spec12 w).nbuf := fun | 0 => nbuf12_0 | 1 => nbuf12_1 | 2 => nbuf12_2 | ⟨_ + 3, h⟩ => absurd h (Nat.not_lt.2 (Nat.le_add_left _ _))
abbrev ix12 (pf : pre12.Contents (Elt F)) : (w : Fin 3) → grid12.Coords → Fin (spec12 w).shape.rank → Nat := fun | 0 => cc12_transform_0 k12_off1_inb numel1_S1 pf | 1 => cc12_transform_1 k12_off1_inb numel1_S1 pf | 2 => cc12_transform_2 | ⟨_ + 3, h⟩ => absurd h (Nat.not_lt.2 (Nat.le_add_left _ _))
theorem hreads12 : ∀ (pf : pre12.Contents (Elt F)) w (i i' : grid12.Coords), (∀ a, (spec12 w).reads a = true → i a = i' a) → ix12 pf w i = ix12 pf w i' := fun pf => fun | 0 => hreads12_0 pf | 1 => hreads12_1 pf | 2 => hreads12_2 | ⟨_ + 3, h⟩ => absurd h (Nat.not_lt.2 (Nat.le_add_left _ _))
def ok12 (pf : pre12.Contents (Elt F)) : Prop :=
  (∀ i : grid12.Coords, ∃ h : (∀ a, (cc12_transform_0 k12_off1_inb numel1_S1 pf i a + 1) * S1x1x256.size a ≤ S100000x1x256.size a), EltTy.bits .f32 = 32 ∨ (Rect.block (s := S100000x1x256) S1x1x256.size (cc12_transform_0 k12_off1_inb numel1_S1 pf i) h).WholeWords (EltTy.packing .f32)) ∧
  (∀ i : grid12.Coords, ∃ h : (∀ a, (cc12_transform_1 k12_off1_inb numel1_S1 pf i a + 1) * S1x1x256.size a ≤ S100000x1x256.size a), EltTy.bits .f32 = 32 ∨ (Rect.block (s := S100000x1x256) S1x1x256.size (cc12_transform_1 k12_off1_inb numel1_S1 pf i) h).WholeWords (EltTy.packing .f32))
instance (pf : pre12.Contents (Elt F)) : Decidable (ok12 pf) := decidable_of_iff' _ (Iff.of_eq (ok12.eq_1 pf))
theorem hinb12 : ∀ (pf : pre12.Contents (Elt F)), ok12 pf → ∀ w (i : grid12.Coords) a, (ix12 pf w i a + 1) * (spec12 w).size a ≤ (spec12 w).shape.size a :=
  fun pf hok => fun | 0 => fun i a => (hok.1 i).elim fun h _ => h a | 1 => fun i a => (hok.2 i).elim fun h _ => h a | 2 => hinb12_2 | ⟨_ + 3, h⟩ => absurd h (Nat.not_lt.2 (Nat.le_add_left _ _))
theorem hwx12 : ∀ (pf : pre12.Contents (Elt F)) (hok : ok12 pf) w (i : grid12.Coords), (spec12 w).elt.bits = 32 ∨ (Rect.block (spec12 w).size (ix12 pf w i) (hinb12 pf hok w i)).WholeWords (spec12 w).elt.packing :=
  fun pf hok => fun | 0 => fun i => (hok.1 i).elim fun _ h => h | 1 => fun i => (hok.2 i).elim fun _ h => h | 2 => hwx12_2 | ⟨_ + 3, h⟩ => absurd h (Nat.not_lt.2 (Nat.le_add_left _ _))
abbrev spec13_0 : Pipeline.WinSpec sig grid13.rank :=
  Pipeline.WinSpec.ofSpec (Memref.whole main_v0) S1x1x256.size reads13_0 false false 2 stage13_0 sem13_0 nbuf13_0 hstage13_0

abbrev spec13_1 : Pipeline.WinSpec sig grid13.rank :=
  Pipeline.WinSpec.ofSpec (Memref.whole main_v0) S1x1x256.size reads13_1 false false 2 stage13_1 sem13_1 nbuf13_1 hstage13_1

abbrev spec13_2 : Pipeline.WinSpec sig grid13.rank :=
  Pipeline.WinSpec.ofSpec (Memref.whole main_v76) S1x1.size reads13_2 true true 1 stage13_2 sem13_2 nbuf13_2 hstage13_2

abbrev spec13 : Fin 3 → Pipeline.WinSpec sig grid13.rank := fun | 0 => spec13_0 | 1 => spec13_1 | 2 => spec13_2 | ⟨_ + 3, h⟩ => absurd h (Nat.not_lt.2 (Nat.le_add_left _ _))
theorem hcount13 : ∀ w, grid13.bufCount (spec13 w).reads (spec13 w).sync = (spec13 w).nbuf := fun | 0 => nbuf13_0 | 1 => nbuf13_1 | 2 => nbuf13_2 | ⟨_ + 3, h⟩ => absurd h (Nat.not_lt.2 (Nat.le_add_left _ _))
abbrev ix13 (pf : pre13.Contents (Elt F)) : (w : Fin 3) → grid13.Coords → Fin (spec13 w).shape.rank → Nat := fun | 0 => cc13_transform_0 k13_off1_inb numel1_S1 pf | 1 => cc13_transform_1 k13_off1_inb numel1_S1 pf | 2 => cc13_transform_2 | ⟨_ + 3, h⟩ => absurd h (Nat.not_lt.2 (Nat.le_add_left _ _))
theorem hreads13 : ∀ (pf : pre13.Contents (Elt F)) w (i i' : grid13.Coords), (∀ a, (spec13 w).reads a = true → i a = i' a) → ix13 pf w i = ix13 pf w i' := fun pf => fun | 0 => hreads13_0 pf | 1 => hreads13_1 pf | 2 => hreads13_2 | ⟨_ + 3, h⟩ => absurd h (Nat.not_lt.2 (Nat.le_add_left _ _))
def ok13 (pf : pre13.Contents (Elt F)) : Prop :=
  (∀ i : grid13.Coords, ∃ h : (∀ a, (cc13_transform_0 k13_off1_inb numel1_S1 pf i a + 1) * S1x1x256.size a ≤ S100000x1x256.size a), EltTy.bits .f32 = 32 ∨ (Rect.block (s := S100000x1x256) S1x1x256.size (cc13_transform_0 k13_off1_inb numel1_S1 pf i) h).WholeWords (EltTy.packing .f32)) ∧
  (∀ i : grid13.Coords, ∃ h : (∀ a, (cc13_transform_1 k13_off1_inb numel1_S1 pf i a + 1) * S1x1x256.size a ≤ S100000x1x256.size a), EltTy.bits .f32 = 32 ∨ (Rect.block (s := S100000x1x256) S1x1x256.size (cc13_transform_1 k13_off1_inb numel1_S1 pf i) h).WholeWords (EltTy.packing .f32))
instance (pf : pre13.Contents (Elt F)) : Decidable (ok13 pf) := decidable_of_iff' _ (Iff.of_eq (ok13.eq_1 pf))
theorem hinb13 : ∀ (pf : pre13.Contents (Elt F)), ok13 pf → ∀ w (i : grid13.Coords) a, (ix13 pf w i a + 1) * (spec13 w).size a ≤ (spec13 w).shape.size a :=
  fun pf hok => fun | 0 => fun i a => (hok.1 i).elim fun h _ => h a | 1 => fun i a => (hok.2 i).elim fun h _ => h a | 2 => hinb13_2 | ⟨_ + 3, h⟩ => absurd h (Nat.not_lt.2 (Nat.le_add_left _ _))
theorem hwx13 : ∀ (pf : pre13.Contents (Elt F)) (hok : ok13 pf) w (i : grid13.Coords), (spec13 w).elt.bits = 32 ∨ (Rect.block (spec13 w).size (ix13 pf w i) (hinb13 pf hok w i)).WholeWords (spec13 w).elt.packing :=
  fun pf hok => fun | 0 => fun i => (hok.1 i).elim fun _ h => h | 1 => fun i => (hok.2 i).elim fun _ h => h | 2 => hwx13_2 | ⟨_ + 3, h⟩ => absurd h (Nat.not_lt.2 (Nat.le_add_left _ _))
abbrev spec14_0 : Pipeline.WinSpec sig grid14.rank :=
  Pipeline.WinSpec.ofSpec (Memref.whole main_v0) S1x1x256.size reads14_0 false false 2 stage14_0 sem14_0 nbuf14_0 hstage14_0

abbrev spec14_1 : Pipeline.WinSpec sig grid14.rank :=
  Pipeline.WinSpec.ofSpec (Memref.whole main_v0) S1x1x256.size reads14_1 false false 2 stage14_1 sem14_1 nbuf14_1 hstage14_1

abbrev spec14_2 : Pipeline.WinSpec sig grid14.rank :=
  Pipeline.WinSpec.ofSpec (Memref.whole main_v81) S1x1.size reads14_2 true true 1 stage14_2 sem14_2 nbuf14_2 hstage14_2

abbrev spec14 : Fin 3 → Pipeline.WinSpec sig grid14.rank := fun | 0 => spec14_0 | 1 => spec14_1 | 2 => spec14_2 | ⟨_ + 3, h⟩ => absurd h (Nat.not_lt.2 (Nat.le_add_left _ _))
theorem hcount14 : ∀ w, grid14.bufCount (spec14 w).reads (spec14 w).sync = (spec14 w).nbuf := fun | 0 => nbuf14_0 | 1 => nbuf14_1 | 2 => nbuf14_2 | ⟨_ + 3, h⟩ => absurd h (Nat.not_lt.2 (Nat.le_add_left _ _))
abbrev ix14 (pf : pre14.Contents (Elt F)) : (w : Fin 3) → grid14.Coords → Fin (spec14 w).shape.rank → Nat := fun | 0 => cc14_transform_0 k14_off1_inb numel1_S1 pf | 1 => cc14_transform_1 k14_off1_inb numel1_S1 pf | 2 => cc14_transform_2 | ⟨_ + 3, h⟩ => absurd h (Nat.not_lt.2 (Nat.le_add_left _ _))
theorem hreads14 : ∀ (pf : pre14.Contents (Elt F)) w (i i' : grid14.Coords), (∀ a, (spec14 w).reads a = true → i a = i' a) → ix14 pf w i = ix14 pf w i' := fun pf => fun | 0 => hreads14_0 pf | 1 => hreads14_1 pf | 2 => hreads14_2 | ⟨_ + 3, h⟩ => absurd h (Nat.not_lt.2 (Nat.le_add_left _ _))
def ok14 (pf : pre14.Contents (Elt F)) : Prop :=
  (∀ i : grid14.Coords, ∃ h : (∀ a, (cc14_transform_0 k14_off1_inb numel1_S1 pf i a + 1) * S1x1x256.size a ≤ S100000x1x256.size a), EltTy.bits .f32 = 32 ∨ (Rect.block (s := S100000x1x256) S1x1x256.size (cc14_transform_0 k14_off1_inb numel1_S1 pf i) h).WholeWords (EltTy.packing .f32)) ∧
  (∀ i : grid14.Coords, ∃ h : (∀ a, (cc14_transform_1 k14_off1_inb numel1_S1 pf i a + 1) * S1x1x256.size a ≤ S100000x1x256.size a), EltTy.bits .f32 = 32 ∨ (Rect.block (s := S100000x1x256) S1x1x256.size (cc14_transform_1 k14_off1_inb numel1_S1 pf i) h).WholeWords (EltTy.packing .f32))
instance (pf : pre14.Contents (Elt F)) : Decidable (ok14 pf) := decidable_of_iff' _ (Iff.of_eq (ok14.eq_1 pf))
theorem hinb14 : ∀ (pf : pre14.Contents (Elt F)), ok14 pf → ∀ w (i : grid14.Coords) a, (ix14 pf w i a + 1) * (spec14 w).size a ≤ (spec14 w).shape.size a :=
  fun pf hok => fun | 0 => fun i a => (hok.1 i).elim fun h _ => h a | 1 => fun i a => (hok.2 i).elim fun h _ => h a | 2 => hinb14_2 | ⟨_ + 3, h⟩ => absurd h (Nat.not_lt.2 (Nat.le_add_left _ _))
theorem hwx14 : ∀ (pf : pre14.Contents (Elt F)) (hok : ok14 pf) w (i : grid14.Coords), (spec14 w).elt.bits = 32 ∨ (Rect.block (spec14 w).size (ix14 pf w i) (hinb14 pf hok w i)).WholeWords (spec14 w).elt.packing :=
  fun pf hok => fun | 0 => fun i => (hok.1 i).elim fun _ h => h | 1 => fun i => (hok.2 i).elim fun _ h => h | 2 => hwx14_2 | ⟨_ + 3, h⟩ => absurd h (Nat.not_lt.2 (Nat.le_add_left _ _))
abbrev spec15_0 : Pipeline.WinSpec sig grid15.rank :=
  Pipeline.WinSpec.ofSpec (Memref.whole main_v0) S1x1x256.size reads15_0 false false 2 stage15_0 sem15_0 nbuf15_0 hstage15_0

abbrev spec15_1 : Pipeline.WinSpec sig grid15.rank :=
  Pipeline.WinSpec.ofSpec (Memref.whole main_v0) S1x1x256.size reads15_1 false false 2 stage15_1 sem15_1 nbuf15_1 hstage15_1

abbrev spec15_2 : Pipeline.WinSpec sig grid15.rank :=
  Pipeline.WinSpec.ofSpec (Memref.whole main_v86) S1x1.size reads15_2 true true 1 stage15_2 sem15_2 nbuf15_2 hstage15_2

abbrev spec15 : Fin 3 → Pipeline.WinSpec sig grid15.rank := fun | 0 => spec15_0 | 1 => spec15_1 | 2 => spec15_2 | ⟨_ + 3, h⟩ => absurd h (Nat.not_lt.2 (Nat.le_add_left _ _))
theorem hcount15 : ∀ w, grid15.bufCount (spec15 w).reads (spec15 w).sync = (spec15 w).nbuf := fun | 0 => nbuf15_0 | 1 => nbuf15_1 | 2 => nbuf15_2 | ⟨_ + 3, h⟩ => absurd h (Nat.not_lt.2 (Nat.le_add_left _ _))
abbrev ix15 (pf : pre15.Contents (Elt F)) : (w : Fin 3) → grid15.Coords → Fin (spec15 w).shape.rank → Nat := fun | 0 => cc15_transform_0 k15_off1_inb numel1_S1 pf | 1 => cc15_transform_1 k15_off1_inb numel1_S1 pf | 2 => cc15_transform_2 | ⟨_ + 3, h⟩ => absurd h (Nat.not_lt.2 (Nat.le_add_left _ _))
theorem hreads15 : ∀ (pf : pre15.Contents (Elt F)) w (i i' : grid15.Coords), (∀ a, (spec15 w).reads a = true → i a = i' a) → ix15 pf w i = ix15 pf w i' := fun pf => fun | 0 => hreads15_0 pf | 1 => hreads15_1 pf | 2 => hreads15_2 | ⟨_ + 3, h⟩ => absurd h (Nat.not_lt.2 (Nat.le_add_left _ _))
def ok15 (pf : pre15.Contents (Elt F)) : Prop :=
  (∀ i : grid15.Coords, ∃ h : (∀ a, (cc15_transform_0 k15_off1_inb numel1_S1 pf i a + 1) * S1x1x256.size a ≤ S100000x1x256.size a), EltTy.bits .f32 = 32 ∨ (Rect.block (s := S100000x1x256) S1x1x256.size (cc15_transform_0 k15_off1_inb numel1_S1 pf i) h).WholeWords (EltTy.packing .f32)) ∧
  (∀ i : grid15.Coords, ∃ h : (∀ a, (cc15_transform_1 k15_off1_inb numel1_S1 pf i a + 1) * S1x1x256.size a ≤ S100000x1x256.size a), EltTy.bits .f32 = 32 ∨ (Rect.block (s := S100000x1x256) S1x1x256.size (cc15_transform_1 k15_off1_inb numel1_S1 pf i) h).WholeWords (EltTy.packing .f32))
instance (pf : pre15.Contents (Elt F)) : Decidable (ok15 pf) := decidable_of_iff' _ (Iff.of_eq (ok15.eq_1 pf))
theorem hinb15 : ∀ (pf : pre15.Contents (Elt F)), ok15 pf → ∀ w (i : grid15.Coords) a, (ix15 pf w i a + 1) * (spec15 w).size a ≤ (spec15 w).shape.size a :=
  fun pf hok => fun | 0 => fun i a => (hok.1 i).elim fun h _ => h a | 1 => fun i a => (hok.2 i).elim fun h _ => h a | 2 => hinb15_2 | ⟨_ + 3, h⟩ => absurd h (Nat.not_lt.2 (Nat.le_add_left _ _))
theorem hwx15 : ∀ (pf : pre15.Contents (Elt F)) (hok : ok15 pf) w (i : grid15.Coords), (spec15 w).elt.bits = 32 ∨ (Rect.block (spec15 w).size (ix15 pf w i) (hinb15 pf hok w i)).WholeWords (spec15 w).elt.packing :=
  fun pf hok => fun | 0 => fun i => (hok.1 i).elim fun _ h => h | 1 => fun i => (hok.2 i).elim fun _ h => h | 2 => hwx15_2 | ⟨_ + 3, h⟩ => absurd h (Nat.not_lt.2 (Nat.le_add_left _ _))

class Facts : Prop extends Facts₀ where
  harr0 : ∀ w, (spec0 w).arr.IsWhole
  harr1 : ∀ w, (spec1 w).arr.IsWhole
  harr2 : ∀ w, (spec2 w).arr.IsWhole
  harr3 : ∀ w, (spec3 w).arr.IsWhole
  harr4 : ∀ w, (spec4 w).arr.IsWhole
  harr5 : ∀ w, (spec5 w).arr.IsWhole
  harr6 : ∀ w, (spec6 w).arr.IsWhole
  harr7 : ∀ w, (spec7 w).arr.IsWhole
  harr8 : ∀ w, (spec8 w).arr.IsWhole
  harr9 : ∀ w, (spec9 w).arr.IsWhole
  harr10 : ∀ w, (spec10 w).arr.IsWhole
  harr11 : ∀ w, (spec11 w).arr.IsWhole
  harr12 : ∀ w, (spec12 w).arr.IsWhole
  harr13 : ∀ w, (spec13 w).arr.IsWhole
  harr14 : ∀ w, (spec14 w).arr.IsWhole
  harr15 : ∀ w, (spec15 w).arr.IsWhole

variable [Facts]
-- ==== ReferenceIdeal.lean ====
abbrev S100000x256 : Shape := ⟨2, ![100000, 256]⟩
abbrev S200000x2 : Shape := ⟨2, ![200000, 2]⟩
abbrev S200000x1 : Shape := ⟨2, ![200000, 1]⟩
abbrev S200000 : Shape := ⟨1, ![200000]⟩
abbrev S_ : Shape := ⟨0, ![]⟩
abbrev S200000x256 : Shape := ⟨2, ![200000, 256]⟩

abbrev nBuf : Space → Nat
  | .hbm => 68
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S200000x2, .i32⟩
  | .hbm, ⟨2, _⟩ => ⟨S200000x2, .i32⟩
  | .hbm, ⟨3, _⟩ => ⟨S200000x1, .i32⟩
  | .hbm, ⟨4, _⟩ => ⟨S200000, .i32⟩
  | .hbm, ⟨5, _⟩ => ⟨S_, .i32⟩
  | .hbm, ⟨6, _⟩ => ⟨S200000, .i32⟩
  | .hbm, ⟨7, _⟩ => ⟨S200000, .i1⟩
  | .hbm, ⟨8, _⟩ => ⟨S_, .i32⟩
  | .hbm, ⟨9, _⟩ => ⟨S200000, .i32⟩
  | .hbm, ⟨10, _⟩ => ⟨S200000, .i32⟩
  | .hbm, ⟨11, _⟩ => ⟨S200000, .i32⟩
  | .hbm, ⟨12, _⟩ => ⟨S200000x1, .i32⟩
  | .hbm, ⟨13, _⟩ => ⟨S200000x256, .f32⟩
  | .hbm, ⟨14, _⟩ => ⟨S200000x1, .i32⟩
  | .hbm, ⟨15, _⟩ => ⟨S200000, .i32⟩
  | .hbm, ⟨16, _⟩ => ⟨S_, .i32⟩
  | .hbm, ⟨17, _⟩ => ⟨S200000, .i32⟩
  | .hbm, ⟨18, _⟩ => ⟨S200000, .i1⟩
  | .hbm, ⟨19, _⟩ => ⟨S_, .i32⟩
  | .hbm, ⟨20, _⟩ => ⟨S200000, .i32⟩
  | .hbm, ⟨21, _⟩ => ⟨S200000, .i32⟩
  | .hbm, ⟨22, _⟩ => ⟨S200000, .i32⟩
  | .hbm, ⟨23, _⟩ => ⟨S200000x1, .i32⟩
  | .hbm, ⟨24, _⟩ => ⟨S200000x256, .f32⟩
  | .hbm, ⟨25, _⟩ => ⟨S200000x256, .f32⟩
  | .hbm, ⟨26, _⟩ => ⟨S200000x256, .f32⟩
  | .hbm, ⟨27, _⟩ => ⟨S_, .f32⟩
  | .hbm, ⟨28, _⟩ => ⟨S200000, .f32⟩
  | .hbm, ⟨29, _⟩ => ⟨S200000, .f32⟩
  | .hbm, ⟨30, _⟩ => ⟨S_, .f32⟩
  | .hbm, ⟨31, _⟩ => ⟨S_, .f32⟩
  | .hbm, ⟨32, _⟩ => ⟨S200000x1, .i32⟩
  | .hbm, ⟨33, _⟩ => ⟨S200000, .i32⟩
  | .hbm, ⟨34, _⟩ => ⟨S_, .i32⟩
  | .hbm, ⟨35, _⟩ => ⟨S200000, .i32⟩
  | .hbm, ⟨36, _⟩ => ⟨S200000, .i1⟩
  | .hbm, ⟨37, _⟩ => ⟨S_, .i32⟩
  | .hbm, ⟨38, _⟩ => ⟨S200000, .i32⟩
  | .hbm, ⟨39, _⟩ => ⟨S200000, .i32⟩
  | .hbm, ⟨40, _⟩ => ⟨S200000, .i32⟩
  | .hbm, ⟨41, _⟩ => ⟨S200000x1, .i32⟩
  | .hbm, ⟨42, _⟩ => ⟨S200000x256, .f32⟩
  | .hbm, ⟨43, _⟩ => ⟨S200000x1, .i32⟩
  | .hbm, ⟨44, _⟩ => ⟨S200000, .i32⟩
  | .hbm, ⟨45, _⟩ => ⟨S_, .i32⟩
  | .hbm, ⟨46, _⟩ => ⟨S200000, .i32⟩
  | .hbm, ⟨47, _⟩ => ⟨S200000, .i1⟩
  | .hbm, ⟨48, _⟩ => ⟨S_, .i32⟩
  | .hbm, ⟨49, _⟩ => ⟨S200000, .i32⟩
  | .hbm, ⟨50, _⟩ => ⟨S200000, .i32⟩
  | .hbm, ⟨51, _⟩ => ⟨S200000, .i32⟩
  | .hbm, ⟨52, _⟩ => ⟨S200000x1, .i32⟩
  | .hbm, ⟨53, _⟩ => ⟨S200000x256, .f32⟩
  | .hbm, ⟨54, _⟩ => ⟨S200000x256, .f32⟩
  | .hbm, ⟨55, _⟩ => ⟨S200000x256, .f32⟩
  | .hbm, ⟨56, _⟩ => ⟨S_, .f32⟩
  | .hbm, ⟨57, _⟩ => ⟨S200000, .f32⟩
  | .hbm, ⟨58, _⟩ => ⟨S200000, .f32⟩
  | .hbm, ⟨59, _⟩ => ⟨S_, .f32⟩
  | .hbm, ⟨60, _⟩ => ⟨S200000, .f32⟩
  | .hbm, ⟨61, _⟩ => ⟨S200000, .f32⟩
  | .hbm, ⟨62, _⟩ => ⟨S_, .f32⟩
  | .hbm, ⟨63, _⟩ => ⟨S200000, .f32⟩
  | .hbm, ⟨64, _⟩ => ⟨S200000, .f32⟩
  | .hbm, ⟨65, _⟩ => ⟨S_, .f32⟩
  | .hbm, ⟨66, _⟩ => ⟨S_, .f32⟩
  | .hbm, ⟨67, _⟩ => ⟨S_, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_4 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_c_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_8 : Ref sig .tc := ⟨.hbm, 56, rfl⟩
abbrev main_v43 : Ref sig .tc := ⟨.hbm, 57, rfl⟩
abbrev main_v44 : Ref sig .tc := ⟨.hbm, 58, rfl⟩
abbrev main_cst_9 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_cst_11 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]

class Facts₀ : Prop where
  slices_S200000x2_S200000x1_0_0 : S200000x2.Slices ![0, 0] S200000x1
  shapeCasts_S200000x1_S200000 : S200000x1.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S200000x2_S200000x1_0_1 : S200000x2.Slices ![0, 1] S200000x1
  reducesTo_S200000x256_S200000_d1 : S200000x256.ReducesTo [1] S200000
  h_S_ : 0 < S_.numel
  reducesTo_S200000_S_d0 : S200000.ReducesTo [0] S_
  gather_S100000x256_S200000x1_S200000x256_1_0_n_n_0_1_1256_wf : GatherDims.WF S100000x256 S200000x1 S200000x256 [1] [0] [] [0] [] 1 ![1, 256]

variable [Facts₀]

def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf

class Facts : Prop extends Facts₀ where

variable [Facts]
-- ==== Proof.Call0Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0: one pair per grid point, its distance added to a one-entry accumulator

The body's only branch tests whether the point is the first of the grid: there the accumulator is reset to zero
before the pair's distance is added; at every later point the distance is added to what the point before left. -/

/-- The branch condition, from the grid coordinate: the point is the first. -/
abbrev cond (i : grid0.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v5
abbrev htbA : tbA.IsWhole := Memref.isWhole_whole _
abbrev tbB : Memref sig .tc .smem S25000 .i32 := Memref.whole main_v6
abbrev htbB : tbB.IsWhole := Memref.isWhole_whole _

/-- The accumulator's staging buffer, through which its contents are stated. -/
abbrev VO : View sig .tc .vmem S1x1 .f32 := (Memref.whole cc0_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc0_kernel i tbA htbA tbB htbB arg3 harg3 arg4 harg4 arg5 harg5) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc0_kernel i tbA htbA tbB htbB arg3 harg3 arg4 harg4 arg5 harg5) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call0

end
-- ==== Proof.FirstPoint.lean ====
import Idealize.ShloMosaic.PureOps

namespace Cert.FirstPoint

open Idealize.ShloMosaic

/-- The body's branch condition as a statement about the grid coordinate `n`: the compare-extend-compare chain
    yields the set bit exactly at the first point. -/
theorem cond_iff (n : ℕ) (hn : n < 25000) :
    (Scalar.cmpi .ne (Scalar.extui (Scalar.cmpi .eq (BitVec.ofNat 32 n) 0#32)) 0#32) = 1#1 ↔ n = 0 := by
  by_cases h0 : n = 0
  · subst h0; exact ⟨fun _ => rfl, fun _ => by decide⟩
  · refine ⟨fun h => absurd h ?_, fun h => absurd h h0⟩
    have hne : BitVec.ofNat 32 n ≠ 0#32 := by
      intro e
      have := congrArg BitVec.toNat e
      simp only [BitVec.toNat_ofNat, BitVec.toNat_zero] at this
      omega
    have h1 : Scalar.cmpi .eq (BitVec.ofNat 32 n) 0#32 = 0#1 := by
      have hb : (BitVec.ofNat 32 n == 0#32) = false := beq_eq_false_iff_ne.mpr hne
      simp [Scalar.cmpi, IntOp.cmpi, hb]
    rw [h1]
    decide

end Cert.FirstPoint
-- ==== Proof.Call0Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call0Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0 over any entry contents: blocks, the running accumulator, the proof data, the body at a point -/

variable (V : (c : Dev nD) → (b : Ref sig .tc) → Buf (Elt F) ((c : Thread nD τ).loc b))

/-- The two index tables' contents when the region is entered (one device). -/
def tbl : pre0.Contents (Elt F) := fun j => V (0 : Dev nD) (pre0.ref j)
theorem V_pre (c : Dev nD) (j : Fin 2) : V c (pre0.ref j) = tbl V j := by
  obtain rfl : c = 0 := Subsingleton.elim _ _; rfl
/-- Every row the tables name lies inside the array of rows. -/
abbrev Ok : Prop := ok0 (F := F) (tbl V)
abbrev adm (hO : Ok V) : (pcfg0 (F := F)).Adm := ⟨tbl V, hO⟩
abbrev cfgM (hO : Ok V) : Pipeline.Cfg sig Λ₀ := cfg0 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec0 w))

/-- The staging memrefs the body is handed at point `t`. -/
abbrev ms0 (hO : Ok V) (t : Fin (cfgM V hO).N) : Memref sig .tc .vmem S1x1x256 .f32 := spec0_0.stage ((cfgM V hO).slots t 0)
abbrev hs0 (hO : Ok V) (t : Fin (cfgM V hO).N) : (ms0 V hO t).IsWhole := hstage0_0 (((cfgM V hO).slots t 0).cast nbuf0_0)
abbrev ms1 (hO : Ok V) (t : Fin (cfgM V hO).N) : Memref sig .tc .vmem S1x1x256 .f32 := spec0_1.stage ((cfgM V hO).slots t 1)
abbrev hs1 (hO : Ok V) (t : Fin (cfgM V hO).N) : (ms1 V hO t).IsWhole := hstage0_1 (((cfgM V hO).slots t 1).cast nbuf0_1)
abbrev ms2 (hO : Ok V) (t : Fin (cfgM V hO).N) : Memref sig .tc .vmem S1x1 .f32 := spec0_2.stage ((cfgM V hO).slots t 2)
abbrev hs2 (hO : Ok V) (t : Fin (cfgM V hO).N) : (ms2 V hO t).IsWhole := hstage0_2 (((cfgM V hO).slots t 2).cast nbuf0_2)

/-- The body as the pipeline calls it at point `t`. -/
abbrev bodyAt (a : (pcfg0 (F := F)).Adm) (t : Fin (cfg0 a).N) : Prog (TpuEff nD τ sig (Elt F) Λ₀ .tc) PUnit :=
  cc0_kernel (grid0.coords t) (Memref.whole main_v5) (Memref.isWhole_whole _) (Memref.whole main_v6) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

/-- The one grid coordinate of point `t` is `t`. -/
theorem coords_val (t : Fin grid0.N) : ((grid0.coords t) 0).val = t.val := by
  have hN : t.val < 25000 := lt_of_lt_of_eq t.isLt N_0
  show t.val / grid0.stride 0 % grid0.bound 0 = t.val
  rw [show grid0.stride 0 = 1 from by decide, show grid0.bound 0 = 25000 from rfl, Nat.div_one, Nat.mod_eq_of_lt hN]

/-- The branch is taken at the first point only. -/
theorem hcond (t : Fin grid0.N) : cond (grid0.coords t) ↔ t.val = 0 := by
  exact (Cert.FirstPoint.cond_iff ((grid0.coords t) 0).val ((grid0.coords t) 0).isLt).trans (by rw [coords_val])

/-! ## What the accumulator's buffer holds after each case -/

theorem coverFirst (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid0.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid0.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid0.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid0.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 0 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec0 w)
  after w t := match w with
    | ⟨0, _⟩ => iblk V hO c 0 t
    | ⟨1, _⟩ => iblk V hO c 1 t
    | ⟨2, _⟩ => accAt V hO c t.val t.isLt
  Φ _ := iprop(Pipeline.ΦA spec0 c ∗ Pipeline.prefHeld (Ix := Unit) (Name := ℕ) (U := UR sig nD τ) (Lvl := ℕ) pre0 c (fun _ => fullShare) (tbl V))
  q w := if w = 0 then fullShare.left else fullShare.right
  owed _ := 0

theorem A_eq (hO : Ok V) (c : Dev nD) (w : Fin (cfgM V hO).W) : (dat V hO c).A w = V c (Pipeline.arrRef spec0 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg0 (F := F)).Adm) (t : Fin (cfg0 a).N) (ht : t.val + 1 < (cfg0 a).N) : ((cfg0 a).win 2).flush t = false := by
  have hix : ∀ s : Fin (cfg0 a).N, ((cfg0 a).win 2).index s = ![0, 0] := fun _ => rfl
  unfold Pipeline.Window.flush
  rw [Bool.and_eq_false_iff]; right
  rw [Bool.or_eq_false_iff]
  refine ⟨decide_eq_false (by have : (cfg0 a).N = (cfg0 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg0 (adm V hO)).N := t.isLt
  rw [Dat.before_out_kept _ 2 rfl t h0 (flush_2 (adm V hO) _ (by show t.val - 1 + 1 < (cfg0 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v7 ((dat (Vin W) hO c).arrAt 2 (cfgM (Vin W) hO).N)

end Cert.KernelIdeal.Call0

end
-- ==== Proof.Call0Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call0Data
import Idealize.ShloMosaic.Lib.Pipeline.FrameBody
import Idealize.ShloMosaic.Lib.Ring
import Idealize.ShloMosaic.Lib.Tactic

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid0.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid0.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W0, bigSep_W0]
  exact sound_body V hO c t

end Cert.KernelIdeal.Call0

end
-- ==== Proof.Call0Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call0Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec0)) = {main_v0, main_v7} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec0 c V
      ∗ Pipeline.prefHeld pre0 c (fun _ => fullShare) (fun k => V (pre0.ref k)) ∗ Pipeline.unscopedRestP pre0 spec0 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀0.arr_unscoped c V
  have hrs := Pipeline.unscopedRest_split (Ix := Unit) (Name := ℕ) (U := UR sig nD τ) (Lvl := ℕ) (nD := nD) (τ := τ) (Val := Elt F)
    preFacts0 c V
  rw [hsp, show Pipeline.unscopedRest (cfgM (Vin W) hO).spec c V = Pipeline.unscopedRest (Ix := Unit) (Name := ℕ) (U := UR sig nD τ) (Lvl := ℕ) spec0 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec0 c V : sProp 𝕄)
      = iprop((((c : Thread nD τ).loc main_v0) ↦{fullShare} V main_v0) ∗ (((c : Thread nD τ).loc main_v7) ↦{fullShare} V main_v7)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v7) ↦{fullShare} Vin W c main_v7)) := by
  unfold Pipeline.Dat.arrays
  rw [bigSep_W0]
  have hs0 : ((cfgM (Vin W) hO).win (0 : Fin 3)).arr.view.set = Finset.univ := (arr_whole0 0).set_eq_univ
  have hs1 : ((cfgM (Vin W) hO).win (1 : Fin 3)).arr.view.set = Finset.univ := (arr_whole0 1).set_eq_univ
  have hs2 : ((cfgM (Vin W) hO).win (2 : Fin 3)).arr.view.set = Finset.univ := (arr_whole0 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v7 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v7) ↦{fullShare} Vin W c main_v7))
          ∗ Pipeline.prefHeld pre0 c (fun _ => fullShare) (tbl (Vin W)) ∗ Pipeline.unscopedRestP pre0 spec0 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre0.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre0 c (fun _ => fullShare) (tbl (Vin W))
          ∗ (dat (Vin W) hO c).owesAt () 0 ∗ (∃ r, prngReg c r) ∗ Pipeline.unscopedRestP pre0 spec0 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v7) ↦{fullShare} (dat (Vin W) hO c).arrAt 2 (cfgM (Vin W) hO).N)) := by
  unfold Pipeline.Dat.arrays
  rw [bigSep_W0]
  have hs0 : ((cfgM (Vin W) hO).win (0 : Fin 3)).arr.view.set = Finset.univ := (arr_whole0 0).set_eq_univ
  have hs1 : ((cfgM (Vin W) hO).win (1 : Fin 3)).arr.view.set = Finset.univ := (arr_whole0 1).set_eq_univ
  have hs2 : ((cfgM (Vin W) hO).win (2 : Fin 3)).arr.view.set = Finset.univ := (arr_whole0 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v7 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v7) ↦{fullShare} (dat (Vin W) hO c).arrAt 2 (cfgM (Vin W) hO).N))
          ∗ Pipeline.prefHeld pre0 c (fun _ => fullShare) (tbl (Vin W)) ∗ Pipeline.unscopedRestP pre0 spec0 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v7 = (dat (Vin W) hO c).arrAt 2 (cfgM (Vin W) hO).N := Function.update_self _ _ _
  have et : (fun k => Vin (Wout W hO) c (pre0.ref k)) = tbl (Vin W) := funext fun k => by
    refine (Function.update_of_ne ?_ _ _).trans (V_pre (Vin W) c k)
    intro e
    have := Proc.devRef_injective _ e
    revert k; decide
  have er : (Pipeline.unscopedRestP pre0 spec0 c (Vin (Wout W hO) c) : sProp 𝕄) = Pipeline.unscopedRestP pre0 spec0 c (Vin W c) := by
    unfold Pipeline.unscopedRestP
    refine bigSep_congr fun b hb => ?_
    have hb1 : b ∉ Finset.univ.image (Pipeline.arrRef spec0) := (Finset.mem_sdiff.mp (Finset.mem_sdiff.mp hb).1).2
    have hne : b ≠ main_v7 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre0 c (fun _ => fullShare) (tbl (Vin W)))
        ∗ Pipeline.unscopedRestP pre0 spec0 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre0 c (fun _ => fullShare) (tbl (Vin W)) ∗ Pipeline.scopedRest spec0 c) : sProp 𝕄)
      ⊢ (dat (Vin W) hO c).Φ 0 := by
  rw [show (dat (Vin W) hO c).Φ 0 = iprop(Pipeline.ΦA spec0 c ∗ Pipeline.prefHeld (Ix := Unit) (Name := ℕ) (U := UR sig nD τ) (Lvl := ℕ) pre0 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre0 c (fun _ => fullShare) (tbl (Vin W))) ∗ Pipeline.scopedRest spec0 c) : sProp 𝕄) := by
  rw [show (dat (Vin W) hO c).Φ (Fin.last _) = iprop(Pipeline.ΦA spec0 c ∗ Pipeline.prefHeld (Ix := Unit) (Name := ℕ) (U := UR sig nD τ) (Lvl := ℕ) pre0 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call0

end
-- ==== Proof.Call1Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1: one pair per grid point, its distance added to a one-entry accumulator

The body's only branch tests whether the point is the first of the grid: there the accumulator is reset to zero
before the pair's distance is added; at every later point the distance is added to what the point before left. -/

/-- The branch condition, from the grid coordinate: the point is the first. -/
abbrev cond (i : grid1.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v10
abbrev htbA : tbA.IsWhole := Memref.isWhole_whole _
abbrev tbB : Memref sig .tc .smem S25000 .i32 := Memref.whole main_v11
abbrev htbB : tbB.IsWhole := Memref.isWhole_whole _

/-- The accumulator's staging buffer, through which its contents are stated. -/
abbrev VO : View sig .tc .vmem S1x1 .f32 := (Memref.whole cc1_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc1_kernel i tbA htbA tbB htbB arg3 harg3 arg4 harg4 arg5 harg5) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc1_kernel i tbA htbA tbB htbB arg3 harg3 arg4 harg4 arg5 harg5) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call1

end
-- ==== Proof.Call1Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call1Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1 over any entry contents: blocks, the running accumulator, the proof data, the body at a point -/

variable (V : (c : Dev nD) → (b : Ref sig .tc) → Buf (Elt F) ((c : Thread nD τ).loc b))

/-- The two index tables' contents when the region is entered (one device). -/
def tbl : pre1.Contents (Elt F) := fun j => V (0 : Dev nD) (pre1.ref j)
theorem V_pre (c : Dev nD) (j : Fin 2) : V c (pre1.ref j) = tbl V j := by
  obtain rfl : c = 0 := Subsingleton.elim _ _; rfl
/-- Every row the tables name lies inside the array of rows. -/
abbrev Ok : Prop := ok1 (F := F) (tbl V)
abbrev adm (hO : Ok V) : (pcfg1 (F := F)).Adm := ⟨tbl V, hO⟩
abbrev cfgM (hO : Ok V) : Pipeline.Cfg sig Λ₀ := cfg1 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec1 w))

/-- The staging memrefs the body is handed at point `t`. -/
abbrev ms0 (hO : Ok V) (t : Fin (cfgM V hO).N) : Memref sig .tc .vmem S1x1x256 .f32 := spec1_0.stage ((cfgM V hO).slots t 0)
abbrev hs0 (hO : Ok V) (t : Fin (cfgM V hO).N) : (ms0 V hO t).IsWhole := hstage1_0 (((cfgM V hO).slots t 0).cast nbuf1_0)
abbrev ms1 (hO : Ok V) (t : Fin (cfgM V hO).N) : Memref sig .tc .vmem S1x1x256 .f32 := spec1_1.stage ((cfgM V hO).slots t 1)
abbrev hs1 (hO : Ok V) (t : Fin (cfgM V hO).N) : (ms1 V hO t).IsWhole := hstage1_1 (((cfgM V hO).slots t 1).cast nbuf1_1)
abbrev ms2 (hO : Ok V) (t : Fin (cfgM V hO).N) : Memref sig .tc .vmem S1x1 .f32 := spec1_2.stage ((cfgM V hO).slots t 2)
abbrev hs2 (hO : Ok V) (t : Fin (cfgM V hO).N) : (ms2 V hO t).IsWhole := hstage1_2 (((cfgM V hO).slots t 2).cast nbuf1_2)

/-- The body as the pipeline calls it at point `t`. -/
abbrev bodyAt (a : (pcfg1 (F := F)).Adm) (t : Fin (cfg1 a).N) : Prog (TpuEff nD τ sig (Elt F) Λ₀ .tc) PUnit :=
  cc1_kernel (grid1.coords t) (Memref.whole main_v10) (Memref.isWhole_whole _) (Memref.whole main_v11) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))

/-- The one grid coordinate of point `t` is `t`. -/
theorem coords_val (t : Fin grid1.N) : ((grid1.coords t) 0).val = t.val := by
  have hN : t.val < 25000 := lt_of_lt_of_eq t.isLt N_1
  show t.val / grid1.stride 0 % grid1.bound 0 = t.val
  rw [show grid1.stride 0 = 1 from by decide, show grid1.bound 0 = 25000 from rfl, Nat.div_one, Nat.mod_eq_of_lt hN]

/-- The branch is taken at the first point only. -/
theorem hcond (t : Fin grid1.N) : cond (grid1.coords t) ↔ t.val = 0 := by
  exact (Cert.FirstPoint.cond_iff ((grid1.coords t) 0).val ((grid1.coords t) 0).isLt).trans (by rw [coords_val])

/-! ## What the accumulator's buffer holds after each case -/

theorem coverFirst (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid1.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid1.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid1.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid1.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 1 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec1 w)
  after w t := match w with
    | ⟨0, _⟩ => iblk V hO c 0 t
    | ⟨1, _⟩ => iblk V hO c 1 t
    | ⟨2, _⟩ => accAt V hO c t.val t.isLt
  Φ _ := iprop(Pipeline.ΦA spec1 c ∗ Pipeline.prefHeld (Ix := Unit) (Name := ℕ) (U := UR sig nD τ) (Lvl := ℕ) pre1 c (fun _ => fullShare) (tbl V))
  q w := if w = 0 then fullShare.left else fullShare.right
  owed _ := 0

theorem A_eq (hO : Ok V) (c : Dev nD) (w : Fin (cfgM V hO).W) : (dat V hO c).A w = V c (Pipeline.arrRef spec1 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg1 (F := F)).Adm) (t : Fin (cfg1 a).N) (ht : t.val + 1 < (cfg1 a).N) : ((cfg1 a).win 2).flush t = false := by
  have hix : ∀ s : Fin (cfg1 a).N, ((cfg1 a).win 2).index s = ![0, 0] := fun _ => rfl
  unfold Pipeline.Window.flush
  rw [Bool.and_eq_false_iff]; right
  rw [Bool.or_eq_false_iff]
  refine ⟨decide_eq_false (by have : (cfg1 a).N = (cfg1 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg1 (adm V hO)).N := t.isLt
  rw [Dat.before_out_kept _ 2 rfl t h0 (flush_2 (adm V hO) _ (by show t.val - 1 + 1 < (cfg1 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v12 ((dat (Vin W) hO c).arrAt 2 (cfgM (Vin W) hO).N)

end Cert.KernelIdeal.Call1

end
-- ==== Proof.Call1Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call1Data
import Idealize.ShloMosaic.Lib.Pipeline.FrameBody
import Idealize.ShloMosaic.Lib.Ring
import Idealize.ShloMosaic.Lib.Tactic

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid1.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid1.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W1, bigSep_W1]
  exact sound_body V hO c t

end Cert.KernelIdeal.Call1

end
-- ==== Proof.Call1Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call1Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec1)) = {main_v0, main_v12} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec1 c V
      ∗ Pipeline.prefHeld pre1 c (fun _ => fullShare) (fun k => V (pre1.ref k)) ∗ Pipeline.unscopedRestP pre1 spec1 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀1.arr_unscoped c V
  have hrs := Pipeline.unscopedRest_split (Ix := Unit) (Name := ℕ) (U := UR sig nD τ) (Lvl := ℕ) (nD := nD) (τ := τ) (Val := Elt F)
    preFacts1 c V
  rw [hsp, show Pipeline.unscopedRest (cfgM (Vin W) hO).spec c V = Pipeline.unscopedRest (Ix := Unit) (Name := ℕ) (U := UR sig nD τ) (Lvl := ℕ) spec1 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec1 c V : sProp 𝕄)
      = iprop((((c : Thread nD τ).loc main_v0) ↦{fullShare} V main_v0) ∗ (((c : Thread nD τ).loc main_v12) ↦{fullShare} V main_v12)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v12) ↦{fullShare} Vin W c main_v12)) := by
  unfold Pipeline.Dat.arrays
  rw [bigSep_W1]
  have hs0 : ((cfgM (Vin W) hO).win (0 : Fin 3)).arr.view.set = Finset.univ := (arr_whole1 0).set_eq_univ
  have hs1 : ((cfgM (Vin W) hO).win (1 : Fin 3)).arr.view.set = Finset.univ := (arr_whole1 1).set_eq_univ
  have hs2 : ((cfgM (Vin W) hO).win (2 : Fin 3)).arr.view.set = Finset.univ := (arr_whole1 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v12 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v12) ↦{fullShare} Vin W c main_v12))
          ∗ Pipeline.prefHeld pre1 c (fun _ => fullShare) (tbl (Vin W)) ∗ Pipeline.unscopedRestP pre1 spec1 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre1.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre1 c (fun _ => fullShare) (tbl (Vin W))
          ∗ (dat (Vin W) hO c).owesAt () 0 ∗ (∃ r, prngReg c r) ∗ Pipeline.unscopedRestP pre1 spec1 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v12) ↦{fullShare} (dat (Vin W) hO c).arrAt 2 (cfgM (Vin W) hO).N)) := by
  unfold Pipeline.Dat.arrays
  rw [bigSep_W1]
  have hs0 : ((cfgM (Vin W) hO).win (0 : Fin 3)).arr.view.set = Finset.univ := (arr_whole1 0).set_eq_univ
  have hs1 : ((cfgM (Vin W) hO).win (1 : Fin 3)).arr.view.set = Finset.univ := (arr_whole1 1).set_eq_univ
  have hs2 : ((cfgM (Vin W) hO).win (2 : Fin 3)).arr.view.set = Finset.univ := (arr_whole1 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v12 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v12) ↦{fullShare} (dat (Vin W) hO c).arrAt 2 (cfgM (Vin W) hO).N))
          ∗ Pipeline.prefHeld pre1 c (fun _ => fullShare) (tbl (Vin W)) ∗ Pipeline.unscopedRestP pre1 spec1 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v12 = (dat (Vin W) hO c).arrAt 2 (cfgM (Vin W) hO).N := Function.update_self _ _ _
  have et : (fun k => Vin (Wout W hO) c (pre1.ref k)) = tbl (Vin W) := funext fun k => by
    refine (Function.update_of_ne ?_ _ _).trans (V_pre (Vin W) c k)
    intro e
    have := Proc.devRef_injective _ e
    revert k; decide
  have er : (Pipeline.unscopedRestP pre1 spec1 c (Vin (Wout W hO) c) : sProp 𝕄) = Pipeline.unscopedRestP pre1 spec1 c (Vin W c) := by
    unfold Pipeline.unscopedRestP
    refine bigSep_congr fun b hb => ?_
    have hb1 : b ∉ Finset.univ.image (Pipeline.arrRef spec1) := (Finset.mem_sdiff.mp (Finset.mem_sdiff.mp hb).1).2
    have hne : b ≠ main_v12 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre1 c (fun _ => fullShare) (tbl (Vin W)))
        ∗ Pipeline.unscopedRestP pre1 spec1 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre1 c (fun _ => fullShare) (tbl (Vin W)) ∗ Pipeline.scopedRest spec1 c) : sProp 𝕄)
      ⊢ (dat (Vin W) hO c).Φ 0 := by
  rw [show (dat (Vin W) hO c).Φ 0 = iprop(Pipeline.ΦA spec1 c ∗ Pipeline.prefHeld (Ix := Unit) (Name := ℕ) (U := UR sig nD τ) (Lvl := ℕ) pre1 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre1 c (fun _ => fullShare) (tbl (Vin W))) ∗ Pipeline.scopedRest spec1 c) : sProp 𝕄) := by
  rw [show (dat (Vin W) hO c).Φ (Fin.last _) = iprop(Pipeline.ΦA spec1 c ∗ Pipeline.prefHeld (Ix := Unit) (Name := ℕ) (U := UR sig nD τ) (Lvl := ℕ) pre1 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call1

end
-- ==== Proof.Call2Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2: one pair per grid point, its distance added to a one-entry accumulator

The body's only branch tests whether the point is the first of the grid: there the accumulator is reset to zero
before the pair's distance is added; at every later point the distance is added to what the point before left. -/

/-- The branch condition, from the grid coordinate: the point is the first. -/
abbrev cond (i : grid2.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v15
abbrev htbA : tbA.IsWhole := Memref.isWhole_whole _
abbrev tbB : Memref sig .tc .smem S25000 .i32 := Memref.whole main_v16
abbrev htbB : tbB.IsWhole := Memref.isWhole_whole _

/-- The accumulator's staging buffer, through which its contents are stated. -/
abbrev VO : View sig .tc .vmem S1x1 .f32 := (Memref.whole cc2_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc2_kernel i tbA htbA tbB htbB arg3 harg3 arg4 harg4 arg5 harg5) K } := by
  refine ⟨?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc2_kernel i tbA htbA tbB htbB arg3 harg3 arg4 harg4 arg5 harg5) K } := by
  refine ⟨?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call2

end
-- ==== Proof.Call2Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call2Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2 over any entry contents: blocks, the running accumulator, the proof data, the body at a point -/

variable (V : (c : Dev nD) → (b : Ref sig .tc) → Buf (Elt F) ((c : Thread nD τ).loc b))

/-- The two index tables' contents when the region is entered (one device). -/
def tbl : pre2.Contents (Elt F) := fun j => V (0 : Dev nD) (pre2.ref j)
theorem V_pre (c : Dev nD) (j : Fin 2) : V c (pre2.ref j) = tbl V j := by
  obtain rfl : c = 0 := Subsingleton.elim _ _; rfl
/-- Every row the tables name lies inside the array of rows. -/
abbrev Ok : Prop := ok2 (F := F) (tbl V)
abbrev adm (hO : Ok V) : (pcfg2 (F := F)).Adm := ⟨tbl V, hO⟩
abbrev cfgM (hO : Ok V) : Pipeline.Cfg sig Λ₀ := cfg2 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec2 w))

/-- The staging memrefs the body is handed at point `t`. -/
abbrev ms0 (hO : Ok V) (t : Fin (cfgM V hO).N) : Memref sig .tc .vmem S1x1x256 .f32 := spec2_0.stage ((cfgM V hO).slots t 0)
abbrev hs0 (hO : Ok V) (t : Fin (cfgM V hO).N) : (ms0 V hO t).IsWhole := hstage2_0 (((cfgM V hO).slots t 0).cast nbuf2_0)
abbrev ms1 (hO : Ok V) (t : Fin (cfgM V hO).N) : Memref sig .tc .vmem S1x1x256 .f32 := spec2_1.stage ((cfgM V hO).slots t 1)
abbrev hs1 (hO : Ok V) (t : Fin (cfgM V hO).N) : (ms1 V hO t).IsWhole := hstage2_1 (((cfgM V hO).slots t 1).cast nbuf2_1)
abbrev ms2 (hO : Ok V) (t : Fin (cfgM V hO).N) : Memref sig .tc .vmem S1x1 .f32 := spec2_2.stage ((cfgM V hO).slots t 2)
abbrev hs2 (hO : Ok V) (t : Fin (cfgM V hO).N) : (ms2 V hO t).IsWhole := hstage2_2 (((cfgM V hO).slots t 2).cast nbuf2_2)

/-- The body as the pipeline calls it at point `t`. -/
abbrev bodyAt (a : (pcfg2 (F := F)).Adm) (t : Fin (cfg2 a).N) : Prog (TpuEff nD τ sig (Elt F) Λ₀ .tc) PUnit :=
  cc2_kernel (grid2.coords t) (Memref.whole main_v15) (Memref.isWhole_whole _) (Memref.whole main_v16) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))

/-- The one grid coordinate of point `t` is `t`. -/
theorem coords_val (t : Fin grid2.N) : ((grid2.coords t) 0).val = t.val := by
  have hN : t.val < 25000 := lt_of_lt_of_eq t.isLt N_2
  show t.val / grid2.stride 0 % grid2.bound 0 = t.val
  rw [show grid2.stride 0 = 1 from by decide, show grid2.bound 0 = 25000 from rfl, Nat.div_one, Nat.mod_eq_of_lt hN]

/-- The branch is taken at the first point only. -/
theorem hcond (t : Fin grid2.N) : cond (grid2.coords t) ↔ t.val = 0 := by
  exact (Cert.FirstPoint.cond_iff ((grid2.coords t) 0).val ((grid2.coords t) 0).isLt).trans (by rw [coords_val])

/-! ## What the accumulator's buffer holds after each case -/

theorem coverFirst (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid2.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid2.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid2.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid2.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 2 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec2 w)
  after w t := match w with
    | ⟨0, _⟩ => iblk V hO c 0 t
    | ⟨1, _⟩ => iblk V hO c 1 t
    | ⟨2, _⟩ => accAt V hO c t.val t.isLt
  Φ _ := iprop(Pipeline.ΦA spec2 c ∗ Pipeline.prefHeld (Ix := Unit) (Name := ℕ) (U := UR sig nD τ) (Lvl := ℕ) pre2 c (fun _ => fullShare) (tbl V))
  q w := if w = 0 then fullShare.left else fullShare.right
  owed _ := 0

theorem A_eq (hO : Ok V) (c : Dev nD) (w : Fin (cfgM V hO).W) : (dat V hO c).A w = V c (Pipeline.arrRef spec2 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg2 (F := F)).Adm) (t : Fin (cfg2 a).N) (ht : t.val + 1 < (cfg2 a).N) : ((cfg2 a).win 2).flush t = false := by
  have hix : ∀ s : Fin (cfg2 a).N, ((cfg2 a).win 2).index s = ![0, 0] := fun _ => rfl
  unfold Pipeline.Window.flush
  rw [Bool.and_eq_false_iff]; right
  rw [Bool.or_eq_false_iff]
  refine ⟨decide_eq_false (by have : (cfg2 a).N = (cfg2 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg2 (adm V hO)).N := t.isLt
  rw [Dat.before_out_kept _ 2 rfl t h0 (flush_2 (adm V hO) _ (by show t.val - 1 + 1 < (cfg2 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v17 ((dat (Vin W) hO c).arrAt 2 (cfgM (Vin W) hO).N)

end Cert.KernelIdeal.Call2

end
-- ==== Proof.Call2Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call2Data
import Idealize.ShloMosaic.Lib.Pipeline.FrameBody
import Idealize.ShloMosaic.Lib.Ring
import Idealize.ShloMosaic.Lib.Tactic

set_option maxRecDepth 16384

noncomputable section

namespace Cert.KernelIdeal.Call2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid2.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid2.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W2, bigSep_W2]
  exact sound_body V hO c t

end Cert.KernelIdeal.Call2

end
-- ==== Proof.Call2Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call2Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec2)) = {main_v0, main_v17} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec2 c V
      ∗ Pipeline.prefHeld pre2 c (fun _ => fullShare) (fun k => V (pre2.ref k)) ∗ Pipeline.unscopedRestP pre2 spec2 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀2.arr_unscoped c V
  have hrs := Pipeline.unscopedRest_split (Ix := Unit) (Name := ℕ) (U := UR sig nD τ) (Lvl := ℕ) (nD := nD) (τ := τ) (Val := Elt F)
    preFacts2 c V
  rw [hsp, show Pipeline.unscopedRest (cfgM (Vin W) hO).spec c V = Pipeline.unscopedRest (Ix := Unit) (Name := ℕ) (U := UR sig nD τ) (Lvl := ℕ) spec2 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec2 c V : sProp 𝕄)
      = iprop((((c : Thread nD τ).loc main_v0) ↦{fullShare} V main_v0) ∗ (((c : Thread nD τ).loc main_v17) ↦{fullShare} V main_v17)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v17) ↦{fullShare} Vin W c main_v17)) := by
  unfold Pipeline.Dat.arrays
  rw [bigSep_W2]
  have hs0 : ((cfgM (Vin W) hO).win (0 : Fin 3)).arr.view.set = Finset.univ := (arr_whole2 0).set_eq_univ
  have hs1 : ((cfgM (Vin W) hO).win (1 : Fin 3)).arr.view.set = Finset.univ := (arr_whole2 1).set_eq_univ
  have hs2 : ((cfgM (Vin W) hO).win (2 : Fin 3)).arr.view.set = Finset.univ := (arr_whole2 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v17 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v17) ↦{fullShare} Vin W c main_v17))
          ∗ Pipeline.prefHeld pre2 c (fun _ => fullShare) (tbl (Vin W)) ∗ Pipeline.unscopedRestP pre2 spec2 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre2.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre2 c (fun _ => fullShare) (tbl (Vin W))
          ∗ (dat (Vin W) hO c).owesAt () 0 ∗ (∃ r, prngReg c r) ∗ Pipeline.unscopedRestP pre2 spec2 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v17) ↦{fullShare} (dat (Vin W) hO c).arrAt 2 (cfgM (Vin W) hO).N)) := by
  unfold Pipeline.Dat.arrays
  rw [bigSep_W2]
  have hs0 : ((cfgM (Vin W) hO).win (0 : Fin 3)).arr.view.set = Finset.univ := (arr_whole2 0).set_eq_univ
  have hs1 : ((cfgM (Vin W) hO).win (1 : Fin 3)).arr.view.set = Finset.univ := (arr_whole2 1).set_eq_univ
  have hs2 : ((cfgM (Vin W) hO).win (2 : Fin 3)).arr.view.set = Finset.univ := (arr_whole2 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v17 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v17) ↦{fullShare} (dat (Vin W) hO c).arrAt 2 (cfgM (Vin W) hO).N))
          ∗ Pipeline.prefHeld pre2 c (fun _ => fullShare) (tbl (Vin W)) ∗ Pipeline.unscopedRestP pre2 spec2 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v17 = (dat (Vin W) hO c).arrAt 2 (cfgM (Vin W) hO).N := Function.update_self _ _ _
  have et : (fun k => Vin (Wout W hO) c (pre2.ref k)) = tbl (Vin W) := funext fun k => by
    refine (Function.update_of_ne ?_ _ _).trans (V_pre (Vin W) c k)
    intro e
    have := Proc.devRef_injective _ e
    revert k; decide
  have er : (Pipeline.unscopedRestP pre2 spec2 c (Vin (Wout W hO) c) : sProp 𝕄) = Pipeline.unscopedRestP pre2 spec2 c (Vin W c) := by
    unfold Pipeline.unscopedRestP
    refine bigSep_congr fun b hb => ?_
    have hb1 : b ∉ Finset.univ.image (Pipeline.arrRef spec2) := (Finset.mem_sdiff.mp (Finset.mem_sdiff.mp hb).1).2
    have hne : b ≠ main_v17 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre2 c (fun _ => fullShare) (tbl (Vin W)))
        ∗ Pipeline.unscopedRestP pre2 spec2 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre2 c (fun _ => fullShare) (tbl (Vin W)) ∗ Pipeline.scopedRest spec2 c) : sProp 𝕄)
      ⊢ (dat (Vin W) hO c).Φ 0 := by
  rw [show (dat (Vin W) hO c).Φ 0 = iprop(Pipeline.ΦA spec2 c ∗ Pipeline.prefHeld (Ix := Unit) (Name := ℕ) (U := UR sig nD τ) (Lvl := ℕ) pre2 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre2 c (fun _ => fullShare) (tbl (Vin W))) ∗ Pipeline.scopedRest spec2 c) : sProp 𝕄) := by
  rw [show (dat (Vin W) hO c).Φ (Fin.last _) = iprop(Pipeline.ΦA spec2 c ∗ Pipeline.prefHeld (Ix := Unit) (Name := ℕ) (U := UR sig nD τ) (Lvl := ℕ) pre2 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call2

end
-- ==== Proof.Call3Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 3: one pair per grid point, its distance added to a one-entry accumulator

The body's only branch tests whether the point is the first of the grid: there the accumulator is reset to zero
before the pair's distance is added; at every later point the distance is added to what the point before left. -/

/-- The branch condition, from the grid coordinate: the point is the first. -/
abbrev cond (i : grid3.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v20
abbrev htbA : tbA.IsWhole := Memref.isWhole_whole _
abbrev tbB : Memref sig .tc .smem S25000 .i32 := Memref.whole main_v21
abbrev htbB : tbB.IsWhole := Memref.isWhole_whole _

/-- The accumulator's staging buffer, through which its contents are stated. -/
abbrev VO : View sig .tc .vmem S1x1 .f32 := (Memref.whole cc3_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc3_kernel i tbA htbA tbB htbB arg3 harg3 arg4 harg4 arg5 harg5) K } := by
  refine ⟨?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc3_kernel i tbA htbA tbB htbB arg3 harg3 arg4 harg4 arg5 harg5) K } := by
  refine ⟨?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call3

end
-- ==== Proof.Call3Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call3Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 3 over any entry contents: blocks, the running accumulator, the proof data, the body at a point -/

variable (V : (c : Dev nD) → (b : Ref sig .tc) → Buf (Elt F) ((c : Thread nD τ).loc b))

/-- The two index tables' contents when the region is entered (one device). -/
def tbl : pre3.Contents (Elt F) := fun j => V (0 : Dev nD) (pre3.ref j)
theorem V_pre (c : Dev nD) (j : Fin 2) : V c (pre3.ref j) = tbl V j := by
  obtain rfl : c = 0 := Subsingleton.elim _ _; rfl
/-- Every row the tables name lies inside the array of rows. -/
abbrev Ok : Prop := ok3 (F := F) (tbl V)
abbrev adm (hO : Ok V) : (pcfg3 (F := F)).Adm := ⟨tbl V, hO⟩
abbrev cfgM (hO : Ok V) : Pipeline.Cfg sig Λ₀ := cfg3 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec3 w))

/-- The staging memrefs the body is handed at point `t`. -/
abbrev ms0 (hO : Ok V) (t : Fin (cfgM V hO).N) : Memref sig .tc .vmem S1x1x256 .f32 := spec3_0.stage ((cfgM V hO).slots t 0)
abbrev hs0 (hO : Ok V) (t : Fin (cfgM V hO).N) : (ms0 V hO t).IsWhole := hstage3_0 (((cfgM V hO).slots t 0).cast nbuf3_0)
abbrev ms1 (hO : Ok V) (t : Fin (cfgM V hO).N) : Memref sig .tc .vmem S1x1x256 .f32 := spec3_1.stage ((cfgM V hO).slots t 1)
abbrev hs1 (hO : Ok V) (t : Fin (cfgM V hO).N) : (ms1 V hO t).IsWhole := hstage3_1 (((cfgM V hO).slots t 1).cast nbuf3_1)
abbrev ms2 (hO : Ok V) (t : Fin (cfgM V hO).N) : Memref sig .tc .vmem S1x1 .f32 := spec3_2.stage ((cfgM V hO).slots t 2)
abbrev hs2 (hO : Ok V) (t : Fin (cfgM V hO).N) : (ms2 V hO t).IsWhole := hstage3_2 (((cfgM V hO).slots t 2).cast nbuf3_2)

/-- The body as the pipeline calls it at point `t`. -/
abbrev bodyAt (a : (pcfg3 (F := F)).Adm) (t : Fin (cfg3 a).N) : Prog (TpuEff nD τ sig (Elt F) Λ₀ .tc) PUnit :=
  cc3_kernel (grid3.coords t) (Memref.whole main_v20) (Memref.isWhole_whole _) (Memref.whole main_v21) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))
    (spec3_2.stage ((cfg3 a).slots t 2)) (hstage3_2 (((cfg3 a).slots t 2).cast nbuf3_2))

/-- The one grid coordinate of point `t` is `t`. -/
theorem coords_val (t : Fin grid3.N) : ((grid3.coords t) 0).val = t.val := by
  have hN : t.val < 25000 := lt_of_lt_of_eq t.isLt N_3
  show t.val / grid3.stride 0 % grid3.bound 0 = t.val
  rw [show grid3.stride 0 = 1 from by decide, show grid3.bound 0 = 25000 from rfl, Nat.div_one, Nat.mod_eq_of_lt hN]

/-- The branch is taken at the first point only. -/
theorem hcond (t : Fin grid3.N) : cond (grid3.coords t) ↔ t.val = 0 := by
  exact (Cert.FirstPoint.cond_iff ((grid3.coords t) 0).val ((grid3.coords t) 0).isLt).trans (by rw [coords_val])

/-! ## What the accumulator's buffer holds after each case -/

theorem coverFirst (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid3.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid3.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid3.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid3.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 3 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec3 w)
  after w t := match w with
    | ⟨0, _⟩ => iblk V hO c 0 t
    | ⟨1, _⟩ => iblk V hO c 1 t
    | ⟨2, _⟩ => accAt V hO c t.val t.isLt
  Φ _ := iprop(Pipeline.ΦA spec3 c ∗ Pipeline.prefHeld (Ix := Unit) (Name := ℕ) (U := UR sig nD τ) (Lvl := ℕ) pre3 c (fun _ => fullShare) (tbl V))
  q w := if w = 0 then fullShare.left else fullShare.right
  owed _ := 0

theorem A_eq (hO : Ok V) (c : Dev nD) (w : Fin (cfgM V hO).W) : (dat V hO c).A w = V c (Pipeline.arrRef spec3 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg3 (F := F)).Adm) (t : Fin (cfg3 a).N) (ht : t.val + 1 < (cfg3 a).N) : ((cfg3 a).win 2).flush t = false := by
  have hix : ∀ s : Fin (cfg3 a).N, ((cfg3 a).win 2).index s = ![0, 0] := fun _ => rfl
  unfold Pipeline.Window.flush
  rw [Bool.and_eq_false_iff]; right
  rw [Bool.or_eq_false_iff]
  refine ⟨decide_eq_false (by have : (cfg3 a).N = (cfg3 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg3 (adm V hO)).N := t.isLt
  rw [Dat.before_out_kept _ 2 rfl t h0 (flush_2 (adm V hO) _ (by show t.val - 1 + 1 < (cfg3 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v22 ((dat (Vin W) hO c).arrAt 2 (cfgM (Vin W) hO).N)

end Cert.KernelIdeal.Call3

end
-- ==== Proof.Call3Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call3Data
import Idealize.ShloMosaic.Lib.Pipeline.FrameBody
import Idealize.ShloMosaic.Lib.Ring
import Idealize.ShloMosaic.Lib.Tactic

set_option maxRecDepth 16384

noncomputable section

namespace Cert.KernelIdeal.Call3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 3: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid3.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid3.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W3, bigSep_W3]
  exact sound_body V hO c t

end Cert.KernelIdeal.Call3

end
-- ==== Proof.Call3Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call3Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 3 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec3)) = {main_v0, main_v22} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec3 c V
      ∗ Pipeline.prefHeld pre3 c (fun _ => fullShare) (fun k => V (pre3.ref k)) ∗ Pipeline.unscopedRestP pre3 spec3 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀3.arr_unscoped c V
  have hrs := Pipeline.unscopedRest_split (Ix := Unit) (Name := ℕ) (U := UR sig nD τ) (Lvl := ℕ) (nD := nD) (τ := τ) (Val := Elt F)
    preFacts3 c V
  rw [hsp, show Pipeline.unscopedRest (cfgM (Vin W) hO).spec c V = Pipeline.unscopedRest (Ix := Unit) (Name := ℕ) (U := UR sig nD τ) (Lvl := ℕ) spec3 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec3 c V : sProp 𝕄)
      = iprop((((c : Thread nD τ).loc main_v0) ↦{fullShare} V main_v0) ∗ (((c : Thread nD τ).loc main_v22) ↦{fullShare} V main_v22)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v22) ↦{fullShare} Vin W c main_v22)) := by
  unfold Pipeline.Dat.arrays
  rw [bigSep_W3]
  have hs0 : ((cfgM (Vin W) hO).win (0 : Fin 3)).arr.view.set = Finset.univ := (arr_whole3 0).set_eq_univ
  have hs1 : ((cfgM (Vin W) hO).win (1 : Fin 3)).arr.view.set = Finset.univ := (arr_whole3 1).set_eq_univ
  have hs2 : ((cfgM (Vin W) hO).win (2 : Fin 3)).arr.view.set = Finset.univ := (arr_whole3 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v22 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v22) ↦{fullShare} Vin W c main_v22))
          ∗ Pipeline.prefHeld pre3 c (fun _ => fullShare) (tbl (Vin W)) ∗ Pipeline.unscopedRestP pre3 spec3 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre3.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre3 c (fun _ => fullShare) (tbl (Vin W))
          ∗ (dat (Vin W) hO c).owesAt () 0 ∗ (∃ r, prngReg c r) ∗ Pipeline.unscopedRestP pre3 spec3 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v22) ↦{fullShare} (dat (Vin W) hO c).arrAt 2 (cfgM (Vin W) hO).N)) := by
  unfold Pipeline.Dat.arrays
  rw [bigSep_W3]
  have hs0 : ((cfgM (Vin W) hO).win (0 : Fin 3)).arr.view.set = Finset.univ := (arr_whole3 0).set_eq_univ
  have hs1 : ((cfgM (Vin W) hO).win (1 : Fin 3)).arr.view.set = Finset.univ := (arr_whole3 1).set_eq_univ
  have hs2 : ((cfgM (Vin W) hO).win (2 : Fin 3)).arr.view.set = Finset.univ := (arr_whole3 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v22 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v22) ↦{fullShare} (dat (Vin W) hO c).arrAt 2 (cfgM (Vin W) hO).N))
          ∗ Pipeline.prefHeld pre3 c (fun _ => fullShare) (tbl (Vin W)) ∗ Pipeline.unscopedRestP pre3 spec3 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v22 = (dat (Vin W) hO c).arrAt 2 (cfgM (Vin W) hO).N := Function.update_self _ _ _
  have et : (fun k => Vin (Wout W hO) c (pre3.ref k)) = tbl (Vin W) := funext fun k => by
    refine (Function.update_of_ne ?_ _ _).trans (V_pre (Vin W) c k)
    intro e
    have := Proc.devRef_injective _ e
    revert k; decide
  have er : (Pipeline.unscopedRestP pre3 spec3 c (Vin (Wout W hO) c) : sProp 𝕄) = Pipeline.unscopedRestP pre3 spec3 c (Vin W c) := by
    unfold Pipeline.unscopedRestP
    refine bigSep_congr fun b hb => ?_
    have hb1 : b ∉ Finset.univ.image (Pipeline.arrRef spec3) := (Finset.mem_sdiff.mp (Finset.mem_sdiff.mp hb).1).2
    have hne : b ≠ main_v22 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre3 c (fun _ => fullShare) (tbl (Vin W)))
        ∗ Pipeline.unscopedRestP pre3 spec3 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre3 c (fun _ => fullShare) (tbl (Vin W)) ∗ Pipeline.scopedRest spec3 c) : sProp 𝕄)
      ⊢ (dat (Vin W) hO c).Φ 0 := by
  rw [show (dat (Vin W) hO c).Φ 0 = iprop(Pipeline.ΦA spec3 c ∗ Pipeline.prefHeld (Ix := Unit) (Name := ℕ) (U := UR sig nD τ) (Lvl := ℕ) pre3 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre3 c (fun _ => fullShare) (tbl (Vin W))) ∗ Pipeline.scopedRest spec3 c) : sProp 𝕄) := by
  rw [show (dat (Vin W) hO c).Φ (Fin.last _) = iprop(Pipeline.ΦA spec3 c ∗ Pipeline.prefHeld (Ix := Unit) (Name := ℕ) (U := UR sig nD τ) (Lvl := ℕ) pre3 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call3

end
-- ==== Proof.Call4Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 4: one pair per grid point, its distance added to a one-entry accumulator

The body's only branch tests whether the point is the first of the grid: there the accumulator is reset to zero
before the pair's distance is added; at every later point the distance is added to what the point before left. -/

/-- The branch condition, from the grid coordinate: the point is the first. -/
abbrev cond (i : grid4.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v25
abbrev htbA : tbA.IsWhole := Memref.isWhole_whole _
abbrev tbB : Memref sig .tc .smem S25000 .i32 := Memref.whole main_v26
abbrev htbB : tbB.IsWhole := Memref.isWhole_whole _

/-- The accumulator's staging buffer, through which its contents are stated. -/
abbrev VO : View sig .tc .vmem S1x1 .f32 := (Memref.whole cc4_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc4_kernel i tbA htbA tbB htbB arg3 harg3 arg4 harg4 arg5 harg5) K } := by
  refine ⟨?_, fun E K => ?run⟩
  case run =>
    simp only [cc4_kernel_eq_skeleton]; unfold cc4_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc4_kernel i tbA htbA tbB htbB arg3 harg3 arg4 harg4 arg5 harg5) K } := by
  refine ⟨?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call4

end
-- ==== Proof.Call4Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call4Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 4 over any entry contents: blocks, the running accumulator, the proof data, the body at a point -/

variable (V : (c : Dev nD) → (b : Ref sig .tc) → Buf (Elt F) ((c : Thread nD τ).loc b))

/-- The two index tables' contents when the region is entered (one device). -/
def tbl : pre4.Contents (Elt F) := fun j => V (0 : Dev nD) (pre4.ref j)
theorem V_pre (c : Dev nD) (j : Fin 2) : V c (pre4.ref j) = tbl V j := by
  obtain rfl : c = 0 := Subsingleton.elim _ _; rfl
/-- Every row the tables name lies inside the array of rows. -/
abbrev Ok : Prop := ok4 (F := F) (tbl V)
abbrev adm (hO : Ok V) : (pcfg4 (F := F)).Adm := ⟨tbl V, hO⟩
abbrev cfgM (hO : Ok V) : Pipeline.Cfg sig Λ₀ := cfg4 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec4 w))

/-- The staging memrefs the body is handed at point `t`. -/
abbrev ms0 (hO : Ok V) (t : Fin (cfgM V hO).N) : Memref sig .tc .vmem S1x1x256 .f32 := spec4_0.stage ((cfgM V hO).slots t 0)
abbrev hs0 (hO : Ok V) (t : Fin (cfgM V hO).N) : (ms0 V hO t).IsWhole := hstage4_0 (((cfgM V hO).slots t 0).cast nbuf4_0)
abbrev ms1 (hO : Ok V) (t : Fin (cfgM V hO).N) : Memref sig .tc .vmem S1x1x256 .f32 := spec4_1.stage ((cfgM V hO).slots t 1)
abbrev hs1 (hO : Ok V) (t : Fin (cfgM V hO).N) : (ms1 V hO t).IsWhole := hstage4_1 (((cfgM V hO).slots t 1).cast nbuf4_1)
abbrev ms2 (hO : Ok V) (t : Fin (cfgM V hO).N) : Memref sig .tc .vmem S1x1 .f32 := spec4_2.stage ((cfgM V hO).slots t 2)
abbrev hs2 (hO : Ok V) (t : Fin (cfgM V hO).N) : (ms2 V hO t).IsWhole := hstage4_2 (((cfgM V hO).slots t 2).cast nbuf4_2)

/-- The body as the pipeline calls it at point `t`. -/
abbrev bodyAt (a : (pcfg4 (F := F)).Adm) (t : Fin (cfg4 a).N) : Prog (TpuEff nD τ sig (Elt F) Λ₀ .tc) PUnit :=
  cc4_kernel (grid4.coords t) (Memref.whole main_v25) (Memref.isWhole_whole _) (Memref.whole main_v26) (Memref.isWhole_whole _)
    (spec4_0.stage ((cfg4 a).slots t 0)) (hstage4_0 (((cfg4 a).slots t 0).cast nbuf4_0))
    (spec4_1.stage ((cfg4 a).slots t 1)) (hstage4_1 (((cfg4 a).slots t 1).cast nbuf4_1))
    (spec4_2.stage ((cfg4 a).slots t 2)) (hstage4_2 (((cfg4 a).slots t 2).cast nbuf4_2))

/-- The one grid coordinate of point `t` is `t`. -/
theorem coords_val (t : Fin grid4.N) : ((grid4.coords t) 0).val = t.val := by
  have hN : t.val < 25000 := lt_of_lt_of_eq t.isLt N_4
  show t.val / grid4.stride 0 % grid4.bound 0 = t.val
  rw [show grid4.stride 0 = 1 from by decide, show grid4.bound 0 = 25000 from rfl, Nat.div_one, Nat.mod_eq_of_lt hN]

/-- The branch is taken at the first point only. -/
theorem hcond (t : Fin grid4.N) : cond (grid4.coords t) ↔ t.val = 0 := by
  exact (Cert.FirstPoint.cond_iff ((grid4.coords t) 0).val ((grid4.coords t) 0).isLt).trans (by rw [coords_val])

/-! ## What the accumulator's buffer holds after each case -/

theorem coverFirst (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid4.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid4.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid4.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid4.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 4 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec4 w)
  after w t := match w with
    | ⟨0, _⟩ => iblk V hO c 0 t
    | ⟨1, _⟩ => iblk V hO c 1 t
    | ⟨2, _⟩ => accAt V hO c t.val t.isLt
  Φ _ := iprop(Pipeline.ΦA spec4 c ∗ Pipeline.prefHeld (Ix := Unit) (Name := ℕ) (U := UR sig nD τ) (Lvl := ℕ) pre4 c (fun _ => fullShare) (tbl V))
  q w := if w = 0 then fullShare.left else fullShare.right
  owed _ := 0

theorem A_eq (hO : Ok V) (c : Dev nD) (w : Fin (cfgM V hO).W) : (dat V hO c).A w = V c (Pipeline.arrRef spec4 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg4 (F := F)).Adm) (t : Fin (cfg4 a).N) (ht : t.val + 1 < (cfg4 a).N) : ((cfg4 a).win 2).flush t = false := by
  have hix : ∀ s : Fin (cfg4 a).N, ((cfg4 a).win 2).index s = ![0, 0] := fun _ => rfl
  unfold Pipeline.Window.flush
  rw [Bool.and_eq_false_iff]; right
  rw [Bool.or_eq_false_iff]
  refine ⟨decide_eq_false (by have : (cfg4 a).N = (cfg4 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg4 (adm V hO)).N := t.isLt
  rw [Dat.before_out_kept _ 2 rfl t h0 (flush_2 (adm V hO) _ (by show t.val - 1 + 1 < (cfg4 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v27 ((dat (Vin W) hO c).arrAt 2 (cfgM (Vin W) hO).N)

end Cert.KernelIdeal.Call4

end
-- ==== Proof.Call4Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call4Data
import Idealize.ShloMosaic.Lib.Pipeline.FrameBody
import Idealize.ShloMosaic.Lib.Ring
import Idealize.ShloMosaic.Lib.Tactic

set_option maxRecDepth 16384

noncomputable section

namespace Cert.KernelIdeal.Call4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 4: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid4.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid4.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W4, bigSep_W4]
  exact sound_body V hO c t

end Cert.KernelIdeal.Call4

end
-- ==== Proof.Call4Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call4Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 4 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec4)) = {main_v0, main_v27} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec4 c V
      ∗ Pipeline.prefHeld pre4 c (fun _ => fullShare) (fun k => V (pre4.ref k)) ∗ Pipeline.unscopedRestP pre4 spec4 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀4.arr_unscoped c V
  have hrs := Pipeline.unscopedRest_split (Ix := Unit) (Name := ℕ) (U := UR sig nD τ) (Lvl := ℕ) (nD := nD) (τ := τ) (Val := Elt F)
    preFacts4 c V
  rw [hsp, show Pipeline.unscopedRest (cfgM (Vin W) hO).spec c V = Pipeline.unscopedRest (Ix := Unit) (Name := ℕ) (U := UR sig nD τ) (Lvl := ℕ) spec4 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec4 c V : sProp 𝕄)
      = iprop((((c : Thread nD τ).loc main_v0) ↦{fullShare} V main_v0) ∗ (((c : Thread nD τ).loc main_v27) ↦{fullShare} V main_v27)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v27) ↦{fullShare} Vin W c main_v27)) := by
  unfold Pipeline.Dat.arrays
  rw [bigSep_W4]
  have hs0 : ((cfgM (Vin W) hO).win (0 : Fin 3)).arr.view.set = Finset.univ := (arr_whole4 0).set_eq_univ
  have hs1 : ((cfgM (Vin W) hO).win (1 : Fin 3)).arr.view.set = Finset.univ := (arr_whole4 1).set_eq_univ
  have hs2 : ((cfgM (Vin W) hO).win (2 : Fin 3)).arr.view.set = Finset.univ := (arr_whole4 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v27 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v27) ↦{fullShare} Vin W c main_v27))
          ∗ Pipeline.prefHeld pre4 c (fun _ => fullShare) (tbl (Vin W)) ∗ Pipeline.unscopedRestP pre4 spec4 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre4.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre4 c (fun _ => fullShare) (tbl (Vin W))
          ∗ (dat (Vin W) hO c).owesAt () 0 ∗ (∃ r, prngReg c r) ∗ Pipeline.unscopedRestP pre4 spec4 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v27) ↦{fullShare} (dat (Vin W) hO c).arrAt 2 (cfgM (Vin W) hO).N)) := by
  unfold Pipeline.Dat.arrays
  rw [bigSep_W4]
  have hs0 : ((cfgM (Vin W) hO).win (0 : Fin 3)).arr.view.set = Finset.univ := (arr_whole4 0).set_eq_univ
  have hs1 : ((cfgM (Vin W) hO).win (1 : Fin 3)).arr.view.set = Finset.univ := (arr_whole4 1).set_eq_univ
  have hs2 : ((cfgM (Vin W) hO).win (2 : Fin 3)).arr.view.set = Finset.univ := (arr_whole4 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v27 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v27) ↦{fullShare} (dat (Vin W) hO c).arrAt 2 (cfgM (Vin W) hO).N))
          ∗ Pipeline.prefHeld pre4 c (fun _ => fullShare) (tbl (Vin W)) ∗ Pipeline.unscopedRestP pre4 spec4 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v27 = (dat (Vin W) hO c).arrAt 2 (cfgM (Vin W) hO).N := Function.update_self _ _ _
  have et : (fun k => Vin (Wout W hO) c (pre4.ref k)) = tbl (Vin W) := funext fun k => by
    refine (Function.update_of_ne ?_ _ _).trans (V_pre (Vin W) c k)
    intro e
    have := Proc.devRef_injective _ e
    revert k; decide
  have er : (Pipeline.unscopedRestP pre4 spec4 c (Vin (Wout W hO) c) : sProp 𝕄) = Pipeline.unscopedRestP pre4 spec4 c (Vin W c) := by
    unfold Pipeline.unscopedRestP
    refine bigSep_congr fun b hb => ?_
    have hb1 : b ∉ Finset.univ.image (Pipeline.arrRef spec4) := (Finset.mem_sdiff.mp (Finset.mem_sdiff.mp hb).1).2
    have hne : b ≠ main_v27 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre4 c (fun _ => fullShare) (tbl (Vin W)))
        ∗ Pipeline.unscopedRestP pre4 spec4 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre4 c (fun _ => fullShare) (tbl (Vin W)) ∗ Pipeline.scopedRest spec4 c) : sProp 𝕄)
      ⊢ (dat (Vin W) hO c).Φ 0 := by
  rw [show (dat (Vin W) hO c).Φ 0 = iprop(Pipeline.ΦA spec4 c ∗ Pipeline.prefHeld (Ix := Unit) (Name := ℕ) (U := UR sig nD τ) (Lvl := ℕ) pre4 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre4 c (fun _ => fullShare) (tbl (Vin W))) ∗ Pipeline.scopedRest spec4 c) : sProp 𝕄) := by
  rw [show (dat (Vin W) hO c).Φ (Fin.last _) = iprop(Pipeline.ΦA spec4 c ∗ Pipeline.prefHeld (Ix := Unit) (Name := ℕ) (U := UR sig nD τ) (Lvl := ℕ) pre4 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call4

end
-- ==== Proof.Call5Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 5: one pair per grid point, its distance added to a one-entry accumulator

The body's only branch tests whether the point is the first of the grid: there the accumulator is reset to zero
before the pair's distance is added; at every later point the distance is added to what the point before left. -/

/-- The branch condition, from the grid coordinate: the point is the first. -/
abbrev cond (i : grid5.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v30
abbrev htbA : tbA.IsWhole := Memref.isWhole_whole _
abbrev tbB : Memref sig .tc .smem S25000 .i32 := Memref.whole main_v31
abbrev htbB : tbB.IsWhole := Memref.isWhole_whole _

/-- The accumulator's staging buffer, through which its contents are stated. -/
abbrev VO : View sig .tc .vmem S1x1 .f32 := (Memref.whole cc5_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc5_kernel i tbA htbA tbB htbB arg3 harg3 arg4 harg4 arg5 harg5) K } := by
  refine ⟨?_, fun E K => ?run⟩
  case run =>
    simp only [cc5_kernel_eq_skeleton]; unfold cc5_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc5_kernel i tbA htbA tbB htbB arg3 harg3 arg4 harg4 arg5 harg5) K } := by
  refine ⟨?_, fun E K => ?run⟩
  case run =>
    simp only [cc5_kernel_eq_skeleton]; unfold cc5_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call5

end
-- ==== Proof.Call5Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call5Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 5 over any entry contents: blocks, the running accumulator, the proof data, the body at a point -/

variable (V : (c : Dev nD) → (b : Ref sig .tc) → Buf (Elt F) ((c : Thread nD τ).loc b))

/-- The two index tables' contents when the region is entered (one device). -/
def tbl : pre5.Contents (Elt F) := fun j => V (0 : Dev nD) (pre5.ref j)
theorem V_pre (c : Dev nD) (j : Fin 2) : V c (pre5.ref j) = tbl V j := by
  obtain rfl : c = 0 := Subsingleton.elim _ _; rfl
/-- Every row the tables name lies inside the array of rows. -/
abbrev Ok : Prop := ok5 (F := F) (tbl V)
abbrev adm (hO : Ok V) : (pcfg5 (F := F)).Adm := ⟨tbl V, hO⟩
abbrev cfgM (hO : Ok V) : Pipeline.Cfg sig Λ₀ := cfg5 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec5 w))

/-- The staging memrefs the body is handed at point `t`. -/
abbrev ms0 (hO : Ok V) (t : Fin (cfgM V hO).N) : Memref sig .tc .vmem S1x1x256 .f32 := spec5_0.stage ((cfgM V hO).slots t 0)
abbrev hs0 (hO : Ok V) (t : Fin (cfgM V hO).N) : (ms0 V hO t).IsWhole := hstage5_0 (((cfgM V hO).slots t 0).cast nbuf5_0)
abbrev ms1 (hO : Ok V) (t : Fin (cfgM V hO).N) : Memref sig .tc .vmem S1x1x256 .f32 := spec5_1.stage ((cfgM V hO).slots t 1)
abbrev hs1 (hO : Ok V) (t : Fin (cfgM V hO).N) : (ms1 V hO t).IsWhole := hstage5_1 (((cfgM V hO).slots t 1).cast nbuf5_1)
abbrev ms2 (hO : Ok V) (t : Fin (cfgM V hO).N) : Memref sig .tc .vmem S1x1 .f32 := spec5_2.stage ((cfgM V hO).slots t 2)
abbrev hs2 (hO : Ok V) (t : Fin (cfgM V hO).N) : (ms2 V hO t).IsWhole := hstage5_2 (((cfgM V hO).slots t 2).cast nbuf5_2)

/-- The body as the pipeline calls it at point `t`. -/
abbrev bodyAt (a : (pcfg5 (F := F)).Adm) (t : Fin (cfg5 a).N) : Prog (TpuEff nD τ sig (Elt F) Λ₀ .tc) PUnit :=
  cc5_kernel (grid5.coords t) (Memref.whole main_v30) (Memref.isWhole_whole _) (Memref.whole main_v31) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))
    (spec5_2.stage ((cfg5 a).slots t 2)) (hstage5_2 (((cfg5 a).slots t 2).cast nbuf5_2))

/-- The one grid coordinate of point `t` is `t`. -/
theorem coords_val (t : Fin grid5.N) : ((grid5.coords t) 0).val = t.val := by
  have hN : t.val < 25000 := lt_of_lt_of_eq t.isLt N_5
  show t.val / grid5.stride 0 % grid5.bound 0 = t.val
  rw [show grid5.stride 0 = 1 from by decide, show grid5.bound 0 = 25000 from rfl, Nat.div_one, Nat.mod_eq_of_lt hN]

/-- The branch is taken at the first point only. -/
theorem hcond (t : Fin grid5.N) : cond (grid5.coords t) ↔ t.val = 0 := by
  exact (Cert.FirstPoint.cond_iff ((grid5.coords t) 0).val ((grid5.coords t) 0).isLt).trans (by rw [coords_val])

/-! ## What the accumulator's buffer holds after each case -/

theorem coverFirst (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid5.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid5.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid5.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid5.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 5 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec5 w)
  after w t := match w with
    | ⟨0, _⟩ => iblk V hO c 0 t
    | ⟨1, _⟩ => iblk V hO c 1 t
    | ⟨2, _⟩ => accAt V hO c t.val t.isLt
  Φ _ := iprop(Pipeline.ΦA spec5 c ∗ Pipeline.prefHeld (Ix := Unit) (Name := ℕ) (U := UR sig nD τ) (Lvl := ℕ) pre5 c (fun _ => fullShare) (tbl V))
  q w := if w = 0 then fullShare.left else fullShare.right
  owed _ := 0

theorem A_eq (hO : Ok V) (c : Dev nD) (w : Fin (cfgM V hO).W) : (dat V hO c).A w = V c (Pipeline.arrRef spec5 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg5 (F := F)).Adm) (t : Fin (cfg5 a).N) (ht : t.val + 1 < (cfg5 a).N) : ((cfg5 a).win 2).flush t = false := by
  have hix : ∀ s : Fin (cfg5 a).N, ((cfg5 a).win 2).index s = ![0, 0] := fun _ => rfl
  unfold Pipeline.Window.flush
  rw [Bool.and_eq_false_iff]; right
  rw [Bool.or_eq_false_iff]
  refine ⟨decide_eq_false (by have : (cfg5 a).N = (cfg5 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg5 (adm V hO)).N := t.isLt
  rw [Dat.before_out_kept _ 2 rfl t h0 (flush_2 (adm V hO) _ (by show t.val - 1 + 1 < (cfg5 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v32 ((dat (Vin W) hO c).arrAt 2 (cfgM (Vin W) hO).N)

end Cert.KernelIdeal.Call5

end
-- ==== Proof.Call5Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call5Data
import Idealize.ShloMosaic.Lib.Pipeline.FrameBody
import Idealize.ShloMosaic.Lib.Ring
import Idealize.ShloMosaic.Lib.Tactic

set_option maxRecDepth 16384

noncomputable section

namespace Cert.KernelIdeal.Call5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 5: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid5.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid5.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W5, bigSep_W5]
  exact sound_body V hO c t

end Cert.KernelIdeal.Call5

end
-- ==== Proof.Call5Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call5Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 5 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec5)) = {main_v0, main_v32} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec5 c V
      ∗ Pipeline.prefHeld pre5 c (fun _ => fullShare) (fun k => V (pre5.ref k)) ∗ Pipeline.unscopedRestP pre5 spec5 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀5.arr_unscoped c V
  have hrs := Pipeline.unscopedRest_split (Ix := Unit) (Name := ℕ) (U := UR sig nD τ) (Lvl := ℕ) (nD := nD) (τ := τ) (Val := Elt F)
    preFacts5 c V
  rw [hsp, show Pipeline.unscopedRest (cfgM (Vin W) hO).spec c V = Pipeline.unscopedRest (Ix := Unit) (Name := ℕ) (U := UR sig nD τ) (Lvl := ℕ) spec5 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec5 c V : sProp 𝕄)
      = iprop((((c : Thread nD τ).loc main_v0) ↦{fullShare} V main_v0) ∗ (((c : Thread nD τ).loc main_v32) ↦{fullShare} V main_v32)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v32) ↦{fullShare} Vin W c main_v32)) := by
  unfold Pipeline.Dat.arrays
  rw [bigSep_W5]
  have hs0 : ((cfgM (Vin W) hO).win (0 : Fin 3)).arr.view.set = Finset.univ := (arr_whole5 0).set_eq_univ
  have hs1 : ((cfgM (Vin W) hO).win (1 : Fin 3)).arr.view.set = Finset.univ := (arr_whole5 1).set_eq_univ
  have hs2 : ((cfgM (Vin W) hO).win (2 : Fin 3)).arr.view.set = Finset.univ := (arr_whole5 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v32 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v32) ↦{fullShare} Vin W c main_v32))
          ∗ Pipeline.prefHeld pre5 c (fun _ => fullShare) (tbl (Vin W)) ∗ Pipeline.unscopedRestP pre5 spec5 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre5.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre5 c (fun _ => fullShare) (tbl (Vin W))
          ∗ (dat (Vin W) hO c).owesAt () 0 ∗ (∃ r, prngReg c r) ∗ Pipeline.unscopedRestP pre5 spec5 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v32) ↦{fullShare} (dat (Vin W) hO c).arrAt 2 (cfgM (Vin W) hO).N)) := by
  unfold Pipeline.Dat.arrays
  rw [bigSep_W5]
  have hs0 : ((cfgM (Vin W) hO).win (0 : Fin 3)).arr.view.set = Finset.univ := (arr_whole5 0).set_eq_univ
  have hs1 : ((cfgM (Vin W) hO).win (1 : Fin 3)).arr.view.set = Finset.univ := (arr_whole5 1).set_eq_univ
  have hs2 : ((cfgM (Vin W) hO).win (2 : Fin 3)).arr.view.set = Finset.univ := (arr_whole5 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v32 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v32) ↦{fullShare} (dat (Vin W) hO c).arrAt 2 (cfgM (Vin W) hO).N))
          ∗ Pipeline.prefHeld pre5 c (fun _ => fullShare) (tbl (Vin W)) ∗ Pipeline.unscopedRestP pre5 spec5 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v32 = (dat (Vin W) hO c).arrAt 2 (cfgM (Vin W) hO).N := Function.update_self _ _ _
  have et : (fun k => Vin (Wout W hO) c (pre5.ref k)) = tbl (Vin W) := funext fun k => by
    refine (Function.update_of_ne ?_ _ _).trans (V_pre (Vin W) c k)
    intro e
    have := Proc.devRef_injective _ e
    revert k; decide
  have er : (Pipeline.unscopedRestP pre5 spec5 c (Vin (Wout W hO) c) : sProp 𝕄) = Pipeline.unscopedRestP pre5 spec5 c (Vin W c) := by
    unfold Pipeline.unscopedRestP
    refine bigSep_congr fun b hb => ?_
    have hb1 : b ∉ Finset.univ.image (Pipeline.arrRef spec5) := (Finset.mem_sdiff.mp (Finset.mem_sdiff.mp hb).1).2
    have hne : b ≠ main_v32 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre5 c (fun _ => fullShare) (tbl (Vin W)))
        ∗ Pipeline.unscopedRestP pre5 spec5 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre5 c (fun _ => fullShare) (tbl (Vin W)) ∗ Pipeline.scopedRest spec5 c) : sProp 𝕄)
      ⊢ (dat (Vin W) hO c).Φ 0 := by
  rw [show (dat (Vin W) hO c).Φ 0 = iprop(Pipeline.ΦA spec5 c ∗ Pipeline.prefHeld (Ix := Unit) (Name := ℕ) (U := UR sig nD τ) (Lvl := ℕ) pre5 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre5 c (fun _ => fullShare) (tbl (Vin W))) ∗ Pipeline.scopedRest spec5 c) : sProp 𝕄) := by
  rw [show (dat (Vin W) hO c).Φ (Fin.last _) = iprop(Pipeline.ΦA spec5 c ∗ Pipeline.prefHeld (Ix := Unit) (Name := ℕ) (U := UR sig nD τ) (Lvl := ℕ) pre5 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call5

end
-- ==== Proof.Call6Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 6: one pair per grid point, its distance added to a one-entry accumulator

The body's only branch tests whether the point is the first of the grid: there the accumulator is reset to zero
before the pair's distance is added; at every later point the distance is added to what the point before left. -/

/-- The branch condition, from the grid coordinate: the point is the first. -/
abbrev cond (i : grid6.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v35
abbrev htbA : tbA.IsWhole := Memref.isWhole_whole _
abbrev tbB : Memref sig .tc .smem S25000 .i32 := Memref.whole main_v36
abbrev htbB : tbB.IsWhole := Memref.isWhole_whole _

/-- The accumulator's staging buffer, through which its contents are stated. -/
abbrev VO : View sig .tc .vmem S1x1 .f32 := (Memref.whole cc6_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc6_kernel i tbA htbA tbB htbB arg3 harg3 arg4 harg4 arg5 harg5) K } := by
  refine ⟨?_, fun E K => ?run⟩
  case run =>
    simp only [cc6_kernel_eq_skeleton]; unfold cc6_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc6_kernel i tbA htbA tbB htbB arg3 harg3 arg4 harg4 arg5 harg5) K } := by
  refine ⟨?_, fun E K => ?run⟩
  case run =>
    simp only [cc6_kernel_eq_skeleton]; unfold cc6_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call6

end
-- ==== Proof.Call6Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call6Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 6 over any entry contents: blocks, the running accumulator, the proof data, the body at a point -/

variable (V : (c : Dev nD) → (b : Ref sig .tc) → Buf (Elt F) ((c : Thread nD τ).loc b))

/-- The two index tables' contents when the region is entered (one device). -/
def tbl : pre6.Contents (Elt F) := fun j => V (0 : Dev nD) (pre6.ref j)
theorem V_pre (c : Dev nD) (j : Fin 2) : V c (pre6.ref j) = tbl V j := by
  obtain rfl : c = 0 := Subsingleton.elim _ _; rfl
/-- Every row the tables name lies inside the array of rows. -/
abbrev Ok : Prop := ok6 (F := F) (tbl V)
abbrev adm (hO : Ok V) : (pcfg6 (F := F)).Adm := ⟨tbl V, hO⟩
abbrev cfgM (hO : Ok V) : Pipeline.Cfg sig Λ₀ := cfg6 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec6 w))

/-- The staging memrefs the body is handed at point `t`. -/
abbrev ms0 (hO : Ok V) (t : Fin (cfgM V hO).N) : Memref sig .tc .vmem S1x1x256 .f32 := spec6_0.stage ((cfgM V hO).slots t 0)
abbrev hs0 (hO : Ok V) (t : Fin (cfgM V hO).N) : (ms0 V hO t).IsWhole := hstage6_0 (((cfgM V hO).slots t 0).cast nbuf6_0)
abbrev ms1 (hO : Ok V) (t : Fin (cfgM V hO).N) : Memref sig .tc .vmem S1x1x256 .f32 := spec6_1.stage ((cfgM V hO).slots t 1)
abbrev hs1 (hO : Ok V) (t : Fin (cfgM V hO).N) : (ms1 V hO t).IsWhole := hstage6_1 (((cfgM V hO).slots t 1).cast nbuf6_1)
abbrev ms2 (hO : Ok V) (t : Fin (cfgM V hO).N) : Memref sig .tc .vmem S1x1 .f32 := spec6_2.stage ((cfgM V hO).slots t 2)
abbrev hs2 (hO : Ok V) (t : Fin (cfgM V hO).N) : (ms2 V hO t).IsWhole := hstage6_2 (((cfgM V hO).slots t 2).cast nbuf6_2)

/-- The body as the pipeline calls it at point `t`. -/
abbrev bodyAt (a : (pcfg6 (F := F)).Adm) (t : Fin (cfg6 a).N) : Prog (TpuEff nD τ sig (Elt F) Λ₀ .tc) PUnit :=
  cc6_kernel (grid6.coords t) (Memref.whole main_v35) (Memref.isWhole_whole _) (Memref.whole main_v36) (Memref.isWhole_whole _)
    (spec6_0.stage ((cfg6 a).slots t 0)) (hstage6_0 (((cfg6 a).slots t 0).cast nbuf6_0))
    (spec6_1.stage ((cfg6 a).slots t 1)) (hstage6_1 (((cfg6 a).slots t 1).cast nbuf6_1))
    (spec6_2.stage ((cfg6 a).slots t 2)) (hstage6_2 (((cfg6 a).slots t 2).cast nbuf6_2))

/-- The one grid coordinate of point `t` is `t`. -/
theorem coords_val (t : Fin grid6.N) : ((grid6.coords t) 0).val = t.val := by
  have hN : t.val < 25000 := lt_of_lt_of_eq t.isLt N_6
  show t.val / grid6.stride 0 % grid6.bound 0 = t.val
  rw [show grid6.stride 0 = 1 from by decide, show grid6.bound 0 = 25000 from rfl, Nat.div_one, Nat.mod_eq_of_lt hN]

/-- The branch is taken at the first point only. -/
theorem hcond (t : Fin grid6.N) : cond (grid6.coords t) ↔ t.val = 0 := by
  exact (Cert.FirstPoint.cond_iff ((grid6.coords t) 0).val ((grid6.coords t) 0).isLt).trans (by rw [coords_val])

/-! ## What the accumulator's buffer holds after each case -/

theorem coverFirst (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid6.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid6.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid6.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid6.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 6 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec6 w)
  after w t := match w with
    | ⟨0, _⟩ => iblk V hO c 0 t
    | ⟨1, _⟩ => iblk V hO c 1 t
    | ⟨2, _⟩ => accAt V hO c t.val t.isLt
  Φ _ := iprop(Pipeline.ΦA spec6 c ∗ Pipeline.prefHeld (Ix := Unit) (Name := ℕ) (U := UR sig nD τ) (Lvl := ℕ) pre6 c (fun _ => fullShare) (tbl V))
  q w := if w = 0 then fullShare.left else fullShare.right
  owed _ := 0

theorem A_eq (hO : Ok V) (c : Dev nD) (w : Fin (cfgM V hO).W) : (dat V hO c).A w = V c (Pipeline.arrRef spec6 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg6 (F := F)).Adm) (t : Fin (cfg6 a).N) (ht : t.val + 1 < (cfg6 a).N) : ((cfg6 a).win 2).flush t = false := by
  have hix : ∀ s : Fin (cfg6 a).N, ((cfg6 a).win 2).index s = ![0, 0] := fun _ => rfl
  unfold Pipeline.Window.flush
  rw [Bool.and_eq_false_iff]; right
  rw [Bool.or_eq_false_iff]
  refine ⟨decide_eq_false (by have : (cfg6 a).N = (cfg6 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg6 (adm V hO)).N := t.isLt
  rw [Dat.before_out_kept _ 2 rfl t h0 (flush_2 (adm V hO) _ (by show t.val - 1 + 1 < (cfg6 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v37 ((dat (Vin W) hO c).arrAt 2 (cfgM (Vin W) hO).N)

end Cert.KernelIdeal.Call6

end
-- ==== Proof.Call6Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call6Data
import Idealize.ShloMosaic.Lib.Pipeline.FrameBody
import Idealize.ShloMosaic.Lib.Ring
import Idealize.ShloMosaic.Lib.Tactic

set_option maxRecDepth 16384

noncomputable section

namespace Cert.KernelIdeal.Call6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 6: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid6.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid6.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W6, bigSep_W6]
  exact sound_body V hO c t

end Cert.KernelIdeal.Call6

end
-- ==== Proof.Call6Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call6Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 6 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec6)) = {main_v0, main_v37} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec6 c V
      ∗ Pipeline.prefHeld pre6 c (fun _ => fullShare) (fun k => V (pre6.ref k)) ∗ Pipeline.unscopedRestP pre6 spec6 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀6.arr_unscoped c V
  have hrs := Pipeline.unscopedRest_split (Ix := Unit) (Name := ℕ) (U := UR sig nD τ) (Lvl := ℕ) (nD := nD) (τ := τ) (Val := Elt F)
    preFacts6 c V
  rw [hsp, show Pipeline.unscopedRest (cfgM (Vin W) hO).spec c V = Pipeline.unscopedRest (Ix := Unit) (Name := ℕ) (U := UR sig nD τ) (Lvl := ℕ) spec6 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec6 c V : sProp 𝕄)
      = iprop((((c : Thread nD τ).loc main_v0) ↦{fullShare} V main_v0) ∗ (((c : Thread nD τ).loc main_v37) ↦{fullShare} V main_v37)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v37) ↦{fullShare} Vin W c main_v37)) := by
  unfold Pipeline.Dat.arrays
  rw [bigSep_W6]
  have hs0 : ((cfgM (Vin W) hO).win (0 : Fin 3)).arr.view.set = Finset.univ := (arr_whole6 0).set_eq_univ
  have hs1 : ((cfgM (Vin W) hO).win (1 : Fin 3)).arr.view.set = Finset.univ := (arr_whole6 1).set_eq_univ
  have hs2 : ((cfgM (Vin W) hO).win (2 : Fin 3)).arr.view.set = Finset.univ := (arr_whole6 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v37 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v37) ↦{fullShare} Vin W c main_v37))
          ∗ Pipeline.prefHeld pre6 c (fun _ => fullShare) (tbl (Vin W)) ∗ Pipeline.unscopedRestP pre6 spec6 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre6.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre6 c (fun _ => fullShare) (tbl (Vin W))
          ∗ (dat (Vin W) hO c).owesAt () 0 ∗ (∃ r, prngReg c r) ∗ Pipeline.unscopedRestP pre6 spec6 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v37) ↦{fullShare} (dat (Vin W) hO c).arrAt 2 (cfgM (Vin W) hO).N)) := by
  unfold Pipeline.Dat.arrays
  rw [bigSep_W6]
  have hs0 : ((cfgM (Vin W) hO).win (0 : Fin 3)).arr.view.set = Finset.univ := (arr_whole6 0).set_eq_univ
  have hs1 : ((cfgM (Vin W) hO).win (1 : Fin 3)).arr.view.set = Finset.univ := (arr_whole6 1).set_eq_univ
  have hs2 : ((cfgM (Vin W) hO).win (2 : Fin 3)).arr.view.set = Finset.univ := (arr_whole6 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v37 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v37) ↦{fullShare} (dat (Vin W) hO c).arrAt 2 (cfgM (Vin W) hO).N))
          ∗ Pipeline.prefHeld pre6 c (fun _ => fullShare) (tbl (Vin W)) ∗ Pipeline.unscopedRestP pre6 spec6 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v37 = (dat (Vin W) hO c).arrAt 2 (cfgM (Vin W) hO).N := Function.update_self _ _ _
  have et : (fun k => Vin (Wout W hO) c (pre6.ref k)) = tbl (Vin W) := funext fun k => by
    refine (Function.update_of_ne ?_ _ _).trans (V_pre (Vin W) c k)
    intro e
    have := Proc.devRef_injective _ e
    revert k; decide
  have er : (Pipeline.unscopedRestP pre6 spec6 c (Vin (Wout W hO) c) : sProp 𝕄) = Pipeline.unscopedRestP pre6 spec6 c (Vin W c) := by
    unfold Pipeline.unscopedRestP
    refine bigSep_congr fun b hb => ?_
    have hb1 : b ∉ Finset.univ.image (Pipeline.arrRef spec6) := (Finset.mem_sdiff.mp (Finset.mem_sdiff.mp hb).1).2
    have hne : b ≠ main_v37 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre6 c (fun _ => fullShare) (tbl (Vin W)))
        ∗ Pipeline.unscopedRestP pre6 spec6 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre6 c (fun _ => fullShare) (tbl (Vin W)) ∗ Pipeline.scopedRest spec6 c) : sProp 𝕄)
      ⊢ (dat (Vin W) hO c).Φ 0 := by
  rw [show (dat (Vin W) hO c).Φ 0 = iprop(Pipeline.ΦA spec6 c ∗ Pipeline.prefHeld (Ix := Unit) (Name := ℕ) (U := UR sig nD τ) (Lvl := ℕ) pre6 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre6 c (fun _ => fullShare) (tbl (Vin W))) ∗ Pipeline.scopedRest spec6 c) : sProp 𝕄) := by
  rw [show (dat (Vin W) hO c).Φ (Fin.last _) = iprop(Pipeline.ΦA spec6 c ∗ Pipeline.prefHeld (Ix := Unit) (Name := ℕ) (U := UR sig nD τ) (Lvl := ℕ) pre6 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call6

end
-- ==== Proof.Call7Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 7: one pair per grid point, its distance added to a one-entry accumulator

The body's only branch tests whether the point is the first of the grid: there the accumulator is reset to zero
before the pair's distance is added; at every later point the distance is added to what the point before left. -/

/-- The branch condition, from the grid coordinate: the point is the first. -/
abbrev cond (i : grid7.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v40
abbrev htbA : tbA.IsWhole := Memref.isWhole_whole _
abbrev tbB : Memref sig .tc .smem S25000 .i32 := Memref.whole main_v41
abbrev htbB : tbB.IsWhole := Memref.isWhole_whole _

/-- The accumulator's staging buffer, through which its contents are stated. -/
abbrev VO : View sig .tc .vmem S1x1 .f32 := (Memref.whole cc7_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc7_kernel i tbA htbA tbB htbB arg3 harg3 arg4 harg4 arg5 harg5) K } := by
  refine ⟨?_, fun E K => ?run⟩
  case run =>
    simp only [cc7_kernel_eq_skeleton]; unfold cc7_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc7_kernel i tbA htbA tbB htbB arg3 harg3 arg4 harg4 arg5 harg5) K } := by
  refine ⟨?_, fun E K => ?run⟩
  case run =>
    simp only [cc7_kernel_eq_skeleton]; unfold cc7_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call7

end
-- ==== Proof.Call7Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call7Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 7 over any entry contents: blocks, the running accumulator, the proof data, the body at a point -/

variable (V : (c : Dev nD) → (b : Ref sig .tc) → Buf (Elt F) ((c : Thread nD τ).loc b))

/-- The two index tables' contents when the region is entered (one device). -/
def tbl : pre7.Contents (Elt F) := fun j => V (0 : Dev nD) (pre7.ref j)
theorem V_pre (c : Dev nD) (j : Fin 2) : V c (pre7.ref j) = tbl V j := by
  obtain rfl : c = 0 := Subsingleton.elim _ _; rfl
/-- Every row the tables name lies inside the array of rows. -/
abbrev Ok : Prop := ok7 (F := F) (tbl V)
abbrev adm (hO : Ok V) : (pcfg7 (F := F)).Adm := ⟨tbl V, hO⟩
abbrev cfgM (hO : Ok V) : Pipeline.Cfg sig Λ₀ := cfg7 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec7 w))

/-- The staging memrefs the body is handed at point `t`. -/
abbrev ms0 (hO : Ok V) (t : Fin (cfgM V hO).N) : Memref sig .tc .vmem S1x1x256 .f32 := spec7_0.stage ((cfgM V hO).slots t 0)
abbrev hs0 (hO : Ok V) (t : Fin (cfgM V hO).N) : (ms0 V hO t).IsWhole := hstage7_0 (((cfgM V hO).slots t 0).cast nbuf7_0)
abbrev ms1 (hO : Ok V) (t : Fin (cfgM V hO).N) : Memref sig .tc .vmem S1x1x256 .f32 := spec7_1.stage ((cfgM V hO).slots t 1)
abbrev hs1 (hO : Ok V) (t : Fin (cfgM V hO).N) : (ms1 V hO t).IsWhole := hstage7_1 (((cfgM V hO).slots t 1).cast nbuf7_1)
abbrev ms2 (hO : Ok V) (t : Fin (cfgM V hO).N) : Memref sig .tc .vmem S1x1 .f32 := spec7_2.stage ((cfgM V hO).slots t 2)
abbrev hs2 (hO : Ok V) (t : Fin (cfgM V hO).N) : (ms2 V hO t).IsWhole := hstage7_2 (((cfgM V hO).slots t 2).cast nbuf7_2)

/-- The body as the pipeline calls it at point `t`. -/
abbrev bodyAt (a : (pcfg7 (F := F)).Adm) (t : Fin (cfg7 a).N) : Prog (TpuEff nD τ sig (Elt F) Λ₀ .tc) PUnit :=
  cc7_kernel (grid7.coords t) (Memref.whole main_v40) (Memref.isWhole_whole _) (Memref.whole main_v41) (Memref.isWhole_whole _)
    (spec7_0.stage ((cfg7 a).slots t 0)) (hstage7_0 (((cfg7 a).slots t 0).cast nbuf7_0))
    (spec7_1.stage ((cfg7 a).slots t 1)) (hstage7_1 (((cfg7 a).slots t 1).cast nbuf7_1))
    (spec7_2.stage ((cfg7 a).slots t 2)) (hstage7_2 (((cfg7 a).slots t 2).cast nbuf7_2))

/-- The one grid coordinate of point `t` is `t`. -/
theorem coords_val (t : Fin grid7.N) : ((grid7.coords t) 0).val = t.val := by
  have hN : t.val < 25000 := lt_of_lt_of_eq t.isLt N_7
  show t.val / grid7.stride 0 % grid7.bound 0 = t.val
  rw [show grid7.stride 0 = 1 from by decide, show grid7.bound 0 = 25000 from rfl, Nat.div_one, Nat.mod_eq_of_lt hN]

/-- The branch is taken at the first point only. -/
theorem hcond (t : Fin grid7.N) : cond (grid7.coords t) ↔ t.val = 0 := by
  exact (Cert.FirstPoint.cond_iff ((grid7.coords t) 0).val ((grid7.coords t) 0).isLt).trans (by rw [coords_val])

/-! ## What the accumulator's buffer holds after each case -/

theorem coverFirst (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid7.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid7.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid7.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid7.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 7 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec7 w)
  after w t := match w with
    | ⟨0, _⟩ => iblk V hO c 0 t
    | ⟨1, _⟩ => iblk V hO c 1 t
    | ⟨2, _⟩ => accAt V hO c t.val t.isLt
  Φ _ := iprop(Pipeline.ΦA spec7 c ∗ Pipeline.prefHeld (Ix := Unit) (Name := ℕ) (U := UR sig nD τ) (Lvl := ℕ) pre7 c (fun _ => fullShare) (tbl V))
  q w := if w = 0 then fullShare.left else fullShare.right
  owed _ := 0

theorem A_eq (hO : Ok V) (c : Dev nD) (w : Fin (cfgM V hO).W) : (dat V hO c).A w = V c (Pipeline.arrRef spec7 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg7 (F := F)).Adm) (t : Fin (cfg7 a).N) (ht : t.val + 1 < (cfg7 a).N) : ((cfg7 a).win 2).flush t = false := by
  have hix : ∀ s : Fin (cfg7 a).N, ((cfg7 a).win 2).index s = ![0, 0] := fun _ => rfl
  unfold Pipeline.Window.flush
  rw [Bool.and_eq_false_iff]; right
  rw [Bool.or_eq_false_iff]
  refine ⟨decide_eq_false (by have : (cfg7 a).N = (cfg7 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg7 (adm V hO)).N := t.isLt
  rw [Dat.before_out_kept _ 2 rfl t h0 (flush_2 (adm V hO) _ (by show t.val - 1 + 1 < (cfg7 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v42 ((dat (Vin W) hO c).arrAt 2 (cfgM (Vin W) hO).N)

end Cert.KernelIdeal.Call7

end
-- ==== Proof.Call7Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call7Data
import Idealize.ShloMosaic.Lib.Pipeline.FrameBody
import Idealize.ShloMosaic.Lib.Ring
import Idealize.ShloMosaic.Lib.Tactic

set_option maxRecDepth 16384

noncomputable section

namespace Cert.KernelIdeal.Call7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 7: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid7.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid7.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W7, bigSep_W7]
  exact sound_body V hO c t

end Cert.KernelIdeal.Call7

end
-- ==== Proof.Call7Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call7Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 7 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec7)) = {main_v0, main_v42} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec7 c V
      ∗ Pipeline.prefHeld pre7 c (fun _ => fullShare) (fun k => V (pre7.ref k)) ∗ Pipeline.unscopedRestP pre7 spec7 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀7.arr_unscoped c V
  have hrs := Pipeline.unscopedRest_split (Ix := Unit) (Name := ℕ) (U := UR sig nD τ) (Lvl := ℕ) (nD := nD) (τ := τ) (Val := Elt F)
    preFacts7 c V
  rw [hsp, show Pipeline.unscopedRest (cfgM (Vin W) hO).spec c V = Pipeline.unscopedRest (Ix := Unit) (Name := ℕ) (U := UR sig nD τ) (Lvl := ℕ) spec7 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec7 c V : sProp 𝕄)
      = iprop((((c : Thread nD τ).loc main_v0) ↦{fullShare} V main_v0) ∗ (((c : Thread nD τ).loc main_v42) ↦{fullShare} V main_v42)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v42) ↦{fullShare} Vin W c main_v42)) := by
  unfold Pipeline.Dat.arrays
  rw [bigSep_W7]
  have hs0 : ((cfgM (Vin W) hO).win (0 : Fin 3)).arr.view.set = Finset.univ := (arr_whole7 0).set_eq_univ
  have hs1 : ((cfgM (Vin W) hO).win (1 : Fin 3)).arr.view.set = Finset.univ := (arr_whole7 1).set_eq_univ
  have hs2 : ((cfgM (Vin W) hO).win (2 : Fin 3)).arr.view.set = Finset.univ := (arr_whole7 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v42 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v42) ↦{fullShare} Vin W c main_v42))
          ∗ Pipeline.prefHeld pre7 c (fun _ => fullShare) (tbl (Vin W)) ∗ Pipeline.unscopedRestP pre7 spec7 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre7.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre7 c (fun _ => fullShare) (tbl (Vin W))
          ∗ (dat (Vin W) hO c).owesAt () 0 ∗ (∃ r, prngReg c r) ∗ Pipeline.unscopedRestP pre7 spec7 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v42) ↦{fullShare} (dat (Vin W) hO c).arrAt 2 (cfgM (Vin W) hO).N)) := by
  unfold Pipeline.Dat.arrays
  rw [bigSep_W7]
  have hs0 : ((cfgM (Vin W) hO).win (0 : Fin 3)).arr.view.set = Finset.univ := (arr_whole7 0).set_eq_univ
  have hs1 : ((cfgM (Vin W) hO).win (1 : Fin 3)).arr.view.set = Finset.univ := (arr_whole7 1).set_eq_univ
  have hs2 : ((cfgM (Vin W) hO).win (2 : Fin 3)).arr.view.set = Finset.univ := (arr_whole7 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v42 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v42) ↦{fullShare} (dat (Vin W) hO c).arrAt 2 (cfgM (Vin W) hO).N))
          ∗ Pipeline.prefHeld pre7 c (fun _ => fullShare) (tbl (Vin W)) ∗ Pipeline.unscopedRestP pre7 spec7 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v42 = (dat (Vin W) hO c).arrAt 2 (cfgM (Vin W) hO).N := Function.update_self _ _ _
  have et : (fun k => Vin (Wout W hO) c (pre7.ref k)) = tbl (Vin W) := funext fun k => by
    refine (Function.update_of_ne ?_ _ _).trans (V_pre (Vin W) c k)
    intro e
    have := Proc.devRef_injective _ e
    revert k; decide
  have er : (Pipeline.unscopedRestP pre7 spec7 c (Vin (Wout W hO) c) : sProp 𝕄) = Pipeline.unscopedRestP pre7 spec7 c (Vin W c) := by
    unfold Pipeline.unscopedRestP
    refine bigSep_congr fun b hb => ?_
    have hb1 : b ∉ Finset.univ.image (Pipeline.arrRef spec7) := (Finset.mem_sdiff.mp (Finset.mem_sdiff.mp hb).1).2
    have hne : b ≠ main_v42 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre7 c (fun _ => fullShare) (tbl (Vin W)))
        ∗ Pipeline.unscopedRestP pre7 spec7 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre7 c (fun _ => fullShare) (tbl (Vin W)) ∗ Pipeline.scopedRest spec7 c) : sProp 𝕄)
      ⊢ (dat (Vin W) hO c).Φ 0 := by
  rw [show (dat (Vin W) hO c).Φ 0 = iprop(Pipeline.ΦA spec7 c ∗ Pipeline.prefHeld (Ix := Unit) (Name := ℕ) (U := UR sig nD τ) (Lvl := ℕ) pre7 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre7 c (fun _ => fullShare) (tbl (Vin W))) ∗ Pipeline.scopedRest spec7 c) : sProp 𝕄) := by
  rw [show (dat (Vin W) hO c).Φ (Fin.last _) = iprop(Pipeline.ΦA spec7 c ∗ Pipeline.prefHeld (Ix := Unit) (Name := ℕ) (U := UR sig nD τ) (Lvl := ℕ) pre7 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call7

end
-- ==== Proof.Call8Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 8: one pair per grid point, its distance added to a one-entry accumulator

The body's only branch tests whether the point is the first of the grid: there the accumulator is reset to zero
before the pair's distance is added; at every later point the distance is added to what the point before left. -/

/-- The branch condition, from the grid coordinate: the point is the first. -/
abbrev cond (i : grid8.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v49
abbrev htbA : tbA.IsWhole := Memref.isWhole_whole _
abbrev tbB : Memref sig .tc .smem S25000 .i32 := Memref.whole main_v50
abbrev htbB : tbB.IsWhole := Memref.isWhole_whole _

/-- The accumulator's staging buffer, through which its contents are stated. -/
abbrev VO : View sig .tc .vmem S1x1 .f32 := (Memref.whole cc8_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc8_kernel i tbA htbA tbB htbB arg3 harg3 arg4 harg4 arg5 harg5) K } := by
  refine ⟨?_, fun E K => ?run⟩
  case run =>
    simp only [cc8_kernel_eq_skeleton]; unfold cc8_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc8_kernel i tbA htbA tbB htbB arg3 harg3 arg4 harg4 arg5 harg5) K } := by
  refine ⟨?_, fun E K => ?run⟩
  case run =>
    simp only [cc8_kernel_eq_skeleton]; unfold cc8_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call8

end
-- ==== Proof.Call8Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call8Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 8 over any entry contents: blocks, the running accumulator, the proof data, the body at a point -/

variable (V : (c : Dev nD) → (b : Ref sig .tc) → Buf (Elt F) ((c : Thread nD τ).loc b))

/-- The two index tables' contents when the region is entered (one device). -/
def tbl : pre8.Contents (Elt F) := fun j => V (0 : Dev nD) (pre8.ref j)
theorem V_pre (c : Dev nD) (j : Fin 2) : V c (pre8.ref j) = tbl V j := by
  obtain rfl : c = 0 := Subsingleton.elim _ _; rfl
/-- Every row the tables name lies inside the array of rows. -/
abbrev Ok : Prop := ok8 (F := F) (tbl V)
abbrev adm (hO : Ok V) : (pcfg8 (F := F)).Adm := ⟨tbl V, hO⟩
abbrev cfgM (hO : Ok V) : Pipeline.Cfg sig Λ₀ := cfg8 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec8 w))

/-- The staging memrefs the body is handed at point `t`. -/
abbrev ms0 (hO : Ok V) (t : Fin (cfgM V hO).N) : Memref sig .tc .vmem S1x1x256 .f32 := spec8_0.stage ((cfgM V hO).slots t 0)
abbrev hs0 (hO : Ok V) (t : Fin (cfgM V hO).N) : (ms0 V hO t).IsWhole := hstage8_0 (((cfgM V hO).slots t 0).cast nbuf8_0)
abbrev ms1 (hO : Ok V) (t : Fin (cfgM V hO).N) : Memref sig .tc .vmem S1x1x256 .f32 := spec8_1.stage ((cfgM V hO).slots t 1)
abbrev hs1 (hO : Ok V) (t : Fin (cfgM V hO).N) : (ms1 V hO t).IsWhole := hstage8_1 (((cfgM V hO).slots t 1).cast nbuf8_1)
abbrev ms2 (hO : Ok V) (t : Fin (cfgM V hO).N) : Memref sig .tc .vmem S1x1 .f32 := spec8_2.stage ((cfgM V hO).slots t 2)
abbrev hs2 (hO : Ok V) (t : Fin (cfgM V hO).N) : (ms2 V hO t).IsWhole := hstage8_2 (((cfgM V hO).slots t 2).cast nbuf8_2)

/-- The body as the pipeline calls it at point `t`. -/
abbrev bodyAt (a : (pcfg8 (F := F)).Adm) (t : Fin (cfg8 a).N) : Prog (TpuEff nD τ sig (Elt F) Λ₀ .tc) PUnit :=
  cc8_kernel (grid8.coords t) (Memref.whole main_v49) (Memref.isWhole_whole _) (Memref.whole main_v50) (Memref.isWhole_whole _)
    (spec8_0.stage ((cfg8 a).slots t 0)) (hstage8_0 (((cfg8 a).slots t 0).cast nbuf8_0))
    (spec8_1.stage ((cfg8 a).slots t 1)) (hstage8_1 (((cfg8 a).slots t 1).cast nbuf8_1))
    (spec8_2.stage ((cfg8 a).slots t 2)) (hstage8_2 (((cfg8 a).slots t 2).cast nbuf8_2))

/-- The one grid coordinate of point `t` is `t`. -/
theorem coords_val (t : Fin grid8.N) : ((grid8.coords t) 0).val = t.val := by
  have hN : t.val < 25000 := lt_of_lt_of_eq t.isLt N_8
  show t.val / grid8.stride 0 % grid8.bound 0 = t.val
  rw [show grid8.stride 0 = 1 from by decide, show grid8.bound 0 = 25000 from rfl, Nat.div_one, Nat.mod_eq_of_lt hN]

/-- The branch is taken at the first point only. -/
theorem hcond (t : Fin grid8.N) : cond (grid8.coords t) ↔ t.val = 0 := by
  exact (Cert.FirstPoint.cond_iff ((grid8.coords t) 0).val ((grid8.coords t) 0).isLt).trans (by rw [coords_val])

/-! ## What the accumulator's buffer holds after each case -/

theorem coverFirst (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid8.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid8.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid8.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid8.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 8 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec8 w)
  after w t := match w with
    | ⟨0, _⟩ => iblk V hO c 0 t
    | ⟨1, _⟩ => iblk V hO c 1 t
    | ⟨2, _⟩ => accAt V hO c t.val t.isLt
  Φ _ := iprop(Pipeline.ΦA spec8 c ∗ Pipeline.prefHeld (Ix := Unit) (Name := ℕ) (U := UR sig nD τ) (Lvl := ℕ) pre8 c (fun _ => fullShare) (tbl V))
  q w := if w = 0 then fullShare.left else fullShare.right
  owed _ := 0

theorem A_eq (hO : Ok V) (c : Dev nD) (w : Fin (cfgM V hO).W) : (dat V hO c).A w = V c (Pipeline.arrRef spec8 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg8 (F := F)).Adm) (t : Fin (cfg8 a).N) (ht : t.val + 1 < (cfg8 a).N) : ((cfg8 a).win 2).flush t = false := by
  have hix : ∀ s : Fin (cfg8 a).N, ((cfg8 a).win 2).index s = ![0, 0] := fun _ => rfl
  unfold Pipeline.Window.flush
  rw [Bool.and_eq_false_iff]; right
  rw [Bool.or_eq_false_iff]
  refine ⟨decide_eq_false (by have : (cfg8 a).N = (cfg8 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg8 (adm V hO)).N := t.isLt
  rw [Dat.before_out_kept _ 2 rfl t h0 (flush_2 (adm V hO) _ (by show t.val - 1 + 1 < (cfg8 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v51 ((dat (Vin W) hO c).arrAt 2 (cfgM (Vin W) hO).N)

end Cert.KernelIdeal.Call8

end
-- ==== Proof.Call8Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call8Data
import Idealize.ShloMosaic.Lib.Pipeline.FrameBody
import Idealize.ShloMosaic.Lib.Ring
import Idealize.ShloMosaic.Lib.Tactic

set_option maxRecDepth 16384

noncomputable section

namespace Cert.KernelIdeal.Call8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 8: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid8.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid8.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W8, bigSep_W8]
  exact sound_body V hO c t

end Cert.KernelIdeal.Call8

end
-- ==== Proof.Call8Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call8Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 8 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec8)) = {main_v0, main_v51} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec8 c V
      ∗ Pipeline.prefHeld pre8 c (fun _ => fullShare) (fun k => V (pre8.ref k)) ∗ Pipeline.unscopedRestP pre8 spec8 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀8.arr_unscoped c V
  have hrs := Pipeline.unscopedRest_split (Ix := Unit) (Name := ℕ) (U := UR sig nD τ) (Lvl := ℕ) (nD := nD) (τ := τ) (Val := Elt F)
    preFacts8 c V
  rw [hsp, show Pipeline.unscopedRest (cfgM (Vin W) hO).spec c V = Pipeline.unscopedRest (Ix := Unit) (Name := ℕ) (U := UR sig nD τ) (Lvl := ℕ) spec8 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec8 c V : sProp 𝕄)
      = iprop((((c : Thread nD τ).loc main_v0) ↦{fullShare} V main_v0) ∗ (((c : Thread nD τ).loc main_v51) ↦{fullShare} V main_v51)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v51) ↦{fullShare} Vin W c main_v51)) := by
  unfold Pipeline.Dat.arrays
  rw [bigSep_W8]
  have hs0 : ((cfgM (Vin W) hO).win (0 : Fin 3)).arr.view.set = Finset.univ := (arr_whole8 0).set_eq_univ
  have hs1 : ((cfgM (Vin W) hO).win (1 : Fin 3)).arr.view.set = Finset.univ := (arr_whole8 1).set_eq_univ
  have hs2 : ((cfgM (Vin W) hO).win (2 : Fin 3)).arr.view.set = Finset.univ := (arr_whole8 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v51 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v51) ↦{fullShare} Vin W c main_v51))
          ∗ Pipeline.prefHeld pre8 c (fun _ => fullShare) (tbl (Vin W)) ∗ Pipeline.unscopedRestP pre8 spec8 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre8.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre8 c (fun _ => fullShare) (tbl (Vin W))
          ∗ (dat (Vin W) hO c).owesAt () 0 ∗ (∃ r, prngReg c r) ∗ Pipeline.unscopedRestP pre8 spec8 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v51) ↦{fullShare} (dat (Vin W) hO c).arrAt 2 (cfgM (Vin W) hO).N)) := by
  unfold Pipeline.Dat.arrays
  rw [bigSep_W8]
  have hs0 : ((cfgM (Vin W) hO).win (0 : Fin 3)).arr.view.set = Finset.univ := (arr_whole8 0).set_eq_univ
  have hs1 : ((cfgM (Vin W) hO).win (1 : Fin 3)).arr.view.set = Finset.univ := (arr_whole8 1).set_eq_univ
  have hs2 : ((cfgM (Vin W) hO).win (2 : Fin 3)).arr.view.set = Finset.univ := (arr_whole8 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v51 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v51) ↦{fullShare} (dat (Vin W) hO c).arrAt 2 (cfgM (Vin W) hO).N))
          ∗ Pipeline.prefHeld pre8 c (fun _ => fullShare) (tbl (Vin W)) ∗ Pipeline.unscopedRestP pre8 spec8 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v51 = (dat (Vin W) hO c).arrAt 2 (cfgM (Vin W) hO).N := Function.update_self _ _ _
  have et : (fun k => Vin (Wout W hO) c (pre8.ref k)) = tbl (Vin W) := funext fun k => by
    refine (Function.update_of_ne ?_ _ _).trans (V_pre (Vin W) c k)
    intro e
    have := Proc.devRef_injective _ e
    revert k; decide
  have er : (Pipeline.unscopedRestP pre8 spec8 c (Vin (Wout W hO) c) : sProp 𝕄) = Pipeline.unscopedRestP pre8 spec8 c (Vin W c) := by
    unfold Pipeline.unscopedRestP
    refine bigSep_congr fun b hb => ?_
    have hb1 : b ∉ Finset.univ.image (Pipeline.arrRef spec8) := (Finset.mem_sdiff.mp (Finset.mem_sdiff.mp hb).1).2
    have hne : b ≠ main_v51 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre8 c (fun _ => fullShare) (tbl (Vin W)))
        ∗ Pipeline.unscopedRestP pre8 spec8 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre8 c (fun _ => fullShare) (tbl (Vin W)) ∗ Pipeline.scopedRest spec8 c) : sProp 𝕄)
      ⊢ (dat (Vin W) hO c).Φ 0 := by
  rw [show (dat (Vin W) hO c).Φ 0 = iprop(Pipeline.ΦA spec8 c ∗ Pipeline.prefHeld (Ix := Unit) (Name := ℕ) (U := UR sig nD τ) (Lvl := ℕ) pre8 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre8 c (fun _ => fullShare) (tbl (Vin W))) ∗ Pipeline.scopedRest spec8 c) : sProp 𝕄) := by
  rw [show (dat (Vin W) hO c).Φ (Fin.last _) = iprop(Pipeline.ΦA spec8 c ∗ Pipeline.prefHeld (Ix := Unit) (Name := ℕ) (U := UR sig nD τ) (Lvl := ℕ) pre8 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call8

end
-- ==== Proof.Call9Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 9: one pair per grid point, its distance added to a one-entry accumulator

The body's only branch tests whether the point is the first of the grid: there the accumulator is reset to zero
before the pair's distance is added; at every later point the distance is added to what the point before left. -/

/-- The branch condition, from the grid coordinate: the point is the first. -/
abbrev cond (i : grid9.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v54
abbrev htbA : tbA.IsWhole := Memref.isWhole_whole _
abbrev tbB : Memref sig .tc .smem S25000 .i32 := Memref.whole main_v55
abbrev htbB : tbB.IsWhole := Memref.isWhole_whole _

/-- The accumulator's staging buffer, through which its contents are stated. -/
abbrev VO : View sig .tc .vmem S1x1 .f32 := (Memref.whole cc9_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc9_kernel i tbA htbA tbB htbB arg3 harg3 arg4 harg4 arg5 harg5) K } := by
  refine ⟨?_, fun E K => ?run⟩
  case run =>
    simp only [cc9_kernel_eq_skeleton]; unfold cc9_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc9_kernel i tbA htbA tbB htbB arg3 harg3 arg4 harg4 arg5 harg5) K } := by
  refine ⟨?_, fun E K => ?run⟩
  case run =>
    simp only [cc9_kernel_eq_skeleton]; unfold cc9_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call9

end
-- ==== Proof.Call9Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call9Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 9 over any entry contents: blocks, the running accumulator, the proof data, the body at a point -/

variable (V : (c : Dev nD) → (b : Ref sig .tc) → Buf (Elt F) ((c : Thread nD τ).loc b))

/-- The two index tables' contents when the region is entered (one device). -/
def tbl : pre9.Contents (Elt F) := fun j => V (0 : Dev nD) (pre9.ref j)
theorem V_pre (c : Dev nD) (j : Fin 2) : V c (pre9.ref j) = tbl V j := by
  obtain rfl : c = 0 := Subsingleton.elim _ _; rfl
/-- Every row the tables name lies inside the array of rows. -/
abbrev Ok : Prop := ok9 (F := F) (tbl V)
abbrev adm (hO : Ok V) : (pcfg9 (F := F)).Adm := ⟨tbl V, hO⟩
abbrev cfgM (hO : Ok V) : Pipeline.Cfg sig Λ₀ := cfg9 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec9 w))

/-- The staging memrefs the body is handed at point `t`. -/
abbrev ms0 (hO : Ok V) (t : Fin (cfgM V hO).N) : Memref sig .tc .vmem S1x1x256 .f32 := spec9_0.stage ((cfgM V hO).slots t 0)
abbrev hs0 (hO : Ok V) (t : Fin (cfgM V hO).N) : (ms0 V hO t).IsWhole := hstage9_0 (((cfgM V hO).slots t 0).cast nbuf9_0)
abbrev ms1 (hO : Ok V) (t : Fin (cfgM V hO).N) : Memref sig .tc .vmem S1x1x256 .f32 := spec9_1.stage ((cfgM V hO).slots t 1)
abbrev hs1 (hO : Ok V) (t : Fin (cfgM V hO).N) : (ms1 V hO t).IsWhole := hstage9_1 (((cfgM V hO).slots t 1).cast nbuf9_1)
abbrev ms2 (hO : Ok V) (t : Fin (cfgM V hO).N) : Memref sig .tc .vmem S1x1 .f32 := spec9_2.stage ((cfgM V hO).slots t 2)
abbrev hs2 (hO : Ok V) (t : Fin (cfgM V hO).N) : (ms2 V hO t).IsWhole := hstage9_2 (((cfgM V hO).slots t 2).cast nbuf9_2)

/-- The body as the pipeline calls it at point `t`. -/
abbrev bodyAt (a : (pcfg9 (F := F)).Adm) (t : Fin (cfg9 a).N) : Prog (TpuEff nD τ sig (Elt F) Λ₀ .tc) PUnit :=
  cc9_kernel (grid9.coords t) (Memref.whole main_v54) (Memref.isWhole_whole _) (Memref.whole main_v55) (Memref.isWhole_whole _)
    (spec9_0.stage ((cfg9 a).slots t 0)) (hstage9_0 (((cfg9 a).slots t 0).cast nbuf9_0))
    (spec9_1.stage ((cfg9 a).slots t 1)) (hstage9_1 (((cfg9 a).slots t 1).cast nbuf9_1))
    (spec9_2.stage ((cfg9 a).slots t 2)) (hstage9_2 (((cfg9 a).slots t 2).cast nbuf9_2))

/-- The one grid coordinate of point `t` is `t`. -/
theorem coords_val (t : Fin grid9.N) : ((grid9.coords t) 0).val = t.val := by
  have hN : t.val < 25000 := lt_of_lt_of_eq t.isLt N_9
  show t.val / grid9.stride 0 % grid9.bound 0 = t.val
  rw [show grid9.stride 0 = 1 from by decide, show grid9.bound 0 = 25000 from rfl, Nat.div_one, Nat.mod_eq_of_lt hN]

/-- The branch is taken at the first point only. -/
theorem hcond (t : Fin grid9.N) : cond (grid9.coords t) ↔ t.val = 0 := by
  exact (Cert.FirstPoint.cond_iff ((grid9.coords t) 0).val ((grid9.coords t) 0).isLt).trans (by rw [coords_val])

/-! ## What the accumulator's buffer holds after each case -/

theorem coverFirst (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid9.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid9.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid9.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid9.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 9 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec9 w)
  after w t := match w with
    | ⟨0, _⟩ => iblk V hO c 0 t
    | ⟨1, _⟩ => iblk V hO c 1 t
    | ⟨2, _⟩ => accAt V hO c t.val t.isLt
  Φ _ := iprop(Pipeline.ΦA spec9 c ∗ Pipeline.prefHeld (Ix := Unit) (Name := ℕ) (U := UR sig nD τ) (Lvl := ℕ) pre9 c (fun _ => fullShare) (tbl V))
  q w := if w = 0 then fullShare.left else fullShare.right
  owed _ := 0

theorem A_eq (hO : Ok V) (c : Dev nD) (w : Fin (cfgM V hO).W) : (dat V hO c).A w = V c (Pipeline.arrRef spec9 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg9 (F := F)).Adm) (t : Fin (cfg9 a).N) (ht : t.val + 1 < (cfg9 a).N) : ((cfg9 a).win 2).flush t = false := by
  have hix : ∀ s : Fin (cfg9 a).N, ((cfg9 a).win 2).index s = ![0, 0] := fun _ => rfl
  unfold Pipeline.Window.flush
  rw [Bool.and_eq_false_iff]; right
  rw [Bool.or_eq_false_iff]
  refine ⟨decide_eq_false (by have : (cfg9 a).N = (cfg9 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg9 (adm V hO)).N := t.isLt
  rw [Dat.before_out_kept _ 2 rfl t h0 (flush_2 (adm V hO) _ (by show t.val - 1 + 1 < (cfg9 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v56 ((dat (Vin W) hO c).arrAt 2 (cfgM (Vin W) hO).N)

end Cert.KernelIdeal.Call9

end
-- ==== Proof.Call9Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call9Data
import Idealize.ShloMosaic.Lib.Pipeline.FrameBody
import Idealize.ShloMosaic.Lib.Ring
import Idealize.ShloMosaic.Lib.Tactic

set_option maxRecDepth 16384

noncomputable section

namespace Cert.KernelIdeal.Call9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 9: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid9.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid9.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W9, bigSep_W9]
  exact sound_body V hO c t

end Cert.KernelIdeal.Call9

end
-- ==== Proof.Call9Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call9Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 9 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec9)) = {main_v0, main_v56} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec9 c V
      ∗ Pipeline.prefHeld pre9 c (fun _ => fullShare) (fun k => V (pre9.ref k)) ∗ Pipeline.unscopedRestP pre9 spec9 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀9.arr_unscoped c V
  have hrs := Pipeline.unscopedRest_split (Ix := Unit) (Name := ℕ) (U := UR sig nD τ) (Lvl := ℕ) (nD := nD) (τ := τ) (Val := Elt F)
    preFacts9 c V
  rw [hsp, show Pipeline.unscopedRest (cfgM (Vin W) hO).spec c V = Pipeline.unscopedRest (Ix := Unit) (Name := ℕ) (U := UR sig nD τ) (Lvl := ℕ) spec9 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec9 c V : sProp 𝕄)
      = iprop((((c : Thread nD τ).loc main_v0) ↦{fullShare} V main_v0) ∗ (((c : Thread nD τ).loc main_v56) ↦{fullShare} V main_v56)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v56) ↦{fullShare} Vin W c main_v56)) := by
  unfold Pipeline.Dat.arrays
  rw [bigSep_W9]
  have hs0 : ((cfgM (Vin W) hO).win (0 : Fin 3)).arr.view.set = Finset.univ := (arr_whole9 0).set_eq_univ
  have hs1 : ((cfgM (Vin W) hO).win (1 : Fin 3)).arr.view.set = Finset.univ := (arr_whole9 1).set_eq_univ
  have hs2 : ((cfgM (Vin W) hO).win (2 : Fin 3)).arr.view.set = Finset.univ := (arr_whole9 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v56 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v56) ↦{fullShare} Vin W c main_v56))
          ∗ Pipeline.prefHeld pre9 c (fun _ => fullShare) (tbl (Vin W)) ∗ Pipeline.unscopedRestP pre9 spec9 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre9.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre9 c (fun _ => fullShare) (tbl (Vin W))
          ∗ (dat (Vin W) hO c).owesAt () 0 ∗ (∃ r, prngReg c r) ∗ Pipeline.unscopedRestP pre9 spec9 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v56) ↦{fullShare} (dat (Vin W) hO c).arrAt 2 (cfgM (Vin W) hO).N)) := by
  unfold Pipeline.Dat.arrays
  rw [bigSep_W9]
  have hs0 : ((cfgM (Vin W) hO).win (0 : Fin 3)).arr.view.set = Finset.univ := (arr_whole9 0).set_eq_univ
  have hs1 : ((cfgM (Vin W) hO).win (1 : Fin 3)).arr.view.set = Finset.univ := (arr_whole9 1).set_eq_univ
  have hs2 : ((cfgM (Vin W) hO).win (2 : Fin 3)).arr.view.set = Finset.univ := (arr_whole9 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v56 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v56) ↦{fullShare} (dat (Vin W) hO c).arrAt 2 (cfgM (Vin W) hO).N))
          ∗ Pipeline.prefHeld pre9 c (fun _ => fullShare) (tbl (Vin W)) ∗ Pipeline.unscopedRestP pre9 spec9 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v56 = (dat (Vin W) hO c).arrAt 2 (cfgM (Vin W) hO).N := Function.update_self _ _ _
  have et : (fun k => Vin (Wout W hO) c (pre9.ref k)) = tbl (Vin W) := funext fun k => by
    refine (Function.update_of_ne ?_ _ _).trans (V_pre (Vin W) c k)
    intro e
    have := Proc.devRef_injective _ e
    revert k; decide
  have er : (Pipeline.unscopedRestP pre9 spec9 c (Vin (Wout W hO) c) : sProp 𝕄) = Pipeline.unscopedRestP pre9 spec9 c (Vin W c) := by
    unfold Pipeline.unscopedRestP
    refine bigSep_congr fun b hb => ?_
    have hb1 : b ∉ Finset.univ.image (Pipeline.arrRef spec9) := (Finset.mem_sdiff.mp (Finset.mem_sdiff.mp hb).1).2
    have hne : b ≠ main_v56 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre9 c (fun _ => fullShare) (tbl (Vin W)))
        ∗ Pipeline.unscopedRestP pre9 spec9 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre9 c (fun _ => fullShare) (tbl (Vin W)) ∗ Pipeline.scopedRest spec9 c) : sProp 𝕄)
      ⊢ (dat (Vin W) hO c).Φ 0 := by
  rw [show (dat (Vin W) hO c).Φ 0 = iprop(Pipeline.ΦA spec9 c ∗ Pipeline.prefHeld (Ix := Unit) (Name := ℕ) (U := UR sig nD τ) (Lvl := ℕ) pre9 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre9 c (fun _ => fullShare) (tbl (Vin W))) ∗ Pipeline.scopedRest spec9 c) : sProp 𝕄) := by
  rw [show (dat (Vin W) hO c).Φ (Fin.last _) = iprop(Pipeline.ΦA spec9 c ∗ Pipeline.prefHeld (Ix := Unit) (Name := ℕ) (U := UR sig nD τ) (Lvl := ℕ) pre9 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call9

end
-- ==== Proof.Call10Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 10: one pair per grid point, its distance added to a one-entry accumulator

The body's only branch tests whether the point is the first of the grid: there the accumulator is reset to zero
before the pair's distance is added; at every later point the distance is added to what the point before left. -/

/-- The branch condition, from the grid coordinate: the point is the first. -/
abbrev cond (i : grid10.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v59
abbrev htbA : tbA.IsWhole := Memref.isWhole_whole _
abbrev tbB : Memref sig .tc .smem S25000 .i32 := Memref.whole main_v60
abbrev htbB : tbB.IsWhole := Memref.isWhole_whole _

/-- The accumulator's staging buffer, through which its contents are stated. -/
abbrev VO : View sig .tc .vmem S1x1 .f32 := (Memref.whole cc10_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc10_kernel i tbA htbA tbB htbB arg3 harg3 arg4 harg4 arg5 harg5) K } := by
  refine ⟨?_, fun E K => ?run⟩
  case run =>
    simp only [cc10_kernel_eq_skeleton]; unfold cc10_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc10_kernel i tbA htbA tbB htbB arg3 harg3 arg4 harg4 arg5 harg5) K } := by
  refine ⟨?_, fun E K => ?run⟩
  case run =>
    simp only [cc10_kernel_eq_skeleton]; unfold cc10_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call10

end
-- ==== Proof.Call10Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call10Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 10 over any entry contents: blocks, the running accumulator, the proof data, the body at a point -/

variable (V : (c : Dev nD) → (b : Ref sig .tc) → Buf (Elt F) ((c : Thread nD τ).loc b))

/-- The two index tables' contents when the region is entered (one device). -/
def tbl : pre10.Contents (Elt F) := fun j => V (0 : Dev nD) (pre10.ref j)
theorem V_pre (c : Dev nD) (j : Fin 2) : V c (pre10.ref j) = tbl V j := by
  obtain rfl : c = 0 := Subsingleton.elim _ _; rfl
/-- Every row the tables name lies inside the array of rows. -/
abbrev Ok : Prop := ok10 (F := F) (tbl V)
abbrev adm (hO : Ok V) : (pcfg10 (F := F)).Adm := ⟨tbl V, hO⟩
abbrev cfgM (hO : Ok V) : Pipeline.Cfg sig Λ₀ := cfg10 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec10 w))

/-- The staging memrefs the body is handed at point `t`. -/
abbrev ms0 (hO : Ok V) (t : Fin (cfgM V hO).N) : Memref sig .tc .vmem S1x1x256 .f32 := spec10_0.stage ((cfgM V hO).slots t 0)
abbrev hs0 (hO : Ok V) (t : Fin (cfgM V hO).N) : (ms0 V hO t).IsWhole := hstage10_0 (((cfgM V hO).slots t 0).cast nbuf10_0)
abbrev ms1 (hO : Ok V) (t : Fin (cfgM V hO).N) : Memref sig .tc .vmem S1x1x256 .f32 := spec10_1.stage ((cfgM V hO).slots t 1)
abbrev hs1 (hO : Ok V) (t : Fin (cfgM V hO).N) : (ms1 V hO t).IsWhole := hstage10_1 (((cfgM V hO).slots t 1).cast nbuf10_1)
abbrev ms2 (hO : Ok V) (t : Fin (cfgM V hO).N) : Memref sig .tc .vmem S1x1 .f32 := spec10_2.stage ((cfgM V hO).slots t 2)
abbrev hs2 (hO : Ok V) (t : Fin (cfgM V hO).N) : (ms2 V hO t).IsWhole := hstage10_2 (((cfgM V hO).slots t 2).cast nbuf10_2)

/-- The body as the pipeline calls it at point `t`. -/
abbrev bodyAt (a : (pcfg10 (F := F)).Adm) (t : Fin (cfg10 a).N) : Prog (TpuEff nD τ sig (Elt F) Λ₀ .tc) PUnit :=
  cc10_kernel (grid10.coords t) (Memref.whole main_v59) (Memref.isWhole_whole _) (Memref.whole main_v60) (Memref.isWhole_whole _)
    (spec10_0.stage ((cfg10 a).slots t 0)) (hstage10_0 (((cfg10 a).slots t 0).cast nbuf10_0))
    (spec10_1.stage ((cfg10 a).slots t 1)) (hstage10_1 (((cfg10 a).slots t 1).cast nbuf10_1))
    (spec10_2.stage ((cfg10 a).slots t 2)) (hstage10_2 (((cfg10 a).slots t 2).cast nbuf10_2))

/-- The one grid coordinate of point `t` is `t`. -/
theorem coords_val (t : Fin grid10.N) : ((grid10.coords t) 0).val = t.val := by
  have hN : t.val < 25000 := lt_of_lt_of_eq t.isLt N_10
  show t.val / grid10.stride 0 % grid10.bound 0 = t.val
  rw [show grid10.stride 0 = 1 from by decide, show grid10.bound 0 = 25000 from rfl, Nat.div_one, Nat.mod_eq_of_lt hN]

/-- The branch is taken at the first point only. -/
theorem hcond (t : Fin grid10.N) : cond (grid10.coords t) ↔ t.val = 0 := by
  exact (Cert.FirstPoint.cond_iff ((grid10.coords t) 0).val ((grid10.coords t) 0).isLt).trans (by rw [coords_val])

/-! ## What the accumulator's buffer holds after each case -/

theorem coverFirst (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid10.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid10.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid10.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid10.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 10 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec10 w)
  after w t := match w with
    | ⟨0, _⟩ => iblk V hO c 0 t
    | ⟨1, _⟩ => iblk V hO c 1 t
    | ⟨2, _⟩ => accAt V hO c t.val t.isLt
  Φ _ := iprop(Pipeline.ΦA spec10 c ∗ Pipeline.prefHeld (Ix := Unit) (Name := ℕ) (U := UR sig nD τ) (Lvl := ℕ) pre10 c (fun _ => fullShare) (tbl V))
  q w := if w = 0 then fullShare.left else fullShare.right
  owed _ := 0

theorem A_eq (hO : Ok V) (c : Dev nD) (w : Fin (cfgM V hO).W) : (dat V hO c).A w = V c (Pipeline.arrRef spec10 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg10 (F := F)).Adm) (t : Fin (cfg10 a).N) (ht : t.val + 1 < (cfg10 a).N) : ((cfg10 a).win 2).flush t = false := by
  have hix : ∀ s : Fin (cfg10 a).N, ((cfg10 a).win 2).index s = ![0, 0] := fun _ => rfl
  unfold Pipeline.Window.flush
  rw [Bool.and_eq_false_iff]; right
  rw [Bool.or_eq_false_iff]
  refine ⟨decide_eq_false (by have : (cfg10 a).N = (cfg10 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg10 (adm V hO)).N := t.isLt
  rw [Dat.before_out_kept _ 2 rfl t h0 (flush_2 (adm V hO) _ (by show t.val - 1 + 1 < (cfg10 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v61 ((dat (Vin W) hO c).arrAt 2 (cfgM (Vin W) hO).N)

end Cert.KernelIdeal.Call10

end
-- ==== Proof.Call10Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call10Data
import Idealize.ShloMosaic.Lib.Pipeline.FrameBody
import Idealize.ShloMosaic.Lib.Ring
import Idealize.ShloMosaic.Lib.Tactic

set_option maxRecDepth 16384

noncomputable section

namespace Cert.KernelIdeal.Call10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 10: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid10.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid10.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W10, bigSep_W10]
  exact sound_body V hO c t

end Cert.KernelIdeal.Call10

end
-- ==== Proof.Call10Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call10Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 10 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec10)) = {main_v0, main_v61} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec10 c V
      ∗ Pipeline.prefHeld pre10 c (fun _ => fullShare) (fun k => V (pre10.ref k)) ∗ Pipeline.unscopedRestP pre10 spec10 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀10.arr_unscoped c V
  have hrs := Pipeline.unscopedRest_split (Ix := Unit) (Name := ℕ) (U := UR sig nD τ) (Lvl := ℕ) (nD := nD) (τ := τ) (Val := Elt F)
    preFacts10 c V
  rw [hsp, show Pipeline.unscopedRest (cfgM (Vin W) hO).spec c V = Pipeline.unscopedRest (Ix := Unit) (Name := ℕ) (U := UR sig nD τ) (Lvl := ℕ) spec10 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec10 c V : sProp 𝕄)
      = iprop((((c : Thread nD τ).loc main_v0) ↦{fullShare} V main_v0) ∗ (((c : Thread nD τ).loc main_v61) ↦{fullShare} V main_v61)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v61) ↦{fullShare} Vin W c main_v61)) := by
  unfold Pipeline.Dat.arrays
  rw [bigSep_W10]
  have hs0 : ((cfgM (Vin W) hO).win (0 : Fin 3)).arr.view.set = Finset.univ := (arr_whole10 0).set_eq_univ
  have hs1 : ((cfgM (Vin W) hO).win (1 : Fin 3)).arr.view.set = Finset.univ := (arr_whole10 1).set_eq_univ
  have hs2 : ((cfgM (Vin W) hO).win (2 : Fin 3)).arr.view.set = Finset.univ := (arr_whole10 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v61 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v61) ↦{fullShare} Vin W c main_v61))
          ∗ Pipeline.prefHeld pre10 c (fun _ => fullShare) (tbl (Vin W)) ∗ Pipeline.unscopedRestP pre10 spec10 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre10.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre10 c (fun _ => fullShare) (tbl (Vin W))
          ∗ (dat (Vin W) hO c).owesAt () 0 ∗ (∃ r, prngReg c r) ∗ Pipeline.unscopedRestP pre10 spec10 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v61) ↦{fullShare} (dat (Vin W) hO c).arrAt 2 (cfgM (Vin W) hO).N)) := by
  unfold Pipeline.Dat.arrays
  rw [bigSep_W10]
  have hs0 : ((cfgM (Vin W) hO).win (0 : Fin 3)).arr.view.set = Finset.univ := (arr_whole10 0).set_eq_univ
  have hs1 : ((cfgM (Vin W) hO).win (1 : Fin 3)).arr.view.set = Finset.univ := (arr_whole10 1).set_eq_univ
  have hs2 : ((cfgM (Vin W) hO).win (2 : Fin 3)).arr.view.set = Finset.univ := (arr_whole10 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v61 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v61) ↦{fullShare} (dat (Vin W) hO c).arrAt 2 (cfgM (Vin W) hO).N))
          ∗ Pipeline.prefHeld pre10 c (fun _ => fullShare) (tbl (Vin W)) ∗ Pipeline.unscopedRestP pre10 spec10 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v61 = (dat (Vin W) hO c).arrAt 2 (cfgM (Vin W) hO).N := Function.update_self _ _ _
  have et : (fun k => Vin (Wout W hO) c (pre10.ref k)) = tbl (Vin W) := funext fun k => by
    refine (Function.update_of_ne ?_ _ _).trans (V_pre (Vin W) c k)
    intro e
    have := Proc.devRef_injective _ e
    revert k; decide
  have er : (Pipeline.unscopedRestP pre10 spec10 c (Vin (Wout W hO) c) : sProp 𝕄) = Pipeline.unscopedRestP pre10 spec10 c (Vin W c) := by
    unfold Pipeline.unscopedRestP
    refine bigSep_congr fun b hb => ?_
    have hb1 : b ∉ Finset.univ.image (Pipeline.arrRef spec10) := (Finset.mem_sdiff.mp (Finset.mem_sdiff.mp hb).1).2
    have hne : b ≠ main_v61 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre10 c (fun _ => fullShare) (tbl (Vin W)))
        ∗ Pipeline.unscopedRestP pre10 spec10 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre10 c (fun _ => fullShare) (tbl (Vin W)) ∗ Pipeline.scopedRest spec10 c) : sProp 𝕄)
      ⊢ (dat (Vin W) hO c).Φ 0 := by
  rw [show (dat (Vin W) hO c).Φ 0 = iprop(Pipeline.ΦA spec10 c ∗ Pipeline.prefHeld (Ix := Unit) (Name := ℕ) (U := UR sig nD τ) (Lvl := ℕ) pre10 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre10 c (fun _ => fullShare) (tbl (Vin W))) ∗ Pipeline.scopedRest spec10 c) : sProp 𝕄) := by
  rw [show (dat (Vin W) hO c).Φ (Fin.last _) = iprop(Pipeline.ΦA spec10 c ∗ Pipeline.prefHeld (Ix := Unit) (Name := ℕ) (U := UR sig nD τ) (Lvl := ℕ) pre10 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call10

end
-- ==== Proof.Call11Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 11: one pair per grid point, its distance added to a one-entry accumulator

The body's only branch tests whether the point is the first of the grid: there the accumulator is reset to zero
before the pair's distance is added; at every later point the distance is added to what the point before left. -/

/-- The branch condition, from the grid coordinate: the point is the first. -/
abbrev cond (i : grid11.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v64
abbrev htbA : tbA.IsWhole := Memref.isWhole_whole _
abbrev tbB : Memref sig .tc .smem S25000 .i32 := Memref.whole main_v65
abbrev htbB : tbB.IsWhole := Memref.isWhole_whole _

/-- The accumulator's staging buffer, through which its contents are stated. -/
abbrev VO : View sig .tc .vmem S1x1 .f32 := (Memref.whole cc11_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc11_kernel i tbA htbA tbB htbB arg3 harg3 arg4 harg4 arg5 harg5) K } := by
  refine ⟨?_, fun E K => ?run⟩
  case run =>
    simp only [cc11_kernel_eq_skeleton]; unfold cc11_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc11_kernel i tbA htbA tbB htbB arg3 harg3 arg4 harg4 arg5 harg5) K } := by
  refine ⟨?_, fun E K => ?run⟩
  case run =>
    simp only [cc11_kernel_eq_skeleton]; unfold cc11_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call11

end
-- ==== Proof.Call11Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call11Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 11 over any entry contents: blocks, the running accumulator, the proof data, the body at a point -/

variable (V : (c : Dev nD) → (b : Ref sig .tc) → Buf (Elt F) ((c : Thread nD τ).loc b))

/-- The two index tables' contents when the region is entered (one device). -/
def tbl : pre11.Contents (Elt F) := fun j => V (0 : Dev nD) (pre11.ref j)
theorem V_pre (c : Dev nD) (j : Fin 2) : V c (pre11.ref j) = tbl V j := by
  obtain rfl : c = 0 := Subsingleton.elim _ _; rfl
/-- Every row the tables name lies inside the array of rows. -/
abbrev Ok : Prop := ok11 (F := F) (tbl V)
abbrev adm (hO : Ok V) : (pcfg11 (F := F)).Adm := ⟨tbl V, hO⟩
abbrev cfgM (hO : Ok V) : Pipeline.Cfg sig Λ₀ := cfg11 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec11 w))

/-- The staging memrefs the body is handed at point `t`. -/
abbrev ms0 (hO : Ok V) (t : Fin (cfgM V hO).N) : Memref sig .tc .vmem S1x1x256 .f32 := spec11_0.stage ((cfgM V hO).slots t 0)
abbrev hs0 (hO : Ok V) (t : Fin (cfgM V hO).N) : (ms0 V hO t).IsWhole := hstage11_0 (((cfgM V hO).slots t 0).cast nbuf11_0)
abbrev ms1 (hO : Ok V) (t : Fin (cfgM V hO).N) : Memref sig .tc .vmem S1x1x256 .f32 := spec11_1.stage ((cfgM V hO).slots t 1)
abbrev hs1 (hO : Ok V) (t : Fin (cfgM V hO).N) : (ms1 V hO t).IsWhole := hstage11_1 (((cfgM V hO).slots t 1).cast nbuf11_1)
abbrev ms2 (hO : Ok V) (t : Fin (cfgM V hO).N) : Memref sig .tc .vmem S1x1 .f32 := spec11_2.stage ((cfgM V hO).slots t 2)
abbrev hs2 (hO : Ok V) (t : Fin (cfgM V hO).N) : (ms2 V hO t).IsWhole := hstage11_2 (((cfgM V hO).slots t 2).cast nbuf11_2)

/-- The body as the pipeline calls it at point `t`. -/
abbrev bodyAt (a : (pcfg11 (F := F)).Adm) (t : Fin (cfg11 a).N) : Prog (TpuEff nD τ sig (Elt F) Λ₀ .tc) PUnit :=
  cc11_kernel (grid11.coords t) (Memref.whole main_v64) (Memref.isWhole_whole _) (Memref.whole main_v65) (Memref.isWhole_whole _)
    (spec11_0.stage ((cfg11 a).slots t 0)) (hstage11_0 (((cfg11 a).slots t 0).cast nbuf11_0))
    (spec11_1.stage ((cfg11 a).slots t 1)) (hstage11_1 (((cfg11 a).slots t 1).cast nbuf11_1))
    (spec11_2.stage ((cfg11 a).slots t 2)) (hstage11_2 (((cfg11 a).slots t 2).cast nbuf11_2))

/-- The one grid coordinate of point `t` is `t`. -/
theorem coords_val (t : Fin grid11.N) : ((grid11.coords t) 0).val = t.val := by
  have hN : t.val < 25000 := lt_of_lt_of_eq t.isLt N_11
  show t.val / grid11.stride 0 % grid11.bound 0 = t.val
  rw [show grid11.stride 0 = 1 from by decide, show grid11.bound 0 = 25000 from rfl, Nat.div_one, Nat.mod_eq_of_lt hN]

/-- The branch is taken at the first point only. -/
theorem hcond (t : Fin grid11.N) : cond (grid11.coords t) ↔ t.val = 0 := by
  exact (Cert.FirstPoint.cond_iff ((grid11.coords t) 0).val ((grid11.coords t) 0).isLt).trans (by rw [coords_val])

/-! ## What the accumulator's buffer holds after each case -/

theorem coverFirst (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid11.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid11.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid11.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid11.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 11 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec11 w)
  after w t := match w with
    | ⟨0, _⟩ => iblk V hO c 0 t
    | ⟨1, _⟩ => iblk V hO c 1 t
    | ⟨2, _⟩ => accAt V hO c t.val t.isLt
  Φ _ := iprop(Pipeline.ΦA spec11 c ∗ Pipeline.prefHeld (Ix := Unit) (Name := ℕ) (U := UR sig nD τ) (Lvl := ℕ) pre11 c (fun _ => fullShare) (tbl V))
  q w := if w = 0 then fullShare.left else fullShare.right
  owed _ := 0

theorem A_eq (hO : Ok V) (c : Dev nD) (w : Fin (cfgM V hO).W) : (dat V hO c).A w = V c (Pipeline.arrRef spec11 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg11 (F := F)).Adm) (t : Fin (cfg11 a).N) (ht : t.val + 1 < (cfg11 a).N) : ((cfg11 a).win 2).flush t = false := by
  have hix : ∀ s : Fin (cfg11 a).N, ((cfg11 a).win 2).index s = ![0, 0] := fun _ => rfl
  unfold Pipeline.Window.flush
  rw [Bool.and_eq_false_iff]; right
  rw [Bool.or_eq_false_iff]
  refine ⟨decide_eq_false (by have : (cfg11 a).N = (cfg11 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg11 (adm V hO)).N := t.isLt
  rw [Dat.before_out_kept _ 2 rfl t h0 (flush_2 (adm V hO) _ (by show t.val - 1 + 1 < (cfg11 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v66 ((dat (Vin W) hO c).arrAt 2 (cfgM (Vin W) hO).N)

end Cert.KernelIdeal.Call11

end
-- ==== Proof.Call11Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call11Data
import Idealize.ShloMosaic.Lib.Pipeline.FrameBody
import Idealize.ShloMosaic.Lib.Ring
import Idealize.ShloMosaic.Lib.Tactic

set_option maxRecDepth 16384

noncomputable section

namespace Cert.KernelIdeal.Call11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 11: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid11.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid11.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W11, bigSep_W11]
  exact sound_body V hO c t

end Cert.KernelIdeal.Call11

end
-- ==== Proof.Call11Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call11Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 11 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec11)) = {main_v0, main_v66} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec11 c V
      ∗ Pipeline.prefHeld pre11 c (fun _ => fullShare) (fun k => V (pre11.ref k)) ∗ Pipeline.unscopedRestP pre11 spec11 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀11.arr_unscoped c V
  have hrs := Pipeline.unscopedRest_split (Ix := Unit) (Name := ℕ) (U := UR sig nD τ) (Lvl := ℕ) (nD := nD) (τ := τ) (Val := Elt F)
    preFacts11 c V
  rw [hsp, show Pipeline.unscopedRest (cfgM (Vin W) hO).spec c V = Pipeline.unscopedRest (Ix := Unit) (Name := ℕ) (U := UR sig nD τ) (Lvl := ℕ) spec11 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec11 c V : sProp 𝕄)
      = iprop((((c : Thread nD τ).loc main_v0) ↦{fullShare} V main_v0) ∗ (((c : Thread nD τ).loc main_v66) ↦{fullShare} V main_v66)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v66) ↦{fullShare} Vin W c main_v66)) := by
  unfold Pipeline.Dat.arrays
  rw [bigSep_W11]
  have hs0 : ((cfgM (Vin W) hO).win (0 : Fin 3)).arr.view.set = Finset.univ := (arr_whole11 0).set_eq_univ
  have hs1 : ((cfgM (Vin W) hO).win (1 : Fin 3)).arr.view.set = Finset.univ := (arr_whole11 1).set_eq_univ
  have hs2 : ((cfgM (Vin W) hO).win (2 : Fin 3)).arr.view.set = Finset.univ := (arr_whole11 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v66 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v66) ↦{fullShare} Vin W c main_v66))
          ∗ Pipeline.prefHeld pre11 c (fun _ => fullShare) (tbl (Vin W)) ∗ Pipeline.unscopedRestP pre11 spec11 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre11.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre11 c (fun _ => fullShare) (tbl (Vin W))
          ∗ (dat (Vin W) hO c).owesAt () 0 ∗ (∃ r, prngReg c r) ∗ Pipeline.unscopedRestP pre11 spec11 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v66) ↦{fullShare} (dat (Vin W) hO c).arrAt 2 (cfgM (Vin W) hO).N)) := by
  unfold Pipeline.Dat.arrays
  rw [bigSep_W11]
  have hs0 : ((cfgM (Vin W) hO).win (0 : Fin 3)).arr.view.set = Finset.univ := (arr_whole11 0).set_eq_univ
  have hs1 : ((cfgM (Vin W) hO).win (1 : Fin 3)).arr.view.set = Finset.univ := (arr_whole11 1).set_eq_univ
  have hs2 : ((cfgM (Vin W) hO).win (2 : Fin 3)).arr.view.set = Finset.univ := (arr_whole11 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v66 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v66) ↦{fullShare} (dat (Vin W) hO c).arrAt 2 (cfgM (Vin W) hO).N))
          ∗ Pipeline.prefHeld pre11 c (fun _ => fullShare) (tbl (Vin W)) ∗ Pipeline.unscopedRestP pre11 spec11 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v66 = (dat (Vin W) hO c).arrAt 2 (cfgM (Vin W) hO).N := Function.update_self _ _ _
  have et : (fun k => Vin (Wout W hO) c (pre11.ref k)) = tbl (Vin W) := funext fun k => by
    refine (Function.update_of_ne ?_ _ _).trans (V_pre (Vin W) c k)
    intro e
    have := Proc.devRef_injective _ e
    revert k; decide
  have er : (Pipeline.unscopedRestP pre11 spec11 c (Vin (Wout W hO) c) : sProp 𝕄) = Pipeline.unscopedRestP pre11 spec11 c (Vin W c) := by
    unfold Pipeline.unscopedRestP
    refine bigSep_congr fun b hb => ?_
    have hb1 : b ∉ Finset.univ.image (Pipeline.arrRef spec11) := (Finset.mem_sdiff.mp (Finset.mem_sdiff.mp hb).1).2
    have hne : b ≠ main_v66 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre11 c (fun _ => fullShare) (tbl (Vin W)))
        ∗ Pipeline.unscopedRestP pre11 spec11 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre11 c (fun _ => fullShare) (tbl (Vin W)) ∗ Pipeline.scopedRest spec11 c) : sProp 𝕄)
      ⊢ (dat (Vin W) hO c).Φ 0 := by
  rw [show (dat (Vin W) hO c).Φ 0 = iprop(Pipeline.ΦA spec11 c ∗ Pipeline.prefHeld (Ix := Unit) (Name := ℕ) (U := UR sig nD τ) (Lvl := ℕ) pre11 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre11 c (fun _ => fullShare) (tbl (Vin W))) ∗ Pipeline.scopedRest spec11 c) : sProp 𝕄) := by
  rw [show (dat (Vin W) hO c).Φ (Fin.last _) = iprop(Pipeline.ΦA spec11 c ∗ Pipeline.prefHeld (Ix := Unit) (Name := ℕ) (U := UR sig nD τ) (Lvl := ℕ) pre11 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call11

end
-- ==== Proof.Call12Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 12: one pair per grid point, its distance added to a one-entry accumulator

The body's only branch tests whether the point is the first of the grid: there the accumulator is reset to zero
before the pair's distance is added; at every later point the distance is added to what the point before left. -/

/-- The branch condition, from the grid coordinate: the point is the first. -/
abbrev cond (i : grid12.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v69
abbrev htbA : tbA.IsWhole := Memref.isWhole_whole _
abbrev tbB : Memref sig .tc .smem S25000 .i32 := Memref.whole main_v70
abbrev htbB : tbB.IsWhole := Memref.isWhole_whole _

/-- The accumulator's staging buffer, through which its contents are stated. -/
abbrev VO : View sig .tc .vmem S1x1 .f32 := (Memref.whole cc12_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc12_kernel i tbA htbA tbB htbB arg3 harg3 arg4 harg4 arg5 harg5) K } := by
  refine ⟨?_, fun E K => ?run⟩
  case run =>
    simp only [cc12_kernel_eq_skeleton]; unfold cc12_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc12_kernel i tbA htbA tbB htbB arg3 harg3 arg4 harg4 arg5 harg5) K } := by
  refine ⟨?_, fun E K => ?run⟩
  case run =>
    simp only [cc12_kernel_eq_skeleton]; unfold cc12_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call12

end
-- ==== Proof.Call12Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call12Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 12 over any entry contents: blocks, the running accumulator, the proof data, the body at a point -/

variable (V : (c : Dev nD) → (b : Ref sig .tc) → Buf (Elt F) ((c : Thread nD τ).loc b))

/-- The two index tables' contents when the region is entered (one device). -/
def tbl : pre12.Contents (Elt F) := fun j => V (0 : Dev nD) (pre12.ref j)
theorem V_pre (c : Dev nD) (j : Fin 2) : V c (pre12.ref j) = tbl V j := by
  obtain rfl : c = 0 := Subsingleton.elim _ _; rfl
/-- Every row the tables name lies inside the array of rows. -/
abbrev Ok : Prop := ok12 (F := F) (tbl V)
abbrev adm (hO : Ok V) : (pcfg12 (F := F)).Adm := ⟨tbl V, hO⟩
abbrev cfgM (hO : Ok V) : Pipeline.Cfg sig Λ₀ := cfg12 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec12 w))

/-- The staging memrefs the body is handed at point `t`. -/
abbrev ms0 (hO : Ok V) (t : Fin (cfgM V hO).N) : Memref sig .tc .vmem S1x1x256 .f32 := spec12_0.stage ((cfgM V hO).slots t 0)
abbrev hs0 (hO : Ok V) (t : Fin (cfgM V hO).N) : (ms0 V hO t).IsWhole := hstage12_0 (((cfgM V hO).slots t 0).cast nbuf12_0)
abbrev ms1 (hO : Ok V) (t : Fin (cfgM V hO).N) : Memref sig .tc .vmem S1x1x256 .f32 := spec12_1.stage ((cfgM V hO).slots t 1)
abbrev hs1 (hO : Ok V) (t : Fin (cfgM V hO).N) : (ms1 V hO t).IsWhole := hstage12_1 (((cfgM V hO).slots t 1).cast nbuf12_1)
abbrev ms2 (hO : Ok V) (t : Fin (cfgM V hO).N) : Memref sig .tc .vmem S1x1 .f32 := spec12_2.stage ((cfgM V hO).slots t 2)
abbrev hs2 (hO : Ok V) (t : Fin (cfgM V hO).N) : (ms2 V hO t).IsWhole := hstage12_2 (((cfgM V hO).slots t 2).cast nbuf12_2)

/-- The body as the pipeline calls it at point `t`. -/
abbrev bodyAt (a : (pcfg12 (F := F)).Adm) (t : Fin (cfg12 a).N) : Prog (TpuEff nD τ sig (Elt F) Λ₀ .tc) PUnit :=
  cc12_kernel (grid12.coords t) (Memref.whole main_v69) (Memref.isWhole_whole _) (Memref.whole main_v70) (Memref.isWhole_whole _)
    (spec12_0.stage ((cfg12 a).slots t 0)) (hstage12_0 (((cfg12 a).slots t 0).cast nbuf12_0))
    (spec12_1.stage ((cfg12 a).slots t 1)) (hstage12_1 (((cfg12 a).slots t 1).cast nbuf12_1))
    (spec12_2.stage ((cfg12 a).slots t 2)) (hstage12_2 (((cfg12 a).slots t 2).cast nbuf12_2))

/-- The one grid coordinate of point `t` is `t`. -/
theorem coords_val (t : Fin grid12.N) : ((grid12.coords t) 0).val = t.val := by
  have hN : t.val < 25000 := lt_of_lt_of_eq t.isLt N_12
  show t.val / grid12.stride 0 % grid12.bound 0 = t.val
  rw [show grid12.stride 0 = 1 from by decide, show grid12.bound 0 = 25000 from rfl, Nat.div_one, Nat.mod_eq_of_lt hN]

/-- The branch is taken at the first point only. -/
theorem hcond (t : Fin grid12.N) : cond (grid12.coords t) ↔ t.val = 0 := by
  exact (Cert.FirstPoint.cond_iff ((grid12.coords t) 0).val ((grid12.coords t) 0).isLt).trans (by rw [coords_val])

/-! ## What the accumulator's buffer holds after each case -/

theorem coverFirst (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid12.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid12.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid12.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid12.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 12 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec12 w)
  after w t := match w with
    | ⟨0, _⟩ => iblk V hO c 0 t
    | ⟨1, _⟩ => iblk V hO c 1 t
    | ⟨2, _⟩ => accAt V hO c t.val t.isLt
  Φ _ := iprop(Pipeline.ΦA spec12 c ∗ Pipeline.prefHeld (Ix := Unit) (Name := ℕ) (U := UR sig nD τ) (Lvl := ℕ) pre12 c (fun _ => fullShare) (tbl V))
  q w := if w = 0 then fullShare.left else fullShare.right
  owed _ := 0

theorem A_eq (hO : Ok V) (c : Dev nD) (w : Fin (cfgM V hO).W) : (dat V hO c).A w = V c (Pipeline.arrRef spec12 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg12 (F := F)).Adm) (t : Fin (cfg12 a).N) (ht : t.val + 1 < (cfg12 a).N) : ((cfg12 a).win 2).flush t = false := by
  have hix : ∀ s : Fin (cfg12 a).N, ((cfg12 a).win 2).index s = ![0, 0] := fun _ => rfl
  unfold Pipeline.Window.flush
  rw [Bool.and_eq_false_iff]; right
  rw [Bool.or_eq_false_iff]
  refine ⟨decide_eq_false (by have : (cfg12 a).N = (cfg12 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg12 (adm V hO)).N := t.isLt
  rw [Dat.before_out_kept _ 2 rfl t h0 (flush_2 (adm V hO) _ (by show t.val - 1 + 1 < (cfg12 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v71 ((dat (Vin W) hO c).arrAt 2 (cfgM (Vin W) hO).N)

end Cert.KernelIdeal.Call12

end
-- ==== Proof.Call12Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call12Data
import Idealize.ShloMosaic.Lib.Pipeline.FrameBody
import Idealize.ShloMosaic.Lib.Ring
import Idealize.ShloMosaic.Lib.Tactic

set_option maxRecDepth 16384

noncomputable section

namespace Cert.KernelIdeal.Call12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 12: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid12.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid12.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W12, bigSep_W12]
  exact sound_body V hO c t

end Cert.KernelIdeal.Call12

end
-- ==== Proof.Call12Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call12Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 12 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec12)) = {main_v0, main_v71} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec12 c V
      ∗ Pipeline.prefHeld pre12 c (fun _ => fullShare) (fun k => V (pre12.ref k)) ∗ Pipeline.unscopedRestP pre12 spec12 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀12.arr_unscoped c V
  have hrs := Pipeline.unscopedRest_split (Ix := Unit) (Name := ℕ) (U := UR sig nD τ) (Lvl := ℕ) (nD := nD) (τ := τ) (Val := Elt F)
    preFacts12 c V
  rw [hsp, show Pipeline.unscopedRest (cfgM (Vin W) hO).spec c V = Pipeline.unscopedRest (Ix := Unit) (Name := ℕ) (U := UR sig nD τ) (Lvl := ℕ) spec12 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec12 c V : sProp 𝕄)
      = iprop((((c : Thread nD τ).loc main_v0) ↦{fullShare} V main_v0) ∗ (((c : Thread nD τ).loc main_v71) ↦{fullShare} V main_v71)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v71) ↦{fullShare} Vin W c main_v71)) := by
  unfold Pipeline.Dat.arrays
  rw [bigSep_W12]
  have hs0 : ((cfgM (Vin W) hO).win (0 : Fin 3)).arr.view.set = Finset.univ := (arr_whole12 0).set_eq_univ
  have hs1 : ((cfgM (Vin W) hO).win (1 : Fin 3)).arr.view.set = Finset.univ := (arr_whole12 1).set_eq_univ
  have hs2 : ((cfgM (Vin W) hO).win (2 : Fin 3)).arr.view.set = Finset.univ := (arr_whole12 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v71 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v71) ↦{fullShare} Vin W c main_v71))
          ∗ Pipeline.prefHeld pre12 c (fun _ => fullShare) (tbl (Vin W)) ∗ Pipeline.unscopedRestP pre12 spec12 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre12.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre12 c (fun _ => fullShare) (tbl (Vin W))
          ∗ (dat (Vin W) hO c).owesAt () 0 ∗ (∃ r, prngReg c r) ∗ Pipeline.unscopedRestP pre12 spec12 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v71) ↦{fullShare} (dat (Vin W) hO c).arrAt 2 (cfgM (Vin W) hO).N)) := by
  unfold Pipeline.Dat.arrays
  rw [bigSep_W12]
  have hs0 : ((cfgM (Vin W) hO).win (0 : Fin 3)).arr.view.set = Finset.univ := (arr_whole12 0).set_eq_univ
  have hs1 : ((cfgM (Vin W) hO).win (1 : Fin 3)).arr.view.set = Finset.univ := (arr_whole12 1).set_eq_univ
  have hs2 : ((cfgM (Vin W) hO).win (2 : Fin 3)).arr.view.set = Finset.univ := (arr_whole12 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v71 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v71) ↦{fullShare} (dat (Vin W) hO c).arrAt 2 (cfgM (Vin W) hO).N))
          ∗ Pipeline.prefHeld pre12 c (fun _ => fullShare) (tbl (Vin W)) ∗ Pipeline.unscopedRestP pre12 spec12 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v71 = (dat (Vin W) hO c).arrAt 2 (cfgM (Vin W) hO).N := Function.update_self _ _ _
  have et : (fun k => Vin (Wout W hO) c (pre12.ref k)) = tbl (Vin W) := funext fun k => by
    refine (Function.update_of_ne ?_ _ _).trans (V_pre (Vin W) c k)
    intro e
    have := Proc.devRef_injective _ e
    revert k; decide
  have er : (Pipeline.unscopedRestP pre12 spec12 c (Vin (Wout W hO) c) : sProp 𝕄) = Pipeline.unscopedRestP pre12 spec12 c (Vin W c) := by
    unfold Pipeline.unscopedRestP
    refine bigSep_congr fun b hb => ?_
    have hb1 : b ∉ Finset.univ.image (Pipeline.arrRef spec12) := (Finset.mem_sdiff.mp (Finset.mem_sdiff.mp hb).1).2
    have hne : b ≠ main_v71 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre12 c (fun _ => fullShare) (tbl (Vin W)))
        ∗ Pipeline.unscopedRestP pre12 spec12 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre12 c (fun _ => fullShare) (tbl (Vin W)) ∗ Pipeline.scopedRest spec12 c) : sProp 𝕄)
      ⊢ (dat (Vin W) hO c).Φ 0 := by
  rw [show (dat (Vin W) hO c).Φ 0 = iprop(Pipeline.ΦA spec12 c ∗ Pipeline.prefHeld (Ix := Unit) (Name := ℕ) (U := UR sig nD τ) (Lvl := ℕ) pre12 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre12 c (fun _ => fullShare) (tbl (Vin W))) ∗ Pipeline.scopedRest spec12 c) : sProp 𝕄) := by
  rw [show (dat (Vin W) hO c).Φ (Fin.last _) = iprop(Pipeline.ΦA spec12 c ∗ Pipeline.prefHeld (Ix := Unit) (Name := ℕ) (U := UR sig nD τ) (Lvl := ℕ) pre12 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call12

end
-- ==== Proof.Call13Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 13: one pair per grid point, its distance added to a one-entry accumulator

The body's only branch tests whether the point is the first of the grid: there the accumulator is reset to zero
before the pair's distance is added; at every later point the distance is added to what the point before left. -/

/-- The branch condition, from the grid coordinate: the point is the first. -/
abbrev cond (i : grid13.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v74
abbrev htbA : tbA.IsWhole := Memref.isWhole_whole _
abbrev tbB : Memref sig .tc .smem S25000 .i32 := Memref.whole main_v75
abbrev htbB : tbB.IsWhole := Memref.isWhole_whole _

/-- The accumulator's staging buffer, through which its contents are stated. -/
abbrev VO : View sig .tc .vmem S1x1 .f32 := (Memref.whole cc13_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc13_kernel i tbA htbA tbB htbB arg3 harg3 arg4 harg4 arg5 harg5) K } := by
  refine ⟨?_, fun E K => ?run⟩
  case run =>
    simp only [cc13_kernel_eq_skeleton]; unfold cc13_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc13_kernel i tbA htbA tbB htbB arg3 harg3 arg4 harg4 arg5 harg5) K } := by
  refine ⟨?_, fun E K => ?run⟩
  case run =>
    simp only [cc13_kernel_eq_skeleton]; unfold cc13_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call13

end
-- ==== Proof.Call13Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call13Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 13 over any entry contents: blocks, the running accumulator, the proof data, the body at a point -/

variable (V : (c : Dev nD) → (b : Ref sig .tc) → Buf (Elt F) ((c : Thread nD τ).loc b))

/-- The two index tables' contents when the region is entered (one device). -/
def tbl : pre13.Contents (Elt F) := fun j => V (0 : Dev nD) (pre13.ref j)
theorem V_pre (c : Dev nD) (j : Fin 2) : V c (pre13.ref j) = tbl V j := by
  obtain rfl : c = 0 := Subsingleton.elim _ _; rfl
/-- Every row the tables name lies inside the array of rows. -/
abbrev Ok : Prop := ok13 (F := F) (tbl V)
abbrev adm (hO : Ok V) : (pcfg13 (F := F)).Adm := ⟨tbl V, hO⟩
abbrev cfgM (hO : Ok V) : Pipeline.Cfg sig Λ₀ := cfg13 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec13 w))

/-- The staging memrefs the body is handed at point `t`. -/
abbrev ms0 (hO : Ok V) (t : Fin (cfgM V hO).N) : Memref sig .tc .vmem S1x1x256 .f32 := spec13_0.stage ((cfgM V hO).slots t 0)
abbrev hs0 (hO : Ok V) (t : Fin (cfgM V hO).N) : (ms0 V hO t).IsWhole := hstage13_0 (((cfgM V hO).slots t 0).cast nbuf13_0)
abbrev ms1 (hO : Ok V) (t : Fin (cfgM V hO).N) : Memref sig .tc .vmem S1x1x256 .f32 := spec13_1.stage ((cfgM V hO).slots t 1)
abbrev hs1 (hO : Ok V) (t : Fin (cfgM V hO).N) : (ms1 V hO t).IsWhole := hstage13_1 (((cfgM V hO).slots t 1).cast nbuf13_1)
abbrev ms2 (hO : Ok V) (t : Fin (cfgM V hO).N) : Memref sig .tc .vmem S1x1 .f32 := spec13_2.stage ((cfgM V hO).slots t 2)
abbrev hs2 (hO : Ok V) (t : Fin (cfgM V hO).N) : (ms2 V hO t).IsWhole := hstage13_2 (((cfgM V hO).slots t 2).cast nbuf13_2)

/-- The body as the pipeline calls it at point `t`. -/
abbrev bodyAt (a : (pcfg13 (F := F)).Adm) (t : Fin (cfg13 a).N) : Prog (TpuEff nD τ sig (Elt F) Λ₀ .tc) PUnit :=
  cc13_kernel (grid13.coords t) (Memref.whole main_v74) (Memref.isWhole_whole _) (Memref.whole main_v75) (Memref.isWhole_whole _)
    (spec13_0.stage ((cfg13 a).slots t 0)) (hstage13_0 (((cfg13 a).slots t 0).cast nbuf13_0))
    (spec13_1.stage ((cfg13 a).slots t 1)) (hstage13_1 (((cfg13 a).slots t 1).cast nbuf13_1))
    (spec13_2.stage ((cfg13 a).slots t 2)) (hstage13_2 (((cfg13 a).slots t 2).cast nbuf13_2))

/-- The one grid coordinate of point `t` is `t`. -/
theorem coords_val (t : Fin grid13.N) : ((grid13.coords t) 0).val = t.val := by
  have hN : t.val < 25000 := lt_of_lt_of_eq t.isLt N_13
  show t.val / grid13.stride 0 % grid13.bound 0 = t.val
  rw [show grid13.stride 0 = 1 from by decide, show grid13.bound 0 = 25000 from rfl, Nat.div_one, Nat.mod_eq_of_lt hN]

/-- The branch is taken at the first point only. -/
theorem hcond (t : Fin grid13.N) : cond (grid13.coords t) ↔ t.val = 0 := by
  exact (Cert.FirstPoint.cond_iff ((grid13.coords t) 0).val ((grid13.coords t) 0).isLt).trans (by rw [coords_val])

/-! ## What the accumulator's buffer holds after each case -/

theorem coverFirst (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid13.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid13.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid13.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid13.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 13 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec13 w)
  after w t := match w with
    | ⟨0, _⟩ => iblk V hO c 0 t
    | ⟨1, _⟩ => iblk V hO c 1 t
    | ⟨2, _⟩ => accAt V hO c t.val t.isLt
  Φ _ := iprop(Pipeline.ΦA spec13 c ∗ Pipeline.prefHeld (Ix := Unit) (Name := ℕ) (U := UR sig nD τ) (Lvl := ℕ) pre13 c (fun _ => fullShare) (tbl V))
  q w := if w = 0 then fullShare.left else fullShare.right
  owed _ := 0

theorem A_eq (hO : Ok V) (c : Dev nD) (w : Fin (cfgM V hO).W) : (dat V hO c).A w = V c (Pipeline.arrRef spec13 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg13 (F := F)).Adm) (t : Fin (cfg13 a).N) (ht : t.val + 1 < (cfg13 a).N) : ((cfg13 a).win 2).flush t = false := by
  have hix : ∀ s : Fin (cfg13 a).N, ((cfg13 a).win 2).index s = ![0, 0] := fun _ => rfl
  unfold Pipeline.Window.flush
  rw [Bool.and_eq_false_iff]; right
  rw [Bool.or_eq_false_iff]
  refine ⟨decide_eq_false (by have : (cfg13 a).N = (cfg13 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg13 (adm V hO)).N := t.isLt
  rw [Dat.before_out_kept _ 2 rfl t h0 (flush_2 (adm V hO) _ (by show t.val - 1 + 1 < (cfg13 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v76 ((dat (Vin W) hO c).arrAt 2 (cfgM (Vin W) hO).N)

end Cert.KernelIdeal.Call13

end
-- ==== Proof.Call13Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call13Data
import Idealize.ShloMosaic.Lib.Pipeline.FrameBody
import Idealize.ShloMosaic.Lib.Ring
import Idealize.ShloMosaic.Lib.Tactic

set_option maxRecDepth 16384

noncomputable section

namespace Cert.KernelIdeal.Call13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 13: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid13.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid13.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W13, bigSep_W13]
  exact sound_body V hO c t

end Cert.KernelIdeal.Call13

end
-- ==== Proof.Call13Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call13Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 13 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec13)) = {main_v0, main_v76} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec13 c V
      ∗ Pipeline.prefHeld pre13 c (fun _ => fullShare) (fun k => V (pre13.ref k)) ∗ Pipeline.unscopedRestP pre13 spec13 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀13.arr_unscoped c V
  have hrs := Pipeline.unscopedRest_split (Ix := Unit) (Name := ℕ) (U := UR sig nD τ) (Lvl := ℕ) (nD := nD) (τ := τ) (Val := Elt F)
    preFacts13 c V
  rw [hsp, show Pipeline.unscopedRest (cfgM (Vin W) hO).spec c V = Pipeline.unscopedRest (Ix := Unit) (Name := ℕ) (U := UR sig nD τ) (Lvl := ℕ) spec13 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec13 c V : sProp 𝕄)
      = iprop((((c : Thread nD τ).loc main_v0) ↦{fullShare} V main_v0) ∗ (((c : Thread nD τ).loc main_v76) ↦{fullShare} V main_v76)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v76) ↦{fullShare} Vin W c main_v76)) := by
  unfold Pipeline.Dat.arrays
  rw [bigSep_W13]
  have hs0 : ((cfgM (Vin W) hO).win (0 : Fin 3)).arr.view.set = Finset.univ := (arr_whole13 0).set_eq_univ
  have hs1 : ((cfgM (Vin W) hO).win (1 : Fin 3)).arr.view.set = Finset.univ := (arr_whole13 1).set_eq_univ
  have hs2 : ((cfgM (Vin W) hO).win (2 : Fin 3)).arr.view.set = Finset.univ := (arr_whole13 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v76 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v76) ↦{fullShare} Vin W c main_v76))
          ∗ Pipeline.prefHeld pre13 c (fun _ => fullShare) (tbl (Vin W)) ∗ Pipeline.unscopedRestP pre13 spec13 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre13.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre13 c (fun _ => fullShare) (tbl (Vin W))
          ∗ (dat (Vin W) hO c).owesAt () 0 ∗ (∃ r, prngReg c r) ∗ Pipeline.unscopedRestP pre13 spec13 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v76) ↦{fullShare} (dat (Vin W) hO c).arrAt 2 (cfgM (Vin W) hO).N)) := by
  unfold Pipeline.Dat.arrays
  rw [bigSep_W13]
  have hs0 : ((cfgM (Vin W) hO).win (0 : Fin 3)).arr.view.set = Finset.univ := (arr_whole13 0).set_eq_univ
  have hs1 : ((cfgM (Vin W) hO).win (1 : Fin 3)).arr.view.set = Finset.univ := (arr_whole13 1).set_eq_univ
  have hs2 : ((cfgM (Vin W) hO).win (2 : Fin 3)).arr.view.set = Finset.univ := (arr_whole13 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v76 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v76) ↦{fullShare} (dat (Vin W) hO c).arrAt 2 (cfgM (Vin W) hO).N))
          ∗ Pipeline.prefHeld pre13 c (fun _ => fullShare) (tbl (Vin W)) ∗ Pipeline.unscopedRestP pre13 spec13 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v76 = (dat (Vin W) hO c).arrAt 2 (cfgM (Vin W) hO).N := Function.update_self _ _ _
  have et : (fun k => Vin (Wout W hO) c (pre13.ref k)) = tbl (Vin W) := funext fun k => by
    refine (Function.update_of_ne ?_ _ _).trans (V_pre (Vin W) c k)
    intro e
    have := Proc.devRef_injective _ e
    revert k; decide
  have er : (Pipeline.unscopedRestP pre13 spec13 c (Vin (Wout W hO) c) : sProp 𝕄) = Pipeline.unscopedRestP pre13 spec13 c (Vin W c) := by
    unfold Pipeline.unscopedRestP
    refine bigSep_congr fun b hb => ?_
    have hb1 : b ∉ Finset.univ.image (Pipeline.arrRef spec13) := (Finset.mem_sdiff.mp (Finset.mem_sdiff.mp hb).1).2
    have hne : b ≠ main_v76 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre13 c (fun _ => fullShare) (tbl (Vin W)))
        ∗ Pipeline.unscopedRestP pre13 spec13 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre13 c (fun _ => fullShare) (tbl (Vin W)) ∗ Pipeline.scopedRest spec13 c) : sProp 𝕄)
      ⊢ (dat (Vin W) hO c).Φ 0 := by
  rw [show (dat (Vin W) hO c).Φ 0 = iprop(Pipeline.ΦA spec13 c ∗ Pipeline.prefHeld (Ix := Unit) (Name := ℕ) (U := UR sig nD τ) (Lvl := ℕ) pre13 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre13 c (fun _ => fullShare) (tbl (Vin W))) ∗ Pipeline.scopedRest spec13 c) : sProp 𝕄) := by
  rw [show (dat (Vin W) hO c).Φ (Fin.last _) = iprop(Pipeline.ΦA spec13 c ∗ Pipeline.prefHeld (Ix := Unit) (Name := ℕ) (U := UR sig nD τ) (Lvl := ℕ) pre13 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call13

end
-- ==== Proof.Call14Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 14: one pair per grid point, its distance added to a one-entry accumulator

The body's only branch tests whether the point is the first of the grid: there the accumulator is reset to zero
before the pair's distance is added; at every later point the distance is added to what the point before left. -/

/-- The branch condition, from the grid coordinate: the point is the first. -/
abbrev cond (i : grid14.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v79
abbrev htbA : tbA.IsWhole := Memref.isWhole_whole _
abbrev tbB : Memref sig .tc .smem S25000 .i32 := Memref.whole main_v80
abbrev htbB : tbB.IsWhole := Memref.isWhole_whole _

/-- The accumulator's staging buffer, through which its contents are stated. -/
abbrev VO : View sig .tc .vmem S1x1 .f32 := (Memref.whole cc14_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc14_kernel i tbA htbA tbB htbB arg3 harg3 arg4 harg4 arg5 harg5) K } := by
  refine ⟨?_, fun E K => ?run⟩
  case run =>
    simp only [cc14_kernel_eq_skeleton]; unfold cc14_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc14_kernel i tbA htbA tbB htbB arg3 harg3 arg4 harg4 arg5 harg5) K } := by
  refine ⟨?_, fun E K => ?run⟩
  case run =>
    simp only [cc14_kernel_eq_skeleton]; unfold cc14_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call14

end
-- ==== Proof.Call14Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call14Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 14 over any entry contents: blocks, the running accumulator, the proof data, the body at a point -/

variable (V : (c : Dev nD) → (b : Ref sig .tc) → Buf (Elt F) ((c : Thread nD τ).loc b))

/-- The two index tables' contents when the region is entered (one device). -/
def tbl : pre14.Contents (Elt F) := fun j => V (0 : Dev nD) (pre14.ref j)
theorem V_pre (c : Dev nD) (j : Fin 2) : V c (pre14.ref j) = tbl V j := by
  obtain rfl : c = 0 := Subsingleton.elim _ _; rfl
/-- Every row the tables name lies inside the array of rows. -/
abbrev Ok : Prop := ok14 (F := F) (tbl V)
abbrev adm (hO : Ok V) : (pcfg14 (F := F)).Adm := ⟨tbl V, hO⟩
abbrev cfgM (hO : Ok V) : Pipeline.Cfg sig Λ₀ := cfg14 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec14 w))

/-- The staging memrefs the body is handed at point `t`. -/
abbrev ms0 (hO : Ok V) (t : Fin (cfgM V hO).N) : Memref sig .tc .vmem S1x1x256 .f32 := spec14_0.stage ((cfgM V hO).slots t 0)
abbrev hs0 (hO : Ok V) (t : Fin (cfgM V hO).N) : (ms0 V hO t).IsWhole := hstage14_0 (((cfgM V hO).slots t 0).cast nbuf14_0)
abbrev ms1 (hO : Ok V) (t : Fin (cfgM V hO).N) : Memref sig .tc .vmem S1x1x256 .f32 := spec14_1.stage ((cfgM V hO).slots t 1)
abbrev hs1 (hO : Ok V) (t : Fin (cfgM V hO).N) : (ms1 V hO t).IsWhole := hstage14_1 (((cfgM V hO).slots t 1).cast nbuf14_1)
abbrev ms2 (hO : Ok V) (t : Fin (cfgM V hO).N) : Memref sig .tc .vmem S1x1 .f32 := spec14_2.stage ((cfgM V hO).slots t 2)
abbrev hs2 (hO : Ok V) (t : Fin (cfgM V hO).N) : (ms2 V hO t).IsWhole := hstage14_2 (((cfgM V hO).slots t 2).cast nbuf14_2)

/-- The body as the pipeline calls it at point `t`. -/
abbrev bodyAt (a : (pcfg14 (F := F)).Adm) (t : Fin (cfg14 a).N) : Prog (TpuEff nD τ sig (Elt F) Λ₀ .tc) PUnit :=
  cc14_kernel (grid14.coords t) (Memref.whole main_v79) (Memref.isWhole_whole _) (Memref.whole main_v80) (Memref.isWhole_whole _)
    (spec14_0.stage ((cfg14 a).slots t 0)) (hstage14_0 (((cfg14 a).slots t 0).cast nbuf14_0))
    (spec14_1.stage ((cfg14 a).slots t 1)) (hstage14_1 (((cfg14 a).slots t 1).cast nbuf14_1))
    (spec14_2.stage ((cfg14 a).slots t 2)) (hstage14_2 (((cfg14 a).slots t 2).cast nbuf14_2))

/-- The one grid coordinate of point `t` is `t`. -/
theorem coords_val (t : Fin grid14.N) : ((grid14.coords t) 0).val = t.val := by
  have hN : t.val < 25000 := lt_of_lt_of_eq t.isLt N_14
  show t.val / grid14.stride 0 % grid14.bound 0 = t.val
  rw [show grid14.stride 0 = 1 from by decide, show grid14.bound 0 = 25000 from rfl, Nat.div_one, Nat.mod_eq_of_lt hN]

/-- The branch is taken at the first point only. -/
theorem hcond (t : Fin grid14.N) : cond (grid14.coords t) ↔ t.val = 0 := by
  exact (Cert.FirstPoint.cond_iff ((grid14.coords t) 0).val ((grid14.coords t) 0).isLt).trans (by rw [coords_val])

/-! ## What the accumulator's buffer holds after each case -/

theorem coverFirst (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid14.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid14.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid14.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid14.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 14 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec14 w)
  after w t := match w with
    | ⟨0, _⟩ => iblk V hO c 0 t
    | ⟨1, _⟩ => iblk V hO c 1 t
    | ⟨2, _⟩ => accAt V hO c t.val t.isLt
  Φ _ := iprop(Pipeline.ΦA spec14 c ∗ Pipeline.prefHeld (Ix := Unit) (Name := ℕ) (U := UR sig nD τ) (Lvl := ℕ) pre14 c (fun _ => fullShare) (tbl V))
  q w := if w = 0 then fullShare.left else fullShare.right
  owed _ := 0

theorem A_eq (hO : Ok V) (c : Dev nD) (w : Fin (cfgM V hO).W) : (dat V hO c).A w = V c (Pipeline.arrRef spec14 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg14 (F := F)).Adm) (t : Fin (cfg14 a).N) (ht : t.val + 1 < (cfg14 a).N) : ((cfg14 a).win 2).flush t = false := by
  have hix : ∀ s : Fin (cfg14 a).N, ((cfg14 a).win 2).index s = ![0, 0] := fun _ => rfl
  unfold Pipeline.Window.flush
  rw [Bool.and_eq_false_iff]; right
  rw [Bool.or_eq_false_iff]
  refine ⟨decide_eq_false (by have : (cfg14 a).N = (cfg14 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg14 (adm V hO)).N := t.isLt
  rw [Dat.before_out_kept _ 2 rfl t h0 (flush_2 (adm V hO) _ (by show t.val - 1 + 1 < (cfg14 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v81 ((dat (Vin W) hO c).arrAt 2 (cfgM (Vin W) hO).N)

end Cert.KernelIdeal.Call14

end
-- ==== Proof.Call14Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call14Data
import Idealize.ShloMosaic.Lib.Pipeline.FrameBody
import Idealize.ShloMosaic.Lib.Ring
import Idealize.ShloMosaic.Lib.Tactic

set_option maxRecDepth 16384

noncomputable section

namespace Cert.KernelIdeal.Call14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 14: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid14.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid14.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W14, bigSep_W14]
  exact sound_body V hO c t

end Cert.KernelIdeal.Call14

end
-- ==== Proof.Call14Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call14Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 14 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec14)) = {main_v0, main_v81} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec14 c V
      ∗ Pipeline.prefHeld pre14 c (fun _ => fullShare) (fun k => V (pre14.ref k)) ∗ Pipeline.unscopedRestP pre14 spec14 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀14.arr_unscoped c V
  have hrs := Pipeline.unscopedRest_split (Ix := Unit) (Name := ℕ) (U := UR sig nD τ) (Lvl := ℕ) (nD := nD) (τ := τ) (Val := Elt F)
    preFacts14 c V
  rw [hsp, show Pipeline.unscopedRest (cfgM (Vin W) hO).spec c V = Pipeline.unscopedRest (Ix := Unit) (Name := ℕ) (U := UR sig nD τ) (Lvl := ℕ) spec14 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec14 c V : sProp 𝕄)
      = iprop((((c : Thread nD τ).loc main_v0) ↦{fullShare} V main_v0) ∗ (((c : Thread nD τ).loc main_v81) ↦{fullShare} V main_v81)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v81) ↦{fullShare} Vin W c main_v81)) := by
  unfold Pipeline.Dat.arrays
  rw [bigSep_W14]
  have hs0 : ((cfgM (Vin W) hO).win (0 : Fin 3)).arr.view.set = Finset.univ := (arr_whole14 0).set_eq_univ
  have hs1 : ((cfgM (Vin W) hO).win (1 : Fin 3)).arr.view.set = Finset.univ := (arr_whole14 1).set_eq_univ
  have hs2 : ((cfgM (Vin W) hO).win (2 : Fin 3)).arr.view.set = Finset.univ := (arr_whole14 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v81 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v81) ↦{fullShare} Vin W c main_v81))
          ∗ Pipeline.prefHeld pre14 c (fun _ => fullShare) (tbl (Vin W)) ∗ Pipeline.unscopedRestP pre14 spec14 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre14.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre14 c (fun _ => fullShare) (tbl (Vin W))
          ∗ (dat (Vin W) hO c).owesAt () 0 ∗ (∃ r, prngReg c r) ∗ Pipeline.unscopedRestP pre14 spec14 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v81) ↦{fullShare} (dat (Vin W) hO c).arrAt 2 (cfgM (Vin W) hO).N)) := by
  unfold Pipeline.Dat.arrays
  rw [bigSep_W14]
  have hs0 : ((cfgM (Vin W) hO).win (0 : Fin 3)).arr.view.set = Finset.univ := (arr_whole14 0).set_eq_univ
  have hs1 : ((cfgM (Vin W) hO).win (1 : Fin 3)).arr.view.set = Finset.univ := (arr_whole14 1).set_eq_univ
  have hs2 : ((cfgM (Vin W) hO).win (2 : Fin 3)).arr.view.set = Finset.univ := (arr_whole14 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v81 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v81) ↦{fullShare} (dat (Vin W) hO c).arrAt 2 (cfgM (Vin W) hO).N))
          ∗ Pipeline.prefHeld pre14 c (fun _ => fullShare) (tbl (Vin W)) ∗ Pipeline.unscopedRestP pre14 spec14 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v81 = (dat (Vin W) hO c).arrAt 2 (cfgM (Vin W) hO).N := Function.update_self _ _ _
  have et : (fun k => Vin (Wout W hO) c (pre14.ref k)) = tbl (Vin W) := funext fun k => by
    refine (Function.update_of_ne ?_ _ _).trans (V_pre (Vin W) c k)
    intro e
    have := Proc.devRef_injective _ e
    revert k; decide
  have er : (Pipeline.unscopedRestP pre14 spec14 c (Vin (Wout W hO) c) : sProp 𝕄) = Pipeline.unscopedRestP pre14 spec14 c (Vin W c) := by
    unfold Pipeline.unscopedRestP
    refine bigSep_congr fun b hb => ?_
    have hb1 : b ∉ Finset.univ.image (Pipeline.arrRef spec14) := (Finset.mem_sdiff.mp (Finset.mem_sdiff.mp hb).1).2
    have hne : b ≠ main_v81 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre14 c (fun _ => fullShare) (tbl (Vin W)))
        ∗ Pipeline.unscopedRestP pre14 spec14 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre14 c (fun _ => fullShare) (tbl (Vin W)) ∗ Pipeline.scopedRest spec14 c) : sProp 𝕄)
      ⊢ (dat (Vin W) hO c).Φ 0 := by
  rw [show (dat (Vin W) hO c).Φ 0 = iprop(Pipeline.ΦA spec14 c ∗ Pipeline.prefHeld (Ix := Unit) (Name := ℕ) (U := UR sig nD τ) (Lvl := ℕ) pre14 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre14 c (fun _ => fullShare) (tbl (Vin W))) ∗ Pipeline.scopedRest spec14 c) : sProp 𝕄) := by
  rw [show (dat (Vin W) hO c).Φ (Fin.last _) = iprop(Pipeline.ΦA spec14 c ∗ Pipeline.prefHeld (Ix := Unit) (Name := ℕ) (U := UR sig nD τ) (Lvl := ℕ) pre14 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call14

end
-- ==== Proof.Call15Cases.lean ====
import proofs.«406163_j35201551958720_3_alg».proof.Proof.Gen.KernelIdeal.Launch
import proofs.«406163_j35201551958720_3_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Call15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 15: one pair per grid point, its distance added to a one-entry accumulator

The body's only branch tests whether the point is the first of the grid: there the accumulator is reset to zero
before the pair's distance is added; at every later point the distance is added to what the point before left. -/

/-- The branch condition, from the grid coordinate: the point is the first. -/
abbrev cond (i : grid15.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v84
abbrev htbA : tbA.IsWhole := Memref.isWhole_whole _
abbrev tbB : Memref sig .tc .smem S25000 .i32 := Memref.whole main_v85
abbrev htbB : tbB.IsWhole := Memref.isWhole_whole _

/-- The accumulator's staging buffer, through which its contents are stated. -/
abbrev VO : View sig .tc .vmem S1x1 .f32 := (Memref.whole cc15_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc15_kernel i tbA htbA tbB htbB arg3 harg3 arg4 harg4 arg5 harg5) K } := by
  refine ⟨?_, fun E K => ?run⟩
  case run =>
    simp only [cc15_kernel_eq_skeleton]; unfold cc15_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc15_kernel i tbA htbA tbB htbB arg3 harg3 arg4 harg4 arg5 harg5) K } := by
  refine ⟨?_, fun E K => ?run⟩
  case run =>
    simp only [cc15_kernel_eq_skeleton]; unfold cc15_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.KernelIdeal.Call15

end
-- ==== Proof.Call15Data.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call15Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.KernelIdeal.Call15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 15 over any entry contents: blocks, the running accumulator, the proof data, the body at a point -/

variable (V : (c : Dev nD) → (b : Ref sig .tc) → Buf (Elt F) ((c : Thread nD τ).loc b))

/-- The two index tables' contents when the region is entered (one device). -/
def tbl : pre15.Contents (Elt F) := fun j => V (0 : Dev nD) (pre15.ref j)
theorem V_pre (c : Dev nD) (j : Fin 2) : V c (pre15.ref j) = tbl V j := by
  obtain rfl : c = 0 := Subsingleton.elim _ _; rfl
/-- Every row the tables name lies inside the array of rows. -/
abbrev Ok : Prop := ok15 (F := F) (tbl V)
abbrev adm (hO : Ok V) : (pcfg15 (F := F)).Adm := ⟨tbl V, hO⟩
abbrev cfgM (hO : Ok V) : Pipeline.Cfg sig Λ₀ := cfg15 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec15 w))

/-- The staging memrefs the body is handed at point `t`. -/
abbrev ms0 (hO : Ok V) (t : Fin (cfgM V hO).N) : Memref sig .tc .vmem S1x1x256 .f32 := spec15_0.stage ((cfgM V hO).slots t 0)
abbrev hs0 (hO : Ok V) (t : Fin (cfgM V hO).N) : (ms0 V hO t).IsWhole := hstage15_0 (((cfgM V hO).slots t 0).cast nbuf15_0)
abbrev ms1 (hO : Ok V) (t : Fin (cfgM V hO).N) : Memref sig .tc .vmem S1x1x256 .f32 := spec15_1.stage ((cfgM V hO).slots t 1)
abbrev hs1 (hO : Ok V) (t : Fin (cfgM V hO).N) : (ms1 V hO t).IsWhole := hstage15_1 (((cfgM V hO).slots t 1).cast nbuf15_1)
abbrev ms2 (hO : Ok V) (t : Fin (cfgM V hO).N) : Memref sig .tc .vmem S1x1 .f32 := spec15_2.stage ((cfgM V hO).slots t 2)
abbrev hs2 (hO : Ok V) (t : Fin (cfgM V hO).N) : (ms2 V hO t).IsWhole := hstage15_2 (((cfgM V hO).slots t 2).cast nbuf15_2)

/-- The body as the pipeline calls it at point `t`. -/
abbrev bodyAt (a : (pcfg15 (F := F)).Adm) (t : Fin (cfg15 a).N) : Prog (TpuEff nD τ sig (Elt F) Λ₀ .tc) PUnit :=
  cc15_kernel (grid15.coords t) (Memref.whole main_v84) (Memref.isWhole_whole _) (Memref.whole main_v85) (Memref.isWhole_whole _)
    (spec15_0.stage ((cfg15 a).slots t 0)) (hstage15_0 (((cfg15 a).slots t 0).cast nbuf15_0))
    (spec15_1.stage ((cfg15 a).slots t 1)) (hstage15_1 (((cfg15 a).slots t 1).cast nbuf15_1))
    (spec15_2.stage ((cfg15 a).slots t 2)) (hstage15_2 (((cfg15 a).slots t 2).cast nbuf15_2))

/-- The one grid coordinate of point `t` is `t`. -/
theorem coords_val (t : Fin grid15.N) : ((grid15.coords t) 0).val = t.val := by
  have hN : t.val < 25000 := lt_of_lt_of_eq t.isLt N_15
  show t.val / grid15.stride 0 % grid15.bound 0 = t.val
  rw [show grid15.stride 0 = 1 from by decide, show grid15.bound 0 = 25000 from rfl, Nat.div_one, Nat.mod_eq_of_lt hN]

/-- The branch is taken at the first point only. -/
theorem hcond (t : Fin grid15.N) : cond (grid15.coords t) ↔ t.val = 0 := by
  exact (Cert.FirstPoint.cond_iff ((grid15.coords t) 0).val ((grid15.coords t) 0).isLt).trans (by rw [coords_val])

/-! ## What the accumulator's buffer holds after each case -/

theorem coverFirst (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid15.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid15.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid15.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid15.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 15 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec15 w)
  after w t := match w with
    | ⟨0, _⟩ => iblk V hO c 0 t
    | ⟨1, _⟩ => iblk V hO c 1 t
    | ⟨2, _⟩ => accAt V hO c t.val t.isLt
  Φ _ := iprop(Pipeline.ΦA spec15 c ∗ Pipeline.prefHeld (Ix := Unit) (Name := ℕ) (U := UR sig nD τ) (Lvl := ℕ) pre15 c (fun _ => fullShare) (tbl V))
  q w := if w = 0 then fullShare.left else fullShare.right
  owed _ := 0

theorem A_eq (hO : Ok V) (c : Dev nD) (w : Fin (cfgM V hO).W) : (dat V hO c).A w = V c (Pipeline.arrRef spec15 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg15 (F := F)).Adm) (t : Fin (cfg15 a).N) (ht : t.val + 1 < (cfg15 a).N) : ((cfg15 a).win 2).flush t = false := by
  have hix : ∀ s : Fin (cfg15 a).N, ((cfg15 a).win 2).index s = ![0, 0] := fun _ => rfl
  unfold Pipeline.Window.flush
  rw [Bool.and_eq_false_iff]; right
  rw [Bool.or_eq_false_iff]
  refine ⟨decide_eq_false (by have : (cfg15 a).N = (cfg15 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg15 (adm V hO)).N := t.isLt
  rw [Dat.before_out_kept _ 2 rfl t h0 (flush_2 (adm V hO) _ (by show t.val - 1 + 1 < (cfg15 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v86 ((dat (Vin W) hO c).arrAt 2 (cfgM (Vin W) hO).N)

end Cert.KernelIdeal.Call15

end
-- ==== Proof.Call15Body.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call15Data
import Idealize.ShloMosaic.Lib.Pipeline.FrameBody
import Idealize.ShloMosaic.Lib.Ring
import Idealize.ShloMosaic.Lib.Tactic

set_option maxRecDepth 16384

noncomputable section

namespace Cert.KernelIdeal.Call15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 15: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid15.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid15.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W15, bigSep_W15]
  exact sound_body V hO c t

end Cert.KernelIdeal.Call15

end
-- ==== Proof.Call15Region.lean ====
import proofs.«406163_j35201551958720_3_alg».proof.Proof.Gen.KernelIdeal.Launch
import proofs.«406163_j35201551958720_3_alg».proof.Proof.Gen.KernelIdeal.Skeleton
import proofs.«406163_j35201551958720_3_alg».proof.Proof.Call15Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.KernelIdeal.Call15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 15 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec15)) = {main_v0, main_v86} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec15 c V
      ∗ Pipeline.prefHeld pre15 c (fun _ => fullShare) (fun k => V (pre15.ref k)) ∗ Pipeline.unscopedRestP pre15 spec15 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀15.arr_unscoped c V
  have hrs := Pipeline.unscopedRest_split (Ix := Unit) (Name := ℕ) (U := UR sig nD τ) (Lvl := ℕ) (nD := nD) (τ := τ) (Val := Elt F)
    preFacts15 c V
  rw [hsp, show Pipeline.unscopedRest (cfgM (Vin W) hO).spec c V = Pipeline.unscopedRest (Ix := Unit) (Name := ℕ) (U := UR sig nD τ) (Lvl := ℕ) spec15 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec15 c V : sProp 𝕄)
      = iprop((((c : Thread nD τ).loc main_v0) ↦{fullShare} V main_v0) ∗ (((c : Thread nD τ).loc main_v86) ↦{fullShare} V main_v86)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v86) ↦{fullShare} Vin W c main_v86)) := by
  unfold Pipeline.Dat.arrays
  rw [bigSep_W15]
  have hs0 : ((cfgM (Vin W) hO).win (0 : Fin 3)).arr.view.set = Finset.univ := (arr_whole15 0).set_eq_univ
  have hs1 : ((cfgM (Vin W) hO).win (1 : Fin 3)).arr.view.set = Finset.univ := (arr_whole15 1).set_eq_univ
  have hs2 : ((cfgM (Vin W) hO).win (2 : Fin 3)).arr.view.set = Finset.univ := (arr_whole15 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v86 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v86) ↦{fullShare} Vin W c main_v86))
          ∗ Pipeline.prefHeld pre15 c (fun _ => fullShare) (tbl (Vin W)) ∗ Pipeline.unscopedRestP pre15 spec15 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre15.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre15 c (fun _ => fullShare) (tbl (Vin W))
          ∗ (dat (Vin W) hO c).owesAt () 0 ∗ (∃ r, prngReg c r) ∗ Pipeline.unscopedRestP pre15 spec15 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v86) ↦{fullShare} (dat (Vin W) hO c).arrAt 2 (cfgM (Vin W) hO).N)) := by
  unfold Pipeline.Dat.arrays
  rw [bigSep_W15]
  have hs0 : ((cfgM (Vin W) hO).win (0 : Fin 3)).arr.view.set = Finset.univ := (arr_whole15 0).set_eq_univ
  have hs1 : ((cfgM (Vin W) hO).win (1 : Fin 3)).arr.view.set = Finset.univ := (arr_whole15 1).set_eq_univ
  have hs2 : ((cfgM (Vin W) hO).win (2 : Fin 3)).arr.view.set = Finset.univ := (arr_whole15 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v86 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v86) ↦{fullShare} (dat (Vin W) hO c).arrAt 2 (cfgM (Vin W) hO).N))
          ∗ Pipeline.prefHeld pre15 c (fun _ => fullShare) (tbl (Vin W)) ∗ Pipeline.unscopedRestP pre15 spec15 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v86 = (dat (Vin W) hO c).arrAt 2 (cfgM (Vin W) hO).N := Function.update_self _ _ _
  have et : (fun k => Vin (Wout W hO) c (pre15.ref k)) = tbl (Vin W) := funext fun k => by
    refine (Function.update_of_ne ?_ _ _).trans (V_pre (Vin W) c k)
    intro e
    have := Proc.devRef_injective _ e
    revert k; decide
  have er : (Pipeline.unscopedRestP pre15 spec15 c (Vin (Wout W hO) c) : sProp 𝕄) = Pipeline.unscopedRestP pre15 spec15 c (Vin W c) := by
    unfold Pipeline.unscopedRestP
    refine bigSep_congr fun b hb => ?_
    have hb1 : b ∉ Finset.univ.image (Pipeline.arrRef spec15) := (Finset.mem_sdiff.mp (Finset.mem_sdiff.mp hb).1).2
    have hne : b ≠ main_v86 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre15 c (fun _ => fullShare) (tbl (Vin W)))
        ∗ Pipeline.unscopedRestP pre15 spec15 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre15 c (fun _ => fullShare) (tbl (Vin W)) ∗ Pipeline.scopedRest spec15 c) : sProp 𝕄)
      ⊢ (dat (Vin W) hO c).Φ 0 := by
  rw [show (dat (Vin W) hO c).Φ 0 = iprop(Pipeline.ΦA spec15 c ∗ Pipeline.prefHeld (Ix := Unit) (Name := ℕ) (U := UR sig nD τ) (Lvl := ℕ) pre15 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre15 c (fun _ => fullShare) (tbl (Vin W))) ∗ Pipeline.scopedRest spec15 c) : sProp 𝕄) := by
  rw [show (dat (Vin W) hO c).Φ (Fin.last _) = iprop(Pipeline.ΦA spec15 c ∗ Pipeline.prefHeld (Ix := Unit) (Name := ℕ) (U := UR sig nD τ) (Lvl := ℕ) pre15 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.KernelIdeal.Call15

end
-- ==== Proof.Chain.lean ====
import proofs.«406163_j35201551958720_3_alg».proof.Proof.Call0Data
import proofs.«406163_j35201551958720_3_alg».proof.Proof.Call1Data
import proofs.«406163_j35201551958720_3_alg».proof.Proof.Call2Data
import proofs.«406163_j35201551958720_3_alg».proof.Proof.Call3Data
import proofs.«406163_j35201551958720_3_alg».proof.Proof.Call4Data
import proofs.«406163_j35201551958720_3_alg».proof.Proof.Call5Data
import proofs.«406163_j35201551958720_3_alg».proof.Proof.Call6Data
import proofs.«406163_j35201551958720_3_alg».proof.Proof.Call7Data
import proofs.«406163_j35201551958720_3_alg».proof.Proof.Call8Data
import proofs.«406163_j35201551958720_3_alg».proof.Proof.Call9Data
import proofs.«406163_j35201551958720_3_alg».proof.Proof.Call10Data
import proofs.«406163_j35201551958720_3_alg».proof.Proof.Call11Data
import proofs.«406163_j35201551958720_3_alg».proof.Proof.Call12Data
import proofs.«406163_j35201551958720_3_alg».proof.Proof.Call13Data
import proofs.«406163_j35201551958720_3_alg».proof.Proof.Call14Data
import proofs.«406163_j35201551958720_3_alg».proof.Proof.Call15Data
import proofs.«406163_j35201551958720_3_alg».proof.Proof.KernelIdealRegions
import Idealize.ShloMosaic.Lib.Pipeline.Value
import Idealize.ShloMosaic.Lib.ValueIdx
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem

variable {F : FTy → Type} [FloatOps F]

/-! # The contents of a core's unscoped buffers between @main's items, from the launch memory m

Every index table is a slice of a column of pos or neg; when every index names a row (InRange) each call's
tables are admissible, and the chain of contents is defined call by call. Between two calls only a few buffers change:
a call writes its one result, a host stretch the handful of values it computes. So the array of rows, the four index
columns, the three arguments and the running sums are read at every later point as what they were when written. -/

/-! ## Slices and reshapes read at an index -/

section Layout
variable {α : Type}

/-- Column 0 of a list of pairs, as a list: entry i is pair i's first component. -/
theorem col0_apply (x : S200000x2.Idx → α) (hs : S200000x2.Slices ![0, 0] S200000x1) (hc : S200000x1.ShapeCasts S200000) (i : Fin 200000) :
    shapeCast S200000 (extractStridedSlice S200000x1 ![0, 0] x hs) hc (ValueIdx.ix1 i) = x (ValueIdx.ix2 i 0) := by
  refine (shapeCast_apply _ hc (ValueIdx.ix1 i) (ValueIdx.ix2 i 0) ?_).trans ?_
  · rw [Shape.rowMajor_val_two, Shape.rowMajor_val_one]; show i.val * 1 + 0 = i.val; omega
  · exact extractStridedSlice_apply _ x hs (ValueIdx.ix2 i 0) (ValueIdx.ix2 i 0) fun a => by
      match a with
      | ⟨0, _⟩ => show i.val = 0 + i.val; omega
      | ⟨1, _⟩ => show 0 = 0 + 0; rfl

/-- Column 1 of a list of pairs, as a list: entry i is pair i's second component. -/
theorem col1_apply (x : S200000x2.Idx → α) (hs : S200000x2.Slices ![0, 1] S200000x1) (hc : S200000x1.ShapeCasts S200000) (i : Fin 200000) :
    shapeCast S200000 (extractStridedSlice S200000x1 ![0, 1] x hs) hc (ValueIdx.ix1 i) = x (ValueIdx.ix2 i 1) := by
  refine (shapeCast_apply _ hc (ValueIdx.ix1 i) (ValueIdx.ix2 i 0) ?_).trans ?_
  · rw [Shape.rowMajor_val_two, Shape.rowMajor_val_one]; show i.val * 1 + 0 = i.val; omega
  · exact extractStridedSlice_apply _ x hs (ValueIdx.ix2 i 0) (ValueIdx.ix2 i 1) fun a => by
      match a with
      | ⟨0, _⟩ => show i.val = 0 + i.val; omega
      | ⟨1, _⟩ => show 1 = 1 + 0; rfl

/-- A chunk of 25000 consecutive entries starting at off: entry t is entry off + t of the list. -/
theorem chunk_apply (off : ℕ) (y : S200000.Idx → α) (hs : S200000.Slices ![off] S25000) (t : Fin 25000) (ht : off + t.val < 200000) :
    extractStridedSlice S25000 ![off] y hs (ValueIdx.ix1 t) = y (ValueIdx.ix1 ⟨off + t.val, ht⟩) :=
  extractStridedSlice_apply _ y hs (ValueIdx.ix1 t) (ValueIdx.ix1 ⟨off + t.val, ht⟩) fun a => by
    match a with
    | ⟨0, _⟩ => rfl

/-- The table of rows with a unit middle axis: entry (r, 0, d) is entry (r, d). -/
theorem rows_apply (x : S100000x256.Idx → α) (hc : S100000x256.ShapeCasts S100000x1x256) (r : Fin 100000) (d : Fin 256) :
    shapeCast S100000x1x256 x hc (ValueIdx.ix3 r 0 d) = x (ValueIdx.ix2 r d) := by
  refine shapeCast_apply _ hc (ValueIdx.ix3 r 0 d) (ValueIdx.ix2 r d) ?_
  rw [Shape.rowMajor_val_two, Shape.rowMajor_val_three]; show r.val * 256 + d.val = (r.val * 1 + 0) * 256 + d.val; omega

/-- The one entry of a [1,1] array, as a scalar. -/
theorem scalar_apply (x : S1x1.Idx → α) (hc : S1x1.ShapeCasts S_) :
    shapeCast S_ x hc ValueIdx.ix0 = x (ValueIdx.ix2 0 0) := by
  refine shapeCast_apply _ hc ValueIdx.ix0 (ValueIdx.ix2 0 0) ?_
  rw [Shape.rowMajor_val_two]; exact (Fin.val_eq_zero _).symm

end Layout

/-! ## Tables that name rows are admissible

Each block is one row, (word, 0, 0) of a [100000, 1, 256] array cut into [1, 1, 256] blocks: it lies inside exactly when
the word is below 100000. Stated with the tables a variable. -/

theorem ok0_of_lt (pf : pre0.Contents (Elt F)) (hA : ∀ t : Fin 25000, (pf 0 (ValueIdx.ix1 t)).toNat < 100000)
    (hB : ∀ t : Fin 25000, (pf 1 (ValueIdx.ix1 t)).toNat < 100000) : Cert.KernelIdeal.ok0 (F := F) pf := by
  refine ⟨fun i => ⟨fun a => ?_, .inl rfl⟩, fun i => ⟨fun a => ?_, .inl rfl⟩⟩
  · obtain ⟨x, e⟩ : ∃ x : S25000.Idx, cc0_transform_0 k0_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc0_transform_1 k0_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok1_of_lt (pf : pre1.Contents (Elt F)) (hA : ∀ t : Fin 25000, (pf 0 (ValueIdx.ix1 t)).toNat < 100000)
    (hB : ∀ t : Fin 25000, (pf 1 (ValueIdx.ix1 t)).toNat < 100000) : Cert.KernelIdeal.ok1 (F := F) pf := by
  refine ⟨fun i => ⟨fun a => ?_, .inl rfl⟩, fun i => ⟨fun a => ?_, .inl rfl⟩⟩
  · obtain ⟨x, e⟩ : ∃ x : S25000.Idx, cc1_transform_0 k1_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc1_transform_1 k1_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok2_of_lt (pf : pre2.Contents (Elt F)) (hA : ∀ t : Fin 25000, (pf 0 (ValueIdx.ix1 t)).toNat < 100000)
    (hB : ∀ t : Fin 25000, (pf 1 (ValueIdx.ix1 t)).toNat < 100000) : Cert.KernelIdeal.ok2 (F := F) pf := by
  refine ⟨fun i => ⟨fun a => ?_, .inl rfl⟩, fun i => ⟨fun a => ?_, .inl rfl⟩⟩
  · obtain ⟨x, e⟩ : ∃ x : S25000.Idx, cc2_transform_0 k2_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc2_transform_1 k2_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok3_of_lt (pf : pre3.Contents (Elt F)) (hA : ∀ t : Fin 25000, (pf 0 (ValueIdx.ix1 t)).toNat < 100000)
    (hB : ∀ t : Fin 25000, (pf 1 (ValueIdx.ix1 t)).toNat < 100000) : Cert.KernelIdeal.ok3 (F := F) pf := by
  refine ⟨fun i => ⟨fun a => ?_, .inl rfl⟩, fun i => ⟨fun a => ?_, .inl rfl⟩⟩
  · obtain ⟨x, e⟩ : ∃ x : S25000.Idx, cc3_transform_0 k3_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc3_transform_1 k3_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok4_of_lt (pf : pre4.Contents (Elt F)) (hA : ∀ t : Fin 25000, (pf 0 (ValueIdx.ix1 t)).toNat < 100000)
    (hB : ∀ t : Fin 25000, (pf 1 (ValueIdx.ix1 t)).toNat < 100000) : Cert.KernelIdeal.ok4 (F := F) pf := by
  refine ⟨fun i => ⟨fun a => ?_, .inl rfl⟩, fun i => ⟨fun a => ?_, .inl rfl⟩⟩
  · obtain ⟨x, e⟩ : ∃ x : S25000.Idx, cc4_transform_0 k4_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc4_transform_1 k4_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok5_of_lt (pf : pre5.Contents (Elt F)) (hA : ∀ t : Fin 25000, (pf 0 (ValueIdx.ix1 t)).toNat < 100000)
    (hB : ∀ t : Fin 25000, (pf 1 (ValueIdx.ix1 t)).toNat < 100000) : Cert.KernelIdeal.ok5 (F := F) pf := by
  refine ⟨fun i => ⟨fun a => ?_, .inl rfl⟩, fun i => ⟨fun a => ?_, .inl rfl⟩⟩
  · obtain ⟨x, e⟩ : ∃ x : S25000.Idx, cc5_transform_0 k5_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc5_transform_1 k5_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok6_of_lt (pf : pre6.Contents (Elt F)) (hA : ∀ t : Fin 25000, (pf 0 (ValueIdx.ix1 t)).toNat < 100000)
    (hB : ∀ t : Fin 25000, (pf 1 (ValueIdx.ix1 t)).toNat < 100000) : Cert.KernelIdeal.ok6 (F := F) pf := by
  refine ⟨fun i => ⟨fun a => ?_, .inl rfl⟩, fun i => ⟨fun a => ?_, .inl rfl⟩⟩
  · obtain ⟨x, e⟩ : ∃ x : S25000.Idx, cc6_transform_0 k6_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc6_transform_1 k6_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok7_of_lt (pf : pre7.Contents (Elt F)) (hA : ∀ t : Fin 25000, (pf 0 (ValueIdx.ix1 t)).toNat < 100000)
    (hB : ∀ t : Fin 25000, (pf 1 (ValueIdx.ix1 t)).toNat < 100000) : Cert.KernelIdeal.ok7 (F := F) pf := by
  refine ⟨fun i => ⟨fun a => ?_, .inl rfl⟩, fun i => ⟨fun a => ?_, .inl rfl⟩⟩
  · obtain ⟨x, e⟩ : ∃ x : S25000.Idx, cc7_transform_0 k7_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc7_transform_1 k7_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok8_of_lt (pf : pre8.Contents (Elt F)) (hA : ∀ t : Fin 25000, (pf 0 (ValueIdx.ix1 t)).toNat < 100000)
    (hB : ∀ t : Fin 25000, (pf 1 (ValueIdx.ix1 t)).toNat < 100000) : Cert.KernelIdeal.ok8 (F := F) pf := by
  refine ⟨fun i => ⟨fun a => ?_, .inl rfl⟩, fun i => ⟨fun a => ?_, .inl rfl⟩⟩
  · obtain ⟨x, e⟩ : ∃ x : S25000.Idx, cc8_transform_0 k8_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc8_transform_1 k8_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok9_of_lt (pf : pre9.Contents (Elt F)) (hA : ∀ t : Fin 25000, (pf 0 (ValueIdx.ix1 t)).toNat < 100000)
    (hB : ∀ t : Fin 25000, (pf 1 (ValueIdx.ix1 t)).toNat < 100000) : Cert.KernelIdeal.ok9 (F := F) pf := by
  refine ⟨fun i => ⟨fun a => ?_, .inl rfl⟩, fun i => ⟨fun a => ?_, .inl rfl⟩⟩
  · obtain ⟨x, e⟩ : ∃ x : S25000.Idx, cc9_transform_0 k9_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc9_transform_1 k9_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok10_of_lt (pf : pre10.Contents (Elt F)) (hA : ∀ t : Fin 25000, (pf 0 (ValueIdx.ix1 t)).toNat < 100000)
    (hB : ∀ t : Fin 25000, (pf 1 (ValueIdx.ix1 t)).toNat < 100000) : Cert.KernelIdeal.ok10 (F := F) pf := by
  refine ⟨fun i => ⟨fun a => ?_, .inl rfl⟩, fun i => ⟨fun a => ?_, .inl rfl⟩⟩
  · obtain ⟨x, e⟩ : ∃ x : S25000.Idx, cc10_transform_0 k10_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc10_transform_1 k10_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok11_of_lt (pf : pre11.Contents (Elt F)) (hA : ∀ t : Fin 25000, (pf 0 (ValueIdx.ix1 t)).toNat < 100000)
    (hB : ∀ t : Fin 25000, (pf 1 (ValueIdx.ix1 t)).toNat < 100000) : Cert.KernelIdeal.ok11 (F := F) pf := by
  refine ⟨fun i => ⟨fun a => ?_, .inl rfl⟩, fun i => ⟨fun a => ?_, .inl rfl⟩⟩
  · obtain ⟨x, e⟩ : ∃ x : S25000.Idx, cc11_transform_0 k11_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc11_transform_1 k11_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok12_of_lt (pf : pre12.Contents (Elt F)) (hA : ∀ t : Fin 25000, (pf 0 (ValueIdx.ix1 t)).toNat < 100000)
    (hB : ∀ t : Fin 25000, (pf 1 (ValueIdx.ix1 t)).toNat < 100000) : Cert.KernelIdeal.ok12 (F := F) pf := by
  refine ⟨fun i => ⟨fun a => ?_, .inl rfl⟩, fun i => ⟨fun a => ?_, .inl rfl⟩⟩
  · obtain ⟨x, e⟩ : ∃ x : S25000.Idx, cc12_transform_0 k12_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc12_transform_1 k12_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok13_of_lt (pf : pre13.Contents (Elt F)) (hA : ∀ t : Fin 25000, (pf 0 (ValueIdx.ix1 t)).toNat < 100000)
    (hB : ∀ t : Fin 25000, (pf 1 (ValueIdx.ix1 t)).toNat < 100000) : Cert.KernelIdeal.ok13 (F := F) pf := by
  refine ⟨fun i => ⟨fun a => ?_, .inl rfl⟩, fun i => ⟨fun a => ?_, .inl rfl⟩⟩
  · obtain ⟨x, e⟩ : ∃ x : S25000.Idx, cc13_transform_0 k13_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc13_transform_1 k13_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok14_of_lt (pf : pre14.Contents (Elt F)) (hA : ∀ t : Fin 25000, (pf 0 (ValueIdx.ix1 t)).toNat < 100000)
    (hB : ∀ t : Fin 25000, (pf 1 (ValueIdx.ix1 t)).toNat < 100000) : Cert.KernelIdeal.ok14 (F := F) pf := by
  refine ⟨fun i => ⟨fun a => ?_, .inl rfl⟩, fun i => ⟨fun a => ?_, .inl rfl⟩⟩
  · obtain ⟨x, e⟩ : ∃ x : S25000.Idx, cc14_transform_0 k14_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc14_transform_1 k14_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok15_of_lt (pf : pre15.Contents (Elt F)) (hA : ∀ t : Fin 25000, (pf 0 (ValueIdx.ix1 t)).toNat < 100000)
    (hB : ∀ t : Fin 25000, (pf 1 (ValueIdx.ix1 t)).toNat < 100000) : Cert.KernelIdeal.ok15 (F := F) pf := by
  refine ⟨fun i => ⟨fun a => ?_, .inl rfl⟩, fun i => ⟨fun a => ?_, .inl rfl⟩⟩
  · obtain ⟨x, e⟩ : ∃ x : S25000.Idx, cc15_transform_0 k15_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc15_transform_1 k15_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

variable (m : (ℓ : Loc nD τ sig) → Buf (Elt F) ℓ)

/-- Every entry of the two index arrays names one of the 100000 rows. -/
def InRange : Prop := ∀ c : Dev nD,
  (∀ i, (m ((c.tc : Thread nD τ).loc main_arg1) i).toNat < 100000) ∧ (∀ i, (m ((c.tc : Thread nD τ).loc main_arg2) i).toNat < 100000)

/-- At launch. -/
abbrev W0 (c : Dev nD) : Valuation τ sig (Elt F) := fun b => m (c, b)

/-! ## Call 0 -/

/-- Entry of call 0: after the host stretch 0. -/
abbrev W1 (c : Dev nD) : Valuation τ sig (Elt F) := StableHlo.after hostOps0 (W0 m c)
/-- The host stretch 0 leaves every buffer it does not write as it was. -/
theorem W1_of (c : Dev nD) (r : Ref sig .tc) (hr : r ∉ Regions.hostOps0_W) : W1 m c r = W0 m c r :=
  StableHlo.after_of_writes_sub hostOps0 _ Regions.hostOps0_writes hr
theorem W1_arg0 (c : Dev nD) : W1 m c main_arg0 = m ((c.tc : Thread nD τ).loc main_arg0) := W1_of m c main_arg0 (by decide)
theorem W1_arg1 (c : Dev nD) : W1 m c main_arg1 = m ((c.tc : Thread nD τ).loc main_arg1) := W1_of m c main_arg1 (by decide)
theorem W1_arg2 (c : Dev nD) : W1 m c main_arg2 = m ((c.tc : Thread nD τ).loc main_arg2) := W1_of m c main_arg2 (by decide)

/-- The array of rows as call 0 finds it: the first argument with a unit middle axis. -/
theorem rows0 (c : Dev nD) (r : Fin 100000) (d : Fin 256) :
    W1 m c main_v0 (ValueIdx.ix3 r 0 d) = m ((c.tc : Thread nD τ).loc main_arg0) (ValueIdx.ix2 r d) := by
  have e : (W1 m c main_v0 : S100000x1x256.Idx → Elt F .f32) = shapeCast S100000x1x256 (m ((c.tc : Thread nD τ).loc main_arg0)) shapeCasts_S100000x256_S100000x1x256 := by
    show StableHlo.after hostOps0 _ _ = _; after_results <;> rfl
  rw [e]; exact rows_apply _ _ r d

/-- The first list's first components, as a list of 200000. -/
theorem W1_colA (c : Dev nD) (i : Fin 200000) :
    W1 m c main_v2 (ValueIdx.ix1 i) = m ((c.tc : Thread nD τ).loc main_arg1) (ValueIdx.ix2 i 0) := by
  have e : (W1 m c main_v2 : S200000.Idx → Elt F .i32) = shapeCast S200000 (extractStridedSlice S200000x1 ![0, 0] (m ((c.tc : Thread nD τ).loc main_arg1)) slices_S200000x2_S200000x1_0_0) shapeCasts_S200000x1_S200000 := by
    show StableHlo.after hostOps0 _ _ = _; after_results <;> rfl
  rw [e]; exact col0_apply _ _ _ i

/-- The first list's second components, as a list of 200000. -/
theorem W1_colB (c : Dev nD) (i : Fin 200000) :
    W1 m c main_v4 (ValueIdx.ix1 i) = m ((c.tc : Thread nD τ).loc main_arg1) (ValueIdx.ix2 i 1) := by
  have e : (W1 m c main_v4 : S200000.Idx → Elt F .i32) = shapeCast S200000 (extractStridedSlice S200000x1 ![0, 1] (m ((c.tc : Thread nD τ).loc main_arg1)) slices_S200000x2_S200000x1_0_1) shapeCasts_S200000x1_S200000 := by
    show StableHlo.after hostOps0 _ _ = _; after_results <;> rfl
  rw [e]; exact col1_apply _ _ _ i

/-- Call 0's first table: the first components of pairs 0 to 24999 of the first list. -/
theorem tbl0_A (c : Dev nD) (t : Fin 25000) :
    Call0.tbl (Call0.Vin (W1 m)) 0 (ValueIdx.ix1 t) = m ((c.tc : Thread nD τ).loc main_arg1) (ValueIdx.ix2 ⟨25000 * 0 + t.val, by omega⟩ 0) := by
  obtain rfl : c = 0 := Subsingleton.elim _ _
  show W1 m 0 main_v5 (ValueIdx.ix1 t) = _
  have e : (W1 m 0 main_v5 : S25000.Idx → Elt F .i32) = extractStridedSlice S25000 ![25000 * 0] (shapeCast S200000 (extractStridedSlice S200000x1 ![0, 0] (m (((0 : Dev nD).tc : Thread nD τ).loc main_arg1)) slices_S200000x2_S200000x1_0_0) shapeCasts_S200000x1_S200000) slices_S200000_S25000_0 := by
    show StableHlo.after hostOps0 _ _ = _; after_results <;> rfl
  rw [e, chunk_apply (25000 * 0) _ _ t (by omega), col0_apply]

/-- Call 0's second table: the second components of pairs 0 to 24999 of the first list. -/
theorem tbl0_B (c : Dev nD) (t : Fin 25000) :
    Call0.tbl (Call0.Vin (W1 m)) 1 (ValueIdx.ix1 t) = m ((c.tc : Thread nD τ).loc main_arg1) (ValueIdx.ix2 ⟨25000 * 0 + t.val, by omega⟩ 1) := by
  obtain rfl : c = 0 := Subsingleton.elim _ _
  show W1 m 0 main_v6 (ValueIdx.ix1 t) = _
  have e : (W1 m 0 main_v6 : S25000.Idx → Elt F .i32) = extractStridedSlice S25000 ![25000 * 0] (shapeCast S200000 (extractStridedSlice S200000x1 ![0, 1] (m (((0 : Dev nD).tc : Thread nD τ).loc main_arg1)) slices_S200000x2_S200000x1_0_1) shapeCasts_S200000x1_S200000) slices_S200000_S25000_0 := by
    show StableHlo.after hostOps0 _ _ = _; after_results <;> rfl
  rw [e, chunk_apply (25000 * 0) _ _ t (by omega), col1_apply]

/-- Call 0's tables name rows of the array. -/
theorem ok0 (h : InRange m) : Call0.Ok (Call0.Vin (W1 m)) :=
  ok0_of_lt _ (fun t => by rw [tbl0_A m 0 t]; exact (h 0).1 _) (fun t => by rw [tbl0_B m 0 t]; exact (h 0).1 _)
/-- Exit of call 0. -/
abbrev W2 (h : InRange m) (c : Dev nD) : Valuation τ sig (Elt F) := Call0.Wout (W1 m) (ok0 m h) c
/-- Call 0 leaves every buffer but its result as it was. -/
theorem W2_of (h : InRange m) (c : Dev nD) (r : Ref sig .tc) (hr : r ≠ main_v7) : W2 m h c r = W1 m c r := by
  show Function.update _ _ _ _ = _
  exact Function.update_of_ne (StableHlo.devRef_ne_of_ne hr) _ _
/-- Call 0's result is what its write-backs leave. -/
theorem W2_res (h : InRange m) (c : Dev nD) :
    W2 m h c main_v7 = (Call0.dat (Call0.Vin (W1 m)) (ok0 m h) c).arrAt 2 (Call0.cfgM (Call0.Vin (W1 m)) (ok0 m h)).N := by
  show Function.update _ _ _ _ = _
  exact Function.update_self _ _ _
/-- Call 0's result, the one entry of its [1,1] array. -/
abbrev res0 (h : InRange m) (c : Dev nD) : F .f32 := W2 m h c main_v7 (ValueIdx.ix2 0 0)
theorem W2_arg0 (h : InRange m) (c : Dev nD) : W2 m h c main_arg0 = m ((c.tc : Thread nD τ).loc main_arg0) := (W2_of m h c main_arg0 (by decide)).trans (W1_arg0 m c)
theorem W2_arg1 (h : InRange m) (c : Dev nD) : W2 m h c main_arg1 = m ((c.tc : Thread nD τ).loc main_arg1) := (W2_of m h c main_arg1 (by decide)).trans (W1_arg1 m c)
theorem W2_arg2 (h : InRange m) (c : Dev nD) : W2 m h c main_arg2 = m ((c.tc : Thread nD τ).loc main_arg2) := (W2_of m h c main_arg2 (by decide)).trans (W1_arg2 m c)
theorem W2_v0 (h : InRange m) (c : Dev nD) : W2 m h c main_v0 = W1 m c main_v0 := W2_of m h c main_v0 (by decide)
theorem W2_v2 (h : InRange m) (c : Dev nD) : W2 m h c main_v2 = W1 m c main_v2 := W2_of m h c main_v2 (by decide)
theorem W2_v4 (h : InRange m) (c : Dev nD) : W2 m h c main_v4 = W1 m c main_v4 := W2_of m h c main_v4 (by decide)

/-! ## Call 1 -/

/-- Entry of call 1: after the host stretch 1. -/
abbrev W3 (h : InRange m) (c : Dev nD) : Valuation τ sig (Elt F) := StableHlo.after hostOps1 (W2 m h c)
/-- The host stretch 1 leaves every buffer it does not write as it was. -/
theorem W3_of (h : InRange m) (c : Dev nD) (r : Ref sig .tc) (hr : r ∉ Regions.hostOps1_W) : W3 m h c r = W2 m h c r :=
  StableHlo.after_of_writes_sub hostOps1 _ Regions.hostOps1_writes hr
theorem W3_arg0 (h : InRange m) (c : Dev nD) : W3 m h c main_arg0 = m ((c.tc : Thread nD τ).loc main_arg0) := (W3_of m h c main_arg0 (by decide)).trans (W2_arg0 m h c)
theorem W3_arg1 (h : InRange m) (c : Dev nD) : W3 m h c main_arg1 = m ((c.tc : Thread nD τ).loc main_arg1) := (W3_of m h c main_arg1 (by decide)).trans (W2_arg1 m h c)
theorem W3_arg2 (h : InRange m) (c : Dev nD) : W3 m h c main_arg2 = m ((c.tc : Thread nD τ).loc main_arg2) := (W3_of m h c main_arg2 (by decide)).trans (W2_arg2 m h c)
theorem W3_v0 (h : InRange m) (c : Dev nD) : W3 m h c main_v0 = W1 m c main_v0 := (W3_of m h c main_v0 (by decide)).trans (W2_v0 m h c)
theorem W3_v2 (h : InRange m) (c : Dev nD) : W3 m h c main_v2 = W1 m c main_v2 := (W3_of m h c main_v2 (by decide)).trans (W2_v2 m h c)
theorem W3_v4 (h : InRange m) (c : Dev nD) : W3 m h c main_v4 = W1 m c main_v4 := (W3_of m h c main_v4 (by decide)).trans (W2_v4 m h c)

/-- The array of rows as call 1 finds it. -/
theorem rows1 (h : InRange m) (c : Dev nD) (r : Fin 100000) (d : Fin 256) :
    W3 m h c main_v0 (ValueIdx.ix3 r 0 d) = m ((c.tc : Thread nD τ).loc main_arg0) (ValueIdx.ix2 r d) := by
  rw [W3_v0]; exact rows0 m c r d

/-- Call 1's first table: the first components of pairs 25000 to 49999 of the first list. -/
theorem tbl1_A (h : InRange m) (c : Dev nD) (t : Fin 25000) :
    Call1.tbl (Call1.Vin (W3 m h)) 0 (ValueIdx.ix1 t) = m ((c.tc : Thread nD τ).loc main_arg1) (ValueIdx.ix2 ⟨25000 * 1 + t.val, by omega⟩ 0) := by
  obtain rfl : c = 0 := Subsingleton.elim _ _
  show W3 m h 0 main_v10 (ValueIdx.ix1 t) = _
  have e : (W3 m h 0 main_v10 : S25000.Idx → Elt F .i32) = extractStridedSlice S25000 ![25000 * 1] (W2 m h 0 main_v2) slices_S200000_S25000_25000 := by
    show StableHlo.after hostOps1 _ _ = _; after_results <;> rfl
  rw [e, chunk_apply (25000 * 1) _ _ t (by omega), W2_v2, W1_colA]

/-- Call 1's second table: the second components of pairs 25000 to 49999 of the first list. -/
theorem tbl1_B (h : InRange m) (c : Dev nD) (t : Fin 25000) :
    Call1.tbl (Call1.Vin (W3 m h)) 1 (ValueIdx.ix1 t) = m ((c.tc : Thread nD τ).loc main_arg1) (ValueIdx.ix2 ⟨25000 * 1 + t.val, by omega⟩ 1) := by
  obtain rfl : c = 0 := Subsingleton.elim _ _
  show W3 m h 0 main_v11 (ValueIdx.ix1 t) = _
  have e : (W3 m h 0 main_v11 : S25000.Idx → Elt F .i32) = extractStridedSlice S25000 ![25000 * 1] (W2 m h 0 main_v4) slices_S200000_S25000_25000 := by
    show StableHlo.after hostOps1 _ _ = _; after_results <;> rfl
  rw [e, chunk_apply (25000 * 1) _ _ t (by omega), W2_v4, W1_colB]

/-- The running sum of the first list's calls up to call 0. -/
abbrev pos1 (h : InRange m) (c : Dev nD) : F .f32 := FloatOps.addf (FloatOps.ofBits .f32 0x00000000#32) (res0 m h c)
theorem W3_sum (h : InRange m) (c : Dev nD) : W3 m h c main_v9 ValueIdx.ix0 = pos1 m h c := by
  have e : (W3 m h c main_v9 : S_.Idx → F .f32) = addf (constant S_ .f32 0x00000000#32) (shapeCast S_ (W2 m h c main_v7) shapeCasts_S1x1_S_) := by
    show StableHlo.after hostOps1 _ _ = _; after_results <;> rfl
  rw [e]; show FloatOps.addf _ (shapeCast S_ (W2 m h c main_v7) shapeCasts_S1x1_S_ ValueIdx.ix0) = _
  rw [scalar_apply]; rfl

/-- Call 1's tables name rows of the array. -/
theorem ok1 (h : InRange m) : Call1.Ok (Call1.Vin (W3 m h)) :=
  ok1_of_lt _ (fun t => by rw [tbl1_A m h 0 t]; exact (h 0).1 _) (fun t => by rw [tbl1_B m h 0 t]; exact (h 0).1 _)
/-- Exit of call 1. -/
abbrev W4 (h : InRange m) (c : Dev nD) : Valuation τ sig (Elt F) := Call1.Wout (W3 m h) (ok1 m h) c
/-- Call 1 leaves every buffer but its result as it was. -/
theorem W4_of (h : InRange m) (c : Dev nD) (r : Ref sig .tc) (hr : r ≠ main_v12) : W4 m h c r = W3 m h c r := by
  show Function.update _ _ _ _ = _
  exact Function.update_of_ne (StableHlo.devRef_ne_of_ne hr) _ _
/-- Call 1's result is what its write-backs leave. -/
theorem W4_res (h : InRange m) (c : Dev nD) :
    W4 m h c main_v12 = (Call1.dat (Call1.Vin (W3 m h)) (ok1 m h) c).arrAt 2 (Call1.cfgM (Call1.Vin (W3 m h)) (ok1 m h)).N := by
  show Function.update _ _ _ _ = _
  exact Function.update_self _ _ _
/-- Call 1's result, the one entry of its [1,1] array. -/
abbrev res1 (h : InRange m) (c : Dev nD) : F .f32 := W4 m h c main_v12 (ValueIdx.ix2 0 0)
theorem W4_arg0 (h : InRange m) (c : Dev nD) : W4 m h c main_arg0 = m ((c.tc : Thread nD τ).loc main_arg0) := (W4_of m h c main_arg0 (by decide)).trans (W3_arg0 m h c)
theorem W4_arg1 (h : InRange m) (c : Dev nD) : W4 m h c main_arg1 = m ((c.tc : Thread nD τ).loc main_arg1) := (W4_of m h c main_arg1 (by decide)).trans (W3_arg1 m h c)
theorem W4_arg2 (h : InRange m) (c : Dev nD) : W4 m h c main_arg2 = m ((c.tc : Thread nD τ).loc main_arg2) := (W4_of m h c main_arg2 (by decide)).trans (W3_arg2 m h c)
theorem W4_v0 (h : InRange m) (c : Dev nD) : W4 m h c main_v0 = W1 m c main_v0 := (W4_of m h c main_v0 (by decide)).trans (W3_v0 m h c)
theorem W4_v2 (h : InRange m) (c : Dev nD) : W4 m h c main_v2 = W1 m c main_v2 := (W4_of m h c main_v2 (by decide)).trans (W3_v2 m h c)
theorem W4_v4 (h : InRange m) (c : Dev nD) : W4 m h c main_v4 = W1 m c main_v4 := (W4_of m h c main_v4 (by decide)).trans (W3_v4 m h c)

/-! ## Call 2 -/

/-- Entry of call 2: after the host stretch 2. -/
abbrev W5 (h : InRange m) (c : Dev nD) : Valuation τ sig (Elt F) := StableHlo.after hostOps2 (W4 m h c)
/-- The host stretch 2 leaves every buffer it does not write as it was. -/
theorem W5_of (h : InRange m) (c : Dev nD) (r : Ref sig .tc) (hr : r ∉ Regions.hostOps2_W) : W5 m h c r = W4 m h c r :=
  StableHlo.after_of_writes_sub hostOps2 _ Regions.hostOps2_writes hr
theorem W5_arg0 (h : InRange m) (c : Dev nD) : W5 m h c main_arg0 = m ((c.tc : Thread nD τ).loc main_arg0) := (W5_of m h c main_arg0 (by decide)).trans (W4_arg0 m h c)
theorem W5_arg1 (h : InRange m) (c : Dev nD) : W5 m h c main_arg1 = m ((c.tc : Thread nD τ).loc main_arg1) := (W5_of m h c main_arg1 (by decide)).trans (W4_arg1 m h c)
theorem W5_arg2 (h : InRange m) (c : Dev nD) : W5 m h c main_arg2 = m ((c.tc : Thread nD τ).loc main_arg2) := (W5_of m h c main_arg2 (by decide)).trans (W4_arg2 m h c)
theorem W5_v0 (h : InRange m) (c : Dev nD) : W5 m h c main_v0 = W1 m c main_v0 := (W5_of m h c main_v0 (by decide)).trans (W4_v0 m h c)
theorem W5_v2 (h : InRange m) (c : Dev nD) : W5 m h c main_v2 = W1 m c main_v2 := (W5_of m h c main_v2 (by decide)).trans (W4_v2 m h c)
theorem W5_v4 (h : InRange m) (c : Dev nD) : W5 m h c main_v4 = W1 m c main_v4 := (W5_of m h c main_v4 (by decide)).trans (W4_v4 m h c)

/-- The array of rows as call 2 finds it. -/
theorem rows2 (h : InRange m) (c : Dev nD) (r : Fin 100000) (d : Fin 256) :
    W5 m h c main_v0 (ValueIdx.ix3 r 0 d) = m ((c.tc : Thread nD τ).loc main_arg0) (ValueIdx.ix2 r d) := by
  rw [W5_v0]; exact rows0 m c r d

/-- Call 2's first table: the first components of pairs 50000 to 74999 of the first list. -/
theorem tbl2_A (h : InRange m) (c : Dev nD) (t : Fin 25000) :
    Call2.tbl (Call2.Vin (W5 m h)) 0 (ValueIdx.ix1 t) = m ((c.tc : Thread nD τ).loc main_arg1) (ValueIdx.ix2 ⟨25000 * 2 + t.val, by omega⟩ 0) := by
  obtain rfl : c = 0 := Subsingleton.elim _ _
  show W5 m h 0 main_v15 (ValueIdx.ix1 t) = _
  have e : (W5 m h 0 main_v15 : S25000.Idx → Elt F .i32) = extractStridedSlice S25000 ![25000 * 2] (W4 m h 0 main_v2) slices_S200000_S25000_50000 := by
    show StableHlo.after hostOps2 _ _ = _; after_results <;> rfl
  rw [e, chunk_apply (25000 * 2) _ _ t (by omega), W4_v2, W1_colA]

/-- Call 2's second table: the second components of pairs 50000 to 74999 of the first list. -/
theorem tbl2_B (h : InRange m) (c : Dev nD) (t : Fin 25000) :
    Call2.tbl (Call2.Vin (W5 m h)) 1 (ValueIdx.ix1 t) = m ((c.tc : Thread nD τ).loc main_arg1) (ValueIdx.ix2 ⟨25000 * 2 + t.val, by omega⟩ 1) := by
  obtain rfl : c = 0 := Subsingleton.elim _ _
  show W5 m h 0 main_v16 (ValueIdx.ix1 t) = _
  have e : (W5 m h 0 main_v16 : S25000.Idx → Elt F .i32) = extractStridedSlice S25000 ![25000 * 2] (W4 m h 0 main_v4) slices_S200000_S25000_50000 := by
    show StableHlo.after hostOps2 _ _ = _; after_results <;> rfl
  rw [e, chunk_apply (25000 * 2) _ _ t (by omega), W4_v4, W1_colB]

/-- The running sum of the first list's calls up to call 1. -/
abbrev pos2 (h : InRange m) (c : Dev nD) : F .f32 := FloatOps.addf (pos1 m h c) (res1 m h c)
theorem W5_sum (h : InRange m) (c : Dev nD) : W5 m h c main_v14 ValueIdx.ix0 = pos2 m h c := by
  have e : (W5 m h c main_v14 : S_.Idx → F .f32) = addf (W4 m h c main_v9) (shapeCast S_ (W4 m h c main_v12) shapeCasts_S1x1_S_) := by
    show StableHlo.after hostOps2 _ _ = _; after_results <;> rfl
  rw [e]; show FloatOps.addf (W4 m h c main_v9 ValueIdx.ix0) (shapeCast S_ (W4 m h c main_v12) shapeCasts_S1x1_S_ ValueIdx.ix0) = _
  rw [scalar_apply, W4_of m h c main_v9 (by decide), W3_sum]

/-- Call 2's tables name rows of the array. -/
theorem ok2 (h : InRange m) : Call2.Ok (Call2.Vin (W5 m h)) :=
  ok2_of_lt _ (fun t => by rw [tbl2_A m h 0 t]; exact (h 0).1 _) (fun t => by rw [tbl2_B m h 0 t]; exact (h 0).1 _)
/-- Exit of call 2. -/
abbrev W6 (h : InRange m) (c : Dev nD) : Valuation τ sig (Elt F) := Call2.Wout (W5 m h) (ok2 m h) c
/-- Call 2 leaves every buffer but its result as it was. -/
theorem W6_of (h : InRange m) (c : Dev nD) (r : Ref sig .tc) (hr : r ≠ main_v17) : W6 m h c r = W5 m h c r := by
  show Function.update _ _ _ _ = _
  exact Function.update_of_ne (StableHlo.devRef_ne_of_ne hr) _ _
/-- Call 2's result is what its write-backs leave. -/
theorem W6_res (h : InRange m) (c : Dev nD) :
    W6 m h c main_v17 = (Call2.dat (Call2.Vin (W5 m h)) (ok2 m h) c).arrAt 2 (Call2.cfgM (Call2.Vin (W5 m h)) (ok2 m h)).N := by
  show Function.update _ _ _ _ = _
  exact Function.update_self _ _ _
/-- Call 2's result, the one entry of its [1,1] array. -/
abbrev res2 (h : InRange m) (c : Dev nD) : F .f32 := W6 m h c main_v17 (ValueIdx.ix2 0 0)
theorem W6_arg0 (h : InRange m) (c : Dev nD) : W6 m h c main_arg0 = m ((c.tc : Thread nD τ).loc main_arg0) := (W6_of m h c main_arg0 (by decide)).trans (W5_arg0 m h c)
theorem W6_arg1 (h : InRange m) (c : Dev nD) : W6 m h c main_arg1 = m ((c.tc : Thread nD τ).loc main_arg1) := (W6_of m h c main_arg1 (by decide)).trans (W5_arg1 m h c)
theorem W6_arg2 (h : InRange m) (c : Dev nD) : W6 m h c main_arg2 = m ((c.tc : Thread nD τ).loc main_arg2) := (W6_of m h c main_arg2 (by decide)).trans (W5_arg2 m h c)
theorem W6_v0 (h : InRange m) (c : Dev nD) : W6 m h c main_v0 = W1 m c main_v0 := (W6_of m h c main_v0 (by decide)).trans (W5_v0 m h c)
theorem W6_v2 (h : InRange m) (c : Dev nD) : W6 m h c main_v2 = W1 m c main_v2 := (W6_of m h c main_v2 (by decide)).trans (W5_v2 m h c)
theorem W6_v4 (h : InRange m) (c : Dev nD) : W6 m h c main_v4 = W1 m c main_v4 := (W6_of m h c main_v4 (by decide)).trans (W5_v4 m h c)

/-! ## Call 3 -/

/-- Entry of call 3: after the host stretch 3. -/
abbrev W7 (h : InRange m) (c : Dev nD) : Valuation τ sig (Elt F) := StableHlo.after hostOps3 (W6 m h c)
/-- The host stretch 3 leaves every buffer it does not write as it was. -/
theorem W7_of (h : InRange m) (c : Dev nD) (r : Ref sig .tc) (hr : r ∉ Regions.hostOps3_W) : W7 m h c r = W6 m h c r :=
  StableHlo.after_of_writes_sub hostOps3 _ Regions.hostOps3_writes hr
theorem W7_arg0 (h : InRange m) (c : Dev nD) : W7 m h c main_arg0 = m ((c.tc : Thread nD τ).loc main_arg0) := (W7_of m h c main_arg0 (by decide)).trans (W6_arg0 m h c)
theorem W7_arg1 (h : InRange m) (c : Dev nD) : W7 m h c main_arg1 = m ((c.tc : Thread nD τ).loc main_arg1) := (W7_of m h c main_arg1 (by decide)).trans (W6_arg1 m h c)
theorem W7_arg2 (h : InRange m) (c : Dev nD) : W7 m h c main_arg2 = m ((c.tc : Thread nD τ).loc main_arg2) := (W7_of m h c main_arg2 (by decide)).trans (W6_arg2 m h c)
theorem W7_v0 (h : InRange m) (c : Dev nD) : W7 m h c main_v0 = W1 m c main_v0 := (W7_of m h c main_v0 (by decide)).trans (W6_v0 m h c)
theorem W7_v2 (h : InRange m) (c : Dev nD) : W7 m h c main_v2 = W1 m c main_v2 := (W7_of m h c main_v2 (by decide)).trans (W6_v2 m h c)
theorem W7_v4 (h : InRange m) (c : Dev nD) : W7 m h c main_v4 = W1 m c main_v4 := (W7_of m h c main_v4 (by decide)).trans (W6_v4 m h c)

/-- The array of rows as call 3 finds it. -/
theorem rows3 (h : InRange m) (c : Dev nD) (r : Fin 100000) (d : Fin 256) :
    W7 m h c main_v0 (ValueIdx.ix3 r 0 d) = m ((c.tc : Thread nD τ).loc main_arg0) (ValueIdx.ix2 r d) := by
  rw [W7_v0]; exact rows0 m c r d

/-- Call 3's first table: the first components of pairs 75000 to 99999 of the first list. -/
theorem tbl3_A (h : InRange m) (c : Dev nD) (t : Fin 25000) :
    Call3.tbl (Call3.Vin (W7 m h)) 0 (ValueIdx.ix1 t) = m ((c.tc : Thread nD τ).loc main_arg1) (ValueIdx.ix2 ⟨25000 * 3 + t.val, by omega⟩ 0) := by
  obtain rfl : c = 0 := Subsingleton.elim _ _
  show W7 m h 0 main_v20 (ValueIdx.ix1 t) = _
  have e : (W7 m h 0 main_v20 : S25000.Idx → Elt F .i32) = extractStridedSlice S25000 ![25000 * 3] (W6 m h 0 main_v2) slices_S200000_S25000_75000 := by
    show StableHlo.after hostOps3 _ _ = _; after_results <;> rfl
  rw [e, chunk_apply (25000 * 3) _ _ t (by omega), W6_v2, W1_colA]

/-- Call 3's second table: the second components of pairs 75000 to 99999 of the first list. -/
theorem tbl3_B (h : InRange m) (c : Dev nD) (t : Fin 25000) :
    Call3.tbl (Call3.Vin (W7 m h)) 1 (ValueIdx.ix1 t) = m ((c.tc : Thread nD τ).loc main_arg1) (ValueIdx.ix2 ⟨25000 * 3 + t.val, by omega⟩ 1) := by
  obtain rfl : c = 0 := Subsingleton.elim _ _
  show W7 m h 0 main_v21 (ValueIdx.ix1 t) = _
  have e : (W7 m h 0 main_v21 : S25000.Idx → Elt F .i32) = extractStridedSlice S25000 ![25000 * 3] (W6 m h 0 main_v4) slices_S200000_S25000_75000 := by
    show StableHlo.after hostOps3 _ _ = _; after_results <;> rfl
  rw [e, chunk_apply (25000 * 3) _ _ t (by omega), W6_v4, W1_colB]

/-- The running sum of the first list's calls up to call 2. -/
abbrev pos3 (h : InRange m) (c : Dev nD) : F .f32 := FloatOps.addf (pos2 m h c) (res2 m h c)
theorem W7_sum (h : InRange m) (c : Dev nD) : W7 m h c main_v19 ValueIdx.ix0 = pos3 m h c := by
  have e : (W7 m h c main_v19 : S_.Idx → F .f32) = addf (W6 m h c main_v14) (shapeCast S_ (W6 m h c main_v17) shapeCasts_S1x1_S_) := by
    show StableHlo.after hostOps3 _ _ = _; after_results <;> rfl
  rw [e]; show FloatOps.addf (W6 m h c main_v14 ValueIdx.ix0) (shapeCast S_ (W6 m h c main_v17) shapeCasts_S1x1_S_ ValueIdx.ix0) = _
  rw [scalar_apply, W6_of m h c main_v14 (by decide), W5_sum]

/-- Call 3's tables name rows of the array. -/
theorem ok3 (h : InRange m) : Call3.Ok (Call3.Vin (W7 m h)) :=
  ok3_of_lt _ (fun t => by rw [tbl3_A m h 0 t]; exact (h 0).1 _) (fun t => by rw [tbl3_B m h 0 t]; exact (h 0).1 _)
/-- Exit of call 3. -/
abbrev W8 (h : InRange m) (c : Dev nD) : Valuation τ sig (Elt F) := Call3.Wout (W7 m h) (ok3 m h) c
/-- Call 3 leaves every buffer but its result as it was. -/
theorem W8_of (h : InRange m) (c : Dev nD) (r : Ref sig .tc) (hr : r ≠ main_v22) : W8 m h c r = W7 m h c r := by
  show Function.update _ _ _ _ = _
  exact Function.update_of_ne (StableHlo.devRef_ne_of_ne hr) _ _
/-- Call 3's result is what its write-backs leave. -/
theorem W8_res (h : InRange m) (c : Dev nD) :
    W8 m h c main_v22 = (Call3.dat (Call3.Vin (W7 m h)) (ok3 m h) c).arrAt 2 (Call3.cfgM (Call3.Vin (W7 m h)) (ok3 m h)).N := by
  show Function.update _ _ _ _ = _
  exact Function.update_self _ _ _
/-- Call 3's result, the one entry of its [1,1] array. -/
abbrev res3 (h : InRange m) (c : Dev nD) : F .f32 := W8 m h c main_v22 (ValueIdx.ix2 0 0)
theorem W8_arg0 (h : InRange m) (c : Dev nD) : W8 m h c main_arg0 = m ((c.tc : Thread nD τ).loc main_arg0) := (W8_of m h c main_arg0 (by decide)).trans (W7_arg0 m h c)
theorem W8_arg1 (h : InRange m) (c : Dev nD) : W8 m h c main_arg1 = m ((c.tc : Thread nD τ).loc main_arg1) := (W8_of m h c main_arg1 (by decide)).trans (W7_arg1 m h c)
theorem W8_arg2 (h : InRange m) (c : Dev nD) : W8 m h c main_arg2 = m ((c.tc : Thread nD τ).loc main_arg2) := (W8_of m h c main_arg2 (by decide)).trans (W7_arg2 m h c)
theorem W8_v0 (h : InRange m) (c : Dev nD) : W8 m h c main_v0 = W1 m c main_v0 := (W8_of m h c main_v0 (by decide)).trans (W7_v0 m h c)
theorem W8_v2 (h : InRange m) (c : Dev nD) : W8 m h c main_v2 = W1 m c main_v2 := (W8_of m h c main_v2 (by decide)).trans (W7_v2 m h c)
theorem W8_v4 (h : InRange m) (c : Dev nD) : W8 m h c main_v4 = W1 m c main_v4 := (W8_of m h c main_v4 (by decide)).trans (W7_v4 m h c)

/-! ## Call 4 -/

/-- Entry of call 4: after the host stretch 4. -/
abbrev W9 (h : InRange m) (c : Dev nD) : Valuation τ sig (Elt F) := StableHlo.after hostOps4 (W8 m h c)
/-- The host stretch 4 leaves every buffer it does not write as it was. -/
theorem W9_of (h : InRange m) (c : Dev nD) (r : Ref sig .tc) (hr : r ∉ Regions.hostOps4_W) : W9 m h c r = W8 m h c r :=
  StableHlo.after_of_writes_sub hostOps4 _ Regions.hostOps4_writes hr
theorem W9_arg0 (h : InRange m) (c : Dev nD) : W9 m h c main_arg0 = m ((c.tc : Thread nD τ).loc main_arg0) := (W9_of m h c main_arg0 (by decide)).trans (W8_arg0 m h c)
theorem W9_arg1 (h : InRange m) (c : Dev nD) : W9 m h c main_arg1 = m ((c.tc : Thread nD τ).loc main_arg1) := (W9_of m h c main_arg1 (by decide)).trans (W8_arg1 m h c)
theorem W9_arg2 (h : InRange m) (c : Dev nD) : W9 m h c main_arg2 = m ((c.tc : Thread nD τ).loc main_arg2) := (W9_of m h c main_arg2 (by decide)).trans (W8_arg2 m h c)
theorem W9_v0 (h : InRange m) (c : Dev nD) : W9 m h c main_v0 = W1 m c main_v0 := (W9_of m h c main_v0 (by decide)).trans (W8_v0 m h c)
theorem W9_v2 (h : InRange m) (c : Dev nD) : W9 m h c main_v2 = W1 m c main_v2 := (W9_of m h c main_v2 (by decide)).trans (W8_v2 m h c)
theorem W9_v4 (h : InRange m) (c : Dev nD) : W9 m h c main_v4 = W1 m c main_v4 := (W9_of m h c main_v4 (by decide)).trans (W8_v4 m h c)

/-- The array of rows as call 4 finds it. -/
theorem rows4 (h : InRange m) (c : Dev nD) (r : Fin 100000) (d : Fin 256) :
    W9 m h c main_v0 (ValueIdx.ix3 r 0 d) = m ((c.tc : Thread nD τ).loc main_arg0) (ValueIdx.ix2 r d) := by
  rw [W9_v0]; exact rows0 m c r d

/-- Call 4's first table: the first components of pairs 100000 to 124999 of the first list. -/
theorem tbl4_A (h : InRange m) (c : Dev nD) (t : Fin 25000) :
    Call4.tbl (Call4.Vin (W9 m h)) 0 (ValueIdx.ix1 t) = m ((c.tc : Thread nD τ).loc main_arg1) (ValueIdx.ix2 ⟨25000 * 4 + t.val, by omega⟩ 0) := by
  obtain rfl : c = 0 := Subsingleton.elim _ _
  show W9 m h 0 main_v25 (ValueIdx.ix1 t) = _
  have e : (W9 m h 0 main_v25 : S25000.Idx → Elt F .i32) = extractStridedSlice S25000 ![25000 * 4] (W8 m h 0 main_v2) slices_S200000_S25000_100000 := by
    show StableHlo.after hostOps4 _ _ = _; after_results <;> rfl
  rw [e, chunk_apply (25000 * 4) _ _ t (by omega), W8_v2, W1_colA]

/-- Call 4's second table: the second components of pairs 100000 to 124999 of the first list. -/
theorem tbl4_B (h : InRange m) (c : Dev nD) (t : Fin 25000) :
    Call4.tbl (Call4.Vin (W9 m h)) 1 (ValueIdx.ix1 t) = m ((c.tc : Thread nD τ).loc main_arg1) (ValueIdx.ix2 ⟨25000 * 4 + t.val, by omega⟩ 1) := by
  obtain rfl : c = 0 := Subsingleton.elim _ _
  show W9 m h 0 main_v26 (ValueIdx.ix1 t) = _
  have e : (W9 m h 0 main_v26 : S25000.Idx → Elt F .i32) = extractStridedSlice S25000 ![25000 * 4] (W8 m h 0 main_v4) slices_S200000_S25000_100000 := by
    show StableHlo.after hostOps4 _ _ = _; after_results <;> rfl
  rw [e, chunk_apply (25000 * 4) _ _ t (by omega), W8_v4, W1_colB]

/-- The running sum of the first list's calls up to call 3. -/
abbrev pos4 (h : InRange m) (c : Dev nD) : F .f32 := FloatOps.addf (pos3 m h c) (res3 m h c)
theorem W9_sum (h : InRange m) (c : Dev nD) : W9 m h c main_v24 ValueIdx.ix0 = pos4 m h c := by
  have e : (W9 m h c main_v24 : S_.Idx → F .f32) = addf (W8 m h c main_v19) (shapeCast S_ (W8 m h c main_v22) shapeCasts_S1x1_S_) := by
    show StableHlo.after hostOps4 _ _ = _; after_results <;> rfl
  rw [e]; show FloatOps.addf (W8 m h c main_v19 ValueIdx.ix0) (shapeCast S_ (W8 m h c main_v22) shapeCasts_S1x1_S_ ValueIdx.ix0) = _
  rw [scalar_apply, W8_of m h c main_v19 (by decide), W7_sum]

/-- Call 4's tables name rows of the array. -/
theorem ok4 (h : InRange m) : Call4.Ok (Call4.Vin (W9 m h)) :=
  ok4_of_lt _ (fun t => by rw [tbl4_A m h 0 t]; exact (h 0).1 _) (fun t => by rw [tbl4_B m h 0 t]; exact (h 0).1 _)
/-- Exit of call 4. -/
abbrev W10 (h : InRange m) (c : Dev nD) : Valuation τ sig (Elt F) := Call4.Wout (W9 m h) (ok4 m h) c
/-- Call 4 leaves every buffer but its result as it was. -/
theorem W10_of (h : InRange m) (c : Dev nD) (r : Ref sig .tc) (hr : r ≠ main_v27) : W10 m h c r = W9 m h c r := by
  show Function.update _ _ _ _ = _
  exact Function.update_of_ne (StableHlo.devRef_ne_of_ne hr) _ _
/-- Call 4's result is what its write-backs leave. -/
theorem W10_res (h : InRange m) (c : Dev nD) :
    W10 m h c main_v27 = (Call4.dat (Call4.Vin (W9 m h)) (ok4 m h) c).arrAt 2 (Call4.cfgM (Call4.Vin (W9 m h)) (ok4 m h)).N := by
  show Function.update _ _ _ _ = _
  exact Function.update_self _ _ _
/-- Call 4's result, the one entry of its [1,1] array. -/
abbrev res4 (h : InRange m) (c : Dev nD) : F .f32 := W10 m h c main_v27 (ValueIdx.ix2 0 0)
theorem W10_arg0 (h : InRange m) (c : Dev nD) : W10 m h c main_arg0 = m ((c.tc : Thread nD τ).loc main_arg0) := (W10_of m h c main_arg0 (by decide)).trans (W9_arg0 m h c)
theorem W10_arg1 (h : InRange m) (c : Dev nD) : W10 m h c main_arg1 = m ((c.tc : Thread nD τ).loc main_arg1) := (W10_of m h c main_arg1 (by decide)).trans (W9_arg1 m h c)
theorem W10_arg2 (h : InRange m) (c : Dev nD) : W10 m h c main_arg2 = m ((c.tc : Thread nD τ).loc main_arg2) := (W10_of m h c main_arg2 (by decide)).trans (W9_arg2 m h c)
theorem W10_v0 (h : InRange m) (c : Dev nD) : W10 m h c main_v0 = W1 m c main_v0 := (W10_of m h c main_v0 (by decide)).trans (W9_v0 m h c)
theorem W10_v2 (h : InRange m) (c : Dev nD) : W10 m h c main_v2 = W1 m c main_v2 := (W10_of m h c main_v2 (by decide)).trans (W9_v2 m h c)
theorem W10_v4 (h : InRange m) (c : Dev nD) : W10 m h c main_v4 = W1 m c main_v4 := (W10_of m h c main_v4 (by decide)).trans (W9_v4 m h c)

/-! ## Call 5 -/

/-- Entry of call 5: after the host stretch 5. -/
abbrev W11 (h : InRange m) (c : Dev nD) : Valuation τ sig (Elt F) := StableHlo.after hostOps5 (W10 m h c)
/-- The host stretch 5 leaves every buffer it does not write as it was. -/
theorem W11_of (h : InRange m) (c : Dev nD) (r : Ref sig .tc) (hr : r ∉ Regions.hostOps5_W) : W11 m h c r = W10 m h c r :=
  StableHlo.after_of_writes_sub hostOps5 _ Regions.hostOps5_writes hr
theorem W11_arg0 (h : InRange m) (c : Dev nD) : W11 m h c main_arg0 = m ((c.tc : Thread nD τ).loc main_arg0) := (W11_of m h c main_arg0 (by decide)).trans (W10_arg0 m h c)
theorem W11_arg1 (h : InRange m) (c : Dev nD) : W11 m h c main_arg1 = m ((c.tc : Thread nD τ).loc main_arg1) := (W11_of m h c main_arg1 (by decide)).trans (W10_arg1 m h c)
theorem W11_arg2 (h : InRange m) (c : Dev nD) : W11 m h c main_arg2 = m ((c.tc : Thread nD τ).loc main_arg2) := (W11_of m h c main_arg2 (by decide)).trans (W10_arg2 m h c)
theorem W11_v0 (h : InRange m) (c : Dev nD) : W11 m h c main_v0 = W1 m c main_v0 := (W11_of m h c main_v0 (by decide)).trans (W10_v0 m h c)
theorem W11_v2 (h : InRange m) (c : Dev nD) : W11 m h c main_v2 = W1 m c main_v2 := (W11_of m h c main_v2 (by decide)).trans (W10_v2 m h c)
theorem W11_v4 (h : InRange m) (c : Dev nD) : W11 m h c main_v4 = W1 m c main_v4 := (W11_of m h c main_v4 (by decide)).trans (W10_v4 m h c)

/-- The array of rows as call 5 finds it. -/
theorem rows5 (h : InRange m) (c : Dev nD) (r : Fin 100000) (d : Fin 256) :
    W11 m h c main_v0 (ValueIdx.ix3 r 0 d) = m ((c.tc : Thread nD τ).loc main_arg0) (ValueIdx.ix2 r d) := by
  rw [W11_v0]; exact rows0 m c r d

/-- Call 5's first table: the first components of pairs 125000 to 149999 of the first list. -/
theorem tbl5_A (h : InRange m) (c : Dev nD) (t : Fin 25000) :
    Call5.tbl (Call5.Vin (W11 m h)) 0 (ValueIdx.ix1 t) = m ((c.tc : Thread nD τ).loc main_arg1) (ValueIdx.ix2 ⟨25000 * 5 + t.val, by omega⟩ 0) := by
  obtain rfl : c = 0 := Subsingleton.elim _ _
  show W11 m h 0 main_v30 (ValueIdx.ix1 t) = _
  have e : (W11 m h 0 main_v30 : S25000.Idx → Elt F .i32) = extractStridedSlice S25000 ![25000 * 5] (W10 m h 0 main_v2) slices_S200000_S25000_125000 := by
    show StableHlo.after hostOps5 _ _ = _; after_results <;> rfl
  rw [e, chunk_apply (25000 * 5) _ _ t (by omega), W10_v2, W1_colA]

/-- Call 5's second table: the second components of pairs 125000 to 149999 of the first list. -/
theorem tbl5_B (h : InRange m) (c : Dev nD) (t : Fin 25000) :
    Call5.tbl (Call5.Vin (W11 m h)) 1 (ValueIdx.ix1 t) = m ((c.tc : Thread nD τ).loc main_arg1) (ValueIdx.ix2 ⟨25000 * 5 + t.val, by omega⟩ 1) := by
  obtain rfl : c = 0 := Subsingleton.elim _ _
  show W11 m h 0 main_v31 (ValueIdx.ix1 t) = _
  have e : (W11 m h 0 main_v31 : S25000.Idx → Elt F .i32) = extractStridedSlice S25000 ![25000 * 5] (W10 m h 0 main_v4) slices_S200000_S25000_125000 := by
    show StableHlo.after hostOps5 _ _ = _; after_results <;> rfl
  rw [e, chunk_apply (25000 * 5) _ _ t (by omega), W10_v4, W1_colB]

/-- The running sum of the first list's calls up to call 4. -/
abbrev pos5 (h : InRange m) (c : Dev nD) : F .f32 := FloatOps.addf (pos4 m h c) (res4 m h c)
theorem W11_sum (h : InRange m) (c : Dev nD) : W11 m h c main_v29 ValueIdx.ix0 = pos5 m h c := by
  have e : (W11 m h c main_v29 : S_.Idx → F .f32) = addf (W10 m h c main_v24) (shapeCast S_ (W10 m h c main_v27) shapeCasts_S1x1_S_) := by
    show StableHlo.after hostOps5 _ _ = _; after_results <;> rfl
  rw [e]; show FloatOps.addf (W10 m h c main_v24 ValueIdx.ix0) (shapeCast S_ (W10 m h c main_v27) shapeCasts_S1x1_S_ ValueIdx.ix0) = _
  rw [scalar_apply, W10_of m h c main_v24 (by decide), W9_sum]

/-- Call 5's tables name rows of the array. -/
theorem ok5 (h : InRange m) : Call5.Ok (Call5.Vin (W11 m h)) :=
  ok5_of_lt _ (fun t => by rw [tbl5_A m h 0 t]; exact (h 0).1 _) (fun t => by rw [tbl5_B m h 0 t]; exact (h 0).1 _)
/-- Exit of call 5. -/
abbrev W12 (h : InRange m) (c : Dev nD) : Valuation τ sig (Elt F) := Call5.Wout (W11 m h) (ok5 m h) c
/-- Call 5 leaves every buffer but its result as it was. -/
theorem W12_of (h : InRange m) (c : Dev nD) (r : Ref sig .tc) (hr : r ≠ main_v32) : W12 m h c r = W11 m h c r := by
  show Function.update _ _ _ _ = _
  exact Function.update_of_ne (StableHlo.devRef_ne_of_ne hr) _ _
/-- Call 5's result is what its write-backs leave. -/
theorem W12_res (h : InRange m) (c : Dev nD) :
    W12 m h c main_v32 = (Call5.dat (Call5.Vin (W11 m h)) (ok5 m h) c).arrAt 2 (Call5.cfgM (Call5.Vin (W11 m h)) (ok5 m h)).N := by
  show Function.update _ _ _ _ = _
  exact Function.update_self _ _ _
/-- Call 5's result, the one entry of its [1,1] array. -/
abbrev res5 (h : InRange m) (c : Dev nD) : F .f32 := W12 m h c main_v32 (ValueIdx.ix2 0 0)
theorem W12_arg0 (h : InRange m) (c : Dev nD) : W12 m h c main_arg0 = m ((c.tc : Thread nD τ).loc main_arg0) := (W12_of m h c main_arg0 (by decide)).trans (W11_arg0 m h c)
theorem W12_arg1 (h : InRange m) (c : Dev nD) : W12 m h c main_arg1 = m ((c.tc : Thread nD τ).loc main_arg1) := (W12_of m h c main_arg1 (by decide)).trans (W11_arg1 m h c)
theorem W12_arg2 (h : InRange m) (c : Dev nD) : W12 m h c main_arg2 = m ((c.tc : Thread nD τ).loc main_arg2) := (W12_of m h c main_arg2 (by decide)).trans (W11_arg2 m h c)
theorem W12_v0 (h : InRange m) (c : Dev nD) : W12 m h c main_v0 = W1 m c main_v0 := (W12_of m h c main_v0 (by decide)).trans (W11_v0 m h c)
theorem W12_v2 (h : InRange m) (c : Dev nD) : W12 m h c main_v2 = W1 m c main_v2 := (W12_of m h c main_v2 (by decide)).trans (W11_v2 m h c)
theorem W12_v4 (h : InRange m) (c : Dev nD) : W12 m h c main_v4 = W1 m c main_v4 := (W12_of m h c main_v4 (by decide)).trans (W11_v4 m h c)

/-! ## Call 6 -/

/-- Entry of call 6: after the host stretch 6. -/
abbrev W13 (h : InRange m) (c : Dev nD) : Valuation τ sig (Elt F) := StableHlo.after hostOps6 (W12 m h c)
/-- The host stretch 6 leaves every buffer it does not write as it was. -/
theorem W13_of (h : InRange m) (c : Dev nD) (r : Ref sig .tc) (hr : r ∉ Regions.hostOps6_W) : W13 m h c r = W12 m h c r :=
  StableHlo.after_of_writes_sub hostOps6 _ Regions.hostOps6_writes hr
theorem W13_arg0 (h : InRange m) (c : Dev nD) : W13 m h c main_arg0 = m ((c.tc : Thread nD τ).loc main_arg0) := (W13_of m h c main_arg0 (by decide)).trans (W12_arg0 m h c)
theorem W13_arg1 (h : InRange m) (c : Dev nD) : W13 m h c main_arg1 = m ((c.tc : Thread nD τ).loc main_arg1) := (W13_of m h c main_arg1 (by decide)).trans (W12_arg1 m h c)
theorem W13_arg2 (h : InRange m) (c : Dev nD) : W13 m h c main_arg2 = m ((c.tc : Thread nD τ).loc main_arg2) := (W13_of m h c main_arg2 (by decide)).trans (W12_arg2 m h c)
theorem W13_v0 (h : InRange m) (c : Dev nD) : W13 m h c main_v0 = W1 m c main_v0 := (W13_of m h c main_v0 (by decide)).trans (W12_v0 m h c)
theorem W13_v2 (h : InRange m) (c : Dev nD) : W13 m h c main_v2 = W1 m c main_v2 := (W13_of m h c main_v2 (by decide)).trans (W12_v2 m h c)
theorem W13_v4 (h : InRange m) (c : Dev nD) : W13 m h c main_v4 = W1 m c main_v4 := (W13_of m h c main_v4 (by decide)).trans (W12_v4 m h c)

/-- The array of rows as call 6 finds it. -/
theorem rows6 (h : InRange m) (c : Dev nD) (r : Fin 100000) (d : Fin 256) :
    W13 m h c main_v0 (ValueIdx.ix3 r 0 d) = m ((c.tc : Thread nD τ).loc main_arg0) (ValueIdx.ix2 r d) := by
  rw [W13_v0]; exact rows0 m c r d

/-- Call 6's first table: the first components of pairs 150000 to 174999 of the first list. -/
theorem tbl6_A (h : InRange m) (c : Dev nD) (t : Fin 25000) :
    Call6.tbl (Call6.Vin (W13 m h)) 0 (ValueIdx.ix1 t) = m ((c.tc : Thread nD τ).loc main_arg1) (ValueIdx.ix2 ⟨25000 * 6 + t.val, by omega⟩ 0) := by
  obtain rfl : c = 0 := Subsingleton.elim _ _
  show W13 m h 0 main_v35 (ValueIdx.ix1 t) = _
  have e : (W13 m h 0 main_v35 : S25000.Idx → Elt F .i32) = extractStridedSlice S25000 ![25000 * 6] (W12 m h 0 main_v2) slices_S200000_S25000_150000 := by
    show StableHlo.after hostOps6 _ _ = _; after_results <;> rfl
  rw [e, chunk_apply (25000 * 6) _ _ t (by omega), W12_v2, W1_colA]

/-- Call 6's second table: the second components of pairs 150000 to 174999 of the first list. -/
theorem tbl6_B (h : InRange m) (c : Dev nD) (t : Fin 25000) :
    Call6.tbl (Call6.Vin (W13 m h)) 1 (ValueIdx.ix1 t) = m ((c.tc : Thread nD τ).loc main_arg1) (ValueIdx.ix2 ⟨25000 * 6 + t.val, by omega⟩ 1) := by
  obtain rfl : c = 0 := Subsingleton.elim _ _
  show W13 m h 0 main_v36 (ValueIdx.ix1 t) = _
  have e : (W13 m h 0 main_v36 : S25000.Idx → Elt F .i32) = extractStridedSlice S25000 ![25000 * 6] (W12 m h 0 main_v4) slices_S200000_S25000_150000 := by
    show StableHlo.after hostOps6 _ _ = _; after_results <;> rfl
  rw [e, chunk_apply (25000 * 6) _ _ t (by omega), W12_v4, W1_colB]

/-- The running sum of the first list's calls up to call 5. -/
abbrev pos6 (h : InRange m) (c : Dev nD) : F .f32 := FloatOps.addf (pos5 m h c) (res5 m h c)
theorem W13_sum (h : InRange m) (c : Dev nD) : W13 m h c main_v34 ValueIdx.ix0 = pos6 m h c := by
  have e : (W13 m h c main_v34 : S_.Idx → F .f32) = addf (W12 m h c main_v29) (shapeCast S_ (W12 m h c main_v32) shapeCasts_S1x1_S_) := by
    show StableHlo.after hostOps6 _ _ = _; after_results <;> rfl
  rw [e]; show FloatOps.addf (W12 m h c main_v29 ValueIdx.ix0) (shapeCast S_ (W12 m h c main_v32) shapeCasts_S1x1_S_ ValueIdx.ix0) = _
  rw [scalar_apply, W12_of m h c main_v29 (by decide), W11_sum]

/-- Call 6's tables name rows of the array. -/
theorem ok6 (h : InRange m) : Call6.Ok (Call6.Vin (W13 m h)) :=
  ok6_of_lt _ (fun t => by rw [tbl6_A m h 0 t]; exact (h 0).1 _) (fun t => by rw [tbl6_B m h 0 t]; exact (h 0).1 _)
/-- Exit of call 6. -/
abbrev W14 (h : InRange m) (c : Dev nD) : Valuation τ sig (Elt F) := Call6.Wout (W13 m h) (ok6 m h) c
/-- Call 6 leaves every buffer but its result as it was. -/
theorem W14_of (h : InRange m) (c : Dev nD) (r : Ref sig .tc) (hr : r ≠ main_v37) : W14 m h c r = W13 m h c r := by
  show Function.update _ _ _ _ = _
  exact Function.update_of_ne (StableHlo.devRef_ne_of_ne hr) _ _
/-- Call 6's result is what its write-backs leave. -/
theorem W14_res (h : InRange m) (c : Dev nD) :
    W14 m h c main_v37 = (Call6.dat (Call6.Vin (W13 m h)) (ok6 m h) c).arrAt 2 (Call6.cfgM (Call6.Vin (W13 m h)) (ok6 m h)).N := by
  show Function.update _ _ _ _ = _
  exact Function.update_self _ _ _
/-- Call 6's result, the one entry of its [1,1] array. -/
abbrev res6 (h : InRange m) (c : Dev nD) : F .f32 := W14 m h c main_v37 (ValueIdx.ix2 0 0)
theorem W14_arg0 (h : InRange m) (c : Dev nD) : W14 m h c main_arg0 = m ((c.tc : Thread nD τ).loc main_arg0) := (W14_of m h c main_arg0 (by decide)).trans (W13_arg0 m h c)
theorem W14_arg1 (h : InRange m) (c : Dev nD) : W14 m h c main_arg1 = m ((c.tc : Thread nD τ).loc main_arg1) := (W14_of m h c main_arg1 (by decide)).trans (W13_arg1 m h c)
theorem W14_arg2 (h : InRange m) (c : Dev nD) : W14 m h c main_arg2 = m ((c.tc : Thread nD τ).loc main_arg2) := (W14_of m h c main_arg2 (by decide)).trans (W13_arg2 m h c)
theorem W14_v0 (h : InRange m) (c : Dev nD) : W14 m h c main_v0 = W1 m c main_v0 := (W14_of m h c main_v0 (by decide)).trans (W13_v0 m h c)
theorem W14_v2 (h : InRange m) (c : Dev nD) : W14 m h c main_v2 = W1 m c main_v2 := (W14_of m h c main_v2 (by decide)).trans (W13_v2 m h c)
theorem W14_v4 (h : InRange m) (c : Dev nD) : W14 m h c main_v4 = W1 m c main_v4 := (W14_of m h c main_v4 (by decide)).trans (W13_v4 m h c)

/-! ## Call 7 -/

/-- Entry of call 7: after the host stretch 7. -/
abbrev W15 (h : InRange m) (c : Dev nD) : Valuation τ sig (Elt F) := StableHlo.after hostOps7 (W14 m h c)
/-- The host stretch 7 leaves every buffer it does not write as it was. -/
theorem W15_of (h : InRange m) (c : Dev nD) (r : Ref sig .tc) (hr : r ∉ Regions.hostOps7_W) : W15 m h c r = W14 m h c r :=
  StableHlo.after_of_writes_sub hostOps7 _ Regions.hostOps7_writes hr
theorem W15_arg0 (h : InRange m) (c : Dev nD) : W15 m h c main_arg0 = m ((c.tc : Thread nD τ).loc main_arg0) := (W15_of m h c main_arg0 (by decide)).trans (W14_arg0 m h c)
theorem W15_arg1 (h : InRange m) (c : Dev nD) : W15 m h c main_arg1 = m ((c.tc : Thread nD τ).loc main_arg1) := (W15_of m h c main_arg1 (by decide)).trans (W14_arg1 m h c)
theorem W15_arg2 (h : InRange m) (c : Dev nD) : W15 m h c main_arg2 = m ((c.tc : Thread nD τ).loc main_arg2) := (W15_of m h c main_arg2 (by decide)).trans (W14_arg2 m h c)
theorem W15_v0 (h : InRange m) (c : Dev nD) : W15 m h c main_v0 = W1 m c main_v0 := (W15_of m h c main_v0 (by decide)).trans (W14_v0 m h c)

/-- The array of rows as call 7 finds it. -/
theorem rows7 (h : InRange m) (c : Dev nD) (r : Fin 100000) (d : Fin 256) :
    W15 m h c main_v0 (ValueIdx.ix3 r 0 d) = m ((c.tc : Thread nD τ).loc main_arg0) (ValueIdx.ix2 r d) := by
  rw [W15_v0]; exact rows0 m c r d

/-- Call 7's first table: the first components of pairs 175000 to 199999 of the first list. -/
theorem tbl7_A (h : InRange m) (c : Dev nD) (t : Fin 25000) :
    Call7.tbl (Call7.Vin (W15 m h)) 0 (ValueIdx.ix1 t) = m ((c.tc : Thread nD τ).loc main_arg1) (ValueIdx.ix2 ⟨25000 * 7 + t.val, by omega⟩ 0) := by
  obtain rfl : c = 0 := Subsingleton.elim _ _
  show W15 m h 0 main_v40 (ValueIdx.ix1 t) = _
  have e : (W15 m h 0 main_v40 : S25000.Idx → Elt F .i32) = extractStridedSlice S25000 ![25000 * 7] (W14 m h 0 main_v2) slices_S200000_S25000_175000 := by
    show StableHlo.after hostOps7 _ _ = _; after_results <;> rfl
  rw [e, chunk_apply (25000 * 7) _ _ t (by omega), W14_v2, W1_colA]

/-- Call 7's second table: the second components of pairs 175000 to 199999 of the first list. -/
theorem tbl7_B (h : InRange m) (c : Dev nD) (t : Fin 25000) :
    Call7.tbl (Call7.Vin (W15 m h)) 1 (ValueIdx.ix1 t) = m ((c.tc : Thread nD τ).loc main_arg1) (ValueIdx.ix2 ⟨25000 * 7 + t.val, by omega⟩ 1) := by
  obtain rfl : c = 0 := Subsingleton.elim _ _
  show W15 m h 0 main_v41 (ValueIdx.ix1 t) = _
  have e : (W15 m h 0 main_v41 : S25000.Idx → Elt F .i32) = extractStridedSlice S25000 ![25000 * 7] (W14 m h 0 main_v4) slices_S200000_S25000_175000 := by
    show StableHlo.after hostOps7 _ _ = _; after_results <;> rfl
  rw [e, chunk_apply (25000 * 7) _ _ t (by omega), W14_v4, W1_colB]

/-- The running sum of the first list's calls up to call 6. -/
abbrev pos7 (h : InRange m) (c : Dev nD) : F .f32 := FloatOps.addf (pos6 m h c) (res6 m h c)
theorem W15_sum (h : InRange m) (c : Dev nD) : W15 m h c main_v39 ValueIdx.ix0 = pos7 m h c := by
  have e : (W15 m h c main_v39 : S_.Idx → F .f32) = addf (W14 m h c main_v34) (shapeCast S_ (W14 m h c main_v37) shapeCasts_S1x1_S_) := by
    show StableHlo.after hostOps7 _ _ = _; after_results <;> rfl
  rw [e]; show FloatOps.addf (W14 m h c main_v34 ValueIdx.ix0) (shapeCast S_ (W14 m h c main_v37) shapeCasts_S1x1_S_ ValueIdx.ix0) = _
  rw [scalar_apply, W14_of m h c main_v34 (by decide), W13_sum]

/-- Call 7's tables name rows of the array. -/
theorem ok7 (h : InRange m) : Call7.Ok (Call7.Vin (W15 m h)) :=
  ok7_of_lt _ (fun t => by rw [tbl7_A m h 0 t]; exact (h 0).1 _) (fun t => by rw [tbl7_B m h 0 t]; exact (h 0).1 _)
/-- Exit of call 7. -/
abbrev W16 (h : InRange m) (c : Dev nD) : Valuation τ sig (Elt F) := Call7.Wout (W15 m h) (ok7 m h) c
/-- Call 7 leaves every buffer but its result as it was. -/
theorem W16_of (h : InRange m) (c : Dev nD) (r : Ref sig .tc) (hr : r ≠ main_v42) : W16 m h c r = W15 m h c r := by
  show Function.update _ _ _ _ = _
  exact Function.update_of_ne (StableHlo.devRef_ne_of_ne hr) _ _
/-- Call 7's result is what its write-backs leave. -/
theorem W16_res (h : InRange m) (c : Dev nD) :
    W16 m h c main_v42 = (Call7.dat (Call7.Vin (W15 m h)) (ok7 m h) c).arrAt 2 (Call7.cfgM (Call7.Vin (W15 m h)) (ok7 m h)).N := by
  show Function.update _ _ _ _ = _
  exact Function.update_self _ _ _
/-- Call 7's result, the one entry of its [1,1] array. -/
abbrev res7 (h : InRange m) (c : Dev nD) : F .f32 := W16 m h c main_v42 (ValueIdx.ix2 0 0)
theorem W16_arg0 (h : InRange m) (c : Dev nD) : W16 m h c main_arg0 = m ((c.tc : Thread nD τ).loc main_arg0) := (W16_of m h c main_arg0 (by decide)).trans (W15_arg0 m h c)
theorem W16_arg1 (h : InRange m) (c : Dev nD) : W16 m h c main_arg1 = m ((c.tc : Thread nD τ).loc main_arg1) := (W16_of m h c main_arg1 (by decide)).trans (W15_arg1 m h c)
theorem W16_arg2 (h : InRange m) (c : Dev nD) : W16 m h c main_arg2 = m ((c.tc : Thread nD τ).loc main_arg2) := (W16_of m h c main_arg2 (by decide)).trans (W15_arg2 m h c)
theorem W16_v0 (h : InRange m) (c : Dev nD) : W16 m h c main_v0 = W1 m c main_v0 := (W16_of m h c main_v0 (by decide)).trans (W15_v0 m h c)

/-! ## Call 8 -/

/-- Entry of call 8: after the host stretch 8. -/
abbrev W17 (h : InRange m) (c : Dev nD) : Valuation τ sig (Elt F) := StableHlo.after hostOps8 (W16 m h c)
/-- The host stretch 8 leaves every buffer it does not write as it was. -/
theorem W17_of (h : InRange m) (c : Dev nD) (r : Ref sig .tc) (hr : r ∉ Regions.hostOps8_W) : W17 m h c r = W16 m h c r :=
  StableHlo.after_of_writes_sub hostOps8 _ Regions.hostOps8_writes hr
theorem W17_arg0 (h : InRange m) (c : Dev nD) : W17 m h c main_arg0 = m ((c.tc : Thread nD τ).loc main_arg0) := (W17_of m h c main_arg0 (by decide)).trans (W16_arg0 m h c)
theorem W17_arg1 (h : InRange m) (c : Dev nD) : W17 m h c main_arg1 = m ((c.tc : Thread nD τ).loc main_arg1) := (W17_of m h c main_arg1 (by decide)).trans (W16_arg1 m h c)
theorem W17_arg2 (h : InRange m) (c : Dev nD) : W17 m h c main_arg2 = m ((c.tc : Thread nD τ).loc main_arg2) := (W17_of m h c main_arg2 (by decide)).trans (W16_arg2 m h c)
theorem W17_v0 (h : InRange m) (c : Dev nD) : W17 m h c main_v0 = W1 m c main_v0 := (W17_of m h c main_v0 (by decide)).trans (W16_v0 m h c)

/-- The array of rows as call 8 finds it. -/
theorem rows8 (h : InRange m) (c : Dev nD) (r : Fin 100000) (d : Fin 256) :
    W17 m h c main_v0 (ValueIdx.ix3 r 0 d) = m ((c.tc : Thread nD τ).loc main_arg0) (ValueIdx.ix2 r d) := by
  rw [W17_v0]; exact rows0 m c r d

/-- The second list's first components, as a list of 200000. -/
theorem W17_colA (h : InRange m) (c : Dev nD) (i : Fin 200000) :
    W17 m h c main_v46 (ValueIdx.ix1 i) = m ((c.tc : Thread nD τ).loc main_arg2) (ValueIdx.ix2 i 0) := by
  have e : (W17 m h c main_v46 : S200000.Idx → Elt F .i32) = shapeCast S200000 (extractStridedSlice S200000x1 ![0, 0] (W16 m h c main_arg2) slices_S200000x2_S200000x1_0_0) shapeCasts_S200000x1_S200000 := by
    show StableHlo.after hostOps8 _ _ = _; after_results <;> rfl
  rw [e, W16_arg2]; exact col0_apply _ _ _ i

/-- The second list's second components, as a list of 200000. -/
theorem W17_colB (h : InRange m) (c : Dev nD) (i : Fin 200000) :
    W17 m h c main_v48 (ValueIdx.ix1 i) = m ((c.tc : Thread nD τ).loc main_arg2) (ValueIdx.ix2 i 1) := by
  have e : (W17 m h c main_v48 : S200000.Idx → Elt F .i32) = shapeCast S200000 (extractStridedSlice S200000x1 ![0, 1] (W16 m h c main_arg2) slices_S200000x2_S200000x1_0_1) shapeCasts_S200000x1_S200000 := by
    show StableHlo.after hostOps8 _ _ = _; after_results <;> rfl
  rw [e, W16_arg2]; exact col1_apply _ _ _ i

/-- Call 8's first table: the first components of pairs 0 to 24999 of the second list. -/
theorem tbl8_A (h : InRange m) (c : Dev nD) (t : Fin 25000) :
    Call8.tbl (Call8.Vin (W17 m h)) 0 (ValueIdx.ix1 t) = m ((c.tc : Thread nD τ).loc main_arg2) (ValueIdx.ix2 ⟨25000 * 0 + t.val, by omega⟩ 0) := by
  obtain rfl : c = 0 := Subsingleton.elim _ _
  show W17 m h 0 main_v49 (ValueIdx.ix1 t) = _
  have e : (W17 m h 0 main_v49 : S25000.Idx → Elt F .i32) = extractStridedSlice S25000 ![25000 * 0] (shapeCast S200000 (extractStridedSlice S200000x1 ![0, 0] (W16 m h 0 main_arg2) slices_S200000x2_S200000x1_0_0) shapeCasts_S200000x1_S200000) slices_S200000_S25000_0 := by
    show StableHlo.after hostOps8 _ _ = _; after_results <;> rfl
  rw [e, chunk_apply (25000 * 0) _ _ t (by omega), W16_arg2, col0_apply]

/-- Call 8's second table: the second components of pairs 0 to 24999 of the second list. -/
theorem tbl8_B (h : InRange m) (c : Dev nD) (t : Fin 25000) :
    Call8.tbl (Call8.Vin (W17 m h)) 1 (ValueIdx.ix1 t) = m ((c.tc : Thread nD τ).loc main_arg2) (ValueIdx.ix2 ⟨25000 * 0 + t.val, by omega⟩ 1) := by
  obtain rfl : c = 0 := Subsingleton.elim _ _
  show W17 m h 0 main_v50 (ValueIdx.ix1 t) = _
  have e : (W17 m h 0 main_v50 : S25000.Idx → Elt F .i32) = extractStridedSlice S25000 ![25000 * 0] (shapeCast S200000 (extractStridedSlice S200000x1 ![0, 1] (W16 m h 0 main_arg2) slices_S200000x2_S200000x1_0_1) shapeCasts_S200000x1_S200000) slices_S200000_S25000_0 := by
    show StableHlo.after hostOps8 _ _ = _; after_results <;> rfl
  rw [e, chunk_apply (25000 * 0) _ _ t (by omega), W16_arg2, col1_apply]

/-- The running sum of the first list's calls up to call 7. -/
abbrev pos8 (h : InRange m) (c : Dev nD) : F .f32 := FloatOps.addf (pos7 m h c) (res7 m h c)
theorem W17_sum (h : InRange m) (c : Dev nD) : W17 m h c main_v44 ValueIdx.ix0 = pos8 m h c := by
  have e : (W17 m h c main_v44 : S_.Idx → F .f32) = addf (W16 m h c main_v39) (shapeCast S_ (W16 m h c main_v42) shapeCasts_S1x1_S_) := by
    show StableHlo.after hostOps8 _ _ = _; after_results <;> rfl
  rw [e]; show FloatOps.addf (W16 m h c main_v39 ValueIdx.ix0) (shapeCast S_ (W16 m h c main_v42) shapeCasts_S1x1_S_ ValueIdx.ix0) = _
  rw [scalar_apply, W16_of m h c main_v39 (by decide), W15_sum]

/-- Call 8's tables name rows of the array. -/
theorem ok8 (h : InRange m) : Call8.Ok (Call8.Vin (W17 m h)) :=
  ok8_of_lt _ (fun t => by rw [tbl8_A m h 0 t]; exact (h 0).2 _) (fun t => by rw [tbl8_B m h 0 t]; exact (h 0).2 _)
/-- Exit of call 8. -/
abbrev W18 (h : InRange m) (c : Dev nD) : Valuation τ sig (Elt F) := Call8.Wout (W17 m h) (ok8 m h) c
/-- Call 8 leaves every buffer but its result as it was. -/
theorem W18_of (h : InRange m) (c : Dev nD) (r : Ref sig .tc) (hr : r ≠ main_v51) : W18 m h c r = W17 m h c r := by
  show Function.update _ _ _ _ = _
  exact Function.update_of_ne (StableHlo.devRef_ne_of_ne hr) _ _
/-- Call 8's result is what its write-backs leave. -/
theorem W18_res (h : InRange m) (c : Dev nD) :
    W18 m h c main_v51 = (Call8.dat (Call8.Vin (W17 m h)) (ok8 m h) c).arrAt 2 (Call8.cfgM (Call8.Vin (W17 m h)) (ok8 m h)).N := by
  show Function.update _ _ _ _ = _
  exact Function.update_self _ _ _
/-- Call 8's result, the one entry of its [1,1] array. -/
abbrev res8 (h : InRange m) (c : Dev nD) : F .f32 := W18 m h c main_v51 (ValueIdx.ix2 0 0)
theorem W18_arg0 (h : InRange m) (c : Dev nD) : W18 m h c main_arg0 = m ((c.tc : Thread nD τ).loc main_arg0) := (W18_of m h c main_arg0 (by decide)).trans (W17_arg0 m h c)
theorem W18_arg1 (h : InRange m) (c : Dev nD) : W18 m h c main_arg1 = m ((c.tc : Thread nD τ).loc main_arg1) := (W18_of m h c main_arg1 (by decide)).trans (W17_arg1 m h c)
theorem W18_arg2 (h : InRange m) (c : Dev nD) : W18 m h c main_arg2 = m ((c.tc : Thread nD τ).loc main_arg2) := (W18_of m h c main_arg2 (by decide)).trans (W17_arg2 m h c)
theorem W18_v0 (h : InRange m) (c : Dev nD) : W18 m h c main_v0 = W1 m c main_v0 := (W18_of m h c main_v0 (by decide)).trans (W17_v0 m h c)
theorem W18_v46 (h : InRange m) (c : Dev nD) : W18 m h c main_v46 = W17 m h c main_v46 := W18_of m h c main_v46 (by decide)
theorem W18_v48 (h : InRange m) (c : Dev nD) : W18 m h c main_v48 = W17 m h c main_v48 := W18_of m h c main_v48 (by decide)
theorem W18_v44 (h : InRange m) (c : Dev nD) : W18 m h c main_v44 = W17 m h c main_v44 := W18_of m h c main_v44 (by decide)

/-! ## Call 9 -/

/-- Entry of call 9: after the host stretch 9. -/
abbrev W19 (h : InRange m) (c : Dev nD) : Valuation τ sig (Elt F) := StableHlo.after hostOps9 (W18 m h c)
/-- The host stretch 9 leaves every buffer it does not write as it was. -/
theorem W19_of (h : InRange m) (c : Dev nD) (r : Ref sig .tc) (hr : r ∉ Regions.hostOps9_W) : W19 m h c r = W18 m h c r :=
  StableHlo.after_of_writes_sub hostOps9 _ Regions.hostOps9_writes hr
theorem W19_arg0 (h : InRange m) (c : Dev nD) : W19 m h c main_arg0 = m ((c.tc : Thread nD τ).loc main_arg0) := (W19_of m h c main_arg0 (by decide)).trans (W18_arg0 m h c)
theorem W19_arg1 (h : InRange m) (c : Dev nD) : W19 m h c main_arg1 = m ((c.tc : Thread nD τ).loc main_arg1) := (W19_of m h c main_arg1 (by decide)).trans (W18_arg1 m h c)
theorem W19_arg2 (h : InRange m) (c : Dev nD) : W19 m h c main_arg2 = m ((c.tc : Thread nD τ).loc main_arg2) := (W19_of m h c main_arg2 (by decide)).trans (W18_arg2 m h c)
theorem W19_v0 (h : InRange m) (c : Dev nD) : W19 m h c main_v0 = W1 m c main_v0 := (W19_of m h c main_v0 (by decide)).trans (W18_v0 m h c)
theorem W19_v46 (h : InRange m) (c : Dev nD) : W19 m h c main_v46 = W17 m h c main_v46 := (W19_of m h c main_v46 (by decide)).trans (W18_v46 m h c)
theorem W19_v48 (h : InRange m) (c : Dev nD) : W19 m h c main_v48 = W17 m h c main_v48 := (W19_of m h c main_v48 (by decide)).trans (W18_v48 m h c)
theorem W19_v44 (h : InRange m) (c : Dev nD) : W19 m h c main_v44 = W17 m h c main_v44 := (W19_of m h c main_v44 (by decide)).trans (W18_v44 m h c)

/-- The array of rows as call 9 finds it. -/
theorem rows9 (h : InRange m) (c : Dev nD) (r : Fin 100000) (d : Fin 256) :
    W19 m h c main_v0 (ValueIdx.ix3 r 0 d) = m ((c.tc : Thread nD τ).loc main_arg0) (ValueIdx.ix2 r d) := by
  rw [W19_v0]; exact rows0 m c r d

/-- Call 9's first table: the first components of pairs 25000 to 49999 of the second list. -/
theorem tbl9_A (h : InRange m) (c : Dev nD) (t : Fin 25000) :
    Call9.tbl (Call9.Vin (W19 m h)) 0 (ValueIdx.ix1 t) = m ((c.tc : Thread nD τ).loc main_arg2) (ValueIdx.ix2 ⟨25000 * 1 + t.val, by omega⟩ 0) := by
  obtain rfl : c = 0 := Subsingleton.elim _ _
  show W19 m h 0 main_v54 (ValueIdx.ix1 t) = _
  have e : (W19 m h 0 main_v54 : S25000.Idx → Elt F .i32) = extractStridedSlice S25000 ![25000 * 1] (W18 m h 0 main_v46) slices_S200000_S25000_25000 := by
    show StableHlo.after hostOps9 _ _ = _; after_results <;> rfl
  rw [e, chunk_apply (25000 * 1) _ _ t (by omega), W18_v46, W17_colA]

/-- Call 9's second table: the second components of pairs 25000 to 49999 of the second list. -/
theorem tbl9_B (h : InRange m) (c : Dev nD) (t : Fin 25000) :
    Call9.tbl (Call9.Vin (W19 m h)) 1 (ValueIdx.ix1 t) = m ((c.tc : Thread nD τ).loc main_arg2) (ValueIdx.ix2 ⟨25000 * 1 + t.val, by omega⟩ 1) := by
  obtain rfl : c = 0 := Subsingleton.elim _ _
  show W19 m h 0 main_v55 (ValueIdx.ix1 t) = _
  have e : (W19 m h 0 main_v55 : S25000.Idx → Elt F .i32) = extractStridedSlice S25000 ![25000 * 1] (W18 m h 0 main_v48) slices_S200000_S25000_25000 := by
    show StableHlo.after hostOps9 _ _ = _; after_results <;> rfl
  rw [e, chunk_apply (25000 * 1) _ _ t (by omega), W18_v48, W17_colB]

/-- The running sum of the second list's calls up to call 8. -/
abbrev neg1 (h : InRange m) (c : Dev nD) : F .f32 := FloatOps.addf (FloatOps.ofBits .f32 0x00000000#32) (res8 m h c)
theorem W19_sum (h : InRange m) (c : Dev nD) : W19 m h c main_v53 ValueIdx.ix0 = neg1 m h c := by
  have e : (W19 m h c main_v53 : S_.Idx → F .f32) = addf (constant S_ .f32 0x00000000#32) (shapeCast S_ (W18 m h c main_v51) shapeCasts_S1x1_S_) := by
    show StableHlo.after hostOps9 _ _ = _; after_results <;> rfl
  rw [e]; show FloatOps.addf _ (shapeCast S_ (W18 m h c main_v51) shapeCasts_S1x1_S_ ValueIdx.ix0) = _
  rw [scalar_apply]; rfl

/-- Call 9's tables name rows of the array. -/
theorem ok9 (h : InRange m) : Call9.Ok (Call9.Vin (W19 m h)) :=
  ok9_of_lt _ (fun t => by rw [tbl9_A m h 0 t]; exact (h 0).2 _) (fun t => by rw [tbl9_B m h 0 t]; exact (h 0).2 _)
/-- Exit of call 9. -/
abbrev W20 (h : InRange m) (c : Dev nD) : Valuation τ sig (Elt F) := Call9.Wout (W19 m h) (ok9 m h) c
/-- Call 9 leaves every buffer but its result as it was. -/
theorem W20_of (h : InRange m) (c : Dev nD) (r : Ref sig .tc) (hr : r ≠ main_v56) : W20 m h c r = W19 m h c r := by
  show Function.update _ _ _ _ = _
  exact Function.update_of_ne (StableHlo.devRef_ne_of_ne hr) _ _
/-- Call 9's result is what its write-backs leave. -/
theorem W20_res (h : InRange m) (c : Dev nD) :
    W20 m h c main_v56 = (Call9.dat (Call9.Vin (W19 m h)) (ok9 m h) c).arrAt 2 (Call9.cfgM (Call9.Vin (W19 m h)) (ok9 m h)).N := by
  show Function.update _ _ _ _ = _
  exact Function.update_self _ _ _
/-- Call 9's result, the one entry of its [1,1] array. -/
abbrev res9 (h : InRange m) (c : Dev nD) : F .f32 := W20 m h c main_v56 (ValueIdx.ix2 0 0)
theorem W20_arg0 (h : InRange m) (c : Dev nD) : W20 m h c main_arg0 = m ((c.tc : Thread nD τ).loc main_arg0) := (W20_of m h c main_arg0 (by decide)).trans (W19_arg0 m h c)
theorem W20_arg1 (h : InRange m) (c : Dev nD) : W20 m h c main_arg1 = m ((c.tc : Thread nD τ).loc main_arg1) := (W20_of m h c main_arg1 (by decide)).trans (W19_arg1 m h c)
theorem W20_arg2 (h : InRange m) (c : Dev nD) : W20 m h c main_arg2 = m ((c.tc : Thread nD τ).loc main_arg2) := (W20_of m h c main_arg2 (by decide)).trans (W19_arg2 m h c)
theorem W20_v0 (h : InRange m) (c : Dev nD) : W20 m h c main_v0 = W1 m c main_v0 := (W20_of m h c main_v0 (by decide)).trans (W19_v0 m h c)
theorem W20_v46 (h : InRange m) (c : Dev nD) : W20 m h c main_v46 = W17 m h c main_v46 := (W20_of m h c main_v46 (by decide)).trans (W19_v46 m h c)
theorem W20_v48 (h : InRange m) (c : Dev nD) : W20 m h c main_v48 = W17 m h c main_v48 := (W20_of m h c main_v48 (by decide)).trans (W19_v48 m h c)
theorem W20_v44 (h : InRange m) (c : Dev nD) : W20 m h c main_v44 = W17 m h c main_v44 := (W20_of m h c main_v44 (by decide)).trans (W19_v44 m h c)

/-! ## Call 10 -/

/-- Entry of call 10: after the host stretch 10. -/
abbrev W21 (h : InRange m) (c : Dev nD) : Valuation τ sig (Elt F) := StableHlo.after hostOps10 (W20 m h c)
/-- The host stretch 10 leaves every buffer it does not write as it was. -/
theorem W21_of (h : InRange m) (c : Dev nD) (r : Ref sig .tc) (hr : r ∉ Regions.hostOps10_W) : W21 m h c r = W20 m h c r :=
  StableHlo.after_of_writes_sub hostOps10 _ Regions.hostOps10_writes hr
theorem W21_arg0 (h : InRange m) (c : Dev nD) : W21 m h c main_arg0 = m ((c.tc : Thread nD τ).loc main_arg0) := (W21_of m h c main_arg0 (by decide)).trans (W20_arg0 m h c)
theorem W21_arg1 (h : InRange m) (c : Dev nD) : W21 m h c main_arg1 = m ((c.tc : Thread nD τ).loc main_arg1) := (W21_of m h c main_arg1 (by decide)).trans (W20_arg1 m h c)
theorem W21_arg2 (h : InRange m) (c : Dev nD) : W21 m h c main_arg2 = m ((c.tc : Thread nD τ).loc main_arg2) := (W21_of m h c main_arg2 (by decide)).trans (W20_arg2 m h c)
theorem W21_v0 (h : InRange m) (c : Dev nD) : W21 m h c main_v0 = W1 m c main_v0 := (W21_of m h c main_v0 (by decide)).trans (W20_v0 m h c)
theorem W21_v46 (h : InRange m) (c : Dev nD) : W21 m h c main_v46 = W17 m h c main_v46 := (W21_of m h c main_v46 (by decide)).trans (W20_v46 m h c)
theorem W21_v48 (h : InRange m) (c : Dev nD) : W21 m h c main_v48 = W17 m h c main_v48 := (W21_of m h c main_v48 (by decide)).trans (W20_v48 m h c)
theorem W21_v44 (h : InRange m) (c : Dev nD) : W21 m h c main_v44 = W17 m h c main_v44 := (W21_of m h c main_v44 (by decide)).trans (W20_v44 m h c)

/-- The array of rows as call 10 finds it. -/
theorem rows10 (h : InRange m) (c : Dev nD) (r : Fin 100000) (d : Fin 256) :
    W21 m h c main_v0 (ValueIdx.ix3 r 0 d) = m ((c.tc : Thread nD τ).loc main_arg0) (ValueIdx.ix2 r d) := by
  rw [W21_v0]; exact rows0 m c r d

/-- Call 10's first table: the first components of pairs 50000 to 74999 of the second list. -/
theorem tbl10_A (h : InRange m) (c : Dev nD) (t : Fin 25000) :
    Call10.tbl (Call10.Vin (W21 m h)) 0 (ValueIdx.ix1 t) = m ((c.tc : Thread nD τ).loc main_arg2) (ValueIdx.ix2 ⟨25000 * 2 + t.val, by omega⟩ 0) := by
  obtain rfl : c = 0 := Subsingleton.elim _ _
  show W21 m h 0 main_v59 (ValueIdx.ix1 t) = _
  have e : (W21 m h 0 main_v59 : S25000.Idx → Elt F .i32) = extractStridedSlice S25000 ![25000 * 2] (W20 m h 0 main_v46) slices_S200000_S25000_50000 := by
    show StableHlo.after hostOps10 _ _ = _; after_results <;> rfl
  rw [e, chunk_apply (25000 * 2) _ _ t (by omega), W20_v46, W17_colA]

/-- Call 10's second table: the second components of pairs 50000 to 74999 of the second list. -/
theorem tbl10_B (h : InRange m) (c : Dev nD) (t : Fin 25000) :
    Call10.tbl (Call10.Vin (W21 m h)) 1 (ValueIdx.ix1 t) = m ((c.tc : Thread nD τ).loc main_arg2) (ValueIdx.ix2 ⟨25000 * 2 + t.val, by omega⟩ 1) := by
  obtain rfl : c = 0 := Subsingleton.elim _ _
  show W21 m h 0 main_v60 (ValueIdx.ix1 t) = _
  have e : (W21 m h 0 main_v60 : S25000.Idx → Elt F .i32) = extractStridedSlice S25000 ![25000 * 2] (W20 m h 0 main_v48) slices_S200000_S25000_50000 := by
    show StableHlo.after hostOps10 _ _ = _; after_results <;> rfl
  rw [e, chunk_apply (25000 * 2) _ _ t (by omega), W20_v48, W17_colB]

/-- The running sum of the second list's calls up to call 9. -/
abbrev neg2 (h : InRange m) (c : Dev nD) : F .f32 := FloatOps.addf (neg1 m h c) (res9 m h c)
theorem W21_sum (h : InRange m) (c : Dev nD) : W21 m h c main_v58 ValueIdx.ix0 = neg2 m h c := by
  have e : (W21 m h c main_v58 : S_.Idx → F .f32) = addf (W20 m h c main_v53) (shapeCast S_ (W20 m h c main_v56) shapeCasts_S1x1_S_) := by
    show StableHlo.after hostOps10 _ _ = _; after_results <;> rfl
  rw [e]; show FloatOps.addf (W20 m h c main_v53 ValueIdx.ix0) (shapeCast S_ (W20 m h c main_v56) shapeCasts_S1x1_S_ ValueIdx.ix0) = _
  rw [scalar_apply, W20_of m h c main_v53 (by decide), W19_sum]

/-- Call 10's tables name rows of the array. -/
theorem ok10 (h : InRange m) : Call10.Ok (Call10.Vin (W21 m h)) :=
  ok10_of_lt _ (fun t => by rw [tbl10_A m h 0 t]; exact (h 0).2 _) (fun t => by rw [tbl10_B m h 0 t]; exact (h 0).2 _)
/-- Exit of call 10. -/
abbrev W22 (h : InRange m) (c : Dev nD) : Valuation τ sig (Elt F) := Call10.Wout (W21 m h) (ok10 m h) c
/-- Call 10 leaves every buffer but its result as it was. -/
theorem W22_of (h : InRange m) (c : Dev nD) (r : Ref sig .tc) (hr : r ≠ main_v61) : W22 m h c r = W21 m h c r := by
  show Function.update _ _ _ _ = _
  exact Function.update_of_ne (StableHlo.devRef_ne_of_ne hr) _ _
/-- Call 10's result is what its write-backs leave. -/
theorem W22_res (h : InRange m) (c : Dev nD) :
    W22 m h c main_v61 = (Call10.dat (Call10.Vin (W21 m h)) (ok10 m h) c).arrAt 2 (Call10.cfgM (Call10.Vin (W21 m h)) (ok10 m h)).N := by
  show Function.update _ _ _ _ = _
  exact Function.update_self _ _ _
/-- Call 10's result, the one entry of its [1,1] array. -/
abbrev res10 (h : InRange m) (c : Dev nD) : F .f32 := W22 m h c main_v61 (ValueIdx.ix2 0 0)
theorem W22_arg0 (h : InRange m) (c : Dev nD) : W22 m h c main_arg0 = m ((c.tc : Thread nD τ).loc main_arg0) := (W22_of m h c main_arg0 (by decide)).trans (W21_arg0 m h c)
theorem W22_arg1 (h : InRange m) (c : Dev nD) : W22 m h c main_arg1 = m ((c.tc : Thread nD τ).loc main_arg1) := (W22_of m h c main_arg1 (by decide)).trans (W21_arg1 m h c)
theorem W22_arg2 (h : InRange m) (c : Dev nD) : W22 m h c main_arg2 = m ((c.tc : Thread nD τ).loc main_arg2) := (W22_of m h c main_arg2 (by decide)).trans (W21_arg2 m h c)
theorem W22_v0 (h : InRange m) (c : Dev nD) : W22 m h c main_v0 = W1 m c main_v0 := (W22_of m h c main_v0 (by decide)).trans (W21_v0 m h c)
theorem W22_v46 (h : InRange m) (c : Dev nD) : W22 m h c main_v46 = W17 m h c main_v46 := (W22_of m h c main_v46 (by decide)).trans (W21_v46 m h c)
theorem W22_v48 (h : InRange m) (c : Dev nD) : W22 m h c main_v48 = W17 m h c main_v48 := (W22_of m h c main_v48 (by decide)).trans (W21_v48 m h c)
theorem W22_v44 (h : InRange m) (c : Dev nD) : W22 m h c main_v44 = W17 m h c main_v44 := (W22_of m h c main_v44 (by decide)).trans (W21_v44 m h c)

/-! ## Call 11 -/

/-- Entry of call 11: after the host stretch 11. -/
abbrev W23 (h : InRange m) (c : Dev nD) : Valuation τ sig (Elt F) := StableHlo.after hostOps11 (W22 m h c)
/-- The host stretch 11 leaves every buffer it does not write as it was. -/
theorem W23_of (h : InRange m) (c : Dev nD) (r : Ref sig .tc) (hr : r ∉ Regions.hostOps11_W) : W23 m h c r = W22 m h c r :=
  StableHlo.after_of_writes_sub hostOps11 _ Regions.hostOps11_writes hr
theorem W23_arg0 (h : InRange m) (c : Dev nD) : W23 m h c main_arg0 = m ((c.tc : Thread nD τ).loc main_arg0) := (W23_of m h c main_arg0 (by decide)).trans (W22_arg0 m h c)
theorem W23_arg1 (h : InRange m) (c : Dev nD) : W23 m h c main_arg1 = m ((c.tc : Thread nD τ).loc main_arg1) := (W23_of m h c main_arg1 (by decide)).trans (W22_arg1 m h c)
theorem W23_arg2 (h : InRange m) (c : Dev nD) : W23 m h c main_arg2 = m ((c.tc : Thread nD τ).loc main_arg2) := (W23_of m h c main_arg2 (by decide)).trans (W22_arg2 m h c)
theorem W23_v0 (h : InRange m) (c : Dev nD) : W23 m h c main_v0 = W1 m c main_v0 := (W23_of m h c main_v0 (by decide)).trans (W22_v0 m h c)
theorem W23_v46 (h : InRange m) (c : Dev nD) : W23 m h c main_v46 = W17 m h c main_v46 := (W23_of m h c main_v46 (by decide)).trans (W22_v46 m h c)
theorem W23_v48 (h : InRange m) (c : Dev nD) : W23 m h c main_v48 = W17 m h c main_v48 := (W23_of m h c main_v48 (by decide)).trans (W22_v48 m h c)
theorem W23_v44 (h : InRange m) (c : Dev nD) : W23 m h c main_v44 = W17 m h c main_v44 := (W23_of m h c main_v44 (by decide)).trans (W22_v44 m h c)

/-- The array of rows as call 11 finds it. -/
theorem rows11 (h : InRange m) (c : Dev nD) (r : Fin 100000) (d : Fin 256) :
    W23 m h c main_v0 (ValueIdx.ix3 r 0 d) = m ((c.tc : Thread nD τ).loc main_arg0) (ValueIdx.ix2 r d) := by
  rw [W23_v0]; exact rows0 m c r d

/-- Call 11's first table: the first components of pairs 75000 to 99999 of the second list. -/
theorem tbl11_A (h : InRange m) (c : Dev nD) (t : Fin 25000) :
    Call11.tbl (Call11.Vin (W23 m h)) 0 (ValueIdx.ix1 t) = m ((c.tc : Thread nD τ).loc main_arg2) (ValueIdx.ix2 ⟨25000 * 3 + t.val, by omega⟩ 0) := by
  obtain rfl : c = 0 := Subsingleton.elim _ _
  show W23 m h 0 main_v64 (ValueIdx.ix1 t) = _
  have e : (W23 m h 0 main_v64 : S25000.Idx → Elt F .i32) = extractStridedSlice S25000 ![25000 * 3] (W22 m h 0 main_v46) slices_S200000_S25000_75000 := by
    show StableHlo.after hostOps11 _ _ = _; after_results <;> rfl
  rw [e, chunk_apply (25000 * 3) _ _ t (by omega), W22_v46, W17_colA]

/-- Call 11's second table: the second components of pairs 75000 to 99999 of the second list. -/
theorem tbl11_B (h : InRange m) (c : Dev nD) (t : Fin 25000) :
    Call11.tbl (Call11.Vin (W23 m h)) 1 (ValueIdx.ix1 t) = m ((c.tc : Thread nD τ).loc main_arg2) (ValueIdx.ix2 ⟨25000 * 3 + t.val, by omega⟩ 1) := by
  obtain rfl : c = 0 := Subsingleton.elim _ _
  show W23 m h 0 main_v65 (ValueIdx.ix1 t) = _
  have e : (W23 m h 0 main_v65 : S25000.Idx → Elt F .i32) = extractStridedSlice S25000 ![25000 * 3] (W22 m h 0 main_v48) slices_S200000_S25000_75000 := by
    show StableHlo.after hostOps11 _ _ = _; after_results <;> rfl
  rw [e, chunk_apply (25000 * 3) _ _ t (by omega), W22_v48, W17_colB]

/-- The running sum of the second list's calls up to call 10. -/
abbrev neg3 (h : InRange m) (c : Dev nD) : F .f32 := FloatOps.addf (neg2 m h c) (res10 m h c)
theorem W23_sum (h : InRange m) (c : Dev nD) : W23 m h c main_v63 ValueIdx.ix0 = neg3 m h c := by
  have e : (W23 m h c main_v63 : S_.Idx → F .f32) = addf (W22 m h c main_v58) (shapeCast S_ (W22 m h c main_v61) shapeCasts_S1x1_S_) := by
    show StableHlo.after hostOps11 _ _ = _; after_results <;> rfl
  rw [e]; show FloatOps.addf (W22 m h c main_v58 ValueIdx.ix0) (shapeCast S_ (W22 m h c main_v61) shapeCasts_S1x1_S_ ValueIdx.ix0) = _
  rw [scalar_apply, W22_of m h c main_v58 (by decide), W21_sum]

/-- Call 11's tables name rows of the array. -/
theorem ok11 (h : InRange m) : Call11.Ok (Call11.Vin (W23 m h)) :=
  ok11_of_lt _ (fun t => by rw [tbl11_A m h 0 t]; exact (h 0).2 _) (fun t => by rw [tbl11_B m h 0 t]; exact (h 0).2 _)
/-- Exit of call 11. -/
abbrev W24 (h : InRange m) (c : Dev nD) : Valuation τ sig (Elt F) := Call11.Wout (W23 m h) (ok11 m h) c
/-- Call 11 leaves every buffer but its result as it was. -/
theorem W24_of (h : InRange m) (c : Dev nD) (r : Ref sig .tc) (hr : r ≠ main_v66) : W24 m h c r = W23 m h c r := by
  show Function.update _ _ _ _ = _
  exact Function.update_of_ne (StableHlo.devRef_ne_of_ne hr) _ _
/-- Call 11's result is what its write-backs leave. -/
theorem W24_res (h : InRange m) (c : Dev nD) :
    W24 m h c main_v66 = (Call11.dat (Call11.Vin (W23 m h)) (ok11 m h) c).arrAt 2 (Call11.cfgM (Call11.Vin (W23 m h)) (ok11 m h)).N := by
  show Function.update _ _ _ _ = _
  exact Function.update_self _ _ _
/-- Call 11's result, the one entry of its [1,1] array. -/
abbrev res11 (h : InRange m) (c : Dev nD) : F .f32 := W24 m h c main_v66 (ValueIdx.ix2 0 0)
theorem W24_arg0 (h : InRange m) (c : Dev nD) : W24 m h c main_arg0 = m ((c.tc : Thread nD τ).loc main_arg0) := (W24_of m h c main_arg0 (by decide)).trans (W23_arg0 m h c)
theorem W24_arg1 (h : InRange m) (c : Dev nD) : W24 m h c main_arg1 = m ((c.tc : Thread nD τ).loc main_arg1) := (W24_of m h c main_arg1 (by decide)).trans (W23_arg1 m h c)
theorem W24_arg2 (h : InRange m) (c : Dev nD) : W24 m h c main_arg2 = m ((c.tc : Thread nD τ).loc main_arg2) := (W24_of m h c main_arg2 (by decide)).trans (W23_arg2 m h c)
theorem W24_v0 (h : InRange m) (c : Dev nD) : W24 m h c main_v0 = W1 m c main_v0 := (W24_of m h c main_v0 (by decide)).trans (W23_v0 m h c)
theorem W24_v46 (h : InRange m) (c : Dev nD) : W24 m h c main_v46 = W17 m h c main_v46 := (W24_of m h c main_v46 (by decide)).trans (W23_v46 m h c)
theorem W24_v48 (h : InRange m) (c : Dev nD) : W24 m h c main_v48 = W17 m h c main_v48 := (W24_of m h c main_v48 (by decide)).trans (W23_v48 m h c)
theorem W24_v44 (h : InRange m) (c : Dev nD) : W24 m h c main_v44 = W17 m h c main_v44 := (W24_of m h c main_v44 (by decide)).trans (W23_v44 m h c)

/-! ## Call 12 -/

/-- Entry of call 12: after the host stretch 12. -/
abbrev W25 (h : InRange m) (c : Dev nD) : Valuation τ sig (Elt F) := StableHlo.after hostOps12 (W24 m h c)
/-- The host stretch 12 leaves every buffer it does not write as it was. -/
theorem W25_of (h : InRange m) (c : Dev nD) (r : Ref sig .tc) (hr : r ∉ Regions.hostOps12_W) : W25 m h c r = W24 m h c r :=
  StableHlo.after_of_writes_sub hostOps12 _ Regions.hostOps12_writes hr
theorem W25_arg0 (h : InRange m) (c : Dev nD) : W25 m h c main_arg0 = m ((c.tc : Thread nD τ).loc main_arg0) := (W25_of m h c main_arg0 (by decide)).trans (W24_arg0 m h c)
theorem W25_arg1 (h : InRange m) (c : Dev nD) : W25 m h c main_arg1 = m ((c.tc : Thread nD τ).loc main_arg1) := (W25_of m h c main_arg1 (by decide)).trans (W24_arg1 m h c)
theorem W25_arg2 (h : InRange m) (c : Dev nD) : W25 m h c main_arg2 = m ((c.tc : Thread nD τ).loc main_arg2) := (W25_of m h c main_arg2 (by decide)).trans (W24_arg2 m h c)
theorem W25_v0 (h : InRange m) (c : Dev nD) : W25 m h c main_v0 = W1 m c main_v0 := (W25_of m h c main_v0 (by decide)).trans (W24_v0 m h c)
theorem W25_v46 (h : InRange m) (c : Dev nD) : W25 m h c main_v46 = W17 m h c main_v46 := (W25_of m h c main_v46 (by decide)).trans (W24_v46 m h c)
theorem W25_v48 (h : InRange m) (c : Dev nD) : W25 m h c main_v48 = W17 m h c main_v48 := (W25_of m h c main_v48 (by decide)).trans (W24_v48 m h c)
theorem W25_v44 (h : InRange m) (c : Dev nD) : W25 m h c main_v44 = W17 m h c main_v44 := (W25_of m h c main_v44 (by decide)).trans (W24_v44 m h c)

/-- The array of rows as call 12 finds it. -/
theorem rows12 (h : InRange m) (c : Dev nD) (r : Fin 100000) (d : Fin 256) :
    W25 m h c main_v0 (ValueIdx.ix3 r 0 d) = m ((c.tc : Thread nD τ).loc main_arg0) (ValueIdx.ix2 r d) := by
  rw [W25_v0]; exact rows0 m c r d

/-- Call 12's first table: the first components of pairs 100000 to 124999 of the second list. -/
theorem tbl12_A (h : InRange m) (c : Dev nD) (t : Fin 25000) :
    Call12.tbl (Call12.Vin (W25 m h)) 0 (ValueIdx.ix1 t) = m ((c.tc : Thread nD τ).loc main_arg2) (ValueIdx.ix2 ⟨25000 * 4 + t.val, by omega⟩ 0) := by
  obtain rfl : c = 0 := Subsingleton.elim _ _
  show W25 m h 0 main_v69 (ValueIdx.ix1 t) = _
  have e : (W25 m h 0 main_v69 : S25000.Idx → Elt F .i32) = extractStridedSlice S25000 ![25000 * 4] (W24 m h 0 main_v46) slices_S200000_S25000_100000 := by
    show StableHlo.after hostOps12 _ _ = _; after_results <;> rfl
  rw [e, chunk_apply (25000 * 4) _ _ t (by omega), W24_v46, W17_colA]

/-- Call 12's second table: the second components of pairs 100000 to 124999 of the second list. -/
theorem tbl12_B (h : InRange m) (c : Dev nD) (t : Fin 25000) :
    Call12.tbl (Call12.Vin (W25 m h)) 1 (ValueIdx.ix1 t) = m ((c.tc : Thread nD τ).loc main_arg2) (ValueIdx.ix2 ⟨25000 * 4 + t.val, by omega⟩ 1) := by
  obtain rfl : c = 0 := Subsingleton.elim _ _
  show W25 m h 0 main_v70 (ValueIdx.ix1 t) = _
  have e : (W25 m h 0 main_v70 : S25000.Idx → Elt F .i32) = extractStridedSlice S25000 ![25000 * 4] (W24 m h 0 main_v48) slices_S200000_S25000_100000 := by
    show StableHlo.after hostOps12 _ _ = _; after_results <;> rfl
  rw [e, chunk_apply (25000 * 4) _ _ t (by omega), W24_v48, W17_colB]

/-- The running sum of the second list's calls up to call 11. -/
abbrev neg4 (h : InRange m) (c : Dev nD) : F .f32 := FloatOps.addf (neg3 m h c) (res11 m h c)
theorem W25_sum (h : InRange m) (c : Dev nD) : W25 m h c main_v68 ValueIdx.ix0 = neg4 m h c := by
  have e : (W25 m h c main_v68 : S_.Idx → F .f32) = addf (W24 m h c main_v63) (shapeCast S_ (W24 m h c main_v66) shapeCasts_S1x1_S_) := by
    show StableHlo.after hostOps12 _ _ = _; after_results <;> rfl
  rw [e]; show FloatOps.addf (W24 m h c main_v63 ValueIdx.ix0) (shapeCast S_ (W24 m h c main_v66) shapeCasts_S1x1_S_ ValueIdx.ix0) = _
  rw [scalar_apply, W24_of m h c main_v63 (by decide), W23_sum]

/-- Call 12's tables name rows of the array. -/
theorem ok12 (h : InRange m) : Call12.Ok (Call12.Vin (W25 m h)) :=
  ok12_of_lt _ (fun t => by rw [tbl12_A m h 0 t]; exact (h 0).2 _) (fun t => by rw [tbl12_B m h 0 t]; exact (h 0).2 _)
/-- Exit of call 12. -/
abbrev W26 (h : InRange m) (c : Dev nD) : Valuation τ sig (Elt F) := Call12.Wout (W25 m h) (ok12 m h) c
/-- Call 12 leaves every buffer but its result as it was. -/
theorem W26_of (h : InRange m) (c : Dev nD) (r : Ref sig .tc) (hr : r ≠ main_v71) : W26 m h c r = W25 m h c r := by
  show Function.update _ _ _ _ = _
  exact Function.update_of_ne (StableHlo.devRef_ne_of_ne hr) _ _
/-- Call 12's result is what its write-backs leave. -/
theorem W26_res (h : InRange m) (c : Dev nD) :
    W26 m h c main_v71 = (Call12.dat (Call12.Vin (W25 m h)) (ok12 m h) c).arrAt 2 (Call12.cfgM (Call12.Vin (W25 m h)) (ok12 m h)).N := by
  show Function.update _ _ _ _ = _
  exact Function.update_self _ _ _
/-- Call 12's result, the one entry of its [1,1] array. -/
abbrev res12 (h : InRange m) (c : Dev nD) : F .f32 := W26 m h c main_v71 (ValueIdx.ix2 0 0)
theorem W26_arg0 (h : InRange m) (c : Dev nD) : W26 m h c main_arg0 = m ((c.tc : Thread nD τ).loc main_arg0) := (W26_of m h c main_arg0 (by decide)).trans (W25_arg0 m h c)
theorem W26_arg1 (h : InRange m) (c : Dev nD) : W26 m h c main_arg1 = m ((c.tc : Thread nD τ).loc main_arg1) := (W26_of m h c main_arg1 (by decide)).trans (W25_arg1 m h c)
theorem W26_arg2 (h : InRange m) (c : Dev nD) : W26 m h c main_arg2 = m ((c.tc : Thread nD τ).loc main_arg2) := (W26_of m h c main_arg2 (by decide)).trans (W25_arg2 m h c)
theorem W26_v0 (h : InRange m) (c : Dev nD) : W26 m h c main_v0 = W1 m c main_v0 := (W26_of m h c main_v0 (by decide)).trans (W25_v0 m h c)
theorem W26_v46 (h : InRange m) (c : Dev nD) : W26 m h c main_v46 = W17 m h c main_v46 := (W26_of m h c main_v46 (by decide)).trans (W25_v46 m h c)
theorem W26_v48 (h : InRange m) (c : Dev nD) : W26 m h c main_v48 = W17 m h c main_v48 := (W26_of m h c main_v48 (by decide)).trans (W25_v48 m h c)
theorem W26_v44 (h : InRange m) (c : Dev nD) : W26 m h c main_v44 = W17 m h c main_v44 := (W26_of m h c main_v44 (by decide)).trans (W25_v44 m h c)

/-! ## Call 13 -/

/-- Entry of call 13: after the host stretch 13. -/
abbrev W27 (h : InRange m) (c : Dev nD) : Valuation τ sig (Elt F) := StableHlo.after hostOps13 (W26 m h c)
/-- The host stretch 13 leaves every buffer it does not write as it was. -/
theorem W27_of (h : InRange m) (c : Dev nD) (r : Ref sig .tc) (hr : r ∉ Regions.hostOps13_W) : W27 m h c r = W26 m h c r :=
  StableHlo.after_of_writes_sub hostOps13 _ Regions.hostOps13_writes hr
theorem W27_arg0 (h : InRange m) (c : Dev nD) : W27 m h c main_arg0 = m ((c.tc : Thread nD τ).loc main_arg0) := (W27_of m h c main_arg0 (by decide)).trans (W26_arg0 m h c)
theorem W27_arg1 (h : InRange m) (c : Dev nD) : W27 m h c main_arg1 = m ((c.tc : Thread nD τ).loc main_arg1) := (W27_of m h c main_arg1 (by decide)).trans (W26_arg1 m h c)
theorem W27_arg2 (h : InRange m) (c : Dev nD) : W27 m h c main_arg2 = m ((c.tc : Thread nD τ).loc main_arg2) := (W27_of m h c main_arg2 (by decide)).trans (W26_arg2 m h c)
theorem W27_v0 (h : InRange m) (c : Dev nD) : W27 m h c main_v0 = W1 m c main_v0 := (W27_of m h c main_v0 (by decide)).trans (W26_v0 m h c)
theorem W27_v46 (h : InRange m) (c : Dev nD) : W27 m h c main_v46 = W17 m h c main_v46 := (W27_of m h c main_v46 (by decide)).trans (W26_v46 m h c)
theorem W27_v48 (h : InRange m) (c : Dev nD) : W27 m h c main_v48 = W17 m h c main_v48 := (W27_of m h c main_v48 (by decide)).trans (W26_v48 m h c)
theorem W27_v44 (h : InRange m) (c : Dev nD) : W27 m h c main_v44 = W17 m h c main_v44 := (W27_of m h c main_v44 (by decide)).trans (W26_v44 m h c)

/-- The array of rows as call 13 finds it. -/
theorem rows13 (h : InRange m) (c : Dev nD) (r : Fin 100000) (d : Fin 256) :
    W27 m h c main_v0 (ValueIdx.ix3 r 0 d) = m ((c.tc : Thread nD τ).loc main_arg0) (ValueIdx.ix2 r d) := by
  rw [W27_v0]; exact rows0 m c r d

/-- Call 13's first table: the first components of pairs 125000 to 149999 of the second list. -/
theorem tbl13_A (h : InRange m) (c : Dev nD) (t : Fin 25000) :
    Call13.tbl (Call13.Vin (W27 m h)) 0 (ValueIdx.ix1 t) = m ((c.tc : Thread nD τ).loc main_arg2) (ValueIdx.ix2 ⟨25000 * 5 + t.val, by omega⟩ 0) := by
  obtain rfl : c = 0 := Subsingleton.elim _ _
  show W27 m h 0 main_v74 (ValueIdx.ix1 t) = _
  have e : (W27 m h 0 main_v74 : S25000.Idx → Elt F .i32) = extractStridedSlice S25000 ![25000 * 5] (W26 m h 0 main_v46) slices_S200000_S25000_125000 := by
    show StableHlo.after hostOps13 _ _ = _; after_results <;> rfl
  rw [e, chunk_apply (25000 * 5) _ _ t (by omega), W26_v46, W17_colA]

/-- Call 13's second table: the second components of pairs 125000 to 149999 of the second list. -/
theorem tbl13_B (h : InRange m) (c : Dev nD) (t : Fin 25000) :
    Call13.tbl (Call13.Vin (W27 m h)) 1 (ValueIdx.ix1 t) = m ((c.tc : Thread nD τ).loc main_arg2) (ValueIdx.ix2 ⟨25000 * 5 + t.val, by omega⟩ 1) := by
  obtain rfl : c = 0 := Subsingleton.elim _ _
  show W27 m h 0 main_v75 (ValueIdx.ix1 t) = _
  have e : (W27 m h 0 main_v75 : S25000.Idx → Elt F .i32) = extractStridedSlice S25000 ![25000 * 5] (W26 m h 0 main_v48) slices_S200000_S25000_125000 := by
    show StableHlo.after hostOps13 _ _ = _; after_results <;> rfl
  rw [e, chunk_apply (25000 * 5) _ _ t (by omega), W26_v48, W17_colB]

/-- The running sum of the second list's calls up to call 12. -/
abbrev neg5 (h : InRange m) (c : Dev nD) : F .f32 := FloatOps.addf (neg4 m h c) (res12 m h c)
theorem W27_sum (h : InRange m) (c : Dev nD) : W27 m h c main_v73 ValueIdx.ix0 = neg5 m h c := by
  have e : (W27 m h c main_v73 : S_.Idx → F .f32) = addf (W26 m h c main_v68) (shapeCast S_ (W26 m h c main_v71) shapeCasts_S1x1_S_) := by
    show StableHlo.after hostOps13 _ _ = _; after_results <;> rfl
  rw [e]; show FloatOps.addf (W26 m h c main_v68 ValueIdx.ix0) (shapeCast S_ (W26 m h c main_v71) shapeCasts_S1x1_S_ ValueIdx.ix0) = _
  rw [scalar_apply, W26_of m h c main_v68 (by decide), W25_sum]

/-- Call 13's tables name rows of the array. -/
theorem ok13 (h : InRange m) : Call13.Ok (Call13.Vin (W27 m h)) :=
  ok13_of_lt _ (fun t => by rw [tbl13_A m h 0 t]; exact (h 0).2 _) (fun t => by rw [tbl13_B m h 0 t]; exact (h 0).2 _)
/-- Exit of call 13. -/
abbrev W28 (h : InRange m) (c : Dev nD) : Valuation τ sig (Elt F) := Call13.Wout (W27 m h) (ok13 m h) c
/-- Call 13 leaves every buffer but its result as it was. -/
theorem W28_of (h : InRange m) (c : Dev nD) (r : Ref sig .tc) (hr : r ≠ main_v76) : W28 m h c r = W27 m h c r := by
  show Function.update _ _ _ _ = _
  exact Function.update_of_ne (StableHlo.devRef_ne_of_ne hr) _ _
/-- Call 13's result is what its write-backs leave. -/
theorem W28_res (h : InRange m) (c : Dev nD) :
    W28 m h c main_v76 = (Call13.dat (Call13.Vin (W27 m h)) (ok13 m h) c).arrAt 2 (Call13.cfgM (Call13.Vin (W27 m h)) (ok13 m h)).N := by
  show Function.update _ _ _ _ = _
  exact Function.update_self _ _ _
/-- Call 13's result, the one entry of its [1,1] array. -/
abbrev res13 (h : InRange m) (c : Dev nD) : F .f32 := W28 m h c main_v76 (ValueIdx.ix2 0 0)
theorem W28_arg0 (h : InRange m) (c : Dev nD) : W28 m h c main_arg0 = m ((c.tc : Thread nD τ).loc main_arg0) := (W28_of m h c main_arg0 (by decide)).trans (W27_arg0 m h c)
theorem W28_arg1 (h : InRange m) (c : Dev nD) : W28 m h c main_arg1 = m ((c.tc : Thread nD τ).loc main_arg1) := (W28_of m h c main_arg1 (by decide)).trans (W27_arg1 m h c)
theorem W28_arg2 (h : InRange m) (c : Dev nD) : W28 m h c main_arg2 = m ((c.tc : Thread nD τ).loc main_arg2) := (W28_of m h c main_arg2 (by decide)).trans (W27_arg2 m h c)
theorem W28_v0 (h : InRange m) (c : Dev nD) : W28 m h c main_v0 = W1 m c main_v0 := (W28_of m h c main_v0 (by decide)).trans (W27_v0 m h c)
theorem W28_v46 (h : InRange m) (c : Dev nD) : W28 m h c main_v46 = W17 m h c main_v46 := (W28_of m h c main_v46 (by decide)).trans (W27_v46 m h c)
theorem W28_v48 (h : InRange m) (c : Dev nD) : W28 m h c main_v48 = W17 m h c main_v48 := (W28_of m h c main_v48 (by decide)).trans (W27_v48 m h c)
theorem W28_v44 (h : InRange m) (c : Dev nD) : W28 m h c main_v44 = W17 m h c main_v44 := (W28_of m h c main_v44 (by decide)).trans (W27_v44 m h c)

/-! ## Call 14 -/

/-- Entry of call 14: after the host stretch 14. -/
abbrev W29 (h : InRange m) (c : Dev nD) : Valuation τ sig (Elt F) := StableHlo.after hostOps14 (W28 m h c)
/-- The host stretch 14 leaves every buffer it does not write as it was. -/
theorem W29_of (h : InRange m) (c : Dev nD) (r : Ref sig .tc) (hr : r ∉ Regions.hostOps14_W) : W29 m h c r = W28 m h c r :=
  StableHlo.after_of_writes_sub hostOps14 _ Regions.hostOps14_writes hr
theorem W29_arg0 (h : InRange m) (c : Dev nD) : W29 m h c main_arg0 = m ((c.tc : Thread nD τ).loc main_arg0) := (W29_of m h c main_arg0 (by decide)).trans (W28_arg0 m h c)
theorem W29_arg1 (h : InRange m) (c : Dev nD) : W29 m h c main_arg1 = m ((c.tc : Thread nD τ).loc main_arg1) := (W29_of m h c main_arg1 (by decide)).trans (W28_arg1 m h c)
theorem W29_arg2 (h : InRange m) (c : Dev nD) : W29 m h c main_arg2 = m ((c.tc : Thread nD τ).loc main_arg2) := (W29_of m h c main_arg2 (by decide)).trans (W28_arg2 m h c)
theorem W29_v0 (h : InRange m) (c : Dev nD) : W29 m h c main_v0 = W1 m c main_v0 := (W29_of m h c main_v0 (by decide)).trans (W28_v0 m h c)
theorem W29_v46 (h : InRange m) (c : Dev nD) : W29 m h c main_v46 = W17 m h c main_v46 := (W29_of m h c main_v46 (by decide)).trans (W28_v46 m h c)
theorem W29_v48 (h : InRange m) (c : Dev nD) : W29 m h c main_v48 = W17 m h c main_v48 := (W29_of m h c main_v48 (by decide)).trans (W28_v48 m h c)
theorem W29_v44 (h : InRange m) (c : Dev nD) : W29 m h c main_v44 = W17 m h c main_v44 := (W29_of m h c main_v44 (by decide)).trans (W28_v44 m h c)

/-- The array of rows as call 14 finds it. -/
theorem rows14 (h : InRange m) (c : Dev nD) (r : Fin 100000) (d : Fin 256) :
    W29 m h c main_v0 (ValueIdx.ix3 r 0 d) = m ((c.tc : Thread nD τ).loc main_arg0) (ValueIdx.ix2 r d) := by
  rw [W29_v0]; exact rows0 m c r d

/-- Call 14's first table: the first components of pairs 150000 to 174999 of the second list. -/
theorem tbl14_A (h : InRange m) (c : Dev nD) (t : Fin 25000) :
    Call14.tbl (Call14.Vin (W29 m h)) 0 (ValueIdx.ix1 t) = m ((c.tc : Thread nD τ).loc main_arg2) (ValueIdx.ix2 ⟨25000 * 6 + t.val, by omega⟩ 0) := by
  obtain rfl : c = 0 := Subsingleton.elim _ _
  show W29 m h 0 main_v79 (ValueIdx.ix1 t) = _
  have e : (W29 m h 0 main_v79 : S25000.Idx → Elt F .i32) = extractStridedSlice S25000 ![25000 * 6] (W28 m h 0 main_v46) slices_S200000_S25000_150000 := by
    show StableHlo.after hostOps14 _ _ = _; after_results <;> rfl
  rw [e, chunk_apply (25000 * 6) _ _ t (by omega), W28_v46, W17_colA]

/-- Call 14's second table: the second components of pairs 150000 to 174999 of the second list. -/
theorem tbl14_B (h : InRange m) (c : Dev nD) (t : Fin 25000) :
    Call14.tbl (Call14.Vin (W29 m h)) 1 (ValueIdx.ix1 t) = m ((c.tc : Thread nD τ).loc main_arg2) (ValueIdx.ix2 ⟨25000 * 6 + t.val, by omega⟩ 1) := by
  obtain rfl : c = 0 := Subsingleton.elim _ _
  show W29 m h 0 main_v80 (ValueIdx.ix1 t) = _
  have e : (W29 m h 0 main_v80 : S25000.Idx → Elt F .i32) = extractStridedSlice S25000 ![25000 * 6] (W28 m h 0 main_v48) slices_S200000_S25000_150000 := by
    show StableHlo.after hostOps14 _ _ = _; after_results <;> rfl
  rw [e, chunk_apply (25000 * 6) _ _ t (by omega), W28_v48, W17_colB]

/-- The running sum of the second list's calls up to call 13. -/
abbrev neg6 (h : InRange m) (c : Dev nD) : F .f32 := FloatOps.addf (neg5 m h c) (res13 m h c)
theorem W29_sum (h : InRange m) (c : Dev nD) : W29 m h c main_v78 ValueIdx.ix0 = neg6 m h c := by
  have e : (W29 m h c main_v78 : S_.Idx → F .f32) = addf (W28 m h c main_v73) (shapeCast S_ (W28 m h c main_v76) shapeCasts_S1x1_S_) := by
    show StableHlo.after hostOps14 _ _ = _; after_results <;> rfl
  rw [e]; show FloatOps.addf (W28 m h c main_v73 ValueIdx.ix0) (shapeCast S_ (W28 m h c main_v76) shapeCasts_S1x1_S_ ValueIdx.ix0) = _
  rw [scalar_apply, W28_of m h c main_v73 (by decide), W27_sum]

/-- Call 14's tables name rows of the array. -/
theorem ok14 (h : InRange m) : Call14.Ok (Call14.Vin (W29 m h)) :=
  ok14_of_lt _ (fun t => by rw [tbl14_A m h 0 t]; exact (h 0).2 _) (fun t => by rw [tbl14_B m h 0 t]; exact (h 0).2 _)
/-- Exit of call 14. -/
abbrev W30 (h : InRange m) (c : Dev nD) : Valuation τ sig (Elt F) := Call14.Wout (W29 m h) (ok14 m h) c
/-- Call 14 leaves every buffer but its result as it was. -/
theorem W30_of (h : InRange m) (c : Dev nD) (r : Ref sig .tc) (hr : r ≠ main_v81) : W30 m h c r = W29 m h c r := by
  show Function.update _ _ _ _ = _
  exact Function.update_of_ne (StableHlo.devRef_ne_of_ne hr) _ _
/-- Call 14's result is what its write-backs leave. -/
theorem W30_res (h : InRange m) (c : Dev nD) :
    W30 m h c main_v81 = (Call14.dat (Call14.Vin (W29 m h)) (ok14 m h) c).arrAt 2 (Call14.cfgM (Call14.Vin (W29 m h)) (ok14 m h)).N := by
  show Function.update _ _ _ _ = _
  exact Function.update_self _ _ _
/-- Call 14's result, the one entry of its [1,1] array. -/
abbrev res14 (h : InRange m) (c : Dev nD) : F .f32 := W30 m h c main_v81 (ValueIdx.ix2 0 0)
theorem W30_arg0 (h : InRange m) (c : Dev nD) : W30 m h c main_arg0 = m ((c.tc : Thread nD τ).loc main_arg0) := (W30_of m h c main_arg0 (by decide)).trans (W29_arg0 m h c)
theorem W30_arg1 (h : InRange m) (c : Dev nD) : W30 m h c main_arg1 = m ((c.tc : Thread nD τ).loc main_arg1) := (W30_of m h c main_arg1 (by decide)).trans (W29_arg1 m h c)
theorem W30_arg2 (h : InRange m) (c : Dev nD) : W30 m h c main_arg2 = m ((c.tc : Thread nD τ).loc main_arg2) := (W30_of m h c main_arg2 (by decide)).trans (W29_arg2 m h c)
theorem W30_v0 (h : InRange m) (c : Dev nD) : W30 m h c main_v0 = W1 m c main_v0 := (W30_of m h c main_v0 (by decide)).trans (W29_v0 m h c)
theorem W30_v46 (h : InRange m) (c : Dev nD) : W30 m h c main_v46 = W17 m h c main_v46 := (W30_of m h c main_v46 (by decide)).trans (W29_v46 m h c)
theorem W30_v48 (h : InRange m) (c : Dev nD) : W30 m h c main_v48 = W17 m h c main_v48 := (W30_of m h c main_v48 (by decide)).trans (W29_v48 m h c)
theorem W30_v44 (h : InRange m) (c : Dev nD) : W30 m h c main_v44 = W17 m h c main_v44 := (W30_of m h c main_v44 (by decide)).trans (W29_v44 m h c)

/-! ## Call 15 -/

/-- Entry of call 15: after the host stretch 15. -/
abbrev W31 (h : InRange m) (c : Dev nD) : Valuation τ sig (Elt F) := StableHlo.after hostOps15 (W30 m h c)
/-- The host stretch 15 leaves every buffer it does not write as it was. -/
theorem W31_of (h : InRange m) (c : Dev nD) (r : Ref sig .tc) (hr : r ∉ Regions.hostOps15_W) : W31 m h c r = W30 m h c r :=
  StableHlo.after_of_writes_sub hostOps15 _ Regions.hostOps15_writes hr
theorem W31_arg0 (h : InRange m) (c : Dev nD) : W31 m h c main_arg0 = m ((c.tc : Thread nD τ).loc main_arg0) := (W31_of m h c main_arg0 (by decide)).trans (W30_arg0 m h c)
theorem W31_arg1 (h : InRange m) (c : Dev nD) : W31 m h c main_arg1 = m ((c.tc : Thread nD τ).loc main_arg1) := (W31_of m h c main_arg1 (by decide)).trans (W30_arg1 m h c)
theorem W31_arg2 (h : InRange m) (c : Dev nD) : W31 m h c main_arg2 = m ((c.tc : Thread nD τ).loc main_arg2) := (W31_of m h c main_arg2 (by decide)).trans (W30_arg2 m h c)
theorem W31_v0 (h : InRange m) (c : Dev nD) : W31 m h c main_v0 = W1 m c main_v0 := (W31_of m h c main_v0 (by decide)).trans (W30_v0 m h c)
theorem W31_v44 (h : InRange m) (c : Dev nD) : W31 m h c main_v44 = W17 m h c main_v44 := (W31_of m h c main_v44 (by decide)).trans (W30_v44 m h c)

/-- The array of rows as call 15 finds it. -/
theorem rows15 (h : InRange m) (c : Dev nD) (r : Fin 100000) (d : Fin 256) :
    W31 m h c main_v0 (ValueIdx.ix3 r 0 d) = m ((c.tc : Thread nD τ).loc main_arg0) (ValueIdx.ix2 r d) := by
  rw [W31_v0]; exact rows0 m c r d

/-- Call 15's first table: the first components of pairs 175000 to 199999 of the second list. -/
theorem tbl15_A (h : InRange m) (c : Dev nD) (t : Fin 25000) :
    Call15.tbl (Call15.Vin (W31 m h)) 0 (ValueIdx.ix1 t) = m ((c.tc : Thread nD τ).loc main_arg2) (ValueIdx.ix2 ⟨25000 * 7 + t.val, by omega⟩ 0) := by
  obtain rfl : c = 0 := Subsingleton.elim _ _
  show W31 m h 0 main_v84 (ValueIdx.ix1 t) = _
  have e : (W31 m h 0 main_v84 : S25000.Idx → Elt F .i32) = extractStridedSlice S25000 ![25000 * 7] (W30 m h 0 main_v46) slices_S200000_S25000_175000 := by
    show StableHlo.after hostOps15 _ _ = _; after_results <;> rfl
  rw [e, chunk_apply (25000 * 7) _ _ t (by omega), W30_v46, W17_colA]

/-- Call 15's second table: the second components of pairs 175000 to 199999 of the second list. -/
theorem tbl15_B (h : InRange m) (c : Dev nD) (t : Fin 25000) :
    Call15.tbl (Call15.Vin (W31 m h)) 1 (ValueIdx.ix1 t) = m ((c.tc : Thread nD τ).loc main_arg2) (ValueIdx.ix2 ⟨25000 * 7 + t.val, by omega⟩ 1) := by
  obtain rfl : c = 0 := Subsingleton.elim _ _
  show W31 m h 0 main_v85 (ValueIdx.ix1 t) = _
  have e : (W31 m h 0 main_v85 : S25000.Idx → Elt F .i32) = extractStridedSlice S25000 ![25000 * 7] (W30 m h 0 main_v48) slices_S200000_S25000_175000 := by
    show StableHlo.after hostOps15 _ _ = _; after_results <;> rfl
  rw [e, chunk_apply (25000 * 7) _ _ t (by omega), W30_v48, W17_colB]

/-- The running sum of the second list's calls up to call 14. -/
abbrev neg7 (h : InRange m) (c : Dev nD) : F .f32 := FloatOps.addf (neg6 m h c) (res14 m h c)
theorem W31_sum (h : InRange m) (c : Dev nD) : W31 m h c main_v83 ValueIdx.ix0 = neg7 m h c := by
  have e : (W31 m h c main_v83 : S_.Idx → F .f32) = addf (W30 m h c main_v78) (shapeCast S_ (W30 m h c main_v81) shapeCasts_S1x1_S_) := by
    show StableHlo.after hostOps15 _ _ = _; after_results <;> rfl
  rw [e]; show FloatOps.addf (W30 m h c main_v78 ValueIdx.ix0) (shapeCast S_ (W30 m h c main_v81) shapeCasts_S1x1_S_ ValueIdx.ix0) = _
  rw [scalar_apply, W30_of m h c main_v78 (by decide), W29_sum]

/-- Call 15's tables name rows of the array. -/
theorem ok15 (h : InRange m) : Call15.Ok (Call15.Vin (W31 m h)) :=
  ok15_of_lt _ (fun t => by rw [tbl15_A m h 0 t]; exact (h 0).2 _) (fun t => by rw [tbl15_B m h 0 t]; exact (h 0).2 _)
/-- Exit of call 15. -/
abbrev W32 (h : InRange m) (c : Dev nD) : Valuation τ sig (Elt F) := Call15.Wout (W31 m h) (ok15 m h) c
/-- Call 15 leaves every buffer but its result as it was. -/
theorem W32_of (h : InRange m) (c : Dev nD) (r : Ref sig .tc) (hr : r ≠ main_v86) : W32 m h c r = W31 m h c r := by
  show Function.update _ _ _ _ = _
  exact Function.update_of_ne (StableHlo.devRef_ne_of_ne hr) _ _
/-- Call 15's result is what its write-backs leave. -/
theorem W32_res (h : InRange m) (c : Dev nD) :
    W32 m h c main_v86 = (Call15.dat (Call15.Vin (W31 m h)) (ok15 m h) c).arrAt 2 (Call15.cfgM (Call15.Vin (W31 m h)) (ok15 m h)).N := by
  show Function.update _ _ _ _ = _
  exact Function.update_self _ _ _
/-- Call 15's result, the one entry of its [1,1] array. -/
abbrev res15 (h : InRange m) (c : Dev nD) : F .f32 := W32 m h c main_v86 (ValueIdx.ix2 0 0)
theorem W32_arg0 (h : InRange m) (c : Dev nD) : W32 m h c main_arg0 = m ((c.tc : Thread nD τ).loc main_arg0) := (W32_of m h c main_arg0 (by decide)).trans (W31_arg0 m h c)
theorem W32_arg1 (h : InRange m) (c : Dev nD) : W32 m h c main_arg1 = m ((c.tc : Thread nD τ).loc main_arg1) := (W32_of m h c main_arg1 (by decide)).trans (W31_arg1 m h c)
theorem W32_arg2 (h : InRange m) (c : Dev nD) : W32 m h c main_arg2 = m ((c.tc : Thread nD τ).loc main_arg2) := (W32_of m h c main_arg2 (by decide)).trans (W31_arg2 m h c)
theorem W32_v44 (h : InRange m) (c : Dev nD) : W32 m h c main_v44 = W17 m h c main_v44 := (W32_of m h c main_v44 (by decide)).trans (W31_v44 m h c)

/-! ## The return -/

/-- At the return: after the last host stretch. -/
abbrev W33 (h : InRange m) (c : Dev nD) : Valuation τ sig (Elt F) := StableHlo.after hostOps16 (W32 m h c)
/-- The last host stretch leaves every buffer it does not write as it was. -/
theorem W33_of (h : InRange m) (c : Dev nD) (r : Ref sig .tc) (hr : r ∉ Regions.hostOps16_W) : W33 m h c r = W32 m h c r :=
  StableHlo.after_of_writes_sub hostOps16 _ Regions.hostOps16_writes hr

theorem W33_arg0 (h : InRange m) (c : Dev nD) : W33 m h c main_arg0 = m ((c.tc : Thread nD τ).loc main_arg0) := (W33_of m h c main_arg0 (by decide)).trans (W32_arg0 m h c)
theorem W33_arg1 (h : InRange m) (c : Dev nD) : W33 m h c main_arg1 = m ((c.tc : Thread nD τ).loc main_arg1) := (W33_of m h c main_arg1 (by decide)).trans (W32_arg1 m h c)
theorem W33_arg2 (h : InRange m) (c : Dev nD) : W33 m h c main_arg2 = m ((c.tc : Thread nD τ).loc main_arg2) := (W33_of m h c main_arg2 (by decide)).trans (W32_arg2 m h c)

/-- The running sum of the second list's calls up to call 15. -/
abbrev neg8 (h : InRange m) (c : Dev nD) : F .f32 := FloatOps.addf (neg7 m h c) (res15 m h c)

/-- THE RESULT: the first list's eight results added in order from zero, plus the second list's eight added in order from zero. -/
theorem W33_result (h : InRange m) (c : Dev nD) : W33 m h c main_v89 ValueIdx.ix0 =
    FloatOps.addf
      (FloatOps.addf (FloatOps.addf (FloatOps.addf (FloatOps.addf (FloatOps.addf (FloatOps.addf (FloatOps.addf (FloatOps.addf (FloatOps.ofBits .f32 0x00000000#32) (res0 m h c)) (res1 m h c)) (res2 m h c)) (res3 m h c)) (res4 m h c)) (res5 m h c)) (res6 m h c)) (res7 m h c))
      (FloatOps.addf (FloatOps.addf (FloatOps.addf (FloatOps.addf (FloatOps.addf (FloatOps.addf (FloatOps.addf (FloatOps.addf (FloatOps.ofBits .f32 0x00000000#32) (res8 m h c)) (res9 m h c)) (res10 m h c)) (res11 m h c)) (res12 m h c)) (res13 m h c)) (res14 m h c)) (res15 m h c)) := by
  have e : (W33 m h c main_v89 : S_.Idx → F .f32) = addf (W32 m h c main_v44) (addf (W32 m h c main_v83) (shapeCast S_ (W32 m h c main_v86) shapeCasts_S1x1_S_)) := by
    show StableHlo.after hostOps16 _ _ = _; after_results <;> rfl
  rw [e]; show FloatOps.addf (W32 m h c main_v44 ValueIdx.ix0) (FloatOps.addf (W32 m h c main_v83 ValueIdx.ix0) (shapeCast S_ (W32 m h c main_v86) shapeCasts_S1x1_S_ ValueIdx.ix0)) = _
  rw [scalar_apply, W32_v44, W17_sum, W32_of m h c main_v83 (by decide), W31_sum]

end Cert.KernelIdeal.Chain

end
-- ==== Proof.Segments.lean ====
import proofs.«406163_j35201551958720_3_alg».proof.Proof.Call0Region
import proofs.«406163_j35201551958720_3_alg».proof.Proof.Call1Region
import proofs.«406163_j35201551958720_3_alg».proof.Proof.Call2Region
import proofs.«406163_j35201551958720_3_alg».proof.Proof.Call3Region
import proofs.«406163_j35201551958720_3_alg».proof.Proof.Call4Region
import proofs.«406163_j35201551958720_3_alg».proof.Proof.Call5Region
import proofs.«406163_j35201551958720_3_alg».proof.Proof.Call6Region
import proofs.«406163_j35201551958720_3_alg».proof.Proof.Call7Region
import proofs.«406163_j35201551958720_3_alg».proof.Proof.Call8Region
import proofs.«406163_j35201551958720_3_alg».proof.Proof.Call9Region
import proofs.«406163_j35201551958720_3_alg».proof.Proof.Call10Region
import proofs.«406163_j35201551958720_3_alg».proof.Proof.Call11Region
import proofs.«406163_j35201551958720_3_alg».proof.Proof.Call12Region
import proofs.«406163_j35201551958720_3_alg».proof.Proof.Call13Region
import proofs.«406163_j35201551958720_3_alg».proof.Proof.Call14Region
import proofs.«406163_j35201551958720_3_alg».proof.Proof.Call15Region
import proofs.«406163_j35201551958720_3_alg».proof.Proof.Chain
import proofs.«406163_j35201551958720_3_alg».proof.Proof.KernelIdealRegions

set_option maxRecDepth 16384

noncomputable section

namespace Cert.KernelIdeal.Whole

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : InRange m)

/-! # The sixteen calls as segments of @main, each at its entry contents -/

/-- Every call's tables at its entry, admissible. -/
def adms : (p : Fin 16) → (pcfgs (F := F) p).Adm
  | ⟨0, _⟩ => Call0.adm (Call0.Vin (W1 m)) (Chain.ok0 m h)
  | ⟨1, _⟩ => Call1.adm (Call1.Vin (W3 m h)) (Chain.ok1 m h)
  | ⟨2, _⟩ => Call2.adm (Call2.Vin (W5 m h)) (Chain.ok2 m h)
  | ⟨3, _⟩ => Call3.adm (Call3.Vin (W7 m h)) (Chain.ok3 m h)
  | ⟨4, _⟩ => Call4.adm (Call4.Vin (W9 m h)) (Chain.ok4 m h)
  | ⟨5, _⟩ => Call5.adm (Call5.Vin (W11 m h)) (Chain.ok5 m h)
  | ⟨6, _⟩ => Call6.adm (Call6.Vin (W13 m h)) (Chain.ok6 m h)
  | ⟨7, _⟩ => Call7.adm (Call7.Vin (W15 m h)) (Chain.ok7 m h)
  | ⟨8, _⟩ => Call8.adm (Call8.Vin (W17 m h)) (Chain.ok8 m h)
  | ⟨9, _⟩ => Call9.adm (Call9.Vin (W19 m h)) (Chain.ok9 m h)
  | ⟨10, _⟩ => Call10.adm (Call10.Vin (W21 m h)) (Chain.ok10 m h)
  | ⟨11, _⟩ => Call11.adm (Call11.Vin (W23 m h)) (Chain.ok11 m h)
  | ⟨12, _⟩ => Call12.adm (Call12.Vin (W25 m h)) (Chain.ok12 m h)
  | ⟨13, _⟩ => Call13.adm (Call13.Vin (W27 m h)) (Chain.ok13 m h)
  | ⟨14, _⟩ => Call14.adm (Call14.Vin (W29 m h)) (Chain.ok14 m h)
  | ⟨15, _⟩ => Call15.adm (Call15.Vin (W31 m h)) (Chain.ok15 m h)
  | ⟨_ + 16, hh⟩ => absurd hh (Nat.not_lt.2 (Nat.le_add_left _ _))

/-- Every call's proof data, at its entry contents. -/
def pdats : (p : Fin 16) → (c : Dev nD) → Dat τ (Elt F) Unit ℕ (UR sig nD τ) ℕ (Pipeline.pin (pcfgs (F := F)) (adms m h) p) c
  | ⟨0, _⟩ => fun c => Call0.dat (Call0.Vin (W1 m)) (Chain.ok0 m h) c
  | ⟨1, _⟩ => fun c => Call1.dat (Call1.Vin (W3 m h)) (Chain.ok1 m h) c
  | ⟨2, _⟩ => fun c => Call2.dat (Call2.Vin (W5 m h)) (Chain.ok2 m h) c
  | ⟨3, _⟩ => fun c => Call3.dat (Call3.Vin (W7 m h)) (Chain.ok3 m h) c
  | ⟨4, _⟩ => fun c => Call4.dat (Call4.Vin (W9 m h)) (Chain.ok4 m h) c
  | ⟨5, _⟩ => fun c => Call5.dat (Call5.Vin (W11 m h)) (Chain.ok5 m h) c
  | ⟨6, _⟩ => fun c => Call6.dat (Call6.Vin (W13 m h)) (Chain.ok6 m h) c
  | ⟨7, _⟩ => fun c => Call7.dat (Call7.Vin (W15 m h)) (Chain.ok7 m h) c
  | ⟨8, _⟩ => fun c => Call8.dat (Call8.Vin (W17 m h)) (Chain.ok8 m h) c
  | ⟨9, _⟩ => fun c => Call9.dat (Call9.Vin (W19 m h)) (Chain.ok9 m h) c
  | ⟨10, _⟩ => fun c => Call10.dat (Call10.Vin (W21 m h)) (Chain.ok10 m h) c
  | ⟨11, _⟩ => fun c => Call11.dat (Call11.Vin (W23 m h)) (Chain.ok11 m h) c
  | ⟨12, _⟩ => fun c => Call12.dat (Call12.Vin (W25 m h)) (Chain.ok12 m h) c
  | ⟨13, _⟩ => fun c => Call13.dat (Call13.Vin (W27 m h)) (Chain.ok13 m h) c
  | ⟨14, _⟩ => fun c => Call14.dat (Call14.Vin (W29 m h)) (Chain.ok14 m h) c
  | ⟨15, _⟩ => fun c => Call15.dat (Call15.Vin (W31 m h)) (Chain.ok15 m h) c
  | ⟨_ + 16, hh⟩ => absurd hh (Nat.not_lt.2 (Nat.le_add_left _ _))

/-- What each call leaves in its result buffer, read off the chain. -/
def outs : Regions.Outs (F := F) := fun J r c => match J with
  | 2 => W2 m h c r
  | 4 => W4 m h c r
  | 6 => W6 m h c r
  | 8 => W8 m h c r
  | 10 => W10 m h c r
  | 12 => W12 m h c r
  | 14 => W14 m h c r
  | 16 => W16 m h c r
  | 18 => W18 m h c r
  | 20 => W20 m h c r
  | 22 => W22 m h c r
  | 24 => W24 m h c r
  | 26 => W26 m h c r
  | 28 => W28 m h c r
  | 30 => W30 m h c r
  | 32 => W32 m h c r
  | _ => W0 m c r

/-! ## The generated valuations are the chain's -/

theorem V1_eq (c : Dev nD) : Regions.V1 m c = W1 m c := rfl
theorem V2_eq (c : Dev nD) : Regions.V2 m (outs m h) c = W2 m h c :=
  (congrArg (fun v => Function.update v (Proc.devRef .tc main_v7) (W2 m h c main_v7)) (V1_eq m c)).trans
    (congrArg (Function.update (W1 m c) (Proc.devRef .tc main_v7)) (Function.update_self _ _ _))
theorem V3_eq (c : Dev nD) : Regions.V3 m (outs m h) c = W3 m h c := congrArg (StableHlo.after hostOps1) (V2_eq m h c)
theorem V4_eq (c : Dev nD) : Regions.V4 m (outs m h) c = W4 m h c :=
  (congrArg (fun v => Function.update v (Proc.devRef .tc main_v12) (W4 m h c main_v12)) (V3_eq m h c)).trans
    (congrArg (Function.update (W3 m h c) (Proc.devRef .tc main_v12)) (Function.update_self _ _ _))
theorem V5_eq (c : Dev nD) : Regions.V5 m (outs m h) c = W5 m h c := congrArg (StableHlo.after hostOps2) (V4_eq m h c)
theorem V6_eq (c : Dev nD) : Regions.V6 m (outs m h) c = W6 m h c :=
  (congrArg (fun v => Function.update v (Proc.devRef .tc main_v17) (W6 m h c main_v17)) (V5_eq m h c)).trans
    (congrArg (Function.update (W5 m h c) (Proc.devRef .tc main_v17)) (Function.update_self _ _ _))
theorem V7_eq (c : Dev nD) : Regions.V7 m (outs m h) c = W7 m h c := congrArg (StableHlo.after hostOps3) (V6_eq m h c)
theorem V8_eq (c : Dev nD) : Regions.V8 m (outs m h) c = W8 m h c :=
  (congrArg (fun v => Function.update v (Proc.devRef .tc main_v22) (W8 m h c main_v22)) (V7_eq m h c)).trans
    (congrArg (Function.update (W7 m h c) (Proc.devRef .tc main_v22)) (Function.update_self _ _ _))
theorem V9_eq (c : Dev nD) : Regions.V9 m (outs m h) c = W9 m h c := congrArg (StableHlo.after hostOps4) (V8_eq m h c)
theorem V10_eq (c : Dev nD) : Regions.V10 m (outs m h) c = W10 m h c :=
  (congrArg (fun v => Function.update v (Proc.devRef .tc main_v27) (W10 m h c main_v27)) (V9_eq m h c)).trans
    (congrArg (Function.update (W9 m h c) (Proc.devRef .tc main_v27)) (Function.update_self _ _ _))
theorem V11_eq (c : Dev nD) : Regions.V11 m (outs m h) c = W11 m h c := congrArg (StableHlo.after hostOps5) (V10_eq m h c)
theorem V12_eq (c : Dev nD) : Regions.V12 m (outs m h) c = W12 m h c :=
  (congrArg (fun v => Function.update v (Proc.devRef .tc main_v32) (W12 m h c main_v32)) (V11_eq m h c)).trans
    (congrArg (Function.update (W11 m h c) (Proc.devRef .tc main_v32)) (Function.update_self _ _ _))
theorem V13_eq (c : Dev nD) : Regions.V13 m (outs m h) c = W13 m h c := congrArg (StableHlo.after hostOps6) (V12_eq m h c)
theorem V14_eq (c : Dev nD) : Regions.V14 m (outs m h) c = W14 m h c :=
  (congrArg (fun v => Function.update v (Proc.devRef .tc main_v37) (W14 m h c main_v37)) (V13_eq m h c)).trans
    (congrArg (Function.update (W13 m h c) (Proc.devRef .tc main_v37)) (Function.update_self _ _ _))
theorem V15_eq (c : Dev nD) : Regions.V15 m (outs m h) c = W15 m h c := congrArg (StableHlo.after hostOps7) (V14_eq m h c)
theorem V16_eq (c : Dev nD) : Regions.V16 m (outs m h) c = W16 m h c :=
  (congrArg (fun v => Function.update v (Proc.devRef .tc main_v42) (W16 m h c main_v42)) (V15_eq m h c)).trans
    (congrArg (Function.update (W15 m h c) (Proc.devRef .tc main_v42)) (Function.update_self _ _ _))
theorem V17_eq (c : Dev nD) : Regions.V17 m (outs m h) c = W17 m h c := congrArg (StableHlo.after hostOps8) (V16_eq m h c)
theorem V18_eq (c : Dev nD) : Regions.V18 m (outs m h) c = W18 m h c :=
  (congrArg (fun v => Function.update v (Proc.devRef .tc main_v51) (W18 m h c main_v51)) (V17_eq m h c)).trans
    (congrArg (Function.update (W17 m h c) (Proc.devRef .tc main_v51)) (Function.update_self _ _ _))
theorem V19_eq (c : Dev nD) : Regions.V19 m (outs m h) c = W19 m h c := congrArg (StableHlo.after hostOps9) (V18_eq m h c)
theorem V20_eq (c : Dev nD) : Regions.V20 m (outs m h) c = W20 m h c :=
  (congrArg (fun v => Function.update v (Proc.devRef .tc main_v56) (W20 m h c main_v56)) (V19_eq m h c)).trans
    (congrArg (Function.update (W19 m h c) (Proc.devRef .tc main_v56)) (Function.update_self _ _ _))
theorem V21_eq (c : Dev nD) : Regions.V21 m (outs m h) c = W21 m h c := congrArg (StableHlo.after hostOps10) (V20_eq m h c)
theorem V22_eq (c : Dev nD) : Regions.V22 m (outs m h) c = W22 m h c :=
  (congrArg (fun v => Function.update v (Proc.devRef .tc main_v61) (W22 m h c main_v61)) (V21_eq m h c)).trans
    (congrArg (Function.update (W21 m h c) (Proc.devRef .tc main_v61)) (Function.update_self _ _ _))
theorem V23_eq (c : Dev nD) : Regions.V23 m (outs m h) c = W23 m h c := congrArg (StableHlo.after hostOps11) (V22_eq m h c)
theorem V24_eq (c : Dev nD) : Regions.V24 m (outs m h) c = W24 m h c :=
  (congrArg (fun v => Function.update v (Proc.devRef .tc main_v66) (W24 m h c main_v66)) (V23_eq m h c)).trans
    (congrArg (Function.update (W23 m h c) (Proc.devRef .tc main_v66)) (Function.update_self _ _ _))
theorem V25_eq (c : Dev nD) : Regions.V25 m (outs m h) c = W25 m h c := congrArg (StableHlo.after hostOps12) (V24_eq m h c)
theorem V26_eq (c : Dev nD) : Regions.V26 m (outs m h) c = W26 m h c :=
  (congrArg (fun v => Function.update v (Proc.devRef .tc main_v71) (W26 m h c main_v71)) (V25_eq m h c)).trans
    (congrArg (Function.update (W25 m h c) (Proc.devRef .tc main_v71)) (Function.update_self _ _ _))
theorem V27_eq (c : Dev nD) : Regions.V27 m (outs m h) c = W27 m h c := congrArg (StableHlo.after hostOps13) (V26_eq m h c)
theorem V28_eq (c : Dev nD) : Regions.V28 m (outs m h) c = W28 m h c :=
  (congrArg (fun v => Function.update v (Proc.devRef .tc main_v76) (W28 m h c main_v76)) (V27_eq m h c)).trans
    (congrArg (Function.update (W27 m h c) (Proc.devRef .tc main_v76)) (Function.update_self _ _ _))
theorem V29_eq (c : Dev nD) : Regions.V29 m (outs m h) c = W29 m h c := congrArg (StableHlo.after hostOps14) (V28_eq m h c)
theorem V30_eq (c : Dev nD) : Regions.V30 m (outs m h) c = W30 m h c :=
  (congrArg (fun v => Function.update v (Proc.devRef .tc main_v81) (W30 m h c main_v81)) (V29_eq m h c)).trans
    (congrArg (Function.update (W29 m h c) (Proc.devRef .tc main_v81)) (Function.update_self _ _ _))
theorem V31_eq (c : Dev nD) : Regions.V31 m (outs m h) c = W31 m h c := congrArg (StableHlo.after hostOps15) (V30_eq m h c)
theorem V32_eq (c : Dev nD) : Regions.V32 m (outs m h) c = W32 m h c :=
  (congrArg (fun v => Function.update v (Proc.devRef .tc main_v86) (W32 m h c main_v86)) (V31_eq m h c)).trans
    (congrArg (Function.update (W31 m h c) (Proc.devRef .tc main_v86)) (Function.update_self _ _ _))
theorem V33_eq (c : Dev nD) : Regions.V33 m (outs m h) c = W33 m h c := congrArg (StableHlo.after hostOps16) (V32_eq m h c)

/-! ## The region records -/

set_option backward.isDefEq.respectTransparency.types false in
/-- Call 0 over the thread state: entered from every unscoped buffer at its entry contents, left at its exit contents. -/
def reg0 : Pipeline.RegionSeg (pcfgs (F := F)) (adms m h) (pdats m h) () defs₀ Variants.none (fun _ => ∅) (fun _ _ => 0) 0 where
  win := winFacts₀0
  block_pos := block_pos0
  stage_whole := stage_whole0
  K := PEmpty
  osem k := k.elim
  ho := Pipeline.OwnSemFacts.none _
  hbody c := (Call0.body_obligation (Call0.Vin (W1 m)) (Chain.ok0 m h) c).loose
  hwaits := Pipeline.hwaits_of_owed_zero _ _ _ _ (fun _ => ∅) (fun _ _ => 0) 0 fun _ _ => rfl
  pre c := iprop(StableHlo.held (c : Thread nD τ) (Pipeline.ucRefs τ sig) (W1 m c) ∗ Call0.Rst c)
  post c := iprop(StableHlo.held (c : Thread nD τ) (Pipeline.ucRefs τ sig) (W2 m h c) ∗ Call0.Rst c)
  X c := iprop(∃ r, prngReg c r)
  Y c := iprop((∃ r, prngReg c r) ∗ Pipeline.prefHeld pre0 c (fun _ => fullShare) (Call0.tbl (Call0.Vin (W1 m))))
  Z c := Pipeline.unscopedRestP pre0 spec0 c (Call0.Vin (W1 m) c)
  hentry c := by
    rw [Pipeline.ownSems0_none]
    iintro ⟨Hpre, -, -⟩
    iapply (Call0.entry (W1 m) (Chain.ok0 m h) c)
    iexact Hpre
  hin c := Call0.inv_in (W1 m) (Chain.ok0 m h) c
  hout c := by
    rw [Pipeline.ownSems0_none]
    refine (Call0.inv_out (W1 m) (Chain.ok0 m h) c).trans ?_
    iintro ⟨HY, Hr⟩
    isplitl [HY]; · iexact HY
    isplitr; · iempintro
    iexact Hr
  hexit c := Call0.exit (W1 m) (Chain.ok0 m h) c

set_option backward.isDefEq.respectTransparency.types false in
/-- Call 1 over the thread state: entered from every unscoped buffer at its entry contents, left at its exit contents. -/
def reg1 : Pipeline.RegionSeg (pcfgs (F := F)) (adms m h) (pdats m h) () defs₀ Variants.none (fun _ => ∅) (fun _ _ => 0) 1 where
  win := winFacts₀1
  block_pos := block_pos1
  stage_whole := stage_whole1
  K := PEmpty
  osem k := k.elim
  ho := Pipeline.OwnSemFacts.none _
  hbody c := (Call1.body_obligation (Call1.Vin (W3 m h)) (Chain.ok1 m h) c).loose
  hwaits := Pipeline.hwaits_of_owed_zero _ _ _ _ (fun _ => ∅) (fun _ _ => 0) 1 fun _ _ => rfl
  pre c := iprop(StableHlo.held (c : Thread nD τ) (Pipeline.ucRefs τ sig) (W3 m h c) ∗ Call1.Rst c)
  post c := iprop(StableHlo.held (c : Thread nD τ) (Pipeline.ucRefs τ sig) (W4 m h c) ∗ Call1.Rst c)
  X c := iprop(∃ r, prngReg c r)
  Y c := iprop((∃ r, prngReg c r) ∗ Pipeline.prefHeld pre1 c (fun _ => fullShare) (Call1.tbl (Call1.Vin (W3 m h))))
  Z c := Pipeline.unscopedRestP pre1 spec1 c (Call1.Vin (W3 m h) c)
  hentry c := by
    rw [Pipeline.ownSems0_none]
    iintro ⟨Hpre, -, -⟩
    iapply (Call1.entry (W3 m h) (Chain.ok1 m h) c)
    iexact Hpre
  hin c := Call1.inv_in (W3 m h) (Chain.ok1 m h) c
  hout c := by
    rw [Pipeline.ownSems0_none]
    refine (Call1.inv_out (W3 m h) (Chain.ok1 m h) c).trans ?_
    iintro ⟨HY, Hr⟩
    isplitl [HY]; · iexact HY
    isplitr; · iempintro
    iexact Hr
  hexit c := Call1.exit (W3 m h) (Chain.ok1 m h) c

set_option backward.isDefEq.respectTransparency.types false in
/-- Call 2 over the thread state: entered from every unscoped buffer at its entry contents, left at its exit contents. -/
def reg2 : Pipeline.RegionSeg (pcfgs (F := F)) (adms m h) (pdats m h) () defs₀ Variants.none (fun _ => ∅) (fun _ _ => 0) 2 where
  win := winFacts₀2
  block_pos := block_pos2
  stage_whole := stage_whole2
  K := PEmpty
  osem k := k.elim
  ho := Pipeline.OwnSemFacts.none _
  hbody c := (Call2.body_obligation (Call2.Vin (W5 m h)) (Chain.ok2 m h) c).loose
  hwaits := Pipeline.hwaits_of_owed_zero _ _ _ _ (fun _ => ∅) (fun _ _ => 0) 2 fun _ _ => rfl
  pre c := iprop(StableHlo.held (c : Thread nD τ) (Pipeline.ucRefs τ sig) (W5 m h c) ∗ Call2.Rst c)
  post c := iprop(StableHlo.held (c : Thread nD τ) (Pipeline.ucRefs τ sig) (W6 m h c) ∗ Call2.Rst c)
  X c := iprop(∃ r, prngReg c r)
  Y c := iprop((∃ r, prngReg c r) ∗ Pipeline.prefHeld pre2 c (fun _ => fullShare) (Call2.tbl (Call2.Vin (W5 m h))))
  Z c := Pipeline.unscopedRestP pre2 spec2 c (Call2.Vin (W5 m h) c)
  hentry c := by
    rw [Pipeline.ownSems0_none]
    iintro ⟨Hpre, -, -⟩
    iapply (Call2.entry (W5 m h) (Chain.ok2 m h) c)
    iexact Hpre
  hin c := Call2.inv_in (W5 m h) (Chain.ok2 m h) c
  hout c := by
    rw [Pipeline.ownSems0_none]
    refine (Call2.inv_out (W5 m h) (Chain.ok2 m h) c).trans ?_
    iintro ⟨HY, Hr⟩
    isplitl [HY]; · iexact HY
    isplitr; · iempintro
    iexact Hr
  hexit c := Call2.exit (W5 m h) (Chain.ok2 m h) c

set_option backward.isDefEq.respectTransparency.types false in
/-- Call 3 over the thread state: entered from every unscoped buffer at its entry contents, left at its exit contents. -/
def reg3 : Pipeline.RegionSeg (pcfgs (F := F)) (adms m h) (pdats m h) () defs₀ Variants.none (fun _ => ∅) (fun _ _ => 0) 3 where
  win := winFacts₀3
  block_pos := block_pos3
  stage_whole := stage_whole3
  K := PEmpty
  osem k := k.elim
  ho := Pipeline.OwnSemFacts.none _
  hbody c := (Call3.body_obligation (Call3.Vin (W7 m h)) (Chain.ok3 m h) c).loose
  hwaits := Pipeline.hwaits_of_owed_zero _ _ _ _ (fun _ => ∅) (fun _ _ => 0) 3 fun _ _ => rfl
  pre c := iprop(StableHlo.held (c : Thread nD τ) (Pipeline.ucRefs τ sig) (W7 m h c) ∗ Call3.Rst c)
  post c := iprop(StableHlo.held (c : Thread nD τ) (Pipeline.ucRefs τ sig) (W8 m h c) ∗ Call3.Rst c)
  X c := iprop(∃ r, prngReg c r)
  Y c := iprop((∃ r, prngReg c r) ∗ Pipeline.prefHeld pre3 c (fun _ => fullShare) (Call3.tbl (Call3.Vin (W7 m h))))
  Z c := Pipeline.unscopedRestP pre3 spec3 c (Call3.Vin (W7 m h) c)
  hentry c := by
    rw [Pipeline.ownSems0_none]
    iintro ⟨Hpre, -, -⟩
    iapply (Call3.entry (W7 m h) (Chain.ok3 m h) c)
    iexact Hpre
  hin c := Call3.inv_in (W7 m h) (Chain.ok3 m h) c
  hout c := by
    rw [Pipeline.ownSems0_none]
    refine (Call3.inv_out (W7 m h) (Chain.ok3 m h) c).trans ?_
    iintro ⟨HY, Hr⟩
    isplitl [HY]; · iexact HY
    isplitr; · iempintro
    iexact Hr
  hexit c := Call3.exit (W7 m h) (Chain.ok3 m h) c

set_option backward.isDefEq.respectTransparency.types false in
/-- Call 4 over the thread state: entered from every unscoped buffer at its entry contents, left at its exit contents. -/
def reg4 : Pipeline.RegionSeg (pcfgs (F := F)) (adms m h) (pdats m h) () defs₀ Variants.none (fun _ => ∅) (fun _ _ => 0) 4 where
  win := winFacts₀4
  block_pos := block_pos4
  stage_whole := stage_whole4
  K := PEmpty
  osem k := k.elim
  ho := Pipeline.OwnSemFacts.none _
  hbody c := (Call4.body_obligation (Call4.Vin (W9 m h)) (Chain.ok4 m h) c).loose
  hwaits := Pipeline.hwaits_of_owed_zero _ _ _ _ (fun _ => ∅) (fun _ _ => 0) 4 fun _ _ => rfl
  pre c := iprop(StableHlo.held (c : Thread nD τ) (Pipeline.ucRefs τ sig) (W9 m h c) ∗ Call4.Rst c)
  post c := iprop(StableHlo.held (c : Thread nD τ) (Pipeline.ucRefs τ sig) (W10 m h c) ∗ Call4.Rst c)
  X c := iprop(∃ r, prngReg c r)
  Y c := iprop((∃ r, prngReg c r) ∗ Pipeline.prefHeld pre4 c (fun _ => fullShare) (Call4.tbl (Call4.Vin (W9 m h))))
  Z c := Pipeline.unscopedRestP pre4 spec4 c (Call4.Vin (W9 m h) c)
  hentry c := by
    rw [Pipeline.ownSems0_none]
    iintro ⟨Hpre, -, -⟩
    iapply (Call4.entry (W9 m h) (Chain.ok4 m h) c)
    iexact Hpre
  hin c := Call4.inv_in (W9 m h) (Chain.ok4 m h) c
  hout c := by
    rw [Pipeline.ownSems0_none]
    refine (Call4.inv_out (W9 m h) (Chain.ok4 m h) c).trans ?_
    iintro ⟨HY, Hr⟩
    isplitl [HY]; · iexact HY
    isplitr; · iempintro
    iexact Hr
  hexit c := Call4.exit (W9 m h) (Chain.ok4 m h) c

set_option backward.isDefEq.respectTransparency.types false in
/-- Call 5 over the thread state: entered from every unscoped buffer at its entry contents, left at its exit contents. -/
def reg5 : Pipeline.RegionSeg (pcfgs (F := F)) (adms m h) (pdats m h) () defs₀ Variants.none (fun _ => ∅) (fun _ _ => 0) 5 where
  win := winFacts₀5
  block_pos := block_pos5
  stage_whole := stage_whole5
  K := PEmpty
  osem k := k.elim
  ho := Pipeline.OwnSemFacts.none _
  hbody c := (Call5.body_obligation (Call5.Vin (W11 m h)) (Chain.ok5 m h) c).loose
  hwaits := Pipeline.hwaits_of_owed_zero _ _ _ _ (fun _ => ∅) (fun _ _ => 0) 5 fun _ _ => rfl
  pre c := iprop(StableHlo.held (c : Thread nD τ) (Pipeline.ucRefs τ sig) (W11 m h c) ∗ Call5.Rst c)
  post c := iprop(StableHlo.held (c : Thread nD τ) (Pipeline.ucRefs τ sig) (W12 m h c) ∗ Call5.Rst c)
  X c := iprop(∃ r, prngReg c r)
  Y c := iprop((∃ r, prngReg c r) ∗ Pipeline.prefHeld pre5 c (fun _ => fullShare) (Call5.tbl (Call5.Vin (W11 m h))))
  Z c := Pipeline.unscopedRestP pre5 spec5 c (Call5.Vin (W11 m h) c)
  hentry c := by
    rw [Pipeline.ownSems0_none]
    iintro ⟨Hpre, -, -⟩
    iapply (Call5.entry (W11 m h) (Chain.ok5 m h) c)
    iexact Hpre
  hin c := Call5.inv_in (W11 m h) (Chain.ok5 m h) c
  hout c := by
    rw [Pipeline.ownSems0_none]
    refine (Call5.inv_out (W11 m h) (Chain.ok5 m h) c).trans ?_
    iintro ⟨HY, Hr⟩
    isplitl [HY]; · iexact HY
    isplitr; · iempintro
    iexact Hr
  hexit c := Call5.exit (W11 m h) (Chain.ok5 m h) c

set_option backward.isDefEq.respectTransparency.types false in
/-- Call 6 over the thread state: entered from every unscoped buffer at its entry contents, left at its exit contents. -/
def reg6 : Pipeline.RegionSeg (pcfgs (F := F)) (adms m h) (pdats m h) () defs₀ Variants.none (fun _ => ∅) (fun _ _ => 0) 6 where
  win := winFacts₀6
  block_pos := block_pos6
  stage_whole := stage_whole6
  K := PEmpty
  osem k := k.elim
  ho := Pipeline.OwnSemFacts.none _
  hbody c := (Call6.body_obligation (Call6.Vin (W13 m h)) (Chain.ok6 m h) c).loose
  hwaits := Pipeline.hwaits_of_owed_zero _ _ _ _ (fun _ => ∅) (fun _ _ => 0) 6 fun _ _ => rfl
  pre c := iprop(StableHlo.held (c : Thread nD τ) (Pipeline.ucRefs τ sig) (W13 m h c) ∗ Call6.Rst c)
  post c := iprop(StableHlo.held (c : Thread nD τ) (Pipeline.ucRefs τ sig) (W14 m h c) ∗ Call6.Rst c)
  X c := iprop(∃ r, prngReg c r)
  Y c := iprop((∃ r, prngReg c r) ∗ Pipeline.prefHeld pre6 c (fun _ => fullShare) (Call6.tbl (Call6.Vin (W13 m h))))
  Z c := Pipeline.unscopedRestP pre6 spec6 c (Call6.Vin (W13 m h) c)
  hentry c := by
    rw [Pipeline.ownSems0_none]
    iintro ⟨Hpre, -, -⟩
    iapply (Call6.entry (W13 m h) (Chain.ok6 m h) c)
    iexact Hpre
  hin c := Call6.inv_in (W13 m h) (Chain.ok6 m h) c
  hout c := by
    rw [Pipeline.ownSems0_none]
    refine (Call6.inv_out (W13 m h) (Chain.ok6 m h) c).trans ?_
    iintro ⟨HY, Hr⟩
    isplitl [HY]; · iexact HY
    isplitr; · iempintro
    iexact Hr
  hexit c := Call6.exit (W13 m h) (Chain.ok6 m h) c

set_option backward.isDefEq.respectTransparency.types false in
/-- Call 7 over the thread state: entered from every unscoped buffer at its entry contents, left at its exit contents. -/
def reg7 : Pipeline.RegionSeg (pcfgs (F := F)) (adms m h) (pdats m h) () defs₀ Variants.none (fun _ => ∅) (fun _ _ => 0) 7 where
  win := winFacts₀7
  block_pos := block_pos7
  stage_whole := stage_whole7
  K := PEmpty
  osem k := k.elim
  ho := Pipeline.OwnSemFacts.none _
  hbody c := (Call7.body_obligation (Call7.Vin (W15 m h)) (Chain.ok7 m h) c).loose
  hwaits := Pipeline.hwaits_of_owed_zero _ _ _ _ (fun _ => ∅) (fun _ _ => 0) 7 fun _ _ => rfl
  pre c := iprop(StableHlo.held (c : Thread nD τ) (Pipeline.ucRefs τ sig) (W15 m h c) ∗ Call7.Rst c)
  post c := iprop(StableHlo.held (c : Thread nD τ) (Pipeline.ucRefs τ sig) (W16 m h c) ∗ Call7.Rst c)
  X c := iprop(∃ r, prngReg c r)
  Y c := iprop((∃ r, prngReg c r) ∗ Pipeline.prefHeld pre7 c (fun _ => fullShare) (Call7.tbl (Call7.Vin (W15 m h))))
  Z c := Pipeline.unscopedRestP pre7 spec7 c (Call7.Vin (W15 m h) c)
  hentry c := by
    rw [Pipeline.ownSems0_none]
    iintro ⟨Hpre, -, -⟩
    iapply (Call7.entry (W15 m h) (Chain.ok7 m h) c)
    iexact Hpre
  hin c := Call7.inv_in (W15 m h) (Chain.ok7 m h) c
  hout c := by
    rw [Pipeline.ownSems0_none]
    refine (Call7.inv_out (W15 m h) (Chain.ok7 m h) c).trans ?_
    iintro ⟨HY, Hr⟩
    isplitl [HY]; · iexact HY
    isplitr; · iempintro
    iexact Hr
  hexit c := Call7.exit (W15 m h) (Chain.ok7 m h) c

set_option backward.isDefEq.respectTransparency.types false in
/-- Call 8 over the thread state: entered from every unscoped buffer at its entry contents, left at its exit contents. -/
def reg8 : Pipeline.RegionSeg (pcfgs (F := F)) (adms m h) (pdats m h) () defs₀ Variants.none (fun _ => ∅) (fun _ _ => 0) 8 where
  win := winFacts₀8
  block_pos := block_pos8
  stage_whole := stage_whole8
  K := PEmpty
  osem k := k.elim
  ho := Pipeline.OwnSemFacts.none _
  hbody c := (Call8.body_obligation (Call8.Vin (W17 m h)) (Chain.ok8 m h) c).loose
  hwaits := Pipeline.hwaits_of_owed_zero _ _ _ _ (fun _ => ∅) (fun _ _ => 0) 8 fun _ _ => rfl
  pre c := iprop(StableHlo.held (c : Thread nD τ) (Pipeline.ucRefs τ sig) (W17 m h c) ∗ Call8.Rst c)
  post c := iprop(StableHlo.held (c : Thread nD τ) (Pipeline.ucRefs τ sig) (W18 m h c) ∗ Call8.Rst c)
  X c := iprop(∃ r, prngReg c r)
  Y c := iprop((∃ r, prngReg c r) ∗ Pipeline.prefHeld pre8 c (fun _ => fullShare) (Call8.tbl (Call8.Vin (W17 m h))))
  Z c := Pipeline.unscopedRestP pre8 spec8 c (Call8.Vin (W17 m h) c)
  hentry c := by
    rw [Pipeline.ownSems0_none]
    iintro ⟨Hpre, -, -⟩
    iapply (Call8.entry (W17 m h) (Chain.ok8 m h) c)
    iexact Hpre
  hin c := Call8.inv_in (W17 m h) (Chain.ok8 m h) c
  hout c := by
    rw [Pipeline.ownSems0_none]
    refine (Call8.inv_out (W17 m h) (Chain.ok8 m h) c).trans ?_
    iintro ⟨HY, Hr⟩
    isplitl [HY]; · iexact HY
    isplitr; · iempintro
    iexact Hr
  hexit c := Call8.exit (W17 m h) (Chain.ok8 m h) c

set_option backward.isDefEq.respectTransparency.types false in
/-- Call 9 over the thread state: entered from every unscoped buffer at its entry contents, left at its exit contents. -/
def reg9 : Pipeline.RegionSeg (pcfgs (F := F)) (adms m h) (pdats m h) () defs₀ Variants.none (fun _ => ∅) (fun _ _ => 0) 9 where
  win := winFacts₀9
  block_pos := block_pos9
  stage_whole := stage_whole9
  K := PEmpty
  osem k := k.elim
  ho := Pipeline.OwnSemFacts.none _
  hbody c := (Call9.body_obligation (Call9.Vin (W19 m h)) (Chain.ok9 m h) c).loose
  hwaits := Pipeline.hwaits_of_owed_zero _ _ _ _ (fun _ => ∅) (fun _ _ => 0) 9 fun _ _ => rfl
  pre c := iprop(StableHlo.held (c : Thread nD τ) (Pipeline.ucRefs τ sig) (W19 m h c) ∗ Call9.Rst c)
  post c := iprop(StableHlo.held (c : Thread nD τ) (Pipeline.ucRefs τ sig) (W20 m h c) ∗ Call9.Rst c)
  X c := iprop(∃ r, prngReg c r)
  Y c := iprop((∃ r, prngReg c r) ∗ Pipeline.prefHeld pre9 c (fun _ => fullShare) (Call9.tbl (Call9.Vin (W19 m h))))
  Z c := Pipeline.unscopedRestP pre9 spec9 c (Call9.Vin (W19 m h) c)
  hentry c := by
    rw [Pipeline.ownSems0_none]
    iintro ⟨Hpre, -, -⟩
    iapply (Call9.entry (W19 m h) (Chain.ok9 m h) c)
    iexact Hpre
  hin c := Call9.inv_in (W19 m h) (Chain.ok9 m h) c
  hout c := by
    rw [Pipeline.ownSems0_none]
    refine (Call9.inv_out (W19 m h) (Chain.ok9 m h) c).trans ?_
    iintro ⟨HY, Hr⟩
    isplitl [HY]; · iexact HY
    isplitr; · iempintro
    iexact Hr
  hexit c := Call9.exit (W19 m h) (Chain.ok9 m h) c

set_option backward.isDefEq.respectTransparency.types false in
/-- Call 10 over the thread state: entered from every unscoped buffer at its entry contents, left at its exit contents. -/
def reg10 : Pipeline.RegionSeg (pcfgs (F := F)) (adms m h) (pdats m h) () defs₀ Variants.none (fun _ => ∅) (fun _ _ => 0) 10 where
  win := winFacts₀10
  block_pos := block_pos10
  stage_whole := stage_whole10
  K := PEmpty
  osem k := k.elim
  ho := Pipeline.OwnSemFacts.none _
  hbody c := (Call10.body_obligation (Call10.Vin (W21 m h)) (Chain.ok10 m h) c).loose
  hwaits := Pipeline.hwaits_of_owed_zero _ _ _ _ (fun _ => ∅) (fun _ _ => 0) 10 fun _ _ => rfl
  pre c := iprop(StableHlo.held (c : Thread nD τ) (Pipeline.ucRefs τ sig) (W21 m h c) ∗ Call10.Rst c)
  post c := iprop(StableHlo.held (c : Thread nD τ) (Pipeline.ucRefs τ sig) (W22 m h c) ∗ Call10.Rst c)
  X c := iprop(∃ r, prngReg c r)
  Y c := iprop((∃ r, prngReg c r) ∗ Pipeline.prefHeld pre10 c (fun _ => fullShare) (Call10.tbl (Call10.Vin (W21 m h))))
  Z c := Pipeline.unscopedRestP pre10 spec10 c (Call10.Vin (W21 m h) c)
  hentry c := by
    rw [Pipeline.ownSems0_none]
    iintro ⟨Hpre, -, -⟩
    iapply (Call10.entry (W21 m h) (Chain.ok10 m h) c)
    iexact Hpre
  hin c := Call10.inv_in (W21 m h) (Chain.ok10 m h) c
  hout c := by
    rw [Pipeline.ownSems0_none]
    refine (Call10.inv_out (W21 m h) (Chain.ok10 m h) c).trans ?_
    iintro ⟨HY, Hr⟩
    isplitl [HY]; · iexact HY
    isplitr; · iempintro
    iexact Hr
  hexit c := Call10.exit (W21 m h) (Chain.ok10 m h) c

set_option backward.isDefEq.respectTransparency.types false in
/-- Call 11 over the thread state: entered from every unscoped buffer at its entry contents, left at its exit contents. -/
def reg11 : Pipeline.RegionSeg (pcfgs (F := F)) (adms m h) (pdats m h) () defs₀ Variants.none (fun _ => ∅) (fun _ _ => 0) 11 where
  win := winFacts₀11
  block_pos := block_pos11
  stage_whole := stage_whole11
  K := PEmpty
  osem k := k.elim
  ho := Pipeline.OwnSemFacts.none _
  hbody c := (Call11.body_obligation (Call11.Vin (W23 m h)) (Chain.ok11 m h) c).loose
  hwaits := Pipeline.hwaits_of_owed_zero _ _ _ _ (fun _ => ∅) (fun _ _ => 0) 11 fun _ _ => rfl
  pre c := iprop(StableHlo.held (c : Thread nD τ) (Pipeline.ucRefs τ sig) (W23 m h c) ∗ Call11.Rst c)
  post c := iprop(StableHlo.held (c : Thread nD τ) (Pipeline.ucRefs τ sig) (W24 m h c) ∗ Call11.Rst c)
  X c := iprop(∃ r, prngReg c r)
  Y c := iprop((∃ r, prngReg c r) ∗ Pipeline.prefHeld pre11 c (fun _ => fullShare) (Call11.tbl (Call11.Vin (W23 m h))))
  Z c := Pipeline.unscopedRestP pre11 spec11 c (Call11.Vin (W23 m h) c)
  hentry c := by
    rw [Pipeline.ownSems0_none]
    iintro ⟨Hpre, -, -⟩
    iapply (Call11.entry (W23 m h) (Chain.ok11 m h) c)
    iexact Hpre
  hin c := Call11.inv_in (W23 m h) (Chain.ok11 m h) c
  hout c := by
    rw [Pipeline.ownSems0_none]
    refine (Call11.inv_out (W23 m h) (Chain.ok11 m h) c).trans ?_
    iintro ⟨HY, Hr⟩
    isplitl [HY]; · iexact HY
    isplitr; · iempintro
    iexact Hr
  hexit c := Call11.exit (W23 m h) (Chain.ok11 m h) c

set_option backward.isDefEq.respectTransparency.types false in
/-- Call 12 over the thread state: entered from every unscoped buffer at its entry contents, left at its exit contents. -/
def reg12 : Pipeline.RegionSeg (pcfgs (F := F)) (adms m h) (pdats m h) () defs₀ Variants.none (fun _ => ∅) (fun _ _ => 0) 12 where
  win := winFacts₀12
  block_pos := block_pos12
  stage_whole := stage_whole12
  K := PEmpty
  osem k := k.elim
  ho := Pipeline.OwnSemFacts.none _
  hbody c := (Call12.body_obligation (Call12.Vin (W25 m h)) (Chain.ok12 m h) c).loose
  hwaits := Pipeline.hwaits_of_owed_zero _ _ _ _ (fun _ => ∅) (fun _ _ => 0) 12 fun _ _ => rfl
  pre c := iprop(StableHlo.held (c : Thread nD τ) (Pipeline.ucRefs τ sig) (W25 m h c) ∗ Call12.Rst c)
  post c := iprop(StableHlo.held (c : Thread nD τ) (Pipeline.ucRefs τ sig) (W26 m h c) ∗ Call12.Rst c)
  X c := iprop(∃ r, prngReg c r)
  Y c := iprop((∃ r, prngReg c r) ∗ Pipeline.prefHeld pre12 c (fun _ => fullShare) (Call12.tbl (Call12.Vin (W25 m h))))
  Z c := Pipeline.unscopedRestP pre12 spec12 c (Call12.Vin (W25 m h) c)
  hentry c := by
    rw [Pipeline.ownSems0_none]
    iintro ⟨Hpre, -, -⟩
    iapply (Call12.entry (W25 m h) (Chain.ok12 m h) c)
    iexact Hpre
  hin c := Call12.inv_in (W25 m h) (Chain.ok12 m h) c
  hout c := by
    rw [Pipeline.ownSems0_none]
    refine (Call12.inv_out (W25 m h) (Chain.ok12 m h) c).trans ?_
    iintro ⟨HY, Hr⟩
    isplitl [HY]; · iexact HY
    isplitr; · iempintro
    iexact Hr
  hexit c := Call12.exit (W25 m h) (Chain.ok12 m h) c

set_option backward.isDefEq.respectTransparency.types false in
/-- Call 13 over the thread state: entered from every unscoped buffer at its entry contents, left at its exit contents. -/
def reg13 : Pipeline.RegionSeg (pcfgs (F := F)) (adms m h) (pdats m h) () defs₀ Variants.none (fun _ => ∅) (fun _ _ => 0) 13 where
  win := winFacts₀13
  block_pos := block_pos13
  stage_whole := stage_whole13
  K := PEmpty
  osem k := k.elim
  ho := Pipeline.OwnSemFacts.none _
  hbody c := (Call13.body_obligation (Call13.Vin (W27 m h)) (Chain.ok13 m h) c).loose
  hwaits := Pipeline.hwaits_of_owed_zero _ _ _ _ (fun _ => ∅) (fun _ _ => 0) 13 fun _ _ => rfl
  pre c := iprop(StableHlo.held (c : Thread nD τ) (Pipeline.ucRefs τ sig) (W27 m h c) ∗ Call13.Rst c)
  post c := iprop(StableHlo.held (c : Thread nD τ) (Pipeline.ucRefs τ sig) (W28 m h c) ∗ Call13.Rst c)
  X c := iprop(∃ r, prngReg c r)
  Y c := iprop((∃ r, prngReg c r) ∗ Pipeline.prefHeld pre13 c (fun _ => fullShare) (Call13.tbl (Call13.Vin (W27 m h))))
  Z c := Pipeline.unscopedRestP pre13 spec13 c (Call13.Vin (W27 m h) c)
  hentry c := by
    rw [Pipeline.ownSems0_none]
    iintro ⟨Hpre, -, -⟩
    iapply (Call13.entry (W27 m h) (Chain.ok13 m h) c)
    iexact Hpre
  hin c := Call13.inv_in (W27 m h) (Chain.ok13 m h) c
  hout c := by
    rw [Pipeline.ownSems0_none]
    refine (Call13.inv_out (W27 m h) (Chain.ok13 m h) c).trans ?_
    iintro ⟨HY, Hr⟩
    isplitl [HY]; · iexact HY
    isplitr; · iempintro
    iexact Hr
  hexit c := Call13.exit (W27 m h) (Chain.ok13 m h) c

set_option backward.isDefEq.respectTransparency.types false in
/-- Call 14 over the thread state: entered from every unscoped buffer at its entry contents, left at its exit contents. -/
def reg14 : Pipeline.RegionSeg (pcfgs (F := F)) (adms m h) (pdats m h) () defs₀ Variants.none (fun _ => ∅) (fun _ _ => 0) 14 where
  win := winFacts₀14
  block_pos := block_pos14
  stage_whole := stage_whole14
  K := PEmpty
  osem k := k.elim
  ho := Pipeline.OwnSemFacts.none _
  hbody c := (Call14.body_obligation (Call14.Vin (W29 m h)) (Chain.ok14 m h) c).loose
  hwaits := Pipeline.hwaits_of_owed_zero _ _ _ _ (fun _ => ∅) (fun _ _ => 0) 14 fun _ _ => rfl
  pre c := iprop(StableHlo.held (c : Thread nD τ) (Pipeline.ucRefs τ sig) (W29 m h c) ∗ Call14.Rst c)
  post c := iprop(StableHlo.held (c : Thread nD τ) (Pipeline.ucRefs τ sig) (W30 m h c) ∗ Call14.Rst c)
  X c := iprop(∃ r, prngReg c r)
  Y c := iprop((∃ r, prngReg c r) ∗ Pipeline.prefHeld pre14 c (fun _ => fullShare) (Call14.tbl (Call14.Vin (W29 m h))))
  Z c := Pipeline.unscopedRestP pre14 spec14 c (Call14.Vin (W29 m h) c)
  hentry c := by
    rw [Pipeline.ownSems0_none]
    iintro ⟨Hpre, -, -⟩
    iapply (Call14.entry (W29 m h) (Chain.ok14 m h) c)
    iexact Hpre
  hin c := Call14.inv_in (W29 m h) (Chain.ok14 m h) c
  hout c := by
    rw [Pipeline.ownSems0_none]
    refine (Call14.inv_out (W29 m h) (Chain.ok14 m h) c).trans ?_
    iintro ⟨HY, Hr⟩
    isplitl [HY]; · iexact HY
    isplitr; · iempintro
    iexact Hr
  hexit c := Call14.exit (W29 m h) (Chain.ok14 m h) c

set_option backward.isDefEq.respectTransparency.types false in
/-- Call 15 over the thread state: entered from every unscoped buffer at its entry contents, left at its exit contents. -/
def reg15 : Pipeline.RegionSeg (pcfgs (F := F)) (adms m h) (pdats m h) () defs₀ Variants.none (fun _ => ∅) (fun _ _ => 0) 15 where
  win := winFacts₀15
  block_pos := block_pos15
  stage_whole := stage_whole15
  K := PEmpty
  osem k := k.elim
  ho := Pipeline.OwnSemFacts.none _
  hbody c := (Call15.body_obligation (Call15.Vin (W31 m h)) (Chain.ok15 m h) c).loose
  hwaits := Pipeline.hwaits_of_owed_zero _ _ _ _ (fun _ => ∅) (fun _ _ => 0) 15 fun _ _ => rfl
  pre c := iprop(StableHlo.held (c : Thread nD τ) (Pipeline.ucRefs τ sig) (W31 m h c) ∗ Call15.Rst c)
  post c := iprop(StableHlo.held (c : Thread nD τ) (Pipeline.ucRefs τ sig) (W32 m h c) ∗ Call15.Rst c)
  X c := iprop(∃ r, prngReg c r)
  Y c := iprop((∃ r, prngReg c r) ∗ Pipeline.prefHeld pre15 c (fun _ => fullShare) (Call15.tbl (Call15.Vin (W31 m h))))
  Z c := Pipeline.unscopedRestP pre15 spec15 c (Call15.Vin (W31 m h) c)
  hentry c := by
    rw [Pipeline.ownSems0_none]
    iintro ⟨Hpre, -, -⟩
    iapply (Call15.entry (W31 m h) (Chain.ok15 m h) c)
    iexact Hpre
  hin c := Call15.inv_in (W31 m h) (Chain.ok15 m h) c
  hout c := by
    rw [Pipeline.ownSems0_none]
    refine (Call15.inv_out (W31 m h) (Chain.ok15 m h) c).trans ?_
    iintro ⟨HY, Hr⟩
    isplitl [HY]; · iexact HY
    isplitr; · iempintro
    iexact Hr
  hexit c := Call15.exit (W31 m h) (Chain.ok15 m h) c

end Cert.KernelIdeal.Whole

end
-- ==== Proof.Whole.lean ====
import proofs.«406163_j35201551958720_3_alg».proof.Proof.Segments
import Idealize.ShloMosaic.Lib.Pipeline.Kit

set_option maxRecDepth 16384

noncomputable section

namespace Cert.KernelIdeal.Whole

open Cert.KernelIdeal Cert.KernelIdeal.Gen Cert.KernelIdeal.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : InRange m) (ρ : Dev nD → PrngReg)

/-! # The whole program: from any memory whose index arrays name rows, every fair execution ends with the arguments
as launched and the result buffer at the chain's last contents -/

set_option backward.isDefEq.respectTransparency.types false in
theorem run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v89) = W33 m h c main_v89) := by
  have key := Regions.frame_cond (F := F) m (Ix := Unit) (U := UR sig nD τ) (Lvl := ℕ) emb₁ () Variants.none (fun _ => ∅) (fun _ _ => 0) (fun _ _ => rfl)
      ρ (outs m h) (adms m h) (pdats m h) (O₀ := 0) (G := fun _ => iprop(emp))
      (u₀ := initOf (Pipeline.cells (Pipeline.pin (pcfgs (F := F)) (adms m h)) (cellOf_inj (adms m h))) (Pipeline.launchToks (Pipeline.pin (pcfgs (F := F)) (adms m h)) (cellOf_inj (adms m h))))
      (hu₀ := by
        iintro Hu; imodintro
        isplitl [Hu]
        · iapply (show (ownU (initOf (Pipeline.cells (Pipeline.pin (pcfgs (F := F)) (adms m h)) (cellOf_inj (adms m h))) (Pipeline.launchToks (Pipeline.pin (pcfgs (F := F)) (adms m h)) (cellOf_inj (adms m h)))) : sProp 𝕄)
              ⊢ BI.own (emb₁ (initOf (Pipeline.cells (Pipeline.pin (pcfgs (F := F)) (adms m h)) (cellOf_inj (adms m h))) (Pipeline.launchToks (Pipeline.pin (pcfgs (F := F)) (adms m h)) (cellOf_inj (adms m h))))) from .rfl)
          iexact Hu
        iapply (show (BI.emp : sProp 𝕄) ⊢ bigSep Finset.univ (fun _ : Dev nD => (BI.emp : sProp 𝕄)) from by rw [BI.bigSep_emp_const])
        iempintro)
      (E := fun _ c => Call0.Rst c)
      (hE0 := by
        refine Pipeline.initEach (fun _ => ∅) (fun _ _ => 0) fun c => ?_
        iintro ⟨⟨-, HO, -, Hp, -⟩, -⟩
        imodintro
        isplitl [Hp]; · iexists _; iexact Hp
        iexists ∅; iexact HO)
      (hE16 := fun c => by
        iintro ⟨-, HO⟩
        iexact HO)
      (reg0 m h) (fun c => by rw [V1_eq]; exact .rfl) (fun c => by rw [V2_eq]; exact .rfl)
      (reg1 m h) (fun c => by rw [V3_eq]; exact .rfl) (fun c => by rw [V4_eq]; exact .rfl)
      (reg2 m h) (fun c => by rw [V5_eq]; exact .rfl) (fun c => by rw [V6_eq]; exact .rfl)
      (reg3 m h) (fun c => by rw [V7_eq]; exact .rfl) (fun c => by rw [V8_eq]; exact .rfl)
      (reg4 m h) (fun c => by rw [V9_eq]; exact .rfl) (fun c => by rw [V10_eq]; exact .rfl)
      (reg5 m h) (fun c => by rw [V11_eq]; exact .rfl) (fun c => by rw [V12_eq]; exact .rfl)
      (reg6 m h) (fun c => by rw [V13_eq]; exact .rfl) (fun c => by rw [V14_eq]; exact .rfl)
      (reg7 m h) (fun c => by rw [V15_eq]; exact .rfl) (fun c => by rw [V16_eq]; exact .rfl)
      (reg8 m h) (fun c => by rw [V17_eq]; exact .rfl) (fun c => by rw [V18_eq]; exact .rfl)
      (reg9 m h) (fun c => by rw [V19_eq]; exact .rfl) (fun c => by rw [V20_eq]; exact .rfl)
      (reg10 m h) (fun c => by rw [V21_eq]; exact .rfl) (fun c => by rw [V22_eq]; exact .rfl)
      (reg11 m h) (fun c => by rw [V23_eq]; exact .rfl) (fun c => by rw [V24_eq]; exact .rfl)
      (reg12 m h) (fun c => by rw [V25_eq]; exact .rfl) (fun c => by rw [V26_eq]; exact .rfl)
      (reg13 m h) (fun c => by rw [V27_eq]; exact .rfl) (fun c => by rw [V28_eq]; exact .rfl)
      (reg14 m h) (fun c => by rw [V29_eq]; exact .rfl) (fun c => by rw [V30_eq]; exact .rfl)
      (reg15 m h) (fun c => by rw [V31_eq]; exact .rfl) (fun c => by rw [V32_eq]; exact .rfl)
  refine (θ_run defs _ _).mono (fun r hr c => ?_) key
  obtain ⟨h0, h1, h2, h3⟩ := hr c
  exact ⟨h0, h1, h2, h3.trans (congrFun (V33_eq m h c) _)⟩

end Cert.KernelIdeal.Whole

end
-- ==== Proof.WordCall0Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0: one pair per grid point, its distance added to a one-entry accumulator

The body's only branch tests whether the point is the first of the grid: there the accumulator is reset to zero
before the pair's distance is added; at every later point the distance is added to what the point before left. -/

/-- The branch condition, from the grid coordinate: the point is the first. -/
abbrev cond (i : grid0.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v5
abbrev htbA : tbA.IsWhole := Memref.isWhole_whole _
abbrev tbB : Memref sig .tc .smem S25000 .i32 := Memref.whole main_v6
abbrev htbB : tbB.IsWhole := Memref.isWhole_whole _

/-- The accumulator's staging buffer, through which its contents are stated. -/
abbrev VO : View sig .tc .vmem S1x1 .f32 := (Memref.whole cc0_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc0_kernel i tbA htbA tbB htbB arg3 harg3 arg4 harg4 arg5 harg5) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc0_kernel i tbA htbA tbB htbB arg3 harg3 arg4 harg4 arg5 harg5) K } := by
  refine ⟨?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call0

end
-- ==== Proof.WordCall0Data.lean ====
import proofs.«406163_j35201551958720_3_alg».proof.Proof.Gen.Kernel.Launch
import proofs.«406163_j35201551958720_3_alg».proof.Proof.Gen.Kernel.Skeleton
import proofs.«406163_j35201551958720_3_alg».proof.Proof.WordCall0Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0 over any entry contents: blocks, the running accumulator, the proof data, the body at a point -/

variable (V : (c : Dev nD) → (b : Ref sig .tc) → Buf (Elt F) ((c : Thread nD τ).loc b))

/-- The two index tables' contents when the region is entered (one device). -/
def tbl : pre0.Contents (Elt F) := fun j => V (0 : Dev nD) (pre0.ref j)
theorem V_pre (c : Dev nD) (j : Fin 2) : V c (pre0.ref j) = tbl V j := by
  obtain rfl : c = 0 := Subsingleton.elim _ _; rfl
/-- Every row the tables name lies inside the array of rows. -/
abbrev Ok : Prop := ok0 (F := F) (tbl V)
abbrev adm (hO : Ok V) : (pcfg0 (F := F)).Adm := ⟨tbl V, hO⟩
abbrev cfgM (hO : Ok V) : Pipeline.Cfg sig Λ₀ := cfg0 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec0 w))

/-- The staging memrefs the body is handed at point `t`. -/
abbrev ms0 (hO : Ok V) (t : Fin (cfgM V hO).N) : Memref sig .tc .vmem S1x1x256 .f32 := spec0_0.stage ((cfgM V hO).slots t 0)
abbrev hs0 (hO : Ok V) (t : Fin (cfgM V hO).N) : (ms0 V hO t).IsWhole := hstage0_0 (((cfgM V hO).slots t 0).cast nbuf0_0)
abbrev ms1 (hO : Ok V) (t : Fin (cfgM V hO).N) : Memref sig .tc .vmem S1x1x256 .f32 := spec0_1.stage ((cfgM V hO).slots t 1)
abbrev hs1 (hO : Ok V) (t : Fin (cfgM V hO).N) : (ms1 V hO t).IsWhole := hstage0_1 (((cfgM V hO).slots t 1).cast nbuf0_1)
abbrev ms2 (hO : Ok V) (t : Fin (cfgM V hO).N) : Memref sig .tc .vmem S1x1 .f32 := spec0_2.stage ((cfgM V hO).slots t 2)
abbrev hs2 (hO : Ok V) (t : Fin (cfgM V hO).N) : (ms2 V hO t).IsWhole := hstage0_2 (((cfgM V hO).slots t 2).cast nbuf0_2)

/-- The body as the pipeline calls it at point `t`. -/
abbrev bodyAt (a : (pcfg0 (F := F)).Adm) (t : Fin (cfg0 a).N) : Prog (TpuEff nD τ sig (Elt F) Λ₀ .tc) PUnit :=
  cc0_kernel (grid0.coords t) (Memref.whole main_v5) (Memref.isWhole_whole _) (Memref.whole main_v6) (Memref.isWhole_whole _)
    (spec0_0.stage ((cfg0 a).slots t 0)) (hstage0_0 (((cfg0 a).slots t 0).cast nbuf0_0))
    (spec0_1.stage ((cfg0 a).slots t 1)) (hstage0_1 (((cfg0 a).slots t 1).cast nbuf0_1))
    (spec0_2.stage ((cfg0 a).slots t 2)) (hstage0_2 (((cfg0 a).slots t 2).cast nbuf0_2))

/-- The one grid coordinate of point `t` is `t`. -/
theorem coords_val (t : Fin grid0.N) : ((grid0.coords t) 0).val = t.val := by
  have hN : t.val < 25000 := lt_of_lt_of_eq t.isLt N_0
  show t.val / grid0.stride 0 % grid0.bound 0 = t.val
  rw [show grid0.stride 0 = 1 from by decide, show grid0.bound 0 = 25000 from rfl, Nat.div_one, Nat.mod_eq_of_lt hN]

/-- The branch is taken at the first point only. -/
theorem hcond (t : Fin grid0.N) : cond (grid0.coords t) ↔ t.val = 0 := by
  exact (Cert.FirstPoint.cond_iff ((grid0.coords t) 0).val ((grid0.coords t) 0).isLt).trans (by rw [coords_val])

/-! ## What the accumulator's buffer holds after each case -/

theorem coverFirst (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid0.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid0.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid0.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid0.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 0 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec0 w)
  after w t := match w with
    | ⟨0, _⟩ => iblk V hO c 0 t
    | ⟨1, _⟩ => iblk V hO c 1 t
    | ⟨2, _⟩ => accAt V hO c t.val t.isLt
  Φ _ := iprop(Pipeline.ΦA spec0 c ∗ Pipeline.prefHeld (Ix := Unit) (Name := ℕ) (U := UR sig nD τ) (Lvl := ℕ) pre0 c (fun _ => fullShare) (tbl V))
  q w := if w = 0 then fullShare.left else fullShare.right
  owed _ := 0

theorem A_eq (hO : Ok V) (c : Dev nD) (w : Fin (cfgM V hO).W) : (dat V hO c).A w = V c (Pipeline.arrRef spec0 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg0 (F := F)).Adm) (t : Fin (cfg0 a).N) (ht : t.val + 1 < (cfg0 a).N) : ((cfg0 a).win 2).flush t = false := by
  have hix : ∀ s : Fin (cfg0 a).N, ((cfg0 a).win 2).index s = ![0, 0] := fun _ => rfl
  unfold Pipeline.Window.flush
  rw [Bool.and_eq_false_iff]; right
  rw [Bool.or_eq_false_iff]
  refine ⟨decide_eq_false (by have : (cfg0 a).N = (cfg0 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg0 (adm V hO)).N := t.isLt
  rw [Dat.before_out_kept _ 2 rfl t h0 (flush_2 (adm V hO) _ (by show t.val - 1 + 1 < (cfg0 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v7 ((dat (Vin W) hO c).arrAt 2 (cfgM (Vin W) hO).N)

end Cert.Kernel.Call0

end
-- ==== Proof.WordCall0Body.lean ====
import proofs.«406163_j35201551958720_3_alg».proof.Proof.Gen.Kernel.Launch
import proofs.«406163_j35201551958720_3_alg».proof.Proof.Gen.Kernel.Skeleton
import proofs.«406163_j35201551958720_3_alg».proof.Proof.WordCall0Data
import Idealize.ShloMosaic.Lib.Pipeline.FrameBody
import Idealize.ShloMosaic.Lib.Ring
import Idealize.ShloMosaic.Lib.Tactic

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid0.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid0.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W0, bigSep_W0]
  exact sound_body V hO c t

end Cert.Kernel.Call0

end
-- ==== Proof.WordCall0Region.lean ====
import proofs.«406163_j35201551958720_3_alg».proof.Proof.Gen.Kernel.Launch
import proofs.«406163_j35201551958720_3_alg».proof.Proof.Gen.Kernel.Skeleton
import proofs.«406163_j35201551958720_3_alg».proof.Proof.WordCall0Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 0 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec0)) = {main_v0, main_v7} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec0 c V
      ∗ Pipeline.prefHeld pre0 c (fun _ => fullShare) (fun k => V (pre0.ref k)) ∗ Pipeline.unscopedRestP pre0 spec0 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀0.arr_unscoped c V
  have hrs := Pipeline.unscopedRest_split (Ix := Unit) (Name := ℕ) (U := UR sig nD τ) (Lvl := ℕ) (nD := nD) (τ := τ) (Val := Elt F)
    preFacts0 c V
  rw [hsp, show Pipeline.unscopedRest (cfgM (Vin W) hO).spec c V = Pipeline.unscopedRest (Ix := Unit) (Name := ℕ) (U := UR sig nD τ) (Lvl := ℕ) spec0 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec0 c V : sProp 𝕄)
      = iprop((((c : Thread nD τ).loc main_v0) ↦{fullShare} V main_v0) ∗ (((c : Thread nD τ).loc main_v7) ↦{fullShare} V main_v7)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v7) ↦{fullShare} Vin W c main_v7)) := by
  unfold Pipeline.Dat.arrays
  rw [bigSep_W0]
  have hs0 : ((cfgM (Vin W) hO).win (0 : Fin 3)).arr.view.set = Finset.univ := (arr_whole0 0).set_eq_univ
  have hs1 : ((cfgM (Vin W) hO).win (1 : Fin 3)).arr.view.set = Finset.univ := (arr_whole0 1).set_eq_univ
  have hs2 : ((cfgM (Vin W) hO).win (2 : Fin 3)).arr.view.set = Finset.univ := (arr_whole0 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v7 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v7) ↦{fullShare} Vin W c main_v7))
          ∗ Pipeline.prefHeld pre0 c (fun _ => fullShare) (tbl (Vin W)) ∗ Pipeline.unscopedRestP pre0 spec0 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre0.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre0 c (fun _ => fullShare) (tbl (Vin W))
          ∗ (dat (Vin W) hO c).owesAt () 0 ∗ (∃ r, prngReg c r) ∗ Pipeline.unscopedRestP pre0 spec0 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v7) ↦{fullShare} (dat (Vin W) hO c).arrAt 2 (cfgM (Vin W) hO).N)) := by
  unfold Pipeline.Dat.arrays
  rw [bigSep_W0]
  have hs0 : ((cfgM (Vin W) hO).win (0 : Fin 3)).arr.view.set = Finset.univ := (arr_whole0 0).set_eq_univ
  have hs1 : ((cfgM (Vin W) hO).win (1 : Fin 3)).arr.view.set = Finset.univ := (arr_whole0 1).set_eq_univ
  have hs2 : ((cfgM (Vin W) hO).win (2 : Fin 3)).arr.view.set = Finset.univ := (arr_whole0 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v7 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v7) ↦{fullShare} (dat (Vin W) hO c).arrAt 2 (cfgM (Vin W) hO).N))
          ∗ Pipeline.prefHeld pre0 c (fun _ => fullShare) (tbl (Vin W)) ∗ Pipeline.unscopedRestP pre0 spec0 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v7 = (dat (Vin W) hO c).arrAt 2 (cfgM (Vin W) hO).N := Function.update_self _ _ _
  have et : (fun k => Vin (Wout W hO) c (pre0.ref k)) = tbl (Vin W) := funext fun k => by
    refine (Function.update_of_ne ?_ _ _).trans (V_pre (Vin W) c k)
    intro e
    have := Proc.devRef_injective _ e
    revert k; decide
  have er : (Pipeline.unscopedRestP pre0 spec0 c (Vin (Wout W hO) c) : sProp 𝕄) = Pipeline.unscopedRestP pre0 spec0 c (Vin W c) := by
    unfold Pipeline.unscopedRestP
    refine bigSep_congr fun b hb => ?_
    have hb1 : b ∉ Finset.univ.image (Pipeline.arrRef spec0) := (Finset.mem_sdiff.mp (Finset.mem_sdiff.mp hb).1).2
    have hne : b ≠ main_v7 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre0 c (fun _ => fullShare) (tbl (Vin W)))
        ∗ Pipeline.unscopedRestP pre0 spec0 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre0 c (fun _ => fullShare) (tbl (Vin W)) ∗ Pipeline.scopedRest spec0 c) : sProp 𝕄)
      ⊢ (dat (Vin W) hO c).Φ 0 := by
  rw [show (dat (Vin W) hO c).Φ 0 = iprop(Pipeline.ΦA spec0 c ∗ Pipeline.prefHeld (Ix := Unit) (Name := ℕ) (U := UR sig nD τ) (Lvl := ℕ) pre0 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre0 c (fun _ => fullShare) (tbl (Vin W))) ∗ Pipeline.scopedRest spec0 c) : sProp 𝕄) := by
  rw [show (dat (Vin W) hO c).Φ (Fin.last _) = iprop(Pipeline.ΦA spec0 c ∗ Pipeline.prefHeld (Ix := Unit) (Name := ℕ) (U := UR sig nD τ) (Lvl := ℕ) pre0 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call0

end
-- ==== Proof.WordCall1Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1: one pair per grid point, its distance added to a one-entry accumulator

The body's only branch tests whether the point is the first of the grid: there the accumulator is reset to zero
before the pair's distance is added; at every later point the distance is added to what the point before left. -/

/-- The branch condition, from the grid coordinate: the point is the first. -/
abbrev cond (i : grid1.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v10
abbrev htbA : tbA.IsWhole := Memref.isWhole_whole _
abbrev tbB : Memref sig .tc .smem S25000 .i32 := Memref.whole main_v11
abbrev htbB : tbB.IsWhole := Memref.isWhole_whole _

/-- The accumulator's staging buffer, through which its contents are stated. -/
abbrev VO : View sig .tc .vmem S1x1 .f32 := (Memref.whole cc1_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc1_kernel i tbA htbA tbB htbB arg3 harg3 arg4 harg4 arg5 harg5) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc1_kernel i tbA htbA tbB htbB arg3 harg3 arg4 harg4 arg5 harg5) K } := by
  refine ⟨?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call1

end
-- ==== Proof.WordCall1Data.lean ====
import proofs.«406163_j35201551958720_3_alg».proof.Proof.Gen.Kernel.Launch
import proofs.«406163_j35201551958720_3_alg».proof.Proof.Gen.Kernel.Skeleton
import proofs.«406163_j35201551958720_3_alg».proof.Proof.WordCall1Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1 over any entry contents: blocks, the running accumulator, the proof data, the body at a point -/

variable (V : (c : Dev nD) → (b : Ref sig .tc) → Buf (Elt F) ((c : Thread nD τ).loc b))

/-- The two index tables' contents when the region is entered (one device). -/
def tbl : pre1.Contents (Elt F) := fun j => V (0 : Dev nD) (pre1.ref j)
theorem V_pre (c : Dev nD) (j : Fin 2) : V c (pre1.ref j) = tbl V j := by
  obtain rfl : c = 0 := Subsingleton.elim _ _; rfl
/-- Every row the tables name lies inside the array of rows. -/
abbrev Ok : Prop := ok1 (F := F) (tbl V)
abbrev adm (hO : Ok V) : (pcfg1 (F := F)).Adm := ⟨tbl V, hO⟩
abbrev cfgM (hO : Ok V) : Pipeline.Cfg sig Λ₀ := cfg1 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec1 w))

/-- The staging memrefs the body is handed at point `t`. -/
abbrev ms0 (hO : Ok V) (t : Fin (cfgM V hO).N) : Memref sig .tc .vmem S1x1x256 .f32 := spec1_0.stage ((cfgM V hO).slots t 0)
abbrev hs0 (hO : Ok V) (t : Fin (cfgM V hO).N) : (ms0 V hO t).IsWhole := hstage1_0 (((cfgM V hO).slots t 0).cast nbuf1_0)
abbrev ms1 (hO : Ok V) (t : Fin (cfgM V hO).N) : Memref sig .tc .vmem S1x1x256 .f32 := spec1_1.stage ((cfgM V hO).slots t 1)
abbrev hs1 (hO : Ok V) (t : Fin (cfgM V hO).N) : (ms1 V hO t).IsWhole := hstage1_1 (((cfgM V hO).slots t 1).cast nbuf1_1)
abbrev ms2 (hO : Ok V) (t : Fin (cfgM V hO).N) : Memref sig .tc .vmem S1x1 .f32 := spec1_2.stage ((cfgM V hO).slots t 2)
abbrev hs2 (hO : Ok V) (t : Fin (cfgM V hO).N) : (ms2 V hO t).IsWhole := hstage1_2 (((cfgM V hO).slots t 2).cast nbuf1_2)

/-- The body as the pipeline calls it at point `t`. -/
abbrev bodyAt (a : (pcfg1 (F := F)).Adm) (t : Fin (cfg1 a).N) : Prog (TpuEff nD τ sig (Elt F) Λ₀ .tc) PUnit :=
  cc1_kernel (grid1.coords t) (Memref.whole main_v10) (Memref.isWhole_whole _) (Memref.whole main_v11) (Memref.isWhole_whole _)
    (spec1_0.stage ((cfg1 a).slots t 0)) (hstage1_0 (((cfg1 a).slots t 0).cast nbuf1_0))
    (spec1_1.stage ((cfg1 a).slots t 1)) (hstage1_1 (((cfg1 a).slots t 1).cast nbuf1_1))
    (spec1_2.stage ((cfg1 a).slots t 2)) (hstage1_2 (((cfg1 a).slots t 2).cast nbuf1_2))

/-- The one grid coordinate of point `t` is `t`. -/
theorem coords_val (t : Fin grid1.N) : ((grid1.coords t) 0).val = t.val := by
  have hN : t.val < 25000 := lt_of_lt_of_eq t.isLt N_1
  show t.val / grid1.stride 0 % grid1.bound 0 = t.val
  rw [show grid1.stride 0 = 1 from by decide, show grid1.bound 0 = 25000 from rfl, Nat.div_one, Nat.mod_eq_of_lt hN]

/-- The branch is taken at the first point only. -/
theorem hcond (t : Fin grid1.N) : cond (grid1.coords t) ↔ t.val = 0 := by
  exact (Cert.FirstPoint.cond_iff ((grid1.coords t) 0).val ((grid1.coords t) 0).isLt).trans (by rw [coords_val])

/-! ## What the accumulator's buffer holds after each case -/

theorem coverFirst (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid1.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid1.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid1.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid1.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 1 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec1 w)
  after w t := match w with
    | ⟨0, _⟩ => iblk V hO c 0 t
    | ⟨1, _⟩ => iblk V hO c 1 t
    | ⟨2, _⟩ => accAt V hO c t.val t.isLt
  Φ _ := iprop(Pipeline.ΦA spec1 c ∗ Pipeline.prefHeld (Ix := Unit) (Name := ℕ) (U := UR sig nD τ) (Lvl := ℕ) pre1 c (fun _ => fullShare) (tbl V))
  q w := if w = 0 then fullShare.left else fullShare.right
  owed _ := 0

theorem A_eq (hO : Ok V) (c : Dev nD) (w : Fin (cfgM V hO).W) : (dat V hO c).A w = V c (Pipeline.arrRef spec1 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg1 (F := F)).Adm) (t : Fin (cfg1 a).N) (ht : t.val + 1 < (cfg1 a).N) : ((cfg1 a).win 2).flush t = false := by
  have hix : ∀ s : Fin (cfg1 a).N, ((cfg1 a).win 2).index s = ![0, 0] := fun _ => rfl
  unfold Pipeline.Window.flush
  rw [Bool.and_eq_false_iff]; right
  rw [Bool.or_eq_false_iff]
  refine ⟨decide_eq_false (by have : (cfg1 a).N = (cfg1 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg1 (adm V hO)).N := t.isLt
  rw [Dat.before_out_kept _ 2 rfl t h0 (flush_2 (adm V hO) _ (by show t.val - 1 + 1 < (cfg1 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v12 ((dat (Vin W) hO c).arrAt 2 (cfgM (Vin W) hO).N)

end Cert.Kernel.Call1

end
-- ==== Proof.WordCall1Body.lean ====
import proofs.«406163_j35201551958720_3_alg».proof.Proof.Gen.Kernel.Launch
import proofs.«406163_j35201551958720_3_alg».proof.Proof.Gen.Kernel.Skeleton
import proofs.«406163_j35201551958720_3_alg».proof.Proof.WordCall1Data
import Idealize.ShloMosaic.Lib.Pipeline.FrameBody
import Idealize.ShloMosaic.Lib.Ring
import Idealize.ShloMosaic.Lib.Tactic

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid1.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid1.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W1, bigSep_W1]
  exact sound_body V hO c t

end Cert.Kernel.Call1

end
-- ==== Proof.WordCall1Region.lean ====
import proofs.«406163_j35201551958720_3_alg».proof.Proof.Gen.Kernel.Launch
import proofs.«406163_j35201551958720_3_alg».proof.Proof.Gen.Kernel.Skeleton
import proofs.«406163_j35201551958720_3_alg».proof.Proof.WordCall1Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 1 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec1)) = {main_v0, main_v12} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec1 c V
      ∗ Pipeline.prefHeld pre1 c (fun _ => fullShare) (fun k => V (pre1.ref k)) ∗ Pipeline.unscopedRestP pre1 spec1 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀1.arr_unscoped c V
  have hrs := Pipeline.unscopedRest_split (Ix := Unit) (Name := ℕ) (U := UR sig nD τ) (Lvl := ℕ) (nD := nD) (τ := τ) (Val := Elt F)
    preFacts1 c V
  rw [hsp, show Pipeline.unscopedRest (cfgM (Vin W) hO).spec c V = Pipeline.unscopedRest (Ix := Unit) (Name := ℕ) (U := UR sig nD τ) (Lvl := ℕ) spec1 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec1 c V : sProp 𝕄)
      = iprop((((c : Thread nD τ).loc main_v0) ↦{fullShare} V main_v0) ∗ (((c : Thread nD τ).loc main_v12) ↦{fullShare} V main_v12)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v12) ↦{fullShare} Vin W c main_v12)) := by
  unfold Pipeline.Dat.arrays
  rw [bigSep_W1]
  have hs0 : ((cfgM (Vin W) hO).win (0 : Fin 3)).arr.view.set = Finset.univ := (arr_whole1 0).set_eq_univ
  have hs1 : ((cfgM (Vin W) hO).win (1 : Fin 3)).arr.view.set = Finset.univ := (arr_whole1 1).set_eq_univ
  have hs2 : ((cfgM (Vin W) hO).win (2 : Fin 3)).arr.view.set = Finset.univ := (arr_whole1 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v12 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v12) ↦{fullShare} Vin W c main_v12))
          ∗ Pipeline.prefHeld pre1 c (fun _ => fullShare) (tbl (Vin W)) ∗ Pipeline.unscopedRestP pre1 spec1 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre1.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre1 c (fun _ => fullShare) (tbl (Vin W))
          ∗ (dat (Vin W) hO c).owesAt () 0 ∗ (∃ r, prngReg c r) ∗ Pipeline.unscopedRestP pre1 spec1 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v12) ↦{fullShare} (dat (Vin W) hO c).arrAt 2 (cfgM (Vin W) hO).N)) := by
  unfold Pipeline.Dat.arrays
  rw [bigSep_W1]
  have hs0 : ((cfgM (Vin W) hO).win (0 : Fin 3)).arr.view.set = Finset.univ := (arr_whole1 0).set_eq_univ
  have hs1 : ((cfgM (Vin W) hO).win (1 : Fin 3)).arr.view.set = Finset.univ := (arr_whole1 1).set_eq_univ
  have hs2 : ((cfgM (Vin W) hO).win (2 : Fin 3)).arr.view.set = Finset.univ := (arr_whole1 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v12 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v12) ↦{fullShare} (dat (Vin W) hO c).arrAt 2 (cfgM (Vin W) hO).N))
          ∗ Pipeline.prefHeld pre1 c (fun _ => fullShare) (tbl (Vin W)) ∗ Pipeline.unscopedRestP pre1 spec1 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v12 = (dat (Vin W) hO c).arrAt 2 (cfgM (Vin W) hO).N := Function.update_self _ _ _
  have et : (fun k => Vin (Wout W hO) c (pre1.ref k)) = tbl (Vin W) := funext fun k => by
    refine (Function.update_of_ne ?_ _ _).trans (V_pre (Vin W) c k)
    intro e
    have := Proc.devRef_injective _ e
    revert k; decide
  have er : (Pipeline.unscopedRestP pre1 spec1 c (Vin (Wout W hO) c) : sProp 𝕄) = Pipeline.unscopedRestP pre1 spec1 c (Vin W c) := by
    unfold Pipeline.unscopedRestP
    refine bigSep_congr fun b hb => ?_
    have hb1 : b ∉ Finset.univ.image (Pipeline.arrRef spec1) := (Finset.mem_sdiff.mp (Finset.mem_sdiff.mp hb).1).2
    have hne : b ≠ main_v12 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre1 c (fun _ => fullShare) (tbl (Vin W)))
        ∗ Pipeline.unscopedRestP pre1 spec1 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre1 c (fun _ => fullShare) (tbl (Vin W)) ∗ Pipeline.scopedRest spec1 c) : sProp 𝕄)
      ⊢ (dat (Vin W) hO c).Φ 0 := by
  rw [show (dat (Vin W) hO c).Φ 0 = iprop(Pipeline.ΦA spec1 c ∗ Pipeline.prefHeld (Ix := Unit) (Name := ℕ) (U := UR sig nD τ) (Lvl := ℕ) pre1 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre1 c (fun _ => fullShare) (tbl (Vin W))) ∗ Pipeline.scopedRest spec1 c) : sProp 𝕄) := by
  rw [show (dat (Vin W) hO c).Φ (Fin.last _) = iprop(Pipeline.ΦA spec1 c ∗ Pipeline.prefHeld (Ix := Unit) (Name := ℕ) (U := UR sig nD τ) (Lvl := ℕ) pre1 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call1

end
-- ==== Proof.WordCall2Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2: one pair per grid point, its distance added to a one-entry accumulator

The body's only branch tests whether the point is the first of the grid: there the accumulator is reset to zero
before the pair's distance is added; at every later point the distance is added to what the point before left. -/

/-- The branch condition, from the grid coordinate: the point is the first. -/
abbrev cond (i : grid2.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v15
abbrev htbA : tbA.IsWhole := Memref.isWhole_whole _
abbrev tbB : Memref sig .tc .smem S25000 .i32 := Memref.whole main_v16
abbrev htbB : tbB.IsWhole := Memref.isWhole_whole _

/-- The accumulator's staging buffer, through which its contents are stated. -/
abbrev VO : View sig .tc .vmem S1x1 .f32 := (Memref.whole cc2_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc2_kernel i tbA htbA tbB htbB arg3 harg3 arg4 harg4 arg5 harg5) K } := by
  refine ⟨?_, fun E K => ?run⟩
  case run =>
    simp only [cc2_kernel_eq_skeleton]; unfold cc2_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc2_kernel i tbA htbA tbB htbB arg3 harg3 arg4 harg4 arg5 harg5) K } := by
  refine ⟨?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call2

end
-- ==== Proof.WordCall2Data.lean ====
import proofs.«406163_j35201551958720_3_alg».proof.Proof.Gen.Kernel.Launch
import proofs.«406163_j35201551958720_3_alg».proof.Proof.Gen.Kernel.Skeleton
import proofs.«406163_j35201551958720_3_alg».proof.Proof.WordCall2Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2 over any entry contents: blocks, the running accumulator, the proof data, the body at a point -/

variable (V : (c : Dev nD) → (b : Ref sig .tc) → Buf (Elt F) ((c : Thread nD τ).loc b))

/-- The two index tables' contents when the region is entered (one device). -/
def tbl : pre2.Contents (Elt F) := fun j => V (0 : Dev nD) (pre2.ref j)
theorem V_pre (c : Dev nD) (j : Fin 2) : V c (pre2.ref j) = tbl V j := by
  obtain rfl : c = 0 := Subsingleton.elim _ _; rfl
/-- Every row the tables name lies inside the array of rows. -/
abbrev Ok : Prop := ok2 (F := F) (tbl V)
abbrev adm (hO : Ok V) : (pcfg2 (F := F)).Adm := ⟨tbl V, hO⟩
abbrev cfgM (hO : Ok V) : Pipeline.Cfg sig Λ₀ := cfg2 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec2 w))

/-- The staging memrefs the body is handed at point `t`. -/
abbrev ms0 (hO : Ok V) (t : Fin (cfgM V hO).N) : Memref sig .tc .vmem S1x1x256 .f32 := spec2_0.stage ((cfgM V hO).slots t 0)
abbrev hs0 (hO : Ok V) (t : Fin (cfgM V hO).N) : (ms0 V hO t).IsWhole := hstage2_0 (((cfgM V hO).slots t 0).cast nbuf2_0)
abbrev ms1 (hO : Ok V) (t : Fin (cfgM V hO).N) : Memref sig .tc .vmem S1x1x256 .f32 := spec2_1.stage ((cfgM V hO).slots t 1)
abbrev hs1 (hO : Ok V) (t : Fin (cfgM V hO).N) : (ms1 V hO t).IsWhole := hstage2_1 (((cfgM V hO).slots t 1).cast nbuf2_1)
abbrev ms2 (hO : Ok V) (t : Fin (cfgM V hO).N) : Memref sig .tc .vmem S1x1 .f32 := spec2_2.stage ((cfgM V hO).slots t 2)
abbrev hs2 (hO : Ok V) (t : Fin (cfgM V hO).N) : (ms2 V hO t).IsWhole := hstage2_2 (((cfgM V hO).slots t 2).cast nbuf2_2)

/-- The body as the pipeline calls it at point `t`. -/
abbrev bodyAt (a : (pcfg2 (F := F)).Adm) (t : Fin (cfg2 a).N) : Prog (TpuEff nD τ sig (Elt F) Λ₀ .tc) PUnit :=
  cc2_kernel (grid2.coords t) (Memref.whole main_v15) (Memref.isWhole_whole _) (Memref.whole main_v16) (Memref.isWhole_whole _)
    (spec2_0.stage ((cfg2 a).slots t 0)) (hstage2_0 (((cfg2 a).slots t 0).cast nbuf2_0))
    (spec2_1.stage ((cfg2 a).slots t 1)) (hstage2_1 (((cfg2 a).slots t 1).cast nbuf2_1))
    (spec2_2.stage ((cfg2 a).slots t 2)) (hstage2_2 (((cfg2 a).slots t 2).cast nbuf2_2))

/-- The one grid coordinate of point `t` is `t`. -/
theorem coords_val (t : Fin grid2.N) : ((grid2.coords t) 0).val = t.val := by
  have hN : t.val < 25000 := lt_of_lt_of_eq t.isLt N_2
  show t.val / grid2.stride 0 % grid2.bound 0 = t.val
  rw [show grid2.stride 0 = 1 from by decide, show grid2.bound 0 = 25000 from rfl, Nat.div_one, Nat.mod_eq_of_lt hN]

/-- The branch is taken at the first point only. -/
theorem hcond (t : Fin grid2.N) : cond (grid2.coords t) ↔ t.val = 0 := by
  exact (Cert.FirstPoint.cond_iff ((grid2.coords t) 0).val ((grid2.coords t) 0).isLt).trans (by rw [coords_val])

/-! ## What the accumulator's buffer holds after each case -/

theorem coverFirst (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid2.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid2.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid2.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid2.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 2 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec2 w)
  after w t := match w with
    | ⟨0, _⟩ => iblk V hO c 0 t
    | ⟨1, _⟩ => iblk V hO c 1 t
    | ⟨2, _⟩ => accAt V hO c t.val t.isLt
  Φ _ := iprop(Pipeline.ΦA spec2 c ∗ Pipeline.prefHeld (Ix := Unit) (Name := ℕ) (U := UR sig nD τ) (Lvl := ℕ) pre2 c (fun _ => fullShare) (tbl V))
  q w := if w = 0 then fullShare.left else fullShare.right
  owed _ := 0

theorem A_eq (hO : Ok V) (c : Dev nD) (w : Fin (cfgM V hO).W) : (dat V hO c).A w = V c (Pipeline.arrRef spec2 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg2 (F := F)).Adm) (t : Fin (cfg2 a).N) (ht : t.val + 1 < (cfg2 a).N) : ((cfg2 a).win 2).flush t = false := by
  have hix : ∀ s : Fin (cfg2 a).N, ((cfg2 a).win 2).index s = ![0, 0] := fun _ => rfl
  unfold Pipeline.Window.flush
  rw [Bool.and_eq_false_iff]; right
  rw [Bool.or_eq_false_iff]
  refine ⟨decide_eq_false (by have : (cfg2 a).N = (cfg2 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg2 (adm V hO)).N := t.isLt
  rw [Dat.before_out_kept _ 2 rfl t h0 (flush_2 (adm V hO) _ (by show t.val - 1 + 1 < (cfg2 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v17 ((dat (Vin W) hO c).arrAt 2 (cfgM (Vin W) hO).N)

end Cert.Kernel.Call2

end
-- ==== Proof.WordCall2Body.lean ====
import proofs.«406163_j35201551958720_3_alg».proof.Proof.Gen.Kernel.Launch
import proofs.«406163_j35201551958720_3_alg».proof.Proof.Gen.Kernel.Skeleton
import proofs.«406163_j35201551958720_3_alg».proof.Proof.WordCall2Data
import Idealize.ShloMosaic.Lib.Pipeline.FrameBody
import Idealize.ShloMosaic.Lib.Ring
import Idealize.ShloMosaic.Lib.Tactic

set_option maxRecDepth 16384

noncomputable section

namespace Cert.Kernel.Call2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid2.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid2.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W2, bigSep_W2]
  exact sound_body V hO c t

end Cert.Kernel.Call2

end
-- ==== Proof.WordCall2Region.lean ====
import proofs.«406163_j35201551958720_3_alg».proof.Proof.Gen.Kernel.Launch
import proofs.«406163_j35201551958720_3_alg».proof.Proof.Gen.Kernel.Skeleton
import proofs.«406163_j35201551958720_3_alg».proof.Proof.WordCall2Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 2 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec2)) = {main_v0, main_v17} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec2 c V
      ∗ Pipeline.prefHeld pre2 c (fun _ => fullShare) (fun k => V (pre2.ref k)) ∗ Pipeline.unscopedRestP pre2 spec2 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀2.arr_unscoped c V
  have hrs := Pipeline.unscopedRest_split (Ix := Unit) (Name := ℕ) (U := UR sig nD τ) (Lvl := ℕ) (nD := nD) (τ := τ) (Val := Elt F)
    preFacts2 c V
  rw [hsp, show Pipeline.unscopedRest (cfgM (Vin W) hO).spec c V = Pipeline.unscopedRest (Ix := Unit) (Name := ℕ) (U := UR sig nD τ) (Lvl := ℕ) spec2 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec2 c V : sProp 𝕄)
      = iprop((((c : Thread nD τ).loc main_v0) ↦{fullShare} V main_v0) ∗ (((c : Thread nD τ).loc main_v17) ↦{fullShare} V main_v17)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v17) ↦{fullShare} Vin W c main_v17)) := by
  unfold Pipeline.Dat.arrays
  rw [bigSep_W2]
  have hs0 : ((cfgM (Vin W) hO).win (0 : Fin 3)).arr.view.set = Finset.univ := (arr_whole2 0).set_eq_univ
  have hs1 : ((cfgM (Vin W) hO).win (1 : Fin 3)).arr.view.set = Finset.univ := (arr_whole2 1).set_eq_univ
  have hs2 : ((cfgM (Vin W) hO).win (2 : Fin 3)).arr.view.set = Finset.univ := (arr_whole2 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v17 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v17) ↦{fullShare} Vin W c main_v17))
          ∗ Pipeline.prefHeld pre2 c (fun _ => fullShare) (tbl (Vin W)) ∗ Pipeline.unscopedRestP pre2 spec2 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre2.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre2 c (fun _ => fullShare) (tbl (Vin W))
          ∗ (dat (Vin W) hO c).owesAt () 0 ∗ (∃ r, prngReg c r) ∗ Pipeline.unscopedRestP pre2 spec2 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v17) ↦{fullShare} (dat (Vin W) hO c).arrAt 2 (cfgM (Vin W) hO).N)) := by
  unfold Pipeline.Dat.arrays
  rw [bigSep_W2]
  have hs0 : ((cfgM (Vin W) hO).win (0 : Fin 3)).arr.view.set = Finset.univ := (arr_whole2 0).set_eq_univ
  have hs1 : ((cfgM (Vin W) hO).win (1 : Fin 3)).arr.view.set = Finset.univ := (arr_whole2 1).set_eq_univ
  have hs2 : ((cfgM (Vin W) hO).win (2 : Fin 3)).arr.view.set = Finset.univ := (arr_whole2 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v17 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v17) ↦{fullShare} (dat (Vin W) hO c).arrAt 2 (cfgM (Vin W) hO).N))
          ∗ Pipeline.prefHeld pre2 c (fun _ => fullShare) (tbl (Vin W)) ∗ Pipeline.unscopedRestP pre2 spec2 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v17 = (dat (Vin W) hO c).arrAt 2 (cfgM (Vin W) hO).N := Function.update_self _ _ _
  have et : (fun k => Vin (Wout W hO) c (pre2.ref k)) = tbl (Vin W) := funext fun k => by
    refine (Function.update_of_ne ?_ _ _).trans (V_pre (Vin W) c k)
    intro e
    have := Proc.devRef_injective _ e
    revert k; decide
  have er : (Pipeline.unscopedRestP pre2 spec2 c (Vin (Wout W hO) c) : sProp 𝕄) = Pipeline.unscopedRestP pre2 spec2 c (Vin W c) := by
    unfold Pipeline.unscopedRestP
    refine bigSep_congr fun b hb => ?_
    have hb1 : b ∉ Finset.univ.image (Pipeline.arrRef spec2) := (Finset.mem_sdiff.mp (Finset.mem_sdiff.mp hb).1).2
    have hne : b ≠ main_v17 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre2 c (fun _ => fullShare) (tbl (Vin W)))
        ∗ Pipeline.unscopedRestP pre2 spec2 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre2 c (fun _ => fullShare) (tbl (Vin W)) ∗ Pipeline.scopedRest spec2 c) : sProp 𝕄)
      ⊢ (dat (Vin W) hO c).Φ 0 := by
  rw [show (dat (Vin W) hO c).Φ 0 = iprop(Pipeline.ΦA spec2 c ∗ Pipeline.prefHeld (Ix := Unit) (Name := ℕ) (U := UR sig nD τ) (Lvl := ℕ) pre2 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre2 c (fun _ => fullShare) (tbl (Vin W))) ∗ Pipeline.scopedRest spec2 c) : sProp 𝕄) := by
  rw [show (dat (Vin W) hO c).Φ (Fin.last _) = iprop(Pipeline.ΦA spec2 c ∗ Pipeline.prefHeld (Ix := Unit) (Name := ℕ) (U := UR sig nD τ) (Lvl := ℕ) pre2 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call2

end
-- ==== Proof.WordCall3Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 3: one pair per grid point, its distance added to a one-entry accumulator

The body's only branch tests whether the point is the first of the grid: there the accumulator is reset to zero
before the pair's distance is added; at every later point the distance is added to what the point before left. -/

/-- The branch condition, from the grid coordinate: the point is the first. -/
abbrev cond (i : grid3.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v20
abbrev htbA : tbA.IsWhole := Memref.isWhole_whole _
abbrev tbB : Memref sig .tc .smem S25000 .i32 := Memref.whole main_v21
abbrev htbB : tbB.IsWhole := Memref.isWhole_whole _

/-- The accumulator's staging buffer, through which its contents are stated. -/
abbrev VO : View sig .tc .vmem S1x1 .f32 := (Memref.whole cc3_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc3_kernel i tbA htbA tbB htbB arg3 harg3 arg4 harg4 arg5 harg5) K } := by
  refine ⟨?_, fun E K => ?run⟩
  case run =>
    simp only [cc3_kernel_eq_skeleton]; unfold cc3_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc3_kernel i tbA htbA tbB htbB arg3 harg3 arg4 harg4 arg5 harg5) K } := by
  refine ⟨?_, fun E K => ?run⟩
  case run =>
    simp only [cc3_kernel_eq_skeleton]; unfold cc3_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call3

end
-- ==== Proof.WordCall3Data.lean ====
import proofs.«406163_j35201551958720_3_alg».proof.Proof.Gen.Kernel.Launch
import proofs.«406163_j35201551958720_3_alg».proof.Proof.Gen.Kernel.Skeleton
import proofs.«406163_j35201551958720_3_alg».proof.Proof.WordCall3Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 3 over any entry contents: blocks, the running accumulator, the proof data, the body at a point -/

variable (V : (c : Dev nD) → (b : Ref sig .tc) → Buf (Elt F) ((c : Thread nD τ).loc b))

/-- The two index tables' contents when the region is entered (one device). -/
def tbl : pre3.Contents (Elt F) := fun j => V (0 : Dev nD) (pre3.ref j)
theorem V_pre (c : Dev nD) (j : Fin 2) : V c (pre3.ref j) = tbl V j := by
  obtain rfl : c = 0 := Subsingleton.elim _ _; rfl
/-- Every row the tables name lies inside the array of rows. -/
abbrev Ok : Prop := ok3 (F := F) (tbl V)
abbrev adm (hO : Ok V) : (pcfg3 (F := F)).Adm := ⟨tbl V, hO⟩
abbrev cfgM (hO : Ok V) : Pipeline.Cfg sig Λ₀ := cfg3 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec3 w))

/-- The staging memrefs the body is handed at point `t`. -/
abbrev ms0 (hO : Ok V) (t : Fin (cfgM V hO).N) : Memref sig .tc .vmem S1x1x256 .f32 := spec3_0.stage ((cfgM V hO).slots t 0)
abbrev hs0 (hO : Ok V) (t : Fin (cfgM V hO).N) : (ms0 V hO t).IsWhole := hstage3_0 (((cfgM V hO).slots t 0).cast nbuf3_0)
abbrev ms1 (hO : Ok V) (t : Fin (cfgM V hO).N) : Memref sig .tc .vmem S1x1x256 .f32 := spec3_1.stage ((cfgM V hO).slots t 1)
abbrev hs1 (hO : Ok V) (t : Fin (cfgM V hO).N) : (ms1 V hO t).IsWhole := hstage3_1 (((cfgM V hO).slots t 1).cast nbuf3_1)
abbrev ms2 (hO : Ok V) (t : Fin (cfgM V hO).N) : Memref sig .tc .vmem S1x1 .f32 := spec3_2.stage ((cfgM V hO).slots t 2)
abbrev hs2 (hO : Ok V) (t : Fin (cfgM V hO).N) : (ms2 V hO t).IsWhole := hstage3_2 (((cfgM V hO).slots t 2).cast nbuf3_2)

/-- The body as the pipeline calls it at point `t`. -/
abbrev bodyAt (a : (pcfg3 (F := F)).Adm) (t : Fin (cfg3 a).N) : Prog (TpuEff nD τ sig (Elt F) Λ₀ .tc) PUnit :=
  cc3_kernel (grid3.coords t) (Memref.whole main_v20) (Memref.isWhole_whole _) (Memref.whole main_v21) (Memref.isWhole_whole _)
    (spec3_0.stage ((cfg3 a).slots t 0)) (hstage3_0 (((cfg3 a).slots t 0).cast nbuf3_0))
    (spec3_1.stage ((cfg3 a).slots t 1)) (hstage3_1 (((cfg3 a).slots t 1).cast nbuf3_1))
    (spec3_2.stage ((cfg3 a).slots t 2)) (hstage3_2 (((cfg3 a).slots t 2).cast nbuf3_2))

/-- The one grid coordinate of point `t` is `t`. -/
theorem coords_val (t : Fin grid3.N) : ((grid3.coords t) 0).val = t.val := by
  have hN : t.val < 25000 := lt_of_lt_of_eq t.isLt N_3
  show t.val / grid3.stride 0 % grid3.bound 0 = t.val
  rw [show grid3.stride 0 = 1 from by decide, show grid3.bound 0 = 25000 from rfl, Nat.div_one, Nat.mod_eq_of_lt hN]

/-- The branch is taken at the first point only. -/
theorem hcond (t : Fin grid3.N) : cond (grid3.coords t) ↔ t.val = 0 := by
  exact (Cert.FirstPoint.cond_iff ((grid3.coords t) 0).val ((grid3.coords t) 0).isLt).trans (by rw [coords_val])

/-! ## What the accumulator's buffer holds after each case -/

theorem coverFirst (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid3.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid3.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid3.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid3.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 3 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec3 w)
  after w t := match w with
    | ⟨0, _⟩ => iblk V hO c 0 t
    | ⟨1, _⟩ => iblk V hO c 1 t
    | ⟨2, _⟩ => accAt V hO c t.val t.isLt
  Φ _ := iprop(Pipeline.ΦA spec3 c ∗ Pipeline.prefHeld (Ix := Unit) (Name := ℕ) (U := UR sig nD τ) (Lvl := ℕ) pre3 c (fun _ => fullShare) (tbl V))
  q w := if w = 0 then fullShare.left else fullShare.right
  owed _ := 0

theorem A_eq (hO : Ok V) (c : Dev nD) (w : Fin (cfgM V hO).W) : (dat V hO c).A w = V c (Pipeline.arrRef spec3 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg3 (F := F)).Adm) (t : Fin (cfg3 a).N) (ht : t.val + 1 < (cfg3 a).N) : ((cfg3 a).win 2).flush t = false := by
  have hix : ∀ s : Fin (cfg3 a).N, ((cfg3 a).win 2).index s = ![0, 0] := fun _ => rfl
  unfold Pipeline.Window.flush
  rw [Bool.and_eq_false_iff]; right
  rw [Bool.or_eq_false_iff]
  refine ⟨decide_eq_false (by have : (cfg3 a).N = (cfg3 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg3 (adm V hO)).N := t.isLt
  rw [Dat.before_out_kept _ 2 rfl t h0 (flush_2 (adm V hO) _ (by show t.val - 1 + 1 < (cfg3 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v22 ((dat (Vin W) hO c).arrAt 2 (cfgM (Vin W) hO).N)

end Cert.Kernel.Call3

end
-- ==== Proof.WordCall3Body.lean ====
import proofs.«406163_j35201551958720_3_alg».proof.Proof.Gen.Kernel.Launch
import proofs.«406163_j35201551958720_3_alg».proof.Proof.Gen.Kernel.Skeleton
import proofs.«406163_j35201551958720_3_alg».proof.Proof.WordCall3Data
import Idealize.ShloMosaic.Lib.Pipeline.FrameBody
import Idealize.ShloMosaic.Lib.Ring
import Idealize.ShloMosaic.Lib.Tactic

set_option maxRecDepth 16384

noncomputable section

namespace Cert.Kernel.Call3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 3: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid3.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid3.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W3, bigSep_W3]
  exact sound_body V hO c t

end Cert.Kernel.Call3

end
-- ==== Proof.WordCall3Region.lean ====
import proofs.«406163_j35201551958720_3_alg».proof.Proof.Gen.Kernel.Launch
import proofs.«406163_j35201551958720_3_alg».proof.Proof.Gen.Kernel.Skeleton
import proofs.«406163_j35201551958720_3_alg».proof.Proof.WordCall3Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 3 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec3)) = {main_v0, main_v22} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec3 c V
      ∗ Pipeline.prefHeld pre3 c (fun _ => fullShare) (fun k => V (pre3.ref k)) ∗ Pipeline.unscopedRestP pre3 spec3 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀3.arr_unscoped c V
  have hrs := Pipeline.unscopedRest_split (Ix := Unit) (Name := ℕ) (U := UR sig nD τ) (Lvl := ℕ) (nD := nD) (τ := τ) (Val := Elt F)
    preFacts3 c V
  rw [hsp, show Pipeline.unscopedRest (cfgM (Vin W) hO).spec c V = Pipeline.unscopedRest (Ix := Unit) (Name := ℕ) (U := UR sig nD τ) (Lvl := ℕ) spec3 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec3 c V : sProp 𝕄)
      = iprop((((c : Thread nD τ).loc main_v0) ↦{fullShare} V main_v0) ∗ (((c : Thread nD τ).loc main_v22) ↦{fullShare} V main_v22)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v22) ↦{fullShare} Vin W c main_v22)) := by
  unfold Pipeline.Dat.arrays
  rw [bigSep_W3]
  have hs0 : ((cfgM (Vin W) hO).win (0 : Fin 3)).arr.view.set = Finset.univ := (arr_whole3 0).set_eq_univ
  have hs1 : ((cfgM (Vin W) hO).win (1 : Fin 3)).arr.view.set = Finset.univ := (arr_whole3 1).set_eq_univ
  have hs2 : ((cfgM (Vin W) hO).win (2 : Fin 3)).arr.view.set = Finset.univ := (arr_whole3 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v22 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v22) ↦{fullShare} Vin W c main_v22))
          ∗ Pipeline.prefHeld pre3 c (fun _ => fullShare) (tbl (Vin W)) ∗ Pipeline.unscopedRestP pre3 spec3 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre3.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre3 c (fun _ => fullShare) (tbl (Vin W))
          ∗ (dat (Vin W) hO c).owesAt () 0 ∗ (∃ r, prngReg c r) ∗ Pipeline.unscopedRestP pre3 spec3 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v22) ↦{fullShare} (dat (Vin W) hO c).arrAt 2 (cfgM (Vin W) hO).N)) := by
  unfold Pipeline.Dat.arrays
  rw [bigSep_W3]
  have hs0 : ((cfgM (Vin W) hO).win (0 : Fin 3)).arr.view.set = Finset.univ := (arr_whole3 0).set_eq_univ
  have hs1 : ((cfgM (Vin W) hO).win (1 : Fin 3)).arr.view.set = Finset.univ := (arr_whole3 1).set_eq_univ
  have hs2 : ((cfgM (Vin W) hO).win (2 : Fin 3)).arr.view.set = Finset.univ := (arr_whole3 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v22 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v22) ↦{fullShare} (dat (Vin W) hO c).arrAt 2 (cfgM (Vin W) hO).N))
          ∗ Pipeline.prefHeld pre3 c (fun _ => fullShare) (tbl (Vin W)) ∗ Pipeline.unscopedRestP pre3 spec3 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v22 = (dat (Vin W) hO c).arrAt 2 (cfgM (Vin W) hO).N := Function.update_self _ _ _
  have et : (fun k => Vin (Wout W hO) c (pre3.ref k)) = tbl (Vin W) := funext fun k => by
    refine (Function.update_of_ne ?_ _ _).trans (V_pre (Vin W) c k)
    intro e
    have := Proc.devRef_injective _ e
    revert k; decide
  have er : (Pipeline.unscopedRestP pre3 spec3 c (Vin (Wout W hO) c) : sProp 𝕄) = Pipeline.unscopedRestP pre3 spec3 c (Vin W c) := by
    unfold Pipeline.unscopedRestP
    refine bigSep_congr fun b hb => ?_
    have hb1 : b ∉ Finset.univ.image (Pipeline.arrRef spec3) := (Finset.mem_sdiff.mp (Finset.mem_sdiff.mp hb).1).2
    have hne : b ≠ main_v22 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre3 c (fun _ => fullShare) (tbl (Vin W)))
        ∗ Pipeline.unscopedRestP pre3 spec3 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre3 c (fun _ => fullShare) (tbl (Vin W)) ∗ Pipeline.scopedRest spec3 c) : sProp 𝕄)
      ⊢ (dat (Vin W) hO c).Φ 0 := by
  rw [show (dat (Vin W) hO c).Φ 0 = iprop(Pipeline.ΦA spec3 c ∗ Pipeline.prefHeld (Ix := Unit) (Name := ℕ) (U := UR sig nD τ) (Lvl := ℕ) pre3 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre3 c (fun _ => fullShare) (tbl (Vin W))) ∗ Pipeline.scopedRest spec3 c) : sProp 𝕄) := by
  rw [show (dat (Vin W) hO c).Φ (Fin.last _) = iprop(Pipeline.ΦA spec3 c ∗ Pipeline.prefHeld (Ix := Unit) (Name := ℕ) (U := UR sig nD τ) (Lvl := ℕ) pre3 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call3

end
-- ==== Proof.WordCall4Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 4: one pair per grid point, its distance added to a one-entry accumulator

The body's only branch tests whether the point is the first of the grid: there the accumulator is reset to zero
before the pair's distance is added; at every later point the distance is added to what the point before left. -/

/-- The branch condition, from the grid coordinate: the point is the first. -/
abbrev cond (i : grid4.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v25
abbrev htbA : tbA.IsWhole := Memref.isWhole_whole _
abbrev tbB : Memref sig .tc .smem S25000 .i32 := Memref.whole main_v26
abbrev htbB : tbB.IsWhole := Memref.isWhole_whole _

/-- The accumulator's staging buffer, through which its contents are stated. -/
abbrev VO : View sig .tc .vmem S1x1 .f32 := (Memref.whole cc4_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc4_kernel i tbA htbA tbB htbB arg3 harg3 arg4 harg4 arg5 harg5) K } := by
  refine ⟨?_, fun E K => ?run⟩
  case run =>
    simp only [cc4_kernel_eq_skeleton]; unfold cc4_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc4_kernel i tbA htbA tbB htbB arg3 harg3 arg4 harg4 arg5 harg5) K } := by
  refine ⟨?_, fun E K => ?run⟩
  case run =>
    simp only [cc4_kernel_eq_skeleton]; unfold cc4_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call4

end
-- ==== Proof.WordCall4Data.lean ====
import proofs.«406163_j35201551958720_3_alg».proof.Proof.Gen.Kernel.Launch
import proofs.«406163_j35201551958720_3_alg».proof.Proof.Gen.Kernel.Skeleton
import proofs.«406163_j35201551958720_3_alg».proof.Proof.WordCall4Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 4 over any entry contents: blocks, the running accumulator, the proof data, the body at a point -/

variable (V : (c : Dev nD) → (b : Ref sig .tc) → Buf (Elt F) ((c : Thread nD τ).loc b))

/-- The two index tables' contents when the region is entered (one device). -/
def tbl : pre4.Contents (Elt F) := fun j => V (0 : Dev nD) (pre4.ref j)
theorem V_pre (c : Dev nD) (j : Fin 2) : V c (pre4.ref j) = tbl V j := by
  obtain rfl : c = 0 := Subsingleton.elim _ _; rfl
/-- Every row the tables name lies inside the array of rows. -/
abbrev Ok : Prop := ok4 (F := F) (tbl V)
abbrev adm (hO : Ok V) : (pcfg4 (F := F)).Adm := ⟨tbl V, hO⟩
abbrev cfgM (hO : Ok V) : Pipeline.Cfg sig Λ₀ := cfg4 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec4 w))

/-- The staging memrefs the body is handed at point `t`. -/
abbrev ms0 (hO : Ok V) (t : Fin (cfgM V hO).N) : Memref sig .tc .vmem S1x1x256 .f32 := spec4_0.stage ((cfgM V hO).slots t 0)
abbrev hs0 (hO : Ok V) (t : Fin (cfgM V hO).N) : (ms0 V hO t).IsWhole := hstage4_0 (((cfgM V hO).slots t 0).cast nbuf4_0)
abbrev ms1 (hO : Ok V) (t : Fin (cfgM V hO).N) : Memref sig .tc .vmem S1x1x256 .f32 := spec4_1.stage ((cfgM V hO).slots t 1)
abbrev hs1 (hO : Ok V) (t : Fin (cfgM V hO).N) : (ms1 V hO t).IsWhole := hstage4_1 (((cfgM V hO).slots t 1).cast nbuf4_1)
abbrev ms2 (hO : Ok V) (t : Fin (cfgM V hO).N) : Memref sig .tc .vmem S1x1 .f32 := spec4_2.stage ((cfgM V hO).slots t 2)
abbrev hs2 (hO : Ok V) (t : Fin (cfgM V hO).N) : (ms2 V hO t).IsWhole := hstage4_2 (((cfgM V hO).slots t 2).cast nbuf4_2)

/-- The body as the pipeline calls it at point `t`. -/
abbrev bodyAt (a : (pcfg4 (F := F)).Adm) (t : Fin (cfg4 a).N) : Prog (TpuEff nD τ sig (Elt F) Λ₀ .tc) PUnit :=
  cc4_kernel (grid4.coords t) (Memref.whole main_v25) (Memref.isWhole_whole _) (Memref.whole main_v26) (Memref.isWhole_whole _)
    (spec4_0.stage ((cfg4 a).slots t 0)) (hstage4_0 (((cfg4 a).slots t 0).cast nbuf4_0))
    (spec4_1.stage ((cfg4 a).slots t 1)) (hstage4_1 (((cfg4 a).slots t 1).cast nbuf4_1))
    (spec4_2.stage ((cfg4 a).slots t 2)) (hstage4_2 (((cfg4 a).slots t 2).cast nbuf4_2))

/-- The one grid coordinate of point `t` is `t`. -/
theorem coords_val (t : Fin grid4.N) : ((grid4.coords t) 0).val = t.val := by
  have hN : t.val < 25000 := lt_of_lt_of_eq t.isLt N_4
  show t.val / grid4.stride 0 % grid4.bound 0 = t.val
  rw [show grid4.stride 0 = 1 from by decide, show grid4.bound 0 = 25000 from rfl, Nat.div_one, Nat.mod_eq_of_lt hN]

/-- The branch is taken at the first point only. -/
theorem hcond (t : Fin grid4.N) : cond (grid4.coords t) ↔ t.val = 0 := by
  exact (Cert.FirstPoint.cond_iff ((grid4.coords t) 0).val ((grid4.coords t) 0).isLt).trans (by rw [coords_val])

/-! ## What the accumulator's buffer holds after each case -/

theorem coverFirst (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid4.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid4.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid4.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid4.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 4 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec4 w)
  after w t := match w with
    | ⟨0, _⟩ => iblk V hO c 0 t
    | ⟨1, _⟩ => iblk V hO c 1 t
    | ⟨2, _⟩ => accAt V hO c t.val t.isLt
  Φ _ := iprop(Pipeline.ΦA spec4 c ∗ Pipeline.prefHeld (Ix := Unit) (Name := ℕ) (U := UR sig nD τ) (Lvl := ℕ) pre4 c (fun _ => fullShare) (tbl V))
  q w := if w = 0 then fullShare.left else fullShare.right
  owed _ := 0

theorem A_eq (hO : Ok V) (c : Dev nD) (w : Fin (cfgM V hO).W) : (dat V hO c).A w = V c (Pipeline.arrRef spec4 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg4 (F := F)).Adm) (t : Fin (cfg4 a).N) (ht : t.val + 1 < (cfg4 a).N) : ((cfg4 a).win 2).flush t = false := by
  have hix : ∀ s : Fin (cfg4 a).N, ((cfg4 a).win 2).index s = ![0, 0] := fun _ => rfl
  unfold Pipeline.Window.flush
  rw [Bool.and_eq_false_iff]; right
  rw [Bool.or_eq_false_iff]
  refine ⟨decide_eq_false (by have : (cfg4 a).N = (cfg4 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg4 (adm V hO)).N := t.isLt
  rw [Dat.before_out_kept _ 2 rfl t h0 (flush_2 (adm V hO) _ (by show t.val - 1 + 1 < (cfg4 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v27 ((dat (Vin W) hO c).arrAt 2 (cfgM (Vin W) hO).N)

end Cert.Kernel.Call4

end
-- ==== Proof.WordCall4Body.lean ====
import proofs.«406163_j35201551958720_3_alg».proof.Proof.Gen.Kernel.Launch
import proofs.«406163_j35201551958720_3_alg».proof.Proof.Gen.Kernel.Skeleton
import proofs.«406163_j35201551958720_3_alg».proof.Proof.WordCall4Data
import Idealize.ShloMosaic.Lib.Pipeline.FrameBody
import Idealize.ShloMosaic.Lib.Ring
import Idealize.ShloMosaic.Lib.Tactic

set_option maxRecDepth 16384

noncomputable section

namespace Cert.Kernel.Call4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 4: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid4.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid4.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W4, bigSep_W4]
  exact sound_body V hO c t

end Cert.Kernel.Call4

end
-- ==== Proof.WordCall4Region.lean ====
import proofs.«406163_j35201551958720_3_alg».proof.Proof.Gen.Kernel.Launch
import proofs.«406163_j35201551958720_3_alg».proof.Proof.Gen.Kernel.Skeleton
import proofs.«406163_j35201551958720_3_alg».proof.Proof.WordCall4Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 4 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec4)) = {main_v0, main_v27} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec4 c V
      ∗ Pipeline.prefHeld pre4 c (fun _ => fullShare) (fun k => V (pre4.ref k)) ∗ Pipeline.unscopedRestP pre4 spec4 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀4.arr_unscoped c V
  have hrs := Pipeline.unscopedRest_split (Ix := Unit) (Name := ℕ) (U := UR sig nD τ) (Lvl := ℕ) (nD := nD) (τ := τ) (Val := Elt F)
    preFacts4 c V
  rw [hsp, show Pipeline.unscopedRest (cfgM (Vin W) hO).spec c V = Pipeline.unscopedRest (Ix := Unit) (Name := ℕ) (U := UR sig nD τ) (Lvl := ℕ) spec4 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec4 c V : sProp 𝕄)
      = iprop((((c : Thread nD τ).loc main_v0) ↦{fullShare} V main_v0) ∗ (((c : Thread nD τ).loc main_v27) ↦{fullShare} V main_v27)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v27) ↦{fullShare} Vin W c main_v27)) := by
  unfold Pipeline.Dat.arrays
  rw [bigSep_W4]
  have hs0 : ((cfgM (Vin W) hO).win (0 : Fin 3)).arr.view.set = Finset.univ := (arr_whole4 0).set_eq_univ
  have hs1 : ((cfgM (Vin W) hO).win (1 : Fin 3)).arr.view.set = Finset.univ := (arr_whole4 1).set_eq_univ
  have hs2 : ((cfgM (Vin W) hO).win (2 : Fin 3)).arr.view.set = Finset.univ := (arr_whole4 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v27 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v27) ↦{fullShare} Vin W c main_v27))
          ∗ Pipeline.prefHeld pre4 c (fun _ => fullShare) (tbl (Vin W)) ∗ Pipeline.unscopedRestP pre4 spec4 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre4.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre4 c (fun _ => fullShare) (tbl (Vin W))
          ∗ (dat (Vin W) hO c).owesAt () 0 ∗ (∃ r, prngReg c r) ∗ Pipeline.unscopedRestP pre4 spec4 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v27) ↦{fullShare} (dat (Vin W) hO c).arrAt 2 (cfgM (Vin W) hO).N)) := by
  unfold Pipeline.Dat.arrays
  rw [bigSep_W4]
  have hs0 : ((cfgM (Vin W) hO).win (0 : Fin 3)).arr.view.set = Finset.univ := (arr_whole4 0).set_eq_univ
  have hs1 : ((cfgM (Vin W) hO).win (1 : Fin 3)).arr.view.set = Finset.univ := (arr_whole4 1).set_eq_univ
  have hs2 : ((cfgM (Vin W) hO).win (2 : Fin 3)).arr.view.set = Finset.univ := (arr_whole4 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v27 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v27) ↦{fullShare} (dat (Vin W) hO c).arrAt 2 (cfgM (Vin W) hO).N))
          ∗ Pipeline.prefHeld pre4 c (fun _ => fullShare) (tbl (Vin W)) ∗ Pipeline.unscopedRestP pre4 spec4 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v27 = (dat (Vin W) hO c).arrAt 2 (cfgM (Vin W) hO).N := Function.update_self _ _ _
  have et : (fun k => Vin (Wout W hO) c (pre4.ref k)) = tbl (Vin W) := funext fun k => by
    refine (Function.update_of_ne ?_ _ _).trans (V_pre (Vin W) c k)
    intro e
    have := Proc.devRef_injective _ e
    revert k; decide
  have er : (Pipeline.unscopedRestP pre4 spec4 c (Vin (Wout W hO) c) : sProp 𝕄) = Pipeline.unscopedRestP pre4 spec4 c (Vin W c) := by
    unfold Pipeline.unscopedRestP
    refine bigSep_congr fun b hb => ?_
    have hb1 : b ∉ Finset.univ.image (Pipeline.arrRef spec4) := (Finset.mem_sdiff.mp (Finset.mem_sdiff.mp hb).1).2
    have hne : b ≠ main_v27 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre4 c (fun _ => fullShare) (tbl (Vin W)))
        ∗ Pipeline.unscopedRestP pre4 spec4 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre4 c (fun _ => fullShare) (tbl (Vin W)) ∗ Pipeline.scopedRest spec4 c) : sProp 𝕄)
      ⊢ (dat (Vin W) hO c).Φ 0 := by
  rw [show (dat (Vin W) hO c).Φ 0 = iprop(Pipeline.ΦA spec4 c ∗ Pipeline.prefHeld (Ix := Unit) (Name := ℕ) (U := UR sig nD τ) (Lvl := ℕ) pre4 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre4 c (fun _ => fullShare) (tbl (Vin W))) ∗ Pipeline.scopedRest spec4 c) : sProp 𝕄) := by
  rw [show (dat (Vin W) hO c).Φ (Fin.last _) = iprop(Pipeline.ΦA spec4 c ∗ Pipeline.prefHeld (Ix := Unit) (Name := ℕ) (U := UR sig nD τ) (Lvl := ℕ) pre4 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call4

end
-- ==== Proof.WordCall5Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 5: one pair per grid point, its distance added to a one-entry accumulator

The body's only branch tests whether the point is the first of the grid: there the accumulator is reset to zero
before the pair's distance is added; at every later point the distance is added to what the point before left. -/

/-- The branch condition, from the grid coordinate: the point is the first. -/
abbrev cond (i : grid5.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v30
abbrev htbA : tbA.IsWhole := Memref.isWhole_whole _
abbrev tbB : Memref sig .tc .smem S25000 .i32 := Memref.whole main_v31
abbrev htbB : tbB.IsWhole := Memref.isWhole_whole _

/-- The accumulator's staging buffer, through which its contents are stated. -/
abbrev VO : View sig .tc .vmem S1x1 .f32 := (Memref.whole cc5_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc5_kernel i tbA htbA tbB htbB arg3 harg3 arg4 harg4 arg5 harg5) K } := by
  refine ⟨?_, fun E K => ?run⟩
  case run =>
    simp only [cc5_kernel_eq_skeleton]; unfold cc5_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc5_kernel i tbA htbA tbB htbB arg3 harg3 arg4 harg4 arg5 harg5) K } := by
  refine ⟨?_, fun E K => ?run⟩
  case run =>
    simp only [cc5_kernel_eq_skeleton]; unfold cc5_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call5

end
-- ==== Proof.WordCall5Data.lean ====
import proofs.«406163_j35201551958720_3_alg».proof.Proof.Gen.Kernel.Launch
import proofs.«406163_j35201551958720_3_alg».proof.Proof.Gen.Kernel.Skeleton
import proofs.«406163_j35201551958720_3_alg».proof.Proof.WordCall5Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 5 over any entry contents: blocks, the running accumulator, the proof data, the body at a point -/

variable (V : (c : Dev nD) → (b : Ref sig .tc) → Buf (Elt F) ((c : Thread nD τ).loc b))

/-- The two index tables' contents when the region is entered (one device). -/
def tbl : pre5.Contents (Elt F) := fun j => V (0 : Dev nD) (pre5.ref j)
theorem V_pre (c : Dev nD) (j : Fin 2) : V c (pre5.ref j) = tbl V j := by
  obtain rfl : c = 0 := Subsingleton.elim _ _; rfl
/-- Every row the tables name lies inside the array of rows. -/
abbrev Ok : Prop := ok5 (F := F) (tbl V)
abbrev adm (hO : Ok V) : (pcfg5 (F := F)).Adm := ⟨tbl V, hO⟩
abbrev cfgM (hO : Ok V) : Pipeline.Cfg sig Λ₀ := cfg5 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec5 w))

/-- The staging memrefs the body is handed at point `t`. -/
abbrev ms0 (hO : Ok V) (t : Fin (cfgM V hO).N) : Memref sig .tc .vmem S1x1x256 .f32 := spec5_0.stage ((cfgM V hO).slots t 0)
abbrev hs0 (hO : Ok V) (t : Fin (cfgM V hO).N) : (ms0 V hO t).IsWhole := hstage5_0 (((cfgM V hO).slots t 0).cast nbuf5_0)
abbrev ms1 (hO : Ok V) (t : Fin (cfgM V hO).N) : Memref sig .tc .vmem S1x1x256 .f32 := spec5_1.stage ((cfgM V hO).slots t 1)
abbrev hs1 (hO : Ok V) (t : Fin (cfgM V hO).N) : (ms1 V hO t).IsWhole := hstage5_1 (((cfgM V hO).slots t 1).cast nbuf5_1)
abbrev ms2 (hO : Ok V) (t : Fin (cfgM V hO).N) : Memref sig .tc .vmem S1x1 .f32 := spec5_2.stage ((cfgM V hO).slots t 2)
abbrev hs2 (hO : Ok V) (t : Fin (cfgM V hO).N) : (ms2 V hO t).IsWhole := hstage5_2 (((cfgM V hO).slots t 2).cast nbuf5_2)

/-- The body as the pipeline calls it at point `t`. -/
abbrev bodyAt (a : (pcfg5 (F := F)).Adm) (t : Fin (cfg5 a).N) : Prog (TpuEff nD τ sig (Elt F) Λ₀ .tc) PUnit :=
  cc5_kernel (grid5.coords t) (Memref.whole main_v30) (Memref.isWhole_whole _) (Memref.whole main_v31) (Memref.isWhole_whole _)
    (spec5_0.stage ((cfg5 a).slots t 0)) (hstage5_0 (((cfg5 a).slots t 0).cast nbuf5_0))
    (spec5_1.stage ((cfg5 a).slots t 1)) (hstage5_1 (((cfg5 a).slots t 1).cast nbuf5_1))
    (spec5_2.stage ((cfg5 a).slots t 2)) (hstage5_2 (((cfg5 a).slots t 2).cast nbuf5_2))

/-- The one grid coordinate of point `t` is `t`. -/
theorem coords_val (t : Fin grid5.N) : ((grid5.coords t) 0).val = t.val := by
  have hN : t.val < 25000 := lt_of_lt_of_eq t.isLt N_5
  show t.val / grid5.stride 0 % grid5.bound 0 = t.val
  rw [show grid5.stride 0 = 1 from by decide, show grid5.bound 0 = 25000 from rfl, Nat.div_one, Nat.mod_eq_of_lt hN]

/-- The branch is taken at the first point only. -/
theorem hcond (t : Fin grid5.N) : cond (grid5.coords t) ↔ t.val = 0 := by
  exact (Cert.FirstPoint.cond_iff ((grid5.coords t) 0).val ((grid5.coords t) 0).isLt).trans (by rw [coords_val])

/-! ## What the accumulator's buffer holds after each case -/

theorem coverFirst (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid5.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid5.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid5.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid5.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 5 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec5 w)
  after w t := match w with
    | ⟨0, _⟩ => iblk V hO c 0 t
    | ⟨1, _⟩ => iblk V hO c 1 t
    | ⟨2, _⟩ => accAt V hO c t.val t.isLt
  Φ _ := iprop(Pipeline.ΦA spec5 c ∗ Pipeline.prefHeld (Ix := Unit) (Name := ℕ) (U := UR sig nD τ) (Lvl := ℕ) pre5 c (fun _ => fullShare) (tbl V))
  q w := if w = 0 then fullShare.left else fullShare.right
  owed _ := 0

theorem A_eq (hO : Ok V) (c : Dev nD) (w : Fin (cfgM V hO).W) : (dat V hO c).A w = V c (Pipeline.arrRef spec5 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg5 (F := F)).Adm) (t : Fin (cfg5 a).N) (ht : t.val + 1 < (cfg5 a).N) : ((cfg5 a).win 2).flush t = false := by
  have hix : ∀ s : Fin (cfg5 a).N, ((cfg5 a).win 2).index s = ![0, 0] := fun _ => rfl
  unfold Pipeline.Window.flush
  rw [Bool.and_eq_false_iff]; right
  rw [Bool.or_eq_false_iff]
  refine ⟨decide_eq_false (by have : (cfg5 a).N = (cfg5 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg5 (adm V hO)).N := t.isLt
  rw [Dat.before_out_kept _ 2 rfl t h0 (flush_2 (adm V hO) _ (by show t.val - 1 + 1 < (cfg5 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v32 ((dat (Vin W) hO c).arrAt 2 (cfgM (Vin W) hO).N)

end Cert.Kernel.Call5

end
-- ==== Proof.WordCall5Body.lean ====
import proofs.«406163_j35201551958720_3_alg».proof.Proof.Gen.Kernel.Launch
import proofs.«406163_j35201551958720_3_alg».proof.Proof.Gen.Kernel.Skeleton
import proofs.«406163_j35201551958720_3_alg».proof.Proof.WordCall5Data
import Idealize.ShloMosaic.Lib.Pipeline.FrameBody
import Idealize.ShloMosaic.Lib.Ring
import Idealize.ShloMosaic.Lib.Tactic

set_option maxRecDepth 16384

noncomputable section

namespace Cert.Kernel.Call5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 5: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid5.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid5.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W5, bigSep_W5]
  exact sound_body V hO c t

end Cert.Kernel.Call5

end
-- ==== Proof.WordCall5Region.lean ====
import proofs.«406163_j35201551958720_3_alg».proof.Proof.Gen.Kernel.Launch
import proofs.«406163_j35201551958720_3_alg».proof.Proof.Gen.Kernel.Skeleton
import proofs.«406163_j35201551958720_3_alg».proof.Proof.WordCall5Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call5

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 5 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec5)) = {main_v0, main_v32} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec5 c V
      ∗ Pipeline.prefHeld pre5 c (fun _ => fullShare) (fun k => V (pre5.ref k)) ∗ Pipeline.unscopedRestP pre5 spec5 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀5.arr_unscoped c V
  have hrs := Pipeline.unscopedRest_split (Ix := Unit) (Name := ℕ) (U := UR sig nD τ) (Lvl := ℕ) (nD := nD) (τ := τ) (Val := Elt F)
    preFacts5 c V
  rw [hsp, show Pipeline.unscopedRest (cfgM (Vin W) hO).spec c V = Pipeline.unscopedRest (Ix := Unit) (Name := ℕ) (U := UR sig nD τ) (Lvl := ℕ) spec5 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec5 c V : sProp 𝕄)
      = iprop((((c : Thread nD τ).loc main_v0) ↦{fullShare} V main_v0) ∗ (((c : Thread nD τ).loc main_v32) ↦{fullShare} V main_v32)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v32) ↦{fullShare} Vin W c main_v32)) := by
  unfold Pipeline.Dat.arrays
  rw [bigSep_W5]
  have hs0 : ((cfgM (Vin W) hO).win (0 : Fin 3)).arr.view.set = Finset.univ := (arr_whole5 0).set_eq_univ
  have hs1 : ((cfgM (Vin W) hO).win (1 : Fin 3)).arr.view.set = Finset.univ := (arr_whole5 1).set_eq_univ
  have hs2 : ((cfgM (Vin W) hO).win (2 : Fin 3)).arr.view.set = Finset.univ := (arr_whole5 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v32 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v32) ↦{fullShare} Vin W c main_v32))
          ∗ Pipeline.prefHeld pre5 c (fun _ => fullShare) (tbl (Vin W)) ∗ Pipeline.unscopedRestP pre5 spec5 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre5.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre5 c (fun _ => fullShare) (tbl (Vin W))
          ∗ (dat (Vin W) hO c).owesAt () 0 ∗ (∃ r, prngReg c r) ∗ Pipeline.unscopedRestP pre5 spec5 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v32) ↦{fullShare} (dat (Vin W) hO c).arrAt 2 (cfgM (Vin W) hO).N)) := by
  unfold Pipeline.Dat.arrays
  rw [bigSep_W5]
  have hs0 : ((cfgM (Vin W) hO).win (0 : Fin 3)).arr.view.set = Finset.univ := (arr_whole5 0).set_eq_univ
  have hs1 : ((cfgM (Vin W) hO).win (1 : Fin 3)).arr.view.set = Finset.univ := (arr_whole5 1).set_eq_univ
  have hs2 : ((cfgM (Vin W) hO).win (2 : Fin 3)).arr.view.set = Finset.univ := (arr_whole5 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v32 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v32) ↦{fullShare} (dat (Vin W) hO c).arrAt 2 (cfgM (Vin W) hO).N))
          ∗ Pipeline.prefHeld pre5 c (fun _ => fullShare) (tbl (Vin W)) ∗ Pipeline.unscopedRestP pre5 spec5 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v32 = (dat (Vin W) hO c).arrAt 2 (cfgM (Vin W) hO).N := Function.update_self _ _ _
  have et : (fun k => Vin (Wout W hO) c (pre5.ref k)) = tbl (Vin W) := funext fun k => by
    refine (Function.update_of_ne ?_ _ _).trans (V_pre (Vin W) c k)
    intro e
    have := Proc.devRef_injective _ e
    revert k; decide
  have er : (Pipeline.unscopedRestP pre5 spec5 c (Vin (Wout W hO) c) : sProp 𝕄) = Pipeline.unscopedRestP pre5 spec5 c (Vin W c) := by
    unfold Pipeline.unscopedRestP
    refine bigSep_congr fun b hb => ?_
    have hb1 : b ∉ Finset.univ.image (Pipeline.arrRef spec5) := (Finset.mem_sdiff.mp (Finset.mem_sdiff.mp hb).1).2
    have hne : b ≠ main_v32 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre5 c (fun _ => fullShare) (tbl (Vin W)))
        ∗ Pipeline.unscopedRestP pre5 spec5 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre5 c (fun _ => fullShare) (tbl (Vin W)) ∗ Pipeline.scopedRest spec5 c) : sProp 𝕄)
      ⊢ (dat (Vin W) hO c).Φ 0 := by
  rw [show (dat (Vin W) hO c).Φ 0 = iprop(Pipeline.ΦA spec5 c ∗ Pipeline.prefHeld (Ix := Unit) (Name := ℕ) (U := UR sig nD τ) (Lvl := ℕ) pre5 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre5 c (fun _ => fullShare) (tbl (Vin W))) ∗ Pipeline.scopedRest spec5 c) : sProp 𝕄) := by
  rw [show (dat (Vin W) hO c).Φ (Fin.last _) = iprop(Pipeline.ΦA spec5 c ∗ Pipeline.prefHeld (Ix := Unit) (Name := ℕ) (U := UR sig nD τ) (Lvl := ℕ) pre5 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call5

end
-- ==== Proof.WordCall6Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 6: one pair per grid point, its distance added to a one-entry accumulator

The body's only branch tests whether the point is the first of the grid: there the accumulator is reset to zero
before the pair's distance is added; at every later point the distance is added to what the point before left. -/

/-- The branch condition, from the grid coordinate: the point is the first. -/
abbrev cond (i : grid6.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v35
abbrev htbA : tbA.IsWhole := Memref.isWhole_whole _
abbrev tbB : Memref sig .tc .smem S25000 .i32 := Memref.whole main_v36
abbrev htbB : tbB.IsWhole := Memref.isWhole_whole _

/-- The accumulator's staging buffer, through which its contents are stated. -/
abbrev VO : View sig .tc .vmem S1x1 .f32 := (Memref.whole cc6_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc6_kernel i tbA htbA tbB htbB arg3 harg3 arg4 harg4 arg5 harg5) K } := by
  refine ⟨?_, fun E K => ?run⟩
  case run =>
    simp only [cc6_kernel_eq_skeleton]; unfold cc6_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc6_kernel i tbA htbA tbB htbB arg3 harg3 arg4 harg4 arg5 harg5) K } := by
  refine ⟨?_, fun E K => ?run⟩
  case run =>
    simp only [cc6_kernel_eq_skeleton]; unfold cc6_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call6

end
-- ==== Proof.WordCall6Data.lean ====
import proofs.«406163_j35201551958720_3_alg».proof.Proof.Gen.Kernel.Launch
import proofs.«406163_j35201551958720_3_alg».proof.Proof.Gen.Kernel.Skeleton
import proofs.«406163_j35201551958720_3_alg».proof.Proof.WordCall6Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 6 over any entry contents: blocks, the running accumulator, the proof data, the body at a point -/

variable (V : (c : Dev nD) → (b : Ref sig .tc) → Buf (Elt F) ((c : Thread nD τ).loc b))

/-- The two index tables' contents when the region is entered (one device). -/
def tbl : pre6.Contents (Elt F) := fun j => V (0 : Dev nD) (pre6.ref j)
theorem V_pre (c : Dev nD) (j : Fin 2) : V c (pre6.ref j) = tbl V j := by
  obtain rfl : c = 0 := Subsingleton.elim _ _; rfl
/-- Every row the tables name lies inside the array of rows. -/
abbrev Ok : Prop := ok6 (F := F) (tbl V)
abbrev adm (hO : Ok V) : (pcfg6 (F := F)).Adm := ⟨tbl V, hO⟩
abbrev cfgM (hO : Ok V) : Pipeline.Cfg sig Λ₀ := cfg6 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec6 w))

/-- The staging memrefs the body is handed at point `t`. -/
abbrev ms0 (hO : Ok V) (t : Fin (cfgM V hO).N) : Memref sig .tc .vmem S1x1x256 .f32 := spec6_0.stage ((cfgM V hO).slots t 0)
abbrev hs0 (hO : Ok V) (t : Fin (cfgM V hO).N) : (ms0 V hO t).IsWhole := hstage6_0 (((cfgM V hO).slots t 0).cast nbuf6_0)
abbrev ms1 (hO : Ok V) (t : Fin (cfgM V hO).N) : Memref sig .tc .vmem S1x1x256 .f32 := spec6_1.stage ((cfgM V hO).slots t 1)
abbrev hs1 (hO : Ok V) (t : Fin (cfgM V hO).N) : (ms1 V hO t).IsWhole := hstage6_1 (((cfgM V hO).slots t 1).cast nbuf6_1)
abbrev ms2 (hO : Ok V) (t : Fin (cfgM V hO).N) : Memref sig .tc .vmem S1x1 .f32 := spec6_2.stage ((cfgM V hO).slots t 2)
abbrev hs2 (hO : Ok V) (t : Fin (cfgM V hO).N) : (ms2 V hO t).IsWhole := hstage6_2 (((cfgM V hO).slots t 2).cast nbuf6_2)

/-- The body as the pipeline calls it at point `t`. -/
abbrev bodyAt (a : (pcfg6 (F := F)).Adm) (t : Fin (cfg6 a).N) : Prog (TpuEff nD τ sig (Elt F) Λ₀ .tc) PUnit :=
  cc6_kernel (grid6.coords t) (Memref.whole main_v35) (Memref.isWhole_whole _) (Memref.whole main_v36) (Memref.isWhole_whole _)
    (spec6_0.stage ((cfg6 a).slots t 0)) (hstage6_0 (((cfg6 a).slots t 0).cast nbuf6_0))
    (spec6_1.stage ((cfg6 a).slots t 1)) (hstage6_1 (((cfg6 a).slots t 1).cast nbuf6_1))
    (spec6_2.stage ((cfg6 a).slots t 2)) (hstage6_2 (((cfg6 a).slots t 2).cast nbuf6_2))

/-- The one grid coordinate of point `t` is `t`. -/
theorem coords_val (t : Fin grid6.N) : ((grid6.coords t) 0).val = t.val := by
  have hN : t.val < 25000 := lt_of_lt_of_eq t.isLt N_6
  show t.val / grid6.stride 0 % grid6.bound 0 = t.val
  rw [show grid6.stride 0 = 1 from by decide, show grid6.bound 0 = 25000 from rfl, Nat.div_one, Nat.mod_eq_of_lt hN]

/-- The branch is taken at the first point only. -/
theorem hcond (t : Fin grid6.N) : cond (grid6.coords t) ↔ t.val = 0 := by
  exact (Cert.FirstPoint.cond_iff ((grid6.coords t) 0).val ((grid6.coords t) 0).isLt).trans (by rw [coords_val])

/-! ## What the accumulator's buffer holds after each case -/

theorem coverFirst (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid6.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid6.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid6.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid6.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 6 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec6 w)
  after w t := match w with
    | ⟨0, _⟩ => iblk V hO c 0 t
    | ⟨1, _⟩ => iblk V hO c 1 t
    | ⟨2, _⟩ => accAt V hO c t.val t.isLt
  Φ _ := iprop(Pipeline.ΦA spec6 c ∗ Pipeline.prefHeld (Ix := Unit) (Name := ℕ) (U := UR sig nD τ) (Lvl := ℕ) pre6 c (fun _ => fullShare) (tbl V))
  q w := if w = 0 then fullShare.left else fullShare.right
  owed _ := 0

theorem A_eq (hO : Ok V) (c : Dev nD) (w : Fin (cfgM V hO).W) : (dat V hO c).A w = V c (Pipeline.arrRef spec6 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg6 (F := F)).Adm) (t : Fin (cfg6 a).N) (ht : t.val + 1 < (cfg6 a).N) : ((cfg6 a).win 2).flush t = false := by
  have hix : ∀ s : Fin (cfg6 a).N, ((cfg6 a).win 2).index s = ![0, 0] := fun _ => rfl
  unfold Pipeline.Window.flush
  rw [Bool.and_eq_false_iff]; right
  rw [Bool.or_eq_false_iff]
  refine ⟨decide_eq_false (by have : (cfg6 a).N = (cfg6 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg6 (adm V hO)).N := t.isLt
  rw [Dat.before_out_kept _ 2 rfl t h0 (flush_2 (adm V hO) _ (by show t.val - 1 + 1 < (cfg6 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v37 ((dat (Vin W) hO c).arrAt 2 (cfgM (Vin W) hO).N)

end Cert.Kernel.Call6

end
-- ==== Proof.WordCall6Body.lean ====
import proofs.«406163_j35201551958720_3_alg».proof.Proof.Gen.Kernel.Launch
import proofs.«406163_j35201551958720_3_alg».proof.Proof.Gen.Kernel.Skeleton
import proofs.«406163_j35201551958720_3_alg».proof.Proof.WordCall6Data
import Idealize.ShloMosaic.Lib.Pipeline.FrameBody
import Idealize.ShloMosaic.Lib.Ring
import Idealize.ShloMosaic.Lib.Tactic

set_option maxRecDepth 16384

noncomputable section

namespace Cert.Kernel.Call6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 6: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid6.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid6.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W6, bigSep_W6]
  exact sound_body V hO c t

end Cert.Kernel.Call6

end
-- ==== Proof.WordCall6Region.lean ====
import proofs.«406163_j35201551958720_3_alg».proof.Proof.Gen.Kernel.Launch
import proofs.«406163_j35201551958720_3_alg».proof.Proof.Gen.Kernel.Skeleton
import proofs.«406163_j35201551958720_3_alg».proof.Proof.WordCall6Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call6

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 6 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec6)) = {main_v0, main_v37} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec6 c V
      ∗ Pipeline.prefHeld pre6 c (fun _ => fullShare) (fun k => V (pre6.ref k)) ∗ Pipeline.unscopedRestP pre6 spec6 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀6.arr_unscoped c V
  have hrs := Pipeline.unscopedRest_split (Ix := Unit) (Name := ℕ) (U := UR sig nD τ) (Lvl := ℕ) (nD := nD) (τ := τ) (Val := Elt F)
    preFacts6 c V
  rw [hsp, show Pipeline.unscopedRest (cfgM (Vin W) hO).spec c V = Pipeline.unscopedRest (Ix := Unit) (Name := ℕ) (U := UR sig nD τ) (Lvl := ℕ) spec6 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec6 c V : sProp 𝕄)
      = iprop((((c : Thread nD τ).loc main_v0) ↦{fullShare} V main_v0) ∗ (((c : Thread nD τ).loc main_v37) ↦{fullShare} V main_v37)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v37) ↦{fullShare} Vin W c main_v37)) := by
  unfold Pipeline.Dat.arrays
  rw [bigSep_W6]
  have hs0 : ((cfgM (Vin W) hO).win (0 : Fin 3)).arr.view.set = Finset.univ := (arr_whole6 0).set_eq_univ
  have hs1 : ((cfgM (Vin W) hO).win (1 : Fin 3)).arr.view.set = Finset.univ := (arr_whole6 1).set_eq_univ
  have hs2 : ((cfgM (Vin W) hO).win (2 : Fin 3)).arr.view.set = Finset.univ := (arr_whole6 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v37 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v37) ↦{fullShare} Vin W c main_v37))
          ∗ Pipeline.prefHeld pre6 c (fun _ => fullShare) (tbl (Vin W)) ∗ Pipeline.unscopedRestP pre6 spec6 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre6.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre6 c (fun _ => fullShare) (tbl (Vin W))
          ∗ (dat (Vin W) hO c).owesAt () 0 ∗ (∃ r, prngReg c r) ∗ Pipeline.unscopedRestP pre6 spec6 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v37) ↦{fullShare} (dat (Vin W) hO c).arrAt 2 (cfgM (Vin W) hO).N)) := by
  unfold Pipeline.Dat.arrays
  rw [bigSep_W6]
  have hs0 : ((cfgM (Vin W) hO).win (0 : Fin 3)).arr.view.set = Finset.univ := (arr_whole6 0).set_eq_univ
  have hs1 : ((cfgM (Vin W) hO).win (1 : Fin 3)).arr.view.set = Finset.univ := (arr_whole6 1).set_eq_univ
  have hs2 : ((cfgM (Vin W) hO).win (2 : Fin 3)).arr.view.set = Finset.univ := (arr_whole6 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v37 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v37) ↦{fullShare} (dat (Vin W) hO c).arrAt 2 (cfgM (Vin W) hO).N))
          ∗ Pipeline.prefHeld pre6 c (fun _ => fullShare) (tbl (Vin W)) ∗ Pipeline.unscopedRestP pre6 spec6 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v37 = (dat (Vin W) hO c).arrAt 2 (cfgM (Vin W) hO).N := Function.update_self _ _ _
  have et : (fun k => Vin (Wout W hO) c (pre6.ref k)) = tbl (Vin W) := funext fun k => by
    refine (Function.update_of_ne ?_ _ _).trans (V_pre (Vin W) c k)
    intro e
    have := Proc.devRef_injective _ e
    revert k; decide
  have er : (Pipeline.unscopedRestP pre6 spec6 c (Vin (Wout W hO) c) : sProp 𝕄) = Pipeline.unscopedRestP pre6 spec6 c (Vin W c) := by
    unfold Pipeline.unscopedRestP
    refine bigSep_congr fun b hb => ?_
    have hb1 : b ∉ Finset.univ.image (Pipeline.arrRef spec6) := (Finset.mem_sdiff.mp (Finset.mem_sdiff.mp hb).1).2
    have hne : b ≠ main_v37 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre6 c (fun _ => fullShare) (tbl (Vin W)))
        ∗ Pipeline.unscopedRestP pre6 spec6 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre6 c (fun _ => fullShare) (tbl (Vin W)) ∗ Pipeline.scopedRest spec6 c) : sProp 𝕄)
      ⊢ (dat (Vin W) hO c).Φ 0 := by
  rw [show (dat (Vin W) hO c).Φ 0 = iprop(Pipeline.ΦA spec6 c ∗ Pipeline.prefHeld (Ix := Unit) (Name := ℕ) (U := UR sig nD τ) (Lvl := ℕ) pre6 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre6 c (fun _ => fullShare) (tbl (Vin W))) ∗ Pipeline.scopedRest spec6 c) : sProp 𝕄) := by
  rw [show (dat (Vin W) hO c).Φ (Fin.last _) = iprop(Pipeline.ΦA spec6 c ∗ Pipeline.prefHeld (Ix := Unit) (Name := ℕ) (U := UR sig nD τ) (Lvl := ℕ) pre6 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call6

end
-- ==== Proof.WordCall7Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 7: one pair per grid point, its distance added to a one-entry accumulator

The body's only branch tests whether the point is the first of the grid: there the accumulator is reset to zero
before the pair's distance is added; at every later point the distance is added to what the point before left. -/

/-- The branch condition, from the grid coordinate: the point is the first. -/
abbrev cond (i : grid7.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v40
abbrev htbA : tbA.IsWhole := Memref.isWhole_whole _
abbrev tbB : Memref sig .tc .smem S25000 .i32 := Memref.whole main_v41
abbrev htbB : tbB.IsWhole := Memref.isWhole_whole _

/-- The accumulator's staging buffer, through which its contents are stated. -/
abbrev VO : View sig .tc .vmem S1x1 .f32 := (Memref.whole cc7_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc7_kernel i tbA htbA tbB htbB arg3 harg3 arg4 harg4 arg5 harg5) K } := by
  refine ⟨?_, fun E K => ?run⟩
  case run =>
    simp only [cc7_kernel_eq_skeleton]; unfold cc7_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc7_kernel i tbA htbA tbB htbB arg3 harg3 arg4 harg4 arg5 harg5) K } := by
  refine ⟨?_, fun E K => ?run⟩
  case run =>
    simp only [cc7_kernel_eq_skeleton]; unfold cc7_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call7

end
-- ==== Proof.WordCall7Data.lean ====
import proofs.«406163_j35201551958720_3_alg».proof.Proof.Gen.Kernel.Launch
import proofs.«406163_j35201551958720_3_alg».proof.Proof.Gen.Kernel.Skeleton
import proofs.«406163_j35201551958720_3_alg».proof.Proof.WordCall7Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 7 over any entry contents: blocks, the running accumulator, the proof data, the body at a point -/

variable (V : (c : Dev nD) → (b : Ref sig .tc) → Buf (Elt F) ((c : Thread nD τ).loc b))

/-- The two index tables' contents when the region is entered (one device). -/
def tbl : pre7.Contents (Elt F) := fun j => V (0 : Dev nD) (pre7.ref j)
theorem V_pre (c : Dev nD) (j : Fin 2) : V c (pre7.ref j) = tbl V j := by
  obtain rfl : c = 0 := Subsingleton.elim _ _; rfl
/-- Every row the tables name lies inside the array of rows. -/
abbrev Ok : Prop := ok7 (F := F) (tbl V)
abbrev adm (hO : Ok V) : (pcfg7 (F := F)).Adm := ⟨tbl V, hO⟩
abbrev cfgM (hO : Ok V) : Pipeline.Cfg sig Λ₀ := cfg7 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec7 w))

/-- The staging memrefs the body is handed at point `t`. -/
abbrev ms0 (hO : Ok V) (t : Fin (cfgM V hO).N) : Memref sig .tc .vmem S1x1x256 .f32 := spec7_0.stage ((cfgM V hO).slots t 0)
abbrev hs0 (hO : Ok V) (t : Fin (cfgM V hO).N) : (ms0 V hO t).IsWhole := hstage7_0 (((cfgM V hO).slots t 0).cast nbuf7_0)
abbrev ms1 (hO : Ok V) (t : Fin (cfgM V hO).N) : Memref sig .tc .vmem S1x1x256 .f32 := spec7_1.stage ((cfgM V hO).slots t 1)
abbrev hs1 (hO : Ok V) (t : Fin (cfgM V hO).N) : (ms1 V hO t).IsWhole := hstage7_1 (((cfgM V hO).slots t 1).cast nbuf7_1)
abbrev ms2 (hO : Ok V) (t : Fin (cfgM V hO).N) : Memref sig .tc .vmem S1x1 .f32 := spec7_2.stage ((cfgM V hO).slots t 2)
abbrev hs2 (hO : Ok V) (t : Fin (cfgM V hO).N) : (ms2 V hO t).IsWhole := hstage7_2 (((cfgM V hO).slots t 2).cast nbuf7_2)

/-- The body as the pipeline calls it at point `t`. -/
abbrev bodyAt (a : (pcfg7 (F := F)).Adm) (t : Fin (cfg7 a).N) : Prog (TpuEff nD τ sig (Elt F) Λ₀ .tc) PUnit :=
  cc7_kernel (grid7.coords t) (Memref.whole main_v40) (Memref.isWhole_whole _) (Memref.whole main_v41) (Memref.isWhole_whole _)
    (spec7_0.stage ((cfg7 a).slots t 0)) (hstage7_0 (((cfg7 a).slots t 0).cast nbuf7_0))
    (spec7_1.stage ((cfg7 a).slots t 1)) (hstage7_1 (((cfg7 a).slots t 1).cast nbuf7_1))
    (spec7_2.stage ((cfg7 a).slots t 2)) (hstage7_2 (((cfg7 a).slots t 2).cast nbuf7_2))

/-- The one grid coordinate of point `t` is `t`. -/
theorem coords_val (t : Fin grid7.N) : ((grid7.coords t) 0).val = t.val := by
  have hN : t.val < 25000 := lt_of_lt_of_eq t.isLt N_7
  show t.val / grid7.stride 0 % grid7.bound 0 = t.val
  rw [show grid7.stride 0 = 1 from by decide, show grid7.bound 0 = 25000 from rfl, Nat.div_one, Nat.mod_eq_of_lt hN]

/-- The branch is taken at the first point only. -/
theorem hcond (t : Fin grid7.N) : cond (grid7.coords t) ↔ t.val = 0 := by
  exact (Cert.FirstPoint.cond_iff ((grid7.coords t) 0).val ((grid7.coords t) 0).isLt).trans (by rw [coords_val])

/-! ## What the accumulator's buffer holds after each case -/

theorem coverFirst (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid7.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid7.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid7.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid7.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 7 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec7 w)
  after w t := match w with
    | ⟨0, _⟩ => iblk V hO c 0 t
    | ⟨1, _⟩ => iblk V hO c 1 t
    | ⟨2, _⟩ => accAt V hO c t.val t.isLt
  Φ _ := iprop(Pipeline.ΦA spec7 c ∗ Pipeline.prefHeld (Ix := Unit) (Name := ℕ) (U := UR sig nD τ) (Lvl := ℕ) pre7 c (fun _ => fullShare) (tbl V))
  q w := if w = 0 then fullShare.left else fullShare.right
  owed _ := 0

theorem A_eq (hO : Ok V) (c : Dev nD) (w : Fin (cfgM V hO).W) : (dat V hO c).A w = V c (Pipeline.arrRef spec7 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg7 (F := F)).Adm) (t : Fin (cfg7 a).N) (ht : t.val + 1 < (cfg7 a).N) : ((cfg7 a).win 2).flush t = false := by
  have hix : ∀ s : Fin (cfg7 a).N, ((cfg7 a).win 2).index s = ![0, 0] := fun _ => rfl
  unfold Pipeline.Window.flush
  rw [Bool.and_eq_false_iff]; right
  rw [Bool.or_eq_false_iff]
  refine ⟨decide_eq_false (by have : (cfg7 a).N = (cfg7 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg7 (adm V hO)).N := t.isLt
  rw [Dat.before_out_kept _ 2 rfl t h0 (flush_2 (adm V hO) _ (by show t.val - 1 + 1 < (cfg7 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v42 ((dat (Vin W) hO c).arrAt 2 (cfgM (Vin W) hO).N)

end Cert.Kernel.Call7

end
-- ==== Proof.WordCall7Body.lean ====
import proofs.«406163_j35201551958720_3_alg».proof.Proof.Gen.Kernel.Launch
import proofs.«406163_j35201551958720_3_alg».proof.Proof.Gen.Kernel.Skeleton
import proofs.«406163_j35201551958720_3_alg».proof.Proof.WordCall7Data
import Idealize.ShloMosaic.Lib.Pipeline.FrameBody
import Idealize.ShloMosaic.Lib.Ring
import Idealize.ShloMosaic.Lib.Tactic

set_option maxRecDepth 16384

noncomputable section

namespace Cert.Kernel.Call7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 7: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid7.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid7.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W7, bigSep_W7]
  exact sound_body V hO c t

end Cert.Kernel.Call7

end
-- ==== Proof.WordCall7Region.lean ====
import proofs.«406163_j35201551958720_3_alg».proof.Proof.Gen.Kernel.Launch
import proofs.«406163_j35201551958720_3_alg».proof.Proof.Gen.Kernel.Skeleton
import proofs.«406163_j35201551958720_3_alg».proof.Proof.WordCall7Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call7

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 7 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec7)) = {main_v0, main_v42} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec7 c V
      ∗ Pipeline.prefHeld pre7 c (fun _ => fullShare) (fun k => V (pre7.ref k)) ∗ Pipeline.unscopedRestP pre7 spec7 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀7.arr_unscoped c V
  have hrs := Pipeline.unscopedRest_split (Ix := Unit) (Name := ℕ) (U := UR sig nD τ) (Lvl := ℕ) (nD := nD) (τ := τ) (Val := Elt F)
    preFacts7 c V
  rw [hsp, show Pipeline.unscopedRest (cfgM (Vin W) hO).spec c V = Pipeline.unscopedRest (Ix := Unit) (Name := ℕ) (U := UR sig nD τ) (Lvl := ℕ) spec7 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec7 c V : sProp 𝕄)
      = iprop((((c : Thread nD τ).loc main_v0) ↦{fullShare} V main_v0) ∗ (((c : Thread nD τ).loc main_v42) ↦{fullShare} V main_v42)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v42) ↦{fullShare} Vin W c main_v42)) := by
  unfold Pipeline.Dat.arrays
  rw [bigSep_W7]
  have hs0 : ((cfgM (Vin W) hO).win (0 : Fin 3)).arr.view.set = Finset.univ := (arr_whole7 0).set_eq_univ
  have hs1 : ((cfgM (Vin W) hO).win (1 : Fin 3)).arr.view.set = Finset.univ := (arr_whole7 1).set_eq_univ
  have hs2 : ((cfgM (Vin W) hO).win (2 : Fin 3)).arr.view.set = Finset.univ := (arr_whole7 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v42 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v42) ↦{fullShare} Vin W c main_v42))
          ∗ Pipeline.prefHeld pre7 c (fun _ => fullShare) (tbl (Vin W)) ∗ Pipeline.unscopedRestP pre7 spec7 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre7.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre7 c (fun _ => fullShare) (tbl (Vin W))
          ∗ (dat (Vin W) hO c).owesAt () 0 ∗ (∃ r, prngReg c r) ∗ Pipeline.unscopedRestP pre7 spec7 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v42) ↦{fullShare} (dat (Vin W) hO c).arrAt 2 (cfgM (Vin W) hO).N)) := by
  unfold Pipeline.Dat.arrays
  rw [bigSep_W7]
  have hs0 : ((cfgM (Vin W) hO).win (0 : Fin 3)).arr.view.set = Finset.univ := (arr_whole7 0).set_eq_univ
  have hs1 : ((cfgM (Vin W) hO).win (1 : Fin 3)).arr.view.set = Finset.univ := (arr_whole7 1).set_eq_univ
  have hs2 : ((cfgM (Vin W) hO).win (2 : Fin 3)).arr.view.set = Finset.univ := (arr_whole7 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v42 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v42) ↦{fullShare} (dat (Vin W) hO c).arrAt 2 (cfgM (Vin W) hO).N))
          ∗ Pipeline.prefHeld pre7 c (fun _ => fullShare) (tbl (Vin W)) ∗ Pipeline.unscopedRestP pre7 spec7 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v42 = (dat (Vin W) hO c).arrAt 2 (cfgM (Vin W) hO).N := Function.update_self _ _ _
  have et : (fun k => Vin (Wout W hO) c (pre7.ref k)) = tbl (Vin W) := funext fun k => by
    refine (Function.update_of_ne ?_ _ _).trans (V_pre (Vin W) c k)
    intro e
    have := Proc.devRef_injective _ e
    revert k; decide
  have er : (Pipeline.unscopedRestP pre7 spec7 c (Vin (Wout W hO) c) : sProp 𝕄) = Pipeline.unscopedRestP pre7 spec7 c (Vin W c) := by
    unfold Pipeline.unscopedRestP
    refine bigSep_congr fun b hb => ?_
    have hb1 : b ∉ Finset.univ.image (Pipeline.arrRef spec7) := (Finset.mem_sdiff.mp (Finset.mem_sdiff.mp hb).1).2
    have hne : b ≠ main_v42 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre7 c (fun _ => fullShare) (tbl (Vin W)))
        ∗ Pipeline.unscopedRestP pre7 spec7 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre7 c (fun _ => fullShare) (tbl (Vin W)) ∗ Pipeline.scopedRest spec7 c) : sProp 𝕄)
      ⊢ (dat (Vin W) hO c).Φ 0 := by
  rw [show (dat (Vin W) hO c).Φ 0 = iprop(Pipeline.ΦA spec7 c ∗ Pipeline.prefHeld (Ix := Unit) (Name := ℕ) (U := UR sig nD τ) (Lvl := ℕ) pre7 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre7 c (fun _ => fullShare) (tbl (Vin W))) ∗ Pipeline.scopedRest spec7 c) : sProp 𝕄) := by
  rw [show (dat (Vin W) hO c).Φ (Fin.last _) = iprop(Pipeline.ΦA spec7 c ∗ Pipeline.prefHeld (Ix := Unit) (Name := ℕ) (U := UR sig nD τ) (Lvl := ℕ) pre7 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call7

end
-- ==== Proof.WordCall8Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 8: one pair per grid point, its distance added to a one-entry accumulator

The body's only branch tests whether the point is the first of the grid: there the accumulator is reset to zero
before the pair's distance is added; at every later point the distance is added to what the point before left. -/

/-- The branch condition, from the grid coordinate: the point is the first. -/
abbrev cond (i : grid8.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v49
abbrev htbA : tbA.IsWhole := Memref.isWhole_whole _
abbrev tbB : Memref sig .tc .smem S25000 .i32 := Memref.whole main_v50
abbrev htbB : tbB.IsWhole := Memref.isWhole_whole _

/-- The accumulator's staging buffer, through which its contents are stated. -/
abbrev VO : View sig .tc .vmem S1x1 .f32 := (Memref.whole cc8_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc8_kernel i tbA htbA tbB htbB arg3 harg3 arg4 harg4 arg5 harg5) K } := by
  refine ⟨?_, fun E K => ?run⟩
  case run =>
    simp only [cc8_kernel_eq_skeleton]; unfold cc8_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc8_kernel i tbA htbA tbB htbB arg3 harg3 arg4 harg4 arg5 harg5) K } := by
  refine ⟨?_, fun E K => ?run⟩
  case run =>
    simp only [cc8_kernel_eq_skeleton]; unfold cc8_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call8

end
-- ==== Proof.WordCall8Data.lean ====
import proofs.«406163_j35201551958720_3_alg».proof.Proof.Gen.Kernel.Launch
import proofs.«406163_j35201551958720_3_alg».proof.Proof.Gen.Kernel.Skeleton
import proofs.«406163_j35201551958720_3_alg».proof.Proof.WordCall8Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 8 over any entry contents: blocks, the running accumulator, the proof data, the body at a point -/

variable (V : (c : Dev nD) → (b : Ref sig .tc) → Buf (Elt F) ((c : Thread nD τ).loc b))

/-- The two index tables' contents when the region is entered (one device). -/
def tbl : pre8.Contents (Elt F) := fun j => V (0 : Dev nD) (pre8.ref j)
theorem V_pre (c : Dev nD) (j : Fin 2) : V c (pre8.ref j) = tbl V j := by
  obtain rfl : c = 0 := Subsingleton.elim _ _; rfl
/-- Every row the tables name lies inside the array of rows. -/
abbrev Ok : Prop := ok8 (F := F) (tbl V)
abbrev adm (hO : Ok V) : (pcfg8 (F := F)).Adm := ⟨tbl V, hO⟩
abbrev cfgM (hO : Ok V) : Pipeline.Cfg sig Λ₀ := cfg8 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec8 w))

/-- The staging memrefs the body is handed at point `t`. -/
abbrev ms0 (hO : Ok V) (t : Fin (cfgM V hO).N) : Memref sig .tc .vmem S1x1x256 .f32 := spec8_0.stage ((cfgM V hO).slots t 0)
abbrev hs0 (hO : Ok V) (t : Fin (cfgM V hO).N) : (ms0 V hO t).IsWhole := hstage8_0 (((cfgM V hO).slots t 0).cast nbuf8_0)
abbrev ms1 (hO : Ok V) (t : Fin (cfgM V hO).N) : Memref sig .tc .vmem S1x1x256 .f32 := spec8_1.stage ((cfgM V hO).slots t 1)
abbrev hs1 (hO : Ok V) (t : Fin (cfgM V hO).N) : (ms1 V hO t).IsWhole := hstage8_1 (((cfgM V hO).slots t 1).cast nbuf8_1)
abbrev ms2 (hO : Ok V) (t : Fin (cfgM V hO).N) : Memref sig .tc .vmem S1x1 .f32 := spec8_2.stage ((cfgM V hO).slots t 2)
abbrev hs2 (hO : Ok V) (t : Fin (cfgM V hO).N) : (ms2 V hO t).IsWhole := hstage8_2 (((cfgM V hO).slots t 2).cast nbuf8_2)

/-- The body as the pipeline calls it at point `t`. -/
abbrev bodyAt (a : (pcfg8 (F := F)).Adm) (t : Fin (cfg8 a).N) : Prog (TpuEff nD τ sig (Elt F) Λ₀ .tc) PUnit :=
  cc8_kernel (grid8.coords t) (Memref.whole main_v49) (Memref.isWhole_whole _) (Memref.whole main_v50) (Memref.isWhole_whole _)
    (spec8_0.stage ((cfg8 a).slots t 0)) (hstage8_0 (((cfg8 a).slots t 0).cast nbuf8_0))
    (spec8_1.stage ((cfg8 a).slots t 1)) (hstage8_1 (((cfg8 a).slots t 1).cast nbuf8_1))
    (spec8_2.stage ((cfg8 a).slots t 2)) (hstage8_2 (((cfg8 a).slots t 2).cast nbuf8_2))

/-- The one grid coordinate of point `t` is `t`. -/
theorem coords_val (t : Fin grid8.N) : ((grid8.coords t) 0).val = t.val := by
  have hN : t.val < 25000 := lt_of_lt_of_eq t.isLt N_8
  show t.val / grid8.stride 0 % grid8.bound 0 = t.val
  rw [show grid8.stride 0 = 1 from by decide, show grid8.bound 0 = 25000 from rfl, Nat.div_one, Nat.mod_eq_of_lt hN]

/-- The branch is taken at the first point only. -/
theorem hcond (t : Fin grid8.N) : cond (grid8.coords t) ↔ t.val = 0 := by
  exact (Cert.FirstPoint.cond_iff ((grid8.coords t) 0).val ((grid8.coords t) 0).isLt).trans (by rw [coords_val])

/-! ## What the accumulator's buffer holds after each case -/

theorem coverFirst (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid8.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid8.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid8.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid8.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 8 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec8 w)
  after w t := match w with
    | ⟨0, _⟩ => iblk V hO c 0 t
    | ⟨1, _⟩ => iblk V hO c 1 t
    | ⟨2, _⟩ => accAt V hO c t.val t.isLt
  Φ _ := iprop(Pipeline.ΦA spec8 c ∗ Pipeline.prefHeld (Ix := Unit) (Name := ℕ) (U := UR sig nD τ) (Lvl := ℕ) pre8 c (fun _ => fullShare) (tbl V))
  q w := if w = 0 then fullShare.left else fullShare.right
  owed _ := 0

theorem A_eq (hO : Ok V) (c : Dev nD) (w : Fin (cfgM V hO).W) : (dat V hO c).A w = V c (Pipeline.arrRef spec8 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg8 (F := F)).Adm) (t : Fin (cfg8 a).N) (ht : t.val + 1 < (cfg8 a).N) : ((cfg8 a).win 2).flush t = false := by
  have hix : ∀ s : Fin (cfg8 a).N, ((cfg8 a).win 2).index s = ![0, 0] := fun _ => rfl
  unfold Pipeline.Window.flush
  rw [Bool.and_eq_false_iff]; right
  rw [Bool.or_eq_false_iff]
  refine ⟨decide_eq_false (by have : (cfg8 a).N = (cfg8 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg8 (adm V hO)).N := t.isLt
  rw [Dat.before_out_kept _ 2 rfl t h0 (flush_2 (adm V hO) _ (by show t.val - 1 + 1 < (cfg8 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v51 ((dat (Vin W) hO c).arrAt 2 (cfgM (Vin W) hO).N)

end Cert.Kernel.Call8

end
-- ==== Proof.WordCall8Body.lean ====
import proofs.«406163_j35201551958720_3_alg».proof.Proof.Gen.Kernel.Launch
import proofs.«406163_j35201551958720_3_alg».proof.Proof.Gen.Kernel.Skeleton
import proofs.«406163_j35201551958720_3_alg».proof.Proof.WordCall8Data
import Idealize.ShloMosaic.Lib.Pipeline.FrameBody
import Idealize.ShloMosaic.Lib.Ring
import Idealize.ShloMosaic.Lib.Tactic

set_option maxRecDepth 16384

noncomputable section

namespace Cert.Kernel.Call8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 8: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid8.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid8.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W8, bigSep_W8]
  exact sound_body V hO c t

end Cert.Kernel.Call8

end
-- ==== Proof.WordCall8Region.lean ====
import proofs.«406163_j35201551958720_3_alg».proof.Proof.Gen.Kernel.Launch
import proofs.«406163_j35201551958720_3_alg».proof.Proof.Gen.Kernel.Skeleton
import proofs.«406163_j35201551958720_3_alg».proof.Proof.WordCall8Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call8

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 8 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec8)) = {main_v0, main_v51} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec8 c V
      ∗ Pipeline.prefHeld pre8 c (fun _ => fullShare) (fun k => V (pre8.ref k)) ∗ Pipeline.unscopedRestP pre8 spec8 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀8.arr_unscoped c V
  have hrs := Pipeline.unscopedRest_split (Ix := Unit) (Name := ℕ) (U := UR sig nD τ) (Lvl := ℕ) (nD := nD) (τ := τ) (Val := Elt F)
    preFacts8 c V
  rw [hsp, show Pipeline.unscopedRest (cfgM (Vin W) hO).spec c V = Pipeline.unscopedRest (Ix := Unit) (Name := ℕ) (U := UR sig nD τ) (Lvl := ℕ) spec8 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec8 c V : sProp 𝕄)
      = iprop((((c : Thread nD τ).loc main_v0) ↦{fullShare} V main_v0) ∗ (((c : Thread nD τ).loc main_v51) ↦{fullShare} V main_v51)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v51) ↦{fullShare} Vin W c main_v51)) := by
  unfold Pipeline.Dat.arrays
  rw [bigSep_W8]
  have hs0 : ((cfgM (Vin W) hO).win (0 : Fin 3)).arr.view.set = Finset.univ := (arr_whole8 0).set_eq_univ
  have hs1 : ((cfgM (Vin W) hO).win (1 : Fin 3)).arr.view.set = Finset.univ := (arr_whole8 1).set_eq_univ
  have hs2 : ((cfgM (Vin W) hO).win (2 : Fin 3)).arr.view.set = Finset.univ := (arr_whole8 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v51 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v51) ↦{fullShare} Vin W c main_v51))
          ∗ Pipeline.prefHeld pre8 c (fun _ => fullShare) (tbl (Vin W)) ∗ Pipeline.unscopedRestP pre8 spec8 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre8.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre8 c (fun _ => fullShare) (tbl (Vin W))
          ∗ (dat (Vin W) hO c).owesAt () 0 ∗ (∃ r, prngReg c r) ∗ Pipeline.unscopedRestP pre8 spec8 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v51) ↦{fullShare} (dat (Vin W) hO c).arrAt 2 (cfgM (Vin W) hO).N)) := by
  unfold Pipeline.Dat.arrays
  rw [bigSep_W8]
  have hs0 : ((cfgM (Vin W) hO).win (0 : Fin 3)).arr.view.set = Finset.univ := (arr_whole8 0).set_eq_univ
  have hs1 : ((cfgM (Vin W) hO).win (1 : Fin 3)).arr.view.set = Finset.univ := (arr_whole8 1).set_eq_univ
  have hs2 : ((cfgM (Vin W) hO).win (2 : Fin 3)).arr.view.set = Finset.univ := (arr_whole8 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v51 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v51) ↦{fullShare} (dat (Vin W) hO c).arrAt 2 (cfgM (Vin W) hO).N))
          ∗ Pipeline.prefHeld pre8 c (fun _ => fullShare) (tbl (Vin W)) ∗ Pipeline.unscopedRestP pre8 spec8 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v51 = (dat (Vin W) hO c).arrAt 2 (cfgM (Vin W) hO).N := Function.update_self _ _ _
  have et : (fun k => Vin (Wout W hO) c (pre8.ref k)) = tbl (Vin W) := funext fun k => by
    refine (Function.update_of_ne ?_ _ _).trans (V_pre (Vin W) c k)
    intro e
    have := Proc.devRef_injective _ e
    revert k; decide
  have er : (Pipeline.unscopedRestP pre8 spec8 c (Vin (Wout W hO) c) : sProp 𝕄) = Pipeline.unscopedRestP pre8 spec8 c (Vin W c) := by
    unfold Pipeline.unscopedRestP
    refine bigSep_congr fun b hb => ?_
    have hb1 : b ∉ Finset.univ.image (Pipeline.arrRef spec8) := (Finset.mem_sdiff.mp (Finset.mem_sdiff.mp hb).1).2
    have hne : b ≠ main_v51 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre8 c (fun _ => fullShare) (tbl (Vin W)))
        ∗ Pipeline.unscopedRestP pre8 spec8 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre8 c (fun _ => fullShare) (tbl (Vin W)) ∗ Pipeline.scopedRest spec8 c) : sProp 𝕄)
      ⊢ (dat (Vin W) hO c).Φ 0 := by
  rw [show (dat (Vin W) hO c).Φ 0 = iprop(Pipeline.ΦA spec8 c ∗ Pipeline.prefHeld (Ix := Unit) (Name := ℕ) (U := UR sig nD τ) (Lvl := ℕ) pre8 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre8 c (fun _ => fullShare) (tbl (Vin W))) ∗ Pipeline.scopedRest spec8 c) : sProp 𝕄) := by
  rw [show (dat (Vin W) hO c).Φ (Fin.last _) = iprop(Pipeline.ΦA spec8 c ∗ Pipeline.prefHeld (Ix := Unit) (Name := ℕ) (U := UR sig nD τ) (Lvl := ℕ) pre8 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call8

end
-- ==== Proof.WordCall9Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 9: one pair per grid point, its distance added to a one-entry accumulator

The body's only branch tests whether the point is the first of the grid: there the accumulator is reset to zero
before the pair's distance is added; at every later point the distance is added to what the point before left. -/

/-- The branch condition, from the grid coordinate: the point is the first. -/
abbrev cond (i : grid9.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v54
abbrev htbA : tbA.IsWhole := Memref.isWhole_whole _
abbrev tbB : Memref sig .tc .smem S25000 .i32 := Memref.whole main_v55
abbrev htbB : tbB.IsWhole := Memref.isWhole_whole _

/-- The accumulator's staging buffer, through which its contents are stated. -/
abbrev VO : View sig .tc .vmem S1x1 .f32 := (Memref.whole cc9_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc9_kernel i tbA htbA tbB htbB arg3 harg3 arg4 harg4 arg5 harg5) K } := by
  refine ⟨?_, fun E K => ?run⟩
  case run =>
    simp only [cc9_kernel_eq_skeleton]; unfold cc9_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc9_kernel i tbA htbA tbB htbB arg3 harg3 arg4 harg4 arg5 harg5) K } := by
  refine ⟨?_, fun E K => ?run⟩
  case run =>
    simp only [cc9_kernel_eq_skeleton]; unfold cc9_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call9

end
-- ==== Proof.WordCall9Data.lean ====
import proofs.«406163_j35201551958720_3_alg».proof.Proof.Gen.Kernel.Launch
import proofs.«406163_j35201551958720_3_alg».proof.Proof.Gen.Kernel.Skeleton
import proofs.«406163_j35201551958720_3_alg».proof.Proof.WordCall9Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 9 over any entry contents: blocks, the running accumulator, the proof data, the body at a point -/

variable (V : (c : Dev nD) → (b : Ref sig .tc) → Buf (Elt F) ((c : Thread nD τ).loc b))

/-- The two index tables' contents when the region is entered (one device). -/
def tbl : pre9.Contents (Elt F) := fun j => V (0 : Dev nD) (pre9.ref j)
theorem V_pre (c : Dev nD) (j : Fin 2) : V c (pre9.ref j) = tbl V j := by
  obtain rfl : c = 0 := Subsingleton.elim _ _; rfl
/-- Every row the tables name lies inside the array of rows. -/
abbrev Ok : Prop := ok9 (F := F) (tbl V)
abbrev adm (hO : Ok V) : (pcfg9 (F := F)).Adm := ⟨tbl V, hO⟩
abbrev cfgM (hO : Ok V) : Pipeline.Cfg sig Λ₀ := cfg9 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec9 w))

/-- The staging memrefs the body is handed at point `t`. -/
abbrev ms0 (hO : Ok V) (t : Fin (cfgM V hO).N) : Memref sig .tc .vmem S1x1x256 .f32 := spec9_0.stage ((cfgM V hO).slots t 0)
abbrev hs0 (hO : Ok V) (t : Fin (cfgM V hO).N) : (ms0 V hO t).IsWhole := hstage9_0 (((cfgM V hO).slots t 0).cast nbuf9_0)
abbrev ms1 (hO : Ok V) (t : Fin (cfgM V hO).N) : Memref sig .tc .vmem S1x1x256 .f32 := spec9_1.stage ((cfgM V hO).slots t 1)
abbrev hs1 (hO : Ok V) (t : Fin (cfgM V hO).N) : (ms1 V hO t).IsWhole := hstage9_1 (((cfgM V hO).slots t 1).cast nbuf9_1)
abbrev ms2 (hO : Ok V) (t : Fin (cfgM V hO).N) : Memref sig .tc .vmem S1x1 .f32 := spec9_2.stage ((cfgM V hO).slots t 2)
abbrev hs2 (hO : Ok V) (t : Fin (cfgM V hO).N) : (ms2 V hO t).IsWhole := hstage9_2 (((cfgM V hO).slots t 2).cast nbuf9_2)

/-- The body as the pipeline calls it at point `t`. -/
abbrev bodyAt (a : (pcfg9 (F := F)).Adm) (t : Fin (cfg9 a).N) : Prog (TpuEff nD τ sig (Elt F) Λ₀ .tc) PUnit :=
  cc9_kernel (grid9.coords t) (Memref.whole main_v54) (Memref.isWhole_whole _) (Memref.whole main_v55) (Memref.isWhole_whole _)
    (spec9_0.stage ((cfg9 a).slots t 0)) (hstage9_0 (((cfg9 a).slots t 0).cast nbuf9_0))
    (spec9_1.stage ((cfg9 a).slots t 1)) (hstage9_1 (((cfg9 a).slots t 1).cast nbuf9_1))
    (spec9_2.stage ((cfg9 a).slots t 2)) (hstage9_2 (((cfg9 a).slots t 2).cast nbuf9_2))

/-- The one grid coordinate of point `t` is `t`. -/
theorem coords_val (t : Fin grid9.N) : ((grid9.coords t) 0).val = t.val := by
  have hN : t.val < 25000 := lt_of_lt_of_eq t.isLt N_9
  show t.val / grid9.stride 0 % grid9.bound 0 = t.val
  rw [show grid9.stride 0 = 1 from by decide, show grid9.bound 0 = 25000 from rfl, Nat.div_one, Nat.mod_eq_of_lt hN]

/-- The branch is taken at the first point only. -/
theorem hcond (t : Fin grid9.N) : cond (grid9.coords t) ↔ t.val = 0 := by
  exact (Cert.FirstPoint.cond_iff ((grid9.coords t) 0).val ((grid9.coords t) 0).isLt).trans (by rw [coords_val])

/-! ## What the accumulator's buffer holds after each case -/

theorem coverFirst (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid9.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid9.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid9.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid9.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 9 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec9 w)
  after w t := match w with
    | ⟨0, _⟩ => iblk V hO c 0 t
    | ⟨1, _⟩ => iblk V hO c 1 t
    | ⟨2, _⟩ => accAt V hO c t.val t.isLt
  Φ _ := iprop(Pipeline.ΦA spec9 c ∗ Pipeline.prefHeld (Ix := Unit) (Name := ℕ) (U := UR sig nD τ) (Lvl := ℕ) pre9 c (fun _ => fullShare) (tbl V))
  q w := if w = 0 then fullShare.left else fullShare.right
  owed _ := 0

theorem A_eq (hO : Ok V) (c : Dev nD) (w : Fin (cfgM V hO).W) : (dat V hO c).A w = V c (Pipeline.arrRef spec9 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg9 (F := F)).Adm) (t : Fin (cfg9 a).N) (ht : t.val + 1 < (cfg9 a).N) : ((cfg9 a).win 2).flush t = false := by
  have hix : ∀ s : Fin (cfg9 a).N, ((cfg9 a).win 2).index s = ![0, 0] := fun _ => rfl
  unfold Pipeline.Window.flush
  rw [Bool.and_eq_false_iff]; right
  rw [Bool.or_eq_false_iff]
  refine ⟨decide_eq_false (by have : (cfg9 a).N = (cfg9 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg9 (adm V hO)).N := t.isLt
  rw [Dat.before_out_kept _ 2 rfl t h0 (flush_2 (adm V hO) _ (by show t.val - 1 + 1 < (cfg9 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v56 ((dat (Vin W) hO c).arrAt 2 (cfgM (Vin W) hO).N)

end Cert.Kernel.Call9

end
-- ==== Proof.WordCall9Body.lean ====
import proofs.«406163_j35201551958720_3_alg».proof.Proof.Gen.Kernel.Launch
import proofs.«406163_j35201551958720_3_alg».proof.Proof.Gen.Kernel.Skeleton
import proofs.«406163_j35201551958720_3_alg».proof.Proof.WordCall9Data
import Idealize.ShloMosaic.Lib.Pipeline.FrameBody
import Idealize.ShloMosaic.Lib.Ring
import Idealize.ShloMosaic.Lib.Tactic

set_option maxRecDepth 16384

noncomputable section

namespace Cert.Kernel.Call9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 9: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid9.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid9.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W9, bigSep_W9]
  exact sound_body V hO c t

end Cert.Kernel.Call9

end
-- ==== Proof.WordCall9Region.lean ====
import proofs.«406163_j35201551958720_3_alg».proof.Proof.Gen.Kernel.Launch
import proofs.«406163_j35201551958720_3_alg».proof.Proof.Gen.Kernel.Skeleton
import proofs.«406163_j35201551958720_3_alg».proof.Proof.WordCall9Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call9

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 9 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec9)) = {main_v0, main_v56} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec9 c V
      ∗ Pipeline.prefHeld pre9 c (fun _ => fullShare) (fun k => V (pre9.ref k)) ∗ Pipeline.unscopedRestP pre9 spec9 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀9.arr_unscoped c V
  have hrs := Pipeline.unscopedRest_split (Ix := Unit) (Name := ℕ) (U := UR sig nD τ) (Lvl := ℕ) (nD := nD) (τ := τ) (Val := Elt F)
    preFacts9 c V
  rw [hsp, show Pipeline.unscopedRest (cfgM (Vin W) hO).spec c V = Pipeline.unscopedRest (Ix := Unit) (Name := ℕ) (U := UR sig nD τ) (Lvl := ℕ) spec9 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec9 c V : sProp 𝕄)
      = iprop((((c : Thread nD τ).loc main_v0) ↦{fullShare} V main_v0) ∗ (((c : Thread nD τ).loc main_v56) ↦{fullShare} V main_v56)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v56) ↦{fullShare} Vin W c main_v56)) := by
  unfold Pipeline.Dat.arrays
  rw [bigSep_W9]
  have hs0 : ((cfgM (Vin W) hO).win (0 : Fin 3)).arr.view.set = Finset.univ := (arr_whole9 0).set_eq_univ
  have hs1 : ((cfgM (Vin W) hO).win (1 : Fin 3)).arr.view.set = Finset.univ := (arr_whole9 1).set_eq_univ
  have hs2 : ((cfgM (Vin W) hO).win (2 : Fin 3)).arr.view.set = Finset.univ := (arr_whole9 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v56 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v56) ↦{fullShare} Vin W c main_v56))
          ∗ Pipeline.prefHeld pre9 c (fun _ => fullShare) (tbl (Vin W)) ∗ Pipeline.unscopedRestP pre9 spec9 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre9.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre9 c (fun _ => fullShare) (tbl (Vin W))
          ∗ (dat (Vin W) hO c).owesAt () 0 ∗ (∃ r, prngReg c r) ∗ Pipeline.unscopedRestP pre9 spec9 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v56) ↦{fullShare} (dat (Vin W) hO c).arrAt 2 (cfgM (Vin W) hO).N)) := by
  unfold Pipeline.Dat.arrays
  rw [bigSep_W9]
  have hs0 : ((cfgM (Vin W) hO).win (0 : Fin 3)).arr.view.set = Finset.univ := (arr_whole9 0).set_eq_univ
  have hs1 : ((cfgM (Vin W) hO).win (1 : Fin 3)).arr.view.set = Finset.univ := (arr_whole9 1).set_eq_univ
  have hs2 : ((cfgM (Vin W) hO).win (2 : Fin 3)).arr.view.set = Finset.univ := (arr_whole9 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v56 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v56) ↦{fullShare} (dat (Vin W) hO c).arrAt 2 (cfgM (Vin W) hO).N))
          ∗ Pipeline.prefHeld pre9 c (fun _ => fullShare) (tbl (Vin W)) ∗ Pipeline.unscopedRestP pre9 spec9 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v56 = (dat (Vin W) hO c).arrAt 2 (cfgM (Vin W) hO).N := Function.update_self _ _ _
  have et : (fun k => Vin (Wout W hO) c (pre9.ref k)) = tbl (Vin W) := funext fun k => by
    refine (Function.update_of_ne ?_ _ _).trans (V_pre (Vin W) c k)
    intro e
    have := Proc.devRef_injective _ e
    revert k; decide
  have er : (Pipeline.unscopedRestP pre9 spec9 c (Vin (Wout W hO) c) : sProp 𝕄) = Pipeline.unscopedRestP pre9 spec9 c (Vin W c) := by
    unfold Pipeline.unscopedRestP
    refine bigSep_congr fun b hb => ?_
    have hb1 : b ∉ Finset.univ.image (Pipeline.arrRef spec9) := (Finset.mem_sdiff.mp (Finset.mem_sdiff.mp hb).1).2
    have hne : b ≠ main_v56 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre9 c (fun _ => fullShare) (tbl (Vin W)))
        ∗ Pipeline.unscopedRestP pre9 spec9 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre9 c (fun _ => fullShare) (tbl (Vin W)) ∗ Pipeline.scopedRest spec9 c) : sProp 𝕄)
      ⊢ (dat (Vin W) hO c).Φ 0 := by
  rw [show (dat (Vin W) hO c).Φ 0 = iprop(Pipeline.ΦA spec9 c ∗ Pipeline.prefHeld (Ix := Unit) (Name := ℕ) (U := UR sig nD τ) (Lvl := ℕ) pre9 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre9 c (fun _ => fullShare) (tbl (Vin W))) ∗ Pipeline.scopedRest spec9 c) : sProp 𝕄) := by
  rw [show (dat (Vin W) hO c).Φ (Fin.last _) = iprop(Pipeline.ΦA spec9 c ∗ Pipeline.prefHeld (Ix := Unit) (Name := ℕ) (U := UR sig nD τ) (Lvl := ℕ) pre9 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call9

end
-- ==== Proof.WordCall10Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 10: one pair per grid point, its distance added to a one-entry accumulator

The body's only branch tests whether the point is the first of the grid: there the accumulator is reset to zero
before the pair's distance is added; at every later point the distance is added to what the point before left. -/

/-- The branch condition, from the grid coordinate: the point is the first. -/
abbrev cond (i : grid10.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v59
abbrev htbA : tbA.IsWhole := Memref.isWhole_whole _
abbrev tbB : Memref sig .tc .smem S25000 .i32 := Memref.whole main_v60
abbrev htbB : tbB.IsWhole := Memref.isWhole_whole _

/-- The accumulator's staging buffer, through which its contents are stated. -/
abbrev VO : View sig .tc .vmem S1x1 .f32 := (Memref.whole cc10_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc10_kernel i tbA htbA tbB htbB arg3 harg3 arg4 harg4 arg5 harg5) K } := by
  refine ⟨?_, fun E K => ?run⟩
  case run =>
    simp only [cc10_kernel_eq_skeleton]; unfold cc10_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc10_kernel i tbA htbA tbB htbB arg3 harg3 arg4 harg4 arg5 harg5) K } := by
  refine ⟨?_, fun E K => ?run⟩
  case run =>
    simp only [cc10_kernel_eq_skeleton]; unfold cc10_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call10

end
-- ==== Proof.WordCall10Data.lean ====
import proofs.«406163_j35201551958720_3_alg».proof.Proof.Gen.Kernel.Launch
import proofs.«406163_j35201551958720_3_alg».proof.Proof.Gen.Kernel.Skeleton
import proofs.«406163_j35201551958720_3_alg».proof.Proof.WordCall10Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 10 over any entry contents: blocks, the running accumulator, the proof data, the body at a point -/

variable (V : (c : Dev nD) → (b : Ref sig .tc) → Buf (Elt F) ((c : Thread nD τ).loc b))

/-- The two index tables' contents when the region is entered (one device). -/
def tbl : pre10.Contents (Elt F) := fun j => V (0 : Dev nD) (pre10.ref j)
theorem V_pre (c : Dev nD) (j : Fin 2) : V c (pre10.ref j) = tbl V j := by
  obtain rfl : c = 0 := Subsingleton.elim _ _; rfl
/-- Every row the tables name lies inside the array of rows. -/
abbrev Ok : Prop := ok10 (F := F) (tbl V)
abbrev adm (hO : Ok V) : (pcfg10 (F := F)).Adm := ⟨tbl V, hO⟩
abbrev cfgM (hO : Ok V) : Pipeline.Cfg sig Λ₀ := cfg10 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec10 w))

/-- The staging memrefs the body is handed at point `t`. -/
abbrev ms0 (hO : Ok V) (t : Fin (cfgM V hO).N) : Memref sig .tc .vmem S1x1x256 .f32 := spec10_0.stage ((cfgM V hO).slots t 0)
abbrev hs0 (hO : Ok V) (t : Fin (cfgM V hO).N) : (ms0 V hO t).IsWhole := hstage10_0 (((cfgM V hO).slots t 0).cast nbuf10_0)
abbrev ms1 (hO : Ok V) (t : Fin (cfgM V hO).N) : Memref sig .tc .vmem S1x1x256 .f32 := spec10_1.stage ((cfgM V hO).slots t 1)
abbrev hs1 (hO : Ok V) (t : Fin (cfgM V hO).N) : (ms1 V hO t).IsWhole := hstage10_1 (((cfgM V hO).slots t 1).cast nbuf10_1)
abbrev ms2 (hO : Ok V) (t : Fin (cfgM V hO).N) : Memref sig .tc .vmem S1x1 .f32 := spec10_2.stage ((cfgM V hO).slots t 2)
abbrev hs2 (hO : Ok V) (t : Fin (cfgM V hO).N) : (ms2 V hO t).IsWhole := hstage10_2 (((cfgM V hO).slots t 2).cast nbuf10_2)

/-- The body as the pipeline calls it at point `t`. -/
abbrev bodyAt (a : (pcfg10 (F := F)).Adm) (t : Fin (cfg10 a).N) : Prog (TpuEff nD τ sig (Elt F) Λ₀ .tc) PUnit :=
  cc10_kernel (grid10.coords t) (Memref.whole main_v59) (Memref.isWhole_whole _) (Memref.whole main_v60) (Memref.isWhole_whole _)
    (spec10_0.stage ((cfg10 a).slots t 0)) (hstage10_0 (((cfg10 a).slots t 0).cast nbuf10_0))
    (spec10_1.stage ((cfg10 a).slots t 1)) (hstage10_1 (((cfg10 a).slots t 1).cast nbuf10_1))
    (spec10_2.stage ((cfg10 a).slots t 2)) (hstage10_2 (((cfg10 a).slots t 2).cast nbuf10_2))

/-- The one grid coordinate of point `t` is `t`. -/
theorem coords_val (t : Fin grid10.N) : ((grid10.coords t) 0).val = t.val := by
  have hN : t.val < 25000 := lt_of_lt_of_eq t.isLt N_10
  show t.val / grid10.stride 0 % grid10.bound 0 = t.val
  rw [show grid10.stride 0 = 1 from by decide, show grid10.bound 0 = 25000 from rfl, Nat.div_one, Nat.mod_eq_of_lt hN]

/-- The branch is taken at the first point only. -/
theorem hcond (t : Fin grid10.N) : cond (grid10.coords t) ↔ t.val = 0 := by
  exact (Cert.FirstPoint.cond_iff ((grid10.coords t) 0).val ((grid10.coords t) 0).isLt).trans (by rw [coords_val])

/-! ## What the accumulator's buffer holds after each case -/

theorem coverFirst (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid10.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid10.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid10.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid10.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 10 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec10 w)
  after w t := match w with
    | ⟨0, _⟩ => iblk V hO c 0 t
    | ⟨1, _⟩ => iblk V hO c 1 t
    | ⟨2, _⟩ => accAt V hO c t.val t.isLt
  Φ _ := iprop(Pipeline.ΦA spec10 c ∗ Pipeline.prefHeld (Ix := Unit) (Name := ℕ) (U := UR sig nD τ) (Lvl := ℕ) pre10 c (fun _ => fullShare) (tbl V))
  q w := if w = 0 then fullShare.left else fullShare.right
  owed _ := 0

theorem A_eq (hO : Ok V) (c : Dev nD) (w : Fin (cfgM V hO).W) : (dat V hO c).A w = V c (Pipeline.arrRef spec10 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg10 (F := F)).Adm) (t : Fin (cfg10 a).N) (ht : t.val + 1 < (cfg10 a).N) : ((cfg10 a).win 2).flush t = false := by
  have hix : ∀ s : Fin (cfg10 a).N, ((cfg10 a).win 2).index s = ![0, 0] := fun _ => rfl
  unfold Pipeline.Window.flush
  rw [Bool.and_eq_false_iff]; right
  rw [Bool.or_eq_false_iff]
  refine ⟨decide_eq_false (by have : (cfg10 a).N = (cfg10 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg10 (adm V hO)).N := t.isLt
  rw [Dat.before_out_kept _ 2 rfl t h0 (flush_2 (adm V hO) _ (by show t.val - 1 + 1 < (cfg10 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v61 ((dat (Vin W) hO c).arrAt 2 (cfgM (Vin W) hO).N)

end Cert.Kernel.Call10

end
-- ==== Proof.WordCall10Body.lean ====
import proofs.«406163_j35201551958720_3_alg».proof.Proof.Gen.Kernel.Launch
import proofs.«406163_j35201551958720_3_alg».proof.Proof.Gen.Kernel.Skeleton
import proofs.«406163_j35201551958720_3_alg».proof.Proof.WordCall10Data
import Idealize.ShloMosaic.Lib.Pipeline.FrameBody
import Idealize.ShloMosaic.Lib.Ring
import Idealize.ShloMosaic.Lib.Tactic

set_option maxRecDepth 16384

noncomputable section

namespace Cert.Kernel.Call10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 10: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid10.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid10.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W10, bigSep_W10]
  exact sound_body V hO c t

end Cert.Kernel.Call10

end
-- ==== Proof.WordCall10Region.lean ====
import proofs.«406163_j35201551958720_3_alg».proof.Proof.Gen.Kernel.Launch
import proofs.«406163_j35201551958720_3_alg».proof.Proof.Gen.Kernel.Skeleton
import proofs.«406163_j35201551958720_3_alg».proof.Proof.WordCall10Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call10

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 10 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec10)) = {main_v0, main_v61} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec10 c V
      ∗ Pipeline.prefHeld pre10 c (fun _ => fullShare) (fun k => V (pre10.ref k)) ∗ Pipeline.unscopedRestP pre10 spec10 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀10.arr_unscoped c V
  have hrs := Pipeline.unscopedRest_split (Ix := Unit) (Name := ℕ) (U := UR sig nD τ) (Lvl := ℕ) (nD := nD) (τ := τ) (Val := Elt F)
    preFacts10 c V
  rw [hsp, show Pipeline.unscopedRest (cfgM (Vin W) hO).spec c V = Pipeline.unscopedRest (Ix := Unit) (Name := ℕ) (U := UR sig nD τ) (Lvl := ℕ) spec10 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec10 c V : sProp 𝕄)
      = iprop((((c : Thread nD τ).loc main_v0) ↦{fullShare} V main_v0) ∗ (((c : Thread nD τ).loc main_v61) ↦{fullShare} V main_v61)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v61) ↦{fullShare} Vin W c main_v61)) := by
  unfold Pipeline.Dat.arrays
  rw [bigSep_W10]
  have hs0 : ((cfgM (Vin W) hO).win (0 : Fin 3)).arr.view.set = Finset.univ := (arr_whole10 0).set_eq_univ
  have hs1 : ((cfgM (Vin W) hO).win (1 : Fin 3)).arr.view.set = Finset.univ := (arr_whole10 1).set_eq_univ
  have hs2 : ((cfgM (Vin W) hO).win (2 : Fin 3)).arr.view.set = Finset.univ := (arr_whole10 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v61 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v61) ↦{fullShare} Vin W c main_v61))
          ∗ Pipeline.prefHeld pre10 c (fun _ => fullShare) (tbl (Vin W)) ∗ Pipeline.unscopedRestP pre10 spec10 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre10.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre10 c (fun _ => fullShare) (tbl (Vin W))
          ∗ (dat (Vin W) hO c).owesAt () 0 ∗ (∃ r, prngReg c r) ∗ Pipeline.unscopedRestP pre10 spec10 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v61) ↦{fullShare} (dat (Vin W) hO c).arrAt 2 (cfgM (Vin W) hO).N)) := by
  unfold Pipeline.Dat.arrays
  rw [bigSep_W10]
  have hs0 : ((cfgM (Vin W) hO).win (0 : Fin 3)).arr.view.set = Finset.univ := (arr_whole10 0).set_eq_univ
  have hs1 : ((cfgM (Vin W) hO).win (1 : Fin 3)).arr.view.set = Finset.univ := (arr_whole10 1).set_eq_univ
  have hs2 : ((cfgM (Vin W) hO).win (2 : Fin 3)).arr.view.set = Finset.univ := (arr_whole10 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v61 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v61) ↦{fullShare} (dat (Vin W) hO c).arrAt 2 (cfgM (Vin W) hO).N))
          ∗ Pipeline.prefHeld pre10 c (fun _ => fullShare) (tbl (Vin W)) ∗ Pipeline.unscopedRestP pre10 spec10 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v61 = (dat (Vin W) hO c).arrAt 2 (cfgM (Vin W) hO).N := Function.update_self _ _ _
  have et : (fun k => Vin (Wout W hO) c (pre10.ref k)) = tbl (Vin W) := funext fun k => by
    refine (Function.update_of_ne ?_ _ _).trans (V_pre (Vin W) c k)
    intro e
    have := Proc.devRef_injective _ e
    revert k; decide
  have er : (Pipeline.unscopedRestP pre10 spec10 c (Vin (Wout W hO) c) : sProp 𝕄) = Pipeline.unscopedRestP pre10 spec10 c (Vin W c) := by
    unfold Pipeline.unscopedRestP
    refine bigSep_congr fun b hb => ?_
    have hb1 : b ∉ Finset.univ.image (Pipeline.arrRef spec10) := (Finset.mem_sdiff.mp (Finset.mem_sdiff.mp hb).1).2
    have hne : b ≠ main_v61 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre10 c (fun _ => fullShare) (tbl (Vin W)))
        ∗ Pipeline.unscopedRestP pre10 spec10 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre10 c (fun _ => fullShare) (tbl (Vin W)) ∗ Pipeline.scopedRest spec10 c) : sProp 𝕄)
      ⊢ (dat (Vin W) hO c).Φ 0 := by
  rw [show (dat (Vin W) hO c).Φ 0 = iprop(Pipeline.ΦA spec10 c ∗ Pipeline.prefHeld (Ix := Unit) (Name := ℕ) (U := UR sig nD τ) (Lvl := ℕ) pre10 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre10 c (fun _ => fullShare) (tbl (Vin W))) ∗ Pipeline.scopedRest spec10 c) : sProp 𝕄) := by
  rw [show (dat (Vin W) hO c).Φ (Fin.last _) = iprop(Pipeline.ΦA spec10 c ∗ Pipeline.prefHeld (Ix := Unit) (Name := ℕ) (U := UR sig nD τ) (Lvl := ℕ) pre10 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call10

end
-- ==== Proof.WordCall11Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 11: one pair per grid point, its distance added to a one-entry accumulator

The body's only branch tests whether the point is the first of the grid: there the accumulator is reset to zero
before the pair's distance is added; at every later point the distance is added to what the point before left. -/

/-- The branch condition, from the grid coordinate: the point is the first. -/
abbrev cond (i : grid11.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v64
abbrev htbA : tbA.IsWhole := Memref.isWhole_whole _
abbrev tbB : Memref sig .tc .smem S25000 .i32 := Memref.whole main_v65
abbrev htbB : tbB.IsWhole := Memref.isWhole_whole _

/-- The accumulator's staging buffer, through which its contents are stated. -/
abbrev VO : View sig .tc .vmem S1x1 .f32 := (Memref.whole cc11_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc11_kernel i tbA htbA tbB htbB arg3 harg3 arg4 harg4 arg5 harg5) K } := by
  refine ⟨?_, fun E K => ?run⟩
  case run =>
    simp only [cc11_kernel_eq_skeleton]; unfold cc11_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc11_kernel i tbA htbA tbB htbB arg3 harg3 arg4 harg4 arg5 harg5) K } := by
  refine ⟨?_, fun E K => ?run⟩
  case run =>
    simp only [cc11_kernel_eq_skeleton]; unfold cc11_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call11

end
-- ==== Proof.WordCall11Data.lean ====
import proofs.«406163_j35201551958720_3_alg».proof.Proof.Gen.Kernel.Launch
import proofs.«406163_j35201551958720_3_alg».proof.Proof.Gen.Kernel.Skeleton
import proofs.«406163_j35201551958720_3_alg».proof.Proof.WordCall11Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 11 over any entry contents: blocks, the running accumulator, the proof data, the body at a point -/

variable (V : (c : Dev nD) → (b : Ref sig .tc) → Buf (Elt F) ((c : Thread nD τ).loc b))

/-- The two index tables' contents when the region is entered (one device). -/
def tbl : pre11.Contents (Elt F) := fun j => V (0 : Dev nD) (pre11.ref j)
theorem V_pre (c : Dev nD) (j : Fin 2) : V c (pre11.ref j) = tbl V j := by
  obtain rfl : c = 0 := Subsingleton.elim _ _; rfl
/-- Every row the tables name lies inside the array of rows. -/
abbrev Ok : Prop := ok11 (F := F) (tbl V)
abbrev adm (hO : Ok V) : (pcfg11 (F := F)).Adm := ⟨tbl V, hO⟩
abbrev cfgM (hO : Ok V) : Pipeline.Cfg sig Λ₀ := cfg11 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec11 w))

/-- The staging memrefs the body is handed at point `t`. -/
abbrev ms0 (hO : Ok V) (t : Fin (cfgM V hO).N) : Memref sig .tc .vmem S1x1x256 .f32 := spec11_0.stage ((cfgM V hO).slots t 0)
abbrev hs0 (hO : Ok V) (t : Fin (cfgM V hO).N) : (ms0 V hO t).IsWhole := hstage11_0 (((cfgM V hO).slots t 0).cast nbuf11_0)
abbrev ms1 (hO : Ok V) (t : Fin (cfgM V hO).N) : Memref sig .tc .vmem S1x1x256 .f32 := spec11_1.stage ((cfgM V hO).slots t 1)
abbrev hs1 (hO : Ok V) (t : Fin (cfgM V hO).N) : (ms1 V hO t).IsWhole := hstage11_1 (((cfgM V hO).slots t 1).cast nbuf11_1)
abbrev ms2 (hO : Ok V) (t : Fin (cfgM V hO).N) : Memref sig .tc .vmem S1x1 .f32 := spec11_2.stage ((cfgM V hO).slots t 2)
abbrev hs2 (hO : Ok V) (t : Fin (cfgM V hO).N) : (ms2 V hO t).IsWhole := hstage11_2 (((cfgM V hO).slots t 2).cast nbuf11_2)

/-- The body as the pipeline calls it at point `t`. -/
abbrev bodyAt (a : (pcfg11 (F := F)).Adm) (t : Fin (cfg11 a).N) : Prog (TpuEff nD τ sig (Elt F) Λ₀ .tc) PUnit :=
  cc11_kernel (grid11.coords t) (Memref.whole main_v64) (Memref.isWhole_whole _) (Memref.whole main_v65) (Memref.isWhole_whole _)
    (spec11_0.stage ((cfg11 a).slots t 0)) (hstage11_0 (((cfg11 a).slots t 0).cast nbuf11_0))
    (spec11_1.stage ((cfg11 a).slots t 1)) (hstage11_1 (((cfg11 a).slots t 1).cast nbuf11_1))
    (spec11_2.stage ((cfg11 a).slots t 2)) (hstage11_2 (((cfg11 a).slots t 2).cast nbuf11_2))

/-- The one grid coordinate of point `t` is `t`. -/
theorem coords_val (t : Fin grid11.N) : ((grid11.coords t) 0).val = t.val := by
  have hN : t.val < 25000 := lt_of_lt_of_eq t.isLt N_11
  show t.val / grid11.stride 0 % grid11.bound 0 = t.val
  rw [show grid11.stride 0 = 1 from by decide, show grid11.bound 0 = 25000 from rfl, Nat.div_one, Nat.mod_eq_of_lt hN]

/-- The branch is taken at the first point only. -/
theorem hcond (t : Fin grid11.N) : cond (grid11.coords t) ↔ t.val = 0 := by
  exact (Cert.FirstPoint.cond_iff ((grid11.coords t) 0).val ((grid11.coords t) 0).isLt).trans (by rw [coords_val])

/-! ## What the accumulator's buffer holds after each case -/

theorem coverFirst (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid11.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid11.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid11.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid11.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 11 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec11 w)
  after w t := match w with
    | ⟨0, _⟩ => iblk V hO c 0 t
    | ⟨1, _⟩ => iblk V hO c 1 t
    | ⟨2, _⟩ => accAt V hO c t.val t.isLt
  Φ _ := iprop(Pipeline.ΦA spec11 c ∗ Pipeline.prefHeld (Ix := Unit) (Name := ℕ) (U := UR sig nD τ) (Lvl := ℕ) pre11 c (fun _ => fullShare) (tbl V))
  q w := if w = 0 then fullShare.left else fullShare.right
  owed _ := 0

theorem A_eq (hO : Ok V) (c : Dev nD) (w : Fin (cfgM V hO).W) : (dat V hO c).A w = V c (Pipeline.arrRef spec11 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg11 (F := F)).Adm) (t : Fin (cfg11 a).N) (ht : t.val + 1 < (cfg11 a).N) : ((cfg11 a).win 2).flush t = false := by
  have hix : ∀ s : Fin (cfg11 a).N, ((cfg11 a).win 2).index s = ![0, 0] := fun _ => rfl
  unfold Pipeline.Window.flush
  rw [Bool.and_eq_false_iff]; right
  rw [Bool.or_eq_false_iff]
  refine ⟨decide_eq_false (by have : (cfg11 a).N = (cfg11 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg11 (adm V hO)).N := t.isLt
  rw [Dat.before_out_kept _ 2 rfl t h0 (flush_2 (adm V hO) _ (by show t.val - 1 + 1 < (cfg11 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v66 ((dat (Vin W) hO c).arrAt 2 (cfgM (Vin W) hO).N)

end Cert.Kernel.Call11

end
-- ==== Proof.WordCall11Body.lean ====
import proofs.«406163_j35201551958720_3_alg».proof.Proof.Gen.Kernel.Launch
import proofs.«406163_j35201551958720_3_alg».proof.Proof.Gen.Kernel.Skeleton
import proofs.«406163_j35201551958720_3_alg».proof.Proof.WordCall11Data
import Idealize.ShloMosaic.Lib.Pipeline.FrameBody
import Idealize.ShloMosaic.Lib.Ring
import Idealize.ShloMosaic.Lib.Tactic

set_option maxRecDepth 16384

noncomputable section

namespace Cert.Kernel.Call11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 11: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid11.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid11.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W11, bigSep_W11]
  exact sound_body V hO c t

end Cert.Kernel.Call11

end
-- ==== Proof.WordCall11Region.lean ====
import proofs.«406163_j35201551958720_3_alg».proof.Proof.Gen.Kernel.Launch
import proofs.«406163_j35201551958720_3_alg».proof.Proof.Gen.Kernel.Skeleton
import proofs.«406163_j35201551958720_3_alg».proof.Proof.WordCall11Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call11

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 11 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec11)) = {main_v0, main_v66} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec11 c V
      ∗ Pipeline.prefHeld pre11 c (fun _ => fullShare) (fun k => V (pre11.ref k)) ∗ Pipeline.unscopedRestP pre11 spec11 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀11.arr_unscoped c V
  have hrs := Pipeline.unscopedRest_split (Ix := Unit) (Name := ℕ) (U := UR sig nD τ) (Lvl := ℕ) (nD := nD) (τ := τ) (Val := Elt F)
    preFacts11 c V
  rw [hsp, show Pipeline.unscopedRest (cfgM (Vin W) hO).spec c V = Pipeline.unscopedRest (Ix := Unit) (Name := ℕ) (U := UR sig nD τ) (Lvl := ℕ) spec11 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec11 c V : sProp 𝕄)
      = iprop((((c : Thread nD τ).loc main_v0) ↦{fullShare} V main_v0) ∗ (((c : Thread nD τ).loc main_v66) ↦{fullShare} V main_v66)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v66) ↦{fullShare} Vin W c main_v66)) := by
  unfold Pipeline.Dat.arrays
  rw [bigSep_W11]
  have hs0 : ((cfgM (Vin W) hO).win (0 : Fin 3)).arr.view.set = Finset.univ := (arr_whole11 0).set_eq_univ
  have hs1 : ((cfgM (Vin W) hO).win (1 : Fin 3)).arr.view.set = Finset.univ := (arr_whole11 1).set_eq_univ
  have hs2 : ((cfgM (Vin W) hO).win (2 : Fin 3)).arr.view.set = Finset.univ := (arr_whole11 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v66 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v66) ↦{fullShare} Vin W c main_v66))
          ∗ Pipeline.prefHeld pre11 c (fun _ => fullShare) (tbl (Vin W)) ∗ Pipeline.unscopedRestP pre11 spec11 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre11.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre11 c (fun _ => fullShare) (tbl (Vin W))
          ∗ (dat (Vin W) hO c).owesAt () 0 ∗ (∃ r, prngReg c r) ∗ Pipeline.unscopedRestP pre11 spec11 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v66) ↦{fullShare} (dat (Vin W) hO c).arrAt 2 (cfgM (Vin W) hO).N)) := by
  unfold Pipeline.Dat.arrays
  rw [bigSep_W11]
  have hs0 : ((cfgM (Vin W) hO).win (0 : Fin 3)).arr.view.set = Finset.univ := (arr_whole11 0).set_eq_univ
  have hs1 : ((cfgM (Vin W) hO).win (1 : Fin 3)).arr.view.set = Finset.univ := (arr_whole11 1).set_eq_univ
  have hs2 : ((cfgM (Vin W) hO).win (2 : Fin 3)).arr.view.set = Finset.univ := (arr_whole11 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v66 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v66) ↦{fullShare} (dat (Vin W) hO c).arrAt 2 (cfgM (Vin W) hO).N))
          ∗ Pipeline.prefHeld pre11 c (fun _ => fullShare) (tbl (Vin W)) ∗ Pipeline.unscopedRestP pre11 spec11 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v66 = (dat (Vin W) hO c).arrAt 2 (cfgM (Vin W) hO).N := Function.update_self _ _ _
  have et : (fun k => Vin (Wout W hO) c (pre11.ref k)) = tbl (Vin W) := funext fun k => by
    refine (Function.update_of_ne ?_ _ _).trans (V_pre (Vin W) c k)
    intro e
    have := Proc.devRef_injective _ e
    revert k; decide
  have er : (Pipeline.unscopedRestP pre11 spec11 c (Vin (Wout W hO) c) : sProp 𝕄) = Pipeline.unscopedRestP pre11 spec11 c (Vin W c) := by
    unfold Pipeline.unscopedRestP
    refine bigSep_congr fun b hb => ?_
    have hb1 : b ∉ Finset.univ.image (Pipeline.arrRef spec11) := (Finset.mem_sdiff.mp (Finset.mem_sdiff.mp hb).1).2
    have hne : b ≠ main_v66 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre11 c (fun _ => fullShare) (tbl (Vin W)))
        ∗ Pipeline.unscopedRestP pre11 spec11 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre11 c (fun _ => fullShare) (tbl (Vin W)) ∗ Pipeline.scopedRest spec11 c) : sProp 𝕄)
      ⊢ (dat (Vin W) hO c).Φ 0 := by
  rw [show (dat (Vin W) hO c).Φ 0 = iprop(Pipeline.ΦA spec11 c ∗ Pipeline.prefHeld (Ix := Unit) (Name := ℕ) (U := UR sig nD τ) (Lvl := ℕ) pre11 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre11 c (fun _ => fullShare) (tbl (Vin W))) ∗ Pipeline.scopedRest spec11 c) : sProp 𝕄) := by
  rw [show (dat (Vin W) hO c).Φ (Fin.last _) = iprop(Pipeline.ΦA spec11 c ∗ Pipeline.prefHeld (Ix := Unit) (Name := ℕ) (U := UR sig nD τ) (Lvl := ℕ) pre11 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call11

end
-- ==== Proof.WordCall12Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 12: one pair per grid point, its distance added to a one-entry accumulator

The body's only branch tests whether the point is the first of the grid: there the accumulator is reset to zero
before the pair's distance is added; at every later point the distance is added to what the point before left. -/

/-- The branch condition, from the grid coordinate: the point is the first. -/
abbrev cond (i : grid12.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v69
abbrev htbA : tbA.IsWhole := Memref.isWhole_whole _
abbrev tbB : Memref sig .tc .smem S25000 .i32 := Memref.whole main_v70
abbrev htbB : tbB.IsWhole := Memref.isWhole_whole _

/-- The accumulator's staging buffer, through which its contents are stated. -/
abbrev VO : View sig .tc .vmem S1x1 .f32 := (Memref.whole cc12_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc12_kernel i tbA htbA tbB htbB arg3 harg3 arg4 harg4 arg5 harg5) K } := by
  refine ⟨?_, fun E K => ?run⟩
  case run =>
    simp only [cc12_kernel_eq_skeleton]; unfold cc12_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc12_kernel i tbA htbA tbB htbB arg3 harg3 arg4 harg4 arg5 harg5) K } := by
  refine ⟨?_, fun E K => ?run⟩
  case run =>
    simp only [cc12_kernel_eq_skeleton]; unfold cc12_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call12

end
-- ==== Proof.WordCall12Data.lean ====
import proofs.«406163_j35201551958720_3_alg».proof.Proof.Gen.Kernel.Launch
import proofs.«406163_j35201551958720_3_alg».proof.Proof.Gen.Kernel.Skeleton
import proofs.«406163_j35201551958720_3_alg».proof.Proof.WordCall12Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 12 over any entry contents: blocks, the running accumulator, the proof data, the body at a point -/

variable (V : (c : Dev nD) → (b : Ref sig .tc) → Buf (Elt F) ((c : Thread nD τ).loc b))

/-- The two index tables' contents when the region is entered (one device). -/
def tbl : pre12.Contents (Elt F) := fun j => V (0 : Dev nD) (pre12.ref j)
theorem V_pre (c : Dev nD) (j : Fin 2) : V c (pre12.ref j) = tbl V j := by
  obtain rfl : c = 0 := Subsingleton.elim _ _; rfl
/-- Every row the tables name lies inside the array of rows. -/
abbrev Ok : Prop := ok12 (F := F) (tbl V)
abbrev adm (hO : Ok V) : (pcfg12 (F := F)).Adm := ⟨tbl V, hO⟩
abbrev cfgM (hO : Ok V) : Pipeline.Cfg sig Λ₀ := cfg12 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec12 w))

/-- The staging memrefs the body is handed at point `t`. -/
abbrev ms0 (hO : Ok V) (t : Fin (cfgM V hO).N) : Memref sig .tc .vmem S1x1x256 .f32 := spec12_0.stage ((cfgM V hO).slots t 0)
abbrev hs0 (hO : Ok V) (t : Fin (cfgM V hO).N) : (ms0 V hO t).IsWhole := hstage12_0 (((cfgM V hO).slots t 0).cast nbuf12_0)
abbrev ms1 (hO : Ok V) (t : Fin (cfgM V hO).N) : Memref sig .tc .vmem S1x1x256 .f32 := spec12_1.stage ((cfgM V hO).slots t 1)
abbrev hs1 (hO : Ok V) (t : Fin (cfgM V hO).N) : (ms1 V hO t).IsWhole := hstage12_1 (((cfgM V hO).slots t 1).cast nbuf12_1)
abbrev ms2 (hO : Ok V) (t : Fin (cfgM V hO).N) : Memref sig .tc .vmem S1x1 .f32 := spec12_2.stage ((cfgM V hO).slots t 2)
abbrev hs2 (hO : Ok V) (t : Fin (cfgM V hO).N) : (ms2 V hO t).IsWhole := hstage12_2 (((cfgM V hO).slots t 2).cast nbuf12_2)

/-- The body as the pipeline calls it at point `t`. -/
abbrev bodyAt (a : (pcfg12 (F := F)).Adm) (t : Fin (cfg12 a).N) : Prog (TpuEff nD τ sig (Elt F) Λ₀ .tc) PUnit :=
  cc12_kernel (grid12.coords t) (Memref.whole main_v69) (Memref.isWhole_whole _) (Memref.whole main_v70) (Memref.isWhole_whole _)
    (spec12_0.stage ((cfg12 a).slots t 0)) (hstage12_0 (((cfg12 a).slots t 0).cast nbuf12_0))
    (spec12_1.stage ((cfg12 a).slots t 1)) (hstage12_1 (((cfg12 a).slots t 1).cast nbuf12_1))
    (spec12_2.stage ((cfg12 a).slots t 2)) (hstage12_2 (((cfg12 a).slots t 2).cast nbuf12_2))

/-- The one grid coordinate of point `t` is `t`. -/
theorem coords_val (t : Fin grid12.N) : ((grid12.coords t) 0).val = t.val := by
  have hN : t.val < 25000 := lt_of_lt_of_eq t.isLt N_12
  show t.val / grid12.stride 0 % grid12.bound 0 = t.val
  rw [show grid12.stride 0 = 1 from by decide, show grid12.bound 0 = 25000 from rfl, Nat.div_one, Nat.mod_eq_of_lt hN]

/-- The branch is taken at the first point only. -/
theorem hcond (t : Fin grid12.N) : cond (grid12.coords t) ↔ t.val = 0 := by
  exact (Cert.FirstPoint.cond_iff ((grid12.coords t) 0).val ((grid12.coords t) 0).isLt).trans (by rw [coords_val])

/-! ## What the accumulator's buffer holds after each case -/

theorem coverFirst (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid12.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid12.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid12.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid12.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 12 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec12 w)
  after w t := match w with
    | ⟨0, _⟩ => iblk V hO c 0 t
    | ⟨1, _⟩ => iblk V hO c 1 t
    | ⟨2, _⟩ => accAt V hO c t.val t.isLt
  Φ _ := iprop(Pipeline.ΦA spec12 c ∗ Pipeline.prefHeld (Ix := Unit) (Name := ℕ) (U := UR sig nD τ) (Lvl := ℕ) pre12 c (fun _ => fullShare) (tbl V))
  q w := if w = 0 then fullShare.left else fullShare.right
  owed _ := 0

theorem A_eq (hO : Ok V) (c : Dev nD) (w : Fin (cfgM V hO).W) : (dat V hO c).A w = V c (Pipeline.arrRef spec12 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg12 (F := F)).Adm) (t : Fin (cfg12 a).N) (ht : t.val + 1 < (cfg12 a).N) : ((cfg12 a).win 2).flush t = false := by
  have hix : ∀ s : Fin (cfg12 a).N, ((cfg12 a).win 2).index s = ![0, 0] := fun _ => rfl
  unfold Pipeline.Window.flush
  rw [Bool.and_eq_false_iff]; right
  rw [Bool.or_eq_false_iff]
  refine ⟨decide_eq_false (by have : (cfg12 a).N = (cfg12 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg12 (adm V hO)).N := t.isLt
  rw [Dat.before_out_kept _ 2 rfl t h0 (flush_2 (adm V hO) _ (by show t.val - 1 + 1 < (cfg12 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v71 ((dat (Vin W) hO c).arrAt 2 (cfgM (Vin W) hO).N)

end Cert.Kernel.Call12

end
-- ==== Proof.WordCall12Body.lean ====
import proofs.«406163_j35201551958720_3_alg».proof.Proof.Gen.Kernel.Launch
import proofs.«406163_j35201551958720_3_alg».proof.Proof.Gen.Kernel.Skeleton
import proofs.«406163_j35201551958720_3_alg».proof.Proof.WordCall12Data
import Idealize.ShloMosaic.Lib.Pipeline.FrameBody
import Idealize.ShloMosaic.Lib.Ring
import Idealize.ShloMosaic.Lib.Tactic

set_option maxRecDepth 16384

noncomputable section

namespace Cert.Kernel.Call12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 12: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid12.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid12.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W12, bigSep_W12]
  exact sound_body V hO c t

end Cert.Kernel.Call12

end
-- ==== Proof.WordCall12Region.lean ====
import proofs.«406163_j35201551958720_3_alg».proof.Proof.Gen.Kernel.Launch
import proofs.«406163_j35201551958720_3_alg».proof.Proof.Gen.Kernel.Skeleton
import proofs.«406163_j35201551958720_3_alg».proof.Proof.WordCall12Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call12

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 12 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec12)) = {main_v0, main_v71} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec12 c V
      ∗ Pipeline.prefHeld pre12 c (fun _ => fullShare) (fun k => V (pre12.ref k)) ∗ Pipeline.unscopedRestP pre12 spec12 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀12.arr_unscoped c V
  have hrs := Pipeline.unscopedRest_split (Ix := Unit) (Name := ℕ) (U := UR sig nD τ) (Lvl := ℕ) (nD := nD) (τ := τ) (Val := Elt F)
    preFacts12 c V
  rw [hsp, show Pipeline.unscopedRest (cfgM (Vin W) hO).spec c V = Pipeline.unscopedRest (Ix := Unit) (Name := ℕ) (U := UR sig nD τ) (Lvl := ℕ) spec12 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec12 c V : sProp 𝕄)
      = iprop((((c : Thread nD τ).loc main_v0) ↦{fullShare} V main_v0) ∗ (((c : Thread nD τ).loc main_v71) ↦{fullShare} V main_v71)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v71) ↦{fullShare} Vin W c main_v71)) := by
  unfold Pipeline.Dat.arrays
  rw [bigSep_W12]
  have hs0 : ((cfgM (Vin W) hO).win (0 : Fin 3)).arr.view.set = Finset.univ := (arr_whole12 0).set_eq_univ
  have hs1 : ((cfgM (Vin W) hO).win (1 : Fin 3)).arr.view.set = Finset.univ := (arr_whole12 1).set_eq_univ
  have hs2 : ((cfgM (Vin W) hO).win (2 : Fin 3)).arr.view.set = Finset.univ := (arr_whole12 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v71 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v71) ↦{fullShare} Vin W c main_v71))
          ∗ Pipeline.prefHeld pre12 c (fun _ => fullShare) (tbl (Vin W)) ∗ Pipeline.unscopedRestP pre12 spec12 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre12.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre12 c (fun _ => fullShare) (tbl (Vin W))
          ∗ (dat (Vin W) hO c).owesAt () 0 ∗ (∃ r, prngReg c r) ∗ Pipeline.unscopedRestP pre12 spec12 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v71) ↦{fullShare} (dat (Vin W) hO c).arrAt 2 (cfgM (Vin W) hO).N)) := by
  unfold Pipeline.Dat.arrays
  rw [bigSep_W12]
  have hs0 : ((cfgM (Vin W) hO).win (0 : Fin 3)).arr.view.set = Finset.univ := (arr_whole12 0).set_eq_univ
  have hs1 : ((cfgM (Vin W) hO).win (1 : Fin 3)).arr.view.set = Finset.univ := (arr_whole12 1).set_eq_univ
  have hs2 : ((cfgM (Vin W) hO).win (2 : Fin 3)).arr.view.set = Finset.univ := (arr_whole12 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v71 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v71) ↦{fullShare} (dat (Vin W) hO c).arrAt 2 (cfgM (Vin W) hO).N))
          ∗ Pipeline.prefHeld pre12 c (fun _ => fullShare) (tbl (Vin W)) ∗ Pipeline.unscopedRestP pre12 spec12 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v71 = (dat (Vin W) hO c).arrAt 2 (cfgM (Vin W) hO).N := Function.update_self _ _ _
  have et : (fun k => Vin (Wout W hO) c (pre12.ref k)) = tbl (Vin W) := funext fun k => by
    refine (Function.update_of_ne ?_ _ _).trans (V_pre (Vin W) c k)
    intro e
    have := Proc.devRef_injective _ e
    revert k; decide
  have er : (Pipeline.unscopedRestP pre12 spec12 c (Vin (Wout W hO) c) : sProp 𝕄) = Pipeline.unscopedRestP pre12 spec12 c (Vin W c) := by
    unfold Pipeline.unscopedRestP
    refine bigSep_congr fun b hb => ?_
    have hb1 : b ∉ Finset.univ.image (Pipeline.arrRef spec12) := (Finset.mem_sdiff.mp (Finset.mem_sdiff.mp hb).1).2
    have hne : b ≠ main_v71 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre12 c (fun _ => fullShare) (tbl (Vin W)))
        ∗ Pipeline.unscopedRestP pre12 spec12 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre12 c (fun _ => fullShare) (tbl (Vin W)) ∗ Pipeline.scopedRest spec12 c) : sProp 𝕄)
      ⊢ (dat (Vin W) hO c).Φ 0 := by
  rw [show (dat (Vin W) hO c).Φ 0 = iprop(Pipeline.ΦA spec12 c ∗ Pipeline.prefHeld (Ix := Unit) (Name := ℕ) (U := UR sig nD τ) (Lvl := ℕ) pre12 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre12 c (fun _ => fullShare) (tbl (Vin W))) ∗ Pipeline.scopedRest spec12 c) : sProp 𝕄) := by
  rw [show (dat (Vin W) hO c).Φ (Fin.last _) = iprop(Pipeline.ΦA spec12 c ∗ Pipeline.prefHeld (Ix := Unit) (Name := ℕ) (U := UR sig nD τ) (Lvl := ℕ) pre12 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call12

end
-- ==== Proof.WordCall13Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 13: one pair per grid point, its distance added to a one-entry accumulator

The body's only branch tests whether the point is the first of the grid: there the accumulator is reset to zero
before the pair's distance is added; at every later point the distance is added to what the point before left. -/

/-- The branch condition, from the grid coordinate: the point is the first. -/
abbrev cond (i : grid13.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v74
abbrev htbA : tbA.IsWhole := Memref.isWhole_whole _
abbrev tbB : Memref sig .tc .smem S25000 .i32 := Memref.whole main_v75
abbrev htbB : tbB.IsWhole := Memref.isWhole_whole _

/-- The accumulator's staging buffer, through which its contents are stated. -/
abbrev VO : View sig .tc .vmem S1x1 .f32 := (Memref.whole cc13_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc13_kernel i tbA htbA tbB htbB arg3 harg3 arg4 harg4 arg5 harg5) K } := by
  refine ⟨?_, fun E K => ?run⟩
  case run =>
    simp only [cc13_kernel_eq_skeleton]; unfold cc13_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc13_kernel i tbA htbA tbB htbB arg3 harg3 arg4 harg4 arg5 harg5) K } := by
  refine ⟨?_, fun E K => ?run⟩
  case run =>
    simp only [cc13_kernel_eq_skeleton]; unfold cc13_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call13

end
-- ==== Proof.WordCall13Data.lean ====
import proofs.«406163_j35201551958720_3_alg».proof.Proof.Gen.Kernel.Launch
import proofs.«406163_j35201551958720_3_alg».proof.Proof.Gen.Kernel.Skeleton
import proofs.«406163_j35201551958720_3_alg».proof.Proof.WordCall13Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 13 over any entry contents: blocks, the running accumulator, the proof data, the body at a point -/

variable (V : (c : Dev nD) → (b : Ref sig .tc) → Buf (Elt F) ((c : Thread nD τ).loc b))

/-- The two index tables' contents when the region is entered (one device). -/
def tbl : pre13.Contents (Elt F) := fun j => V (0 : Dev nD) (pre13.ref j)
theorem V_pre (c : Dev nD) (j : Fin 2) : V c (pre13.ref j) = tbl V j := by
  obtain rfl : c = 0 := Subsingleton.elim _ _; rfl
/-- Every row the tables name lies inside the array of rows. -/
abbrev Ok : Prop := ok13 (F := F) (tbl V)
abbrev adm (hO : Ok V) : (pcfg13 (F := F)).Adm := ⟨tbl V, hO⟩
abbrev cfgM (hO : Ok V) : Pipeline.Cfg sig Λ₀ := cfg13 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec13 w))

/-- The staging memrefs the body is handed at point `t`. -/
abbrev ms0 (hO : Ok V) (t : Fin (cfgM V hO).N) : Memref sig .tc .vmem S1x1x256 .f32 := spec13_0.stage ((cfgM V hO).slots t 0)
abbrev hs0 (hO : Ok V) (t : Fin (cfgM V hO).N) : (ms0 V hO t).IsWhole := hstage13_0 (((cfgM V hO).slots t 0).cast nbuf13_0)
abbrev ms1 (hO : Ok V) (t : Fin (cfgM V hO).N) : Memref sig .tc .vmem S1x1x256 .f32 := spec13_1.stage ((cfgM V hO).slots t 1)
abbrev hs1 (hO : Ok V) (t : Fin (cfgM V hO).N) : (ms1 V hO t).IsWhole := hstage13_1 (((cfgM V hO).slots t 1).cast nbuf13_1)
abbrev ms2 (hO : Ok V) (t : Fin (cfgM V hO).N) : Memref sig .tc .vmem S1x1 .f32 := spec13_2.stage ((cfgM V hO).slots t 2)
abbrev hs2 (hO : Ok V) (t : Fin (cfgM V hO).N) : (ms2 V hO t).IsWhole := hstage13_2 (((cfgM V hO).slots t 2).cast nbuf13_2)

/-- The body as the pipeline calls it at point `t`. -/
abbrev bodyAt (a : (pcfg13 (F := F)).Adm) (t : Fin (cfg13 a).N) : Prog (TpuEff nD τ sig (Elt F) Λ₀ .tc) PUnit :=
  cc13_kernel (grid13.coords t) (Memref.whole main_v74) (Memref.isWhole_whole _) (Memref.whole main_v75) (Memref.isWhole_whole _)
    (spec13_0.stage ((cfg13 a).slots t 0)) (hstage13_0 (((cfg13 a).slots t 0).cast nbuf13_0))
    (spec13_1.stage ((cfg13 a).slots t 1)) (hstage13_1 (((cfg13 a).slots t 1).cast nbuf13_1))
    (spec13_2.stage ((cfg13 a).slots t 2)) (hstage13_2 (((cfg13 a).slots t 2).cast nbuf13_2))

/-- The one grid coordinate of point `t` is `t`. -/
theorem coords_val (t : Fin grid13.N) : ((grid13.coords t) 0).val = t.val := by
  have hN : t.val < 25000 := lt_of_lt_of_eq t.isLt N_13
  show t.val / grid13.stride 0 % grid13.bound 0 = t.val
  rw [show grid13.stride 0 = 1 from by decide, show grid13.bound 0 = 25000 from rfl, Nat.div_one, Nat.mod_eq_of_lt hN]

/-- The branch is taken at the first point only. -/
theorem hcond (t : Fin grid13.N) : cond (grid13.coords t) ↔ t.val = 0 := by
  exact (Cert.FirstPoint.cond_iff ((grid13.coords t) 0).val ((grid13.coords t) 0).isLt).trans (by rw [coords_val])

/-! ## What the accumulator's buffer holds after each case -/

theorem coverFirst (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid13.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid13.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid13.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid13.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 13 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec13 w)
  after w t := match w with
    | ⟨0, _⟩ => iblk V hO c 0 t
    | ⟨1, _⟩ => iblk V hO c 1 t
    | ⟨2, _⟩ => accAt V hO c t.val t.isLt
  Φ _ := iprop(Pipeline.ΦA spec13 c ∗ Pipeline.prefHeld (Ix := Unit) (Name := ℕ) (U := UR sig nD τ) (Lvl := ℕ) pre13 c (fun _ => fullShare) (tbl V))
  q w := if w = 0 then fullShare.left else fullShare.right
  owed _ := 0

theorem A_eq (hO : Ok V) (c : Dev nD) (w : Fin (cfgM V hO).W) : (dat V hO c).A w = V c (Pipeline.arrRef spec13 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg13 (F := F)).Adm) (t : Fin (cfg13 a).N) (ht : t.val + 1 < (cfg13 a).N) : ((cfg13 a).win 2).flush t = false := by
  have hix : ∀ s : Fin (cfg13 a).N, ((cfg13 a).win 2).index s = ![0, 0] := fun _ => rfl
  unfold Pipeline.Window.flush
  rw [Bool.and_eq_false_iff]; right
  rw [Bool.or_eq_false_iff]
  refine ⟨decide_eq_false (by have : (cfg13 a).N = (cfg13 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg13 (adm V hO)).N := t.isLt
  rw [Dat.before_out_kept _ 2 rfl t h0 (flush_2 (adm V hO) _ (by show t.val - 1 + 1 < (cfg13 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v76 ((dat (Vin W) hO c).arrAt 2 (cfgM (Vin W) hO).N)

end Cert.Kernel.Call13

end
-- ==== Proof.WordCall13Body.lean ====
import proofs.«406163_j35201551958720_3_alg».proof.Proof.Gen.Kernel.Launch
import proofs.«406163_j35201551958720_3_alg».proof.Proof.Gen.Kernel.Skeleton
import proofs.«406163_j35201551958720_3_alg».proof.Proof.WordCall13Data
import Idealize.ShloMosaic.Lib.Pipeline.FrameBody
import Idealize.ShloMosaic.Lib.Ring
import Idealize.ShloMosaic.Lib.Tactic

set_option maxRecDepth 16384

noncomputable section

namespace Cert.Kernel.Call13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 13: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid13.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid13.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W13, bigSep_W13]
  exact sound_body V hO c t

end Cert.Kernel.Call13

end
-- ==== Proof.WordCall13Region.lean ====
import proofs.«406163_j35201551958720_3_alg».proof.Proof.Gen.Kernel.Launch
import proofs.«406163_j35201551958720_3_alg».proof.Proof.Gen.Kernel.Skeleton
import proofs.«406163_j35201551958720_3_alg».proof.Proof.WordCall13Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call13

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 13 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec13)) = {main_v0, main_v76} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec13 c V
      ∗ Pipeline.prefHeld pre13 c (fun _ => fullShare) (fun k => V (pre13.ref k)) ∗ Pipeline.unscopedRestP pre13 spec13 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀13.arr_unscoped c V
  have hrs := Pipeline.unscopedRest_split (Ix := Unit) (Name := ℕ) (U := UR sig nD τ) (Lvl := ℕ) (nD := nD) (τ := τ) (Val := Elt F)
    preFacts13 c V
  rw [hsp, show Pipeline.unscopedRest (cfgM (Vin W) hO).spec c V = Pipeline.unscopedRest (Ix := Unit) (Name := ℕ) (U := UR sig nD τ) (Lvl := ℕ) spec13 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec13 c V : sProp 𝕄)
      = iprop((((c : Thread nD τ).loc main_v0) ↦{fullShare} V main_v0) ∗ (((c : Thread nD τ).loc main_v76) ↦{fullShare} V main_v76)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v76) ↦{fullShare} Vin W c main_v76)) := by
  unfold Pipeline.Dat.arrays
  rw [bigSep_W13]
  have hs0 : ((cfgM (Vin W) hO).win (0 : Fin 3)).arr.view.set = Finset.univ := (arr_whole13 0).set_eq_univ
  have hs1 : ((cfgM (Vin W) hO).win (1 : Fin 3)).arr.view.set = Finset.univ := (arr_whole13 1).set_eq_univ
  have hs2 : ((cfgM (Vin W) hO).win (2 : Fin 3)).arr.view.set = Finset.univ := (arr_whole13 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v76 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v76) ↦{fullShare} Vin W c main_v76))
          ∗ Pipeline.prefHeld pre13 c (fun _ => fullShare) (tbl (Vin W)) ∗ Pipeline.unscopedRestP pre13 spec13 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre13.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre13 c (fun _ => fullShare) (tbl (Vin W))
          ∗ (dat (Vin W) hO c).owesAt () 0 ∗ (∃ r, prngReg c r) ∗ Pipeline.unscopedRestP pre13 spec13 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v76) ↦{fullShare} (dat (Vin W) hO c).arrAt 2 (cfgM (Vin W) hO).N)) := by
  unfold Pipeline.Dat.arrays
  rw [bigSep_W13]
  have hs0 : ((cfgM (Vin W) hO).win (0 : Fin 3)).arr.view.set = Finset.univ := (arr_whole13 0).set_eq_univ
  have hs1 : ((cfgM (Vin W) hO).win (1 : Fin 3)).arr.view.set = Finset.univ := (arr_whole13 1).set_eq_univ
  have hs2 : ((cfgM (Vin W) hO).win (2 : Fin 3)).arr.view.set = Finset.univ := (arr_whole13 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v76 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v76) ↦{fullShare} (dat (Vin W) hO c).arrAt 2 (cfgM (Vin W) hO).N))
          ∗ Pipeline.prefHeld pre13 c (fun _ => fullShare) (tbl (Vin W)) ∗ Pipeline.unscopedRestP pre13 spec13 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v76 = (dat (Vin W) hO c).arrAt 2 (cfgM (Vin W) hO).N := Function.update_self _ _ _
  have et : (fun k => Vin (Wout W hO) c (pre13.ref k)) = tbl (Vin W) := funext fun k => by
    refine (Function.update_of_ne ?_ _ _).trans (V_pre (Vin W) c k)
    intro e
    have := Proc.devRef_injective _ e
    revert k; decide
  have er : (Pipeline.unscopedRestP pre13 spec13 c (Vin (Wout W hO) c) : sProp 𝕄) = Pipeline.unscopedRestP pre13 spec13 c (Vin W c) := by
    unfold Pipeline.unscopedRestP
    refine bigSep_congr fun b hb => ?_
    have hb1 : b ∉ Finset.univ.image (Pipeline.arrRef spec13) := (Finset.mem_sdiff.mp (Finset.mem_sdiff.mp hb).1).2
    have hne : b ≠ main_v76 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre13 c (fun _ => fullShare) (tbl (Vin W)))
        ∗ Pipeline.unscopedRestP pre13 spec13 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre13 c (fun _ => fullShare) (tbl (Vin W)) ∗ Pipeline.scopedRest spec13 c) : sProp 𝕄)
      ⊢ (dat (Vin W) hO c).Φ 0 := by
  rw [show (dat (Vin W) hO c).Φ 0 = iprop(Pipeline.ΦA spec13 c ∗ Pipeline.prefHeld (Ix := Unit) (Name := ℕ) (U := UR sig nD τ) (Lvl := ℕ) pre13 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre13 c (fun _ => fullShare) (tbl (Vin W))) ∗ Pipeline.scopedRest spec13 c) : sProp 𝕄) := by
  rw [show (dat (Vin W) hO c).Φ (Fin.last _) = iprop(Pipeline.ΦA spec13 c ∗ Pipeline.prefHeld (Ix := Unit) (Name := ℕ) (U := UR sig nD τ) (Lvl := ℕ) pre13 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call13

end
-- ==== Proof.WordCall14Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 14: one pair per grid point, its distance added to a one-entry accumulator

The body's only branch tests whether the point is the first of the grid: there the accumulator is reset to zero
before the pair's distance is added; at every later point the distance is added to what the point before left. -/

/-- The branch condition, from the grid coordinate: the point is the first. -/
abbrev cond (i : grid14.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v79
abbrev htbA : tbA.IsWhole := Memref.isWhole_whole _
abbrev tbB : Memref sig .tc .smem S25000 .i32 := Memref.whole main_v80
abbrev htbB : tbB.IsWhole := Memref.isWhole_whole _

/-- The accumulator's staging buffer, through which its contents are stated. -/
abbrev VO : View sig .tc .vmem S1x1 .f32 := (Memref.whole cc14_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc14_kernel i tbA htbA tbB htbB arg3 harg3 arg4 harg4 arg5 harg5) K } := by
  refine ⟨?_, fun E K => ?run⟩
  case run =>
    simp only [cc14_kernel_eq_skeleton]; unfold cc14_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc14_kernel i tbA htbA tbB htbB arg3 harg3 arg4 harg4 arg5 harg5) K } := by
  refine ⟨?_, fun E K => ?run⟩
  case run =>
    simp only [cc14_kernel_eq_skeleton]; unfold cc14_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call14

end
-- ==== Proof.WordCall14Data.lean ====
import proofs.«406163_j35201551958720_3_alg».proof.Proof.Gen.Kernel.Launch
import proofs.«406163_j35201551958720_3_alg».proof.Proof.Gen.Kernel.Skeleton
import proofs.«406163_j35201551958720_3_alg».proof.Proof.WordCall14Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 14 over any entry contents: blocks, the running accumulator, the proof data, the body at a point -/

variable (V : (c : Dev nD) → (b : Ref sig .tc) → Buf (Elt F) ((c : Thread nD τ).loc b))

/-- The two index tables' contents when the region is entered (one device). -/
def tbl : pre14.Contents (Elt F) := fun j => V (0 : Dev nD) (pre14.ref j)
theorem V_pre (c : Dev nD) (j : Fin 2) : V c (pre14.ref j) = tbl V j := by
  obtain rfl : c = 0 := Subsingleton.elim _ _; rfl
/-- Every row the tables name lies inside the array of rows. -/
abbrev Ok : Prop := ok14 (F := F) (tbl V)
abbrev adm (hO : Ok V) : (pcfg14 (F := F)).Adm := ⟨tbl V, hO⟩
abbrev cfgM (hO : Ok V) : Pipeline.Cfg sig Λ₀ := cfg14 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec14 w))

/-- The staging memrefs the body is handed at point `t`. -/
abbrev ms0 (hO : Ok V) (t : Fin (cfgM V hO).N) : Memref sig .tc .vmem S1x1x256 .f32 := spec14_0.stage ((cfgM V hO).slots t 0)
abbrev hs0 (hO : Ok V) (t : Fin (cfgM V hO).N) : (ms0 V hO t).IsWhole := hstage14_0 (((cfgM V hO).slots t 0).cast nbuf14_0)
abbrev ms1 (hO : Ok V) (t : Fin (cfgM V hO).N) : Memref sig .tc .vmem S1x1x256 .f32 := spec14_1.stage ((cfgM V hO).slots t 1)
abbrev hs1 (hO : Ok V) (t : Fin (cfgM V hO).N) : (ms1 V hO t).IsWhole := hstage14_1 (((cfgM V hO).slots t 1).cast nbuf14_1)
abbrev ms2 (hO : Ok V) (t : Fin (cfgM V hO).N) : Memref sig .tc .vmem S1x1 .f32 := spec14_2.stage ((cfgM V hO).slots t 2)
abbrev hs2 (hO : Ok V) (t : Fin (cfgM V hO).N) : (ms2 V hO t).IsWhole := hstage14_2 (((cfgM V hO).slots t 2).cast nbuf14_2)

/-- The body as the pipeline calls it at point `t`. -/
abbrev bodyAt (a : (pcfg14 (F := F)).Adm) (t : Fin (cfg14 a).N) : Prog (TpuEff nD τ sig (Elt F) Λ₀ .tc) PUnit :=
  cc14_kernel (grid14.coords t) (Memref.whole main_v79) (Memref.isWhole_whole _) (Memref.whole main_v80) (Memref.isWhole_whole _)
    (spec14_0.stage ((cfg14 a).slots t 0)) (hstage14_0 (((cfg14 a).slots t 0).cast nbuf14_0))
    (spec14_1.stage ((cfg14 a).slots t 1)) (hstage14_1 (((cfg14 a).slots t 1).cast nbuf14_1))
    (spec14_2.stage ((cfg14 a).slots t 2)) (hstage14_2 (((cfg14 a).slots t 2).cast nbuf14_2))

/-- The one grid coordinate of point `t` is `t`. -/
theorem coords_val (t : Fin grid14.N) : ((grid14.coords t) 0).val = t.val := by
  have hN : t.val < 25000 := lt_of_lt_of_eq t.isLt N_14
  show t.val / grid14.stride 0 % grid14.bound 0 = t.val
  rw [show grid14.stride 0 = 1 from by decide, show grid14.bound 0 = 25000 from rfl, Nat.div_one, Nat.mod_eq_of_lt hN]

/-- The branch is taken at the first point only. -/
theorem hcond (t : Fin grid14.N) : cond (grid14.coords t) ↔ t.val = 0 := by
  exact (Cert.FirstPoint.cond_iff ((grid14.coords t) 0).val ((grid14.coords t) 0).isLt).trans (by rw [coords_val])

/-! ## What the accumulator's buffer holds after each case -/

theorem coverFirst (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid14.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid14.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid14.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid14.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 14 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec14 w)
  after w t := match w with
    | ⟨0, _⟩ => iblk V hO c 0 t
    | ⟨1, _⟩ => iblk V hO c 1 t
    | ⟨2, _⟩ => accAt V hO c t.val t.isLt
  Φ _ := iprop(Pipeline.ΦA spec14 c ∗ Pipeline.prefHeld (Ix := Unit) (Name := ℕ) (U := UR sig nD τ) (Lvl := ℕ) pre14 c (fun _ => fullShare) (tbl V))
  q w := if w = 0 then fullShare.left else fullShare.right
  owed _ := 0

theorem A_eq (hO : Ok V) (c : Dev nD) (w : Fin (cfgM V hO).W) : (dat V hO c).A w = V c (Pipeline.arrRef spec14 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg14 (F := F)).Adm) (t : Fin (cfg14 a).N) (ht : t.val + 1 < (cfg14 a).N) : ((cfg14 a).win 2).flush t = false := by
  have hix : ∀ s : Fin (cfg14 a).N, ((cfg14 a).win 2).index s = ![0, 0] := fun _ => rfl
  unfold Pipeline.Window.flush
  rw [Bool.and_eq_false_iff]; right
  rw [Bool.or_eq_false_iff]
  refine ⟨decide_eq_false (by have : (cfg14 a).N = (cfg14 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg14 (adm V hO)).N := t.isLt
  rw [Dat.before_out_kept _ 2 rfl t h0 (flush_2 (adm V hO) _ (by show t.val - 1 + 1 < (cfg14 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v81 ((dat (Vin W) hO c).arrAt 2 (cfgM (Vin W) hO).N)

end Cert.Kernel.Call14

end
-- ==== Proof.WordCall14Body.lean ====
import proofs.«406163_j35201551958720_3_alg».proof.Proof.Gen.Kernel.Launch
import proofs.«406163_j35201551958720_3_alg».proof.Proof.Gen.Kernel.Skeleton
import proofs.«406163_j35201551958720_3_alg».proof.Proof.WordCall14Data
import Idealize.ShloMosaic.Lib.Pipeline.FrameBody
import Idealize.ShloMosaic.Lib.Ring
import Idealize.ShloMosaic.Lib.Tactic

set_option maxRecDepth 16384

noncomputable section

namespace Cert.Kernel.Call14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 14: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid14.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid14.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W14, bigSep_W14]
  exact sound_body V hO c t

end Cert.Kernel.Call14

end
-- ==== Proof.WordCall14Region.lean ====
import proofs.«406163_j35201551958720_3_alg».proof.Proof.Gen.Kernel.Launch
import proofs.«406163_j35201551958720_3_alg».proof.Proof.Gen.Kernel.Skeleton
import proofs.«406163_j35201551958720_3_alg».proof.Proof.WordCall14Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call14

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 14 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec14)) = {main_v0, main_v81} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec14 c V
      ∗ Pipeline.prefHeld pre14 c (fun _ => fullShare) (fun k => V (pre14.ref k)) ∗ Pipeline.unscopedRestP pre14 spec14 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀14.arr_unscoped c V
  have hrs := Pipeline.unscopedRest_split (Ix := Unit) (Name := ℕ) (U := UR sig nD τ) (Lvl := ℕ) (nD := nD) (τ := τ) (Val := Elt F)
    preFacts14 c V
  rw [hsp, show Pipeline.unscopedRest (cfgM (Vin W) hO).spec c V = Pipeline.unscopedRest (Ix := Unit) (Name := ℕ) (U := UR sig nD τ) (Lvl := ℕ) spec14 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec14 c V : sProp 𝕄)
      = iprop((((c : Thread nD τ).loc main_v0) ↦{fullShare} V main_v0) ∗ (((c : Thread nD τ).loc main_v81) ↦{fullShare} V main_v81)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v81) ↦{fullShare} Vin W c main_v81)) := by
  unfold Pipeline.Dat.arrays
  rw [bigSep_W14]
  have hs0 : ((cfgM (Vin W) hO).win (0 : Fin 3)).arr.view.set = Finset.univ := (arr_whole14 0).set_eq_univ
  have hs1 : ((cfgM (Vin W) hO).win (1 : Fin 3)).arr.view.set = Finset.univ := (arr_whole14 1).set_eq_univ
  have hs2 : ((cfgM (Vin W) hO).win (2 : Fin 3)).arr.view.set = Finset.univ := (arr_whole14 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v81 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v81) ↦{fullShare} Vin W c main_v81))
          ∗ Pipeline.prefHeld pre14 c (fun _ => fullShare) (tbl (Vin W)) ∗ Pipeline.unscopedRestP pre14 spec14 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre14.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre14 c (fun _ => fullShare) (tbl (Vin W))
          ∗ (dat (Vin W) hO c).owesAt () 0 ∗ (∃ r, prngReg c r) ∗ Pipeline.unscopedRestP pre14 spec14 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v81) ↦{fullShare} (dat (Vin W) hO c).arrAt 2 (cfgM (Vin W) hO).N)) := by
  unfold Pipeline.Dat.arrays
  rw [bigSep_W14]
  have hs0 : ((cfgM (Vin W) hO).win (0 : Fin 3)).arr.view.set = Finset.univ := (arr_whole14 0).set_eq_univ
  have hs1 : ((cfgM (Vin W) hO).win (1 : Fin 3)).arr.view.set = Finset.univ := (arr_whole14 1).set_eq_univ
  have hs2 : ((cfgM (Vin W) hO).win (2 : Fin 3)).arr.view.set = Finset.univ := (arr_whole14 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v81 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v81) ↦{fullShare} (dat (Vin W) hO c).arrAt 2 (cfgM (Vin W) hO).N))
          ∗ Pipeline.prefHeld pre14 c (fun _ => fullShare) (tbl (Vin W)) ∗ Pipeline.unscopedRestP pre14 spec14 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v81 = (dat (Vin W) hO c).arrAt 2 (cfgM (Vin W) hO).N := Function.update_self _ _ _
  have et : (fun k => Vin (Wout W hO) c (pre14.ref k)) = tbl (Vin W) := funext fun k => by
    refine (Function.update_of_ne ?_ _ _).trans (V_pre (Vin W) c k)
    intro e
    have := Proc.devRef_injective _ e
    revert k; decide
  have er : (Pipeline.unscopedRestP pre14 spec14 c (Vin (Wout W hO) c) : sProp 𝕄) = Pipeline.unscopedRestP pre14 spec14 c (Vin W c) := by
    unfold Pipeline.unscopedRestP
    refine bigSep_congr fun b hb => ?_
    have hb1 : b ∉ Finset.univ.image (Pipeline.arrRef spec14) := (Finset.mem_sdiff.mp (Finset.mem_sdiff.mp hb).1).2
    have hne : b ≠ main_v81 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre14 c (fun _ => fullShare) (tbl (Vin W)))
        ∗ Pipeline.unscopedRestP pre14 spec14 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre14 c (fun _ => fullShare) (tbl (Vin W)) ∗ Pipeline.scopedRest spec14 c) : sProp 𝕄)
      ⊢ (dat (Vin W) hO c).Φ 0 := by
  rw [show (dat (Vin W) hO c).Φ 0 = iprop(Pipeline.ΦA spec14 c ∗ Pipeline.prefHeld (Ix := Unit) (Name := ℕ) (U := UR sig nD τ) (Lvl := ℕ) pre14 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre14 c (fun _ => fullShare) (tbl (Vin W))) ∗ Pipeline.scopedRest spec14 c) : sProp 𝕄) := by
  rw [show (dat (Vin W) hO c).Φ (Fin.last _) = iprop(Pipeline.ΦA spec14 c ∗ Pipeline.prefHeld (Ix := Unit) (Name := ℕ) (U := UR sig nD τ) (Lvl := ℕ) pre14 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call14

end
-- ==== Proof.WordCall15Cases.lean ====
import proofs.«406163_j35201551958720_3_alg».proof.Proof.Gen.Kernel.Launch
import proofs.«406163_j35201551958720_3_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Call15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 15: one pair per grid point, its distance added to a one-entry accumulator

The body's only branch tests whether the point is the first of the grid: there the accumulator is reset to zero
before the pair's distance is added; at every later point the distance is added to what the point before left. -/

/-- The branch condition, from the grid coordinate: the point is the first. -/
abbrev cond (i : grid15.Coords) : Prop :=
  (Scalar.cmpi .ne (Scalar.extui (Scalar.cmpi .eq (BitVec.ofNat 32 (i 0).val) 0#32)) 0#32) = 1#1

/-- The two index tables as the body is handed them: whole buffers in scalar memory (the body never reads them). -/
abbrev tbA : Memref sig .tc .smem S25000 .i32 := Memref.whole main_v84
abbrev htbA : tbA.IsWhole := Memref.isWhole_whole _
abbrev tbB : Memref sig .tc .smem S25000 .i32 := Memref.whole main_v85
abbrev htbB : tbB.IsWhole := Memref.isWhole_whole _

/-- The accumulator's staging buffer, through which its contents are stated. -/
abbrev VO : View sig .tc .vmem S1x1 .f32 := (Memref.whole cc15_stg2_0 : Memref sig .tc .vmem S1x1 .f32).view

set_option maxHeartbeats 1000000 in
/-- THE FIRST POINT: on whole staging memrefs holding the two rows, the accumulator's at anything, the body runs to
    the end leaving the rows in place and the accumulator's buffer with the found pieces written. -/
noncomputable def runFirst (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i)
    (x0 x1 : Vec F S1x1x256 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d)
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc15_kernel i tbA htbA tbB htbB arg3 harg3 arg4 harg4 arg5 harg5) K } := by
  refine ⟨?_, fun E K => ?run⟩
  case run =>
    simp only [cc15_kernel_eq_skeleton]; unfold cc15_kernel_skel
    unfold owns
    iintro ⟨⟨%f0, %hf0, H0⟩, ⟨%f1, %hf1, H1⟩, ⟨%d2, %f2, -, H2⟩, Hk⟩
    obtain rfl := harg3.eq_unread hf0; obtain rfl := harg4.eq_unread hf1
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

set_option maxHeartbeats 1000000 in
/-- A LATER POINT: the same with the accumulator's buffer at its running contents `xo`. -/
noncomputable def runLater (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i)
    (x0 x1 : Vec F S1x1x256 .f32) (xo : Vec F S1x1 .f32) :
    { L : List (View.Piece (Elt F) S1x1 .f32) //
      ∀ (E : Set ℕ) (K : PUnit → sProp 𝕄),
        iprop(owns (c : Thread nD τ) arg3 fullShare x0 ∗ owns (c : Thread nD τ) arg4 fullShare x1 ∗ owns (c : Thread nD τ) arg5 fullShare xo
            ∗ (iprop(owns (c : Thread nD τ) arg3 fullShare x0 ∗ owns (c : Thread nD τ) arg4 fullShare x1
                ∗ (∃ f, arg5.view.loc (c : Thread nD τ) ↦[arg5.view.set]{fullShare} arg5.view.writes (Elt F) f L)) -∗ K ⟨⟩))
          ⊢ wp frame (wpE (defs₀ (F := F)) Variants.none c none) E (cc15_kernel i tbA htbA tbB htbB arg3 harg3 arg4 harg4 arg5 harg5) K } := by
  refine ⟨?_, fun E K => ?run⟩
  case run =>
    simp only [cc15_kernel_eq_skeleton]; unfold cc15_kernel_skel
    unfold owns
    iintro ⟨⟨%f0, %hf0, H0⟩, ⟨%f1, %hf1, H1⟩, ⟨%f2, %hf2, H2⟩, Hk⟩
    obtain rfl := harg3.eq_unread hf0; obtain rfl := harg4.eq_unread hf1; obtain rfl := harg5.eq_unread hf2
    sl_exec (disch := first | exact hc)
    sl_step
    iapply Hk
    isplitl [H0]
    · iexists _; isplitr; · ipureintro; exact harg3.read_unread _
      iexact H0
    isplitl [H1]
    · iexists _; isplitr; · ipureintro; exact harg4.read_unread _
      iexact H1
    iexists _; iexact H2

end Cert.Kernel.Call15

end
-- ==== Proof.WordCall15Data.lean ====
import proofs.«406163_j35201551958720_3_alg».proof.Proof.Gen.Kernel.Launch
import proofs.«406163_j35201551958720_3_alg».proof.Proof.Gen.Kernel.Skeleton
import proofs.«406163_j35201551958720_3_alg».proof.Proof.WordCall15Cases
import proofs.«406163_j35201551958720_3_alg».proof.Proof.FirstPoint
import Idealize.ShloMosaic.Lib.Pipeline.FrameBody
import Idealize.ShloMosaic.Lib.Ring
import Idealize.ShloMosaic.Lib.Tactic

set_option maxRecDepth 16384

noncomputable section

namespace Cert.Kernel.Call15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 15 over any entry contents: blocks, the running accumulator, the proof data, the body at a point -/

variable (V : (c : Dev nD) → (b : Ref sig .tc) → Buf (Elt F) ((c : Thread nD τ).loc b))

/-- The two index tables' contents when the region is entered (one device). -/
def tbl : pre15.Contents (Elt F) := fun j => V (0 : Dev nD) (pre15.ref j)
theorem V_pre (c : Dev nD) (j : Fin 2) : V c (pre15.ref j) = tbl V j := by
  obtain rfl : c = 0 := Subsingleton.elim _ _; rfl
/-- Every row the tables name lies inside the array of rows. -/
abbrev Ok : Prop := ok15 (F := F) (tbl V)
abbrev adm (hO : Ok V) : (pcfg15 (F := F)).Adm := ⟨tbl V, hO⟩
abbrev cfgM (hO : Ok V) : Pipeline.Cfg sig Λ₀ := cfg15 (adm V hO)

/-- Window `w`'s block at point `t`, read off its array as the region finds it: for the two row windows the row the
    tables name at `t`. -/
def iblk (hO : Ok V) (c : Dev nD) (w : Fin (cfgM V hO).W) (t : Fin (cfgM V hO).N) :
    (((cfgM V hO).win w).xblock ((cfgM V hO).grid.coords t)).Idx → Elt F ((cfgM V hO).win w).elt :=
  (((cfgM V hO).win w).blk t).view.read (Elt F) (V c (Pipeline.arrRef spec15 w))

/-- The staging memrefs the body is handed at point `t`. -/
abbrev ms0 (hO : Ok V) (t : Fin (cfgM V hO).N) : Memref sig .tc .vmem S1x1x256 .f32 := spec15_0.stage ((cfgM V hO).slots t 0)
abbrev hs0 (hO : Ok V) (t : Fin (cfgM V hO).N) : (ms0 V hO t).IsWhole := hstage15_0 (((cfgM V hO).slots t 0).cast nbuf15_0)
abbrev ms1 (hO : Ok V) (t : Fin (cfgM V hO).N) : Memref sig .tc .vmem S1x1x256 .f32 := spec15_1.stage ((cfgM V hO).slots t 1)
abbrev hs1 (hO : Ok V) (t : Fin (cfgM V hO).N) : (ms1 V hO t).IsWhole := hstage15_1 (((cfgM V hO).slots t 1).cast nbuf15_1)
abbrev ms2 (hO : Ok V) (t : Fin (cfgM V hO).N) : Memref sig .tc .vmem S1x1 .f32 := spec15_2.stage ((cfgM V hO).slots t 2)
abbrev hs2 (hO : Ok V) (t : Fin (cfgM V hO).N) : (ms2 V hO t).IsWhole := hstage15_2 (((cfgM V hO).slots t 2).cast nbuf15_2)

/-- The body as the pipeline calls it at point `t`. -/
abbrev bodyAt (a : (pcfg15 (F := F)).Adm) (t : Fin (cfg15 a).N) : Prog (TpuEff nD τ sig (Elt F) Λ₀ .tc) PUnit :=
  cc15_kernel (grid15.coords t) (Memref.whole main_v84) (Memref.isWhole_whole _) (Memref.whole main_v85) (Memref.isWhole_whole _)
    (spec15_0.stage ((cfg15 a).slots t 0)) (hstage15_0 (((cfg15 a).slots t 0).cast nbuf15_0))
    (spec15_1.stage ((cfg15 a).slots t 1)) (hstage15_1 (((cfg15 a).slots t 1).cast nbuf15_1))
    (spec15_2.stage ((cfg15 a).slots t 2)) (hstage15_2 (((cfg15 a).slots t 2).cast nbuf15_2))

/-- The one grid coordinate of point `t` is `t`. -/
theorem coords_val (t : Fin grid15.N) : ((grid15.coords t) 0).val = t.val := by
  have hN : t.val < 25000 := lt_of_lt_of_eq t.isLt N_15
  show t.val / grid15.stride 0 % grid15.bound 0 = t.val
  rw [show grid15.stride 0 = 1 from by decide, show grid15.bound 0 = 25000 from rfl, Nat.div_one, Nat.mod_eq_of_lt hN]

/-- The branch is taken at the first point only. -/
theorem hcond (t : Fin grid15.N) : cond (grid15.coords t) ↔ t.val = 0 := by
  exact (Cert.FirstPoint.cond_iff ((grid15.coords t) 0).val ((grid15.coords t) 0).isLt).trans (by rw [coords_val])

/-! ## What the accumulator's buffer holds after each case -/

theorem coverFirst (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) (y : S1x1.Idx) :
    ∃ pc ∈ (runFirst c i arg3 harg3 arg4 harg4 arg5 harg5 hc x0 x1).1, y ∈ pc.1.set :=
  View.cover_of_tiledL (runFirst c i arg3 harg3 arg4 harg4 arg5 harg5 hc x0 x1).1 S1x1.size (by sl_kernel_rfl) y

def outFirst (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) : Vec F S1x1 .f32 :=
  VO.read (Elt F) (VO.writes (Elt F) VO.junk (runFirst c i arg3 harg3 arg4 harg4 arg5 harg5 hc x0 x1).1)

theorem coverLater (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) (y : S1x1.Idx) :
    ∃ pc ∈ (runLater c i arg3 harg3 arg4 harg4 arg5 harg5 hc x0 x1 xo).1, y ∈ pc.1.set :=
  View.cover_of_tiledL (runLater c i arg3 harg3 arg4 harg4 arg5 harg5 hc x0 x1 xo).1 S1x1.size (by sl_kernel_rfl) y

def outLater (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) : Vec F S1x1 .f32 :=
  VO.read (Elt F) (VO.writes (Elt F) VO.junk (runLater c i arg3 harg3 arg4 harg4 arg5 harg5 hc x0 x1 xo).1)

/-- THE RUNNING TOTAL: what the accumulator's buffer holds after the body at point `n`. -/
def accAt (hO : Ok V) (c : Dev nD) : (n : ℕ) → n < (cfgM V hO).N → Vec F S1x1 .f32
  | 0, hn => outFirst c (grid15.coords ⟨0, hn⟩) (ms0 V hO ⟨0, hn⟩) (hs0 V hO ⟨0, hn⟩) (ms1 V hO ⟨0, hn⟩) (hs1 V hO ⟨0, hn⟩) (ms2 V hO ⟨0, hn⟩) (hs2 V hO ⟨0, hn⟩)
      ((hcond ⟨0, hn⟩).mpr rfl) (iblk V hO c 0 ⟨0, hn⟩) (iblk V hO c 1 ⟨0, hn⟩)
  | n + 1, hn => outLater c (grid15.coords ⟨n + 1, hn⟩) (ms0 V hO ⟨n + 1, hn⟩) (hs0 V hO ⟨n + 1, hn⟩) (ms1 V hO ⟨n + 1, hn⟩) (hs1 V hO ⟨n + 1, hn⟩) (ms2 V hO ⟨n + 1, hn⟩) (hs2 V hO ⟨n + 1, hn⟩)
      (fun h => Nat.succ_ne_zero n ((hcond ⟨n + 1, hn⟩).mp h)) (iblk V hO c 0 ⟨n + 1, hn⟩) (iblk V hO c 1 ⟨n + 1, hn⟩) (accAt hO c n (Nat.lt_of_succ_lt hn))

theorem accAt_first (hO : Ok V) (c : Dev nD) (t : Fin (cfgM V hO).N) (h0 : t.val = 0) :
    accAt V hO c t.val t.isLt = outFirst c (grid15.coords t) (ms0 V hO t) (hs0 V hO t) (ms1 V hO t) (hs1 V hO t) (ms2 V hO t) (hs2 V hO t)
      ((hcond t).mpr h0) (iblk V hO c 0 t) (iblk V hO c 1 t) := by
  obtain ⟨n, hn⟩ := t
  cases n with
  | zero => rfl
  | succ n => exact absurd h0 (Nat.succ_ne_zero n)

theorem accAt_later (hO : Ok V) (c : Dev nD) (t : Fin (cfgM V hO).N) (h0 : ¬t.val = 0) :
    accAt V hO c t.val t.isLt = outLater c (grid15.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)) := by
  obtain ⟨n, hn⟩ := t
  cases n with
  | zero => exact absurd rfl h0
  | succ n => rfl

/-! ## The proof data -/

/-- The proof data of call 15 on core `c`: the arrays as the region finds them; after the body each row window's buffer
    at its row and the accumulator's at the running total; the invariant the scoped rest, the generator register and
    the two tables whole; the array of rows read through two windows, each at one half of it; nothing owed. -/
def dat (hO : Ok V) (c : Dev nD) : Dat τ (Elt F) Unit ℕ (UR sig nD τ) ℕ (cfgM V hO) c where
  A w := V c (Pipeline.arrRef spec15 w)
  after w t := match w with
    | ⟨0, _⟩ => iblk V hO c 0 t
    | ⟨1, _⟩ => iblk V hO c 1 t
    | ⟨2, _⟩ => accAt V hO c t.val t.isLt
  Φ _ := iprop(Pipeline.ΦA spec15 c ∗ Pipeline.prefHeld (Ix := Unit) (Name := ℕ) (U := UR sig nD τ) (Lvl := ℕ) pre15 c (fun _ => fullShare) (tbl V))
  q w := if w = 0 then fullShare.left else fullShare.right
  owed _ := 0

theorem A_eq (hO : Ok V) (c : Dev nD) (w : Fin (cfgM V hO).W) : (dat V hO c).A w = V c (Pipeline.arrRef spec15 w) := by
  dsimp only [dat]
theorem after_0 (hO : Ok V) (c : Dev nD) (t : Fin (cfgM V hO).N) : (dat V hO c).after 0 t = iblk V hO c 0 t := by dsimp only [dat]; try rfl
theorem after_1 (hO : Ok V) (c : Dev nD) (t : Fin (cfgM V hO).N) : (dat V hO c).after 1 t = iblk V hO c 1 t := by dsimp only [dat]; try rfl
theorem after_2 (hO : Ok V) (c : Dev nD) (t : Fin (cfgM V hO).N) : (dat V hO c).after 2 t = accAt V hO c t.val t.isLt := by dsimp only [dat]; try rfl

/-- Each row window's current staging buffer holds its row at every point, fetched there or not. -/
theorem before_0 (hO : Ok V) (c : Dev nD) (t : Fin (cfgM V hO).N) (d) : (dat V hO c).before 0 t d = iblk V hO c 0 t :=
  ((dat V hO c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (hO : Ok V) (c : Dev nD) (t : Fin (cfgM V hO).N) (d) : (dat V hO c).before 1 t d = iblk V hO c 1 t :=
  ((dat V hO c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)

/-- The accumulator's window is written back at the last point only: its block index never moves. -/
theorem flush_2 (a : (pcfg15 (F := F)).Adm) (t : Fin (cfg15 a).N) (ht : t.val + 1 < (cfg15 a).N) : ((cfg15 a).win 2).flush t = false := by
  have hix : ∀ s : Fin (cfg15 a).N, ((cfg15 a).win 2).index s = ![0, 0] := fun _ => rfl
  unfold Pipeline.Window.flush
  rw [Bool.and_eq_false_iff]; right
  rw [Bool.or_eq_false_iff]
  refine ⟨decide_eq_false (by have : (cfg15 a).N = (cfg15 a).grid.N := rfl; omega), decide_eq_false ?_⟩
  rintro ⟨h, hne⟩
  exact hne (by rw [hix, hix])

/-- At a later point the accumulator's staging buffer holds what the body left at the point before. -/
theorem before_2_later (hO : Ok V) (c : Dev nD) (t : Fin (cfgM V hO).N) (h0 : ¬t.val = 0) (d) :
    (dat V hO c).before 2 t d = accAt V hO c (t.val - 1) (Nat.lt_of_le_of_lt (Nat.sub_le _ _) t.isLt) := by
  have h1 : t.val < (cfg15 (adm V hO)).N := t.isLt
  rw [Dat.before_out_kept _ 2 rfl t h0 (flush_2 (adm V hO) _ (by show t.val - 1 + 1 < (cfg15 (adm V hO)).N; omega)) (fun _ => rfl) (fun _ _ => rfl)]
  exact after_2 V hO c _

/-! ## The region's entry and exit contents -/

/-- Entry contents `W` of the core's unscoped buffers, read at the TensorCore's references. -/
abbrev Vin (W : Dev nD → Valuation τ sig (Elt F)) (c : Dev nD) (b : Ref sig .tc) : Buf (Elt F) ((c : Thread nD τ).loc b) := W c b

/-- The exit contents: the result array at what the write-backs leave, every other buffer as entered. -/
def Wout (W : Dev nD → Valuation τ sig (Elt F)) (hO : Ok (Vin W)) (c : Dev nD) : Valuation τ sig (Elt F) :=
  Function.update (W c) main_v86 ((dat (Vin W) hO c).arrAt 2 (cfgM (Vin W) hO).N)

end Cert.Kernel.Call15

end
-- ==== Proof.WordCall15Body.lean ====
import proofs.«406163_j35201551958720_3_alg».proof.Proof.Gen.Kernel.Launch
import proofs.«406163_j35201551958720_3_alg».proof.Proof.Gen.Kernel.Skeleton
import proofs.«406163_j35201551958720_3_alg».proof.Proof.WordCall15Data
import Idealize.ShloMosaic.Lib.Pipeline.FrameBody
import Idealize.ShloMosaic.Lib.Ring
import Idealize.ShloMosaic.Lib.Tactic

set_option maxRecDepth 16384

noncomputable section

namespace Cert.Kernel.Call15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 15: the body at a generic point -/

variable (V : (c : Dev nD) → (b : Ref sig .tc) → Buf (Elt F) ((c : Thread nD τ).loc b))

/-- What the body is called with at point `t`, -/
def bodyPre (hO : Ok V) (c : Dev nD) (t : Fin (cfgM V hO).N) : sProp 𝕄 :=
  iprop((dat V hO c).Φ t.castSucc ∗ (dat V hO c).owesAt () t.castSucc
    ∗ (∃ d, owns (c : Thread nD τ) (ms0 V hO t) fullShare ((dat V hO c).before 0 t d))
    ∗ (∃ d, owns (c : Thread nD τ) (ms1 V hO t) fullShare ((dat V hO c).before 1 t d))
    ∗ (∃ d, owns (c : Thread nD τ) (ms2 V hO t) fullShare ((dat V hO c).before 2 t d)))

/-- and what it returns. -/
def bodyPost (hO : Ok V) (c : Dev nD) (t : Fin (cfgM V hO).N) : sProp 𝕄 :=
  iprop((dat V hO c).Φ t.succ ∗ (dat V hO c).owesAt () t.succ
    ∗ owns (c : Thread nD τ) (ms0 V hO t) fullShare ((dat V hO c).after 0 t)
    ∗ owns (c : Thread nD τ) (ms1 V hO t) fullShare ((dat V hO c).after 1 t)
    ∗ owns (c : Thread nD τ) (ms2 V hO t) fullShare ((dat V hO c).after 2 t))

set_option maxHeartbeats 800000 in
/-- The body at any point: the row windows' memrefs hold their rows; at the first point the accumulator's buffer holds
    anything and is reset, at a later point it holds the running total of the point before; the invariant passes
    through unread; the core owes nothing throughout. -/
theorem sound_body (hO : Ok V) (c : Dev nD) (t : Fin (cfgM V hO).N) :
    bodyPre V hO c t ⊢ wp frame (wpE (defs₀ (F := F)) Variants.none c none) Set.univ (bodyAt (adm V hO) t) (fun _ => bodyPost V hO c t) := by
  unfold bodyPre bodyPost bodyAt
  simp only [before_0, before_1]
  rw [show (dat V hO c).Φ t.succ = (dat V hO c).Φ t.castSucc from rfl,
    show (dat V hO c).owesAt () t.succ = (dat V hO c).owesAt () t.castSucc from rfl,
    after_0, after_1, after_2]
  by_cases h0 : t.val = 0
  · rw [accAt_first V hO c t h0]
    unfold outFirst
    iintro ⟨HΦ, Ho, ⟨%d0, H0⟩, ⟨%d1, H1⟩, ⟨%d2, H2⟩⟩
    iapply ((runFirst c (grid15.coords t) _ _ _ _ _ _ ((hcond t).mpr h0) (iblk V hO c 0 t) (iblk V hO c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverFirst c _ _ _ _ _ _ _ _ _ _)
  · rw [accAt_later V hO c t h0]
    simp only [before_2_later V hO c t h0]
    unfold outLater
    iintro ⟨HΦ, Ho, ⟨%d0, H0⟩, ⟨%d1, H1⟩, ⟨%d2, H2⟩⟩
    iapply ((runLater c (grid15.coords t) _ _ _ _ _ _ (fun h => h0 ((hcond t).mp h)) (iblk V hO c 0 t) (iblk V hO c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (coverLater c _ _ _ _ _ _ _ _ _ _ _)

/-- The library's body obligation, at every point. -/
theorem body_obligation (hO : Ok V) (c : Dev nD) : BodyObligation (dat (F := F) V hO c) (defs₀ (F := F)) Variants.none () Set.univ := fun t => by
  rw [bigSep_W15, bigSep_W15]
  exact sound_body V hO c t

end Cert.Kernel.Call15

end
-- ==== Proof.WordCall15Region.lean ====
import proofs.«406163_j35201551958720_3_alg».proof.Proof.Gen.Kernel.Launch
import proofs.«406163_j35201551958720_3_alg».proof.Proof.Gen.Kernel.Skeleton
import proofs.«406163_j35201551958720_3_alg».proof.Proof.WordCall15Body
import Idealize.ShloMosaic.Lib.Pipeline.RegionsLoop
import Idealize.ShloMosaic.Lib.Pipeline.FrameSuffix
import Idealize.ShloMosaic.Lib.Pipeline.FrameBody
import Idealize.ShloMosaic.Lib.Ring
import Idealize.ShloMosaic.Lib.Tactic

set_option maxRecDepth 16384

noncomputable section

namespace Cert.Kernel.Call15

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Call 15 as a region of the program: what it takes from the core's unscoped buffers and what it gives back

The array of rows is read through two windows, so each holds one half of it; the two index tables go into the
region's invariant whole and come back whole; the one-entry result array comes back at the last running total. -/

variable (W : Dev nD → Valuation τ sig (Elt F))

/-- What rides beside the buffers: the generator register at some state, and the core owing nothing. -/
abbrev Rst (c : Dev nD) : sProp 𝕄 := iprop((∃ r, prngReg c r) ∗ ∃ Wt, owes (c : Thread nD τ) (0 : CellTallies nD τ sig Unit) Wt)

theorem arrs_image : Finset.univ.image (Pipeline.arrRef (spec15)) = {main_v0, main_v86} := by decide

/-- A core's unscoped buffers at any contents: the two arrays behind the windows, the two tables, the rest. -/
theorem bufs_split (hO : Ok (Vin W)) (c : Dev nD) (V : (b : Ref sig .tc) → Buf (Elt F) ((c : Thread nD τ).loc b)) :
    (unscopedBufs c V : sProp 𝕄) = iprop(Pipeline.arrBufs spec15 c V
      ∗ Pipeline.prefHeld pre15 c (fun _ => fullShare) (fun k => V (pre15.ref k)) ∗ Pipeline.unscopedRestP pre15 spec15 c V) := by
  have hsp := Pipeline.unscopedBufs_split₀ (Ix := Unit) (Name := ℕ) (U := UR sig nD τ) (Lvl := ℕ) (nD := nD) (τ := τ) (Val := Elt F)
    (fun _ : Fin 1 => cfgM (Vin W) hO) 0 winFacts₀15.arr_unscoped c V
  have hrs := Pipeline.unscopedRest_split (Ix := Unit) (Name := ℕ) (U := UR sig nD τ) (Lvl := ℕ) (nD := nD) (τ := τ) (Val := Elt F)
    preFacts15 c V
  rw [hsp, show Pipeline.unscopedRest (cfgM (Vin W) hO).spec c V = Pipeline.unscopedRest (Ix := Unit) (Name := ℕ) (U := UR sig nD τ) (Lvl := ℕ) spec15 c V from rfl, hrs]

/-- The buffers behind the windows' arrays: the array of rows and the one-entry result. -/
theorem arrBufs_eq (c : Dev nD) (V : (b : Ref sig .tc) → Buf (Elt F) ((c : Thread nD τ).loc b)) :
    (Pipeline.arrBufs spec15 c V : sProp 𝕄)
      = iprop((((c : Thread nD τ).loc main_v0) ↦{fullShare} V main_v0) ∗ (((c : Thread nD τ).loc main_v86) ↦{fullShare} V main_v86)) := by
  unfold Pipeline.arrBufs
  rw [arrs_image, bigSep_insert (by decide), bigSep_singleton]
  rfl

/-- The windows' arrays at entry: the array of rows one half per row window, the result array whole. -/
theorem arrays_entry (hO : Ok (Vin W)) (c : Dev nD) :
    ((dat (Vin W) hO c).arrays fun x => (dat (Vin W) hO c).arrAt x 0)
      = iprop((((c : Thread nD τ).loc main_v0) ↦{fullShare.left} Vin W c main_v0) ∗ (((c : Thread nD τ).loc main_v0) ↦{fullShare.right} Vin W c main_v0)
          ∗ (((c : Thread nD τ).loc main_v86) ↦{fullShare} Vin W c main_v86)) := by
  unfold Pipeline.Dat.arrays
  rw [bigSep_W15]
  have hs0 : ((cfgM (Vin W) hO).win (0 : Fin 3)).arr.view.set = Finset.univ := (arr_whole15 0).set_eq_univ
  have hs1 : ((cfgM (Vin W) hO).win (1 : Fin 3)).arr.view.set = Finset.univ := (arr_whole15 1).set_eq_univ
  have hs2 : ((cfgM (Vin W) hO).win (2 : Fin 3)).arr.view.set = Finset.univ := (arr_whole15 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) 0 = Vin W c main_v0 := ((dat (Vin W) hO c).arrAt_in 0 rfl 0).trans (A_eq (Vin W) hO c 0)
  have ha1 : (dat (Vin W) hO c).arrAt (1 : Fin 3) 0 = Vin W c main_v0 := ((dat (Vin W) hO c).arrAt_in 1 rfl 0).trans (A_eq (Vin W) hO c 1)
  have ha2 : (dat (Vin W) hO c).arrAt (2 : Fin 3) 0 = Vin W c main_v86 := (A_eq (Vin W) hO c 2)
  simp only [hs0, hs1, hs2, hq0, hq1, hq2, ha0, ha1, ha2]

/-- The core's unscoped buffers at the entry contents, sorted. -/
theorem held_entry (hO : Ok (Vin W)) (c : Dev nD) :
    (StableHlo.held (c : Thread nD τ) (Pipeline.ucRefs τ sig) (W c) : sProp 𝕄)
      = iprop(((((c : Thread nD τ).loc main_v0) ↦{fullShare} Vin W c main_v0) ∗ (((c : Thread nD τ).loc main_v86) ↦{fullShare} Vin W c main_v86))
          ∗ Pipeline.prefHeld pre15 c (fun _ => fullShare) (tbl (Vin W)) ∗ Pipeline.unscopedRestP pre15 spec15 c (Vin W c)) := by
  have hub : (unscopedBufs c (Vin W c) : sProp 𝕄) = StableHlo.held (c : Thread nD τ) (Pipeline.ucRefs τ sig) (W c) :=
    Pipeline.unscopedBufs_held (Ix := Unit) (Name := ℕ) (U := UR sig nD τ) (Lvl := ℕ) c (W c)
  have h2 := bufs_split W hO c (Vin W c)
  rw [arrBufs_eq, show (fun k => Vin W c (pre15.ref k)) = tbl (Vin W) from funext fun k => V_pre (Vin W) c k] at h2
  exact hub.symm.trans h2

/-- ENTRY. -/
theorem entry (hO : Ok (Vin W)) (c : Dev nD) :
    (iprop(StableHlo.held (c : Thread nD τ) (Pipeline.ucRefs τ sig) (W c) ∗ Rst c) : sProp 𝕄)
      ⊢ |={Set.univ}=> iprop((dat (Vin W) hO c).arrays ((dat (Vin W) hO c).arrAt · 0)
          ∗ Pipeline.prefHeld pre15 c (fun _ => fullShare) (tbl (Vin W))
          ∗ (dat (Vin W) hO c).owesAt () 0 ∗ (∃ r, prngReg c r) ∗ Pipeline.unscopedRestP pre15 spec15 c (Vin W c)) := by
  rw [held_entry W hO c, arrays_entry W hO c]
  iintro ⟨⟨⟨H0, H7⟩, Ht, Hrest⟩, ⟨Hp, HO⟩⟩
  imodintro
  ihave Hs := (pointsTo_share (PosShare.mem_left_op_right fullShare)).1 $$ H0
  icases Hs with ⟨Hl, Hr⟩
  isplitl [Hl Hr H7]
  · isplitl [Hl]; · iexact Hl
    isplitl [Hr]; · iexact Hr
    iexact H7
  isplitl [Ht]; · iexact Ht
  isplitl [HO]
  · unfold Pipeline.Dat.owesAt Pipeline.owesWithin
    icases HO with ⟨%Wt, HO⟩; iexists Wt; isplitr; · ipureintro; exact fun _ _ => Or.inl trivial
    iexact HO
  isplitl [Hp]; · iexact Hp
  iexact Hrest

/-- The windows' arrays at exit: the array of rows as entered, the result array at what the write-backs leave. -/
theorem arrays_exit (hO : Ok (Vin W)) (c : Dev nD) :
    ((dat (Vin W) hO c).arrays fun x => (dat (Vin W) hO c).arrAt x (cfgM (Vin W) hO).N)
      = iprop((((c : Thread nD τ).loc main_v0) ↦{fullShare.left} Vin W c main_v0) ∗ (((c : Thread nD τ).loc main_v0) ↦{fullShare.right} Vin W c main_v0)
          ∗ (((c : Thread nD τ).loc main_v86) ↦{fullShare} (dat (Vin W) hO c).arrAt 2 (cfgM (Vin W) hO).N)) := by
  unfold Pipeline.Dat.arrays
  rw [bigSep_W15]
  have hs0 : ((cfgM (Vin W) hO).win (0 : Fin 3)).arr.view.set = Finset.univ := (arr_whole15 0).set_eq_univ
  have hs1 : ((cfgM (Vin W) hO).win (1 : Fin 3)).arr.view.set = Finset.univ := (arr_whole15 1).set_eq_univ
  have hs2 : ((cfgM (Vin W) hO).win (2 : Fin 3)).arr.view.set = Finset.univ := (arr_whole15 2).set_eq_univ
  have hq0 : (dat (Vin W) hO c).share (0 : Fin 3) = fullShare.left := rfl
  have hq1 : (dat (Vin W) hO c).share (1 : Fin 3) = fullShare.right := rfl
  have hq2 : (dat (Vin W) hO c).share (2 : Fin 3) = fullShare := rfl
  have ha0 : (dat (Vin W) hO c).arrAt (0 : Fin 3) (cfgM (Vin W) hO).N = Vin W c main_v0 := ((dat (Vin W) hO c).arrAt_in 0 rfl _).trans (A_eq (Vin W) hO c 0)
  have ha1 : (dat (Vin W) hO c).arrAt (1 : Fin 3) (cfgM (Vin W) hO).N = Vin W c main_v0 := ((dat (Vin W) hO c).arrAt_in 1 rfl _).trans (A_eq (Vin W) hO c 1)
  simp only [hs0, hs1, hs2, hq0, hq1, hq2, ha0, ha1]

theorem v0_ne_v7 : (Proc.devRef .tc main_v0 : DevRef τ sig) ≠ Proc.devRef .tc main_v86 := by decide

/-- The core's unscoped buffers at the exit contents, sorted. -/
theorem held_exit (hO : Ok (Vin W)) (c : Dev nD) :
    (StableHlo.held (c : Thread nD τ) (Pipeline.ucRefs τ sig) (Wout W hO c) : sProp 𝕄)
      = iprop(((((c : Thread nD τ).loc main_v0) ↦{fullShare} Vin W c main_v0)
            ∗ (((c : Thread nD τ).loc main_v86) ↦{fullShare} (dat (Vin W) hO c).arrAt 2 (cfgM (Vin W) hO).N))
          ∗ Pipeline.prefHeld pre15 c (fun _ => fullShare) (tbl (Vin W)) ∗ Pipeline.unscopedRestP pre15 spec15 c (Vin W c)) := by
  have hub : (unscopedBufs c (Vin (Wout W hO) c) : sProp 𝕄) = StableHlo.held (c : Thread nD τ) (Pipeline.ucRefs τ sig) (Wout W hO c) :=
    Pipeline.unscopedBufs_held (Ix := Unit) (Name := ℕ) (U := UR sig nD τ) (Lvl := ℕ) c (Wout W hO c)
  have h2 := bufs_split W hO c (Vin (Wout W hO) c)
  have e0 : Vin (Wout W hO) c main_v0 = Vin W c main_v0 := Function.update_of_ne v0_ne_v7 _ _
  have e7 : Vin (Wout W hO) c main_v86 = (dat (Vin W) hO c).arrAt 2 (cfgM (Vin W) hO).N := Function.update_self _ _ _
  have et : (fun k => Vin (Wout W hO) c (pre15.ref k)) = tbl (Vin W) := funext fun k => by
    refine (Function.update_of_ne ?_ _ _).trans (V_pre (Vin W) c k)
    intro e
    have := Proc.devRef_injective _ e
    revert k; decide
  have er : (Pipeline.unscopedRestP pre15 spec15 c (Vin (Wout W hO) c) : sProp 𝕄) = Pipeline.unscopedRestP pre15 spec15 c (Vin W c) := by
    unfold Pipeline.unscopedRestP
    refine bigSep_congr fun b hb => ?_
    have hb1 : b ∉ Finset.univ.image (Pipeline.arrRef spec15) := (Finset.mem_sdiff.mp (Finset.mem_sdiff.mp hb).1).2
    have hne : b ≠ main_v86 := fun e => hb1 (by rw [e, arrs_image]; decide)
    rw [show Vin (Wout W hO) c b = Vin W c b from Function.update_of_ne (fun e => hne (Proc.devRef_injective _ e)) _ _]
  rw [arrBufs_eq, e0, e7, et, er] at h2
  exact hub.symm.trans h2

/-- EXIT. -/
theorem exit (hO : Ok (Vin W)) (c : Dev nD) :
    (iprop((dat (Vin W) hO c).arrays ((dat (Vin W) hO c).arrAt · (cfgM (Vin W) hO).N)
        ∗ (dat (Vin W) hO c).owesAt () (Fin.last (cfgM (Vin W) hO).N)
        ∗ ((∃ r, prngReg c r) ∗ Pipeline.prefHeld pre15 c (fun _ => fullShare) (tbl (Vin W)))
        ∗ Pipeline.unscopedRestP pre15 spec15 c (Vin W c)) : sProp 𝕄)
      ⊢ |={Set.univ}=> iprop(StableHlo.held (c : Thread nD τ) (Pipeline.ucRefs τ sig) (Wout W hO c) ∗ Rst c) := by
  rw [held_exit W hO c, arrays_exit W hO c]
  iintro ⟨⟨Hl, Hr, H7⟩, HO, ⟨Hp, Ht⟩, Hrest⟩
  imodintro
  ihave H0 := (pointsTo_share (PosShare.mem_left_op_right fullShare)).2 $$ [Hl Hr]
  · isplitl [Hl]; · iexact Hl
    iexact Hr
  isplitl [H0 H7 Ht Hrest]
  · isplitl [H0 H7]
    · isplitl [H0]; · iexact H0
      iexact H7
    isplitl [Ht]; · iexact Ht
    iexact Hrest
  isplitl [Hp]; · iexact Hp
  unfold Pipeline.Dat.owesAt Pipeline.owesWithin
  icases HO with ⟨%Wt, -, HO⟩; iexists Wt; iexact HO

/-- The invariant at the first point: the scoped rest, the generator register and the tables. -/
theorem inv_in (hO : Ok (Vin W)) (c : Dev nD) :
    (iprop((∃ r, prngReg c r) ∗ Pipeline.prefHeld pre15 c (fun _ => fullShare) (tbl (Vin W)) ∗ Pipeline.scopedRest spec15 c) : sProp 𝕄)
      ⊢ (dat (Vin W) hO c).Φ 0 := by
  rw [show (dat (Vin W) hO c).Φ 0 = iprop(Pipeline.ΦA spec15 c ∗ Pipeline.prefHeld (Ix := Unit) (Name := ℕ) (U := UR sig nD τ) (Lvl := ℕ) pre15 c (fun _ => fullShare) (tbl (Vin W))) from rfl]
  unfold Pipeline.ΦA
  iintro ⟨Hp, Ht, Hr⟩
  isplitl [Hr Hp]
  · isplitl [Hr]; · iexact Hr
    iexact Hp
  iexact Ht

/-- The invariant at the last point gives them back. -/
theorem inv_out (hO : Ok (Vin W)) (c : Dev nD) :
    (dat (Vin W) hO c).Φ (Fin.last (cfgM (Vin W) hO).N)
      ⊢ (iprop(((∃ r, prngReg c r) ∗ Pipeline.prefHeld pre15 c (fun _ => fullShare) (tbl (Vin W))) ∗ Pipeline.scopedRest spec15 c) : sProp 𝕄) := by
  rw [show (dat (Vin W) hO c).Φ (Fin.last _) = iprop(Pipeline.ΦA spec15 c ∗ Pipeline.prefHeld (Ix := Unit) (Name := ℕ) (U := UR sig nD τ) (Lvl := ℕ) pre15 c (fun _ => fullShare) (tbl (Vin W))) from rfl]
  unfold Pipeline.ΦA
  iintro ⟨⟨Hr, Hp⟩, Ht⟩
  isplitl [Hp Ht]
  · isplitl [Hp]; · iexact Hp
    iexact Ht
  iexact Hr

end Cert.Kernel.Call15

end
-- ==== Proof.WordChain.lean ====
import proofs.«406163_j35201551958720_3_alg».proof.Proof.WordCall0Data
import proofs.«406163_j35201551958720_3_alg».proof.Proof.WordCall1Data
import proofs.«406163_j35201551958720_3_alg».proof.Proof.WordCall2Data
import proofs.«406163_j35201551958720_3_alg».proof.Proof.WordCall3Data
import proofs.«406163_j35201551958720_3_alg».proof.Proof.WordCall4Data
import proofs.«406163_j35201551958720_3_alg».proof.Proof.WordCall5Data
import proofs.«406163_j35201551958720_3_alg».proof.Proof.WordCall6Data
import proofs.«406163_j35201551958720_3_alg».proof.Proof.WordCall7Data
import proofs.«406163_j35201551958720_3_alg».proof.Proof.WordCall8Data
import proofs.«406163_j35201551958720_3_alg».proof.Proof.WordCall9Data
import proofs.«406163_j35201551958720_3_alg».proof.Proof.WordCall10Data
import proofs.«406163_j35201551958720_3_alg».proof.Proof.WordCall11Data
import proofs.«406163_j35201551958720_3_alg».proof.Proof.WordCall12Data
import proofs.«406163_j35201551958720_3_alg».proof.Proof.WordCall13Data
import proofs.«406163_j35201551958720_3_alg».proof.Proof.WordCall14Data
import proofs.«406163_j35201551958720_3_alg».proof.Proof.WordCall15Data
import proofs.«406163_j35201551958720_3_alg».proof.Proof.KernelRegions
import Idealize.ShloMosaic.Lib.Pipeline.Value
import Idealize.ShloMosaic.Lib.ValueIdx
import Idealize.ShloMosaic.Lib.StableHlo.Run

set_option maxRecDepth 16384

noncomputable section

namespace Cert.Kernel.Chain

open Cert.Kernel Cert.Kernel.Gen
open Idealize.ShloMosaic Idealize.ShloMosaic.TcCoe Idealize.SL.Sem

variable {F : FTy → Type} [FloatOps F]

/-! # The contents of a core's unscoped buffers between @main's items, from the launch memory m

Every index table is a slice of a column of pos or neg; when every index names a row (InRange) each call's
tables are admissible, and the chain of contents is defined call by call. Between two calls only a few buffers change:
a call writes its one result, a host stretch the handful of values it computes. So the array of rows, the four index
columns, the three arguments and the running sums are read at every later point as what they were when written. -/

/-! ## Slices and reshapes read at an index -/

section Layout
variable {α : Type}

/-- Column 0 of a list of pairs, as a list: entry i is pair i's first component. -/
theorem col0_apply (x : S200000x2.Idx → α) (hs : S200000x2.Slices ![0, 0] S200000x1) (hc : S200000x1.ShapeCasts S200000) (i : Fin 200000) :
    shapeCast S200000 (extractStridedSlice S200000x1 ![0, 0] x hs) hc (ValueIdx.ix1 i) = x (ValueIdx.ix2 i 0) := by
  refine (shapeCast_apply _ hc (ValueIdx.ix1 i) (ValueIdx.ix2 i 0) ?_).trans ?_
  · rw [Shape.rowMajor_val_two, Shape.rowMajor_val_one]; show i.val * 1 + 0 = i.val; omega
  · exact extractStridedSlice_apply _ x hs (ValueIdx.ix2 i 0) (ValueIdx.ix2 i 0) fun a => by
      match a with
      | ⟨0, _⟩ => show i.val = 0 + i.val; omega
      | ⟨1, _⟩ => show 0 = 0 + 0; rfl

/-- Column 1 of a list of pairs, as a list: entry i is pair i's second component. -/
theorem col1_apply (x : S200000x2.Idx → α) (hs : S200000x2.Slices ![0, 1] S200000x1) (hc : S200000x1.ShapeCasts S200000) (i : Fin 200000) :
    shapeCast S200000 (extractStridedSlice S200000x1 ![0, 1] x hs) hc (ValueIdx.ix1 i) = x (ValueIdx.ix2 i 1) := by
  refine (shapeCast_apply _ hc (ValueIdx.ix1 i) (ValueIdx.ix2 i 0) ?_).trans ?_
  · rw [Shape.rowMajor_val_two, Shape.rowMajor_val_one]; show i.val * 1 + 0 = i.val; omega
  · exact extractStridedSlice_apply _ x hs (ValueIdx.ix2 i 0) (ValueIdx.ix2 i 1) fun a => by
      match a with
      | ⟨0, _⟩ => show i.val = 0 + i.val; omega
      | ⟨1, _⟩ => show 1 = 1 + 0; rfl

/-- A chunk of 25000 consecutive entries starting at off: entry t is entry off + t of the list. -/
theorem chunk_apply (off : ℕ) (y : S200000.Idx → α) (hs : S200000.Slices ![off] S25000) (t : Fin 25000) (ht : off + t.val < 200000) :
    extractStridedSlice S25000 ![off] y hs (ValueIdx.ix1 t) = y (ValueIdx.ix1 ⟨off + t.val, ht⟩) :=
  extractStridedSlice_apply _ y hs (ValueIdx.ix1 t) (ValueIdx.ix1 ⟨off + t.val, ht⟩) fun a => by
    match a with
    | ⟨0, _⟩ => rfl

/-- The table of rows with a unit middle axis: entry (r, 0, d) is entry (r, d). -/
theorem rows_apply (x : S100000x256.Idx → α) (hc : S100000x256.ShapeCasts S100000x1x256) (r : Fin 100000) (d : Fin 256) :
    shapeCast S100000x1x256 x hc (ValueIdx.ix3 r 0 d) = x (ValueIdx.ix2 r d) := by
  refine shapeCast_apply _ hc (ValueIdx.ix3 r 0 d) (ValueIdx.ix2 r d) ?_
  rw [Shape.rowMajor_val_two, Shape.rowMajor_val_three]; show r.val * 256 + d.val = (r.val * 1 + 0) * 256 + d.val; omega

/-- The one entry of a [1,1] array, as a scalar. -/
theorem scalar_apply (x : S1x1.Idx → α) (hc : S1x1.ShapeCasts S_) :
    shapeCast S_ x hc ValueIdx.ix0 = x (ValueIdx.ix2 0 0) := by
  refine shapeCast_apply _ hc ValueIdx.ix0 (ValueIdx.ix2 0 0) ?_
  rw [Shape.rowMajor_val_two]; exact (Fin.val_eq_zero _).symm

end Layout

/-! ## Tables that name rows are admissible

Each block is one row, (word, 0, 0) of a [100000, 1, 256] array cut into [1, 1, 256] blocks: it lies inside exactly when
the word is below 100000. Stated with the tables a variable. -/

theorem ok0_of_lt (pf : pre0.Contents (Elt F)) (hA : ∀ t : Fin 25000, (pf 0 (ValueIdx.ix1 t)).toNat < 100000)
    (hB : ∀ t : Fin 25000, (pf 1 (ValueIdx.ix1 t)).toNat < 100000) : Cert.Kernel.ok0 (F := F) pf := by
  refine ⟨fun i => ⟨fun a => ?_, .inl rfl⟩, fun i => ⟨fun a => ?_, .inl rfl⟩⟩
  · obtain ⟨x, e⟩ : ∃ x : S25000.Idx, cc0_transform_0 k0_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc0_transform_1 k0_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok1_of_lt (pf : pre1.Contents (Elt F)) (hA : ∀ t : Fin 25000, (pf 0 (ValueIdx.ix1 t)).toNat < 100000)
    (hB : ∀ t : Fin 25000, (pf 1 (ValueIdx.ix1 t)).toNat < 100000) : Cert.Kernel.ok1 (F := F) pf := by
  refine ⟨fun i => ⟨fun a => ?_, .inl rfl⟩, fun i => ⟨fun a => ?_, .inl rfl⟩⟩
  · obtain ⟨x, e⟩ : ∃ x : S25000.Idx, cc1_transform_0 k1_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc1_transform_1 k1_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok2_of_lt (pf : pre2.Contents (Elt F)) (hA : ∀ t : Fin 25000, (pf 0 (ValueIdx.ix1 t)).toNat < 100000)
    (hB : ∀ t : Fin 25000, (pf 1 (ValueIdx.ix1 t)).toNat < 100000) : Cert.Kernel.ok2 (F := F) pf := by
  refine ⟨fun i => ⟨fun a => ?_, .inl rfl⟩, fun i => ⟨fun a => ?_, .inl rfl⟩⟩
  · obtain ⟨x, e⟩ : ∃ x : S25000.Idx, cc2_transform_0 k2_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc2_transform_1 k2_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok3_of_lt (pf : pre3.Contents (Elt F)) (hA : ∀ t : Fin 25000, (pf 0 (ValueIdx.ix1 t)).toNat < 100000)
    (hB : ∀ t : Fin 25000, (pf 1 (ValueIdx.ix1 t)).toNat < 100000) : Cert.Kernel.ok3 (F := F) pf := by
  refine ⟨fun i => ⟨fun a => ?_, .inl rfl⟩, fun i => ⟨fun a => ?_, .inl rfl⟩⟩
  · obtain ⟨x, e⟩ : ∃ x : S25000.Idx, cc3_transform_0 k3_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc3_transform_1 k3_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok4_of_lt (pf : pre4.Contents (Elt F)) (hA : ∀ t : Fin 25000, (pf 0 (ValueIdx.ix1 t)).toNat < 100000)
    (hB : ∀ t : Fin 25000, (pf 1 (ValueIdx.ix1 t)).toNat < 100000) : Cert.Kernel.ok4 (F := F) pf := by
  refine ⟨fun i => ⟨fun a => ?_, .inl rfl⟩, fun i => ⟨fun a => ?_, .inl rfl⟩⟩
  · obtain ⟨x, e⟩ : ∃ x : S25000.Idx, cc4_transform_0 k4_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc4_transform_1 k4_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok5_of_lt (pf : pre5.Contents (Elt F)) (hA : ∀ t : Fin 25000, (pf 0 (ValueIdx.ix1 t)).toNat < 100000)
    (hB : ∀ t : Fin 25000, (pf 1 (ValueIdx.ix1 t)).toNat < 100000) : Cert.Kernel.ok5 (F := F) pf := by
  refine ⟨fun i => ⟨fun a => ?_, .inl rfl⟩, fun i => ⟨fun a => ?_, .inl rfl⟩⟩
  · obtain ⟨x, e⟩ : ∃ x : S25000.Idx, cc5_transform_0 k5_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc5_transform_1 k5_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok6_of_lt (pf : pre6.Contents (Elt F)) (hA : ∀ t : Fin 25000, (pf 0 (ValueIdx.ix1 t)).toNat < 100000)
    (hB : ∀ t : Fin 25000, (pf 1 (ValueIdx.ix1 t)).toNat < 100000) : Cert.Kernel.ok6 (F := F) pf := by
  refine ⟨fun i => ⟨fun a => ?_, .inl rfl⟩, fun i => ⟨fun a => ?_, .inl rfl⟩⟩
  · obtain ⟨x, e⟩ : ∃ x : S25000.Idx, cc6_transform_0 k6_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc6_transform_1 k6_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok7_of_lt (pf : pre7.Contents (Elt F)) (hA : ∀ t : Fin 25000, (pf 0 (ValueIdx.ix1 t)).toNat < 100000)
    (hB : ∀ t : Fin 25000, (pf 1 (ValueIdx.ix1 t)).toNat < 100000) : Cert.Kernel.ok7 (F := F) pf := by
  refine ⟨fun i => ⟨fun a => ?_, .inl rfl⟩, fun i => ⟨fun a => ?_, .inl rfl⟩⟩
  · obtain ⟨x, e⟩ : ∃ x : S25000.Idx, cc7_transform_0 k7_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc7_transform_1 k7_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok8_of_lt (pf : pre8.Contents (Elt F)) (hA : ∀ t : Fin 25000, (pf 0 (ValueIdx.ix1 t)).toNat < 100000)
    (hB : ∀ t : Fin 25000, (pf 1 (ValueIdx.ix1 t)).toNat < 100000) : Cert.Kernel.ok8 (F := F) pf := by
  refine ⟨fun i => ⟨fun a => ?_, .inl rfl⟩, fun i => ⟨fun a => ?_, .inl rfl⟩⟩
  · obtain ⟨x, e⟩ : ∃ x : S25000.Idx, cc8_transform_0 k8_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc8_transform_1 k8_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok9_of_lt (pf : pre9.Contents (Elt F)) (hA : ∀ t : Fin 25000, (pf 0 (ValueIdx.ix1 t)).toNat < 100000)
    (hB : ∀ t : Fin 25000, (pf 1 (ValueIdx.ix1 t)).toNat < 100000) : Cert.Kernel.ok9 (F := F) pf := by
  refine ⟨fun i => ⟨fun a => ?_, .inl rfl⟩, fun i => ⟨fun a => ?_, .inl rfl⟩⟩
  · obtain ⟨x, e⟩ : ∃ x : S25000.Idx, cc9_transform_0 k9_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc9_transform_1 k9_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok10_of_lt (pf : pre10.Contents (Elt F)) (hA : ∀ t : Fin 25000, (pf 0 (ValueIdx.ix1 t)).toNat < 100000)
    (hB : ∀ t : Fin 25000, (pf 1 (ValueIdx.ix1 t)).toNat < 100000) : Cert.Kernel.ok10 (F := F) pf := by
  refine ⟨fun i => ⟨fun a => ?_, .inl rfl⟩, fun i => ⟨fun a => ?_, .inl rfl⟩⟩
  · obtain ⟨x, e⟩ : ∃ x : S25000.Idx, cc10_transform_0 k10_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc10_transform_1 k10_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok11_of_lt (pf : pre11.Contents (Elt F)) (hA : ∀ t : Fin 25000, (pf 0 (ValueIdx.ix1 t)).toNat < 100000)
    (hB : ∀ t : Fin 25000, (pf 1 (ValueIdx.ix1 t)).toNat < 100000) : Cert.Kernel.ok11 (F := F) pf := by
  refine ⟨fun i => ⟨fun a => ?_, .inl rfl⟩, fun i => ⟨fun a => ?_, .inl rfl⟩⟩
  · obtain ⟨x, e⟩ : ∃ x : S25000.Idx, cc11_transform_0 k11_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc11_transform_1 k11_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok12_of_lt (pf : pre12.Contents (Elt F)) (hA : ∀ t : Fin 25000, (pf 0 (ValueIdx.ix1 t)).toNat < 100000)
    (hB : ∀ t : Fin 25000, (pf 1 (ValueIdx.ix1 t)).toNat < 100000) : Cert.Kernel.ok12 (F := F) pf := by
  refine ⟨fun i => ⟨fun a => ?_, .inl rfl⟩, fun i => ⟨fun a => ?_, .inl rfl⟩⟩
  · obtain ⟨x, e⟩ : ∃ x : S25000.Idx, cc12_transform_0 k12_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc12_transform_1 k12_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok13_of_lt (pf : pre13.Contents (Elt F)) (hA : ∀ t : Fin 25000, (pf 0 (ValueIdx.ix1 t)).toNat < 100000)
    (hB : ∀ t : Fin 25000, (pf 1 (ValueIdx.ix1 t)).toNat < 100000) : Cert.Kernel.ok13 (F := F) pf := by
  refine ⟨fun i => ⟨fun a => ?_, .inl rfl⟩, fun i => ⟨fun a => ?_, .inl rfl⟩⟩
  · obtain ⟨x, e⟩ : ∃ x : S25000.Idx, cc13_transform_0 k13_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc13_transform_1 k13_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok14_of_lt (pf : pre14.Contents (Elt F)) (hA : ∀ t : Fin 25000, (pf 0 (ValueIdx.ix1 t)).toNat < 100000)
    (hB : ∀ t : Fin 25000, (pf 1 (ValueIdx.ix1 t)).toNat < 100000) : Cert.Kernel.ok14 (F := F) pf := by
  refine ⟨fun i => ⟨fun a => ?_, .inl rfl⟩, fun i => ⟨fun a => ?_, .inl rfl⟩⟩
  · obtain ⟨x, e⟩ : ∃ x : S25000.Idx, cc14_transform_0 k14_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc14_transform_1 k14_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

theorem ok15_of_lt (pf : pre15.Contents (Elt F)) (hA : ∀ t : Fin 25000, (pf 0 (ValueIdx.ix1 t)).toNat < 100000)
    (hB : ∀ t : Fin 25000, (pf 1 (ValueIdx.ix1 t)).toNat < 100000) : Cert.Kernel.ok15 (F := F) pf := by
  refine ⟨fun i => ⟨fun a => ?_, .inl rfl⟩, fun i => ⟨fun a => ?_, .inl rfl⟩⟩
  · obtain ⟨x, e⟩ : ∃ x : S25000.Idx, cc15_transform_0 k15_off1_inb numel1_S1 pf i = ![(pf 0 x).toNat, 0, 0] := ⟨_, rfl⟩
    have hx : (pf 0 x).toNat < 100000 := by rw [ValueIdx.eq_ix1 x]; exact hA (x 0)
    rw [e]
    match a with
    | ⟨0, _⟩ => show ((pf 0 x).toNat + 1) * 1 ≤ 100000; omega
    | ⟨1, _⟩ => show (0 + 1) * 1 ≤ 1; omega
    | ⟨2, _⟩ => show (0 + 1) * 256 ≤ 256; omega
  · obtain ⟨x, e⟩ : ∃ x : S25000.Idx, cc15_transform_1 k15_off1_inb numel1_S1 pf i = ![(pf 1 x).toNat, 0, 0] := ⟨_, rfl⟩
    have hx : (pf 1 x).toNat < 100000 := by rw [ValueIdx.eq_ix1 x]; exact hB (x 0)
    rw [e]
    match a with
    | ⟨0, _⟩ => show ((pf 1 x).toNat + 1) * 1 ≤ 100000; omega
    | ⟨1, _⟩ => show (0 + 1) * 1 ≤ 1; omega
    | ⟨2, _⟩ => show (0 + 1) * 256 ≤ 256; omega

variable (m : (ℓ : Loc nD τ sig) → Buf (Elt F) ℓ)

/-- Every entry of the two index arrays names one of the 100000 rows. -/
def InRange : Prop := ∀ c : Dev nD,
  (∀ i, (m ((c.tc : Thread nD τ).loc main_arg1) i).toNat < 100000) ∧ (∀ i, (m ((c.tc : Thread nD τ).loc main_arg2) i).toNat < 100000)

/-- At launch. -/
abbrev W0 (c : Dev nD) : Valuation τ sig (Elt F) := fun b => m (c, b)

/-! ## Call 0 -/

/-- Entry of call 0: after the host stretch 0. -/
abbrev W1 (c : Dev nD) : Valuation τ sig (Elt F) := StableHlo.after hostOps0 (W0 m c)
/-- The host stretch 0 leaves every buffer it does not write as it was. -/
theorem W1_of (c : Dev nD) (r : Ref sig .tc) (hr : r ∉ Regions.hostOps0_W) : W1 m c r = W0 m c r :=
  StableHlo.after_of_writes_sub hostOps0 _ Regions.hostOps0_writes hr
theorem W1_arg0 (c : Dev nD) : W1 m c main_arg0 = m ((c.tc : Thread nD τ).loc main_arg0) := W1_of m c main_arg0 (by decide)
theorem W1_arg1 (c : Dev nD) : W1 m c main_arg1 = m ((c.tc : Thread nD τ).loc main_arg1) := W1_of m c main_arg1 (by decide)
theorem W1_arg2 (c : Dev nD) : W1 m c main_arg2 = m ((c.tc : Thread nD τ).loc main_arg2) := W1_of m c main_arg2 (by decide)

/-- The array of rows as call 0 finds it: the first argument with a unit middle axis. -/
theorem rows0 (c : Dev nD) (r : Fin 100000) (d : Fin 256) :
    W1 m c main_v0 (ValueIdx.ix3 r 0 d) = m ((c.tc : Thread nD τ).loc main_arg0) (ValueIdx.ix2 r d) := by
  have e : (W1 m c main_v0 : S100000x1x256.Idx → Elt F .f32) = shapeCast S100000x1x256 (m ((c.tc : Thread nD τ).loc main_arg0)) shapeCasts_S100000x256_S100000x1x256 := by
    show StableHlo.after hostOps0 _ _ = _; after_results <;> rfl
  rw [e]; exact rows_apply _ _ r d

/-- The first list's first components, as a list of 200000. -/
theorem W1_colA (c : Dev nD) (i : Fin 200000) :
    W1 m c main_v2 (ValueIdx.ix1 i) = m ((c.tc : Thread nD τ).loc main_arg1) (ValueIdx.ix2 i 0) := by
  have e : (W1 m c main_v2 : S200000.Idx → Elt F .i32) = shapeCast S200000 (extractStridedSlice S200000x1 ![0, 0] (m ((c.tc : Thread nD τ).loc main_arg1)) slices_S200000x2_S200000x1_0_0) shapeCasts_S200000x1_S200000 := by
    show StableHlo.after hostOps0 _ _ = _; after_results <;> rfl
  rw [e]; exact col0_apply _ _ _ i

/-- The first list's second components, as a list of 200000. -/
theorem W1_colB (c : Dev nD) (i : Fin 200000) :
    W1 m c main_v4 (ValueIdx.ix1 i) = m ((c.tc : Thread nD τ).loc main_arg1) (ValueIdx.ix2 i 1) := by
  have e : (W1 m c main_v4 : S200000.Idx → Elt F .i32) = shapeCast S200000 (extractStridedSlice S200000x1 ![0, 1] (m ((c.tc : Thread nD τ).loc main_arg1)) slices_S200000x2_S200000x1_0_1) shapeCasts_S200000x1_S200000 := by
    show StableHlo.after hostOps0 _ _ = _; after_results <;> rfl
  rw [e]; exact col1_apply _ _ _ i

/-- Call 0's first table: the first components of pairs 0 to 24999 of the first list. -/
theorem tbl0_A (c : Dev nD) (t : Fin 25000) :
    Call0.tbl (Call0.Vin (W1 m)) 0 (ValueIdx.ix1 t) = m ((c.tc : Thread nD τ).loc main_arg1) (ValueIdx.ix2 ⟨25000 * 0 + t.val, by omega⟩ 0) := by
  obtain rfl : c = 0 := Subsingleton.elim _ _
  show W1 m 0 main_v5 (ValueIdx.ix1 t) = _
  have e : (W1 m 0 main_v5 : S25000.Idx → Elt F .i32) = extractStridedSlice S25000 ![25000 * 0] (shapeCast S200000 (extractStridedSlice S200000x1 ![0, 0] (m (((0 : Dev nD).tc : Thread nD τ).loc main_arg1)) slices_S200000x2_S200000x1_0_0) shapeCasts_S200000x1_S200000) slices_S200000_S25000_0 := by
    show StableHlo.after hostOps0 _ _ = _; after_results <;> rfl
  rw [e, chunk_apply (25000 * 0) _ _ t (by omega), col0_apply]

/-- Call 0's second table: the second components of pairs 0 to 24999 of the first list. -/
theorem tbl0_B (c : Dev nD) (t : Fin 25000) :
    Call0.tbl (Call0.Vin (W1 m)) 1 (ValueIdx.ix1 t) = m ((c.tc : Thread nD τ).loc main_arg1) (ValueIdx.ix2 ⟨25000 * 0 + t.val, by omega⟩ 1) := by
  obtain rfl : c = 0 := Subsingleton.elim _ _
  show W1 m 0 main_v6 (ValueIdx.ix1 t) = _
  have e : (W1 m 0 main_v6 : S25000.Idx → Elt F .i32) = extractStridedSlice S25000 ![25000 * 0] (shapeCast S200000 (extractStridedSlice S200000x1 ![0, 1] (m (((0 : Dev nD).tc : Thread nD τ).loc main_arg1)) slices_S200000x2_S200000x1_0_1) shapeCasts_S200000x1_S200000) slices_S200000_S25000_0 := by
    show StableHlo.after hostOps0 _ _ = _; after_results <;> rfl
  rw [e, chunk_apply (25000 * 0) _ _ t (by omega), col1_apply]

/-- Call 0's tables name rows of the array. -/
theorem ok0 (h : InRange m) : Call0.Ok (Call0.Vin (W1 m)) :=
  ok0_of_lt _ (fun t => by rw [tbl0_A m 0 t]; exact (h 0).1 _) (fun t => by rw [tbl0_B m 0 t]; exact (h 0).1 _)
/-- Exit of call 0. -/
abbrev W2 (h : InRange m) (c : Dev nD) : Valuation τ sig (Elt F) := Call0.Wout (W1 m) (ok0 m h) c
/-- Call 0 leaves every buffer but its result as it was. -/
theorem W2_of (h : InRange m) (c : Dev nD) (r : Ref sig .tc) (hr : r ≠ main_v7) : W2 m h c r = W1 m c r := by
  show Function.update _ _ _ _ = _
  exact Function.update_of_ne (StableHlo.devRef_ne_of_ne hr) _ _
/-- Call 0's result is what its write-backs leave. -/
theorem W2_res (h : InRange m) (c : Dev nD) :
    W2 m h c main_v7 = (Call0.dat (Call0.Vin (W1 m)) (ok0 m h) c).arrAt 2 (Call0.cfgM (Call0.Vin (W1 m)) (ok0 m h)).N := by
  show Function.update _ _ _ _ = _
  exact Function.update_self _ _ _
/-- Call 0's result, the one entry of its [1,1] array. -/
abbrev res0 (h : InRange m) (c : Dev nD) : F .f32 := W2 m h c main_v7 (ValueIdx.ix2 0 0)
theorem W2_arg0 (h : InRange m) (c : Dev nD) : W2 m h c main_arg0 = m ((c.tc : Thread nD τ).loc main_arg0) := (W2_of m h c main_arg0 (by decide)).trans (W1_arg0 m c)
theorem W2_arg1 (h : InRange m) (c : Dev nD) : W2 m h c main_arg1 = m ((c.tc : Thread nD τ).loc main_arg1) := (W2_of m h c main_arg1 (by decide)).trans (W1_arg1 m c)
theorem W2_arg2 (h : InRange m) (c : Dev nD) : W2 m h c main_arg2 = m ((c.tc : Thread nD τ).loc main_arg2) := (W2_of m h c main_arg2 (by decide)).trans (W1_arg2 m c)
theorem W2_v0 (h : InRange m) (c : Dev nD) : W2 m h c main_v0 = W1 m c main_v0 := W2_of m h c main_v0 (by decide)
theorem W2_v2 (h : InRange m) (c : Dev nD) : W2 m h c main_v2 = W1 m c main_v2 := W2_of m h c main_v2 (by decide)
theorem W2_v4 (h : InRange m) (c : Dev nD) : W2 m h c main_v4 = W1 m c main_v4 := W2_of m h c main_v4 (by decide)

/-! ## Call 1 -/

/-- Entry of call 1: after the host stretch 1. -/
abbrev W3 (h : InRange m) (c : Dev nD) : Valuation τ sig (Elt F) := StableHlo.after hostOps1 (W2 m h c)
/-- The host stretch 1 leaves every buffer it does not write as it was. -/
theorem W3_of (h : InRange m) (c : Dev nD) (r : Ref sig .tc) (hr : r ∉ Regions.hostOps1_W) : W3 m h c r = W2 m h c r :=
  StableHlo.after_of_writes_sub hostOps1 _ Regions.hostOps1_writes hr
theorem W3_arg0 (h : InRange m) (c : Dev nD) : W3 m h c main_arg0 = m ((c.tc : Thread nD τ).loc main_arg0) := (W3_of m h c main_arg0 (by decide)).trans (W2_arg0 m h c)
theorem W3_arg1 (h : InRange m) (c : Dev nD) : W3 m h c main_arg1 = m ((c.tc : Thread nD τ).loc main_arg1) := (W3_of m h c main_arg1 (by decide)).trans (W2_arg1 m h c)
theorem W3_arg2 (h : InRange m) (c : Dev nD) : W3 m h c main_arg2 = m ((c.tc : Thread nD τ).loc main_arg2) := (W3_of m h c main_arg2 (by decide)).trans (W2_arg2 m h c)
theorem W3_v0 (h : InRange m) (c : Dev nD) : W3 m h c main_v0 = W1 m c main_v0 := (W3_of m h c main_v0 (by decide)).trans (W2_v0 m h c)
theorem W3_v2 (h : InRange m) (c : Dev nD) : W3 m h c main_v2 = W1 m c main_v2 := (W3_of m h c main_v2 (by decide)).trans (W2_v2 m h c)
theorem W3_v4 (h : InRange m) (c : Dev nD) : W3 m h c main_v4 = W1 m c main_v4 := (W3_of m h c main_v4 (by decide)).trans (W2_v4 m h c)

/-- The array of rows as call 1 finds it. -/
theorem rows1 (h : InRange m) (c : Dev nD) (r : Fin 100000) (d : Fin 256) :
    W3 m h c main_v0 (ValueIdx.ix3 r 0 d) = m ((c.tc : Thread nD τ).loc main_arg0) (ValueIdx.ix2 r d) := by
  rw [W3_v0]; exact rows0 m c r d

/-- Call 1's first table: the first components of pairs 25000 to 49999 of the first list. -/
theorem tbl1_A (h : InRange m) (c : Dev nD) (t : Fin 25000) :
    Call1.tbl (Call1.Vin (W3 m h)) 0 (ValueIdx.ix1 t) = m ((c.tc : Thread nD τ).loc main_arg1) (ValueIdx.ix2 ⟨25000 * 1 + t.val, by omega⟩ 0) := by
  obtain rfl : c = 0 := Subsingleton.elim _ _
  show W3 m h 0 main_v10 (ValueIdx.ix1 t) = _
  have e : (W3 m h 0 main_v10 : S25000.Idx → Elt F .i32) = extractStridedSlice S25000 ![25000 * 1] (W2 m h 0 main_v2) slices_S200000_S25000_25000 := by
    show StableHlo.after hostOps1 _ _ = _; after_results <;> rfl
  rw [e, chunk_apply (25000 * 1) _ _ t (by omega), W2_v2, W1_colA]

/-- Call 1's second table: the second components of pairs 25000 to 49999 of the first list. -/
theorem tbl1_B (h : InRange m) (c : Dev nD) (t : Fin 25000) :
    Call1.tbl (Call1.Vin (W3 m h)) 1 (ValueIdx.ix1 t) = m ((c.tc : Thread nD τ).loc main_arg1) (ValueIdx.ix2 ⟨25000 * 1 + t.val, by omega⟩ 1) := by
  obtain rfl : c = 0 := Subsingleton.elim _ _
  show W3 m h 0 main_v11 (ValueIdx.ix1 t) = _
  have e : (W3 m h 0 main_v11 : S25000.Idx → Elt F .i32) = extractStridedSlice S25000 ![25000 * 1] (W2 m h 0 main_v4) slices_S200000_S25000_25000 := by
    show StableHlo.after hostOps1 _ _ = _; after_results <;> rfl
  rw [e, chunk_apply (25000 * 1) _ _ t (by omega), W2_v4, W1_colB]

/-- The running sum of the first list's calls up to call 0. -/
abbrev pos1 (h : InRange m) (c : Dev nD) : F .f32 := FloatOps.addf (FloatOps.ofBits .f32 0x00000000#32) (res0 m h c)
theorem W3_sum (h : InRange m) (c : Dev nD) : W3 m h c main_v9 ValueIdx.ix0 = pos1 m h c := by
  have e : (W3 m h c main_v9 : S_.Idx → F .f32) = addf (constant S_ .f32 0x00000000#32) (shapeCast S_ (W2 m h c main_v7) shapeCasts_S1x1_S_) := by
    show StableHlo.after hostOps1 _ _ = _; after_results <;> rfl
  rw [e]; show FloatOps.addf _ (shapeCast S_ (W2 m h c main_v7) shapeCasts_S1x1_S_ ValueIdx.ix0) = _
  rw [scalar_apply]; rfl

/-- Call 1's tables name rows of the array. -/
theorem ok1 (h : InRange m) : Call1.Ok (Call1.Vin (W3 m h)) :=
  ok1_of_lt _ (fun t => by rw [tbl1_A m h 0 t]; exact (h 0).1 _) (fun t => by rw [tbl1_B m h 0 t]; exact (h 0).1 _)
/-- Exit of call 1. -/
abbrev W4 (h : InRange m) (c : Dev nD) : Valuation τ sig (Elt F) := Call1.Wout (W3 m h) (ok1 m h) c
/-- Call 1 leaves every buffer but its result as it was. -/
theorem W4_of (h : InRange m) (c : Dev nD) (r : Ref sig .tc) (hr : r ≠ main_v12) : W4 m h c r = W3 m h c r := by
  show Function.update _ _ _ _ = _
  exact Function.update_of_ne (StableHlo.devRef_ne_of_ne hr) _ _
/-- Call 1's result is what its write-backs leave. -/
theorem W4_res (h : InRange m) (c : Dev nD) :
    W4 m h c main_v12 = (Call1.dat (Call1.Vin (W3 m h)) (ok1 m h) c).arrAt 2 (Call1.cfgM (Call1.Vin (W3 m h)) (ok1 m h)).N := by
  show Function.update _ _ _ _ = _
  exact Function.update_self _ _ _
/-- Call 1's result, the one entry of its [1,1] array. -/
abbrev res1 (h : InRange m) (c : Dev nD) : F .f32 := W4 m h c main_v12 (ValueIdx.ix2 0 0)
theorem W4_arg0 (h : InRange m) (c : Dev nD) : W4 m h c main_arg0 = m ((c.tc : Thread nD τ).loc main_arg0) := (W4_of m h c main_arg0 (by decide)).trans (W3_arg0 m h c)
theorem W4_arg1 (h : InRange m) (c : Dev nD) : W4 m h c main_arg1 = m ((c.tc : Thread nD τ).loc main_arg1) := (W4_of m h c main_arg1 (by decide)).trans (W3_arg1 m h c)
theorem W4_arg2 (h : InRange m) (c : Dev nD) : W4 m h c main_arg2 = m ((c.tc : Thread nD τ).loc main_arg2) := (W4_of m h c main_arg2 (by decide)).trans (W3_arg2 m h c)
theorem W4_v0 (h : InRange m) (c : Dev nD) : W4 m h c main_v0 = W1 m c main_v0 := (W4_of m h c main_v0 (by decide)).trans (W3_v0 m h c)
theorem W4_v2 (h : InRange m) (c : Dev nD) : W4 m h c main_v2 = W1 m c main_v2 := (W4_of m h c main_v2 (by decide)).trans (W3_v2 m h c)
theorem W4_v4 (h : InRange m) (c : Dev nD) : W4 m h c main_v4 = W1 m c main_v4 := (W4_of m h c main_v4 (by decide)).trans (W3_v4 m h c)

/-! ## Call 2 -/

/-- Entry of call 2: after the host stretch 2. -/
abbrev W5 (h : InRange m) (c : Dev nD) : Valuation τ sig (Elt F) := StableHlo.after hostOps2 (W4 m h c)
/-- The host stretch 2 leaves every buffer it does not write as it was. -/
theorem W5_of (h : InRange m) (c : Dev nD) (r : Ref sig .tc) (hr : r ∉ Regions.hostOps2_W) : W5 m h c r = W4 m h c r :=
  StableHlo.after_of_writes_sub hostOps2 _ Regions.hostOps2_writes hr
theorem W5_arg0 (h : InRange m) (c : Dev nD) : W5 m h c main_arg0 = m ((c.tc : Thread nD τ).loc main_arg0) := (W5_of m h c main_arg0 (by decide)).trans (W4_arg0 m h c)
theorem W5_arg1 (h : InRange m) (c : Dev nD) : W5 m h c main_arg1 = m ((c.tc : Thread nD τ).loc main_arg1) := (W5_of m h c main_arg1 (by decide)).trans (W4_arg1 m h c)
theorem W5_arg2 (h : InRange m) (c : Dev nD) : W5 m h c main_arg2 = m ((c.tc : Thread nD τ).loc main_arg2) := (W5_of m h c main_arg2 (by decide)).trans (W4_arg2 m h c)
theorem W5_v0 (h : InRange m) (c : Dev nD) : W5 m h c main_v0 = W1 m c main_v0 := (W5_of m h c main_v0 (by decide)).trans (W4_v0 m h c)
theorem W5_v2 (h : InRange m) (c : Dev nD) : W5 m h c main_v2 = W1 m c main_v2 := (W5_of m h c main_v2 (by decide)).trans (W4_v2 m h c)
theorem W5_v4 (h : InRange m) (c : Dev nD) : W5 m h c main_v4 = W1 m c main_v4 := (W5_of m h c main_v4 (by decide)).trans (W4_v4 m h c)

/-- The array of rows as call 2 finds it. -/
theorem rows2 (h : InRange m) (c : Dev nD) (r : Fin 100000) (d : Fin 256) :
    W5 m h c main_v0 (ValueIdx.ix3 r 0 d) = m ((c.tc : Thread nD τ).loc main_arg0) (ValueIdx.ix2 r d) := by
  rw [W5_v0]; exact rows0 m c r d

/-- Call 2's first table: the first components of pairs 50000 to 74999 of the first list. -/
theorem tbl2_A (h : InRange m) (c : Dev nD) (t : Fin 25000) :
    Call2.tbl (Call2.Vin (W5 m h)) 0 (ValueIdx.ix1 t) = m ((c.tc : Thread nD τ).loc main_arg1) (ValueIdx.ix2 ⟨25000 * 2 + t.val, by omega⟩ 0) := by
  obtain rfl : c = 0 := Subsingleton.elim _ _
  show W5 m h 0 main_v15 (ValueIdx.ix1 t) = _
  have e : (W5 m h 0 main_v15 : S25000.Idx → Elt F .i32) = extractStridedSlice S25000 ![25000 * 2] (W4 m h 0 main_v2) slices_S200000_S25000_50000 := by
    show StableHlo.after hostOps2 _ _ = _; after_results <;> rfl
  rw [e, chunk_apply (25000 * 2) _ _ t (by omega), W4_v2, W1_colA]

/-- Call 2's second table: the second components of pairs 50000 to 74999 of the first list. -/
theorem tbl2_B (h : InRange m) (c : Dev nD) (t : Fin 25000) :
    Call2.tbl (Call2.Vin (W5 m h)) 1 (ValueIdx.ix1 t) = m ((c.tc : Thread nD τ).loc main_arg1) (ValueIdx.ix2 ⟨25000 * 2 + t.val, by omega⟩ 1) := by
  obtain rfl : c = 0 := Subsingleton.elim _ _
  show W5 m h 0 main_v16 (ValueIdx.ix1 t) = _
  have e : (W5 m h 0 main_v16 : S25000.Idx → Elt F .i32) = extractStridedSlice S25000 ![25000 * 2] (W4 m h 0 main_v4) slices_S200000_S25000_50000 := by
    show StableHlo.after hostOps2 _ _ = _; after_results <;> rfl
  rw [e, chunk_apply (25000 * 2) _ _ t (by omega), W4_v4, W1_colB]

/-- The running sum of the first list's calls up to call 1. -/
abbrev pos2 (h : InRange m) (c : Dev nD) : F .f32 := FloatOps.addf (pos1 m h c) (res1 m h c)
theorem W5_sum (h : InRange m) (c : Dev nD) : W5 m h c main_v14 ValueIdx.ix0 = pos2 m h c := by
  have e : (W5 m h c main_v14 : S_.Idx → F .f32) = addf (W4 m h c main_v9) (shapeCast S_ (W4 m h c main_v12) shapeCasts_S1x1_S_) := by
    show StableHlo.after hostOps2 _ _ = _; after_results <;> rfl
  rw [e]; show FloatOps.addf (W4 m h c main_v9 ValueIdx.ix0) (shapeCast S_ (W4 m h c main_v12) shapeCasts_S1x1_S_ ValueIdx.ix0) = _
  rw [scalar_apply, W4_of m h c main_v9 (by decide), W3_sum]

/-- Call 2's tables name rows of the array. -/
theorem ok2 (h : InRange m) : Call2.Ok (Call2.Vin (W5 m h)) :=
  ok2_of_lt _ (fun t => by rw [tbl2_A m h 0 t]; exact (h 0).1 _) (fun t => by rw [tbl2_B m h 0 t]; exact (h 0).1 _)
/-- Exit of call 2. -/
abbrev W6 (h : InRange m) (c : Dev nD) : Valuation τ sig (Elt F) := Call2.Wout (W5 m h) (ok2 m h) c
/-- Call 2 leaves every buffer but its result as it was. -/
theorem W6_of (h : InRange m) (c : Dev nD) (r : Ref sig .tc) (hr : r ≠ main_v17) : W6 m h c r = W5 m h c r := by
  show Function.update _ _ _ _ = _
  exact Function.update_of_ne (StableHlo.devRef_ne_of_ne hr) _ _
/-- Call 2's result is what its write-backs leave. -/
theorem W6_res (h : InRange m) (c : Dev nD) :
    W6 m h c main_v17 = (Call2.dat (Call2.Vin (W5 m h)) (ok2 m h) c).arrAt 2 (Call2.cfgM (Call2.Vin (W5 m h)) (ok2 m h)).N := by
  show Function.update _ _ _ _ = _
  exact Function.update_self _ _ _
/-- Call 2's result, the one entry of its [1,1] array. -/
abbrev res2 (h : InRange m) (c : Dev nD) : F .f32 := W6 m h c main_v17 (ValueIdx.ix2 0 0)
theorem W6_arg0 (h : InRange m) (c : Dev nD) : W6 m h c main_arg0 = m ((c.tc : Thread nD τ).loc main_arg0) := (W6_of m h c main_arg0 (by decide)).trans (W5_arg0 m h c)
theorem W6_arg1 (h : InRange m) (c : Dev nD) : W6 m h c main_arg1 = m ((c.tc : Thread nD τ).loc main_arg1) := (W6_of m h c main_arg1 (by decide)).trans (W5_arg1 m h c)
theorem W6_arg2 (h : InRange m) (c : Dev nD) : W6 m h c main_arg2 = m ((c.tc : Thread nD τ).loc main_arg2) := (W6_of m h c main_arg2 (by decide)).trans (W5_arg2 m h c)
theorem W6_v0 (h : InRange m) (c : Dev nD) : W6 m h c main_v0 = W1 m c main_v0 := (W6_of m h c main_v0 (by decide)).trans (W5_v0 m h c)
theorem W6_v2 (h : InRange m) (c : Dev nD) : W6 m h c main_v2 = W1 m c main_v2 := (W6_of m h c main_v2 (by decide)).trans (W5_v2 m h c)
theorem W6_v4 (h : InRange m) (c : Dev nD) : W6 m h c main_v4 = W1 m c main_v4 := (W6_of m h c main_v4 (by decide)).trans (W5_v4 m h c)

/-! ## Call 3 -/

/-- Entry of call 3: after the host stretch 3. -/
abbrev W7 (h : InRange m) (c : Dev nD) : Valuation τ sig (Elt F) := StableHlo.after hostOps3 (W6 m h c)
/-- The host stretch 3 leaves every buffer it does not write as it was. -/
theorem W7_of (h : InRange m) (c : Dev nD) (r : Ref sig .tc) (hr : r ∉ Regions.hostOps3_W) : W7 m h c r = W6 m h c r :=
  StableHlo.after_of_writes_sub hostOps3 _ Regions.hostOps3_writes hr
theorem W7_arg0 (h : InRange m) (c : Dev nD) : W7 m h c main_arg0 = m ((c.tc : Thread nD τ).loc main_arg0) := (W7_of m h c main_arg0 (by decide)).trans (W6_arg0 m h c)
theorem W7_arg1 (h : InRange m) (c : Dev nD) : W7 m h c main_arg1 = m ((c.tc : Thread nD τ).loc main_arg1) := (W7_of m h c main_arg1 (by decide)).trans (W6_arg1 m h c)
theorem W7_arg2 (h : InRange m) (c : Dev nD) : W7 m h c main_arg2 = m ((c.tc : Thread nD τ).loc main_arg2) := (W7_of m h c main_arg2 (by decide)).trans (W6_arg2 m h c)
theorem W7_v0 (h : InRange m) (c : Dev nD) : W7 m h c main_v0 = W1 m c main_v0 := (W7_of m h c main_v0 (by decide)).trans (W6_v0 m h c)
theorem W7_v2 (h : InRange m) (c : Dev nD) : W7 m h c main_v2 = W1 m c main_v2 := (W7_of m h c main_v2 (by decide)).trans (W6_v2 m h c)
theorem W7_v4 (h : InRange m) (c : Dev nD) : W7 m h c main_v4 = W1 m c main_v4 := (W7_of m h c main_v4 (by decide)).trans (W6_v4 m h c)

/-- The array of rows as call 3 finds it. -/
theorem rows3 (h : InRange m) (c : Dev nD) (r : Fin 100000) (d : Fin 256) :
    W7 m h c main_v0 (ValueIdx.ix3 r 0 d) = m ((c.tc : Thread nD τ).loc main_arg0) (ValueIdx.ix2 r d) := by
  rw [W7_v0]; exact rows0 m c r d

/-- Call 3's first table: the first components of pairs 75000 to 99999 of the first list. -/
theorem tbl3_A (h : InRange m) (c : Dev nD) (t : Fin 25000) :
    Call3.tbl (Call3.Vin (W7 m h)) 0 (ValueIdx.ix1 t) = m ((c.tc : Thread nD τ).loc main_arg1) (ValueIdx.ix2 ⟨25000 * 3 + t.val, by omega⟩ 0) := by
  obtain rfl : c = 0 := Subsingleton.elim _ _
  show W7 m h 0 main_v20 (ValueIdx.ix1 t) = _
  have e : (W7 m h 0 main_v20 : S25000.Idx → Elt F .i32) = extractStridedSlice S25000 ![25000 * 3] (W6 m h 0 main_v2) slices_S200000_S25000_75000 := by
    show StableHlo.after hostOps3 _ _ = _; after_results <;> rfl
  rw [e, chunk_apply (25000 * 3) _ _ t (by omega), W6_v2, W1_colA]

/-- Call 3's second table: the second components of pairs 75000 to 99999 of the first list. -/
theorem tbl3_B (h : InRange m) (c : Dev nD) (t : Fin 25000) :
    Call3.tbl (Call3.Vin (W7 m h)) 1 (ValueIdx.ix1 t) = m ((c.tc : Thread nD τ).loc main_arg1) (ValueIdx.ix2 ⟨25000 * 3 + t.val, by omega⟩ 1) := by
  obtain rfl : c = 0 := Subsingleton.elim _ _
  show W7 m h 0 main_v21 (ValueIdx.ix1 t) = _
  have e : (W7 m h 0 main_v21 : S25000.Idx → Elt F .i32) = extractStridedSlice S25000 ![25000 * 3] (W6 m h 0 main_v4) slices_S200000_S25000_75000 := by
    show StableHlo.after hostOps3 _ _ = _; after_results <;> rfl
  rw [e, chunk_apply (25000 * 3) _ _ t (by omega), W6_v4, W1_colB]

/-- The running sum of the first list's calls up to call 2. -/
abbrev pos3 (h : InRange m) (c : Dev nD) : F .f32 := FloatOps.addf (pos2 m h c) (res2 m h c)
theorem W7_sum (h : InRange m) (c : Dev nD) : W7 m h c main_v19 ValueIdx.ix0 = pos3 m h c := by
  have e : (W7 m h c main_v19 : S_.Idx → F .f32) = addf (W6 m h c main_v14) (shapeCast S_ (W6 m h c main_v17) shapeCasts_S1x1_S_) := by
    show StableHlo.after hostOps3 _ _ = _; after_results <;> rfl
  rw [e]; show FloatOps.addf (W6 m h c main_v14 ValueIdx.ix0) (shapeCast S_ (W6 m h c main_v17) shapeCasts_S1x1_S_ ValueIdx.ix0) = _
  rw [scalar_apply, W6_of m h c main_v14 (by decide), W5_sum]

/-- Call 3's tables name rows of the array. -/
theorem ok3 (h : InRange m) : Call3.Ok (Call3.Vin (W7 m h)) :=
  ok3_of_lt _ (fun t => by rw [tbl3_A m h 0 t]; exact (h 0).1 _) (fun t => by rw [tbl3_B m h 0 t]; exact (h 0).1 _)
/-- Exit of call 3. -/
abbrev W8 (h : InRange m) (c : Dev nD) : Valuation τ sig (Elt F) := Call3.Wout (W7 m h) (ok3 m h) c
/-- Call 3 leaves every buffer but its result as it was. -/
theorem W8_of (h : InRange m) (c : Dev nD) (r : Ref sig .tc) (hr : r ≠ main_v22) : W8 m h c r = W7 m h c r := by
  show Function.update _ _ _ _ = _
  exact Function.update_of_ne (StableHlo.devRef_ne_of_ne hr) _ _
/-- Call 3's result is what its write-backs leave. -/
theorem W8_res (h : InRange m) (c : Dev nD) :
    W8 m h c main_v22 = (Call3.dat (Call3.Vin (W7 m h)) (ok3 m h) c).arrAt 2 (Call3.cfgM (Call3.Vin (W7 m h)) (ok3 m h)).N := by
  show Function.update _ _ _ _ = _
  exact Function.update_self _ _ _
/-- Call 3's result, the one entry of its [1,1] array. -/
abbrev res3 (h : InRange m) (c : Dev nD) : F .f32 := W8 m h c main_v22 (ValueIdx.ix2 0 0)
theorem W8_arg0 (h : InRange m) (c : Dev nD) : W8 m h c main_arg0 = m ((c.tc : Thread nD τ).loc main_arg0) := (W8_of m h c main_arg0 (by decide)).trans (W7_arg0 m h c)
theorem W8_arg1 (h : InRange m) (c : Dev nD) : W8 m h c main_arg1 = m ((c.tc : Thread nD τ).loc main_arg1) := (W8_of m h c main_arg1 (by decide)).trans (W7_arg1 m h c)
theorem W8_arg2 (h : InRange m) (c : Dev nD) : W8 m h c main_arg2 = m ((c.tc : Thread nD τ).loc main_arg2) := (W8_of m h c main_arg2 (by decide)).trans (W7_arg2 m h c)
theorem W8_v0 (h : InRange m) (c : Dev nD) : W8 m h c main_v0 = W1 m c main_v0 := (W8_of m h c main_v0 (by decide)).trans (W7_v0 m h c)
theorem W8_v2 (h : InRange m) (c : Dev nD) : W8 m h c main_v2 = W1 m c main_v2 := (W8_of m h c main_v2 (by decide)).trans (W7_v2 m h c)
theorem W8_v4 (h : InRange m) (c : Dev nD) : W8 m h c main_v4 = W1 m c main_v4 := (W8_of m h c main_v4 (by decide)).trans (W7_v4 m h c)

/-! ## Call 4 -/

/-- Entry of call 4: after the host stretch 4. -/
abbrev W9 (h : InRange m) (c : Dev nD) : Valuation τ sig (Elt F) := StableHlo.after hostOps4 (W8 m h c)
/-- The host stretch 4 leaves every buffer it does not write as it was. -/
theorem W9_of (h : InRange m) (c : Dev nD) (r : Ref sig .tc) (hr : r ∉ Regions.hostOps4_W) : W9 m h c r = W8 m h c r :=
  StableHlo.after_of_writes_sub hostOps4 _ Regions.hostOps4_writes hr
theorem W9_arg0 (h : InRange m) (c : Dev nD) : W9 m h c main_arg0 = m ((c.tc : Thread nD τ).loc main_arg0) := (W9_of m h c main_arg0 (by decide)).trans (W8_arg0 m h c)
theorem W9_arg1 (h : InRange m) (c : Dev nD) : W9 m h c main_arg1 = m ((c.tc : Thread nD τ).loc main_arg1) := (W9_of m h c main_arg1 (by decide)).trans (W8_arg1 m h c)
theorem W9_arg2 (h : InRange m) (c : Dev nD) : W9 m h c main_arg2 = m ((c.tc : Thread nD τ).loc main_arg2) := (W9_of m h c main_arg2 (by decide)).trans (W8_arg2 m h c)
theorem W9_v0 (h : InRange m) (c : Dev nD) : W9 m h c main_v0 = W1 m c main_v0 := (W9_of m h c main_v0 (by decide)).trans (W8_v0 m h c)
theorem W9_v2 (h : InRange m) (c : Dev nD) : W9 m h c main_v2 = W1 m c main_v2 := (W9_of m h c main_v2 (by decide)).trans (W8_v2 m h c)
theorem W9_v4 (h : InRange m) (c : Dev nD) : W9 m h c main_v4 = W1 m c main_v4 := (W9_of m h c main_v4 (by decide)).trans (W8_v4 m h c)

/-- The array of rows as call 4 finds it. -/
theorem rows4 (h : InRange m) (c : Dev nD) (r : Fin 100000) (d : Fin 256) :
    W9 m h c main_v0 (ValueIdx.ix3 r 0 d) = m ((c.tc : Thread nD τ).loc main_arg0) (ValueIdx.ix2 r d) := by
  rw [W9_v0]; exact rows0 m c r d

/-- Call 4's first table: the first components of pairs 100000 to 124999 of the first list. -/
theorem tbl4_A (h : InRange m) (c : Dev nD) (t : Fin 25000) :
    Call4.tbl (Call4.Vin (W9 m h)) 0 (ValueIdx.ix1 t) = m ((c.tc : Thread nD τ).loc main_arg1) (ValueIdx.ix2 ⟨25000 * 4 + t.val, by omega⟩ 0) := by
  obtain rfl : c = 0 := Subsingleton.elim _ _
  show W9 m h 0 main_v25 (ValueIdx.ix1 t) = _
  have e : (W9 m h 0 main_v25 : S25000.Idx → Elt F .i32) = extractStridedSlice S25000 ![25000 * 4] (W8 m h 0 main_v2) slices_S200000_S25000_100000 := by
    show StableHlo.after hostOps4 _ _ = _; after_results <;> rfl
  rw [e, chunk_apply (25000 * 4) _ _ t (by omega), W8_v2, W1_colA]

/-- Call 4's second table: the second components of pairs 100000 to 124999 of the first list. -/
theorem tbl4_B (h : InRange m) (c : Dev nD) (t : Fin 25000) :
    Call4.tbl (Call4.Vin (W9 m h)) 1 (ValueIdx.ix1 t) = m ((c.tc : Thread nD τ).loc main_arg1) (ValueIdx.ix2 ⟨25000 * 4 + t.val, by omega⟩ 1) := by
  obtain rfl : c = 0 := Subsingleton.elim _ _
  show W9 m h 0 main_v26 (ValueIdx.ix1 t) = _
  have e : (W9 m h 0 main_v26 : S25000.Idx → Elt F .i32) = extractStridedSlice S25000 ![25000 * 4] (W8 m h 0 main_v4) slices_S200000_S25000_100000 := by
    show StableHlo.after hostOps4 _ _ = _; after_results <;> rfl
  rw [e, chunk_apply (25000 * 4) _ _ t (by omega), W8_v4, W1_colB]

/-- The running sum of the first list's calls up to call 3. -/
abbrev pos4 (h : InRange m) (c : Dev nD) : F .f32 := FloatOps.addf (pos3 m h c) (res3 m h c)
theorem W9_sum (h : InRange m) (c : Dev nD) : W9 m h c main_v24 ValueIdx.ix0 = pos4 m h c := by
  have e : (W9 m h c main_v24 : S_.Idx → F .f32) = addf (W8 m h c main_v19) (shapeCast S_ (W8 m h c main_v22) shapeCasts_S1x1_S_) := by
    show StableHlo.after hostOps4 _ _ = _; after_results <;> rfl
  rw [e]; show FloatOps.addf (W8 m h c main_v19 ValueIdx.ix0) (shapeCast S_ (W8 m h c main_v22) shapeCasts_S1x1_S_ ValueIdx.ix0) = _
  rw [scalar_apply, W8_of m h c main_v19 (by decide), W7_sum]

/-- Call 4's tables name rows of the array. -/
theorem ok4 (h : InRange m) : Call4.Ok (Call4.Vin (W9 m h)) :=
  ok4_of_lt _ (fun t => by rw [tbl4_A m h 0 t]; exact (h 0).1 _) (fun t => by rw [tbl4_B m h 0 t]; exact (h 0).1 _)
/-- Exit of call 4. -/
abbrev W10 (h : InRange m) (c : Dev nD) : Valuation τ sig (Elt F) := Call4.Wout (W9 m h) (ok4 m h) c
/-- Call 4 leaves every buffer but its result as it was. -/
theorem W10_of (h : InRange m) (c : Dev nD) (r : Ref sig .tc) (hr : r ≠ main_v27) : W10 m h c r = W9 m h c r := by
  show Function.update _ _ _ _ = _
  exact Function.update_of_ne (StableHlo.devRef_ne_of_ne hr) _ _
/-- Call 4's result is what its write-backs leave. -/
theorem W10_res (h : InRange m) (c : Dev nD) :
    W10 m h c main_v27 = (Call4.dat (Call4.Vin (W9 m h)) (ok4 m h) c).arrAt 2 (Call4.cfgM (Call4.Vin (W9 m h)) (ok4 m h)).N := by
  show Function.update _ _ _ _ = _
  exact Function.update_self _ _ _
/-- Call 4's result, the one entry of its [1,1] array. -/
abbrev res4 (h : InRange m) (c : Dev nD) : F .f32 := W10 m h c main_v27 (ValueIdx.ix2 0 0)
theorem W10_arg0 (h : InRange m) (c : Dev nD) : W10 m h c main_arg0 = m ((c.tc : Thread nD τ).loc main_arg0) := (W10_of m h c main_arg0 (by decide)).trans (W9_arg0 m h c)
theorem W10_arg1 (h : InRange m) (c : Dev nD) : W10 m h c main_arg1 = m ((c.tc : Thread nD τ).loc main_arg1) := (W10_of m h c main_arg1 (by decide)).trans (W9_arg1 m h c)
theorem W10_arg2 (h : InRange m) (c : Dev nD) : W10 m h c main_arg2 = m ((c.tc : Thread nD τ).loc main_arg2) := (W10_of m h c main_arg2 (by decide)).trans (W9_arg2 m h c)
theorem W10_v0 (h : InRange m) (c : Dev nD) : W10 m h c main_v0 = W1 m c main_v0 := (W10_of m h c main_v0 (by decide)).trans (W9_v0 m h c)
theorem W10_v2 (h : InRange m) (c : Dev nD) : W10 m h c main_v2 = W1 m c main_v2 := (W10_of m h c main_v2 (by decide)).trans (W9_v2 m h c)
theorem W10_v4 (h : InRange m) (c : Dev nD) : W10 m h c main_v4 = W1 m c main_v4 := (W10_of m h c main_v4 (by decide)).trans (W9_v4 m h c)

/-! ## Call 5 -/

/-- Entry of call 5: after the host stretch 5. -/
abbrev W11 (h : InRange m) (c : Dev nD) : Valuation τ sig (Elt F) := StableHlo.after hostOps5 (W10 m h c)
/-- The host stretch 5 leaves every buffer it does not write as it was. -/
theorem W11_of (h : InRange m) (c : Dev nD) (r : Ref sig .tc) (hr : r ∉ Regions.hostOps5_W) : W11 m h c r = W10 m h c r :=
  StableHlo.after_of_writes_sub hostOps5 _ Regions.hostOps5_writes hr
theorem W11_arg0 (h : InRange m) (c : Dev nD) : W11 m h c main_arg0 = m ((c.tc : Thread nD τ).loc main_arg0) := (W11_of m h c main_arg0 (by decide)).trans (W10_arg0 m h c)
theorem W11_arg1 (h : InRange m) (c : Dev nD) : W11 m h c main_arg1 = m ((c.tc : Thread nD τ).loc main_arg1) := (W11_of m h c main_arg1 (by decide)).trans (W10_arg1 m h c)
theorem W11_arg2 (h : InRange m) (c : Dev nD) : W11 m h c main_arg2 = m ((c.tc : Thread nD τ).loc main_arg2) := (W11_of m h c main_arg2 (by decide)).trans (W10_arg2 m h c)
theorem W11_v0 (h : InRange m) (c : Dev nD) : W11 m h c main_v0 = W1 m c main_v0 := (W11_of m h c main_v0 (by decide)).trans (W10_v0 m h c)
theorem W11_v2 (h : InRange m) (c : Dev nD) : W11 m h c main_v2 = W1 m c main_v2 := (W11_of m h c main_v2 (by decide)).trans (W10_v2 m h c)
theorem W11_v4 (h : InRange m) (c : Dev nD) : W11 m h c main_v4 = W1 m c main_v4 := (W11_of m h c main_v4 (by decide)).trans (W10_v4 m h c)

/-- The array of rows as call 5 finds it. -/
theorem rows5 (h : InRange m) (c : Dev nD) (r : Fin 100000) (d : Fin 256) :
    W11 m h c main_v0 (ValueIdx.ix3 r 0 d) = m ((c.tc : Thread nD τ).loc main_arg0) (ValueIdx.ix2 r d) := by
  rw [W11_v0]; exact rows0 m c r d

/-- Call 5's first table: the first components of pairs 125000 to 149999 of the first list. -/
theorem tbl5_A (h : InRange m) (c : Dev nD) (t : Fin 25000) :
    Call5.tbl (Call5.Vin (W11 m h)) 0 (ValueIdx.ix1 t) = m ((c.tc : Thread nD τ).loc main_arg1) (ValueIdx.ix2 ⟨25000 * 5 + t.val, by omega⟩ 0) := by
  obtain rfl : c = 0 := Subsingleton.elim _ _
  show W11 m h 0 main_v30 (ValueIdx.ix1 t) = _
  have e : (W11 m h 0 main_v30 : S25000.Idx → Elt F .i32) = extractStridedSlice S25000 ![25000 * 5] (W10 m h 0 main_v2) slices_S200000_S25000_125000 := by
    show StableHlo.after hostOps5 _ _ = _; after_results <;> rfl
  rw [e, chunk_apply (25000 * 5) _ _ t (by omega), W10_v2, W1_colA]

/-- Call 5's second table: the second components of pairs 125000 to 149999 of the first list. -/
theorem tbl5_B (h : InRange m) (c : Dev nD) (t : Fin 25000) :
    Call5.tbl (Call5.Vin (W11 m h)) 1 (ValueIdx.ix1 t) = m ((c.tc : Thread nD τ).loc main_arg1) (ValueIdx.ix2 ⟨25000 * 5 + t.val, by omega⟩ 1) := by
  obtain rfl : c = 0 := Subsingleton.elim _ _
  show W11 m h 0 main_v31 (ValueIdx.ix1 t) = _
  have e : (W11 m h 0 main_v31 : S25000.Idx → Elt F .i32) = extractStridedSlice S25000 ![25000 * 5] (W10 m h 0 main_v4) slices_S200000_S25000_125000 := by
    show StableHlo.after hostOps5 _ _ = _; after_results <;> rfl
  rw [e, chunk_apply (25000 * 5) _ _ t (by omega), W10_v4, W1_colB]

/-- The running sum of the first list's calls up to call 4. -/
abbrev pos5 (h : InRange m) (c : Dev nD) : F .f32 := FloatOps.addf (pos4 m h c) (res4 m h c)
theorem W11_sum (h : InRange m) (c : Dev nD) : W11 m h c main_v29 ValueIdx.ix0 = pos5 m h c := by
  have e : (W11 m h c main_v29 : S_.Idx → F .f32) = addf (W10 m h c main_v24) (shapeCast S_ (W10 m h c main_v27) shapeCasts_S1x1_S_) := by
    show StableHlo.after hostOps5 _ _ = _; after_results <;> rfl
  rw [e]; show FloatOps.addf (W10 m h c main_v24 ValueIdx.ix0) (shapeCast S_ (W10 m h c main_v27) shapeCasts_S1x1_S_ ValueIdx.ix0) = _
  rw [scalar_apply, W10_of m h c main_v24 (by decide), W9_sum]

/-- Call 5's tables name rows of the array. -/
theorem ok5 (h : InRange m) : Call5.Ok (Call5.Vin (W11 m h)) :=
  ok5_of_lt _ (fun t => by rw [tbl5_A m h 0 t]; exact (h 0).1 _) (fun t => by rw [tbl5_B m h 0 t]; exact (h 0).1 _)
/-- Exit of call 5. -/
abbrev W12 (h : InRange m) (c : Dev nD) : Valuation τ sig (Elt F) := Call5.Wout (W11 m h) (ok5 m h) c
/-- Call 5 leaves every buffer but its result as it was. -/
theorem W12_of (h : InRange m) (c : Dev nD) (r : Ref sig .tc) (hr : r ≠ main_v32) : W12 m h c r = W11 m h c r := by
  show Function.update _ _ _ _ = _
  exact Function.update_of_ne (StableHlo.devRef_ne_of_ne hr) _ _
/-- Call 5's result is what its write-backs leave. -/
theorem W12_res (h : InRange m) (c : Dev nD) :
    W12 m h c main_v32 = (Call5.dat (Call5.Vin (W11 m h)) (ok5 m h) c).arrAt 2 (Call5.cfgM (Call5.Vin (W11 m h)) (ok5 m h)).N := by
  show Function.update _ _ _ _ = _
  exact Function.update_self _ _ _
/-- Call 5's result, the one entry of its [1,1] array. -/
abbrev res5 (h : InRange m) (c : Dev nD) : F .f32 := W12 m h c main_v32 (ValueIdx.ix2 0 0)
theorem W12_arg0 (h : InRange m) (c : Dev nD) : W12 m h c main_arg0 = m ((c.tc : Thread nD τ).loc main_arg0) := (W12_of m h c main_arg0 (by decide)).trans (W11_arg0 m h c)
theorem W12_arg1 (h : InRange m) (c : Dev nD) : W12 m h c main_arg1 = m ((c.tc : Thread nD τ).loc main_arg1) := (W12_of m h c main_arg1 (by decide)).trans (W11_arg1 m h c)
theorem W12_arg2 (h : InRange m) (c : Dev nD) : W12 m h c main_arg2 = m ((c.tc : Thread nD τ).loc main_arg2) := (W12_of m h c main_arg2 (by decide)).trans (W11_arg2 m h c)
theorem W12_v0 (h : InRange m) (c : Dev nD) : W12 m h c main_v0 = W1 m c main_v0 := (W12_of m h c main_v0 (by decide)).trans (W11_v0 m h c)
theorem W12_v2 (h : InRange m) (c : Dev nD) : W12 m h c main_v2 = W1 m c main_v2 := (W12_of m h c main_v2 (by decide)).trans (W11_v2 m h c)
theorem W12_v4 (h : InRange m) (c : Dev nD) : W12 m h c main_v4 = W1 m c main_v4 := (W12_of m h c main_v4 (by decide)).trans (W11_v4 m h c)

/-! ## Call 6 -/

/-- Entry of call 6: after the host stretch 6. -/
abbrev W13 (h : InRange m) (c : Dev nD) : Valuation τ sig (Elt F) := StableHlo.after hostOps6 (W12 m h c)
/-- The host stretch 6 leaves every buffer it does not write as it was. -/
theorem W13_of (h : InRange m) (c : Dev nD) (r : Ref sig .tc) (hr : r ∉ Regions.hostOps6_W) : W13 m h c r = W12 m h c r :=
  StableHlo.after_of_writes_sub hostOps6 _ Regions.hostOps6_writes hr
theorem W13_arg0 (h : InRange m) (c : Dev nD) : W13 m h c main_arg0 = m ((c.tc : Thread nD τ).loc main_arg0) := (W13_of m h c main_arg0 (by decide)).trans (W12_arg0 m h c)
theorem W13_arg1 (h : InRange m) (c : Dev nD) : W13 m h c main_arg1 = m ((c.tc : Thread nD τ).loc main_arg1) := (W13_of m h c main_arg1 (by decide)).trans (W12_arg1 m h c)
theorem W13_arg2 (h : InRange m) (c : Dev nD) : W13 m h c main_arg2 = m ((c.tc : Thread nD τ).loc main_arg2) := (W13_of m h c main_arg2 (by decide)).trans (W12_arg2 m h c)
theorem W13_v0 (h : InRange m) (c : Dev nD) : W13 m h c main_v0 = W1 m c main_v0 := (W13_of m h c main_v0 (by decide)).trans (W12_v0 m h c)
theorem W13_v2 (h : InRange m) (c : Dev nD) : W13 m h c main_v2 = W1 m c main_v2 := (W13_of m h c main_v2 (by decide)).trans (W12_v2 m h c)
theorem W13_v4 (h : InRange m) (c : Dev nD) : W13 m h c main_v4 = W1 m c main_v4 := (W13_of m h c main_v4 (by decide)).trans (W12_v4 m h c)

/-- The array of rows as call 6 finds it. -/
theorem rows6 (h : InRange m) (c : Dev nD) (r : Fin 100000) (d : Fin 256) :
    W13 m h c main_v0 (ValueIdx.ix3 r 0 d) = m ((c.tc : Thread nD τ).loc main_arg0) (ValueIdx.ix2 r d) := by
  rw [W13_v0]; exact rows0 m c r d

/-- Call 6's first table: the first components of pairs 150000 to 174999 of the first list. -/
theorem tbl6_A (h : InRange m) (c : Dev nD) (t : Fin 25000) :
    Call6.tbl (Call6.Vin (W13 m h)) 0 (ValueIdx.ix1 t) = m ((c.tc : Thread nD τ).loc main_arg1) (ValueIdx.ix2 ⟨25000 * 6 + t.val, by omega⟩ 0) := by
  obtain rfl : c = 0 := Subsingleton.elim _ _
  show W13 m h 0 main_v35 (ValueIdx.ix1 t) = _
  have e : (W13 m h 0 main_v35 : S25000.Idx → Elt F .i32) = extractStridedSlice S25000 ![25000 * 6] (W12 m h 0 main_v2) slices_S200000_S25000_150000 := by
    show StableHlo.after hostOps6 _ _ = _; after_results <;> rfl
  rw [e, chunk_apply (25000 * 6) _ _ t (by omega), W12_v2, W1_colA]

/-- Call 6's second table: the second components of pairs 150000 to 174999 of the first list. -/
theorem tbl6_B (h : InRange m) (c : Dev nD) (t : Fin 25000) :
    Call6.tbl (Call6.Vin (W13 m h)) 1 (ValueIdx.ix1 t) = m ((c.tc : Thread nD τ).loc main_arg1) (ValueIdx.ix2 ⟨25000 * 6 + t.val, by omega⟩ 1) := by
  obtain rfl : c = 0 := Subsingleton.elim _ _
  show W13 m h 0 main_v36 (ValueIdx.ix1 t) = _
  have e : (W13 m h 0 main_v36 : S25000.Idx → Elt F .i32) = extractStridedSlice S25000 ![25000 * 6] (W12 m h 0 main_v4) slices_S200000_S25000_150000 := by
    show StableHlo.after hostOps6 _ _ = _; after_results <;> rfl
  rw [e, chunk_apply (25000 * 6) _ _ t (by omega), W12_v4, W1_colB]

/-- The running sum of the first list's calls up to call 5. -/
abbrev pos6 (h : InRange m) (c : Dev nD) : F .f32 := FloatOps.addf (pos5 m h c) (res5 m h c)
theorem W13_sum (h : InRange m) (c : Dev nD) : W13 m h c main_v34 ValueIdx.ix0 = pos6 m h c := by
  have e : (W13 m h c main_v34 : S_.Idx → F .f32) = addf (W12 m h c main_v29) (shapeCast S_ (W12 m h c main_v32) shapeCasts_S1x1_S_) := by
    show StableHlo.after hostOps6 _ _ = _; after_results <;> rfl
  rw [e]; show FloatOps.addf (W12 m h c main_v29 ValueIdx.ix0) (shapeCast S_ (W12 m h c main_v32) shapeCasts_S1x1_S_ ValueIdx.ix0) = _
  rw [scalar_apply, W12_of m h c main_v29 (by decide), W11_sum]

/-- Call 6's tables name rows of the array. -/
theorem ok6 (h : InRange m) : Call6.Ok (Call6.Vin (W13 m h)) :=
  ok6_of_lt _ (fun t => by rw [tbl6_A m h 0 t]; exact (h 0).1 _) (fun t => by rw [tbl6_B m h 0 t]; exact (h 0).1 _)
/-- Exit of call 6. -/
abbrev W14 (h : InRange m) (c : Dev nD) : Valuation τ sig (Elt F) := Call6.Wout (W13 m h) (ok6 m h) c
/-- Call 6 leaves every buffer but its result as it was. -/
theorem W14_of (h : InRange m) (c : Dev nD) (r : Ref sig .tc) (hr : r ≠ main_v37) : W14 m h c r = W13 m h c r := by
  show Function.update _ _ _ _ = _
  exact Function.update_of_ne (StableHlo.devRef_ne_of_ne hr) _ _
/-- Call 6's result is what its write-backs leave. -/
theorem W14_res (h : InRange m) (c : Dev nD) :
    W14 m h c main_v37 = (Call6.dat (Call6.Vin (W13 m h)) (ok6 m h) c).arrAt 2 (Call6.cfgM (Call6.Vin (W13 m h)) (ok6 m h)).N := by
  show Function.update _ _ _ _ = _
  exact Function.update_self _ _ _
/-- Call 6's result, the one entry of its [1,1] array. -/
abbrev res6 (h : InRange m) (c : Dev nD) : F .f32 := W14 m h c main_v37 (ValueIdx.ix2 0 0)
theorem W14_arg0 (h : InRange m) (c : Dev nD) : W14 m h c main_arg0 = m ((c.tc : Thread nD τ).loc main_arg0) := (W14_of m h c main_arg0 (by decide)).trans (W13_arg0 m h c)
theorem W14_arg1 (h : InRange m) (c : Dev nD) : W14 m h c main_arg1 = m ((c.tc : Thread nD τ).loc main_arg1) := (W14_of m h c main_arg1 (by decide)).trans (W13_arg1 m h c)
theorem W14_arg2 (h : InRange m) (c : Dev nD) : W14 m h c main_arg2 = m ((c.tc : Thread nD τ).loc main_arg2) := (W14_of m h c main_arg2 (by decide)).trans (W13_arg2 m h c)
theorem W14_v0 (h : InRange m) (c : Dev nD) : W14 m h c main_v0 = W1 m c main_v0 := (W14_of m h c main_v0 (by decide)).trans (W13_v0 m h c)
theorem W14_v2 (h : InRange m) (c : Dev nD) : W14 m h c main_v2 = W1 m c main_v2 := (W14_of m h c main_v2 (by decide)).trans (W13_v2 m h c)
theorem W14_v4 (h : InRange m) (c : Dev nD) : W14 m h c main_v4 = W1 m c main_v4 := (W14_of m h c main_v4 (by decide)).trans (W13_v4 m h c)

/-! ## Call 7 -/

/-- Entry of call 7: after the host stretch 7. -/
abbrev W15 (h : InRange m) (c : Dev nD) : Valuation τ sig (Elt F) := StableHlo.after hostOps7 (W14 m h c)
/-- The host stretch 7 leaves every buffer it does not write as it was. -/
theorem W15_of (h : InRange m) (c : Dev nD) (r : Ref sig .tc) (hr : r ∉ Regions.hostOps7_W) : W15 m h c r = W14 m h c r :=
  StableHlo.after_of_writes_sub hostOps7 _ Regions.hostOps7_writes hr
theorem W15_arg0 (h : InRange m) (c : Dev nD) : W15 m h c main_arg0 = m ((c.tc : Thread nD τ).loc main_arg0) := (W15_of m h c main_arg0 (by decide)).trans (W14_arg0 m h c)
theorem W15_arg1 (h : InRange m) (c : Dev nD) : W15 m h c main_arg1 = m ((c.tc : Thread nD τ).loc main_arg1) := (W15_of m h c main_arg1 (by decide)).trans (W14_arg1 m h c)
theorem W15_arg2 (h : InRange m) (c : Dev nD) : W15 m h c main_arg2 = m ((c.tc : Thread nD τ).loc main_arg2) := (W15_of m h c main_arg2 (by decide)).trans (W14_arg2 m h c)
theorem W15_v0 (h : InRange m) (c : Dev nD) : W15 m h c main_v0 = W1 m c main_v0 := (W15_of m h c main_v0 (by decide)).trans (W14_v0 m h c)

/-- The array of rows as call 7 finds it. -/
theorem rows7 (h : InRange m) (c : Dev nD) (r : Fin 100000) (d : Fin 256) :
    W15 m h c main_v0 (ValueIdx.ix3 r 0 d) = m ((c.tc : Thread nD τ).loc main_arg0) (ValueIdx.ix2 r d) := by
  rw [W15_v0]; exact rows0 m c r d

/-- Call 7's first table: the first components of pairs 175000 to 199999 of the first list. -/
theorem tbl7_A (h : InRange m) (c : Dev nD) (t : Fin 25000) :
    Call7.tbl (Call7.Vin (W15 m h)) 0 (ValueIdx.ix1 t) = m ((c.tc : Thread nD τ).loc main_arg1) (ValueIdx.ix2 ⟨25000 * 7 + t.val, by omega⟩ 0) := by
  obtain rfl : c = 0 := Subsingleton.elim _ _
  show W15 m h 0 main_v40 (ValueIdx.ix1 t) = _
  have e : (W15 m h 0 main_v40 : S25000.Idx → Elt F .i32) = extractStridedSlice S25000 ![25000 * 7] (W14 m h 0 main_v2) slices_S200000_S25000_175000 := by
    show StableHlo.after hostOps7 _ _ = _; after_results <;> rfl
  rw [e, chunk_apply (25000 * 7) _ _ t (by omega), W14_v2, W1_colA]

/-- Call 7's second table: the second components of pairs 175000 to 199999 of the first list. -/
theorem tbl7_B (h : InRange m) (c : Dev nD) (t : Fin 25000) :
    Call7.tbl (Call7.Vin (W15 m h)) 1 (ValueIdx.ix1 t) = m ((c.tc : Thread nD τ).loc main_arg1) (ValueIdx.ix2 ⟨25000 * 7 + t.val, by omega⟩ 1) := by
  obtain rfl : c = 0 := Subsingleton.elim _ _
  show W15 m h 0 main_v41 (ValueIdx.ix1 t) = _
  have e : (W15 m h 0 main_v41 : S25000.Idx → Elt F .i32) = extractStridedSlice S25000 ![25000 * 7] (W14 m h 0 main_v4) slices_S200000_S25000_175000 := by
    show StableHlo.after hostOps7 _ _ = _; after_results <;> rfl
  rw [e, chunk_apply (25000 * 7) _ _ t (by omega), W14_v4, W1_colB]

/-- The running sum of the first list's calls up to call 6. -/
abbrev pos7 (h : InRange m) (c : Dev nD) : F .f32 := FloatOps.addf (pos6 m h c) (res6 m h c)
theorem W15_sum (h : InRange m) (c : Dev nD) : W15 m h c main_v39 ValueIdx.ix0 = pos7 m h c := by
  have e : (W15 m h c main_v39 : S_.Idx → F .f32) = addf (W14 m h c main_v34) (shapeCast S_ (W14 m h c main_v37) shapeCasts_S1x1_S_) := by
    show StableHlo.after hostOps7 _ _ = _; after_results <;> rfl
  rw [e]; show FloatOps.addf (W14 m h c main_v34 ValueIdx.ix0) (shapeCast S_ (W14 m h c main_v37) shapeCasts_S1x1_S_ ValueIdx.ix0) = _
  rw [scalar_apply, W14_of m h c main_v34 (by decide), W13_sum]

/-- Call 7's tables name rows of the array. -/
theorem ok7 (h : InRange m) : Call7.Ok (Call7.Vin (W15 m h)) :=
  ok7_of_lt _ (fun t => by rw [tbl7_A m h 0 t]; exact (h 0).1 _) (fun t => by rw [tbl7_B m h 0 t]; exact (h 0).1 _)
/-- Exit of call 7. -/
abbrev W16 (h : InRange m) (c : Dev nD) : Valuation τ sig (Elt F) := Call7.Wout (W15 m h) (ok7 m h) c
/-- Call 7 leaves every buffer but its result as it was. -/
theorem W16_of (h : InRange m) (c : Dev nD) (r : Ref sig .tc) (hr : r ≠ main_v42) : W16 m h c r = W15 m h c r := by
  show Function.update _ _ _ _ = _
  exact Function.update_of_ne (StableHlo.devRef_ne_of_ne hr) _ _
/-- Call 7's result is what its write-backs leave. -/
theorem W16_res (h : InRange m) (c : Dev nD) :
    W16 m h c main_v42 = (Call7.dat (Call7.Vin (W15 m h)) (ok7 m h) c).arrAt 2 (Call7.cfgM (Call7.Vin (W15 m h)) (ok7 m h)).N := by
  show Function.update _ _ _ _ = _
  exact Function.update_self _ _ _
/-- Call 7's result, the one entry of its [1,1] array. -/
abbrev res7 (h : InRange m) (c : Dev nD) : F .f32 := W16 m h c main_v42 (ValueIdx.ix2 0 0)
theorem W16_arg0 (h : InRange m) (c : Dev nD) : W16 m h c main_arg0 = m ((c.tc : Thread nD τ).loc main_arg0) := (W16_of m h c main_arg0 (by decide)).trans (W15_arg0 m h c)
theorem W16_arg1 (h : InRange m) (c : Dev nD) : W16 m h c main_arg1 = m ((c.tc : Thread nD τ).loc main_arg1) := (W16_of m h c main_arg1 (by decide)).trans (W15_arg1 m h c)
theorem W16_arg2 (h : InRange m) (c : Dev nD) : W16 m h c main_arg2 = m ((c.tc : Thread nD τ).loc main_arg2) := (W16_of m h c main_arg2 (by decide)).trans (W15_arg2 m h c)
theorem W16_v0 (h : InRange m) (c : Dev nD) : W16 m h c main_v0 = W1 m c main_v0 := (W16_of m h c main_v0 (by decide)).trans (W15_v0 m h c)

/-! ## Call 8 -/

/-- Entry of call 8: after the host stretch 8. -/
abbrev W17 (h : InRange m) (c : Dev nD) : Valuation τ sig (Elt F) := StableHlo.after hostOps8 (W16 m h c)
/-- The host stretch 8 leaves every buffer it does not write as it was. -/
theorem W17_of (h : InRange m) (c : Dev nD) (r : Ref sig .tc) (hr : r ∉ Regions.hostOps8_W) : W17 m h c r = W16 m h c r :=
  StableHlo.after_of_writes_sub hostOps8 _ Regions.hostOps8_writes hr
theorem W17_arg0 (h : InRange m) (c : Dev nD) : W17 m h c main_arg0 = m ((c.tc : Thread nD τ).loc main_arg0) := (W17_of m h c main_arg0 (by decide)).trans (W16_arg0 m h c)
theorem W17_arg1 (h : InRange m) (c : Dev nD) : W17 m h c main_arg1 = m ((c.tc : Thread nD τ).loc main_arg1) := (W17_of m h c main_arg1 (by decide)).trans (W16_arg1 m h c)
theorem W17_arg2 (h : InRange m) (c : Dev nD) : W17 m h c main_arg2 = m ((c.tc : Thread nD τ).loc main_arg2) := (W17_of m h c main_arg2 (by decide)).trans (W16_arg2 m h c)
theorem W17_v0 (h : InRange m) (c : Dev nD) : W17 m h c main_v0 = W1 m c main_v0 := (W17_of m h c main_v0 (by decide)).trans (W16_v0 m h c)

/-- The array of rows as call 8 finds it. -/
theorem rows8 (h : InRange m) (c : Dev nD) (r : Fin 100000) (d : Fin 256) :
    W17 m h c main_v0 (ValueIdx.ix3 r 0 d) = m ((c.tc : Thread nD τ).loc main_arg0) (ValueIdx.ix2 r d) := by
  rw [W17_v0]; exact rows0 m c r d

/-- The second list's first components, as a list of 200000. -/
theorem W17_colA (h : InRange m) (c : Dev nD) (i : Fin 200000) :
    W17 m h c main_v46 (ValueIdx.ix1 i) = m ((c.tc : Thread nD τ).loc main_arg2) (ValueIdx.ix2 i 0) := by
  have e : (W17 m h c main_v46 : S200000.Idx → Elt F .i32) = shapeCast S200000 (extractStridedSlice S200000x1 ![0, 0] (W16 m h c main_arg2) slices_S200000x2_S200000x1_0_0) shapeCasts_S200000x1_S200000 := by
    show StableHlo.after hostOps8 _ _ = _; after_results <;> rfl
  rw [e, W16_arg2]; exact col0_apply _ _ _ i

/-- The second list's second components, as a list of 200000. -/
theorem W17_colB (h : InRange m) (c : Dev nD) (i : Fin 200000) :
    W17 m h c main_v48 (ValueIdx.ix1 i) = m ((c.tc : Thread nD τ).loc main_arg2) (ValueIdx.ix2 i 1) := by
  have e : (W17 m h c main_v48 : S200000.Idx → Elt F .i32) = shapeCast S200000 (extractStridedSlice S200000x1 ![0, 1] (W16 m h c main_arg2) slices_S200000x2_S200000x1_0_1) shapeCasts_S200000x1_S200000 := by
    show StableHlo.after hostOps8 _ _ = _; after_results <;> rfl
  rw [e, W16_arg2]; exact col1_apply _ _ _ i

/-- Call 8's first table: the first components of pairs 0 to 24999 of the second list. -/
theorem tbl8_A (h : InRange m) (c : Dev nD) (t : Fin 25000) :
    Call8.tbl (Call8.Vin (W17 m h)) 0 (ValueIdx.ix1 t) = m ((c.tc : Thread nD τ).loc main_arg2) (ValueIdx.ix2 ⟨25000 * 0 + t.val, by omega⟩ 0) := by
  obtain rfl : c = 0 := Subsingleton.elim _ _
  show W17 m h 0 main_v49 (ValueIdx.ix1 t) = _
  have e : (W17 m h 0 main_v49 : S25000.Idx → Elt F .i32) = extractStridedSlice S25000 ![25000 * 0] (shapeCast S200000 (extractStridedSlice S200000x1 ![0, 0] (W16 m h 0 main_arg2) slices_S200000x2_S200000x1_0_0) shapeCasts_S200000x1_S200000) slices_S200000_S25000_0 := by
    show StableHlo.after hostOps8 _ _ = _; after_results <;> rfl
  rw [e, chunk_apply (25000 * 0) _ _ t (by omega), W16_arg2, col0_apply]

/-- Call 8's second table: the second components of pairs 0 to 24999 of the second list. -/
theorem tbl8_B (h : InRange m) (c : Dev nD) (t : Fin 25000) :
    Call8.tbl (Call8.Vin (W17 m h)) 1 (ValueIdx.ix1 t) = m ((c.tc : Thread nD τ).loc main_arg2) (ValueIdx.ix2 ⟨25000 * 0 + t.val, by omega⟩ 1) := by
  obtain rfl : c = 0 := Subsingleton.elim _ _
  show W17 m h 0 main_v50 (ValueIdx.ix1 t) = _
  have e : (W17 m h 0 main_v50 : S25000.Idx → Elt F .i32) = extractStridedSlice S25000 ![25000 * 0] (shapeCast S200000 (extractStridedSlice S200000x1 ![0, 1] (W16 m h 0 main_arg2) slices_S200000x2_S200000x1_0_1) shapeCasts_S200000x1_S200000) slices_S200000_S25000_0 := by
    show StableHlo.after hostOps8 _ _ = _; after_results <;> rfl
  rw [e, chunk_apply (25000 * 0) _ _ t (by omega), W16_arg2, col1_apply]

/-- The running sum of the first list's calls up to call 7. -/
abbrev pos8 (h : InRange m) (c : Dev nD) : F .f32 := FloatOps.addf (pos7 m h c) (res7 m h c)
theorem W17_sum (h : InRange m) (c : Dev nD) : W17 m h c main_v44 ValueIdx.ix0 = pos8 m h c := by
  have e : (W17 m h c main_v44 : S_.Idx → F .f32) = addf (W16 m h c main_v39) (shapeCast S_ (W16 m h c main_v42) shapeCasts_S1x1_S_) := by
    show StableHlo.after hostOps8 _ _ = _; after_results <;> rfl
  rw [e]; show FloatOps.addf (W16 m h c main_v39 ValueIdx.ix0) (shapeCast S_ (W16 m h c main_v42) shapeCasts_S1x1_S_ ValueIdx.ix0) = _
  rw [scalar_apply, W16_of m h c main_v39 (by decide), W15_sum]

/-- Call 8's tables name rows of the array. -/
theorem ok8 (h : InRange m) : Call8.Ok (Call8.Vin (W17 m h)) :=
  ok8_of_lt _ (fun t => by rw [tbl8_A m h 0 t]; exact (h 0).2 _) (fun t => by rw [tbl8_B m h 0 t]; exact (h 0).2 _)
/-- Exit of call 8. -/
abbrev W18 (h : InRange m) (c : Dev nD) : Valuation τ sig (Elt F) := Call8.Wout (W17 m h) (ok8 m h) c
/-- Call 8 leaves every buffer but its result as it was. -/
theorem W18_of (h : InRange m) (c : Dev nD) (r : Ref sig .tc) (hr : r ≠ main_v51) : W18 m h c r = W17 m h c r := by
  show Function.update _ _ _ _ = _
  exact Function.update_of_ne (StableHlo.devRef_ne_of_ne hr) _ _
/-- Call 8's result is what its write-backs leave. -/
theorem W18_res (h : InRange m) (c : Dev nD) :
    W18 m h c main_v51 = (Call8.dat (Call8.Vin (W17 m h)) (ok8 m h) c).arrAt 2 (Call8.cfgM (Call8.Vin (W17 m h)) (ok8 m h)).N := by
  show Function.update _ _ _ _ = _
  exact Function.update_self _ _ _
/-- Call 8's result, the one entry of its [1,1] array. -/
abbrev res8 (h : InRange m) (c : Dev nD) : F .f32 := W18 m h c main_v51 (ValueIdx.ix2 0 0)
theorem W18_arg0 (h : InRange m) (c : Dev nD) : W18 m h c main_arg0 = m ((c.tc : Thread nD τ).loc main_arg0) := (W18_of m h c main_arg0 (by decide)).trans (W17_arg0 m h c)
theorem W18_arg1 (h : InRange m) (c : Dev nD) : W18 m h c main_arg1 = m ((c.tc : Thread nD τ).loc main_arg1) := (W18_of m h c main_arg1 (by decide)).trans (W17_arg1 m h c)
theorem W18_arg2 (h : InRange m) (c : Dev nD) : W18 m h c main_arg2 = m ((c.tc : Thread nD τ).loc main_arg2) := (W18_of m h c main_arg2 (by decide)).trans (W17_arg2 m h c)
theorem W18_v0 (h : InRange m) (c : Dev nD) : W18 m h c main_v0 = W1 m c main_v0 := (W18_of m h c main_v0 (by decide)).trans (W17_v0 m h c)
theorem W18_v46 (h : InRange m) (c : Dev nD) : W18 m h c main_v46 = W17 m h c main_v46 := W18_of m h c main_v46 (by decide)
theorem W18_v48 (h : InRange m) (c : Dev nD) : W18 m h c main_v48 = W17 m h c main_v48 := W18_of m h c main_v48 (by decide)
theorem W18_v44 (h : InRange m) (c : Dev nD) : W18 m h c main_v44 = W17 m h c main_v44 := W18_of m h c main_v44 (by decide)

/-! ## Call 9 -/

/-- Entry of call 9: after the host stretch 9. -/
abbrev W19 (h : InRange m) (c : Dev nD) : Valuation τ sig (Elt F) := StableHlo.after hostOps9 (W18 m h c)
/-- The host stretch 9 leaves every buffer it does not write as it was. -/
theorem W19_of (h : InRange m) (c : Dev nD) (r : Ref sig .tc) (hr : r ∉ Regions.hostOps9_W) : W19 m h c r = W18 m h c r :=
  StableHlo.after_of_writes_sub hostOps9 _ Regions.hostOps9_writes hr
theorem W19_arg0 (h : InRange m) (c : Dev nD) : W19 m h c main_arg0 = m ((c.tc : Thread nD τ).loc main_arg0) := (W19_of m h c main_arg0 (by decide)).trans (W18_arg0 m h c)
theorem W19_arg1 (h : InRange m) (c : Dev nD) : W19 m h c main_arg1 = m ((c.tc : Thread nD τ).loc main_arg1) := (W19_of m h c main_arg1 (by decide)).trans (W18_arg1 m h c)
theorem W19_arg2 (h : InRange m) (c : Dev nD) : W19 m h c main_arg2 = m ((c.tc : Thread nD τ).loc main_arg2) := (W19_of m h c main_arg2 (by decide)).trans (W18_arg2 m h c)
theorem W19_v0 (h : InRange m) (c : Dev nD) : W19 m h c main_v0 = W1 m c main_v0 := (W19_of m h c main_v0 (by decide)).trans (W18_v0 m h c)
theorem W19_v46 (h : InRange m) (c : Dev nD) : W19 m h c main_v46 = W17 m h c main_v46 := (W19_of m h c main_v46 (by decide)).trans (W18_v46 m h c)
theorem W19_v48 (h : InRange m) (c : Dev nD) : W19 m h c main_v48 = W17 m h c main_v48 := (W19_of m h c main_v48 (by decide)).trans (W18_v48 m h c)
theorem W19_v44 (h : InRange m) (c : Dev nD) : W19 m h c main_v44 = W17 m h c main_v44 := (W19_of m h c main_v44 (by decide)).trans (W18_v44 m h c)

/-- The array of rows as call 9 finds it. -/
theorem rows9 (h : InRange m) (c : Dev nD) (r : Fin 100000) (d : Fin 256) :
    W19 m h c main_v0 (ValueIdx.ix3 r 0 d) = m ((c.tc : Thread nD τ).loc main_arg0) (ValueIdx.ix2 r d) := by
  rw [W19_v0]; exact rows0 m c r d

/-- Call 9's first table: the first components of pairs 25000 to 49999 of the second list. -/
theorem tbl9_A (h : InRange m) (c : Dev nD) (t : Fin 25000) :
    Call9.tbl (Call9.Vin (W19 m h)) 0 (ValueIdx.ix1 t) = m ((c.tc : Thread nD τ).loc main_arg2) (ValueIdx.ix2 ⟨25000 * 1 + t.val, by omega⟩ 0) := by
  obtain rfl : c = 0 := Subsingleton.elim _ _
  show W19 m h 0 main_v54 (ValueIdx.ix1 t) = _
  have e : (W19 m h 0 main_v54 : S25000.Idx → Elt F .i32) = extractStridedSlice S25000 ![25000 * 1] (W18 m h 0 main_v46) slices_S200000_S25000_25000 := by
    show StableHlo.after hostOps9 _ _ = _; after_results <;> rfl
  rw [e, chunk_apply (25000 * 1) _ _ t (by omega), W18_v46, W17_colA]

/-- Call 9's second table: the second components of pairs 25000 to 49999 of the second list. -/
theorem tbl9_B (h : InRange m) (c : Dev nD) (t : Fin 25000) :
    Call9.tbl (Call9.Vin (W19 m h)) 1 (ValueIdx.ix1 t) = m ((c.tc : Thread nD τ).loc main_arg2) (ValueIdx.ix2 ⟨25000 * 1 + t.val, by omega⟩ 1) := by
  obtain rfl : c = 0 := Subsingleton.elim _ _
  show W19 m h 0 main_v55 (ValueIdx.ix1 t) = _
  have e : (W19 m h 0 main_v55 : S25000.Idx → Elt F .i32) = extractStridedSlice S25000 ![25000 * 1] (W18 m h 0 main_v48) slices_S200000_S25000_25000 := by
    show StableHlo.after hostOps9 _ _ = _; after_results <;> rfl
  rw [e, chunk_apply (25000 * 1) _ _ t (by omega), W18_v48, W17_colB]

/-- The running sum of the second list's calls up to call 8. -/
abbrev neg1 (h : InRange m) (c : Dev nD) : F .f32 := FloatOps.addf (FloatOps.ofBits .f32 0x00000000#32) (res8 m h c)
theorem W19_sum (h : InRange m) (c : Dev nD) : W19 m h c main_v53 ValueIdx.ix0 = neg1 m h c := by
  have e : (W19 m h c main_v53 : S_.Idx → F .f32) = addf (constant S_ .f32 0x00000000#32) (shapeCast S_ (W18 m h c main_v51) shapeCasts_S1x1_S_) := by
    show StableHlo.after hostOps9 _ _ = _; after_results <;> rfl
  rw [e]; show FloatOps.addf _ (shapeCast S_ (W18 m h c main_v51) shapeCasts_S1x1_S_ ValueIdx.ix0) = _
  rw [scalar_apply]; rfl

/-- Call 9's tables name rows of the array. -/
theorem ok9 (h : InRange m) : Call9.Ok (Call9.Vin (W19 m h)) :=
  ok9_of_lt _ (fun t => by rw [tbl9_A m h 0 t]; exact (h 0).2 _) (fun t => by rw [tbl9_B m h 0 t]; exact (h 0).2 _)
/-- Exit of call 9. -/
abbrev W20 (h : InRange m) (c : Dev nD) : Valuation τ sig (Elt F) := Call9.Wout (W19 m h) (ok9 m h) c
/-- Call 9 leaves every buffer but its result as it was. -/
theorem W20_of (h : InRange m) (c : Dev nD) (r : Ref sig .tc) (hr : r ≠ main_v56) : W20 m h c r = W19 m h c r := by
  show Function.update _ _ _ _ = _
  exact Function.update_of_ne (StableHlo.devRef_ne_of_ne hr) _ _
/-- Call 9's result is what its write-backs leave. -/
theorem W20_res (h : InRange m) (c : Dev nD) :
    W20 m h c main_v56 = (Call9.dat (Call9.Vin (W19 m h)) (ok9 m h) c).arrAt 2 (Call9.cfgM (Call9.Vin (W19 m h)) (ok9 m h)).N := by
  show Function.update _ _ _ _ = _
  exact Function.update_self _ _ _
/-- Call 9's result, the one entry of its [1,1] array. -/
abbrev res9 (h : InRange m) (c : Dev nD) : F .f32 := W20 m h c main_v56 (ValueIdx.ix2 0 0)
theorem W20_arg0 (h : InRange m) (c : Dev nD) : W20 m h c main_arg0 = m ((c.tc : Thread nD τ).loc main_arg0) := (W20_of m h c main_arg0 (by decide)).trans (W19_arg0 m h c)
theorem W20_arg1 (h : InRange m) (c : Dev nD) : W20 m h c main_arg1 = m ((c.tc : Thread nD τ).loc main_arg1) := (W20_of m h c main_arg1 (by decide)).trans (W19_arg1 m h c)
theorem W20_arg2 (h : InRange m) (c : Dev nD) : W20 m h c main_arg2 = m ((c.tc : Thread nD τ).loc main_arg2) := (W20_of m h c main_arg2 (by decide)).trans (W19_arg2 m h c)
theorem W20_v0 (h : InRange m) (c : Dev nD) : W20 m h c main_v0 = W1 m c main_v0 := (W20_of m h c main_v0 (by decide)).trans (W19_v0 m h c)
theorem W20_v46 (h : InRange m) (c : Dev nD) : W20 m h c main_v46 = W17 m h c main_v46 := (W20_of m h c main_v46 (by decide)).trans (W19_v46 m h c)
theorem W20_v48 (h : InRange m) (c : Dev nD) : W20 m h c main_v48 = W17 m h c main_v48 := (W20_of m h c main_v48 (by decide)).trans (W19_v48 m h c)
theorem W20_v44 (h : InRange m) (c : Dev nD) : W20 m h c main_v44 = W17 m h c main_v44 := (W20_of m h c main_v44 (by decide)).trans (W19_v44 m h c)

/-! ## Call 10 -/

/-- Entry of call 10: after the host stretch 10. -/
abbrev W21 (h : InRange m) (c : Dev nD) : Valuation τ sig (Elt F) := StableHlo.after hostOps10 (W20 m h c)
/-- The host stretch 10 leaves every buffer it does not write as it was. -/
theorem W21_of (h : InRange m) (c : Dev nD) (r : Ref sig .tc) (hr : r ∉ Regions.hostOps10_W) : W21 m h c r = W20 m h c r :=
  StableHlo.after_of_writes_sub hostOps10 _ Regions.hostOps10_writes hr
theorem W21_arg0 (h : InRange m) (c : Dev nD) : W21 m h c main_arg0 = m ((c.tc : Thread nD τ).loc main_arg0) := (W21_of m h c main_arg0 (by decide)).trans (W20_arg0 m h c)
theorem W21_arg1 (h : InRange m) (c : Dev nD) : W21 m h c main_arg1 = m ((c.tc : Thread nD τ).loc main_arg1) := (W21_of m h c main_arg1 (by decide)).trans (W20_arg1 m h c)
theorem W21_arg2 (h : InRange m) (c : Dev nD) : W21 m h c main_arg2 = m ((c.tc : Thread nD τ).loc main_arg2) := (W21_of m h c main_arg2 (by decide)).trans (W20_arg2 m h c)
theorem W21_v0 (h : InRange m) (c : Dev nD) : W21 m h c main_v0 = W1 m c main_v0 := (W21_of m h c main_v0 (by decide)).trans (W20_v0 m h c)
theorem W21_v46 (h : InRange m) (c : Dev nD) : W21 m h c main_v46 = W17 m h c main_v46 := (W21_of m h c main_v46 (by decide)).trans (W20_v46 m h c)
theorem W21_v48 (h : InRange m) (c : Dev nD) : W21 m h c main_v48 = W17 m h c main_v48 := (W21_of m h c main_v48 (by decide)).trans (W20_v48 m h c)
theorem W21_v44 (h : InRange m) (c : Dev nD) : W21 m h c main_v44 = W17 m h c main_v44 := (W21_of m h c main_v44 (by decide)).trans (W20_v44 m h c)

/-- The array of rows as call 10 finds it. -/
theorem rows10 (h : InRange m) (c : Dev nD) (r : Fin 100000) (d : Fin 256) :
    W21 m h c main_v0 (ValueIdx.ix3 r 0 d) = m ((c.tc : Thread nD τ).loc main_arg0) (ValueIdx.ix2 r d) := by
  rw [W21_v0]; exact rows0 m c r d

/-- Call 10's first table: the first components of pairs 50000 to 74999 of the second list. -/
theorem tbl10_A (h : InRange m) (c : Dev nD) (t : Fin 25000) :
    Call10.tbl (Call10.Vin (W21 m h)) 0 (ValueIdx.ix1 t) = m ((c.tc : Thread nD τ).loc main_arg2) (ValueIdx.ix2 ⟨25000 * 2 + t.val, by omega⟩ 0) := by
  obtain rfl : c = 0 := Subsingleton.elim _ _
  show W21 m h 0 main_v59 (ValueIdx.ix1 t) = _
  have e : (W21 m h 0 main_v59 : S25000.Idx → Elt F .i32) = extractStridedSlice S25000 ![25000 * 2] (W20 m h 0 main_v46) slices_S200000_S25000_50000 := by
    show StableHlo.after hostOps10 _ _ = _; after_results <;> rfl
  rw [e, chunk_apply (25000 * 2) _ _ t (by omega), W20_v46, W17_colA]

/-- Call 10's second table: the second components of pairs 50000 to 74999 of the second list. -/
theorem tbl10_B (h : InRange m) (c : Dev nD) (t : Fin 25000) :
    Call10.tbl (Call10.Vin (W21 m h)) 1 (ValueIdx.ix1 t) = m ((c.tc : Thread nD τ).loc main_arg2) (ValueIdx.ix2 ⟨25000 * 2 + t.val, by omega⟩ 1) := by
  obtain rfl : c = 0 := Subsingleton.elim _ _
  show W21 m h 0 main_v60 (ValueIdx.ix1 t) = _
  have e : (W21 m h 0 main_v60 : S25000.Idx → Elt F .i32) = extractStridedSlice S25000 ![25000 * 2] (W20 m h 0 main_v48) slices_S200000_S25000_50000 := by
    show StableHlo.after hostOps10 _ _ = _; after_results <;> rfl
  rw [e, chunk_apply (25000 * 2) _ _ t (by omega), W20_v48, W17_colB]

/-- The running sum of the second list's calls up to call 9. -/
abbrev neg2 (h : InRange m) (c : Dev nD) : F .f32 := FloatOps.addf (neg1 m h c) (res9 m h c)
theorem W21_sum (h : InRange m) (c : Dev nD) : W21 m h c main_v58 ValueIdx.ix0 = neg2 m h c := by
  have e : (W21 m h c main_v58 : S_.Idx → F .f32) = addf (W20 m h c main_v53) (shapeCast S_ (W20 m h c main_v56) shapeCasts_S1x1_S_) := by
    show StableHlo.after hostOps10 _ _ = _; after_results <;> rfl
  rw [e]; show FloatOps.addf (W20 m h c main_v53 ValueIdx.ix0) (shapeCast S_ (W20 m h c main_v56) shapeCasts_S1x1_S_ ValueIdx.ix0) = _
  rw [scalar_apply, W20_of m h c main_v53 (by decide), W19_sum]

/-- Call 10's tables name rows of the array. -/
theorem ok10 (h : InRange m) : Call10.Ok (Call10.Vin (W21 m h)) :=
  ok10_of_lt _ (fun t => by rw [tbl10_A m h 0 t]; exact (h 0).2 _) (fun t => by rw [tbl10_B m h 0 t]; exact (h 0).2 _)
/-- Exit of call 10. -/
abbrev W22 (h : InRange m) (c : Dev nD) : Valuation τ sig (Elt F) := Call10.Wout (W21 m h) (ok10 m h) c
/-- Call 10 leaves every buffer but its result as it was. -/
theorem W22_of (h : InRange m) (c : Dev nD) (r : Ref sig .tc) (hr : r ≠ main_v61) : W22 m h c r = W21 m h c r := by
  show Function.update _ _ _ _ = _
  exact Function.update_of_ne (StableHlo.devRef_ne_of_ne hr) _ _
/-- Call 10's result is what its write-backs leave. -/
theorem W22_res (h : InRange m) (c : Dev nD) :
    W22 m h c main_v61 = (Call10.dat (Call10.Vin (W21 m h)) (ok10 m h) c).arrAt 2 (Call10.cfgM (Call10.Vin (W21 m h)) (ok10 m h)).N := by
  show Function.update _ _ _ _ = _
  exact Function.update_self _ _ _
/-- Call 10's result, the one entry of its [1,1] array. -/
abbrev res10 (h : InRange m) (c : Dev nD) : F .f32 := W22 m h c main_v61 (ValueIdx.ix2 0 0)
theorem W22_arg0 (h : InRange m) (c : Dev nD) : W22 m h c main_arg0 = m ((c.tc : Thread nD τ).loc main_arg0) := (W22_of m h c main_arg0 (by decide)).trans (W21_arg0 m h c)
theorem W22_arg1 (h : InRange m) (c : Dev nD) : W22 m h c main_arg1 = m ((c.tc : Thread nD τ).loc main_arg1) := (W22_of m h c main_arg1 (by decide)).trans (W21_arg1 m h c)
theorem W22_arg2 (h : InRange m) (c : Dev nD) : W22 m h c main_arg2 = m ((c.tc : Thread nD τ).loc main_arg2) := (W22_of m h c main_arg2 (by decide)).trans (W21_arg2 m h c)
theorem W22_v0 (h : InRange m) (c : Dev nD) : W22 m h c main_v0 = W1 m c main_v0 := (W22_of m h c main_v0 (by decide)).trans (W21_v0 m h c)
theorem W22_v46 (h : InRange m) (c : Dev nD) : W22 m h c main_v46 = W17 m h c main_v46 := (W22_of m h c main_v46 (by decide)).trans (W21_v46 m h c)
theorem W22_v48 (h : InRange m) (c : Dev nD) : W22 m h c main_v48 = W17 m h c main_v48 := (W22_of m h c main_v48 (by decide)).trans (W21_v48 m h c)
theorem W22_v44 (h : InRange m) (c : Dev nD) : W22 m h c main_v44 = W17 m h c main_v44 := (W22_of m h c main_v44 (by decide)).trans (W21_v44 m h c)

/-! ## Call 11 -/

/-- Entry of call 11: after the host stretch 11. -/
abbrev W23 (h : InRange m) (c : Dev nD) : Valuation τ sig (Elt F) := StableHlo.after hostOps11 (W22 m h c)
/-- The host stretch 11 leaves every buffer it does not write as it was. -/
theorem W23_of (h : InRange m) (c : Dev nD) (r : Ref sig .tc) (hr : r ∉ Regions.hostOps11_W) : W23 m h c r = W22 m h c r :=
  StableHlo.after_of_writes_sub hostOps11 _ Regions.hostOps11_writes hr
theorem W23_arg0 (h : InRange m) (c : Dev nD) : W23 m h c main_arg0 = m ((c.tc : Thread nD τ).loc main_arg0) := (W23_of m h c main_arg0 (by decide)).trans (W22_arg0 m h c)
theorem W23_arg1 (h : InRange m) (c : Dev nD) : W23 m h c main_arg1 = m ((c.tc : Thread nD τ).loc main_arg1) := (W23_of m h c main_arg1 (by decide)).trans (W22_arg1 m h c)
theorem W23_arg2 (h : InRange m) (c : Dev nD) : W23 m h c main_arg2 = m ((c.tc : Thread nD τ).loc main_arg2) := (W23_of m h c main_arg2 (by decide)).trans (W22_arg2 m h c)
theorem W23_v0 (h : InRange m) (c : Dev nD) : W23 m h c main_v0 = W1 m c main_v0 := (W23_of m h c main_v0 (by decide)).trans (W22_v0 m h c)
theorem W23_v46 (h : InRange m) (c : Dev nD) : W23 m h c main_v46 = W17 m h c main_v46 := (W23_of m h c main_v46 (by decide)).trans (W22_v46 m h c)
theorem W23_v48 (h : InRange m) (c : Dev nD) : W23 m h c main_v48 = W17 m h c main_v48 := (W23_of m h c main_v48 (by decide)).trans (W22_v48 m h c)
theorem W23_v44 (h : InRange m) (c : Dev nD) : W23 m h c main_v44 = W17 m h c main_v44 := (W23_of m h c main_v44 (by decide)).trans (W22_v44 m h c)

/-- The array of rows as call 11 finds it. -/
theorem rows11 (h : InRange m) (c : Dev nD) (r : Fin 100000) (d : Fin 256) :
    W23 m h c main_v0 (ValueIdx.ix3 r 0 d) = m ((c.tc : Thread nD τ).loc main_arg0) (ValueIdx.ix2 r d) := by
  rw [W23_v0]; exact rows0 m c r d

/-- Call 11's first table: the first components of pairs 75000 to 99999 of the second list. -/
theorem tbl11_A (h : InRange m) (c : Dev nD) (t : Fin 25000) :
    Call11.tbl (Call11.Vin (W23 m h)) 0 (ValueIdx.ix1 t) = m ((c.tc : Thread nD τ).loc main_arg2) (ValueIdx.ix2 ⟨25000 * 3 + t.val, by omega⟩ 0) := by
  obtain rfl : c = 0 := Subsingleton.elim _ _
  show W23 m h 0 main_v64 (ValueIdx.ix1 t) = _
  have e : (W23 m h 0 main_v64 : S25000.Idx → Elt F .i32) = extractStridedSlice S25000 ![25000 * 3] (W22 m h 0 main_v46) slices_S200000_S25000_75000 := by
    show StableHlo.after hostOps11 _ _ = _; after_results <;> rfl
  rw [e, chunk_apply (25000 * 3) _ _ t (by omega), W22_v46, W17_colA]

/-- Call 11's second table: the second components of pairs 75000 to 99999 of the second list. -/
theorem tbl11_B (h : InRange m) (c : Dev nD) (t : Fin 25000) :
    Call11.tbl (Call11.Vin (W23 m h)) 1 (ValueIdx.ix1 t) = m ((c.tc : Thread nD τ).loc main_arg2) (ValueIdx.ix2 ⟨25000 * 3 + t.val, by omega⟩ 1) := by
  obtain rfl : c = 0 := Subsingleton.elim _ _
  show W23 m h 0 main_v65 (ValueIdx.ix1 t) = _
  have e : (W23 m h 0 main_v65 : S25000.Idx → Elt F .i32) = extractStridedSlice S25000 ![25000 * 3] (W22 m h 0 main_v48) slices_S200000_S25000_75000 := by
    show StableHlo.after hostOps11 _ _ = _; after_results <;> rfl
  rw [e, chunk_apply (25000 * 3) _ _ t (by omega), W22_v48, W17_colB]

/-- The running sum of the second list's calls up to call 10. -/
abbrev neg3 (h : InRange m) (c : Dev nD) : F .f32 := FloatOps.addf (neg2 m h c) (res10 m h c)
theorem W23_sum (h : InRange m) (c : Dev nD) : W23 m h c main_v63 ValueIdx.ix0 = neg3 m h c := by
  have e : (W23 m h c main_v63 : S_.Idx → F .f32) = addf (W22 m h c main_v58) (shapeCast S_ (W22 m h c main_v61) shapeCasts_S1x1_S_) := by
    show StableHlo.after hostOps11 _ _ = _; after_results <;> rfl
  rw [e]; show FloatOps.addf (W22 m h c main_v58 ValueIdx.ix0) (shapeCast S_ (W22 m h c main_v61) shapeCasts_S1x1_S_ ValueIdx.ix0) = _
  rw [scalar_apply, W22_of m h c main_v58 (by decide), W21_sum]

/-- Call 11's tables name rows of the array. -/
theorem ok11 (h : InRange m) : Call11.Ok (Call11.Vin (W23 m h)) :=
  ok11_of_lt _ (fun t => by rw [tbl11_A m h 0 t]; exact (h 0).2 _) (fun t => by rw [tbl11_B m h 0 t]; exact (h 0).2 _)
/-- Exit of call 11. -/
abbrev W24 (h : InRange m) (c : Dev nD) : Valuation τ sig (Elt F) := Call11.Wout (W23 m h) (ok11 m h) c
/-- Call 11 leaves every buffer but its result as it was. -/
theorem W24_of (h : InRange m) (c : Dev nD) (r : Ref sig .tc) (hr : r ≠ main_v66) : W24 m h c r = W23 m h c r := by
  show Function.update _ _ _ _ = _
  exact Function.update_of_ne (StableHlo.devRef_ne_of_ne hr) _ _
/-- Call 11's result is what its write-backs leave. -/
theorem W24_res (h : InRange m) (c : Dev nD) :
    W24 m h c main_v66 = (Call11.dat (Call11.Vin (W23 m h)) (ok11 m h) c).arrAt 2 (Call11.cfgM (Call11.Vin (W23 m h)) (ok11 m h)).N := by
  show Function.update _ _ _ _ = _
  exact Function.update_self _ _ _
/-- Call 11's result, the one entry of its [1,1] array. -/
abbrev res11 (h : InRange m) (c : Dev nD) : F .f32 := W24 m h c main_v66 (ValueIdx.ix2 0 0)
theorem W24_arg0 (h : InRange m) (c : Dev nD) : W24 m h c main_arg0 = m ((c.tc : Thread nD τ).loc main_arg0) := (W24_of m h c main_arg0 (by decide)).trans (W23_arg0 m h c)
theorem W24_arg1 (h : InRange m) (c : Dev nD) : W24 m h c main_arg1 = m ((c.tc : Thread nD τ).loc main_arg1) := (W24_of m h c main_arg1 (by decide)).trans (W23_arg1 m h c)
theorem W24_arg2 (h : InRange m) (c : Dev nD) : W24 m h c main_arg2 = m ((c.tc : Thread nD τ).loc main_arg2) := (W24_of m h c main_arg2 (by decide)).trans (W23_arg2 m h c)
theorem W24_v0 (h : InRange m) (c : Dev nD) : W24 m h c main_v0 = W1 m c main_v0 := (W24_of m h c main_v0 (by decide)).trans (W23_v0 m h c)
theorem W24_v46 (h : InRange m) (c : Dev nD) : W24 m h c main_v46 = W17 m h c main_v46 := (W24_of m h c main_v46 (by decide)).trans (W23_v46 m h c)
theorem W24_v48 (h : InRange m) (c : Dev nD) : W24 m h c main_v48 = W17 m h c main_v48 := (W24_of m h c main_v48 (by decide)).trans (W23_v48 m h c)
theorem W24_v44 (h : InRange m) (c : Dev nD) : W24 m h c main_v44 = W17 m h c main_v44 := (W24_of m h c main_v44 (by decide)).trans (W23_v44 m h c)

/-! ## Call 12 -/

/-- Entry of call 12: after the host stretch 12. -/
abbrev W25 (h : InRange m) (c : Dev nD) : Valuation τ sig (Elt F) := StableHlo.after hostOps12 (W24 m h c)
/-- The host stretch 12 leaves every buffer it does not write as it was. -/
theorem W25_of (h : InRange m) (c : Dev nD) (r : Ref sig .tc) (hr : r ∉ Regions.hostOps12_W) : W25 m h c r = W24 m h c r :=
  StableHlo.after_of_writes_sub hostOps12 _ Regions.hostOps12_writes hr
theorem W25_arg0 (h : InRange m) (c : Dev nD) : W25 m h c main_arg0 = m ((c.tc : Thread nD τ).loc main_arg0) := (W25_of m h c main_arg0 (by decide)).trans (W24_arg0 m h c)
theorem W25_arg1 (h : InRange m) (c : Dev nD) : W25 m h c main_arg1 = m ((c.tc : Thread nD τ).loc main_arg1) := (W25_of m h c main_arg1 (by decide)).trans (W24_arg1 m h c)
theorem W25_arg2 (h : InRange m) (c : Dev nD) : W25 m h c main_arg2 = m ((c.tc : Thread nD τ).loc main_arg2) := (W25_of m h c main_arg2 (by decide)).trans (W24_arg2 m h c)
theorem W25_v0 (h : InRange m) (c : Dev nD) : W25 m h c main_v0 = W1 m c main_v0 := (W25_of m h c main_v0 (by decide)).trans (W24_v0 m h c)
theorem W25_v46 (h : InRange m) (c : Dev nD) : W25 m h c main_v46 = W17 m h c main_v46 := (W25_of m h c main_v46 (by decide)).trans (W24_v46 m h c)
theorem W25_v48 (h : InRange m) (c : Dev nD) : W25 m h c main_v48 = W17 m h c main_v48 := (W25_of m h c main_v48 (by decide)).trans (W24_v48 m h c)
theorem W25_v44 (h : InRange m) (c : Dev nD) : W25 m h c main_v44 = W17 m h c main_v44 := (W25_of m h c main_v44 (by decide)).trans (W24_v44 m h c)

/-- The array of rows as call 12 finds it. -/
theorem rows12 (h : InRange m) (c : Dev nD) (r : Fin 100000) (d : Fin 256) :
    W25 m h c main_v0 (ValueIdx.ix3 r 0 d) = m ((c.tc : Thread nD τ).loc main_arg0) (ValueIdx.ix2 r d) := by
  rw [W25_v0]; exact rows0 m c r d

/-- Call 12's first table: the first components of pairs 100000 to 124999 of the second list. -/
theorem tbl12_A (h : InRange m) (c : Dev nD) (t : Fin 25000) :
    Call12.tbl (Call12.Vin (W25 m h)) 0 (ValueIdx.ix1 t) = m ((c.tc : Thread nD τ).loc main_arg2) (ValueIdx.ix2 ⟨25000 * 4 + t.val, by omega⟩ 0) := by
  obtain rfl : c = 0 := Subsingleton.elim _ _
  show W25 m h 0 main_v69 (ValueIdx.ix1 t) = _
  have e : (W25 m h 0 main_v69 : S25000.Idx → Elt F .i32) = extractStridedSlice S25000 ![25000 * 4] (W24 m h 0 main_v46) slices_S200000_S25000_100000 := by
    show StableHlo.after hostOps12 _ _ = _; after_results <;> rfl
  rw [e, chunk_apply (25000 * 4) _ _ t (by omega), W24_v46, W17_colA]

/-- Call 12's second table: the second components of pairs 100000 to 124999 of the second list. -/
theorem tbl12_B (h : InRange m) (c : Dev nD) (t : Fin 25000) :
    Call12.tbl (Call12.Vin (W25 m h)) 1 (ValueIdx.ix1 t) = m ((c.tc : Thread nD τ).loc main_arg2) (ValueIdx.ix2 ⟨25000 * 4 + t.val, by omega⟩ 1) := by
  obtain rfl : c = 0 := Subsingleton.elim _ _
  show W25 m h 0 main_v70 (ValueIdx.ix1 t) = _
  have e : (W25 m h 0 main_v70 : S25000.Idx → Elt F .i32) = extractStridedSlice S25000 ![25000 * 4] (W24 m h 0 main_v48) slices_S200000_S25000_100000 := by
    show StableHlo.after hostOps12 _ _ = _; after_results <;> rfl
  rw [e, chunk_apply (25000 * 4) _ _ t (by omega), W24_v48, W17_colB]

/-- The running sum of the second list's calls up to call 11. -/
abbrev neg4 (h : InRange m) (c : Dev nD) : F .f32 := FloatOps.addf (neg3 m h c) (res11 m h c)
theorem W25_sum (h : InRange m) (c : Dev nD) : W25 m h c main_v68 ValueIdx.ix0 = neg4 m h c := by
  have e : (W25 m h c main_v68 : S_.Idx → F .f32) = addf (W24 m h c main_v63) (shapeCast S_ (W24 m h c main_v66) shapeCasts_S1x1_S_) := by
    show StableHlo.after hostOps12 _ _ = _; after_results <;> rfl
  rw [e]; show FloatOps.addf (W24 m h c main_v63 ValueIdx.ix0) (shapeCast S_ (W24 m h c main_v66) shapeCasts_S1x1_S_ ValueIdx.ix0) = _
  rw [scalar_apply, W24_of m h c main_v63 (by decide), W23_sum]

/-- Call 12's tables name rows of the array. -/
theorem ok12 (h : InRange m) : Call12.Ok (Call12.Vin (W25 m h)) :=
  ok12_of_lt _ (fun t => by rw [tbl12_A m h 0 t]; exact (h 0).2 _) (fun t => by rw [tbl12_B m h 0 t]; exact (h 0).2 _)
/-- Exit of call 12. -/
abbrev W26 (h : InRange m) (c : Dev nD) : Valuation τ sig (Elt F) := Call12.Wout (W25 m h) (ok12 m h) c
/-- Call 12 leaves every buffer but its result as it was. -/
theorem W26_of (h : InRange m) (c : Dev nD) (r : Ref sig .tc) (hr : r ≠ main_v71) : W26 m h c r = W25 m h c r := by
  show Function.update _ _ _ _ = _
  exact Function.update_of_ne (StableHlo.devRef_ne_of_ne hr) _ _
/-- Call 12's result is what its write-backs leave. -/
theorem W26_res (h : InRange m) (c : Dev nD) :
    W26 m h c main_v71 = (Call12.dat (Call12.Vin (W25 m h)) (ok12 m h) c).arrAt 2 (Call12.cfgM (Call12.Vin (W25 m h)) (ok12 m h)).N := by
  show Function.update _ _ _ _ = _
  exact Function.update_self _ _ _
/-- Call 12's result, the one entry of its [1,1] array. -/
abbrev res12 (h : InRange m) (c : Dev nD) : F .f32 := W26 m h c main_v71 (ValueIdx.ix2 0 0)
theorem W26_arg0 (h : InRange m) (c : Dev nD) : W26 m h c main_arg0 = m ((c.tc : Thread nD τ).loc main_arg0) := (W26_of m h c main_arg0 (by decide)).trans (W25_arg0 m h c)
theorem W26_arg1 (h : InRange m) (c : Dev nD) : W26 m h c main_arg1 = m ((c.tc : Thread nD τ).loc main_arg1) := (W26_of m h c main_arg1 (by decide)).trans (W25_arg1 m h c)
theorem W26_arg2 (h : InRange m) (c : Dev nD) : W26 m h c main_arg2 = m ((c.tc : Thread nD τ).loc main_arg2) := (W26_of m h c main_arg2 (by decide)).trans (W25_arg2 m h c)
theorem W26_v0 (h : InRange m) (c : Dev nD) : W26 m h c main_v0 = W1 m c main_v0 := (W26_of m h c main_v0 (by decide)).trans (W25_v0 m h c)
theorem W26_v46 (h : InRange m) (c : Dev nD) : W26 m h c main_v46 = W17 m h c main_v46 := (W26_of m h c main_v46 (by decide)).trans (W25_v46 m h c)
theorem W26_v48 (h : InRange m) (c : Dev nD) : W26 m h c main_v48 = W17 m h c main_v48 := (W26_of m h c main_v48 (by decide)).trans (W25_v48 m h c)
theorem W26_v44 (h : InRange m) (c : Dev nD) : W26 m h c main_v44 = W17 m h c main_v44 := (W26_of m h c main_v44 (by decide)).trans (W25_v44 m h c)

/-! ## Call 13 -/

/-- Entry of call 13: after the host stretch 13. -/
abbrev W27 (h : InRange m) (c : Dev nD) : Valuation τ sig (Elt F) := StableHlo.after hostOps13 (W26 m h c)
/-- The host stretch 13 leaves every buffer it does not write as it was. -/
theorem W27_of (h : InRange m) (c : Dev nD) (r : Ref sig .tc) (hr : r ∉ Regions.hostOps13_W) : W27 m h c r = W26 m h c r :=
  StableHlo.after_of_writes_sub hostOps13 _ Regions.hostOps13_writes hr
theorem W27_arg0 (h : InRange m) (c : Dev nD) : W27 m h c main_arg0 = m ((c.tc : Thread nD τ).loc main_arg0) := (W27_of m h c main_arg0 (by decide)).trans (W26_arg0 m h c)
theorem W27_arg1 (h : InRange m) (c : Dev nD) : W27 m h c main_arg1 = m ((c.tc : Thread nD τ).loc main_arg1) := (W27_of m h c main_arg1 (by decide)).trans (W26_arg1 m h c)
theorem W27_arg2 (h : InRange m) (c : Dev nD) : W27 m h c main_arg2 = m ((c.tc : Thread nD τ).loc main_arg2) := (W27_of m h c main_arg2 (by decide)).trans (W26_arg2 m h c)
theorem W27_v0 (h : InRange m) (c : Dev nD) : W27 m h c main_v0 = W1 m c main_v0 := (W27_of m h c main_v0 (by decide)).trans (W26_v0 m h c)
theorem W27_v46 (h : InRange m) (c : Dev nD) : W27 m h c main_v46 = W17 m h c main_v46 := (W27_of m h c main_v46 (by decide)).trans (W26_v46 m h c)
theorem W27_v48 (h : InRange m) (c : Dev nD) : W27 m h c main_v48 = W17 m h c main_v48 := (W27_of m h c main_v48 (by decide)).trans (W26_v48 m h c)
theorem W27_v44 (h : InRange m) (c : Dev nD) : W27 m h c main_v44 = W17 m h c main_v44 := (W27_of m h c main_v44 (by decide)).trans (W26_v44 m h c)

/-- The array of rows as call 13 finds it. -/
theorem rows13 (h : InRange m) (c : Dev nD) (r : Fin 100000) (d : Fin 256) :
    W27 m h c main_v0 (ValueIdx.ix3 r 0 d) = m ((c.tc : Thread nD τ).loc main_arg0) (ValueIdx.ix2 r d) := by
  rw [W27_v0]; exact rows0 m c r d

/-- Call 13's first table: the first components of pairs 125000 to 149999 of the second list. -/
theorem tbl13_A (h : InRange m) (c : Dev nD) (t : Fin 25000) :
    Call13.tbl (Call13.Vin (W27 m h)) 0 (ValueIdx.ix1 t) = m ((c.tc : Thread nD τ).loc main_arg2) (ValueIdx.ix2 ⟨25000 * 5 + t.val, by omega⟩ 0) := by
  obtain rfl : c = 0 := Subsingleton.elim _ _
  show W27 m h 0 main_v74 (ValueIdx.ix1 t) = _
  have e : (W27 m h 0 main_v74 : S25000.Idx → Elt F .i32) = extractStridedSlice S25000 ![25000 * 5] (W26 m h 0 main_v46) slices_S200000_S25000_125000 := by
    show StableHlo.after hostOps13 _ _ = _; after_results <;> rfl
  rw [e, chunk_apply (25000 * 5) _ _ t (by omega), W26_v46, W17_colA]

/-- Call 13's second table: the second components of pairs 125000 to 149999 of the second list. -/
theorem tbl13_B (h : InRange m) (c : Dev nD) (t : Fin 25000) :
    Call13.tbl (Call13.Vin (W27 m h)) 1 (ValueIdx.ix1 t) = m ((c.tc : Thread nD τ).loc main_arg2) (ValueIdx.ix2 ⟨25000 * 5 + t.val, by omega⟩ 1) := by
  obtain rfl : c = 0 := Subsingleton.elim _ _
  show W27 m h 0 main_v75 (ValueIdx.ix1 t) = _
  have e : (W27 m h 0 main_v75 : S25000.Idx → Elt F .i32) = extractStridedSlice S25000 ![25000 * 5] (W26 m h 0 main_v48) slices_S200000_S25000_125000 := by
    show StableHlo.after hostOps13 _ _ = _; after_results <;> rfl
  rw [e, chunk_apply (25000 * 5) _ _ t (by omega), W26_v48, W17_colB]

/-- The running sum of the second list's calls up to call 12. -/
abbrev neg5 (h : InRange m) (c : Dev nD) : F .f32 := FloatOps.addf (neg4 m h c) (res12 m h c)
theorem W27_sum (h : InRange m) (c : Dev nD) : W27 m h c main_v73 ValueIdx.ix0 = neg5 m h c := by
  have e : (W27 m h c main_v73 : S_.Idx → F .f32) = addf (W26 m h c main_v68) (shapeCast S_ (W26 m h c main_v71) shapeCasts_S1x1_S_) := by
    show StableHlo.after hostOps13 _ _ = _; after_results <;> rfl
  rw [e]; show FloatOps.addf (W26 m h c main_v68 ValueIdx.ix0) (shapeCast S_ (W26 m h c main_v71) shapeCasts_S1x1_S_ ValueIdx.ix0) = _
  rw [scalar_apply, W26_of m h c main_v68 (by decide), W25_sum]

/-- Call 13's tables name rows of the array. -/
theorem ok13 (h : InRange m) : Call13.Ok (Call13.Vin (W27 m h)) :=
  ok13_of_lt _ (fun t => by rw [tbl13_A m h 0 t]; exact (h 0).2 _) (fun t => by rw [tbl13_B m h 0 t]; exact (h 0).2 _)
/-- Exit of call 13. -/
abbrev W28 (h : InRange m) (c : Dev nD) : Valuation τ sig (Elt F) := Call13.Wout (W27 m h) (ok13 m h) c
/-- Call 13 leaves every buffer but its result as it was. -/
theorem W28_of (h : InRange m) (c : Dev nD) (r : Ref sig .tc) (hr : r ≠ main_v76) : W28 m h c r = W27 m h c r := by
  show Function.update _ _ _ _ = _
  exact Function.update_of_ne (StableHlo.devRef_ne_of_ne hr) _ _
/-- Call 13's result is what its write-backs leave. -/
theorem W28_res (h : InRange m) (c : Dev nD) :
    W28 m h c main_v76 = (Call13.dat (Call13.Vin (W27 m h)) (ok13 m h) c).arrAt 2 (Call13.cfgM (Call13.Vin (W27 m h)) (ok13 m h)).N := by
  show Function.update _ _ _ _ = _
  exact Function.update_self _ _ _
/-- Call 13's result, the one entry of its [1,1] array. -/
abbrev res13 (h : InRange m) (c : Dev nD) : F .f32 := W28 m h c main_v76 (ValueIdx.ix2 0 0)
theorem W28_arg0 (h : InRange m) (c : Dev nD) : W28 m h c main_arg0 = m ((c.tc : Thread nD τ).loc main_arg0) := (W28_of m h c main_arg0 (by decide)).trans (W27_arg0 m h c)
theorem W28_arg1 (h : InRange m) (c : Dev nD) : W28 m h c main_arg1 = m ((c.tc : Thread nD τ).loc main_arg1) := (W28_of m h c main_arg1 (by decide)).trans (W27_arg1 m h c)
theorem W28_arg2 (h : InRange m) (c : Dev nD) : W28 m h c main_arg2 = m ((c.tc : Thread nD τ).loc main_arg2) := (W28_of m h c main_arg2 (by decide)).trans (W27_arg2 m h c)
theorem W28_v0 (h : InRange m) (c : Dev nD) : W28 m h c main_v0 = W1 m c main_v0 := (W28_of m h c main_v0 (by decide)).trans (W27_v0 m h c)
theorem W28_v46 (h : InRange m) (c : Dev nD) : W28 m h c main_v46 = W17 m h c main_v46 := (W28_of m h c main_v46 (by decide)).trans (W27_v46 m h c)
theorem W28_v48 (h : InRange m) (c : Dev nD) : W28 m h c main_v48 = W17 m h c main_v48 := (W28_of m h c main_v48 (by decide)).trans (W27_v48 m h c)
theorem W28_v44 (h : InRange m) (c : Dev nD) : W28 m h c main_v44 = W17 m h c main_v44 := (W28_of m h c main_v44 (by decide)).trans (W27_v44 m h c)

/-! ## Call 14 -/

/-- Entry of call 14: after the host stretch 14. -/
abbrev W29 (h : InRange m) (c : Dev nD) : Valuation τ sig (Elt F) := StableHlo.after hostOps14 (W28 m h c)
/-- The host stretch 14 leaves every buffer it does not write as it was. -/
theorem W29_of (h : InRange m) (c : Dev nD) (r : Ref sig .tc) (hr : r ∉ Regions.hostOps14_W) : W29 m h c r = W28 m h c r :=
  StableHlo.after_of_writes_sub hostOps14 _ Regions.hostOps14_writes hr
theorem W29_arg0 (h : InRange m) (c : Dev nD) : W29 m h c main_arg0 = m ((c.tc : Thread nD τ).loc main_arg0) := (W29_of m h c main_arg0 (by decide)).trans (W28_arg0 m h c)
theorem W29_arg1 (h : InRange m) (c : Dev nD) : W29 m h c main_arg1 = m ((c.tc : Thread nD τ).loc main_arg1) := (W29_of m h c main_arg1 (by decide)).trans (W28_arg1 m h c)
theorem W29_arg2 (h : InRange m) (c : Dev nD) : W29 m h c main_arg2 = m ((c.tc : Thread nD τ).loc main_arg2) := (W29_of m h c main_arg2 (by decide)).trans (W28_arg2 m h c)
theorem W29_v0 (h : InRange m) (c : Dev nD) : W29 m h c main_v0 = W1 m c main_v0 := (W29_of m h c main_v0 (by decide)).trans (W28_v0 m h c)
theorem W29_v46 (h : InRange m) (c : Dev nD) : W29 m h c main_v46 = W17 m h c main_v46 := (W29_of m h c main_v46 (by decide)).trans (W28_v46 m h c)
theorem W29_v48 (h : InRange m) (c : Dev nD) : W29 m h c main_v48 = W17 m h c main_v48 := (W29_of m h c main_v48 (by decide)).trans (W28_v48 m h c)
theorem W29_v44 (h : InRange m) (c : Dev nD) : W29 m h c main_v44 = W17 m h c main_v44 := (W29_of m h c main_v44 (by decide)).trans (W28_v44 m h c)

/-- The array of rows as call 14 finds it. -/
theorem rows14 (h : InRange m) (c : Dev nD) (r : Fin 100000) (d : Fin 256) :
    W29 m h c main_v0 (ValueIdx.ix3 r 0 d) = m ((c.tc : Thread nD τ).loc main_arg0) (ValueIdx.ix2 r d) := by
  rw [W29_v0]; exact rows0 m c r d

/-- Call 14's first table: the first components of pairs 150000 to 174999 of the second list. -/
theorem tbl14_A (h : InRange m) (c : Dev nD) (t : Fin 25000) :
    Call14.tbl (Call14.Vin (W29 m h)) 0 (ValueIdx.ix1 t) = m ((c.tc : Thread nD τ).loc main_arg2) (ValueIdx.ix2 ⟨25000 * 6 + t.val, by omega⟩ 0) := by
  obtain rfl : c = 0 := Subsingleton.elim _ _
  show W29 m h 0 main_v79 (ValueIdx.ix1 t) = _
  have e : (W29 m h 0 main_v79 : S25000.Idx → Elt F .i32) = extractStridedSlice S25000 ![25000 * 6] (W28 m h 0 main_v46) slices_S200000_S25000_150000 := by
    show StableHlo.after hostOps14 _ _ = _; after_results <;> rfl
  rw [e, chunk_apply (25000 * 6) _ _ t (by omega), W28_v46, W17_colA]

/-- Call 14's second table: the second components of pairs 150000 to 174999 of the second list. -/
theorem tbl14_B (h : InRange m) (c : Dev nD) (t : Fin 25000) :
    Call14.tbl (Call14.Vin (W29 m h)) 1 (ValueIdx.ix1 t) = m ((c.tc : Thread nD τ).loc main_arg2) (ValueIdx.ix2 ⟨25000 * 6 + t.val, by omega⟩ 1) := by
  obtain rfl : c = 0 := Subsingleton.elim _ _
  show W29 m h 0 main_v80 (ValueIdx.ix1 t) = _
  have e : (W29 m h 0 main_v80 : S25000.Idx → Elt F .i32) = extractStridedSlice S25000 ![25000 * 6] (W28 m h 0 main_v48) slices_S200000_S25000_150000 := by
    show StableHlo.after hostOps14 _ _ = _; after_results <;> rfl
  rw [e, chunk_apply (25000 * 6) _ _ t (by omega), W28_v48, W17_colB]

/-- The running sum of the second list's calls up to call 13. -/
abbrev neg6 (h : InRange m) (c : Dev nD) : F .f32 := FloatOps.addf (neg5 m h c) (res13 m h c)
theorem W29_sum (h : InRange m) (c : Dev nD) : W29 m h c main_v78 ValueIdx.ix0 = neg6 m h c := by
  have e : (W29 m h c main_v78 : S_.Idx → F .f32) = addf (W28 m h c main_v73) (shapeCast S_ (W28 m h c main_v76) shapeCasts_S1x1_S_) := by
    show StableHlo.after hostOps14 _ _ = _; after_results <;> rfl
  rw [e]; show FloatOps.addf (W28 m h c main_v73 ValueIdx.ix0) (shapeCast S_ (W28 m h c main_v76) shapeCasts_S1x1_S_ ValueIdx.ix0) = _
  rw [scalar_apply, W28_of m h c main_v73 (by decide), W27_sum]

/-- Call 14's tables name rows of the array. -/
theorem ok14 (h : InRange m) : Call14.Ok (Call14.Vin (W29 m h)) :=
  ok14_of_lt _ (fun t => by rw [tbl14_A m h 0 t]; exact (h 0).2 _) (fun t => by rw [tbl14_B m h 0 t]; exact (h 0).2 _)
/-- Exit of call 14. -/
abbrev W30 (h : InRange m) (c : Dev nD) : Valuation τ sig (Elt F) := Call14.Wout (W29 m h) (ok14 m h) c
/-- Call 14 leaves every buffer but its result as it was. -/
theorem W30_of (h : InRange m) (c : Dev nD) (r : Ref sig .tc) (hr : r ≠ main_v81) : W30 m h c r = W29 m h c r := by
  show Function.update _ _ _ _ = _
  exact Function.update_of_ne (StableHlo.devRef_ne_of_ne hr) _ _
/-- Call 14's result is what its write-backs leave. -/
theorem W30_res (h : InRange m) (c : Dev nD) :
    W30 m h c main_v81 = (Call14.dat (Call14.Vin (W29 m h)) (ok14 m h) c).arrAt 2 (Call14.cfgM (Call14.Vin (W29 m h)) (ok14 m h)).N := by
  show Function.update _ _ _ _ = _
  exact Function.update_self _ _ _
/-- Call 14's result, the one entry of its [1,1] array. -/
abbrev res14 (h : InRange m) (c : Dev nD) : F .f32 := W30 m h c main_v81 (ValueIdx.ix2 0 0)
theorem W30_arg0 (h : InRange m) (c : Dev nD) : W30 m h c main_arg0 = m ((c.tc : Thread nD τ).loc main_arg0) := (W30_of m h c main_arg0 (by decide)).trans (W29_arg0 m h c)
theorem W30_arg1 (h : InRange m) (c : Dev nD) : W30 m h c main_arg1 = m ((c.tc : Thread nD τ).loc main_arg1) := (W30_of m h c main_arg1 (by decide)).trans (W29_arg1 m h c)
theorem W30_arg2 (h : InRange m) (c : Dev nD) : W30 m h c main_arg2 = m ((c.tc : Thread nD τ).loc main_arg2) := (W30_of m h c main_arg2 (by decide)).trans (W29_arg2 m h c)
theorem W30_v0 (h : InRange m) (c : Dev nD) : W30 m h c main_v0 = W1 m c main_v0 := (W30_of m h c main_v0 (by decide)).trans (W29_v0 m h c)
theorem W30_v46 (h : InRange m) (c : Dev nD) : W30 m h c main_v46 = W17 m h c main_v46 := (W30_of m h c main_v46 (by decide)).trans (W29_v46 m h c)
theorem W30_v48 (h : InRange m) (c : Dev nD) : W30 m h c main_v48 = W17 m h c main_v48 := (W30_of m h c main_v48 (by decide)).trans (W29_v48 m h c)
theorem W30_v44 (h : InRange m) (c : Dev nD) : W30 m h c main_v44 = W17 m h c main_v44 := (W30_of m h c main_v44 (by decide)).trans (W29_v44 m h c)

/-! ## Call 15 -/

/-- Entry of call 15: after the host stretch 15. -/
abbrev W31 (h : InRange m) (c : Dev nD) : Valuation τ sig (Elt F) := StableHlo.after hostOps15 (W30 m h c)
/-- The host stretch 15 leaves every buffer it does not write as it was. -/
theorem W31_of (h : InRange m) (c : Dev nD) (r : Ref sig .tc) (hr : r ∉ Regions.hostOps15_W) : W31 m h c r = W30 m h c r :=
  StableHlo.after_of_writes_sub hostOps15 _ Regions.hostOps15_writes hr
theorem W31_arg0 (h : InRange m) (c : Dev nD) : W31 m h c main_arg0 = m ((c.tc : Thread nD τ).loc main_arg0) := (W31_of m h c main_arg0 (by decide)).trans (W30_arg0 m h c)
theorem W31_arg1 (h : InRange m) (c : Dev nD) : W31 m h c main_arg1 = m ((c.tc : Thread nD τ).loc main_arg1) := (W31_of m h c main_arg1 (by decide)).trans (W30_arg1 m h c)
theorem W31_arg2 (h : InRange m) (c : Dev nD) : W31 m h c main_arg2 = m ((c.tc : Thread nD τ).loc main_arg2) := (W31_of m h c main_arg2 (by decide)).trans (W30_arg2 m h c)
theorem W31_v0 (h : InRange m) (c : Dev nD) : W31 m h c main_v0 = W1 m c main_v0 := (W31_of m h c main_v0 (by decide)).trans (W30_v0 m h c)
theorem W31_v44 (h : InRange m) (c : Dev nD) : W31 m h c main_v44 = W17 m h c main_v44 := (W31_of m h c main_v44 (by decide)).trans (W30_v44 m h c)

/-- The array of rows as call 15 finds it. -/
theorem rows15 (h : InRange m) (c : Dev nD) (r : Fin 100000) (d : Fin 256) :
    W31 m h c main_v0 (ValueIdx.ix3 r 0 d) = m ((c.tc : Thread nD τ).loc main_arg0) (ValueIdx.ix2 r d) := by
  rw [W31_v0]; exact rows0 m c r d

/-- Call 15's first table: the first components of pairs 175000 to 199999 of the second list. -/
theorem tbl15_A (h : InRange m) (c : Dev nD) (t : Fin 25000) :
    Call15.tbl (Call15.Vin (W31 m h)) 0 (ValueIdx.ix1 t) = m ((c.tc : Thread nD τ).loc main_arg2) (ValueIdx.ix2 ⟨25000 * 7 + t.val, by omega⟩ 0) := by
  obtain rfl : c = 0 := Subsingleton.elim _ _
  show W31 m h 0 main_v84 (ValueIdx.ix1 t) = _
  have e : (W31 m h 0 main_v84 : S25000.Idx → Elt F .i32) = extractStridedSlice S25000 ![25000 * 7] (W30 m h 0 main_v46) slices_S200000_S25000_175000 := by
    show StableHlo.after hostOps15 _ _ = _; after_results <;> rfl
  rw [e, chunk_apply (25000 * 7) _ _ t (by omega), W30_v46, W17_colA]

/-- Call 15's second table: the second components of pairs 175000 to 199999 of the second list. -/
theorem tbl15_B (h : InRange m) (c : Dev nD) (t : Fin 25000) :
    Call15.tbl (Call15.Vin (W31 m h)) 1 (ValueIdx.ix1 t) = m ((c.tc : Thread nD τ).loc main_arg2) (ValueIdx.ix2 ⟨25000 * 7 + t.val, by omega⟩ 1) := by
  obtain rfl : c = 0 := Subsingleton.elim _ _
  show W31 m h 0 main_v85 (ValueIdx.ix1 t) = _
  have e : (W31 m h 0 main_v85 : S25000.Idx → Elt F .i32) = extractStridedSlice S25000 ![25000 * 7] (W30 m h 0 main_v48) slices_S200000_S25000_175000 := by
    show StableHlo.after hostOps15 _ _ = _; after_results <;> rfl
  rw [e, chunk_apply (25000 * 7) _ _ t (by omega), W30_v48, W17_colB]

/-- The running sum of the second list's calls up to call 14. -/
abbrev neg7 (h : InRange m) (c : Dev nD) : F .f32 := FloatOps.addf (neg6 m h c) (res14 m h c)
theorem W31_sum (h : InRange m) (c : Dev nD) : W31 m h c main_v83 ValueIdx.ix0 = neg7 m h c := by
  have e : (W31 m h c main_v83 : S_.Idx → F .f32) = addf (W30 m h c main_v78) (shapeCast S_ (W30 m h c main_v81) shapeCasts_S1x1_S_) := by
    show StableHlo.after hostOps15 _ _ = _; after_results <;> rfl
  rw [e]; show FloatOps.addf (W30 m h c main_v78 ValueIdx.ix0) (shapeCast S_ (W30 m h c main_v81) shapeCasts_S1x1_S_ ValueIdx.ix0) = _
  rw [scalar_apply, W30_of m h c main_v78 (by decide), W29_sum]

/-- Call 15's tables name rows of the array. -/
theorem ok15 (h : InRange m) : Call15.Ok (Call15.Vin (W31 m h)) :=
  ok15_of_lt _ (fun t => by rw [tbl15_A m h 0 t]; exact (h 0).2 _) (fun t => by rw [tbl15_B m h 0 t]; exact (h 0).2 _)
/-- Exit of call 15. -/
abbrev W32 (h : InRange m) (c : Dev nD) : Valuation τ sig (Elt F) := Call15.Wout (W31 m h) (ok15 m h) c
/-- Call 15 leaves every buffer but its result as it was. -/
theorem W32_of (h : InRange m) (c : Dev nD) (r : Ref sig .tc) (hr : r ≠ main_v86) : W32 m h c r = W31 m h c r := by
  show Function.update _ _ _ _ = _
  exact Function.update_of_ne (StableHlo.devRef_ne_of_ne hr) _ _
/-- Call 15's result is what its write-backs leave. -/
theorem W32_res (h : InRange m) (c : Dev nD) :
    W32 m h c main_v86 = (Call15.dat (Call15.Vin (W31 m h)) (ok15 m h) c).arrAt 2 (Call15.cfgM (Call15.Vin (W31 m h)) (ok15 m h)).N := by
  show Function.update _ _ _ _ = _
  exact Function.update_self _ _ _
/-- Call 15's result, the one entry of its [1,1] array. -/
abbrev res15 (h : InRange m) (c : Dev nD) : F .f32 := W32 m h c main_v86 (ValueIdx.ix2 0 0)
theorem W32_arg0 (h : InRange m) (c : Dev nD) : W32 m h c main_arg0 = m ((c.tc : Thread nD τ).loc main_arg0) := (W32_of m h c main_arg0 (by decide)).trans (W31_arg0 m h c)
theorem W32_arg1 (h : InRange m) (c : Dev nD) : W32 m h c main_arg1 = m ((c.tc : Thread nD τ).loc main_arg1) := (W32_of m h c main_arg1 (by decide)).trans (W31_arg1 m h c)
theorem W32_arg2 (h : InRange m) (c : Dev nD) : W32 m h c main_arg2 = m ((c.tc : Thread nD τ).loc main_arg2) := (W32_of m h c main_arg2 (by decide)).trans (W31_arg2 m h c)
theorem W32_v44 (h : InRange m) (c : Dev nD) : W32 m h c main_v44 = W17 m h c main_v44 := (W32_of m h c main_v44 (by decide)).trans (W31_v44 m h c)

/-! ## The return -/

/-- At the return: after the last host stretch. -/
abbrev W33 (h : InRange m) (c : Dev nD) : Valuation τ sig (Elt F) := StableHlo.after hostOps16 (W32 m h c)
/-- The last host stretch leaves every buffer it does not write as it was. -/
theorem W33_of (h : InRange m) (c : Dev nD) (r : Ref sig .tc) (hr : r ∉ Regions.hostOps16_W) : W33 m h c r = W32 m h c r :=
  StableHlo.after_of_writes_sub hostOps16 _ Regions.hostOps16_writes hr

theorem W33_arg0 (h : InRange m) (c : Dev nD) : W33 m h c main_arg0 = m ((c.tc : Thread nD τ).loc main_arg0) := (W33_of m h c main_arg0 (by decide)).trans (W32_arg0 m h c)
theorem W33_arg1 (h : InRange m) (c : Dev nD) : W33 m h c main_arg1 = m ((c.tc : Thread nD τ).loc main_arg1) := (W33_of m h c main_arg1 (by decide)).trans (W32_arg1 m h c)
theorem W33_arg2 (h : InRange m) (c : Dev nD) : W33 m h c main_arg2 = m ((c.tc : Thread nD τ).loc main_arg2) := (W33_of m h c main_arg2 (by decide)).trans (W32_arg2 m h c)

/-- The running sum of the second list's calls up to call 15. -/
abbrev neg8 (h : InRange m) (c : Dev nD) : F .f32 := FloatOps.addf (neg7 m h c) (res15 m h c)

/-- THE RESULT: the first list's eight results added in order from zero, plus the second list's eight added in order from zero. -/
theorem W33_result (h : InRange m) (c : Dev nD) : W33 m h c main_v89 ValueIdx.ix0 =
    FloatOps.addf
      (FloatOps.addf (FloatOps.addf (FloatOps.addf (FloatOps.addf (FloatOps.addf (FloatOps.addf (FloatOps.addf (FloatOps.addf (FloatOps.ofBits .f32 0x00000000#32) (res0 m h c)) (res1 m h c)) (res2 m h c)) (res3 m h c)) (res4 m h c)) (res5 m h c)) (res6 m h c)) (res7 m h c))
      (FloatOps.addf (FloatOps.addf (FloatOps.addf (FloatOps.addf (FloatOps.addf (FloatOps.addf (FloatOps.addf (FloatOps.addf (FloatOps.ofBits .f32 0x00000000#32) (res8 m h c)) (res9 m h c)) (res10 m h c)) (res11 m h c)) (res12 m h c)) (res13 m h c)) (res14 m h c)) (res15 m h c)) := by
  have e : (W33 m h c main_v89 : S_.Idx → F .f32) = addf (W32 m h c main_v44) (addf (W32 m h c main_v83) (shapeCast S_ (W32 m h c main_v86) shapeCasts_S1x1_S_)) := by
    show StableHlo.after hostOps16 _ _ = _; after_results <;> rfl
  rw [e]; show FloatOps.addf (W32 m h c main_v44 ValueIdx.ix0) (FloatOps.addf (W32 m h c main_v83 ValueIdx.ix0) (shapeCast S_ (W32 m h c main_v86) shapeCasts_S1x1_S_ ValueIdx.ix0)) = _
  rw [scalar_apply, W32_v44, W17_sum, W32_of m h c main_v83 (by decide), W31_sum]

end Cert.Kernel.Chain

end
-- ==== Proof.WordSegments.lean ====
import proofs.«406163_j35201551958720_3_alg».proof.Proof.WordCall0Region
import proofs.«406163_j35201551958720_3_alg».proof.Proof.WordCall1Region
import proofs.«406163_j35201551958720_3_alg».proof.Proof.WordCall2Region
import proofs.«406163_j35201551958720_3_alg».proof.Proof.WordCall3Region
import proofs.«406163_j35201551958720_3_alg».proof.Proof.WordCall4Region
import proofs.«406163_j35201551958720_3_alg».proof.Proof.WordCall5Region
import proofs.«406163_j35201551958720_3_alg».proof.Proof.WordCall6Region
import proofs.«406163_j35201551958720_3_alg».proof.Proof.WordCall7Region
import proofs.«406163_j35201551958720_3_alg».proof.Proof.WordCall8Region
import proofs.«406163_j35201551958720_3_alg».proof.Proof.WordCall9Region
import proofs.«406163_j35201551958720_3_alg».proof.Proof.WordCall10Region
import proofs.«406163_j35201551958720_3_alg».proof.Proof.WordCall11Region
import proofs.«406163_j35201551958720_3_alg».proof.Proof.WordCall12Region
import proofs.«406163_j35201551958720_3_alg».proof.Proof.WordCall13Region
import proofs.«406163_j35201551958720_3_alg».proof.Proof.WordCall14Region
import proofs.«406163_j35201551958720_3_alg».proof.Proof.WordCall15Region
import proofs.«406163_j35201551958720_3_alg».proof.Proof.WordChain
import proofs.«406163_j35201551958720_3_alg».proof.Proof.KernelRegions

set_option maxRecDepth 16384

noncomputable section

namespace Cert.Kernel.Whole

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : InRange m)

/-! # The sixteen calls as segments of @main, each at its entry contents -/

/-- Every call's tables at its entry, admissible. -/
def adms : (p : Fin 16) → (pcfgs (F := F) p).Adm
  | ⟨0, _⟩ => Call0.adm (Call0.Vin (W1 m)) (Chain.ok0 m h)
  | ⟨1, _⟩ => Call1.adm (Call1.Vin (W3 m h)) (Chain.ok1 m h)
  | ⟨2, _⟩ => Call2.adm (Call2.Vin (W5 m h)) (Chain.ok2 m h)
  | ⟨3, _⟩ => Call3.adm (Call3.Vin (W7 m h)) (Chain.ok3 m h)
  | ⟨4, _⟩ => Call4.adm (Call4.Vin (W9 m h)) (Chain.ok4 m h)
  | ⟨5, _⟩ => Call5.adm (Call5.Vin (W11 m h)) (Chain.ok5 m h)
  | ⟨6, _⟩ => Call6.adm (Call6.Vin (W13 m h)) (Chain.ok6 m h)
  | ⟨7, _⟩ => Call7.adm (Call7.Vin (W15 m h)) (Chain.ok7 m h)
  | ⟨8, _⟩ => Call8.adm (Call8.Vin (W17 m h)) (Chain.ok8 m h)
  | ⟨9, _⟩ => Call9.adm (Call9.Vin (W19 m h)) (Chain.ok9 m h)
  | ⟨10, _⟩ => Call10.adm (Call10.Vin (W21 m h)) (Chain.ok10 m h)
  | ⟨11, _⟩ => Call11.adm (Call11.Vin (W23 m h)) (Chain.ok11 m h)
  | ⟨12, _⟩ => Call12.adm (Call12.Vin (W25 m h)) (Chain.ok12 m h)
  | ⟨13, _⟩ => Call13.adm (Call13.Vin (W27 m h)) (Chain.ok13 m h)
  | ⟨14, _⟩ => Call14.adm (Call14.Vin (W29 m h)) (Chain.ok14 m h)
  | ⟨15, _⟩ => Call15.adm (Call15.Vin (W31 m h)) (Chain.ok15 m h)
  | ⟨_ + 16, hh⟩ => absurd hh (Nat.not_lt.2 (Nat.le_add_left _ _))

/-- Every call's proof data, at its entry contents. -/
def pdats : (p : Fin 16) → (c : Dev nD) → Dat τ (Elt F) Unit ℕ (UR sig nD τ) ℕ (Pipeline.pin (pcfgs (F := F)) (adms m h) p) c
  | ⟨0, _⟩ => fun c => Call0.dat (Call0.Vin (W1 m)) (Chain.ok0 m h) c
  | ⟨1, _⟩ => fun c => Call1.dat (Call1.Vin (W3 m h)) (Chain.ok1 m h) c
  | ⟨2, _⟩ => fun c => Call2.dat (Call2.Vin (W5 m h)) (Chain.ok2 m h) c
  | ⟨3, _⟩ => fun c => Call3.dat (Call3.Vin (W7 m h)) (Chain.ok3 m h) c
  | ⟨4, _⟩ => fun c => Call4.dat (Call4.Vin (W9 m h)) (Chain.ok4 m h) c
  | ⟨5, _⟩ => fun c => Call5.dat (Call5.Vin (W11 m h)) (Chain.ok5 m h) c
  | ⟨6, _⟩ => fun c => Call6.dat (Call6.Vin (W13 m h)) (Chain.ok6 m h) c
  | ⟨7, _⟩ => fun c => Call7.dat (Call7.Vin (W15 m h)) (Chain.ok7 m h) c
  | ⟨8, _⟩ => fun c => Call8.dat (Call8.Vin (W17 m h)) (Chain.ok8 m h) c
  | ⟨9, _⟩ => fun c => Call9.dat (Call9.Vin (W19 m h)) (Chain.ok9 m h) c
  | ⟨10, _⟩ => fun c => Call10.dat (Call10.Vin (W21 m h)) (Chain.ok10 m h) c
  | ⟨11, _⟩ => fun c => Call11.dat (Call11.Vin (W23 m h)) (Chain.ok11 m h) c
  | ⟨12, _⟩ => fun c => Call12.dat (Call12.Vin (W25 m h)) (Chain.ok12 m h) c
  | ⟨13, _⟩ => fun c => Call13.dat (Call13.Vin (W27 m h)) (Chain.ok13 m h) c
  | ⟨14, _⟩ => fun c => Call14.dat (Call14.Vin (W29 m h)) (Chain.ok14 m h) c
  | ⟨15, _⟩ => fun c => Call15.dat (Call15.Vin (W31 m h)) (Chain.ok15 m h) c
  | ⟨_ + 16, hh⟩ => absurd hh (Nat.not_lt.2 (Nat.le_add_left _ _))

/-- What each call leaves in its result buffer, read off the chain. -/
def outs : Regions.Outs (F := F) := fun J r c => match J with
  | 2 => W2 m h c r
  | 4 => W4 m h c r
  | 6 => W6 m h c r
  | 8 => W8 m h c r
  | 10 => W10 m h c r
  | 12 => W12 m h c r
  | 14 => W14 m h c r
  | 16 => W16 m h c r
  | 18 => W18 m h c r
  | 20 => W20 m h c r
  | 22 => W22 m h c r
  | 24 => W24 m h c r
  | 26 => W26 m h c r
  | 28 => W28 m h c r
  | 30 => W30 m h c r
  | 32 => W32 m h c r
  | _ => W0 m c r

/-! ## The generated valuations are the chain's -/

theorem V1_eq (c : Dev nD) : Regions.V1 m c = W1 m c := rfl
theorem V2_eq (c : Dev nD) : Regions.V2 m (outs m h) c = W2 m h c :=
  (congrArg (fun v => Function.update v (Proc.devRef .tc main_v7) (W2 m h c main_v7)) (V1_eq m c)).trans
    (congrArg (Function.update (W1 m c) (Proc.devRef .tc main_v7)) (Function.update_self _ _ _))
theorem V3_eq (c : Dev nD) : Regions.V3 m (outs m h) c = W3 m h c := congrArg (StableHlo.after hostOps1) (V2_eq m h c)
theorem V4_eq (c : Dev nD) : Regions.V4 m (outs m h) c = W4 m h c :=
  (congrArg (fun v => Function.update v (Proc.devRef .tc main_v12) (W4 m h c main_v12)) (V3_eq m h c)).trans
    (congrArg (Function.update (W3 m h c) (Proc.devRef .tc main_v12)) (Function.update_self _ _ _))
theorem V5_eq (c : Dev nD) : Regions.V5 m (outs m h) c = W5 m h c := congrArg (StableHlo.after hostOps2) (V4_eq m h c)
theorem V6_eq (c : Dev nD) : Regions.V6 m (outs m h) c = W6 m h c :=
  (congrArg (fun v => Function.update v (Proc.devRef .tc main_v17) (W6 m h c main_v17)) (V5_eq m h c)).trans
    (congrArg (Function.update (W5 m h c) (Proc.devRef .tc main_v17)) (Function.update_self _ _ _))
theorem V7_eq (c : Dev nD) : Regions.V7 m (outs m h) c = W7 m h c := congrArg (StableHlo.after hostOps3) (V6_eq m h c)
theorem V8_eq (c : Dev nD) : Regions.V8 m (outs m h) c = W8 m h c :=
  (congrArg (fun v => Function.update v (Proc.devRef .tc main_v22) (W8 m h c main_v22)) (V7_eq m h c)).trans
    (congrArg (Function.update (W7 m h c) (Proc.devRef .tc main_v22)) (Function.update_self _ _ _))
theorem V9_eq (c : Dev nD) : Regions.V9 m (outs m h) c = W9 m h c := congrArg (StableHlo.after hostOps4) (V8_eq m h c)
theorem V10_eq (c : Dev nD) : Regions.V10 m (outs m h) c = W10 m h c :=
  (congrArg (fun v => Function.update v (Proc.devRef .tc main_v27) (W10 m h c main_v27)) (V9_eq m h c)).trans
    (congrArg (Function.update (W9 m h c) (Proc.devRef .tc main_v27)) (Function.update_self _ _ _))
theorem V11_eq (c : Dev nD) : Regions.V11 m (outs m h) c = W11 m h c := congrArg (StableHlo.after hostOps5) (V10_eq m h c)
theorem V12_eq (c : Dev nD) : Regions.V12 m (outs m h) c = W12 m h c :=
  (congrArg (fun v => Function.update v (Proc.devRef .tc main_v32) (W12 m h c main_v32)) (V11_eq m h c)).trans
    (congrArg (Function.update (W11 m h c) (Proc.devRef .tc main_v32)) (Function.update_self _ _ _))
theorem V13_eq (c : Dev nD) : Regions.V13 m (outs m h) c = W13 m h c := congrArg (StableHlo.after hostOps6) (V12_eq m h c)
theorem V14_eq (c : Dev nD) : Regions.V14 m (outs m h) c = W14 m h c :=
  (congrArg (fun v => Function.update v (Proc.devRef .tc main_v37) (W14 m h c main_v37)) (V13_eq m h c)).trans
    (congrArg (Function.update (W13 m h c) (Proc.devRef .tc main_v37)) (Function.update_self _ _ _))
theorem V15_eq (c : Dev nD) : Regions.V15 m (outs m h) c = W15 m h c := congrArg (StableHlo.after hostOps7) (V14_eq m h c)
theorem V16_eq (c : Dev nD) : Regions.V16 m (outs m h) c = W16 m h c :=
  (congrArg (fun v => Function.update v (Proc.devRef .tc main_v42) (W16 m h c main_v42)) (V15_eq m h c)).trans
    (congrArg (Function.update (W15 m h c) (Proc.devRef .tc main_v42)) (Function.update_self _ _ _))
theorem V17_eq (c : Dev nD) : Regions.V17 m (outs m h) c = W17 m h c := congrArg (StableHlo.after hostOps8) (V16_eq m h c)
theorem V18_eq (c : Dev nD) : Regions.V18 m (outs m h) c = W18 m h c :=
  (congrArg (fun v => Function.update v (Proc.devRef .tc main_v51) (W18 m h c main_v51)) (V17_eq m h c)).trans
    (congrArg (Function.update (W17 m h c) (Proc.devRef .tc main_v51)) (Function.update_self _ _ _))
theorem V19_eq (c : Dev nD) : Regions.V19 m (outs m h) c = W19 m h c := congrArg (StableHlo.after hostOps9) (V18_eq m h c)
theorem V20_eq (c : Dev nD) : Regions.V20 m (outs m h) c = W20 m h c :=
  (congrArg (fun v => Function.update v (Proc.devRef .tc main_v56) (W20 m h c main_v56)) (V19_eq m h c)).trans
    (congrArg (Function.update (W19 m h c) (Proc.devRef .tc main_v56)) (Function.update_self _ _ _))
theorem V21_eq (c : Dev nD) : Regions.V21 m (outs m h) c = W21 m h c := congrArg (StableHlo.after hostOps10) (V20_eq m h c)
theorem V22_eq (c : Dev nD) : Regions.V22 m (outs m h) c = W22 m h c :=
  (congrArg (fun v => Function.update v (Proc.devRef .tc main_v61) (W22 m h c main_v61)) (V21_eq m h c)).trans
    (congrArg (Function.update (W21 m h c) (Proc.devRef .tc main_v61)) (Function.update_self _ _ _))
theorem V23_eq (c : Dev nD) : Regions.V23 m (outs m h) c = W23 m h c := congrArg (StableHlo.after hostOps11) (V22_eq m h c)
theorem V24_eq (c : Dev nD) : Regions.V24 m (outs m h) c = W24 m h c :=
  (congrArg (fun v => Function.update v (Proc.devRef .tc main_v66) (W24 m h c main_v66)) (V23_eq m h c)).trans
    (congrArg (Function.update (W23 m h c) (Proc.devRef .tc main_v66)) (Function.update_self _ _ _))
theorem V25_eq (c : Dev nD) : Regions.V25 m (outs m h) c = W25 m h c := congrArg (StableHlo.after hostOps12) (V24_eq m h c)
theorem V26_eq (c : Dev nD) : Regions.V26 m (outs m h) c = W26 m h c :=
  (congrArg (fun v => Function.update v (Proc.devRef .tc main_v71) (W26 m h c main_v71)) (V25_eq m h c)).trans
    (congrArg (Function.update (W25 m h c) (Proc.devRef .tc main_v71)) (Function.update_self _ _ _))
theorem V27_eq (c : Dev nD) : Regions.V27 m (outs m h) c = W27 m h c := congrArg (StableHlo.after hostOps13) (V26_eq m h c)
theorem V28_eq (c : Dev nD) : Regions.V28 m (outs m h) c = W28 m h c :=
  (congrArg (fun v => Function.update v (Proc.devRef .tc main_v76) (W28 m h c main_v76)) (V27_eq m h c)).trans
    (congrArg (Function.update (W27 m h c) (Proc.devRef .tc main_v76)) (Function.update_self _ _ _))
theorem V29_eq (c : Dev nD) : Regions.V29 m (outs m h) c = W29 m h c := congrArg (StableHlo.after hostOps14) (V28_eq m h c)
theorem V30_eq (c : Dev nD) : Regions.V30 m (outs m h) c = W30 m h c :=
  (congrArg (fun v => Function.update v (Proc.devRef .tc main_v81) (W30 m h c main_v81)) (V29_eq m h c)).trans
    (congrArg (Function.update (W29 m h c) (Proc.devRef .tc main_v81)) (Function.update_self _ _ _))
theorem V31_eq (c : Dev nD) : Regions.V31 m (outs m h) c = W31 m h c := congrArg (StableHlo.after hostOps15) (V30_eq m h c)
theorem V32_eq (c : Dev nD) : Regions.V32 m (outs m h) c = W32 m h c :=
  (congrArg (fun v => Function.update v (Proc.devRef .tc main_v86) (W32 m h c main_v86)) (V31_eq m h c)).trans
    (congrArg (Function.update (W31 m h c) (Proc.devRef .tc main_v86)) (Function.update_self _ _ _))
theorem V33_eq (c : Dev nD) : Regions.V33 m (outs m h) c = W33 m h c := congrArg (StableHlo.after hostOps16) (V32_eq m h c)

/-! ## The region records -/

set_option backward.isDefEq.respectTransparency.types false in
/-- Call 0 over the thread state: entered from every unscoped buffer at its entry contents, left at its exit contents. -/
def reg0 : Pipeline.RegionSeg (pcfgs (F := F)) (adms m h) (pdats m h) () defs₀ Variants.none (fun _ => ∅) (fun _ _ => 0) 0 where
  win := winFacts₀0
  block_pos := block_pos0
  stage_whole := stage_whole0
  K := PEmpty
  osem k := k.elim
  ho := Pipeline.OwnSemFacts.none _
  hbody c := (Call0.body_obligation (Call0.Vin (W1 m)) (Chain.ok0 m h) c).loose
  hwaits := Pipeline.hwaits_of_owed_zero _ _ _ _ (fun _ => ∅) (fun _ _ => 0) 0 fun _ _ => rfl
  pre c := iprop(StableHlo.held (c : Thread nD τ) (Pipeline.ucRefs τ sig) (W1 m c) ∗ Call0.Rst c)
  post c := iprop(StableHlo.held (c : Thread nD τ) (Pipeline.ucRefs τ sig) (W2 m h c) ∗ Call0.Rst c)
  X c := iprop(∃ r, prngReg c r)
  Y c := iprop((∃ r, prngReg c r) ∗ Pipeline.prefHeld pre0 c (fun _ => fullShare) (Call0.tbl (Call0.Vin (W1 m))))
  Z c := Pipeline.unscopedRestP pre0 spec0 c (Call0.Vin (W1 m) c)
  hentry c := by
    rw [Pipeline.ownSems0_none]
    iintro ⟨Hpre, -, -⟩
    iapply (Call0.entry (W1 m) (Chain.ok0 m h) c)
    iexact Hpre
  hin c := Call0.inv_in (W1 m) (Chain.ok0 m h) c
  hout c := by
    rw [Pipeline.ownSems0_none]
    refine (Call0.inv_out (W1 m) (Chain.ok0 m h) c).trans ?_
    iintro ⟨HY, Hr⟩
    isplitl [HY]; · iexact HY
    isplitr; · iempintro
    iexact Hr
  hexit c := Call0.exit (W1 m) (Chain.ok0 m h) c

set_option backward.isDefEq.respectTransparency.types false in
/-- Call 1 over the thread state: entered from every unscoped buffer at its entry contents, left at its exit contents. -/
def reg1 : Pipeline.RegionSeg (pcfgs (F := F)) (adms m h) (pdats m h) () defs₀ Variants.none (fun _ => ∅) (fun _ _ => 0) 1 where
  win := winFacts₀1
  block_pos := block_pos1
  stage_whole := stage_whole1
  K := PEmpty
  osem k := k.elim
  ho := Pipeline.OwnSemFacts.none _
  hbody c := (Call1.body_obligation (Call1.Vin (W3 m h)) (Chain.ok1 m h) c).loose
  hwaits := Pipeline.hwaits_of_owed_zero _ _ _ _ (fun _ => ∅) (fun _ _ => 0) 1 fun _ _ => rfl
  pre c := iprop(StableHlo.held (c : Thread nD τ) (Pipeline.ucRefs τ sig) (W3 m h c) ∗ Call1.Rst c)
  post c := iprop(StableHlo.held (c : Thread nD τ) (Pipeline.ucRefs τ sig) (W4 m h c) ∗ Call1.Rst c)
  X c := iprop(∃ r, prngReg c r)
  Y c := iprop((∃ r, prngReg c r) ∗ Pipeline.prefHeld pre1 c (fun _ => fullShare) (Call1.tbl (Call1.Vin (W3 m h))))
  Z c := Pipeline.unscopedRestP pre1 spec1 c (Call1.Vin (W3 m h) c)
  hentry c := by
    rw [Pipeline.ownSems0_none]
    iintro ⟨Hpre, -, -⟩
    iapply (Call1.entry (W3 m h) (Chain.ok1 m h) c)
    iexact Hpre
  hin c := Call1.inv_in (W3 m h) (Chain.ok1 m h) c
  hout c := by
    rw [Pipeline.ownSems0_none]
    refine (Call1.inv_out (W3 m h) (Chain.ok1 m h) c).trans ?_
    iintro ⟨HY, Hr⟩
    isplitl [HY]; · iexact HY
    isplitr; · iempintro
    iexact Hr
  hexit c := Call1.exit (W3 m h) (Chain.ok1 m h) c

set_option backward.isDefEq.respectTransparency.types false in
/-- Call 2 over the thread state: entered from every unscoped buffer at its entry contents, left at its exit contents. -/
def reg2 : Pipeline.RegionSeg (pcfgs (F := F)) (adms m h) (pdats m h) () defs₀ Variants.none (fun _ => ∅) (fun _ _ => 0) 2 where
  win := winFacts₀2
  block_pos := block_pos2
  stage_whole := stage_whole2
  K := PEmpty
  osem k := k.elim
  ho := Pipeline.OwnSemFacts.none _
  hbody c := (Call2.body_obligation (Call2.Vin (W5 m h)) (Chain.ok2 m h) c).loose
  hwaits := Pipeline.hwaits_of_owed_zero _ _ _ _ (fun _ => ∅) (fun _ _ => 0) 2 fun _ _ => rfl
  pre c := iprop(StableHlo.held (c : Thread nD τ) (Pipeline.ucRefs τ sig) (W5 m h c) ∗ Call2.Rst c)
  post c := iprop(StableHlo.held (c : Thread nD τ) (Pipeline.ucRefs τ sig) (W6 m h c) ∗ Call2.Rst c)
  X c := iprop(∃ r, prngReg c r)
  Y c := iprop((∃ r, prngReg c r) ∗ Pipeline.prefHeld pre2 c (fun _ => fullShare) (Call2.tbl (Call2.Vin (W5 m h))))
  Z c := Pipeline.unscopedRestP pre2 spec2 c (Call2.Vin (W5 m h) c)
  hentry c := by
    rw [Pipeline.ownSems0_none]
    iintro ⟨Hpre, -, -⟩
    iapply (Call2.entry (W5 m h) (Chain.ok2 m h) c)
    iexact Hpre
  hin c := Call2.inv_in (W5 m h) (Chain.ok2 m h) c
  hout c := by
    rw [Pipeline.ownSems0_none]
    refine (Call2.inv_out (W5 m h) (Chain.ok2 m h) c).trans ?_
    iintro ⟨HY, Hr⟩
    isplitl [HY]; · iexact HY
    isplitr; · iempintro
    iexact Hr
  hexit c := Call2.exit (W5 m h) (Chain.ok2 m h) c

set_option backward.isDefEq.respectTransparency.types false in
/-- Call 3 over the thread state: entered from every unscoped buffer at its entry contents, left at its exit contents. -/
def reg3 : Pipeline.RegionSeg (pcfgs (F := F)) (adms m h) (pdats m h) () defs₀ Variants.none (fun _ => ∅) (fun _ _ => 0) 3 where
  win := winFacts₀3
  block_pos := block_pos3
  stage_whole := stage_whole3
  K := PEmpty
  osem k := k.elim
  ho := Pipeline.OwnSemFacts.none _
  hbody c := (Call3.body_obligation (Call3.Vin (W7 m h)) (Chain.ok3 m h) c).loose
  hwaits := Pipeline.hwaits_of_owed_zero _ _ _ _ (fun _ => ∅) (fun _ _ => 0) 3 fun _ _ => rfl
  pre c := iprop(StableHlo.held (c : Thread nD τ) (Pipeline.ucRefs τ sig) (W7 m h c) ∗ Call3.Rst c)
  post c := iprop(StableHlo.held (c : Thread nD τ) (Pipeline.ucRefs τ sig) (W8 m h c) ∗ Call3.Rst c)
  X c := iprop(∃ r, prngReg c r)
  Y c := iprop((∃ r, prngReg c r) ∗ Pipeline.prefHeld pre3 c (fun _ => fullShare) (Call3.tbl (Call3.Vin (W7 m h))))
  Z c := Pipeline.unscopedRestP pre3 spec3 c (Call3.Vin (W7 m h) c)
  hentry c := by
    rw [Pipeline.ownSems0_none]
    iintro ⟨Hpre, -, -⟩
    iapply (Call3.entry (W7 m h) (Chain.ok3 m h) c)
    iexact Hpre
  hin c := Call3.inv_in (W7 m h) (Chain.ok3 m h) c
  hout c := by
    rw [Pipeline.ownSems0_none]
    refine (Call3.inv_out (W7 m h) (Chain.ok3 m h) c).trans ?_
    iintro ⟨HY, Hr⟩
    isplitl [HY]; · iexact HY
    isplitr; · iempintro
    iexact Hr
  hexit c := Call3.exit (W7 m h) (Chain.ok3 m h) c

set_option backward.isDefEq.respectTransparency.types false in
/-- Call 4 over the thread state: entered from every unscoped buffer at its entry contents, left at its exit contents. -/
def reg4 : Pipeline.RegionSeg (pcfgs (F := F)) (adms m h) (pdats m h) () defs₀ Variants.none (fun _ => ∅) (fun _ _ => 0) 4 where
  win := winFacts₀4
  block_pos := block_pos4
  stage_whole := stage_whole4
  K := PEmpty
  osem k := k.elim
  ho := Pipeline.OwnSemFacts.none _
  hbody c := (Call4.body_obligation (Call4.Vin (W9 m h)) (Chain.ok4 m h) c).loose
  hwaits := Pipeline.hwaits_of_owed_zero _ _ _ _ (fun _ => ∅) (fun _ _ => 0) 4 fun _ _ => rfl
  pre c := iprop(StableHlo.held (c : Thread nD τ) (Pipeline.ucRefs τ sig) (W9 m h c) ∗ Call4.Rst c)
  post c := iprop(StableHlo.held (c : Thread nD τ) (Pipeline.ucRefs τ sig) (W10 m h c) ∗ Call4.Rst c)
  X c := iprop(∃ r, prngReg c r)
  Y c := iprop((∃ r, prngReg c r) ∗ Pipeline.prefHeld pre4 c (fun _ => fullShare) (Call4.tbl (Call4.Vin (W9 m h))))
  Z c := Pipeline.unscopedRestP pre4 spec4 c (Call4.Vin (W9 m h) c)
  hentry c := by
    rw [Pipeline.ownSems0_none]
    iintro ⟨Hpre, -, -⟩
    iapply (Call4.entry (W9 m h) (Chain.ok4 m h) c)
    iexact Hpre
  hin c := Call4.inv_in (W9 m h) (Chain.ok4 m h) c
  hout c := by
    rw [Pipeline.ownSems0_none]
    refine (Call4.inv_out (W9 m h) (Chain.ok4 m h) c).trans ?_
    iintro ⟨HY, Hr⟩
    isplitl [HY]; · iexact HY
    isplitr; · iempintro
    iexact Hr
  hexit c := Call4.exit (W9 m h) (Chain.ok4 m h) c

set_option backward.isDefEq.respectTransparency.types false in
/-- Call 5 over the thread state: entered from every unscoped buffer at its entry contents, left at its exit contents. -/
def reg5 : Pipeline.RegionSeg (pcfgs (F := F)) (adms m h) (pdats m h) () defs₀ Variants.none (fun _ => ∅) (fun _ _ => 0) 5 where
  win := winFacts₀5
  block_pos := block_pos5
  stage_whole := stage_whole5
  K := PEmpty
  osem k := k.elim
  ho := Pipeline.OwnSemFacts.none _
  hbody c := (Call5.body_obligation (Call5.Vin (W11 m h)) (Chain.ok5 m h) c).loose
  hwaits := Pipeline.hwaits_of_owed_zero _ _ _ _ (fun _ => ∅) (fun _ _ => 0) 5 fun _ _ => rfl
  pre c := iprop(StableHlo.held (c : Thread nD τ) (Pipeline.ucRefs τ sig) (W11 m h c) ∗ Call5.Rst c)
  post c := iprop(StableHlo.held (c : Thread nD τ) (Pipeline.ucRefs τ sig) (W12 m h c) ∗ Call5.Rst c)
  X c := iprop(∃ r, prngReg c r)
  Y c := iprop((∃ r, prngReg c r) ∗ Pipeline.prefHeld pre5 c (fun _ => fullShare) (Call5.tbl (Call5.Vin (W11 m h))))
  Z c := Pipeline.unscopedRestP pre5 spec5 c (Call5.Vin (W11 m h) c)
  hentry c := by
    rw [Pipeline.ownSems0_none]
    iintro ⟨Hpre, -, -⟩
    iapply (Call5.entry (W11 m h) (Chain.ok5 m h) c)
    iexact Hpre
  hin c := Call5.inv_in (W11 m h) (Chain.ok5 m h) c
  hout c := by
    rw [Pipeline.ownSems0_none]
    refine (Call5.inv_out (W11 m h) (Chain.ok5 m h) c).trans ?_
    iintro ⟨HY, Hr⟩
    isplitl [HY]; · iexact HY
    isplitr; · iempintro
    iexact Hr
  hexit c := Call5.exit (W11 m h) (Chain.ok5 m h) c

set_option backward.isDefEq.respectTransparency.types false in
/-- Call 6 over the thread state: entered from every unscoped buffer at its entry contents, left at its exit contents. -/
def reg6 : Pipeline.RegionSeg (pcfgs (F := F)) (adms m h) (pdats m h) () defs₀ Variants.none (fun _ => ∅) (fun _ _ => 0) 6 where
  win := winFacts₀6
  block_pos := block_pos6
  stage_whole := stage_whole6
  K := PEmpty
  osem k := k.elim
  ho := Pipeline.OwnSemFacts.none _
  hbody c := (Call6.body_obligation (Call6.Vin (W13 m h)) (Chain.ok6 m h) c).loose
  hwaits := Pipeline.hwaits_of_owed_zero _ _ _ _ (fun _ => ∅) (fun _ _ => 0) 6 fun _ _ => rfl
  pre c := iprop(StableHlo.held (c : Thread nD τ) (Pipeline.ucRefs τ sig) (W13 m h c) ∗ Call6.Rst c)
  post c := iprop(StableHlo.held (c : Thread nD τ) (Pipeline.ucRefs τ sig) (W14 m h c) ∗ Call6.Rst c)
  X c := iprop(∃ r, prngReg c r)
  Y c := iprop((∃ r, prngReg c r) ∗ Pipeline.prefHeld pre6 c (fun _ => fullShare) (Call6.tbl (Call6.Vin (W13 m h))))
  Z c := Pipeline.unscopedRestP pre6 spec6 c (Call6.Vin (W13 m h) c)
  hentry c := by
    rw [Pipeline.ownSems0_none]
    iintro ⟨Hpre, -, -⟩
    iapply (Call6.entry (W13 m h) (Chain.ok6 m h) c)
    iexact Hpre
  hin c := Call6.inv_in (W13 m h) (Chain.ok6 m h) c
  hout c := by
    rw [Pipeline.ownSems0_none]
    refine (Call6.inv_out (W13 m h) (Chain.ok6 m h) c).trans ?_
    iintro ⟨HY, Hr⟩
    isplitl [HY]; · iexact HY
    isplitr; · iempintro
    iexact Hr
  hexit c := Call6.exit (W13 m h) (Chain.ok6 m h) c

set_option backward.isDefEq.respectTransparency.types false in
/-- Call 7 over the thread state: entered from every unscoped buffer at its entry contents, left at its exit contents. -/
def reg7 : Pipeline.RegionSeg (pcfgs (F := F)) (adms m h) (pdats m h) () defs₀ Variants.none (fun _ => ∅) (fun _ _ => 0) 7 where
  win := winFacts₀7
  block_pos := block_pos7
  stage_whole := stage_whole7
  K := PEmpty
  osem k := k.elim
  ho := Pipeline.OwnSemFacts.none _
  hbody c := (Call7.body_obligation (Call7.Vin (W15 m h)) (Chain.ok7 m h) c).loose
  hwaits := Pipeline.hwaits_of_owed_zero _ _ _ _ (fun _ => ∅) (fun _ _ => 0) 7 fun _ _ => rfl
  pre c := iprop(StableHlo.held (c : Thread nD τ) (Pipeline.ucRefs τ sig) (W15 m h c) ∗ Call7.Rst c)
  post c := iprop(StableHlo.held (c : Thread nD τ) (Pipeline.ucRefs τ sig) (W16 m h c) ∗ Call7.Rst c)
  X c := iprop(∃ r, prngReg c r)
  Y c := iprop((∃ r, prngReg c r) ∗ Pipeline.prefHeld pre7 c (fun _ => fullShare) (Call7.tbl (Call7.Vin (W15 m h))))
  Z c := Pipeline.unscopedRestP pre7 spec7 c (Call7.Vin (W15 m h) c)
  hentry c := by
    rw [Pipeline.ownSems0_none]
    iintro ⟨Hpre, -, -⟩
    iapply (Call7.entry (W15 m h) (Chain.ok7 m h) c)
    iexact Hpre
  hin c := Call7.inv_in (W15 m h) (Chain.ok7 m h) c
  hout c := by
    rw [Pipeline.ownSems0_none]
    refine (Call7.inv_out (W15 m h) (Chain.ok7 m h) c).trans ?_
    iintro ⟨HY, Hr⟩
    isplitl [HY]; · iexact HY
    isplitr; · iempintro
    iexact Hr
  hexit c := Call7.exit (W15 m h) (Chain.ok7 m h) c

set_option backward.isDefEq.respectTransparency.types false in
/-- Call 8 over the thread state: entered from every unscoped buffer at its entry contents, left at its exit contents. -/
def reg8 : Pipeline.RegionSeg (pcfgs (F := F)) (adms m h) (pdats m h) () defs₀ Variants.none (fun _ => ∅) (fun _ _ => 0) 8 where
  win := winFacts₀8
  block_pos := block_pos8
  stage_whole := stage_whole8
  K := PEmpty
  osem k := k.elim
  ho := Pipeline.OwnSemFacts.none _
  hbody c := (Call8.body_obligation (Call8.Vin (W17 m h)) (Chain.ok8 m h) c).loose
  hwaits := Pipeline.hwaits_of_owed_zero _ _ _ _ (fun _ => ∅) (fun _ _ => 0) 8 fun _ _ => rfl
  pre c := iprop(StableHlo.held (c : Thread nD τ) (Pipeline.ucRefs τ sig) (W17 m h c) ∗ Call8.Rst c)
  post c := iprop(StableHlo.held (c : Thread nD τ) (Pipeline.ucRefs τ sig) (W18 m h c) ∗ Call8.Rst c)
  X c := iprop(∃ r, prngReg c r)
  Y c := iprop((∃ r, prngReg c r) ∗ Pipeline.prefHeld pre8 c (fun _ => fullShare) (Call8.tbl (Call8.Vin (W17 m h))))
  Z c := Pipeline.unscopedRestP pre8 spec8 c (Call8.Vin (W17 m h) c)
  hentry c := by
    rw [Pipeline.ownSems0_none]
    iintro ⟨Hpre, -, -⟩
    iapply (Call8.entry (W17 m h) (Chain.ok8 m h) c)
    iexact Hpre
  hin c := Call8.inv_in (W17 m h) (Chain.ok8 m h) c
  hout c := by
    rw [Pipeline.ownSems0_none]
    refine (Call8.inv_out (W17 m h) (Chain.ok8 m h) c).trans ?_
    iintro ⟨HY, Hr⟩
    isplitl [HY]; · iexact HY
    isplitr; · iempintro
    iexact Hr
  hexit c := Call8.exit (W17 m h) (Chain.ok8 m h) c

set_option backward.isDefEq.respectTransparency.types false in
/-- Call 9 over the thread state: entered from every unscoped buffer at its entry contents, left at its exit contents. -/
def reg9 : Pipeline.RegionSeg (pcfgs (F := F)) (adms m h) (pdats m h) () defs₀ Variants.none (fun _ => ∅) (fun _ _ => 0) 9 where
  win := winFacts₀9
  block_pos := block_pos9
  stage_whole := stage_whole9
  K := PEmpty
  osem k := k.elim
  ho := Pipeline.OwnSemFacts.none _
  hbody c := (Call9.body_obligation (Call9.Vin (W19 m h)) (Chain.ok9 m h) c).loose
  hwaits := Pipeline.hwaits_of_owed_zero _ _ _ _ (fun _ => ∅) (fun _ _ => 0) 9 fun _ _ => rfl
  pre c := iprop(StableHlo.held (c : Thread nD τ) (Pipeline.ucRefs τ sig) (W19 m h c) ∗ Call9.Rst c)
  post c := iprop(StableHlo.held (c : Thread nD τ) (Pipeline.ucRefs τ sig) (W20 m h c) ∗ Call9.Rst c)
  X c := iprop(∃ r, prngReg c r)
  Y c := iprop((∃ r, prngReg c r) ∗ Pipeline.prefHeld pre9 c (fun _ => fullShare) (Call9.tbl (Call9.Vin (W19 m h))))
  Z c := Pipeline.unscopedRestP pre9 spec9 c (Call9.Vin (W19 m h) c)
  hentry c := by
    rw [Pipeline.ownSems0_none]
    iintro ⟨Hpre, -, -⟩
    iapply (Call9.entry (W19 m h) (Chain.ok9 m h) c)
    iexact Hpre
  hin c := Call9.inv_in (W19 m h) (Chain.ok9 m h) c
  hout c := by
    rw [Pipeline.ownSems0_none]
    refine (Call9.inv_out (W19 m h) (Chain.ok9 m h) c).trans ?_
    iintro ⟨HY, Hr⟩
    isplitl [HY]; · iexact HY
    isplitr; · iempintro
    iexact Hr
  hexit c := Call9.exit (W19 m h) (Chain.ok9 m h) c

set_option backward.isDefEq.respectTransparency.types false in
/-- Call 10 over the thread state: entered from every unscoped buffer at its entry contents, left at its exit contents. -/
def reg10 : Pipeline.RegionSeg (pcfgs (F := F)) (adms m h) (pdats m h) () defs₀ Variants.none (fun _ => ∅) (fun _ _ => 0) 10 where
  win := winFacts₀10
  block_pos := block_pos10
  stage_whole := stage_whole10
  K := PEmpty
  osem k := k.elim
  ho := Pipeline.OwnSemFacts.none _
  hbody c := (Call10.body_obligation (Call10.Vin (W21 m h)) (Chain.ok10 m h) c).loose
  hwaits := Pipeline.hwaits_of_owed_zero _ _ _ _ (fun _ => ∅) (fun _ _ => 0) 10 fun _ _ => rfl
  pre c := iprop(StableHlo.held (c : Thread nD τ) (Pipeline.ucRefs τ sig) (W21 m h c) ∗ Call10.Rst c)
  post c := iprop(StableHlo.held (c : Thread nD τ) (Pipeline.ucRefs τ sig) (W22 m h c) ∗ Call10.Rst c)
  X c := iprop(∃ r, prngReg c r)
  Y c := iprop((∃ r, prngReg c r) ∗ Pipeline.prefHeld pre10 c (fun _ => fullShare) (Call10.tbl (Call10.Vin (W21 m h))))
  Z c := Pipeline.unscopedRestP pre10 spec10 c (Call10.Vin (W21 m h) c)
  hentry c := by
    rw [Pipeline.ownSems0_none]
    iintro ⟨Hpre, -, -⟩
    iapply (Call10.entry (W21 m h) (Chain.ok10 m h) c)
    iexact Hpre
  hin c := Call10.inv_in (W21 m h) (Chain.ok10 m h) c
  hout c := by
    rw [Pipeline.ownSems0_none]
    refine (Call10.inv_out (W21 m h) (Chain.ok10 m h) c).trans ?_
    iintro ⟨HY, Hr⟩
    isplitl [HY]; · iexact HY
    isplitr; · iempintro
    iexact Hr
  hexit c := Call10.exit (W21 m h) (Chain.ok10 m h) c

set_option backward.isDefEq.respectTransparency.types false in
/-- Call 11 over the thread state: entered from every unscoped buffer at its entry contents, left at its exit contents. -/
def reg11 : Pipeline.RegionSeg (pcfgs (F := F)) (adms m h) (pdats m h) () defs₀ Variants.none (fun _ => ∅) (fun _ _ => 0) 11 where
  win := winFacts₀11
  block_pos := block_pos11
  stage_whole := stage_whole11
  K := PEmpty
  osem k := k.elim
  ho := Pipeline.OwnSemFacts.none _
  hbody c := (Call11.body_obligation (Call11.Vin (W23 m h)) (Chain.ok11 m h) c).loose
  hwaits := Pipeline.hwaits_of_owed_zero _ _ _ _ (fun _ => ∅) (fun _ _ => 0) 11 fun _ _ => rfl
  pre c := iprop(StableHlo.held (c : Thread nD τ) (Pipeline.ucRefs τ sig) (W23 m h c) ∗ Call11.Rst c)
  post c := iprop(StableHlo.held (c : Thread nD τ) (Pipeline.ucRefs τ sig) (W24 m h c) ∗ Call11.Rst c)
  X c := iprop(∃ r, prngReg c r)
  Y c := iprop((∃ r, prngReg c r) ∗ Pipeline.prefHeld pre11 c (fun _ => fullShare) (Call11.tbl (Call11.Vin (W23 m h))))
  Z c := Pipeline.unscopedRestP pre11 spec11 c (Call11.Vin (W23 m h) c)
  hentry c := by
    rw [Pipeline.ownSems0_none]
    iintro ⟨Hpre, -, -⟩
    iapply (Call11.entry (W23 m h) (Chain.ok11 m h) c)
    iexact Hpre
  hin c := Call11.inv_in (W23 m h) (Chain.ok11 m h) c
  hout c := by
    rw [Pipeline.ownSems0_none]
    refine (Call11.inv_out (W23 m h) (Chain.ok11 m h) c).trans ?_
    iintro ⟨HY, Hr⟩
    isplitl [HY]; · iexact HY
    isplitr; · iempintro
    iexact Hr
  hexit c := Call11.exit (W23 m h) (Chain.ok11 m h) c

set_option backward.isDefEq.respectTransparency.types false in
/-- Call 12 over the thread state: entered from every unscoped buffer at its entry contents, left at its exit contents. -/
def reg12 : Pipeline.RegionSeg (pcfgs (F := F)) (adms m h) (pdats m h) () defs₀ Variants.none (fun _ => ∅) (fun _ _ => 0) 12 where
  win := winFacts₀12
  block_pos := block_pos12
  stage_whole := stage_whole12
  K := PEmpty
  osem k := k.elim
  ho := Pipeline.OwnSemFacts.none _
  hbody c := (Call12.body_obligation (Call12.Vin (W25 m h)) (Chain.ok12 m h) c).loose
  hwaits := Pipeline.hwaits_of_owed_zero _ _ _ _ (fun _ => ∅) (fun _ _ => 0) 12 fun _ _ => rfl
  pre c := iprop(StableHlo.held (c : Thread nD τ) (Pipeline.ucRefs τ sig) (W25 m h c) ∗ Call12.Rst c)
  post c := iprop(StableHlo.held (c : Thread nD τ) (Pipeline.ucRefs τ sig) (W26 m h c) ∗ Call12.Rst c)
  X c := iprop(∃ r, prngReg c r)
  Y c := iprop((∃ r, prngReg c r) ∗ Pipeline.prefHeld pre12 c (fun _ => fullShare) (Call12.tbl (Call12.Vin (W25 m h))))
  Z c := Pipeline.unscopedRestP pre12 spec12 c (Call12.Vin (W25 m h) c)
  hentry c := by
    rw [Pipeline.ownSems0_none]
    iintro ⟨Hpre, -, -⟩
    iapply (Call12.entry (W25 m h) (Chain.ok12 m h) c)
    iexact Hpre
  hin c := Call12.inv_in (W25 m h) (Chain.ok12 m h) c
  hout c := by
    rw [Pipeline.ownSems0_none]
    refine (Call12.inv_out (W25 m h) (Chain.ok12 m h) c).trans ?_
    iintro ⟨HY, Hr⟩
    isplitl [HY]; · iexact HY
    isplitr; · iempintro
    iexact Hr
  hexit c := Call12.exit (W25 m h) (Chain.ok12 m h) c

set_option backward.isDefEq.respectTransparency.types false in
/-- Call 13 over the thread state: entered from every unscoped buffer at its entry contents, left at its exit contents. -/
def reg13 : Pipeline.RegionSeg (pcfgs (F := F)) (adms m h) (pdats m h) () defs₀ Variants.none (fun _ => ∅) (fun _ _ => 0) 13 where
  win := winFacts₀13
  block_pos := block_pos13
  stage_whole := stage_whole13
  K := PEmpty
  osem k := k.elim
  ho := Pipeline.OwnSemFacts.none _
  hbody c := (Call13.body_obligation (Call13.Vin (W27 m h)) (Chain.ok13 m h) c).loose
  hwaits := Pipeline.hwaits_of_owed_zero _ _ _ _ (fun _ => ∅) (fun _ _ => 0) 13 fun _ _ => rfl
  pre c := iprop(StableHlo.held (c : Thread nD τ) (Pipeline.ucRefs τ sig) (W27 m h c) ∗ Call13.Rst c)
  post c := iprop(StableHlo.held (c : Thread nD τ) (Pipeline.ucRefs τ sig) (W28 m h c) ∗ Call13.Rst c)
  X c := iprop(∃ r, prngReg c r)
  Y c := iprop((∃ r, prngReg c r) ∗ Pipeline.prefHeld pre13 c (fun _ => fullShare) (Call13.tbl (Call13.Vin (W27 m h))))
  Z c := Pipeline.unscopedRestP pre13 spec13 c (Call13.Vin (W27 m h) c)
  hentry c := by
    rw [Pipeline.ownSems0_none]
    iintro ⟨Hpre, -, -⟩
    iapply (Call13.entry (W27 m h) (Chain.ok13 m h) c)
    iexact Hpre
  hin c := Call13.inv_in (W27 m h) (Chain.ok13 m h) c
  hout c := by
    rw [Pipeline.ownSems0_none]
    refine (Call13.inv_out (W27 m h) (Chain.ok13 m h) c).trans ?_
    iintro ⟨HY, Hr⟩
    isplitl [HY]; · iexact HY
    isplitr; · iempintro
    iexact Hr
  hexit c := Call13.exit (W27 m h) (Chain.ok13 m h) c

set_option backward.isDefEq.respectTransparency.types false in
/-- Call 14 over the thread state: entered from every unscoped buffer at its entry contents, left at its exit contents. -/
def reg14 : Pipeline.RegionSeg (pcfgs (F := F)) (adms m h) (pdats m h) () defs₀ Variants.none (fun _ => ∅) (fun _ _ => 0) 14 where
  win := winFacts₀14
  block_pos := block_pos14
  stage_whole := stage_whole14
  K := PEmpty
  osem k := k.elim
  ho := Pipeline.OwnSemFacts.none _
  hbody c := (Call14.body_obligation (Call14.Vin (W29 m h)) (Chain.ok14 m h) c).loose
  hwaits := Pipeline.hwaits_of_owed_zero _ _ _ _ (fun _ => ∅) (fun _ _ => 0) 14 fun _ _ => rfl
  pre c := iprop(StableHlo.held (c : Thread nD τ) (Pipeline.ucRefs τ sig) (W29 m h c) ∗ Call14.Rst c)
  post c := iprop(StableHlo.held (c : Thread nD τ) (Pipeline.ucRefs τ sig) (W30 m h c) ∗ Call14.Rst c)
  X c := iprop(∃ r, prngReg c r)
  Y c := iprop((∃ r, prngReg c r) ∗ Pipeline.prefHeld pre14 c (fun _ => fullShare) (Call14.tbl (Call14.Vin (W29 m h))))
  Z c := Pipeline.unscopedRestP pre14 spec14 c (Call14.Vin (W29 m h) c)
  hentry c := by
    rw [Pipeline.ownSems0_none]
    iintro ⟨Hpre, -, -⟩
    iapply (Call14.entry (W29 m h) (Chain.ok14 m h) c)
    iexact Hpre
  hin c := Call14.inv_in (W29 m h) (Chain.ok14 m h) c
  hout c := by
    rw [Pipeline.ownSems0_none]
    refine (Call14.inv_out (W29 m h) (Chain.ok14 m h) c).trans ?_
    iintro ⟨HY, Hr⟩
    isplitl [HY]; · iexact HY
    isplitr; · iempintro
    iexact Hr
  hexit c := Call14.exit (W29 m h) (Chain.ok14 m h) c

set_option backward.isDefEq.respectTransparency.types false in
/-- Call 15 over the thread state: entered from every unscoped buffer at its entry contents, left at its exit contents. -/
def reg15 : Pipeline.RegionSeg (pcfgs (F := F)) (adms m h) (pdats m h) () defs₀ Variants.none (fun _ => ∅) (fun _ _ => 0) 15 where
  win := winFacts₀15
  block_pos := block_pos15
  stage_whole := stage_whole15
  K := PEmpty
  osem k := k.elim
  ho := Pipeline.OwnSemFacts.none _
  hbody c := (Call15.body_obligation (Call15.Vin (W31 m h)) (Chain.ok15 m h) c).loose
  hwaits := Pipeline.hwaits_of_owed_zero _ _ _ _ (fun _ => ∅) (fun _ _ => 0) 15 fun _ _ => rfl
  pre c := iprop(StableHlo.held (c : Thread nD τ) (Pipeline.ucRefs τ sig) (W31 m h c) ∗ Call15.Rst c)
  post c := iprop(StableHlo.held (c : Thread nD τ) (Pipeline.ucRefs τ sig) (W32 m h c) ∗ Call15.Rst c)
  X c := iprop(∃ r, prngReg c r)
  Y c := iprop((∃ r, prngReg c r) ∗ Pipeline.prefHeld pre15 c (fun _ => fullShare) (Call15.tbl (Call15.Vin (W31 m h))))
  Z c := Pipeline.unscopedRestP pre15 spec15 c (Call15.Vin (W31 m h) c)
  hentry c := by
    rw [Pipeline.ownSems0_none]
    iintro ⟨Hpre, -, -⟩
    iapply (Call15.entry (W31 m h) (Chain.ok15 m h) c)
    iexact Hpre
  hin c := Call15.inv_in (W31 m h) (Chain.ok15 m h) c
  hout c := by
    rw [Pipeline.ownSems0_none]
    refine (Call15.inv_out (W31 m h) (Chain.ok15 m h) c).trans ?_
    iintro ⟨HY, Hr⟩
    isplitl [HY]; · iexact HY
    isplitr; · iempintro
    iexact Hr
  hexit c := Call15.exit (W31 m h) (Chain.ok15 m h) c

end Cert.Kernel.Whole

end
-- ==== Proof.WordWhole.lean ====
import proofs.«406163_j35201551958720_3_alg».proof.Proof.WordSegments
import Idealize.ShloMosaic.Lib.Pipeline.Kit

set_option maxRecDepth 16384

noncomputable section

namespace Cert.Kernel.Whole

open Cert.Kernel Cert.Kernel.Gen Cert.Kernel.Chain
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (h : InRange m) (ρ : Dev nD → PrngReg)

/-! # The whole program: from any memory whose index arrays name rows, every fair execution ends with the arguments
as launched and the result buffer at the chain's last contents -/

set_option backward.isDefEq.respectTransparency.types false in
theorem run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_v89) = W33 m h c main_v89) := by
  have key := Regions.frame_cond (F := F) m (Ix := Unit) (U := UR sig nD τ) (Lvl := ℕ) emb₁ () Variants.none (fun _ => ∅) (fun _ _ => 0) (fun _ _ => rfl)
      ρ (outs m h) (adms m h) (pdats m h) (O₀ := 0) (G := fun _ => iprop(emp))
      (u₀ := initOf (Pipeline.cells (Pipeline.pin (pcfgs (F := F)) (adms m h)) (cellOf_inj (adms m h))) (Pipeline.launchToks (Pipeline.pin (pcfgs (F := F)) (adms m h)) (cellOf_inj (adms m h))))
      (hu₀ := by
        iintro Hu; imodintro
        isplitl [Hu]
        · iapply (show (ownU (initOf (Pipeline.cells (Pipeline.pin (pcfgs (F := F)) (adms m h)) (cellOf_inj (adms m h))) (Pipeline.launchToks (Pipeline.pin (pcfgs (F := F)) (adms m h)) (cellOf_inj (adms m h)))) : sProp 𝕄)
              ⊢ BI.own (emb₁ (initOf (Pipeline.cells (Pipeline.pin (pcfgs (F := F)) (adms m h)) (cellOf_inj (adms m h))) (Pipeline.launchToks (Pipeline.pin (pcfgs (F := F)) (adms m h)) (cellOf_inj (adms m h))))) from .rfl)
          iexact Hu
        iapply (show (BI.emp : sProp 𝕄) ⊢ bigSep Finset.univ (fun _ : Dev nD => (BI.emp : sProp 𝕄)) from by rw [BI.bigSep_emp_const])
        iempintro)
      (E := fun _ c => Call0.Rst c)
      (hE0 := by
        refine Pipeline.initEach (fun _ => ∅) (fun _ _ => 0) fun c => ?_
        iintro ⟨⟨-, HO, -, Hp, -⟩, -⟩
        imodintro
        isplitl [Hp]; · iexists _; iexact Hp
        iexists ∅; iexact HO)
      (hE16 := fun c => by
        iintro ⟨-, HO⟩
        iexact HO)
      (reg0 m h) (fun c => by rw [V1_eq]; exact .rfl) (fun c => by rw [V2_eq]; exact .rfl)
      (reg1 m h) (fun c => by rw [V3_eq]; exact .rfl) (fun c => by rw [V4_eq]; exact .rfl)
      (reg2 m h) (fun c => by rw [V5_eq]; exact .rfl) (fun c => by rw [V6_eq]; exact .rfl)
      (reg3 m h) (fun c => by rw [V7_eq]; exact .rfl) (fun c => by rw [V8_eq]; exact .rfl)
      (reg4 m h) (fun c => by rw [V9_eq]; exact .rfl) (fun c => by rw [V10_eq]; exact .rfl)
      (reg5 m h) (fun c => by rw [V11_eq]; exact .rfl) (fun c => by rw [V12_eq]; exact .rfl)
      (reg6 m h) (fun c => by rw [V13_eq]; exact .rfl) (fun c => by rw [V14_eq]; exact .rfl)
      (reg7 m h) (fun c => by rw [V15_eq]; exact .rfl) (fun c => by rw [V16_eq]; exact .rfl)
      (reg8 m h) (fun c => by rw [V17_eq]; exact .rfl) (fun c => by rw [V18_eq]; exact .rfl)
      (reg9 m h) (fun c => by rw [V19_eq]; exact .rfl) (fun c => by rw [V20_eq]; exact .rfl)
      (reg10 m h) (fun c => by rw [V21_eq]; exact .rfl) (fun c => by rw [V22_eq]; exact .rfl)
      (reg11 m h) (fun c => by rw [V23_eq]; exact .rfl) (fun c => by rw [V24_eq]; exact .rfl)
      (reg12 m h) (fun c => by rw [V25_eq]; exact .rfl) (fun c => by rw [V26_eq]; exact .rfl)
      (reg13 m h) (fun c => by rw [V27_eq]; exact .rfl) (fun c => by rw [V28_eq]; exact .rfl)
      (reg14 m h) (fun c => by rw [V29_eq]; exact .rfl) (fun c => by rw [V30_eq]; exact .rfl)
      (reg15 m h) (fun c => by rw [V31_eq]; exact .rfl) (fun c => by rw [V32_eq]; exact .rfl)
  refine (θ_run defs _ _).mono (fun r hr c => ?_) key
  obtain ⟨h0, h1, h2, h3⟩ := hr c
  exact ⟨h0, h1, h2, h3.trans (congrFun (V33_eq m h c) _)⟩

end Cert.Kernel.Whole

end
-- ==== Proof.PreRange.lean ====
/-
  What the precondition says of the argument arrays, entry by entry.

  The precondition is the conjunction of three tests, each an "all" over an array: every entry of the table is, in
  absolute value, below +∞; every entry of each index list is, read as a signed word, at least 0 and below 100000.
  That the conjunction is the bit 1 gives each test at each entry. For an index word this is a range, stated both on the
  signed reading and on the unsigned one (the two readings agree on such a word, whose top bit is clear). For a table
  entry, at the extended reals, it says the entry is neither infinity, that is, a real number.
-/
import proofs.«406163_j35201551958720_3_alg».proof.Pre_finite_inputs
import proofs.«406163_j35201551958720_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

namespace Cert.PreRange

open Idealize.ShloMosaic Idealize.ShloMosaic.ValueIdx Cert.Pre_finite_inputs Cert.Pre_finite_inputs.Gen

/-- The scalar shape has one index. -/
instance : Subsingleton S_.Idx := ⟨fun a b => funext fun d => d.elim0⟩

section Split
variable {F : FTy → Type} [FloatOps F]

/-- The three tests, each at every entry: the conjunction is 1 only if each "all" is 1, and an "all" that is 1 met
    only 1s. -/
theorem tests (h : FVec F S100000x256 .f32) (pos neg : IVec S200000x2 32)
    (hp : fn (F := F) h pos neg = fun _ => 1#1) :
    (∀ i : S100000x256.Idx, FloatOps.cmpf .olt (FloatOps.hostAbsf (h i)) (FloatOps.ofBits (F := F) .f32 0x7F800000#32) = 1#1)
    ∧ (∀ i : S200000x2.Idx, IntOp.cmpi .sge (pos i) 0#32 = 1#1 ∧ IntOp.cmpi .slt (pos i) 100000#32 = 1#1)
    ∧ (∀ i : S200000x2.Idx, IntOp.cmpi .sge (neg i) 0#32 = 1#1 ∧ IntOp.cmpi .slt (neg i) 100000#32 = 1#1) := by
  have h0 := congrFun hp ix0
  dsimp only [fn, fn_part1] at h0
  obtain ⟨h12, h3⟩ := IntOp.andi_eq_one.1 h0
  obtain ⟨h1, h2⟩ := IntOp.andi_eq_one.1 h12
  refine ⟨fun i => ?_, fun i => ?_, fun i => ?_⟩
  · exact Host.reduce_andi_all _ _ _ _ _ h1 i
  · exact IntOp.andi_eq_one.1 (Host.reduce_andi_all _ _ _ _ _ h2 i)
  · exact IntOp.andi_eq_one.1 (Host.reduce_andi_all _ _ _ _ _ h3 i)

end Split

/-- A word that tests at least 0 and below 100000, read signed, lies in that range. -/
theorem toInt_range {a : BitVec 32} (h0 : IntOp.cmpi .sge a 0#32 = 1#1) (h1 : IntOp.cmpi .slt a 100000#32 = 1#1) :
    0 ≤ a.toInt ∧ a.toInt < 100000 := by
  have e0 : (0#32 : BitVec 32).toInt = 0 := by decide
  have e1 : (100000#32 : BitVec 32).toInt = 100000 := by decide
  have g0 := IntOp.cmpi_sge.1 h0
  have g1 := IntOp.cmpi_slt.1 h1
  rw [e0] at g0
  rw [e1] at g1
  exact ⟨g0, g1⟩

/-- A word in the range [0, 100000) read signed reads the same unsigned, and its top bit is clear. -/
theorem toNat_of_toInt_range {a : BitVec 32} (h : 0 ≤ a.toInt ∧ a.toInt < 100000) :
    a.toNat < 100000 ∧ a.msb = false ∧ a.toInt = (a.toNat : Int) := by
  have h2 : 2 * a.toNat < 2 ^ 32 := BitVec.toInt_pos_iff.1 h.1
  have e : a.toInt = (a.toNat : Int) := BitVec.toInt_eq_toNat_of_lt h2
  refine ⟨?_, BitVec.msb_eq_false_iff_two_mul_lt.2 h2, e⟩
  have := h.2
  omega

section Ranges
variable {F : FTy → Type} [FloatOps F]

/-- Every entry of the first index list is, read signed, in [0, 100000). -/
theorem pos_toInt (h : FVec F S100000x256 .f32) (pos neg : IVec S200000x2 32)
    (hp : fn (F := F) h pos neg = fun _ => 1#1) (i : S200000x2.Idx) : 0 ≤ (pos i).toInt ∧ (pos i).toInt < 100000 :=
  toInt_range ((tests h pos neg hp).2.1 i).1 ((tests h pos neg hp).2.1 i).2

/-- Every entry of the second index list is, read signed, in [0, 100000). -/
theorem neg_toInt (h : FVec F S100000x256 .f32) (pos neg : IVec S200000x2 32)
    (hp : fn (F := F) h pos neg = fun _ => 1#1) (i : S200000x2.Idx) : 0 ≤ (neg i).toInt ∧ (neg i).toInt < 100000 :=
  toInt_range ((tests h pos neg hp).2.2 i).1 ((tests h pos neg hp).2.2 i).2

/-- Every entry of the first index list is, read unsigned, below 100000, and its top bit is clear. -/
theorem pos_toNat (h : FVec F S100000x256 .f32) (pos neg : IVec S200000x2 32)
    (hp : fn (F := F) h pos neg = fun _ => 1#1) (i : S200000x2.Idx) : (pos i).toNat < 100000 ∧ (pos i).msb = false :=
  ⟨(toNat_of_toInt_range (pos_toInt h pos neg hp i)).1, (toNat_of_toInt_range (pos_toInt h pos neg hp i)).2.1⟩

/-- Every entry of the second index list is, read unsigned, below 100000, and its top bit is clear. -/
theorem neg_toNat (h : FVec F S100000x256 .f32) (pos neg : IVec S200000x2 32)
    (hp : fn (F := F) h pos neg = fun _ => 1#1) (i : S200000x2.Idx) : (neg i).toNat < 100000 ∧ (neg i).msb = false :=
  ⟨(toNat_of_toInt_range (neg_toInt h pos neg hp i)).1, (toNat_of_toInt_range (neg_toInt h pos neg hp i)).2.1⟩

end Ranges

/-- An extended real whose absolute value is below +∞ is neither infinity. -/
theorem ne_top_bot_of_abs_lt (x : EReal)
    (hx : FloatOps.cmpf (F := Ideal) (φ := .f32) .olt (FloatOps.hostAbsf x) (FloatOps.ofBits (F := Ideal) .f32 0x7F800000#32) = 1#1) :
    x ≠ ⊤ ∧ x ≠ ⊥ := by
  have etop : Ideal.ofBits .f32 0x7F800000#32 = ⊤ := by simp [Ideal.ofBits, Ideal.ieee]
  have hx' : Ideal.cmp .olt (max x (-x)) (Ideal.ofBits .f32 0x7F800000#32) = 1#1 := hx
  rw [etop] at hx'
  constructor
  · rintro rfl
    revert hx'
    simp [Ideal.cmp]
  · rintro rfl
    revert hx'
    simp [Ideal.cmp]

/-- At the extended reals: every entry of the table is neither infinity. -/
theorem table_ne (h : FVec Ideal S100000x256 .f32) (pos neg : IVec S200000x2 32)
    (hp : fn (F := Ideal) h pos neg = fun _ => 1#1) (i : S100000x256.Idx) : h i ≠ ⊤ ∧ h i ≠ ⊥ :=
  ne_top_bot_of_abs_lt (h i) ((tests h pos neg hp).1 i)

/-- At the extended reals: every entry of the table is a real number. -/
theorem table_real (h : FVec Ideal S100000x256 .f32) (pos neg : IVec S200000x2 32)
    (hp : fn (F := Ideal) h pos neg = fun _ => 1#1) (i : S100000x256.Idx) : ∃ r : ℝ, h i = (r : EReal) := by
  obtain ⟨ht, hb⟩ := table_ne h pos neg hp i
  induction hx : h i using EReal.rec with
  | bot => exact absurd hx hb
  | top => exact absurd hx ht
  | coe r => exact ⟨r, rfl⟩

end Cert.PreRange
-- ==== Proof.PreToRange.lean ====
import proofs.«406163_j35201551958720_3_alg».proof.Defs
import proofs.«406163_j35201551958720_3_alg».proof.Proof.PreRange
import proofs.«406163_j35201551958720_3_alg».proof.Proof.Chain
import proofs.«406163_j35201551958720_3_alg».proof.Proof.Gen.Pre_finite_inputs

noncomputable section

namespace Cert.KernelIdeal.Chain

open Cert.KernelIdeal Idealize.ShloMosaic Idealize.ShloMosaic.TcCoe Idealize.SL.Sem

variable {F : FTy → Type} [FloatOps F]

/-- Under the precondition every entry of the two index arrays names one of the rows. -/
theorem inRange_of_pre (m : (ℓ : Loc nD τ sig) → Buf (Elt F) ℓ)
    (hpre : ∀ c : Dev nD, (Cert.Pre_finite_inputs.fn (F := F) (m ((c.tc : Thread nD τ).loc main_arg0)) (m ((c.tc : Thread nD τ).loc main_arg1)) (m ((c.tc : Thread nD τ).loc main_arg2))) = (fun _ => 1#1)) :
    InRange m := fun c =>
  ⟨fun i => (Cert.PreRange.pos_toNat _ _ _ (hpre c) i).1, fun i => (Cert.PreRange.neg_toNat _ _ _ (hpre c) i).1⟩

end Cert.KernelIdeal.Chain

end
-- ==== Proof.WordPreToRange.lean ====
import proofs.«406163_j35201551958720_3_alg».proof.Defs
import proofs.«406163_j35201551958720_3_alg».proof.Proof.PreRange
import proofs.«406163_j35201551958720_3_alg».proof.Proof.WordChain
import proofs.«406163_j35201551958720_3_alg».proof.Proof.Gen.Pre_finite_inputs

noncomputable section

namespace Cert.Kernel.Chain

open Cert.Kernel Idealize.ShloMosaic Idealize.ShloMosaic.TcCoe Idealize.SL.Sem

variable {F : FTy → Type} [FloatOps F]

/-- Under the precondition every entry of the two index arrays names one of the rows. -/
theorem inRange_of_pre (m : (ℓ : Loc nD τ sig) → Buf (Elt F) ℓ)
    (hpre : ∀ c : Dev nD, (Cert.Pre_finite_inputs.fn (F := F) (m ((c.tc : Thread nD τ).loc main_arg0)) (m ((c.tc : Thread nD τ).loc main_arg1)) (m ((c.tc : Thread nD τ).loc main_arg2))) = (fun _ => 1#1)) :
    InRange m := fun c =>
  ⟨fun i => (Cert.PreRange.pos_toNat _ _ _ (hpre c) i).1, fun i => (Cert.PreRange.neg_toNat _ _ _ (hpre c) i).1⟩

end Cert.Kernel.Chain

end
-- ==== Proof.PairTotal.lean ====
/-
  The pair loss as one extended-real number of the three argument arrays.

  For a table h of 100000 rows of 256 reals and two lists of 200000 index pairs, the loss is the sum over the first
  list of the Euclidean distance between the two rows a pair names, plus the sum over the second list of the hinge
  max(0, 1/2 − distance). A row is read at a natural number: below 100000 it is the table's row, from 100000 on it is
  the zero row, so that the function is total and carries no proof inside later terms. An index word is read as the
  natural number it denotes.
-/
import Idealize.ShloMosaic.PureOps.Ideal
import Idealize.ShloMosaic.Lib.ValueIdx
import Idealize.ShloMosaic.PureOps.Ideal.Laws

noncomputable section

open scoped BigOperators

namespace Cert.PairTotal

open Idealize.ShloMosaic Idealize.ShloMosaic.ValueIdx

/-- Entry d of row a of the table; the zero row from 100000 on. -/
def row (h : Vec Ideal ⟨2, ![100000, 256]⟩ .f32) (a : ℕ) (d : Fin 256) : EReal :=
  if ha : a < 100000 then h (ix2 ⟨a, ha⟩ d) else 0

/-- Below 100000 a row is the table's row. -/
theorem row_of_lt (h : Vec Ideal ⟨2, ![100000, 256]⟩ .f32) {a : ℕ} (ha : a < 100000) (d : Fin 256) :
    row h a d = h (ix2 ⟨a, ha⟩ d) := dif_pos ha

/-- The Euclidean distance between rows a and b: the square root of the sum of the squared differences. -/
def dist (h : Vec Ideal ⟨2, ![100000, 256]⟩ .f32) (a b : ℕ) : EReal :=
  Ideal.sqrt (∑ d : Fin 256, (row h a d - row h b d) * (row h a d - row h b d))

/-- The hinge of a pair: the larger of 0 and one half (the real the word 0x3F000000 denotes) minus the distance. -/
def hinge (h : Vec Ideal ⟨2, ![100000, 256]⟩ .f32) (a b : ℕ) : EReal :=
  max 0 (Ideal.ofBits .f32 0x3F000000#32 - dist h a b)

/-- The loss: the distances of the first list's pairs plus the hinges of the second list's pairs. -/
def total (h : Vec Ideal ⟨2, ![100000, 256]⟩ .f32) (pos neg : Vec Ideal ⟨2, ![200000, 2]⟩ .i32) : EReal :=
  (∑ k : Fin 200000, dist h (pos (ix2 k 0)).toNat (pos (ix2 k 1)).toNat)
    + (∑ k : Fin 200000, hinge h (neg (ix2 k 0)).toNat (neg (ix2 k 1)).toNat)

end Cert.PairTotal

end
-- ==== Proof.LibRows.lean ====
/-
  General lemmas: jnp's row take `x[idx, :]` and row accumulation `zeros.at[idx].add(u)` read at an index.

  `Host.gather` with offset_dims [1], collapsed_slice_dims [0], start_index_map [0], index_vector_dim 1 and
  slice sizes [1, C], over an operand [N, C] and start indices [K, 1], reads at (k, c) the operand's row
  idx[k, 0] (read signed, clamped into [0, N − 1]) at column c.
  The host's float scatter with an add body at the ideal values (`Ideal.hostScatterAdd`), with
  inserted_window_dims [0], scatter_dims_to_operand_dims [0], index_vector_dim 1 over indices [K, 1]:
  into a vector [N] from updates [K] (no window axis), and into an array [N, C] from updates [K, C]
  (update_window_dims [1]): entry i (resp. (i, c)) is the operand's plus the sum of the updates k
  (resp. (k, c)) whose index word idx[k, 0], read signed, is i.
-/
import Idealize.ShloMosaic.PureOps.Ideal
import Idealize.ShloMosaic.Lib.ValueIdx
import Idealize.ShloMosaic.Lib.ValueIdxRank1

noncomputable section

open scoped BigOperators

namespace Cert.Lib.Rows

open Idealize.ShloMosaic Idealize.ShloMosaic.ValueIdx

/-- The dimension numbers of a row take: operand [N, C], start indices [K, 1], result [K, C]. -/
abbrev gatherDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (k, c): the operand at row idx[k, 0], read signed and clamped into [0, N − 1], column c. -/
theorem gather_rows_apply {α : Type} {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (c : Fin C) :
    Host.gather (gatherDims N C K wf) x idx (ix2 k c)
      = x (ix2 ⟨min (idx (ix2 k (0 : Fin 1))).toInt.toNat (N - 1), by omega⟩ c) := by
  unfold Host.gather
  congr 1
  funext a
  refine Fin.ext ?_
  match a with
  | ⟨0, _⟩ =>
    -- the collapsed axis: the clamped start index, no batching and no offset coordinate
    show (gatherDims N C K wf).start (ix2 k c) idx 0 + (gatherDims N C K wf).batchCoord (ix2 k c) 0
      + (gatherDims N C K wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C K wf).startIndexMap from List.mem_singleton.mpr rfl)]
    have hsi : (gatherDims N C K wf).siIdx (ix2 k c) ⟨List.idxOf (0 : Fin 2) (gatherDims N C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    -- the offset axis: start 0, no batching coordinate, the result's column
    show (gatherDims N C K wf).start (ix2 k c) idx 1 + (gatherDims N C K wf).batchCoord (ix2 k c) 1
      + (gatherDims N C K wf).offCoord (ix2 k c) 1 = c.val
    rw [GatherDims.batchCoord_eq_zero _ _ _ List.not_mem_nil]
    have hst : (gatherDims N C K wf).start (ix2 k c) idx 1 = 0 := by
      unfold GatherDims.start
      rw [dif_neg (show (1 : Fin 2) ∉ (gatherDims N C K wf).startIndexMap from by
        intro h; exact Nat.one_ne_zero (congrArg Fin.val (List.mem_singleton.mp h)))]
    have hoff : (gatherDims N C K wf).offCoord (ix2 k c) 1 = c.val := by
      unfold GatherDims.offCoord
      rw [dif_pos (show (1 : Fin 2) ∈ (gatherDims N C K wf).sKept from
        (GatherDims.mem_sKept _ _).mpr ⟨fun h => Nat.one_ne_zero (congrArg Fin.val (List.mem_singleton.mp h)), List.not_mem_nil⟩)]
      rfl
    rw [hst, hoff]; simp

/-- An update lands at `i` exactly when, on every axis, its start plus its window coordinate is `i`'s coordinate,
    as integers (which forces the landing index into range on that axis). -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hr
      have hv : (d.start j idx a + (d.window j a : Int)).toNat = (i a).val :=
        congrArg Fin.val (congrFun (Option.some.inj h) a)
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    show (d.start j idx a + (d.window j a : Int)).toNat = (i a).val
    have := h a
    omega

/-- A sum over a rank-1 index set is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulation into a vector [N] from updates [K] at indices [K, 1]. -/
abbrev scatterVecDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- On the vector's one axis the start of update k is its index word idx[k, 0], read signed. -/
private theorem vec_start {N K w : Nat}
    (wf : ScatterDims.WF ⟨1, ![N]⟩ ⟨2, ![K, 1]⟩ ⟨1, ![K]⟩ [] [0] [0] 1)
    (idx : IVec ⟨2, ![K, 1]⟩ w) (k : Fin K) :
    (scatterVecDims N K wf).start (ix1 k) idx (0 : Fin 1) = (idx (ix2 k (0 : Fin 1))).toInt := by
  unfold ScatterDims.start
  rw [dif_pos (show (0 : Fin 1) ∈ (scatterVecDims N K wf).scatterDimsToOperandDims from List.mem_singleton.mpr rfl)]
  have hsi : (scatterVecDims N K wf).siIdx (ix1 k)
      ⟨List.idxOf (0 : Fin 1) (scatterVecDims N K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The vector's one axis is an inserted window axis: no window coordinate. -/
private theorem vec_window {N K : Nat}
    (wf : ScatterDims.WF ⟨1, ![N]⟩ ⟨2, ![K, 1]⟩ ⟨1, ![K]⟩ [] [0] [0] 1) (k : Fin K) :
    (scatterVecDims N K wf).window (ix1 k) (0 : Fin 1) = 0 := rfl

/-- Update k lands at entry i exactly when its index word, read signed, is i. -/
private theorem vec_resultIdx? {N K w : Nat}
    (wf : ScatterDims.WF ⟨1, ![N]⟩ ⟨2, ![K, 1]⟩ ⟨1, ![K]⟩ [] [0] [0] 1)
    (idx : IVec ⟨2, ![K, 1]⟩ w) (k : Fin K) (i : Fin N) :
    (scatterVecDims N K wf).resultIdx? (ix1 k) idx = some (ix1 i)
      ↔ (idx (ix2 k (0 : Fin 1))).toInt = (i.val : Int) := by
  rw [resultIdx?_eq_some_iff]
  constructor
  · intro h
    have h0 := h (0 : Fin 1)
    rw [vec_start, vec_window] at h0
    simpa using h0
  · intro h a
    obtain rfl : a = (0 : Fin 1) := Subsingleton.elim _ _
    rw [vec_start, vec_window]
    simpa using h

/-- Entry i of the accumulated vector: the operand's plus the updates whose index word is i. -/
theorem hostScatterAdd_vec_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal) (i : Fin N) :
    Ideal.hostScatterAdd (scatterVecDims N K wf) x idx upd (ix1 i)
      = x (ix1 i) + ∑ k : Fin K, if (idx (ix2 k (0 : Fin 1))).toInt = (i.val : Int) then upd (ix1 k) else 0 := by
  unfold Ideal.hostScatterAdd
  refine congrArg (x (ix1 i) + ·) ?_
  rw [Finset.sum_filter, sum_idx1]
  refine Finset.sum_congr rfl fun k _ => ?_
  exact if_congr (vec_resultIdx? wf idx k i) rfl rfl

/-- The dimension numbers of an accumulation of rows into [N, C] from updates [K, C] at indices [K, 1]. -/
abbrev scatterRowsDims (N C K : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

/-- On the row axis the start of update (k, c') is its index word idx[k, 0], read signed. -/
private theorem rows_start0 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (0 : Fin 2) = (idx (ix2 k (0 : Fin 1))).toInt := by
  unfold ScatterDims.start
  rw [dif_pos (show (0 : Fin 2) ∈ (scatterRowsDims N C K wf).scatterDimsToOperandDims from List.mem_singleton.mpr rfl)]
  have hsi : (scatterRowsDims N C K wf).siIdx (ix2 k c')
      ⟨List.idxOf (0 : Fin 2) (scatterRowsDims N C K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The column axis is not named by the index map: its start is 0. -/
private theorem rows_start1 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (1 : Fin 2) = 0 := by
  unfold ScatterDims.start
  rw [dif_neg (show (1 : Fin 2) ∉ (scatterRowsDims N C K wf).scatterDimsToOperandDims from fun h =>
    Nat.one_ne_zero (congrArg Fin.val (List.mem_singleton.mp h)))]

/-- The row axis is an inserted window axis: no window coordinate. -/
private theorem rows_window0 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (0 : Fin 2) = 0 := rfl

/-- The column axis carries the update's window axis: the window coordinate is the update's column. -/
private theorem rows_window1 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (1 : Fin 2) = c'.val := rfl

/-- Update (k, c') lands at entry (i, c) exactly when its index word, read signed, is i and its column is c. -/
private theorem rows_resultIdx? {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) (i : Fin N) (c : Fin C) :
    (scatterRowsDims N C K wf).resultIdx? (ix2 k c') idx = some (ix2 i c)
      ↔ (idx (ix2 k (0 : Fin 1))).toInt = (i.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    have h0' : (idx (ix2 k (0 : Fin 1))).toInt + ((0 : Nat) : Int) = (i.val : Int) := h0
    have h1' : (0 : Int) + (c'.val : Int) = (c.val : Int) := h1
    exact ⟨by omega, Fin.ext (by omega)⟩
  · rintro ⟨h, rfl⟩ a
    match a with
    | ⟨0, _⟩ =>
      show (scatterRowsDims N C K wf).start (ix2 k c') idx (0 : Fin 2)
        + ((scatterRowsDims N C K wf).window (ix2 k c') (0 : Fin 2) : Int) = (i.val : Int)
      rw [rows_start0, rows_window0]
      omega
    | ⟨1, _⟩ =>
      show (scatterRowsDims N C K wf).start (ix2 k c') idx (1 : Fin 2)
        + ((scatterRowsDims N C K wf).window (ix2 k c') (1 : Fin 2) : Int) = (c'.val : Int)
      rw [rows_start1, rows_window1]
      omega

/-- Entry (i, c) of the accumulated array: the operand's plus the updates (k, c) whose index word is i. -/
theorem hostScatterAdd_rows_apply {N C K w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (c : Fin C) :
    Ideal.hostScatterAdd (scatterRowsDims N C K wf) x idx upd (ix2 i c)
      = x (ix2 i c) + ∑ k : Fin K, if (idx (ix2 k (0 : Fin 1))).toInt = (i.val : Int) then upd (ix2 k c) else 0 := by
  unfold Ideal.hostScatterAdd
  refine congrArg (x (ix2 i c) + ·) ?_
  rw [Finset.sum_filter, sum_idx2]
  refine Finset.sum_congr rfl fun k _ => ?_
  simp only [rows_resultIdx?]
  by_cases h : (idx (ix2 k (0 : Fin 1))).toInt = (i.val : Int)
  · -- the row matches: of the columns only c' = c survives
    simp only [h, true_and, if_true]
    rw [Finset.sum_ite_eq' Finset.univ c (fun c' => upd (ix2 k c'))]
    simp
  · -- the row does not match: every term is 0
    simp only [h, false_and, if_false]
    exact Finset.sum_const_zero

end Cert.Lib.Rows

end
-- ==== Proof.RefTotal.lean ====
/-
  The reference's result is the pair loss.

  The reference reads each index column by a slice and a reshape, wraps a negative index by adding 100000 (a select
  on "the word is negative"), and takes the table's rows at the resulting column. For a word that, read signed, is at
  least 0 and below 100000, the select keeps the word, the row take needs no clamping, and the row taken is the table's
  row at the natural number the word denotes. The differences of the two rows of a pair are squared and summed over
  the 256 entries (from the initial value 0), the square root is the pair's distance; the first list's distances are
  summed, the second list's hinges max(0, 1/2 − distance) are summed, and the two sums are added.
-/
import proofs.«406163_j35201551958720_3_alg».proof.Proof.Gen.ReferenceIdeal
import proofs.«406163_j35201551958720_3_alg».proof.Proof.Gen.ReferenceIdeal.Run
import proofs.«406163_j35201551958720_3_alg».proof.Proof.Gen.ReferenceIdeal.Read
import proofs.«406163_j35201551958720_3_alg».proof.Proof.PairTotal
import proofs.«406163_j35201551958720_3_alg».proof.Proof.LibRows
import Idealize.ShloMosaic.Lib.Affine
import Idealize.ShloMosaic.Lib.ValueIdx
import Idealize.ShloMosaic.Lib.ValueIdxRank1
import Idealize.ShloMosaic.PureOps.Ideal.Laws

noncomputable section

open scoped BigOperators

namespace Cert.ReferenceIdeal.RefValue

open Cert.ReferenceIdeal Cert.ReferenceIdeal.Read Idealize.ShloMosaic Idealize.ShloMosaic.ValueIdx Cert.PairTotal

/-! ## Words and rows -/

/-- The wrap of a negative index leaves a word that is not negative as it is. -/
theorem wrap_id (w : BitVec 32) (h0 : 0 ≤ w.toInt) :
    Scalar.select (IntOp.cmpi .slt w 0#32) (IntOp.addi w 100000#32) w = w := by
  have hc : IntOp.cmpi .slt w 0#32 = 0#1 := eq_zero_of_ne_one (fun h => by
    have h' := IntOp.cmpi_slt.1 h
    rw [show (0#32 : BitVec 32).toInt = 0 from by decide] at h'
    omega)
  rw [hc, select_zero]

/-- The table at a start index that is in range, after the clamp into [0, 99999]: the row the word names. -/
theorem clamp_row (x0 : FVec Ideal S100000x256 .f32) (w : BitVec 32) (d : Fin 256)
    (hr : 0 ≤ w.toInt ∧ w.toInt < 100000) (hlt : min w.toInt.toNat (100000 - 1) < 100000) :
    x0 (ix2 ⟨min w.toInt.toNat (100000 - 1), hlt⟩ d) = row x0 w.toNat d := by
  have h2 : 2 * w.toNat < 2 ^ 32 := BitVec.toInt_pos_iff.1 hr.1
  have e : w.toInt = (w.toNat : Int) := BitVec.toInt_eq_toNat_of_lt h2
  have hw : w.toNat < 100000 := by have := hr.2; omega
  have hf : (⟨min w.toInt.toNat (100000 - 1), hlt⟩ : Fin 100000) = ⟨w.toNat, hw⟩ := Fin.ext (by
    show min w.toInt.toNat (100000 - 1) = w.toNat
    rw [e]; omega)
  rw [hf, row_of_lt x0 hw]

/-- The row take at (k, d), when the start index of k is a word in range: entry d of the row the word names. -/
theorem gather_row (x0 : FVec Ideal S100000x256 .f32) (idx : IVec S200000x1 32) (k : Fin 200000) (d : Fin 256)
    (w : BitVec 32) (hw : idx (ix2 k (0 : Fin 1)) = w) (hr : 0 ≤ w.toInt ∧ w.toInt < 100000) :
    Host.gather gather_S100000x256_S200000x1_S200000x256_1_0_n_n_0_1_1256 x0 idx (ix2 k d) = row x0 w.toNat d := by
  subst hw
  show Host.gather (Cert.Lib.Rows.gatherDims 100000 256 200000
    Gen.gather_S100000x256_S200000x1_S200000x256_1_0_n_n_0_1_1256_wf) x0 idx (ix2 k d) = _
  rw [Cert.Lib.Rows.gather_rows_apply (by decide)]
  exact clamp_row x0 _ d hr _

/-- A sum over the indices of a vector is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The first list -/

/-- Column 0 of row k, through the slice, the reshape and the broadcast to a column. -/
theorem idx_A (k : Fin 200000) : idx_main_v0 (idx_main_v1 (idx_main_v7 (ix2 k (0 : Fin 1)))) = ix2 k (0 : Fin 2) := by
  funext a
  refine Fin.ext ?_
  match a with
  | ⟨0, _⟩ => exact Nat.div_one _
  | ⟨1, _⟩ => rfl

/-- Column 1 of row k, likewise. -/
theorem idx_B (k : Fin 200000) : idx_main_v9 (idx_main_v10 (idx_main_v16 (ix2 k (0 : Fin 1)))) = ix2 k (1 : Fin 2) := by
  funext a
  refine Fin.ext ?_
  match a with
  | ⟨0, _⟩ => exact Nat.div_one _
  | ⟨1, _⟩ => rfl

/-- The start index of pair k's first row is the word in column 0. -/
theorem start_A (x : IVec S200000x2 32) (k : Fin 200000) (h0 : 0 ≤ (x (ix2 k 0)).toInt) :
    val_main_v7 (F := Ideal) x (ix2 k (0 : Fin 1)) = x (ix2 k 0) := by
  rw [val_main_v7_apply, val_main_v6_apply, val_main_v3_apply, val_main_v5_apply, val_main_v1_apply, val_main_v0_apply,
    idx_A k, val_main_v2_apply, val_main_c_apply, val_main_v4_apply, val_main_c_0_apply]
  exact wrap_id _ h0

/-- The start index of pair k's second row is the word in column 1. -/
theorem start_B (x : IVec S200000x2 32) (k : Fin 200000) (h0 : 0 ≤ (x (ix2 k 1)).toInt) :
    val_main_v16 (F := Ideal) x (ix2 k (0 : Fin 1)) = x (ix2 k 1) := by
  rw [val_main_v16_apply, val_main_v15_apply, val_main_v12_apply, val_main_v14_apply, val_main_v10_apply, val_main_v9_apply,
    idx_B k, val_main_v11_apply, val_main_c_1_apply, val_main_v13_apply, val_main_c_2_apply]
  exact wrap_id _ h0

/-- Pair k's first row, entry d. -/
theorem take_A (x0 : FVec Ideal S100000x256 .f32) (x : IVec S200000x2 32) (k : Fin 200000) (d : Fin 256)
    (hr : 0 ≤ (x (ix2 k 0)).toInt ∧ (x (ix2 k 0)).toInt < 100000) :
    val_main_v8 (F := Ideal) x0 x (ix2 k d) = row x0 (x (ix2 k 0)).toNat d := by
  unfold val_main_v8
  exact gather_row x0 _ k d _ (start_A x k hr.1) hr

/-- Pair k's second row, entry d. -/
theorem take_B (x0 : FVec Ideal S100000x256 .f32) (x : IVec S200000x2 32) (k : Fin 200000) (d : Fin 256)
    (hr : 0 ≤ (x (ix2 k 1)).toInt ∧ (x (ix2 k 1)).toInt < 100000) :
    val_main_v17 (F := Ideal) x0 x (ix2 k d) = row x0 (x (ix2 k 1)).toNat d := by
  unfold val_main_v17
  exact gather_row x0 _ k d _ (start_B x k hr.1) hr

/-- Entry d of row k of the squared differences is where the sum over the entries reads it. -/
theorem idx_sq (k : Fin 200000) (d : Fin 256) : idx_main_v20 (ix1 k) d = ix2 k d := by
  funext a
  refine Fin.ext ?_
  match a with
  | ⟨0, _⟩ => rfl
  | ⟨1, _⟩ => rfl

/-- The sum of the squared differences of pair k's two rows. -/
theorem sq_AB (x0 : FVec Ideal S100000x256 .f32) (x : IVec S200000x2 32) (k : Fin 200000)
    (hr : ∀ i, 0 ≤ (x i).toInt ∧ (x i).toInt < 100000) :
    val_main_v20 (F := Ideal) x0 x (ix1 k)
      = ∑ d : Fin 256, (row x0 (x (ix2 k 0)).toNat d - row x0 (x (ix2 k 1)).toNat d)
          * (row x0 (x (ix2 k 0)).toNat d - row x0 (x (ix2 k 1)).toNat d) := by
  rw [val_main_v20_apply, val_main_cst_apply, Ideal.ofBits_def, Ideal.ofBits_zero_f32, zero_add]
  refine Finset.sum_congr rfl fun d _ => ?_
  rw [idx_sq k d, val_main_v19_apply, val_main_v18_apply, take_A x0 x k d (hr _), take_B x0 x k d (hr _),
    Ideal.mulf_def, Ideal.subf_def]

/-- The distance of pair k. -/
theorem dist_AB (x0 : FVec Ideal S100000x256 .f32) (x : IVec S200000x2 32) (k : Fin 200000)
    (hr : ∀ i, 0 ≤ (x i).toInt ∧ (x i).toInt < 100000) :
    val_main_v21 (F := Ideal) x0 x (ix1 k) = PairTotal.dist x0 (x (ix2 k 0)).toNat (x (ix2 k 1)).toNat := by
  unfold PairTotal.dist
  rw [val_main_v21_apply, Ideal.hostUnary_sqrt_def, sq_AB x0 x k hr]

/-- The first list's distances, summed. -/
theorem sum_AB (x0 : FVec Ideal S100000x256 .f32) (x : IVec S200000x2 32)
    (hr : ∀ i, 0 ≤ (x i).toInt ∧ (x i).toInt < 100000) (i : S_.Idx) :
    val_main_v22 (F := Ideal) x0 x i = ∑ k : Fin 200000, PairTotal.dist x0 (x (ix2 k 0)).toNat (x (ix2 k 1)).toNat := by
  rw [val_main_v22_apply, val_main_cst_3_apply, Ideal.ofBits_def, Ideal.ofBits_zero_f32, zero_add, sum_idx1]
  exact Finset.sum_congr rfl fun k _ => dist_AB x0 x k hr

/-! ## The second list -/

/-- Column 0 of row k, through the slice, the reshape and the broadcast to a column. -/
theorem idx_C (k : Fin 200000) : idx_main_v23 (idx_main_v24 (idx_main_v30 (ix2 k (0 : Fin 1)))) = ix2 k (0 : Fin 2) := by
  funext a
  refine Fin.ext ?_
  match a with
  | ⟨0, _⟩ => exact Nat.div_one _
  | ⟨1, _⟩ => rfl

/-- Column 1 of row k, likewise. -/
theorem idx_D (k : Fin 200000) : idx_main_v32 (idx_main_v33 (idx_main_v39 (ix2 k (0 : Fin 1)))) = ix2 k (1 : Fin 2) := by
  funext a
  refine Fin.ext ?_
  match a with
  | ⟨0, _⟩ => exact Nat.div_one _
  | ⟨1, _⟩ => rfl

/-- The start index of pair k's first row is the word in column 0. -/
theorem start_C (x : IVec S200000x2 32) (k : Fin 200000) (h0 : 0 ≤ (x (ix2 k 0)).toInt) :
    val_main_v30 (F := Ideal) x (ix2 k (0 : Fin 1)) = x (ix2 k 0) := by
  rw [val_main_v30_apply, val_main_v29_apply, val_main_v26_apply, val_main_v28_apply, val_main_v24_apply, val_main_v23_apply,
    idx_C k, val_main_v25_apply, val_main_c_4_apply, val_main_v27_apply, val_main_c_5_apply]
  exact wrap_id _ h0

/-- The start index of pair k's second row is the word in column 1. -/
theorem start_D (x : IVec S200000x2 32) (k : Fin 200000) (h0 : 0 ≤ (x (ix2 k 1)).toInt) :
    val_main_v39 (F := Ideal) x (ix2 k (0 : Fin 1)) = x (ix2 k 1) := by
  rw [val_main_v39_apply, val_main_v38_apply, val_main_v35_apply, val_main_v37_apply, val_main_v33_apply, val_main_v32_apply,
    idx_D k, val_main_v34_apply, val_main_c_6_apply, val_main_v36_apply, val_main_c_7_apply]
  exact wrap_id _ h0

/-- Pair k's first row, entry d. -/
theorem take_C (x0 : FVec Ideal S100000x256 .f32) (x : IVec S200000x2 32) (k : Fin 200000) (d : Fin 256)
    (hr : 0 ≤ (x (ix2 k 0)).toInt ∧ (x (ix2 k 0)).toInt < 100000) :
    val_main_v31 (F := Ideal) x0 x (ix2 k d) = row x0 (x (ix2 k 0)).toNat d := by
  unfold val_main_v31
  exact gather_row x0 _ k d _ (start_C x k hr.1) hr

/-- Pair k's second row, entry d. -/
theorem take_D (x0 : FVec Ideal S100000x256 .f32) (x : IVec S200000x2 32) (k : Fin 200000) (d : Fin 256)
    (hr : 0 ≤ (x (ix2 k 1)).toInt ∧ (x (ix2 k 1)).toInt < 100000) :
    val_main_v40 (F := Ideal) x0 x (ix2 k d) = row x0 (x (ix2 k 1)).toNat d := by
  unfold val_main_v40
  exact gather_row x0 _ k d _ (start_D x k hr.1) hr

/-- Entry d of row k of the squared differences is where the sum over the entries reads it. -/
theorem idx_sq' (k : Fin 200000) (d : Fin 256) : idx_main_v43 (ix1 k) d = ix2 k d := by
  funext a
  refine Fin.ext ?_
  match a with
  | ⟨0, _⟩ => rfl
  | ⟨1, _⟩ => rfl

/-- The sum of the squared differences of pair k's two rows. -/
theorem sq_CD (x0 : FVec Ideal S100000x256 .f32) (x : IVec S200000x2 32) (k : Fin 200000)
    (hr : ∀ i, 0 ≤ (x i).toInt ∧ (x i).toInt < 100000) :
    val_main_v43 (F := Ideal) x0 x (ix1 k)
      = ∑ d : Fin 256, (row x0 (x (ix2 k 0)).toNat d - row x0 (x (ix2 k 1)).toNat d)
          * (row x0 (x (ix2 k 0)).toNat d - row x0 (x (ix2 k 1)).toNat d) := by
  rw [val_main_v43_apply, val_main_cst_8_apply, Ideal.ofBits_def, Ideal.ofBits_zero_f32, zero_add]
  refine Finset.sum_congr rfl fun d _ => ?_
  rw [idx_sq' k d, val_main_v42_apply, val_main_v41_apply, take_C x0 x k d (hr _), take_D x0 x k d (hr _),
    Ideal.mulf_def, Ideal.subf_def]

/-- The distance of pair k. -/
theorem dist_CD (x0 : FVec Ideal S100000x256 .f32) (x : IVec S200000x2 32) (k : Fin 200000)
    (hr : ∀ i, 0 ≤ (x i).toInt ∧ (x i).toInt < 100000) :
    val_main_v44 (F := Ideal) x0 x (ix1 k) = PairTotal.dist x0 (x (ix2 k 0)).toNat (x (ix2 k 1)).toNat := by
  unfold PairTotal.dist
  rw [val_main_v44_apply, Ideal.hostUnary_sqrt_def, sq_CD x0 x k hr]

/-- The hinge of pair k: the larger of 0 and one half minus the distance. -/
theorem hinge_CD (x0 : FVec Ideal S100000x256 .f32) (x : IVec S200000x2 32) (k : Fin 200000)
    (hr : ∀ i, 0 ≤ (x i).toInt ∧ (x i).toInt < 100000) :
    val_main_v48 (F := Ideal) x0 x (ix1 k) = hinge x0 (x (ix2 k 0)).toNat (x (ix2 k 1)).toNat := by
  unfold hinge
  rw [val_main_v48_apply, val_main_v47_apply, val_main_cst_10_apply, val_main_v46_apply, val_main_v45_apply,
    val_main_cst_9_apply, dist_CD x0 x k hr]
  simp only [Ideal.maximumf_def, Ideal.subf_def, Ideal.ofBits_def, Ideal.ofBits_zero_f32]

/-- The second list's hinges, summed. -/
theorem sum_CD (x0 : FVec Ideal S100000x256 .f32) (x : IVec S200000x2 32)
    (hr : ∀ i, 0 ≤ (x i).toInt ∧ (x i).toInt < 100000) (i : S_.Idx) :
    val_main_v49 (F := Ideal) x0 x i = ∑ k : Fin 200000, hinge x0 (x (ix2 k 0)).toNat (x (ix2 k 1)).toNat := by
  rw [val_main_v49_apply, val_main_cst_11_apply, Ideal.ofBits_def, Ideal.ofBits_zero_f32, zero_add, sum_idx1]
  exact Finset.sum_congr rfl fun k _ => hinge_CD x0 x k hr

/-! ## The result -/

/-- The reference's last stage is the pair loss, at its one index. -/
theorem val_eq_total (x0 : FVec Ideal S100000x256 .f32) (x1 x2 : IVec S200000x2 32)
    (h1 : ∀ i, 0 ≤ (x1 i).toInt ∧ (x1 i).toInt < 100000) (h2 : ∀ i, 0 ≤ (x2 i).toInt ∧ (x2 i).toInt < 100000) :
    val_main_v50 (F := Ideal) x0 x1 x2 = fun _ => total x0 x1 x2 := by
  funext i
  unfold total
  rw [val_main_v50_apply, sum_AB x0 x1 h1 i, sum_CD x0 x2 h2 i, Ideal.addf_def]

open Idealize.SL.Sem Idealize.ShloMosaic.TcCoe in
/-- The term the reference's run ends with is the pair loss of the argument arrays the run started from. -/
theorem res_eq_total (m : (ℓ : Loc nD τ sig) → Buf (Elt Ideal) ℓ) (c : Dev nD)
    (h1 : ∀ i, 0 ≤ (m ((c.tc : Thread nD τ).loc main_arg1) i).toInt ∧ (m ((c.tc : Thread nD τ).loc main_arg1) i).toInt < 100000)
    (h2 : ∀ i, 0 ≤ (m ((c.tc : Thread nD τ).loc main_arg2) i).toInt ∧ (m ((c.tc : Thread nD τ).loc main_arg2) i).toInt < 100000) :
    Cert.ReferenceIdeal.Value.res_main_v50 m c
      = fun _ => total (m ((c.tc : Thread nD τ).loc main_arg0)) (m ((c.tc : Thread nD τ).loc main_arg1))
          (m ((c.tc : Thread nD τ).loc main_arg2)) := by
  rw [val_main_v50_eq]
  exact val_eq_total _ _ _ h1 h2

end Cert.ReferenceIdeal.RefValue

end
-- ==== Proof.ChainTotal.lean ====
import proofs.«406163_j35201551958720_3_alg».proof.Proof.Chain
import Idealize.ShloMosaic.PureOps.Ideal
import Idealize.ShloMosaic.PureOps.Ideal.Laws

set_option maxRecDepth 16384

noncomputable section

namespace Cert.KernelIdeal.ChainTotal

open Cert.KernelIdeal Cert.KernelIdeal.Gen
open Idealize.ShloMosaic Idealize.ShloMosaic.TcCoe Idealize.SL.Sem

/-! # The result over the extended reals

At the ideal instance a float is an extended real, float addition is the extended reals' addition and the word 0 is the
number 0: the result at the return is the first list's eight results added in order from 0, plus the second list's
eight results added in order from 0. -/

variable (m : (ℓ : Loc nD τ sig) → Buf (Elt Ideal) ℓ)

theorem result (h : Chain.InRange m) (c : Dev nD) : Chain.W33 m h c main_v89 ValueIdx.ix0 =
    ((((((((0 + Chain.res0 m h c) + Chain.res1 m h c) + Chain.res2 m h c) + Chain.res3 m h c) + Chain.res4 m h c) + Chain.res5 m h c) + Chain.res6 m h c) + Chain.res7 m h c)
    + ((((((((0 + Chain.res8 m h c) + Chain.res9 m h c) + Chain.res10 m h c) + Chain.res11 m h c) + Chain.res12 m h c) + Chain.res13 m h c) + Chain.res14 m h c) + Chain.res15 m h c) := by
  rw [Chain.W33_result m h c]
  have z : (FloatOps.ofBits (F := Ideal) .f32 0x00000000#32 : EReal) = 0 := Ideal.ofBits_zero_f32
  rw [z]
  rfl

end Cert.KernelIdeal.ChainTotal

end
-- ==== Proof.Call0Value.lean ====
import proofs.«406163_j35201551958720_3_alg».proof.Proof.Call0Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 0 at the extended reals: what one call leaves in its result array

The body adds one pair's distance to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k0_pay2 x0 x1 (k0_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid0.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k0_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k0_pay1 (F := Ideal) (ValueIdx.ix2 (0 : Fin 1) (0 : Fin 1)) = 0 := by
  unfold k0_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's distance. -/
theorem pay2_at (x0 x1 : Vec Ideal S1x1x256 .f32) (xo : Vec Ideal S1x1 .f32) :
    k0_pay2 (F := Ideal) x0 x1 xo (ValueIdx.ix2 (0 : Fin 1) (0 : Fin 1))
      = xo (ValueIdx.ix2 (0 : Fin 1) (0 : Fin 1))
        + Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  unfold k0_pay2
  refine (ValueIdx.addf_apply _ _ _).trans ?_
  refine congrArg₂ (· + ·) (congrFun (shapeCast_self xo _) _) ?_
  exact dist_at x0 x1 _ _ _ _ _

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg0 (F := F)).Adm) (t : Fin (cfg0 a).N) :
    ((cfg0 a).win 0).index t = cc0_transform_0 Gen.k0_off1_inb Gen.numel1_S1 a.1 (grid0.coords t) := rfl
theorem index_1 (a : (pcfg0 (F := F)).Adm) (t : Fin (cfg0 a).N) :
    ((cfg0 a).win 1).index t = cc0_transform_1 Gen.k0_off1_inb Gen.numel1_S1 a.1 (grid0.coords t) := rfl

/-- The table entry an index map reads at point t is entry t. -/
theorem tix (t : Fin grid0.N) (ht : t.val < 25000) (inb : ∀ a, (![(Scalar.indexCast (BitVec.ofNat 32 ((grid0.coords t) 0).val)).toNat] : Fin 1 → Nat) a + S1.size a ≤ S25000.size a)
    (h1 : 0 < S1.numel) :
    (Rect.unit (s := S25000) ![(Scalar.indexCast (BitVec.ofNat 32 ((grid0.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid0.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre0.Contents (Elt F)) (t : Fin grid0.N) (ht : t.val < 25000) :
    cc0_transform_0 Gen.k0_off1_inb Gen.numel1_S1 pf (grid0.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre0.Contents (Elt F)) (t : Fin grid0.N) (ht : t.val < 25000) :
    cc0_transform_1 Gen.k0_off1_inb Gen.numel1_S1 pf (grid0.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid0.N) : (wordA V t.val).toNat < 100000 := by
  have ht : t.val < 25000 := lt_of_lt_of_eq t.isLt N_0
  obtain ⟨h, -⟩ := hO.1 (grid0.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid0.N) : (wordB V t.val).toNat < 100000 := by
  have ht : t.val < 25000 := lt_of_lt_of_eq t.isLt N_0
  obtain ⟨h, -⟩ := hO.2 (grid0.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_0
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_0
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k0_pay2 (iblk V hO c 0 t) (iblk V hO c 1 t) (k0_pay1 (F := F)) :=
  (accAt_first V hO c t h0).trans
    (outFirst_eq (F := F) c (grid0.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k0_pay2 (iblk V hO c 0 t) (iblk V hO c 1 t)
      (accAt V hO c (t.val - 1) (Nat.lt_of_le_of_lt (Nat.sub_le _ _) t.isLt)) :=
  (accAt_later V hO c t h0).trans
    (outLater_eq (F := F) c (grid0.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the distance between the two rows its table words name. -/
def termAt (c : Dev nD) (n : ℕ) : EReal :=
  Ideal.sqrt (∑ d : Fin 256,
    (rowOf (V c main_v0) (wordA V n).toNat d - rowOf (V c main_v0) (wordB V n).toNat d)
      * (rowOf (V c main_v0) (wordA V n).toNat d - rowOf (V c main_v0) (wordB V n).toNat d))

/-- The pair's term from the two row blocks at point t. -/
theorem term_of_blocks (hO : Ok V) (c : Dev nD) (t : Fin (cfgM V hO).N) :
    Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d)))
      = termAt V c t.val :=
  congrArg Ideal.sqrt (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k0_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_0
  omega
/-- The accumulator's window is written back at the last point, -/
theorem flush_last (a : (pcfg0 (F := F)).Adm) (h : 24999 < (cfg0 a).N) : ((cfg0 a).win 2).flush ⟨24999, h⟩ = true := by
  unfold Pipeline.Window.flush
  rw [Bool.and_eq_true]
  refine ⟨rfl, ?_⟩
  rw [Bool.or_eq_true]
  left
  exact decide_eq_true (show 24999 + 1 = grid0.N from N_0.symm)
/-- and only there. -/
theorem eq_last_of_flush (a : (pcfg0 (F := F)).Adm) (t : Fin (cfg0 a).N) (hf : ((cfg0 a).win 2).flush t = true) : t.val = 24999 := by
  have hN : (cfg0 a).N = 25000 := N_0
  by_contra hne
  have hlt : t.val + 1 < (cfg0 a).N := by have := t.isLt; omega
  rw [flush_2 a t hlt] at hf
  exact Bool.false_ne_true hf
/-- The accumulator's block index is zero on both axes, at every point. -/
theorem index_2 (a : (pcfg0 (F := F)).Adm) (t : Fin (cfg0 a).N) : ((cfg0 a).win 2).index t = ![0, 0] := rfl

/-- The accumulator's block is moved whole: its cut is itself. -/
theorem cut_2 (a : (pcfg0 (F := F)).Adm) (i : grid0.Coords) (X : Vec F S1x1 .f32) : ((cfg0 a).win 2).cut i X = X := rfl

/-- The result array read through its one block is the array. -/
theorem read_blk_2 (a : (pcfg0 (F := F)).Adm) (t : Fin (cfg0 a).N) (G : Vec F S1x1 .f32) :
    (((cfg0 a).win 2).blk t).view.read (Elt F) G = G := by
  refine funext fun (y : S1x1.Idx) => ?_
  show G ((((cfg0 a).win 2).blk t).view.emb y) = G y
  refine congrArg G (funext fun b => Fin.ext ?_)
  refine (((cfg0 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid0.coords t) ((dat V hO c).after 2 t) = accAt V hO c 24999 (hlast V hO)
  rw [after_2]
  exact (cut_2 (adm V hO) (grid0.coords t) (accAt V hO c t.val t.isLt)).trans (accAt_congr V hO c h3 t.isLt (hlast V hO))

/-- Every index of the result array lies in the block written back at the last point. -/
theorem mem_last (a : (pcfg0 (F := F)).Adm) (h : 24999 < (cfg0 a).N) (i : S1x1.Idx) :
    i ∈ (((cfg0 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v7 (((cfgM V hO).win 2).rect ⟨24999, hlast V hO⟩))).mpr
        (mem_last (adm V hO) (hlast V hO) i)⟩

end Result

end Cert.KernelIdeal.Call0

end
-- ==== Proof.Call1Value.lean ====
import proofs.«406163_j35201551958720_3_alg».proof.Proof.Call1Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 1 at the extended reals: what one call leaves in its result array

The body adds one pair's distance to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k1_pay2 x0 x1 (k1_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid1.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k1_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k1_pay1 (F := Ideal) (ValueIdx.ix2 (0 : Fin 1) (0 : Fin 1)) = 0 := by
  unfold k1_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's distance. -/
theorem pay2_at (x0 x1 : Vec Ideal S1x1x256 .f32) (xo : Vec Ideal S1x1 .f32) :
    k1_pay2 (F := Ideal) x0 x1 xo (ValueIdx.ix2 (0 : Fin 1) (0 : Fin 1))
      = xo (ValueIdx.ix2 (0 : Fin 1) (0 : Fin 1))
        + Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  unfold k1_pay2
  refine (ValueIdx.addf_apply _ _ _).trans ?_
  refine congrArg₂ (· + ·) (congrFun (shapeCast_self xo _) _) ?_
  exact dist_at x0 x1 _ _ _ _ _

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg1 (F := F)).Adm) (t : Fin (cfg1 a).N) :
    ((cfg1 a).win 0).index t = cc1_transform_0 Gen.k1_off1_inb Gen.numel1_S1 a.1 (grid1.coords t) := rfl
theorem index_1 (a : (pcfg1 (F := F)).Adm) (t : Fin (cfg1 a).N) :
    ((cfg1 a).win 1).index t = cc1_transform_1 Gen.k1_off1_inb Gen.numel1_S1 a.1 (grid1.coords t) := rfl

/-- The table entry an index map reads at point t is entry t. -/
theorem tix (t : Fin grid1.N) (ht : t.val < 25000) (inb : ∀ a, (![(Scalar.indexCast (BitVec.ofNat 32 ((grid1.coords t) 0).val)).toNat] : Fin 1 → Nat) a + S1.size a ≤ S25000.size a)
    (h1 : 0 < S1.numel) :
    (Rect.unit (s := S25000) ![(Scalar.indexCast (BitVec.ofNat 32 ((grid1.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid1.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre1.Contents (Elt F)) (t : Fin grid1.N) (ht : t.val < 25000) :
    cc1_transform_0 Gen.k1_off1_inb Gen.numel1_S1 pf (grid1.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre1.Contents (Elt F)) (t : Fin grid1.N) (ht : t.val < 25000) :
    cc1_transform_1 Gen.k1_off1_inb Gen.numel1_S1 pf (grid1.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid1.N) : (wordA V t.val).toNat < 100000 := by
  have ht : t.val < 25000 := lt_of_lt_of_eq t.isLt N_1
  obtain ⟨h, -⟩ := hO.1 (grid1.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid1.N) : (wordB V t.val).toNat < 100000 := by
  have ht : t.val < 25000 := lt_of_lt_of_eq t.isLt N_1
  obtain ⟨h, -⟩ := hO.2 (grid1.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_1
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_1
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k1_pay2 (iblk V hO c 0 t) (iblk V hO c 1 t) (k1_pay1 (F := F)) :=
  (accAt_first V hO c t h0).trans
    (outFirst_eq (F := F) c (grid1.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k1_pay2 (iblk V hO c 0 t) (iblk V hO c 1 t)
      (accAt V hO c (t.val - 1) (Nat.lt_of_le_of_lt (Nat.sub_le _ _) t.isLt)) :=
  (accAt_later V hO c t h0).trans
    (outLater_eq (F := F) c (grid1.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the distance between the two rows its table words name. -/
def termAt (c : Dev nD) (n : ℕ) : EReal :=
  Ideal.sqrt (∑ d : Fin 256,
    (rowOf (V c main_v0) (wordA V n).toNat d - rowOf (V c main_v0) (wordB V n).toNat d)
      * (rowOf (V c main_v0) (wordA V n).toNat d - rowOf (V c main_v0) (wordB V n).toNat d))

/-- The pair's term from the two row blocks at point t. -/
theorem term_of_blocks (hO : Ok V) (c : Dev nD) (t : Fin (cfgM V hO).N) :
    Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d)))
      = termAt V c t.val :=
  congrArg Ideal.sqrt (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k1_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_1
  omega
/-- The accumulator's window is written back at the last point, -/
theorem flush_last (a : (pcfg1 (F := F)).Adm) (h : 24999 < (cfg1 a).N) : ((cfg1 a).win 2).flush ⟨24999, h⟩ = true := by
  unfold Pipeline.Window.flush
  rw [Bool.and_eq_true]
  refine ⟨rfl, ?_⟩
  rw [Bool.or_eq_true]
  left
  exact decide_eq_true (show 24999 + 1 = grid1.N from N_1.symm)
/-- and only there. -/
theorem eq_last_of_flush (a : (pcfg1 (F := F)).Adm) (t : Fin (cfg1 a).N) (hf : ((cfg1 a).win 2).flush t = true) : t.val = 24999 := by
  have hN : (cfg1 a).N = 25000 := N_1
  by_contra hne
  have hlt : t.val + 1 < (cfg1 a).N := by have := t.isLt; omega
  rw [flush_2 a t hlt] at hf
  exact Bool.false_ne_true hf
/-- The accumulator's block index is zero on both axes, at every point. -/
theorem index_2 (a : (pcfg1 (F := F)).Adm) (t : Fin (cfg1 a).N) : ((cfg1 a).win 2).index t = ![0, 0] := rfl

/-- The accumulator's block is moved whole: its cut is itself. -/
theorem cut_2 (a : (pcfg1 (F := F)).Adm) (i : grid1.Coords) (X : Vec F S1x1 .f32) : ((cfg1 a).win 2).cut i X = X := rfl

/-- The result array read through its one block is the array. -/
theorem read_blk_2 (a : (pcfg1 (F := F)).Adm) (t : Fin (cfg1 a).N) (G : Vec F S1x1 .f32) :
    (((cfg1 a).win 2).blk t).view.read (Elt F) G = G := by
  refine funext fun (y : S1x1.Idx) => ?_
  show G ((((cfg1 a).win 2).blk t).view.emb y) = G y
  refine congrArg G (funext fun b => Fin.ext ?_)
  refine (((cfg1 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid1.coords t) ((dat V hO c).after 2 t) = accAt V hO c 24999 (hlast V hO)
  rw [after_2]
  exact (cut_2 (adm V hO) (grid1.coords t) (accAt V hO c t.val t.isLt)).trans (accAt_congr V hO c h3 t.isLt (hlast V hO))

/-- Every index of the result array lies in the block written back at the last point. -/
theorem mem_last (a : (pcfg1 (F := F)).Adm) (h : 24999 < (cfg1 a).N) (i : S1x1.Idx) :
    i ∈ (((cfg1 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v12 (((cfgM V hO).win 2).rect ⟨24999, hlast V hO⟩))).mpr
        (mem_last (adm V hO) (hlast V hO) i)⟩

end Result

end Cert.KernelIdeal.Call1

end
-- ==== Proof.Call2Value.lean ====
import proofs.«406163_j35201551958720_3_alg».proof.Proof.Call2Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 2 at the extended reals: what one call leaves in its result array

The body adds one pair's distance to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k2_pay2 x0 x1 (k2_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid2.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k2_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k2_pay1 (F := Ideal) (ValueIdx.ix2 (0 : Fin 1) (0 : Fin 1)) = 0 := by
  unfold k2_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's distance. -/
theorem pay2_at (x0 x1 : Vec Ideal S1x1x256 .f32) (xo : Vec Ideal S1x1 .f32) :
    k2_pay2 (F := Ideal) x0 x1 xo (ValueIdx.ix2 (0 : Fin 1) (0 : Fin 1))
      = xo (ValueIdx.ix2 (0 : Fin 1) (0 : Fin 1))
        + Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  unfold k2_pay2
  refine (ValueIdx.addf_apply _ _ _).trans ?_
  refine congrArg₂ (· + ·) (congrFun (shapeCast_self xo _) _) ?_
  exact dist_at x0 x1 _ _ _ _ _

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg2 (F := F)).Adm) (t : Fin (cfg2 a).N) :
    ((cfg2 a).win 0).index t = cc2_transform_0 Gen.k2_off1_inb Gen.numel1_S1 a.1 (grid2.coords t) := rfl
theorem index_1 (a : (pcfg2 (F := F)).Adm) (t : Fin (cfg2 a).N) :
    ((cfg2 a).win 1).index t = cc2_transform_1 Gen.k2_off1_inb Gen.numel1_S1 a.1 (grid2.coords t) := rfl

/-- The table entry an index map reads at point t is entry t. -/
theorem tix (t : Fin grid2.N) (ht : t.val < 25000) (inb : ∀ a, (![(Scalar.indexCast (BitVec.ofNat 32 ((grid2.coords t) 0).val)).toNat] : Fin 1 → Nat) a + S1.size a ≤ S25000.size a)
    (h1 : 0 < S1.numel) :
    (Rect.unit (s := S25000) ![(Scalar.indexCast (BitVec.ofNat 32 ((grid2.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid2.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre2.Contents (Elt F)) (t : Fin grid2.N) (ht : t.val < 25000) :
    cc2_transform_0 Gen.k2_off1_inb Gen.numel1_S1 pf (grid2.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre2.Contents (Elt F)) (t : Fin grid2.N) (ht : t.val < 25000) :
    cc2_transform_1 Gen.k2_off1_inb Gen.numel1_S1 pf (grid2.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid2.N) : (wordA V t.val).toNat < 100000 := by
  have ht : t.val < 25000 := lt_of_lt_of_eq t.isLt N_2
  obtain ⟨h, -⟩ := hO.1 (grid2.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid2.N) : (wordB V t.val).toNat < 100000 := by
  have ht : t.val < 25000 := lt_of_lt_of_eq t.isLt N_2
  obtain ⟨h, -⟩ := hO.2 (grid2.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_2
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_2
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k2_pay2 (iblk V hO c 0 t) (iblk V hO c 1 t) (k2_pay1 (F := F)) :=
  (accAt_first V hO c t h0).trans
    (outFirst_eq (F := F) c (grid2.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k2_pay2 (iblk V hO c 0 t) (iblk V hO c 1 t)
      (accAt V hO c (t.val - 1) (Nat.lt_of_le_of_lt (Nat.sub_le _ _) t.isLt)) :=
  (accAt_later V hO c t h0).trans
    (outLater_eq (F := F) c (grid2.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the distance between the two rows its table words name. -/
def termAt (c : Dev nD) (n : ℕ) : EReal :=
  Ideal.sqrt (∑ d : Fin 256,
    (rowOf (V c main_v0) (wordA V n).toNat d - rowOf (V c main_v0) (wordB V n).toNat d)
      * (rowOf (V c main_v0) (wordA V n).toNat d - rowOf (V c main_v0) (wordB V n).toNat d))

/-- The pair's term from the two row blocks at point t. -/
theorem term_of_blocks (hO : Ok V) (c : Dev nD) (t : Fin (cfgM V hO).N) :
    Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d)))
      = termAt V c t.val :=
  congrArg Ideal.sqrt (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k2_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_2
  omega
/-- The accumulator's window is written back at the last point, -/
theorem flush_last (a : (pcfg2 (F := F)).Adm) (h : 24999 < (cfg2 a).N) : ((cfg2 a).win 2).flush ⟨24999, h⟩ = true := by
  unfold Pipeline.Window.flush
  rw [Bool.and_eq_true]
  refine ⟨rfl, ?_⟩
  rw [Bool.or_eq_true]
  left
  exact decide_eq_true (show 24999 + 1 = grid2.N from N_2.symm)
/-- and only there. -/
theorem eq_last_of_flush (a : (pcfg2 (F := F)).Adm) (t : Fin (cfg2 a).N) (hf : ((cfg2 a).win 2).flush t = true) : t.val = 24999 := by
  have hN : (cfg2 a).N = 25000 := N_2
  by_contra hne
  have hlt : t.val + 1 < (cfg2 a).N := by have := t.isLt; omega
  rw [flush_2 a t hlt] at hf
  exact Bool.false_ne_true hf
/-- The accumulator's block index is zero on both axes, at every point. -/
theorem index_2 (a : (pcfg2 (F := F)).Adm) (t : Fin (cfg2 a).N) : ((cfg2 a).win 2).index t = ![0, 0] := rfl

/-- The accumulator's block is moved whole: its cut is itself. -/
theorem cut_2 (a : (pcfg2 (F := F)).Adm) (i : grid2.Coords) (X : Vec F S1x1 .f32) : ((cfg2 a).win 2).cut i X = X := rfl

/-- The result array read through its one block is the array. -/
theorem read_blk_2 (a : (pcfg2 (F := F)).Adm) (t : Fin (cfg2 a).N) (G : Vec F S1x1 .f32) :
    (((cfg2 a).win 2).blk t).view.read (Elt F) G = G := by
  refine funext fun (y : S1x1.Idx) => ?_
  show G ((((cfg2 a).win 2).blk t).view.emb y) = G y
  refine congrArg G (funext fun b => Fin.ext ?_)
  refine (((cfg2 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid2.coords t) ((dat V hO c).after 2 t) = accAt V hO c 24999 (hlast V hO)
  rw [after_2]
  exact (cut_2 (adm V hO) (grid2.coords t) (accAt V hO c t.val t.isLt)).trans (accAt_congr V hO c h3 t.isLt (hlast V hO))

/-- Every index of the result array lies in the block written back at the last point. -/
theorem mem_last (a : (pcfg2 (F := F)).Adm) (h : 24999 < (cfg2 a).N) (i : S1x1.Idx) :
    i ∈ (((cfg2 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v17 (((cfgM V hO).win 2).rect ⟨24999, hlast V hO⟩))).mpr
        (mem_last (adm V hO) (hlast V hO) i)⟩

end Result

end Cert.KernelIdeal.Call2

end
-- ==== Proof.Call3Value.lean ====
import proofs.«406163_j35201551958720_3_alg».proof.Proof.Call3Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 3 at the extended reals: what one call leaves in its result array

The body adds one pair's distance to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k3_pay2 x0 x1 (k3_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid3.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k3_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k3_pay1 (F := Ideal) (ValueIdx.ix2 (0 : Fin 1) (0 : Fin 1)) = 0 := by
  unfold k3_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's distance. -/
theorem pay2_at (x0 x1 : Vec Ideal S1x1x256 .f32) (xo : Vec Ideal S1x1 .f32) :
    k3_pay2 (F := Ideal) x0 x1 xo (ValueIdx.ix2 (0 : Fin 1) (0 : Fin 1))
      = xo (ValueIdx.ix2 (0 : Fin 1) (0 : Fin 1))
        + Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  unfold k3_pay2
  refine (ValueIdx.addf_apply _ _ _).trans ?_
  refine congrArg₂ (· + ·) (congrFun (shapeCast_self xo _) _) ?_
  exact dist_at x0 x1 _ _ _ _ _

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg3 (F := F)).Adm) (t : Fin (cfg3 a).N) :
    ((cfg3 a).win 0).index t = cc3_transform_0 Gen.k3_off1_inb Gen.numel1_S1 a.1 (grid3.coords t) := rfl
theorem index_1 (a : (pcfg3 (F := F)).Adm) (t : Fin (cfg3 a).N) :
    ((cfg3 a).win 1).index t = cc3_transform_1 Gen.k3_off1_inb Gen.numel1_S1 a.1 (grid3.coords t) := rfl

/-- The table entry an index map reads at point t is entry t. -/
theorem tix (t : Fin grid3.N) (ht : t.val < 25000) (inb : ∀ a, (![(Scalar.indexCast (BitVec.ofNat 32 ((grid3.coords t) 0).val)).toNat] : Fin 1 → Nat) a + S1.size a ≤ S25000.size a)
    (h1 : 0 < S1.numel) :
    (Rect.unit (s := S25000) ![(Scalar.indexCast (BitVec.ofNat 32 ((grid3.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid3.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre3.Contents (Elt F)) (t : Fin grid3.N) (ht : t.val < 25000) :
    cc3_transform_0 Gen.k3_off1_inb Gen.numel1_S1 pf (grid3.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre3.Contents (Elt F)) (t : Fin grid3.N) (ht : t.val < 25000) :
    cc3_transform_1 Gen.k3_off1_inb Gen.numel1_S1 pf (grid3.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid3.N) : (wordA V t.val).toNat < 100000 := by
  have ht : t.val < 25000 := lt_of_lt_of_eq t.isLt N_3
  obtain ⟨h, -⟩ := hO.1 (grid3.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid3.N) : (wordB V t.val).toNat < 100000 := by
  have ht : t.val < 25000 := lt_of_lt_of_eq t.isLt N_3
  obtain ⟨h, -⟩ := hO.2 (grid3.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_3
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_3
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k3_pay2 (iblk V hO c 0 t) (iblk V hO c 1 t) (k3_pay1 (F := F)) :=
  (accAt_first V hO c t h0).trans
    (outFirst_eq (F := F) c (grid3.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k3_pay2 (iblk V hO c 0 t) (iblk V hO c 1 t)
      (accAt V hO c (t.val - 1) (Nat.lt_of_le_of_lt (Nat.sub_le _ _) t.isLt)) :=
  (accAt_later V hO c t h0).trans
    (outLater_eq (F := F) c (grid3.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the distance between the two rows its table words name. -/
def termAt (c : Dev nD) (n : ℕ) : EReal :=
  Ideal.sqrt (∑ d : Fin 256,
    (rowOf (V c main_v0) (wordA V n).toNat d - rowOf (V c main_v0) (wordB V n).toNat d)
      * (rowOf (V c main_v0) (wordA V n).toNat d - rowOf (V c main_v0) (wordB V n).toNat d))

/-- The pair's term from the two row blocks at point t. -/
theorem term_of_blocks (hO : Ok V) (c : Dev nD) (t : Fin (cfgM V hO).N) :
    Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d)))
      = termAt V c t.val :=
  congrArg Ideal.sqrt (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k3_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_3
  omega
/-- The accumulator's window is written back at the last point, -/
theorem flush_last (a : (pcfg3 (F := F)).Adm) (h : 24999 < (cfg3 a).N) : ((cfg3 a).win 2).flush ⟨24999, h⟩ = true := by
  unfold Pipeline.Window.flush
  rw [Bool.and_eq_true]
  refine ⟨rfl, ?_⟩
  rw [Bool.or_eq_true]
  left
  exact decide_eq_true (show 24999 + 1 = grid3.N from N_3.symm)
/-- and only there. -/
theorem eq_last_of_flush (a : (pcfg3 (F := F)).Adm) (t : Fin (cfg3 a).N) (hf : ((cfg3 a).win 2).flush t = true) : t.val = 24999 := by
  have hN : (cfg3 a).N = 25000 := N_3
  by_contra hne
  have hlt : t.val + 1 < (cfg3 a).N := by have := t.isLt; omega
  rw [flush_2 a t hlt] at hf
  exact Bool.false_ne_true hf
/-- The accumulator's block index is zero on both axes, at every point. -/
theorem index_2 (a : (pcfg3 (F := F)).Adm) (t : Fin (cfg3 a).N) : ((cfg3 a).win 2).index t = ![0, 0] := rfl

/-- The accumulator's block is moved whole: its cut is itself. -/
theorem cut_2 (a : (pcfg3 (F := F)).Adm) (i : grid3.Coords) (X : Vec F S1x1 .f32) : ((cfg3 a).win 2).cut i X = X := rfl

/-- The result array read through its one block is the array. -/
theorem read_blk_2 (a : (pcfg3 (F := F)).Adm) (t : Fin (cfg3 a).N) (G : Vec F S1x1 .f32) :
    (((cfg3 a).win 2).blk t).view.read (Elt F) G = G := by
  refine funext fun (y : S1x1.Idx) => ?_
  show G ((((cfg3 a).win 2).blk t).view.emb y) = G y
  refine congrArg G (funext fun b => Fin.ext ?_)
  refine (((cfg3 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid3.coords t) ((dat V hO c).after 2 t) = accAt V hO c 24999 (hlast V hO)
  rw [after_2]
  exact (cut_2 (adm V hO) (grid3.coords t) (accAt V hO c t.val t.isLt)).trans (accAt_congr V hO c h3 t.isLt (hlast V hO))

/-- Every index of the result array lies in the block written back at the last point. -/
theorem mem_last (a : (pcfg3 (F := F)).Adm) (h : 24999 < (cfg3 a).N) (i : S1x1.Idx) :
    i ∈ (((cfg3 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v22 (((cfgM V hO).win 2).rect ⟨24999, hlast V hO⟩))).mpr
        (mem_last (adm V hO) (hlast V hO) i)⟩

end Result

end Cert.KernelIdeal.Call3

end
-- ==== Proof.Call4Value.lean ====
import proofs.«406163_j35201551958720_3_alg».proof.Proof.Call4Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 4 at the extended reals: what one call leaves in its result array

The body adds one pair's distance to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k4_pay2 x0 x1 (k4_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid4.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k4_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k4_pay1 (F := Ideal) (ValueIdx.ix2 (0 : Fin 1) (0 : Fin 1)) = 0 := by
  unfold k4_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's distance. -/
theorem pay2_at (x0 x1 : Vec Ideal S1x1x256 .f32) (xo : Vec Ideal S1x1 .f32) :
    k4_pay2 (F := Ideal) x0 x1 xo (ValueIdx.ix2 (0 : Fin 1) (0 : Fin 1))
      = xo (ValueIdx.ix2 (0 : Fin 1) (0 : Fin 1))
        + Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  unfold k4_pay2
  refine (ValueIdx.addf_apply _ _ _).trans ?_
  refine congrArg₂ (· + ·) (congrFun (shapeCast_self xo _) _) ?_
  exact dist_at x0 x1 _ _ _ _ _

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg4 (F := F)).Adm) (t : Fin (cfg4 a).N) :
    ((cfg4 a).win 0).index t = cc4_transform_0 Gen.k4_off1_inb Gen.numel1_S1 a.1 (grid4.coords t) := rfl
theorem index_1 (a : (pcfg4 (F := F)).Adm) (t : Fin (cfg4 a).N) :
    ((cfg4 a).win 1).index t = cc4_transform_1 Gen.k4_off1_inb Gen.numel1_S1 a.1 (grid4.coords t) := rfl

/-- The table entry an index map reads at point t is entry t. -/
theorem tix (t : Fin grid4.N) (ht : t.val < 25000) (inb : ∀ a, (![(Scalar.indexCast (BitVec.ofNat 32 ((grid4.coords t) 0).val)).toNat] : Fin 1 → Nat) a + S1.size a ≤ S25000.size a)
    (h1 : 0 < S1.numel) :
    (Rect.unit (s := S25000) ![(Scalar.indexCast (BitVec.ofNat 32 ((grid4.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid4.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre4.Contents (Elt F)) (t : Fin grid4.N) (ht : t.val < 25000) :
    cc4_transform_0 Gen.k4_off1_inb Gen.numel1_S1 pf (grid4.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre4.Contents (Elt F)) (t : Fin grid4.N) (ht : t.val < 25000) :
    cc4_transform_1 Gen.k4_off1_inb Gen.numel1_S1 pf (grid4.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid4.N) : (wordA V t.val).toNat < 100000 := by
  have ht : t.val < 25000 := lt_of_lt_of_eq t.isLt N_4
  obtain ⟨h, -⟩ := hO.1 (grid4.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid4.N) : (wordB V t.val).toNat < 100000 := by
  have ht : t.val < 25000 := lt_of_lt_of_eq t.isLt N_4
  obtain ⟨h, -⟩ := hO.2 (grid4.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_4
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_4
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k4_pay2 (iblk V hO c 0 t) (iblk V hO c 1 t) (k4_pay1 (F := F)) :=
  (accAt_first V hO c t h0).trans
    (outFirst_eq (F := F) c (grid4.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k4_pay2 (iblk V hO c 0 t) (iblk V hO c 1 t)
      (accAt V hO c (t.val - 1) (Nat.lt_of_le_of_lt (Nat.sub_le _ _) t.isLt)) :=
  (accAt_later V hO c t h0).trans
    (outLater_eq (F := F) c (grid4.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the distance between the two rows its table words name. -/
def termAt (c : Dev nD) (n : ℕ) : EReal :=
  Ideal.sqrt (∑ d : Fin 256,
    (rowOf (V c main_v0) (wordA V n).toNat d - rowOf (V c main_v0) (wordB V n).toNat d)
      * (rowOf (V c main_v0) (wordA V n).toNat d - rowOf (V c main_v0) (wordB V n).toNat d))

/-- The pair's term from the two row blocks at point t. -/
theorem term_of_blocks (hO : Ok V) (c : Dev nD) (t : Fin (cfgM V hO).N) :
    Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d)))
      = termAt V c t.val :=
  congrArg Ideal.sqrt (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k4_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_4
  omega
/-- The accumulator's window is written back at the last point, -/
theorem flush_last (a : (pcfg4 (F := F)).Adm) (h : 24999 < (cfg4 a).N) : ((cfg4 a).win 2).flush ⟨24999, h⟩ = true := by
  unfold Pipeline.Window.flush
  rw [Bool.and_eq_true]
  refine ⟨rfl, ?_⟩
  rw [Bool.or_eq_true]
  left
  exact decide_eq_true (show 24999 + 1 = grid4.N from N_4.symm)
/-- and only there. -/
theorem eq_last_of_flush (a : (pcfg4 (F := F)).Adm) (t : Fin (cfg4 a).N) (hf : ((cfg4 a).win 2).flush t = true) : t.val = 24999 := by
  have hN : (cfg4 a).N = 25000 := N_4
  by_contra hne
  have hlt : t.val + 1 < (cfg4 a).N := by have := t.isLt; omega
  rw [flush_2 a t hlt] at hf
  exact Bool.false_ne_true hf
/-- The accumulator's block index is zero on both axes, at every point. -/
theorem index_2 (a : (pcfg4 (F := F)).Adm) (t : Fin (cfg4 a).N) : ((cfg4 a).win 2).index t = ![0, 0] := rfl

/-- The accumulator's block is moved whole: its cut is itself. -/
theorem cut_2 (a : (pcfg4 (F := F)).Adm) (i : grid4.Coords) (X : Vec F S1x1 .f32) : ((cfg4 a).win 2).cut i X = X := rfl

/-- The result array read through its one block is the array. -/
theorem read_blk_2 (a : (pcfg4 (F := F)).Adm) (t : Fin (cfg4 a).N) (G : Vec F S1x1 .f32) :
    (((cfg4 a).win 2).blk t).view.read (Elt F) G = G := by
  refine funext fun (y : S1x1.Idx) => ?_
  show G ((((cfg4 a).win 2).blk t).view.emb y) = G y
  refine congrArg G (funext fun b => Fin.ext ?_)
  refine (((cfg4 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid4.coords t) ((dat V hO c).after 2 t) = accAt V hO c 24999 (hlast V hO)
  rw [after_2]
  exact (cut_2 (adm V hO) (grid4.coords t) (accAt V hO c t.val t.isLt)).trans (accAt_congr V hO c h3 t.isLt (hlast V hO))

/-- Every index of the result array lies in the block written back at the last point. -/
theorem mem_last (a : (pcfg4 (F := F)).Adm) (h : 24999 < (cfg4 a).N) (i : S1x1.Idx) :
    i ∈ (((cfg4 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v27 (((cfgM V hO).win 2).rect ⟨24999, hlast V hO⟩))).mpr
        (mem_last (adm V hO) (hlast V hO) i)⟩

end Result

end Cert.KernelIdeal.Call4

end
-- ==== Proof.Call5Value.lean ====
import proofs.«406163_j35201551958720_3_alg».proof.Proof.Call5Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call5

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 5 at the extended reals: what one call leaves in its result array

The body adds one pair's distance to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k5_pay2 x0 x1 (k5_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid5.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k5_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k5_pay1 (F := Ideal) (ValueIdx.ix2 (0 : Fin 1) (0 : Fin 1)) = 0 := by
  unfold k5_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's distance. -/
theorem pay2_at (x0 x1 : Vec Ideal S1x1x256 .f32) (xo : Vec Ideal S1x1 .f32) :
    k5_pay2 (F := Ideal) x0 x1 xo (ValueIdx.ix2 (0 : Fin 1) (0 : Fin 1))
      = xo (ValueIdx.ix2 (0 : Fin 1) (0 : Fin 1))
        + Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  unfold k5_pay2
  refine (ValueIdx.addf_apply _ _ _).trans ?_
  refine congrArg₂ (· + ·) (congrFun (shapeCast_self xo _) _) ?_
  exact dist_at x0 x1 _ _ _ _ _

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg5 (F := F)).Adm) (t : Fin (cfg5 a).N) :
    ((cfg5 a).win 0).index t = cc5_transform_0 Gen.k5_off1_inb Gen.numel1_S1 a.1 (grid5.coords t) := rfl
theorem index_1 (a : (pcfg5 (F := F)).Adm) (t : Fin (cfg5 a).N) :
    ((cfg5 a).win 1).index t = cc5_transform_1 Gen.k5_off1_inb Gen.numel1_S1 a.1 (grid5.coords t) := rfl

/-- The table entry an index map reads at point t is entry t. -/
theorem tix (t : Fin grid5.N) (ht : t.val < 25000) (inb : ∀ a, (![(Scalar.indexCast (BitVec.ofNat 32 ((grid5.coords t) 0).val)).toNat] : Fin 1 → Nat) a + S1.size a ≤ S25000.size a)
    (h1 : 0 < S1.numel) :
    (Rect.unit (s := S25000) ![(Scalar.indexCast (BitVec.ofNat 32 ((grid5.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid5.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre5.Contents (Elt F)) (t : Fin grid5.N) (ht : t.val < 25000) :
    cc5_transform_0 Gen.k5_off1_inb Gen.numel1_S1 pf (grid5.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre5.Contents (Elt F)) (t : Fin grid5.N) (ht : t.val < 25000) :
    cc5_transform_1 Gen.k5_off1_inb Gen.numel1_S1 pf (grid5.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid5.N) : (wordA V t.val).toNat < 100000 := by
  have ht : t.val < 25000 := lt_of_lt_of_eq t.isLt N_5
  obtain ⟨h, -⟩ := hO.1 (grid5.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid5.N) : (wordB V t.val).toNat < 100000 := by
  have ht : t.val < 25000 := lt_of_lt_of_eq t.isLt N_5
  obtain ⟨h, -⟩ := hO.2 (grid5.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_5
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_5
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k5_pay2 (iblk V hO c 0 t) (iblk V hO c 1 t) (k5_pay1 (F := F)) :=
  (accAt_first V hO c t h0).trans
    (outFirst_eq (F := F) c (grid5.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k5_pay2 (iblk V hO c 0 t) (iblk V hO c 1 t)
      (accAt V hO c (t.val - 1) (Nat.lt_of_le_of_lt (Nat.sub_le _ _) t.isLt)) :=
  (accAt_later V hO c t h0).trans
    (outLater_eq (F := F) c (grid5.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the distance between the two rows its table words name. -/
def termAt (c : Dev nD) (n : ℕ) : EReal :=
  Ideal.sqrt (∑ d : Fin 256,
    (rowOf (V c main_v0) (wordA V n).toNat d - rowOf (V c main_v0) (wordB V n).toNat d)
      * (rowOf (V c main_v0) (wordA V n).toNat d - rowOf (V c main_v0) (wordB V n).toNat d))

/-- The pair's term from the two row blocks at point t. -/
theorem term_of_blocks (hO : Ok V) (c : Dev nD) (t : Fin (cfgM V hO).N) :
    Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d)))
      = termAt V c t.val :=
  congrArg Ideal.sqrt (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k5_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_5
  omega
/-- The accumulator's window is written back at the last point, -/
theorem flush_last (a : (pcfg5 (F := F)).Adm) (h : 24999 < (cfg5 a).N) : ((cfg5 a).win 2).flush ⟨24999, h⟩ = true := by
  unfold Pipeline.Window.flush
  rw [Bool.and_eq_true]
  refine ⟨rfl, ?_⟩
  rw [Bool.or_eq_true]
  left
  exact decide_eq_true (show 24999 + 1 = grid5.N from N_5.symm)
/-- and only there. -/
theorem eq_last_of_flush (a : (pcfg5 (F := F)).Adm) (t : Fin (cfg5 a).N) (hf : ((cfg5 a).win 2).flush t = true) : t.val = 24999 := by
  have hN : (cfg5 a).N = 25000 := N_5
  by_contra hne
  have hlt : t.val + 1 < (cfg5 a).N := by have := t.isLt; omega
  rw [flush_2 a t hlt] at hf
  exact Bool.false_ne_true hf
/-- The accumulator's block index is zero on both axes, at every point. -/
theorem index_2 (a : (pcfg5 (F := F)).Adm) (t : Fin (cfg5 a).N) : ((cfg5 a).win 2).index t = ![0, 0] := rfl

/-- The accumulator's block is moved whole: its cut is itself. -/
theorem cut_2 (a : (pcfg5 (F := F)).Adm) (i : grid5.Coords) (X : Vec F S1x1 .f32) : ((cfg5 a).win 2).cut i X = X := rfl

/-- The result array read through its one block is the array. -/
theorem read_blk_2 (a : (pcfg5 (F := F)).Adm) (t : Fin (cfg5 a).N) (G : Vec F S1x1 .f32) :
    (((cfg5 a).win 2).blk t).view.read (Elt F) G = G := by
  refine funext fun (y : S1x1.Idx) => ?_
  show G ((((cfg5 a).win 2).blk t).view.emb y) = G y
  refine congrArg G (funext fun b => Fin.ext ?_)
  refine (((cfg5 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid5.coords t) ((dat V hO c).after 2 t) = accAt V hO c 24999 (hlast V hO)
  rw [after_2]
  exact (cut_2 (adm V hO) (grid5.coords t) (accAt V hO c t.val t.isLt)).trans (accAt_congr V hO c h3 t.isLt (hlast V hO))

/-- Every index of the result array lies in the block written back at the last point. -/
theorem mem_last (a : (pcfg5 (F := F)).Adm) (h : 24999 < (cfg5 a).N) (i : S1x1.Idx) :
    i ∈ (((cfg5 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v32 (((cfgM V hO).win 2).rect ⟨24999, hlast V hO⟩))).mpr
        (mem_last (adm V hO) (hlast V hO) i)⟩

end Result

end Cert.KernelIdeal.Call5

end
-- ==== Proof.Call6Value.lean ====
import proofs.«406163_j35201551958720_3_alg».proof.Proof.Call6Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call6

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 6 at the extended reals: what one call leaves in its result array

The body adds one pair's distance to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k6_pay2 x0 x1 (k6_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid6.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k6_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k6_pay1 (F := Ideal) (ValueIdx.ix2 (0 : Fin 1) (0 : Fin 1)) = 0 := by
  unfold k6_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's distance. -/
theorem pay2_at (x0 x1 : Vec Ideal S1x1x256 .f32) (xo : Vec Ideal S1x1 .f32) :
    k6_pay2 (F := Ideal) x0 x1 xo (ValueIdx.ix2 (0 : Fin 1) (0 : Fin 1))
      = xo (ValueIdx.ix2 (0 : Fin 1) (0 : Fin 1))
        + Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  unfold k6_pay2
  refine (ValueIdx.addf_apply _ _ _).trans ?_
  refine congrArg₂ (· + ·) (congrFun (shapeCast_self xo _) _) ?_
  exact dist_at x0 x1 _ _ _ _ _

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg6 (F := F)).Adm) (t : Fin (cfg6 a).N) :
    ((cfg6 a).win 0).index t = cc6_transform_0 Gen.k6_off1_inb Gen.numel1_S1 a.1 (grid6.coords t) := rfl
theorem index_1 (a : (pcfg6 (F := F)).Adm) (t : Fin (cfg6 a).N) :
    ((cfg6 a).win 1).index t = cc6_transform_1 Gen.k6_off1_inb Gen.numel1_S1 a.1 (grid6.coords t) := rfl

/-- The table entry an index map reads at point t is entry t. -/
theorem tix (t : Fin grid6.N) (ht : t.val < 25000) (inb : ∀ a, (![(Scalar.indexCast (BitVec.ofNat 32 ((grid6.coords t) 0).val)).toNat] : Fin 1 → Nat) a + S1.size a ≤ S25000.size a)
    (h1 : 0 < S1.numel) :
    (Rect.unit (s := S25000) ![(Scalar.indexCast (BitVec.ofNat 32 ((grid6.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid6.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre6.Contents (Elt F)) (t : Fin grid6.N) (ht : t.val < 25000) :
    cc6_transform_0 Gen.k6_off1_inb Gen.numel1_S1 pf (grid6.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre6.Contents (Elt F)) (t : Fin grid6.N) (ht : t.val < 25000) :
    cc6_transform_1 Gen.k6_off1_inb Gen.numel1_S1 pf (grid6.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid6.N) : (wordA V t.val).toNat < 100000 := by
  have ht : t.val < 25000 := lt_of_lt_of_eq t.isLt N_6
  obtain ⟨h, -⟩ := hO.1 (grid6.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid6.N) : (wordB V t.val).toNat < 100000 := by
  have ht : t.val < 25000 := lt_of_lt_of_eq t.isLt N_6
  obtain ⟨h, -⟩ := hO.2 (grid6.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_6
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_6
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k6_pay2 (iblk V hO c 0 t) (iblk V hO c 1 t) (k6_pay1 (F := F)) :=
  (accAt_first V hO c t h0).trans
    (outFirst_eq (F := F) c (grid6.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k6_pay2 (iblk V hO c 0 t) (iblk V hO c 1 t)
      (accAt V hO c (t.val - 1) (Nat.lt_of_le_of_lt (Nat.sub_le _ _) t.isLt)) :=
  (accAt_later V hO c t h0).trans
    (outLater_eq (F := F) c (grid6.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the distance between the two rows its table words name. -/
def termAt (c : Dev nD) (n : ℕ) : EReal :=
  Ideal.sqrt (∑ d : Fin 256,
    (rowOf (V c main_v0) (wordA V n).toNat d - rowOf (V c main_v0) (wordB V n).toNat d)
      * (rowOf (V c main_v0) (wordA V n).toNat d - rowOf (V c main_v0) (wordB V n).toNat d))

/-- The pair's term from the two row blocks at point t. -/
theorem term_of_blocks (hO : Ok V) (c : Dev nD) (t : Fin (cfgM V hO).N) :
    Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d)))
      = termAt V c t.val :=
  congrArg Ideal.sqrt (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k6_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_6
  omega
/-- The accumulator's window is written back at the last point, -/
theorem flush_last (a : (pcfg6 (F := F)).Adm) (h : 24999 < (cfg6 a).N) : ((cfg6 a).win 2).flush ⟨24999, h⟩ = true := by
  unfold Pipeline.Window.flush
  rw [Bool.and_eq_true]
  refine ⟨rfl, ?_⟩
  rw [Bool.or_eq_true]
  left
  exact decide_eq_true (show 24999 + 1 = grid6.N from N_6.symm)
/-- and only there. -/
theorem eq_last_of_flush (a : (pcfg6 (F := F)).Adm) (t : Fin (cfg6 a).N) (hf : ((cfg6 a).win 2).flush t = true) : t.val = 24999 := by
  have hN : (cfg6 a).N = 25000 := N_6
  by_contra hne
  have hlt : t.val + 1 < (cfg6 a).N := by have := t.isLt; omega
  rw [flush_2 a t hlt] at hf
  exact Bool.false_ne_true hf
/-- The accumulator's block index is zero on both axes, at every point. -/
theorem index_2 (a : (pcfg6 (F := F)).Adm) (t : Fin (cfg6 a).N) : ((cfg6 a).win 2).index t = ![0, 0] := rfl

/-- The accumulator's block is moved whole: its cut is itself. -/
theorem cut_2 (a : (pcfg6 (F := F)).Adm) (i : grid6.Coords) (X : Vec F S1x1 .f32) : ((cfg6 a).win 2).cut i X = X := rfl

/-- The result array read through its one block is the array. -/
theorem read_blk_2 (a : (pcfg6 (F := F)).Adm) (t : Fin (cfg6 a).N) (G : Vec F S1x1 .f32) :
    (((cfg6 a).win 2).blk t).view.read (Elt F) G = G := by
  refine funext fun (y : S1x1.Idx) => ?_
  show G ((((cfg6 a).win 2).blk t).view.emb y) = G y
  refine congrArg G (funext fun b => Fin.ext ?_)
  refine (((cfg6 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid6.coords t) ((dat V hO c).after 2 t) = accAt V hO c 24999 (hlast V hO)
  rw [after_2]
  exact (cut_2 (adm V hO) (grid6.coords t) (accAt V hO c t.val t.isLt)).trans (accAt_congr V hO c h3 t.isLt (hlast V hO))

/-- Every index of the result array lies in the block written back at the last point. -/
theorem mem_last (a : (pcfg6 (F := F)).Adm) (h : 24999 < (cfg6 a).N) (i : S1x1.Idx) :
    i ∈ (((cfg6 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v37 (((cfgM V hO).win 2).rect ⟨24999, hlast V hO⟩))).mpr
        (mem_last (adm V hO) (hlast V hO) i)⟩

end Result

end Cert.KernelIdeal.Call6

end
-- ==== Proof.Call7Value.lean ====
import proofs.«406163_j35201551958720_3_alg».proof.Proof.Call7Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call7

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 7 at the extended reals: what one call leaves in its result array

The body adds one pair's distance to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k7_pay2 x0 x1 (k7_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid7.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k7_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k7_pay1 (F := Ideal) (ValueIdx.ix2 (0 : Fin 1) (0 : Fin 1)) = 0 := by
  unfold k7_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's distance. -/
theorem pay2_at (x0 x1 : Vec Ideal S1x1x256 .f32) (xo : Vec Ideal S1x1 .f32) :
    k7_pay2 (F := Ideal) x0 x1 xo (ValueIdx.ix2 (0 : Fin 1) (0 : Fin 1))
      = xo (ValueIdx.ix2 (0 : Fin 1) (0 : Fin 1))
        + Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  unfold k7_pay2
  refine (ValueIdx.addf_apply _ _ _).trans ?_
  refine congrArg₂ (· + ·) (congrFun (shapeCast_self xo _) _) ?_
  exact dist_at x0 x1 _ _ _ _ _

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg7 (F := F)).Adm) (t : Fin (cfg7 a).N) :
    ((cfg7 a).win 0).index t = cc7_transform_0 Gen.k7_off1_inb Gen.numel1_S1 a.1 (grid7.coords t) := rfl
theorem index_1 (a : (pcfg7 (F := F)).Adm) (t : Fin (cfg7 a).N) :
    ((cfg7 a).win 1).index t = cc7_transform_1 Gen.k7_off1_inb Gen.numel1_S1 a.1 (grid7.coords t) := rfl

/-- The table entry an index map reads at point t is entry t. -/
theorem tix (t : Fin grid7.N) (ht : t.val < 25000) (inb : ∀ a, (![(Scalar.indexCast (BitVec.ofNat 32 ((grid7.coords t) 0).val)).toNat] : Fin 1 → Nat) a + S1.size a ≤ S25000.size a)
    (h1 : 0 < S1.numel) :
    (Rect.unit (s := S25000) ![(Scalar.indexCast (BitVec.ofNat 32 ((grid7.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid7.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre7.Contents (Elt F)) (t : Fin grid7.N) (ht : t.val < 25000) :
    cc7_transform_0 Gen.k7_off1_inb Gen.numel1_S1 pf (grid7.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre7.Contents (Elt F)) (t : Fin grid7.N) (ht : t.val < 25000) :
    cc7_transform_1 Gen.k7_off1_inb Gen.numel1_S1 pf (grid7.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid7.N) : (wordA V t.val).toNat < 100000 := by
  have ht : t.val < 25000 := lt_of_lt_of_eq t.isLt N_7
  obtain ⟨h, -⟩ := hO.1 (grid7.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid7.N) : (wordB V t.val).toNat < 100000 := by
  have ht : t.val < 25000 := lt_of_lt_of_eq t.isLt N_7
  obtain ⟨h, -⟩ := hO.2 (grid7.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_7
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_7
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k7_pay2 (iblk V hO c 0 t) (iblk V hO c 1 t) (k7_pay1 (F := F)) :=
  (accAt_first V hO c t h0).trans
    (outFirst_eq (F := F) c (grid7.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k7_pay2 (iblk V hO c 0 t) (iblk V hO c 1 t)
      (accAt V hO c (t.val - 1) (Nat.lt_of_le_of_lt (Nat.sub_le _ _) t.isLt)) :=
  (accAt_later V hO c t h0).trans
    (outLater_eq (F := F) c (grid7.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the distance between the two rows its table words name. -/
def termAt (c : Dev nD) (n : ℕ) : EReal :=
  Ideal.sqrt (∑ d : Fin 256,
    (rowOf (V c main_v0) (wordA V n).toNat d - rowOf (V c main_v0) (wordB V n).toNat d)
      * (rowOf (V c main_v0) (wordA V n).toNat d - rowOf (V c main_v0) (wordB V n).toNat d))

/-- The pair's term from the two row blocks at point t. -/
theorem term_of_blocks (hO : Ok V) (c : Dev nD) (t : Fin (cfgM V hO).N) :
    Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d)))
      = termAt V c t.val :=
  congrArg Ideal.sqrt (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k7_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_7
  omega
/-- The accumulator's window is written back at the last point, -/
theorem flush_last (a : (pcfg7 (F := F)).Adm) (h : 24999 < (cfg7 a).N) : ((cfg7 a).win 2).flush ⟨24999, h⟩ = true := by
  unfold Pipeline.Window.flush
  rw [Bool.and_eq_true]
  refine ⟨rfl, ?_⟩
  rw [Bool.or_eq_true]
  left
  exact decide_eq_true (show 24999 + 1 = grid7.N from N_7.symm)
/-- and only there. -/
theorem eq_last_of_flush (a : (pcfg7 (F := F)).Adm) (t : Fin (cfg7 a).N) (hf : ((cfg7 a).win 2).flush t = true) : t.val = 24999 := by
  have hN : (cfg7 a).N = 25000 := N_7
  by_contra hne
  have hlt : t.val + 1 < (cfg7 a).N := by have := t.isLt; omega
  rw [flush_2 a t hlt] at hf
  exact Bool.false_ne_true hf
/-- The accumulator's block index is zero on both axes, at every point. -/
theorem index_2 (a : (pcfg7 (F := F)).Adm) (t : Fin (cfg7 a).N) : ((cfg7 a).win 2).index t = ![0, 0] := rfl

/-- The accumulator's block is moved whole: its cut is itself. -/
theorem cut_2 (a : (pcfg7 (F := F)).Adm) (i : grid7.Coords) (X : Vec F S1x1 .f32) : ((cfg7 a).win 2).cut i X = X := rfl

/-- The result array read through its one block is the array. -/
theorem read_blk_2 (a : (pcfg7 (F := F)).Adm) (t : Fin (cfg7 a).N) (G : Vec F S1x1 .f32) :
    (((cfg7 a).win 2).blk t).view.read (Elt F) G = G := by
  refine funext fun (y : S1x1.Idx) => ?_
  show G ((((cfg7 a).win 2).blk t).view.emb y) = G y
  refine congrArg G (funext fun b => Fin.ext ?_)
  refine (((cfg7 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid7.coords t) ((dat V hO c).after 2 t) = accAt V hO c 24999 (hlast V hO)
  rw [after_2]
  exact (cut_2 (adm V hO) (grid7.coords t) (accAt V hO c t.val t.isLt)).trans (accAt_congr V hO c h3 t.isLt (hlast V hO))

/-- Every index of the result array lies in the block written back at the last point. -/
theorem mem_last (a : (pcfg7 (F := F)).Adm) (h : 24999 < (cfg7 a).N) (i : S1x1.Idx) :
    i ∈ (((cfg7 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v42 (((cfgM V hO).win 2).rect ⟨24999, hlast V hO⟩))).mpr
        (mem_last (adm V hO) (hlast V hO) i)⟩

end Result

end Cert.KernelIdeal.Call7

end
-- ==== Proof.Call8Value.lean ====
import proofs.«406163_j35201551958720_3_alg».proof.Proof.Call8Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call8

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 0 at the extended reals: what one call leaves in its result array

The body adds one pair's hinge, the larger of 0 and one half minus the pair's distance, to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k8_pay2 x0 x1 (k8_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid8.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k8_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k8_pay1 (F := Ideal) (ValueIdx.ix2 (0 : Fin 1) (0 : Fin 1)) = 0 := by
  unfold k8_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's hinge, the larger of 0 and one half minus the
    pair's distance. -/
theorem pay2_at (x0 x1 : Vec Ideal S1x1x256 .f32) (xo : Vec Ideal S1x1 .f32) :
    k8_pay2 (F := Ideal) x0 x1 xo (ValueIdx.ix2 (0 : Fin 1) (0 : Fin 1))
      = xo (ValueIdx.ix2 (0 : Fin 1) (0 : Fin 1))
        + max 0 (Ideal.ofBits .f32 0x3F000000#32
          - Ideal.sqrt (∑ d : Fin 256, (x0 (ValueIdx.ix3 (0 : Fin 1) (0 : Fin 1) d) - x1 (ValueIdx.ix3 (0 : Fin 1) (0 : Fin 1) d))
            * (x0 (ValueIdx.ix3 (0 : Fin 1) (0 : Fin 1) d) - x1 (ValueIdx.ix3 (0 : Fin 1) (0 : Fin 1) d)))) := by
  unfold k8_pay2
  refine (ValueIdx.addf_apply _ _ _).trans ?_
  refine congrArg₂ (· + ·) (congrFun (shapeCast_self xo _) _) ?_
  refine (ValueIdx.maximumf_apply _ _ _).trans ?_
  refine congrArg₂ max Ideal.ofBits_zero_f32 ?_
  refine (ValueIdx.subf_apply _ _ _).trans ?_
  exact congrArg (Ideal.ofBits .f32 0x3F000000#32 - ·) (dist_at x0 x1 _ _ _ _ _)

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg8 (F := F)).Adm) (t : Fin (cfg8 a).N) :
    ((cfg8 a).win 0).index t = cc8_transform_0 Gen.k8_off1_inb Gen.numel1_S1 a.1 (grid8.coords t) := rfl
theorem index_1 (a : (pcfg8 (F := F)).Adm) (t : Fin (cfg8 a).N) :
    ((cfg8 a).win 1).index t = cc8_transform_1 Gen.k8_off1_inb Gen.numel1_S1 a.1 (grid8.coords t) := rfl

/-- The table entry an index map reads at point t is entry t. -/
theorem tix (t : Fin grid8.N) (ht : t.val < 25000) (inb : ∀ a, (![(Scalar.indexCast (BitVec.ofNat 32 ((grid8.coords t) 0).val)).toNat] : Fin 1 → Nat) a + S1.size a ≤ S25000.size a)
    (h1 : 0 < S1.numel) :
    (Rect.unit (s := S25000) ![(Scalar.indexCast (BitVec.ofNat 32 ((grid8.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid8.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre8.Contents (Elt F)) (t : Fin grid8.N) (ht : t.val < 25000) :
    cc8_transform_0 Gen.k8_off1_inb Gen.numel1_S1 pf (grid8.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre8.Contents (Elt F)) (t : Fin grid8.N) (ht : t.val < 25000) :
    cc8_transform_1 Gen.k8_off1_inb Gen.numel1_S1 pf (grid8.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid8.N) : (wordA V t.val).toNat < 100000 := by
  have ht : t.val < 25000 := lt_of_lt_of_eq t.isLt N_8
  obtain ⟨h, -⟩ := hO.1 (grid8.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid8.N) : (wordB V t.val).toNat < 100000 := by
  have ht : t.val < 25000 := lt_of_lt_of_eq t.isLt N_8
  obtain ⟨h, -⟩ := hO.2 (grid8.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_8
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_8
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k8_pay2 (iblk V hO c 0 t) (iblk V hO c 1 t) (k8_pay1 (F := F)) :=
  (accAt_first V hO c t h0).trans
    (outFirst_eq (F := F) c (grid8.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k8_pay2 (iblk V hO c 0 t) (iblk V hO c 1 t)
      (accAt V hO c (t.val - 1) (Nat.lt_of_le_of_lt (Nat.sub_le _ _) t.isLt)) :=
  (accAt_later V hO c t h0).trans
    (outLater_eq (F := F) c (grid8.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the hinge of the distance between the two rows its table words name. -/
def termAt (c : Dev nD) (n : ℕ) : EReal :=
  max 0 (Ideal.ofBits .f32 0x3F000000#32 - Ideal.sqrt (∑ d : Fin 256,
    (rowOf (V c main_v0) (wordA V n).toNat d - rowOf (V c main_v0) (wordB V n).toNat d)
      * (rowOf (V c main_v0) (wordA V n).toNat d - rowOf (V c main_v0) (wordB V n).toNat d)))

/-- The pair's term from the two row blocks at point t. -/
theorem term_of_blocks (hO : Ok V) (c : Dev nD) (t : Fin (cfgM V hO).N) :
    max 0 (Ideal.ofBits .f32 0x3F000000#32 - Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d))))
      = termAt V c t.val :=
  congrArg (fun s => max 0 (Ideal.ofBits .f32 0x3F000000#32 - Ideal.sqrt s)) (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k8_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_8
  omega
/-- The accumulator's window is written back at the last point, -/
theorem flush_last (a : (pcfg8 (F := F)).Adm) (h : 24999 < (cfg8 a).N) : ((cfg8 a).win 2).flush ⟨24999, h⟩ = true := by
  unfold Pipeline.Window.flush
  rw [Bool.and_eq_true]
  refine ⟨rfl, ?_⟩
  rw [Bool.or_eq_true]
  left
  exact decide_eq_true (show 24999 + 1 = grid8.N from N_8.symm)
/-- and only there. -/
theorem eq_last_of_flush (a : (pcfg8 (F := F)).Adm) (t : Fin (cfg8 a).N) (hf : ((cfg8 a).win 2).flush t = true) : t.val = 24999 := by
  have hN : (cfg8 a).N = 25000 := N_8
  by_contra hne
  have hlt : t.val + 1 < (cfg8 a).N := by have := t.isLt; omega
  rw [flush_2 a t hlt] at hf
  exact Bool.false_ne_true hf
/-- The accumulator's block index is zero on both axes, at every point. -/
theorem index_2 (a : (pcfg8 (F := F)).Adm) (t : Fin (cfg8 a).N) : ((cfg8 a).win 2).index t = ![0, 0] := rfl

/-- The accumulator's block is moved whole: its cut is itself. -/
theorem cut_2 (a : (pcfg8 (F := F)).Adm) (i : grid8.Coords) (X : Vec F S1x1 .f32) : ((cfg8 a).win 2).cut i X = X := rfl

/-- The result array read through its one block is the array. -/
theorem read_blk_2 (a : (pcfg8 (F := F)).Adm) (t : Fin (cfg8 a).N) (G : Vec F S1x1 .f32) :
    (((cfg8 a).win 2).blk t).view.read (Elt F) G = G := by
  refine funext fun (y : S1x1.Idx) => ?_
  show G ((((cfg8 a).win 2).blk t).view.emb y) = G y
  refine congrArg G (funext fun b => Fin.ext ?_)
  refine (((cfg8 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid8.coords t) ((dat V hO c).after 2 t) = accAt V hO c 24999 (hlast V hO)
  rw [after_2]
  exact (cut_2 (adm V hO) (grid8.coords t) (accAt V hO c t.val t.isLt)).trans (accAt_congr V hO c h3 t.isLt (hlast V hO))

/-- Every index of the result array lies in the block written back at the last point. -/
theorem mem_last (a : (pcfg8 (F := F)).Adm) (h : 24999 < (cfg8 a).N) (i : S1x1.Idx) :
    i ∈ (((cfg8 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v51 (((cfgM V hO).win 2).rect ⟨24999, hlast V hO⟩))).mpr
        (mem_last (adm V hO) (hlast V hO) i)⟩

end Result

end Cert.KernelIdeal.Call8

end
-- ==== Proof.Call9Value.lean ====
import proofs.«406163_j35201551958720_3_alg».proof.Proof.Call9Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call9

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 9 at the extended reals: what one call leaves in its result array

The body adds one pair's hinge, the larger of 0 and one half minus the pair's distance, to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k9_pay2 x0 x1 (k9_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid9.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k9_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k9_pay1 (F := Ideal) (ValueIdx.ix2 (0 : Fin 1) (0 : Fin 1)) = 0 := by
  unfold k9_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's hinge, the larger of 0 and one half minus the
    pair's distance. -/
theorem pay2_at (x0 x1 : Vec Ideal S1x1x256 .f32) (xo : Vec Ideal S1x1 .f32) :
    k9_pay2 (F := Ideal) x0 x1 xo (ValueIdx.ix2 (0 : Fin 1) (0 : Fin 1))
      = xo (ValueIdx.ix2 (0 : Fin 1) (0 : Fin 1))
        + max 0 (Ideal.ofBits .f32 0x3F000000#32
          - Ideal.sqrt (∑ d : Fin 256, (x0 (ValueIdx.ix3 (0 : Fin 1) (0 : Fin 1) d) - x1 (ValueIdx.ix3 (0 : Fin 1) (0 : Fin 1) d))
            * (x0 (ValueIdx.ix3 (0 : Fin 1) (0 : Fin 1) d) - x1 (ValueIdx.ix3 (0 : Fin 1) (0 : Fin 1) d)))) := by
  unfold k9_pay2
  refine (ValueIdx.addf_apply _ _ _).trans ?_
  refine congrArg₂ (· + ·) (congrFun (shapeCast_self xo _) _) ?_
  refine (ValueIdx.maximumf_apply _ _ _).trans ?_
  refine congrArg₂ max Ideal.ofBits_zero_f32 ?_
  refine (ValueIdx.subf_apply _ _ _).trans ?_
  exact congrArg (Ideal.ofBits .f32 0x3F000000#32 - ·) (dist_at x0 x1 _ _ _ _ _)

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg9 (F := F)).Adm) (t : Fin (cfg9 a).N) :
    ((cfg9 a).win 0).index t = cc9_transform_0 Gen.k9_off1_inb Gen.numel1_S1 a.1 (grid9.coords t) := rfl
theorem index_1 (a : (pcfg9 (F := F)).Adm) (t : Fin (cfg9 a).N) :
    ((cfg9 a).win 1).index t = cc9_transform_1 Gen.k9_off1_inb Gen.numel1_S1 a.1 (grid9.coords t) := rfl

/-- The table entry an index map reads at point t is entry t. -/
theorem tix (t : Fin grid9.N) (ht : t.val < 25000) (inb : ∀ a, (![(Scalar.indexCast (BitVec.ofNat 32 ((grid9.coords t) 0).val)).toNat] : Fin 1 → Nat) a + S1.size a ≤ S25000.size a)
    (h1 : 0 < S1.numel) :
    (Rect.unit (s := S25000) ![(Scalar.indexCast (BitVec.ofNat 32 ((grid9.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid9.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre9.Contents (Elt F)) (t : Fin grid9.N) (ht : t.val < 25000) :
    cc9_transform_0 Gen.k9_off1_inb Gen.numel1_S1 pf (grid9.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre9.Contents (Elt F)) (t : Fin grid9.N) (ht : t.val < 25000) :
    cc9_transform_1 Gen.k9_off1_inb Gen.numel1_S1 pf (grid9.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid9.N) : (wordA V t.val).toNat < 100000 := by
  have ht : t.val < 25000 := lt_of_lt_of_eq t.isLt N_9
  obtain ⟨h, -⟩ := hO.1 (grid9.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid9.N) : (wordB V t.val).toNat < 100000 := by
  have ht : t.val < 25000 := lt_of_lt_of_eq t.isLt N_9
  obtain ⟨h, -⟩ := hO.2 (grid9.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_9
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_9
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k9_pay2 (iblk V hO c 0 t) (iblk V hO c 1 t) (k9_pay1 (F := F)) :=
  (accAt_first V hO c t h0).trans
    (outFirst_eq (F := F) c (grid9.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k9_pay2 (iblk V hO c 0 t) (iblk V hO c 1 t)
      (accAt V hO c (t.val - 1) (Nat.lt_of_le_of_lt (Nat.sub_le _ _) t.isLt)) :=
  (accAt_later V hO c t h0).trans
    (outLater_eq (F := F) c (grid9.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the hinge of the distance between the two rows its table words name. -/
def termAt (c : Dev nD) (n : ℕ) : EReal :=
  max 0 (Ideal.ofBits .f32 0x3F000000#32 - Ideal.sqrt (∑ d : Fin 256,
    (rowOf (V c main_v0) (wordA V n).toNat d - rowOf (V c main_v0) (wordB V n).toNat d)
      * (rowOf (V c main_v0) (wordA V n).toNat d - rowOf (V c main_v0) (wordB V n).toNat d)))

/-- The pair's term from the two row blocks at point t. -/
theorem term_of_blocks (hO : Ok V) (c : Dev nD) (t : Fin (cfgM V hO).N) :
    max 0 (Ideal.ofBits .f32 0x3F000000#32 - Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d))))
      = termAt V c t.val :=
  congrArg (fun s => max 0 (Ideal.ofBits .f32 0x3F000000#32 - Ideal.sqrt s)) (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k9_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_9
  omega
/-- The accumulator's window is written back at the last point, -/
theorem flush_last (a : (pcfg9 (F := F)).Adm) (h : 24999 < (cfg9 a).N) : ((cfg9 a).win 2).flush ⟨24999, h⟩ = true := by
  unfold Pipeline.Window.flush
  rw [Bool.and_eq_true]
  refine ⟨rfl, ?_⟩
  rw [Bool.or_eq_true]
  left
  exact decide_eq_true (show 24999 + 1 = grid9.N from N_9.symm)
/-- and only there. -/
theorem eq_last_of_flush (a : (pcfg9 (F := F)).Adm) (t : Fin (cfg9 a).N) (hf : ((cfg9 a).win 2).flush t = true) : t.val = 24999 := by
  have hN : (cfg9 a).N = 25000 := N_9
  by_contra hne
  have hlt : t.val + 1 < (cfg9 a).N := by have := t.isLt; omega
  rw [flush_2 a t hlt] at hf
  exact Bool.false_ne_true hf
/-- The accumulator's block index is zero on both axes, at every point. -/
theorem index_2 (a : (pcfg9 (F := F)).Adm) (t : Fin (cfg9 a).N) : ((cfg9 a).win 2).index t = ![0, 0] := rfl

/-- The accumulator's block is moved whole: its cut is itself. -/
theorem cut_2 (a : (pcfg9 (F := F)).Adm) (i : grid9.Coords) (X : Vec F S1x1 .f32) : ((cfg9 a).win 2).cut i X = X := rfl

/-- The result array read through its one block is the array. -/
theorem read_blk_2 (a : (pcfg9 (F := F)).Adm) (t : Fin (cfg9 a).N) (G : Vec F S1x1 .f32) :
    (((cfg9 a).win 2).blk t).view.read (Elt F) G = G := by
  refine funext fun (y : S1x1.Idx) => ?_
  show G ((((cfg9 a).win 2).blk t).view.emb y) = G y
  refine congrArg G (funext fun b => Fin.ext ?_)
  refine (((cfg9 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid9.coords t) ((dat V hO c).after 2 t) = accAt V hO c 24999 (hlast V hO)
  rw [after_2]
  exact (cut_2 (adm V hO) (grid9.coords t) (accAt V hO c t.val t.isLt)).trans (accAt_congr V hO c h3 t.isLt (hlast V hO))

/-- Every index of the result array lies in the block written back at the last point. -/
theorem mem_last (a : (pcfg9 (F := F)).Adm) (h : 24999 < (cfg9 a).N) (i : S1x1.Idx) :
    i ∈ (((cfg9 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v56 (((cfgM V hO).win 2).rect ⟨24999, hlast V hO⟩))).mpr
        (mem_last (adm V hO) (hlast V hO) i)⟩

end Result

end Cert.KernelIdeal.Call9

end
-- ==== Proof.Call10Value.lean ====
import proofs.«406163_j35201551958720_3_alg».proof.Proof.Call10Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call10

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 10 at the extended reals: what one call leaves in its result array

The body adds one pair's hinge, the larger of 0 and one half minus the pair's distance, to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k10_pay2 x0 x1 (k10_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid10.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k10_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k10_pay1 (F := Ideal) (ValueIdx.ix2 (0 : Fin 1) (0 : Fin 1)) = 0 := by
  unfold k10_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's hinge, the larger of 0 and one half minus the
    pair's distance. -/
theorem pay2_at (x0 x1 : Vec Ideal S1x1x256 .f32) (xo : Vec Ideal S1x1 .f32) :
    k10_pay2 (F := Ideal) x0 x1 xo (ValueIdx.ix2 (0 : Fin 1) (0 : Fin 1))
      = xo (ValueIdx.ix2 (0 : Fin 1) (0 : Fin 1))
        + max 0 (Ideal.ofBits .f32 0x3F000000#32
          - Ideal.sqrt (∑ d : Fin 256, (x0 (ValueIdx.ix3 (0 : Fin 1) (0 : Fin 1) d) - x1 (ValueIdx.ix3 (0 : Fin 1) (0 : Fin 1) d))
            * (x0 (ValueIdx.ix3 (0 : Fin 1) (0 : Fin 1) d) - x1 (ValueIdx.ix3 (0 : Fin 1) (0 : Fin 1) d)))) := by
  unfold k10_pay2
  refine (ValueIdx.addf_apply _ _ _).trans ?_
  refine congrArg₂ (· + ·) (congrFun (shapeCast_self xo _) _) ?_
  refine (ValueIdx.maximumf_apply _ _ _).trans ?_
  refine congrArg₂ max Ideal.ofBits_zero_f32 ?_
  refine (ValueIdx.subf_apply _ _ _).trans ?_
  exact congrArg (Ideal.ofBits .f32 0x3F000000#32 - ·) (dist_at x0 x1 _ _ _ _ _)

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg10 (F := F)).Adm) (t : Fin (cfg10 a).N) :
    ((cfg10 a).win 0).index t = cc10_transform_0 Gen.k10_off1_inb Gen.numel1_S1 a.1 (grid10.coords t) := rfl
theorem index_1 (a : (pcfg10 (F := F)).Adm) (t : Fin (cfg10 a).N) :
    ((cfg10 a).win 1).index t = cc10_transform_1 Gen.k10_off1_inb Gen.numel1_S1 a.1 (grid10.coords t) := rfl

/-- The table entry an index map reads at point t is entry t. -/
theorem tix (t : Fin grid10.N) (ht : t.val < 25000) (inb : ∀ a, (![(Scalar.indexCast (BitVec.ofNat 32 ((grid10.coords t) 0).val)).toNat] : Fin 1 → Nat) a + S1.size a ≤ S25000.size a)
    (h1 : 0 < S1.numel) :
    (Rect.unit (s := S25000) ![(Scalar.indexCast (BitVec.ofNat 32 ((grid10.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid10.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre10.Contents (Elt F)) (t : Fin grid10.N) (ht : t.val < 25000) :
    cc10_transform_0 Gen.k10_off1_inb Gen.numel1_S1 pf (grid10.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre10.Contents (Elt F)) (t : Fin grid10.N) (ht : t.val < 25000) :
    cc10_transform_1 Gen.k10_off1_inb Gen.numel1_S1 pf (grid10.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid10.N) : (wordA V t.val).toNat < 100000 := by
  have ht : t.val < 25000 := lt_of_lt_of_eq t.isLt N_10
  obtain ⟨h, -⟩ := hO.1 (grid10.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid10.N) : (wordB V t.val).toNat < 100000 := by
  have ht : t.val < 25000 := lt_of_lt_of_eq t.isLt N_10
  obtain ⟨h, -⟩ := hO.2 (grid10.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_10
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_10
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k10_pay2 (iblk V hO c 0 t) (iblk V hO c 1 t) (k10_pay1 (F := F)) :=
  (accAt_first V hO c t h0).trans
    (outFirst_eq (F := F) c (grid10.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k10_pay2 (iblk V hO c 0 t) (iblk V hO c 1 t)
      (accAt V hO c (t.val - 1) (Nat.lt_of_le_of_lt (Nat.sub_le _ _) t.isLt)) :=
  (accAt_later V hO c t h0).trans
    (outLater_eq (F := F) c (grid10.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the hinge of the distance between the two rows its table words name. -/
def termAt (c : Dev nD) (n : ℕ) : EReal :=
  max 0 (Ideal.ofBits .f32 0x3F000000#32 - Ideal.sqrt (∑ d : Fin 256,
    (rowOf (V c main_v0) (wordA V n).toNat d - rowOf (V c main_v0) (wordB V n).toNat d)
      * (rowOf (V c main_v0) (wordA V n).toNat d - rowOf (V c main_v0) (wordB V n).toNat d)))

/-- The pair's term from the two row blocks at point t. -/
theorem term_of_blocks (hO : Ok V) (c : Dev nD) (t : Fin (cfgM V hO).N) :
    max 0 (Ideal.ofBits .f32 0x3F000000#32 - Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d))))
      = termAt V c t.val :=
  congrArg (fun s => max 0 (Ideal.ofBits .f32 0x3F000000#32 - Ideal.sqrt s)) (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k10_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_10
  omega
/-- The accumulator's window is written back at the last point, -/
theorem flush_last (a : (pcfg10 (F := F)).Adm) (h : 24999 < (cfg10 a).N) : ((cfg10 a).win 2).flush ⟨24999, h⟩ = true := by
  unfold Pipeline.Window.flush
  rw [Bool.and_eq_true]
  refine ⟨rfl, ?_⟩
  rw [Bool.or_eq_true]
  left
  exact decide_eq_true (show 24999 + 1 = grid10.N from N_10.symm)
/-- and only there. -/
theorem eq_last_of_flush (a : (pcfg10 (F := F)).Adm) (t : Fin (cfg10 a).N) (hf : ((cfg10 a).win 2).flush t = true) : t.val = 24999 := by
  have hN : (cfg10 a).N = 25000 := N_10
  by_contra hne
  have hlt : t.val + 1 < (cfg10 a).N := by have := t.isLt; omega
  rw [flush_2 a t hlt] at hf
  exact Bool.false_ne_true hf
/-- The accumulator's block index is zero on both axes, at every point. -/
theorem index_2 (a : (pcfg10 (F := F)).Adm) (t : Fin (cfg10 a).N) : ((cfg10 a).win 2).index t = ![0, 0] := rfl

/-- The accumulator's block is moved whole: its cut is itself. -/
theorem cut_2 (a : (pcfg10 (F := F)).Adm) (i : grid10.Coords) (X : Vec F S1x1 .f32) : ((cfg10 a).win 2).cut i X = X := rfl

/-- The result array read through its one block is the array. -/
theorem read_blk_2 (a : (pcfg10 (F := F)).Adm) (t : Fin (cfg10 a).N) (G : Vec F S1x1 .f32) :
    (((cfg10 a).win 2).blk t).view.read (Elt F) G = G := by
  refine funext fun (y : S1x1.Idx) => ?_
  show G ((((cfg10 a).win 2).blk t).view.emb y) = G y
  refine congrArg G (funext fun b => Fin.ext ?_)
  refine (((cfg10 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid10.coords t) ((dat V hO c).after 2 t) = accAt V hO c 24999 (hlast V hO)
  rw [after_2]
  exact (cut_2 (adm V hO) (grid10.coords t) (accAt V hO c t.val t.isLt)).trans (accAt_congr V hO c h3 t.isLt (hlast V hO))

/-- Every index of the result array lies in the block written back at the last point. -/
theorem mem_last (a : (pcfg10 (F := F)).Adm) (h : 24999 < (cfg10 a).N) (i : S1x1.Idx) :
    i ∈ (((cfg10 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v61 (((cfgM V hO).win 2).rect ⟨24999, hlast V hO⟩))).mpr
        (mem_last (adm V hO) (hlast V hO) i)⟩

end Result

end Cert.KernelIdeal.Call10

end
-- ==== Proof.Call11Value.lean ====
import proofs.«406163_j35201551958720_3_alg».proof.Proof.Call11Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call11

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 11 at the extended reals: what one call leaves in its result array

The body adds one pair's hinge, the larger of 0 and one half minus the pair's distance, to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k11_pay2 x0 x1 (k11_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid11.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k11_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k11_pay1 (F := Ideal) (ValueIdx.ix2 (0 : Fin 1) (0 : Fin 1)) = 0 := by
  unfold k11_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's hinge, the larger of 0 and one half minus the
    pair's distance. -/
theorem pay2_at (x0 x1 : Vec Ideal S1x1x256 .f32) (xo : Vec Ideal S1x1 .f32) :
    k11_pay2 (F := Ideal) x0 x1 xo (ValueIdx.ix2 (0 : Fin 1) (0 : Fin 1))
      = xo (ValueIdx.ix2 (0 : Fin 1) (0 : Fin 1))
        + max 0 (Ideal.ofBits .f32 0x3F000000#32
          - Ideal.sqrt (∑ d : Fin 256, (x0 (ValueIdx.ix3 (0 : Fin 1) (0 : Fin 1) d) - x1 (ValueIdx.ix3 (0 : Fin 1) (0 : Fin 1) d))
            * (x0 (ValueIdx.ix3 (0 : Fin 1) (0 : Fin 1) d) - x1 (ValueIdx.ix3 (0 : Fin 1) (0 : Fin 1) d)))) := by
  unfold k11_pay2
  refine (ValueIdx.addf_apply _ _ _).trans ?_
  refine congrArg₂ (· + ·) (congrFun (shapeCast_self xo _) _) ?_
  refine (ValueIdx.maximumf_apply _ _ _).trans ?_
  refine congrArg₂ max Ideal.ofBits_zero_f32 ?_
  refine (ValueIdx.subf_apply _ _ _).trans ?_
  exact congrArg (Ideal.ofBits .f32 0x3F000000#32 - ·) (dist_at x0 x1 _ _ _ _ _)

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg11 (F := F)).Adm) (t : Fin (cfg11 a).N) :
    ((cfg11 a).win 0).index t = cc11_transform_0 Gen.k11_off1_inb Gen.numel1_S1 a.1 (grid11.coords t) := rfl
theorem index_1 (a : (pcfg11 (F := F)).Adm) (t : Fin (cfg11 a).N) :
    ((cfg11 a).win 1).index t = cc11_transform_1 Gen.k11_off1_inb Gen.numel1_S1 a.1 (grid11.coords t) := rfl

/-- The table entry an index map reads at point t is entry t. -/
theorem tix (t : Fin grid11.N) (ht : t.val < 25000) (inb : ∀ a, (![(Scalar.indexCast (BitVec.ofNat 32 ((grid11.coords t) 0).val)).toNat] : Fin 1 → Nat) a + S1.size a ≤ S25000.size a)
    (h1 : 0 < S1.numel) :
    (Rect.unit (s := S25000) ![(Scalar.indexCast (BitVec.ofNat 32 ((grid11.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid11.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre11.Contents (Elt F)) (t : Fin grid11.N) (ht : t.val < 25000) :
    cc11_transform_0 Gen.k11_off1_inb Gen.numel1_S1 pf (grid11.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre11.Contents (Elt F)) (t : Fin grid11.N) (ht : t.val < 25000) :
    cc11_transform_1 Gen.k11_off1_inb Gen.numel1_S1 pf (grid11.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid11.N) : (wordA V t.val).toNat < 100000 := by
  have ht : t.val < 25000 := lt_of_lt_of_eq t.isLt N_11
  obtain ⟨h, -⟩ := hO.1 (grid11.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid11.N) : (wordB V t.val).toNat < 100000 := by
  have ht : t.val < 25000 := lt_of_lt_of_eq t.isLt N_11
  obtain ⟨h, -⟩ := hO.2 (grid11.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_11
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_11
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k11_pay2 (iblk V hO c 0 t) (iblk V hO c 1 t) (k11_pay1 (F := F)) :=
  (accAt_first V hO c t h0).trans
    (outFirst_eq (F := F) c (grid11.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k11_pay2 (iblk V hO c 0 t) (iblk V hO c 1 t)
      (accAt V hO c (t.val - 1) (Nat.lt_of_le_of_lt (Nat.sub_le _ _) t.isLt)) :=
  (accAt_later V hO c t h0).trans
    (outLater_eq (F := F) c (grid11.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the hinge of the distance between the two rows its table words name. -/
def termAt (c : Dev nD) (n : ℕ) : EReal :=
  max 0 (Ideal.ofBits .f32 0x3F000000#32 - Ideal.sqrt (∑ d : Fin 256,
    (rowOf (V c main_v0) (wordA V n).toNat d - rowOf (V c main_v0) (wordB V n).toNat d)
      * (rowOf (V c main_v0) (wordA V n).toNat d - rowOf (V c main_v0) (wordB V n).toNat d)))

/-- The pair's term from the two row blocks at point t. -/
theorem term_of_blocks (hO : Ok V) (c : Dev nD) (t : Fin (cfgM V hO).N) :
    max 0 (Ideal.ofBits .f32 0x3F000000#32 - Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d))))
      = termAt V c t.val :=
  congrArg (fun s => max 0 (Ideal.ofBits .f32 0x3F000000#32 - Ideal.sqrt s)) (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k11_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_11
  omega
/-- The accumulator's window is written back at the last point, -/
theorem flush_last (a : (pcfg11 (F := F)).Adm) (h : 24999 < (cfg11 a).N) : ((cfg11 a).win 2).flush ⟨24999, h⟩ = true := by
  unfold Pipeline.Window.flush
  rw [Bool.and_eq_true]
  refine ⟨rfl, ?_⟩
  rw [Bool.or_eq_true]
  left
  exact decide_eq_true (show 24999 + 1 = grid11.N from N_11.symm)
/-- and only there. -/
theorem eq_last_of_flush (a : (pcfg11 (F := F)).Adm) (t : Fin (cfg11 a).N) (hf : ((cfg11 a).win 2).flush t = true) : t.val = 24999 := by
  have hN : (cfg11 a).N = 25000 := N_11
  by_contra hne
  have hlt : t.val + 1 < (cfg11 a).N := by have := t.isLt; omega
  rw [flush_2 a t hlt] at hf
  exact Bool.false_ne_true hf
/-- The accumulator's block index is zero on both axes, at every point. -/
theorem index_2 (a : (pcfg11 (F := F)).Adm) (t : Fin (cfg11 a).N) : ((cfg11 a).win 2).index t = ![0, 0] := rfl

/-- The accumulator's block is moved whole: its cut is itself. -/
theorem cut_2 (a : (pcfg11 (F := F)).Adm) (i : grid11.Coords) (X : Vec F S1x1 .f32) : ((cfg11 a).win 2).cut i X = X := rfl

/-- The result array read through its one block is the array. -/
theorem read_blk_2 (a : (pcfg11 (F := F)).Adm) (t : Fin (cfg11 a).N) (G : Vec F S1x1 .f32) :
    (((cfg11 a).win 2).blk t).view.read (Elt F) G = G := by
  refine funext fun (y : S1x1.Idx) => ?_
  show G ((((cfg11 a).win 2).blk t).view.emb y) = G y
  refine congrArg G (funext fun b => Fin.ext ?_)
  refine (((cfg11 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid11.coords t) ((dat V hO c).after 2 t) = accAt V hO c 24999 (hlast V hO)
  rw [after_2]
  exact (cut_2 (adm V hO) (grid11.coords t) (accAt V hO c t.val t.isLt)).trans (accAt_congr V hO c h3 t.isLt (hlast V hO))

/-- Every index of the result array lies in the block written back at the last point. -/
theorem mem_last (a : (pcfg11 (F := F)).Adm) (h : 24999 < (cfg11 a).N) (i : S1x1.Idx) :
    i ∈ (((cfg11 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v66 (((cfgM V hO).win 2).rect ⟨24999, hlast V hO⟩))).mpr
        (mem_last (adm V hO) (hlast V hO) i)⟩

end Result

end Cert.KernelIdeal.Call11

end
-- ==== Proof.Call12Value.lean ====
import proofs.«406163_j35201551958720_3_alg».proof.Proof.Call12Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call12

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 12 at the extended reals: what one call leaves in its result array

The body adds one pair's hinge, the larger of 0 and one half minus the pair's distance, to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k12_pay2 x0 x1 (k12_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid12.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k12_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k12_pay1 (F := Ideal) (ValueIdx.ix2 (0 : Fin 1) (0 : Fin 1)) = 0 := by
  unfold k12_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's hinge, the larger of 0 and one half minus the
    pair's distance. -/
theorem pay2_at (x0 x1 : Vec Ideal S1x1x256 .f32) (xo : Vec Ideal S1x1 .f32) :
    k12_pay2 (F := Ideal) x0 x1 xo (ValueIdx.ix2 (0 : Fin 1) (0 : Fin 1))
      = xo (ValueIdx.ix2 (0 : Fin 1) (0 : Fin 1))
        + max 0 (Ideal.ofBits .f32 0x3F000000#32
          - Ideal.sqrt (∑ d : Fin 256, (x0 (ValueIdx.ix3 (0 : Fin 1) (0 : Fin 1) d) - x1 (ValueIdx.ix3 (0 : Fin 1) (0 : Fin 1) d))
            * (x0 (ValueIdx.ix3 (0 : Fin 1) (0 : Fin 1) d) - x1 (ValueIdx.ix3 (0 : Fin 1) (0 : Fin 1) d)))) := by
  unfold k12_pay2
  refine (ValueIdx.addf_apply _ _ _).trans ?_
  refine congrArg₂ (· + ·) (congrFun (shapeCast_self xo _) _) ?_
  refine (ValueIdx.maximumf_apply _ _ _).trans ?_
  refine congrArg₂ max Ideal.ofBits_zero_f32 ?_
  refine (ValueIdx.subf_apply _ _ _).trans ?_
  exact congrArg (Ideal.ofBits .f32 0x3F000000#32 - ·) (dist_at x0 x1 _ _ _ _ _)

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg12 (F := F)).Adm) (t : Fin (cfg12 a).N) :
    ((cfg12 a).win 0).index t = cc12_transform_0 Gen.k12_off1_inb Gen.numel1_S1 a.1 (grid12.coords t) := rfl
theorem index_1 (a : (pcfg12 (F := F)).Adm) (t : Fin (cfg12 a).N) :
    ((cfg12 a).win 1).index t = cc12_transform_1 Gen.k12_off1_inb Gen.numel1_S1 a.1 (grid12.coords t) := rfl

/-- The table entry an index map reads at point t is entry t. -/
theorem tix (t : Fin grid12.N) (ht : t.val < 25000) (inb : ∀ a, (![(Scalar.indexCast (BitVec.ofNat 32 ((grid12.coords t) 0).val)).toNat] : Fin 1 → Nat) a + S1.size a ≤ S25000.size a)
    (h1 : 0 < S1.numel) :
    (Rect.unit (s := S25000) ![(Scalar.indexCast (BitVec.ofNat 32 ((grid12.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid12.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre12.Contents (Elt F)) (t : Fin grid12.N) (ht : t.val < 25000) :
    cc12_transform_0 Gen.k12_off1_inb Gen.numel1_S1 pf (grid12.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre12.Contents (Elt F)) (t : Fin grid12.N) (ht : t.val < 25000) :
    cc12_transform_1 Gen.k12_off1_inb Gen.numel1_S1 pf (grid12.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid12.N) : (wordA V t.val).toNat < 100000 := by
  have ht : t.val < 25000 := lt_of_lt_of_eq t.isLt N_12
  obtain ⟨h, -⟩ := hO.1 (grid12.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid12.N) : (wordB V t.val).toNat < 100000 := by
  have ht : t.val < 25000 := lt_of_lt_of_eq t.isLt N_12
  obtain ⟨h, -⟩ := hO.2 (grid12.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_12
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_12
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k12_pay2 (iblk V hO c 0 t) (iblk V hO c 1 t) (k12_pay1 (F := F)) :=
  (accAt_first V hO c t h0).trans
    (outFirst_eq (F := F) c (grid12.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k12_pay2 (iblk V hO c 0 t) (iblk V hO c 1 t)
      (accAt V hO c (t.val - 1) (Nat.lt_of_le_of_lt (Nat.sub_le _ _) t.isLt)) :=
  (accAt_later V hO c t h0).trans
    (outLater_eq (F := F) c (grid12.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the hinge of the distance between the two rows its table words name. -/
def termAt (c : Dev nD) (n : ℕ) : EReal :=
  max 0 (Ideal.ofBits .f32 0x3F000000#32 - Ideal.sqrt (∑ d : Fin 256,
    (rowOf (V c main_v0) (wordA V n).toNat d - rowOf (V c main_v0) (wordB V n).toNat d)
      * (rowOf (V c main_v0) (wordA V n).toNat d - rowOf (V c main_v0) (wordB V n).toNat d)))

/-- The pair's term from the two row blocks at point t. -/
theorem term_of_blocks (hO : Ok V) (c : Dev nD) (t : Fin (cfgM V hO).N) :
    max 0 (Ideal.ofBits .f32 0x3F000000#32 - Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d))))
      = termAt V c t.val :=
  congrArg (fun s => max 0 (Ideal.ofBits .f32 0x3F000000#32 - Ideal.sqrt s)) (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k12_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_12
  omega
/-- The accumulator's window is written back at the last point, -/
theorem flush_last (a : (pcfg12 (F := F)).Adm) (h : 24999 < (cfg12 a).N) : ((cfg12 a).win 2).flush ⟨24999, h⟩ = true := by
  unfold Pipeline.Window.flush
  rw [Bool.and_eq_true]
  refine ⟨rfl, ?_⟩
  rw [Bool.or_eq_true]
  left
  exact decide_eq_true (show 24999 + 1 = grid12.N from N_12.symm)
/-- and only there. -/
theorem eq_last_of_flush (a : (pcfg12 (F := F)).Adm) (t : Fin (cfg12 a).N) (hf : ((cfg12 a).win 2).flush t = true) : t.val = 24999 := by
  have hN : (cfg12 a).N = 25000 := N_12
  by_contra hne
  have hlt : t.val + 1 < (cfg12 a).N := by have := t.isLt; omega
  rw [flush_2 a t hlt] at hf
  exact Bool.false_ne_true hf
/-- The accumulator's block index is zero on both axes, at every point. -/
theorem index_2 (a : (pcfg12 (F := F)).Adm) (t : Fin (cfg12 a).N) : ((cfg12 a).win 2).index t = ![0, 0] := rfl

/-- The accumulator's block is moved whole: its cut is itself. -/
theorem cut_2 (a : (pcfg12 (F := F)).Adm) (i : grid12.Coords) (X : Vec F S1x1 .f32) : ((cfg12 a).win 2).cut i X = X := rfl

/-- The result array read through its one block is the array. -/
theorem read_blk_2 (a : (pcfg12 (F := F)).Adm) (t : Fin (cfg12 a).N) (G : Vec F S1x1 .f32) :
    (((cfg12 a).win 2).blk t).view.read (Elt F) G = G := by
  refine funext fun (y : S1x1.Idx) => ?_
  show G ((((cfg12 a).win 2).blk t).view.emb y) = G y
  refine congrArg G (funext fun b => Fin.ext ?_)
  refine (((cfg12 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid12.coords t) ((dat V hO c).after 2 t) = accAt V hO c 24999 (hlast V hO)
  rw [after_2]
  exact (cut_2 (adm V hO) (grid12.coords t) (accAt V hO c t.val t.isLt)).trans (accAt_congr V hO c h3 t.isLt (hlast V hO))

/-- Every index of the result array lies in the block written back at the last point. -/
theorem mem_last (a : (pcfg12 (F := F)).Adm) (h : 24999 < (cfg12 a).N) (i : S1x1.Idx) :
    i ∈ (((cfg12 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v71 (((cfgM V hO).win 2).rect ⟨24999, hlast V hO⟩))).mpr
        (mem_last (adm V hO) (hlast V hO) i)⟩

end Result

end Cert.KernelIdeal.Call12

end
-- ==== Proof.Call13Value.lean ====
import proofs.«406163_j35201551958720_3_alg».proof.Proof.Call13Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call13

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 13 at the extended reals: what one call leaves in its result array

The body adds one pair's hinge, the larger of 0 and one half minus the pair's distance, to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k13_pay2 x0 x1 (k13_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid13.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k13_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k13_pay1 (F := Ideal) (ValueIdx.ix2 (0 : Fin 1) (0 : Fin 1)) = 0 := by
  unfold k13_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's hinge, the larger of 0 and one half minus the
    pair's distance. -/
theorem pay2_at (x0 x1 : Vec Ideal S1x1x256 .f32) (xo : Vec Ideal S1x1 .f32) :
    k13_pay2 (F := Ideal) x0 x1 xo (ValueIdx.ix2 (0 : Fin 1) (0 : Fin 1))
      = xo (ValueIdx.ix2 (0 : Fin 1) (0 : Fin 1))
        + max 0 (Ideal.ofBits .f32 0x3F000000#32
          - Ideal.sqrt (∑ d : Fin 256, (x0 (ValueIdx.ix3 (0 : Fin 1) (0 : Fin 1) d) - x1 (ValueIdx.ix3 (0 : Fin 1) (0 : Fin 1) d))
            * (x0 (ValueIdx.ix3 (0 : Fin 1) (0 : Fin 1) d) - x1 (ValueIdx.ix3 (0 : Fin 1) (0 : Fin 1) d)))) := by
  unfold k13_pay2
  refine (ValueIdx.addf_apply _ _ _).trans ?_
  refine congrArg₂ (· + ·) (congrFun (shapeCast_self xo _) _) ?_
  refine (ValueIdx.maximumf_apply _ _ _).trans ?_
  refine congrArg₂ max Ideal.ofBits_zero_f32 ?_
  refine (ValueIdx.subf_apply _ _ _).trans ?_
  exact congrArg (Ideal.ofBits .f32 0x3F000000#32 - ·) (dist_at x0 x1 _ _ _ _ _)

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg13 (F := F)).Adm) (t : Fin (cfg13 a).N) :
    ((cfg13 a).win 0).index t = cc13_transform_0 Gen.k13_off1_inb Gen.numel1_S1 a.1 (grid13.coords t) := rfl
theorem index_1 (a : (pcfg13 (F := F)).Adm) (t : Fin (cfg13 a).N) :
    ((cfg13 a).win 1).index t = cc13_transform_1 Gen.k13_off1_inb Gen.numel1_S1 a.1 (grid13.coords t) := rfl

/-- The table entry an index map reads at point t is entry t. -/
theorem tix (t : Fin grid13.N) (ht : t.val < 25000) (inb : ∀ a, (![(Scalar.indexCast (BitVec.ofNat 32 ((grid13.coords t) 0).val)).toNat] : Fin 1 → Nat) a + S1.size a ≤ S25000.size a)
    (h1 : 0 < S1.numel) :
    (Rect.unit (s := S25000) ![(Scalar.indexCast (BitVec.ofNat 32 ((grid13.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid13.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre13.Contents (Elt F)) (t : Fin grid13.N) (ht : t.val < 25000) :
    cc13_transform_0 Gen.k13_off1_inb Gen.numel1_S1 pf (grid13.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre13.Contents (Elt F)) (t : Fin grid13.N) (ht : t.val < 25000) :
    cc13_transform_1 Gen.k13_off1_inb Gen.numel1_S1 pf (grid13.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid13.N) : (wordA V t.val).toNat < 100000 := by
  have ht : t.val < 25000 := lt_of_lt_of_eq t.isLt N_13
  obtain ⟨h, -⟩ := hO.1 (grid13.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid13.N) : (wordB V t.val).toNat < 100000 := by
  have ht : t.val < 25000 := lt_of_lt_of_eq t.isLt N_13
  obtain ⟨h, -⟩ := hO.2 (grid13.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_13
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_13
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k13_pay2 (iblk V hO c 0 t) (iblk V hO c 1 t) (k13_pay1 (F := F)) :=
  (accAt_first V hO c t h0).trans
    (outFirst_eq (F := F) c (grid13.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k13_pay2 (iblk V hO c 0 t) (iblk V hO c 1 t)
      (accAt V hO c (t.val - 1) (Nat.lt_of_le_of_lt (Nat.sub_le _ _) t.isLt)) :=
  (accAt_later V hO c t h0).trans
    (outLater_eq (F := F) c (grid13.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the hinge of the distance between the two rows its table words name. -/
def termAt (c : Dev nD) (n : ℕ) : EReal :=
  max 0 (Ideal.ofBits .f32 0x3F000000#32 - Ideal.sqrt (∑ d : Fin 256,
    (rowOf (V c main_v0) (wordA V n).toNat d - rowOf (V c main_v0) (wordB V n).toNat d)
      * (rowOf (V c main_v0) (wordA V n).toNat d - rowOf (V c main_v0) (wordB V n).toNat d)))

/-- The pair's term from the two row blocks at point t. -/
theorem term_of_blocks (hO : Ok V) (c : Dev nD) (t : Fin (cfgM V hO).N) :
    max 0 (Ideal.ofBits .f32 0x3F000000#32 - Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d))))
      = termAt V c t.val :=
  congrArg (fun s => max 0 (Ideal.ofBits .f32 0x3F000000#32 - Ideal.sqrt s)) (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k13_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_13
  omega
/-- The accumulator's window is written back at the last point, -/
theorem flush_last (a : (pcfg13 (F := F)).Adm) (h : 24999 < (cfg13 a).N) : ((cfg13 a).win 2).flush ⟨24999, h⟩ = true := by
  unfold Pipeline.Window.flush
  rw [Bool.and_eq_true]
  refine ⟨rfl, ?_⟩
  rw [Bool.or_eq_true]
  left
  exact decide_eq_true (show 24999 + 1 = grid13.N from N_13.symm)
/-- and only there. -/
theorem eq_last_of_flush (a : (pcfg13 (F := F)).Adm) (t : Fin (cfg13 a).N) (hf : ((cfg13 a).win 2).flush t = true) : t.val = 24999 := by
  have hN : (cfg13 a).N = 25000 := N_13
  by_contra hne
  have hlt : t.val + 1 < (cfg13 a).N := by have := t.isLt; omega
  rw [flush_2 a t hlt] at hf
  exact Bool.false_ne_true hf
/-- The accumulator's block index is zero on both axes, at every point. -/
theorem index_2 (a : (pcfg13 (F := F)).Adm) (t : Fin (cfg13 a).N) : ((cfg13 a).win 2).index t = ![0, 0] := rfl

/-- The accumulator's block is moved whole: its cut is itself. -/
theorem cut_2 (a : (pcfg13 (F := F)).Adm) (i : grid13.Coords) (X : Vec F S1x1 .f32) : ((cfg13 a).win 2).cut i X = X := rfl

/-- The result array read through its one block is the array. -/
theorem read_blk_2 (a : (pcfg13 (F := F)).Adm) (t : Fin (cfg13 a).N) (G : Vec F S1x1 .f32) :
    (((cfg13 a).win 2).blk t).view.read (Elt F) G = G := by
  refine funext fun (y : S1x1.Idx) => ?_
  show G ((((cfg13 a).win 2).blk t).view.emb y) = G y
  refine congrArg G (funext fun b => Fin.ext ?_)
  refine (((cfg13 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid13.coords t) ((dat V hO c).after 2 t) = accAt V hO c 24999 (hlast V hO)
  rw [after_2]
  exact (cut_2 (adm V hO) (grid13.coords t) (accAt V hO c t.val t.isLt)).trans (accAt_congr V hO c h3 t.isLt (hlast V hO))

/-- Every index of the result array lies in the block written back at the last point. -/
theorem mem_last (a : (pcfg13 (F := F)).Adm) (h : 24999 < (cfg13 a).N) (i : S1x1.Idx) :
    i ∈ (((cfg13 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v76 (((cfgM V hO).win 2).rect ⟨24999, hlast V hO⟩))).mpr
        (mem_last (adm V hO) (hlast V hO) i)⟩

end Result

end Cert.KernelIdeal.Call13

end
-- ==== Proof.Call14Value.lean ====
import proofs.«406163_j35201551958720_3_alg».proof.Proof.Call14Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call14

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 14 at the extended reals: what one call leaves in its result array

The body adds one pair's hinge, the larger of 0 and one half minus the pair's distance, to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k14_pay2 x0 x1 (k14_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid14.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k14_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k14_pay1 (F := Ideal) (ValueIdx.ix2 (0 : Fin 1) (0 : Fin 1)) = 0 := by
  unfold k14_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's hinge, the larger of 0 and one half minus the
    pair's distance. -/
theorem pay2_at (x0 x1 : Vec Ideal S1x1x256 .f32) (xo : Vec Ideal S1x1 .f32) :
    k14_pay2 (F := Ideal) x0 x1 xo (ValueIdx.ix2 (0 : Fin 1) (0 : Fin 1))
      = xo (ValueIdx.ix2 (0 : Fin 1) (0 : Fin 1))
        + max 0 (Ideal.ofBits .f32 0x3F000000#32
          - Ideal.sqrt (∑ d : Fin 256, (x0 (ValueIdx.ix3 (0 : Fin 1) (0 : Fin 1) d) - x1 (ValueIdx.ix3 (0 : Fin 1) (0 : Fin 1) d))
            * (x0 (ValueIdx.ix3 (0 : Fin 1) (0 : Fin 1) d) - x1 (ValueIdx.ix3 (0 : Fin 1) (0 : Fin 1) d)))) := by
  unfold k14_pay2
  refine (ValueIdx.addf_apply _ _ _).trans ?_
  refine congrArg₂ (· + ·) (congrFun (shapeCast_self xo _) _) ?_
  refine (ValueIdx.maximumf_apply _ _ _).trans ?_
  refine congrArg₂ max Ideal.ofBits_zero_f32 ?_
  refine (ValueIdx.subf_apply _ _ _).trans ?_
  exact congrArg (Ideal.ofBits .f32 0x3F000000#32 - ·) (dist_at x0 x1 _ _ _ _ _)

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg14 (F := F)).Adm) (t : Fin (cfg14 a).N) :
    ((cfg14 a).win 0).index t = cc14_transform_0 Gen.k14_off1_inb Gen.numel1_S1 a.1 (grid14.coords t) := rfl
theorem index_1 (a : (pcfg14 (F := F)).Adm) (t : Fin (cfg14 a).N) :
    ((cfg14 a).win 1).index t = cc14_transform_1 Gen.k14_off1_inb Gen.numel1_S1 a.1 (grid14.coords t) := rfl

/-- The table entry an index map reads at point t is entry t. -/
theorem tix (t : Fin grid14.N) (ht : t.val < 25000) (inb : ∀ a, (![(Scalar.indexCast (BitVec.ofNat 32 ((grid14.coords t) 0).val)).toNat] : Fin 1 → Nat) a + S1.size a ≤ S25000.size a)
    (h1 : 0 < S1.numel) :
    (Rect.unit (s := S25000) ![(Scalar.indexCast (BitVec.ofNat 32 ((grid14.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid14.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre14.Contents (Elt F)) (t : Fin grid14.N) (ht : t.val < 25000) :
    cc14_transform_0 Gen.k14_off1_inb Gen.numel1_S1 pf (grid14.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre14.Contents (Elt F)) (t : Fin grid14.N) (ht : t.val < 25000) :
    cc14_transform_1 Gen.k14_off1_inb Gen.numel1_S1 pf (grid14.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid14.N) : (wordA V t.val).toNat < 100000 := by
  have ht : t.val < 25000 := lt_of_lt_of_eq t.isLt N_14
  obtain ⟨h, -⟩ := hO.1 (grid14.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid14.N) : (wordB V t.val).toNat < 100000 := by
  have ht : t.val < 25000 := lt_of_lt_of_eq t.isLt N_14
  obtain ⟨h, -⟩ := hO.2 (grid14.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_14
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_14
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k14_pay2 (iblk V hO c 0 t) (iblk V hO c 1 t) (k14_pay1 (F := F)) :=
  (accAt_first V hO c t h0).trans
    (outFirst_eq (F := F) c (grid14.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k14_pay2 (iblk V hO c 0 t) (iblk V hO c 1 t)
      (accAt V hO c (t.val - 1) (Nat.lt_of_le_of_lt (Nat.sub_le _ _) t.isLt)) :=
  (accAt_later V hO c t h0).trans
    (outLater_eq (F := F) c (grid14.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the hinge of the distance between the two rows its table words name. -/
def termAt (c : Dev nD) (n : ℕ) : EReal :=
  max 0 (Ideal.ofBits .f32 0x3F000000#32 - Ideal.sqrt (∑ d : Fin 256,
    (rowOf (V c main_v0) (wordA V n).toNat d - rowOf (V c main_v0) (wordB V n).toNat d)
      * (rowOf (V c main_v0) (wordA V n).toNat d - rowOf (V c main_v0) (wordB V n).toNat d)))

/-- The pair's term from the two row blocks at point t. -/
theorem term_of_blocks (hO : Ok V) (c : Dev nD) (t : Fin (cfgM V hO).N) :
    max 0 (Ideal.ofBits .f32 0x3F000000#32 - Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d))))
      = termAt V c t.val :=
  congrArg (fun s => max 0 (Ideal.ofBits .f32 0x3F000000#32 - Ideal.sqrt s)) (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k14_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_14
  omega
/-- The accumulator's window is written back at the last point, -/
theorem flush_last (a : (pcfg14 (F := F)).Adm) (h : 24999 < (cfg14 a).N) : ((cfg14 a).win 2).flush ⟨24999, h⟩ = true := by
  unfold Pipeline.Window.flush
  rw [Bool.and_eq_true]
  refine ⟨rfl, ?_⟩
  rw [Bool.or_eq_true]
  left
  exact decide_eq_true (show 24999 + 1 = grid14.N from N_14.symm)
/-- and only there. -/
theorem eq_last_of_flush (a : (pcfg14 (F := F)).Adm) (t : Fin (cfg14 a).N) (hf : ((cfg14 a).win 2).flush t = true) : t.val = 24999 := by
  have hN : (cfg14 a).N = 25000 := N_14
  by_contra hne
  have hlt : t.val + 1 < (cfg14 a).N := by have := t.isLt; omega
  rw [flush_2 a t hlt] at hf
  exact Bool.false_ne_true hf
/-- The accumulator's block index is zero on both axes, at every point. -/
theorem index_2 (a : (pcfg14 (F := F)).Adm) (t : Fin (cfg14 a).N) : ((cfg14 a).win 2).index t = ![0, 0] := rfl

/-- The accumulator's block is moved whole: its cut is itself. -/
theorem cut_2 (a : (pcfg14 (F := F)).Adm) (i : grid14.Coords) (X : Vec F S1x1 .f32) : ((cfg14 a).win 2).cut i X = X := rfl

/-- The result array read through its one block is the array. -/
theorem read_blk_2 (a : (pcfg14 (F := F)).Adm) (t : Fin (cfg14 a).N) (G : Vec F S1x1 .f32) :
    (((cfg14 a).win 2).blk t).view.read (Elt F) G = G := by
  refine funext fun (y : S1x1.Idx) => ?_
  show G ((((cfg14 a).win 2).blk t).view.emb y) = G y
  refine congrArg G (funext fun b => Fin.ext ?_)
  refine (((cfg14 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid14.coords t) ((dat V hO c).after 2 t) = accAt V hO c 24999 (hlast V hO)
  rw [after_2]
  exact (cut_2 (adm V hO) (grid14.coords t) (accAt V hO c t.val t.isLt)).trans (accAt_congr V hO c h3 t.isLt (hlast V hO))

/-- Every index of the result array lies in the block written back at the last point. -/
theorem mem_last (a : (pcfg14 (F := F)).Adm) (h : 24999 < (cfg14 a).N) (i : S1x1.Idx) :
    i ∈ (((cfg14 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v81 (((cfgM V hO).win 2).rect ⟨24999, hlast V hO⟩))).mpr
        (mem_last (adm V hO) (hlast V hO) i)⟩

end Result

end Cert.KernelIdeal.Call14

end
-- ==== Proof.Call15Value.lean ====
import proofs.«406163_j35201551958720_3_alg».proof.Proof.Call15Data
import proofs.«406163_j35201551958720_3_alg».proof.Proof.PairTotal
import Idealize.ShloMosaic.Lib.Pipeline.Value
import Idealize.ShloMosaic.Lib.ValueIdx
import Idealize.ShloMosaic.Lib.ValueIdxRank1
import Idealize.ShloMosaic.PureOps.Ideal.Laws

set_option maxRecDepth 16384

noncomputable section

open scoped BigOperators

namespace Cert.KernelIdeal.Call15

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # Call 15 at the extended reals: what one call leaves in its result array

The body adds one pair's hinge, the larger of 0 and one half minus the pair's distance, to a one-entry accumulator that the first point resets to zero. Below: what each
control case leaves in the accumulator as the payload of its last store; that payload at its one index; a row window's
block as the row of the table its index word names; the running total in closed form; the result array after the
region. -/

section Pieces
variable {F : FTy → Type} [FloatOps F]

/-- The zero offsets of the accumulator's and of a row block's whole-buffer accesses. -/
theorem hz2 : (![0, 0] : Fin S1x1.rank → Nat) = fun _ => 0 := by
  funext a; match a with | ⟨0, _⟩ => rfl | ⟨1, _⟩ => rfl
theorem hz3 : (![0, 0, 0] : Fin S1x1x256.rank → Nat) = fun _ => 0 := by
  funext a; match a with | ⟨0, _⟩ => rfl | ⟨1, _⟩ => rfl | ⟨2, _⟩ => rfl

/-- At the first point the accumulator ends at the update of the reset value. -/
theorem outFirst_eq (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : cond i) (x0 x1 : Vec F S1x1x256 .f32) :
    outFirst c i arg3 harg3 arg4 harg4 arg5 harg5 hc x0 x1 = k15_pay2 x0 x1 (k15_pay1 (F := F)) := by
  unfold outFirst
  rw [View.read_writes_eq_canon _ _ _ (coverFirst c i arg3 harg3 arg4 harg4 arg5 harg5 hc x0 x1)]
  unfold runFirst
  dsimp only
  sl_unfold_words
  rw [View.canon_cons_unit_zero (S := S1x1) hz2]
  simp only [View.readAt_eq_ld, harg3.read_unread, harg4.read_unread, View.ld_unit_zero (S := S1x1x256) hz3,
    View.readCov_unit_zero (S := S1x1) _ hz2]

/-- At a later point the accumulator ends at the update of what it held. -/
theorem outLater_eq (c : Dev nD) (i : grid15.Coords)
    (arg3 : Memref sig .tc .vmem S1x1x256 .f32) (harg3 : arg3.IsWhole) (arg4 : Memref sig .tc .vmem S1x1x256 .f32) (harg4 : arg4.IsWhole)
    (arg5 : Memref sig .tc .vmem S1x1 .f32) (harg5 : arg5.IsWhole) (hc : ¬cond i) (x0 x1 : Vec F S1x1x256 .f32) (xo : Vec F S1x1 .f32) :
    outLater c i arg3 harg3 arg4 harg4 arg5 harg5 hc x0 x1 xo = k15_pay2 x0 x1 xo := by
  unfold outLater
  rw [View.read_writes_eq_canon _ _ _ (coverLater c i arg3 harg3 arg4 harg4 arg5 harg5 hc x0 x1 xo)]
  unfold runLater
  dsimp only
  sl_unfold_words
  rw [View.canon_unit_zero (S := S1x1) hz2]
  simp only [View.readAt_eq_ld, harg3.read_unread, harg4.read_unread, harg5.read_unread,
    View.ld_unit_zero (S := S1x1x256) hz3, View.ld_unit_zero (S := S1x1) hz2]

end Pieces

section Payload

/-- A vector square root at an index, at the extended reals. -/
theorem sqrt_at {s : Shape} (v : FVec Ideal s .f32) (i : s.Idx) : sqrt v i = Ideal.sqrt (v i) := rfl

/-- The reset value is zero. -/
theorem pay1_at : k15_pay1 (F := Ideal) (ValueIdx.ix2 (0 : Fin 1) (0 : Fin 1)) = 0 := by
  unfold k15_pay1
  exact Ideal.ofBits_zero_f32

/-- A row block flattened to [1, 256], at (0, d). -/
theorem flat_at (x : FVec Ideal S1x1x256 .f32) (h : S1x1x256.ShapeCasts S1x256) (d : Fin 256) :
    shapeCast S1x256 x h (ValueIdx.ix2 (0 : Fin 1) d) = x (ValueIdx.ix3 (0 : Fin 1) (0 : Fin 1) d) :=
  shapeCast_apply x h (ValueIdx.ix2 (0 : Fin 1) d) (ValueIdx.ix3 (0 : Fin 1) (0 : Fin 1) d) (by
    rw [Shape.rowMajor_val_three, Shape.rowMajor_val_two]; rfl)

/-- The distance of the two row blocks: the square root of the sum over the 256 entries of the squared differences. -/
theorem dist_at (x0 x1 : FVec Ideal S1x1x256 .f32) (h2 : S1x1x256.ShapeCasts S1x256) (hred : S1x256.Reduces [1] S1)
    (hφ : FKind.Formats .f32) (hacc : (0x00000000#32 : BitVec 32) = FKind.add.neutral .f32 hφ) (h3 : S1.ShapeCasts S1x1) :
    sqrt (F := Ideal) (shapeCast S1x1 (multiReduction (F := Ideal) .add [1] S1
        (mulf (F := Ideal) (subf (F := Ideal) (shapeCast S1x256 x0 h2) (shapeCast S1x256 x1 h2)) (subf (F := Ideal) (shapeCast S1x256 x0 h2) (shapeCast S1x256 x1 h2)))
        0x00000000#32 hred hφ hacc) h3) (ValueIdx.ix2 (0 : Fin 1) (0 : Fin 1))
      = Ideal.sqrt (∑ d : Fin 256, (x0 (ValueIdx.ix3 (0 : Fin 1) (0 : Fin 1) d) - x1 (ValueIdx.ix3 (0 : Fin 1) (0 : Fin 1) d))
          * (x0 (ValueIdx.ix3 (0 : Fin 1) (0 : Fin 1) d) - x1 (ValueIdx.ix3 (0 : Fin 1) (0 : Fin 1) d))) := by
  refine (sqrt_at _ _).trans (congrArg Ideal.sqrt ?_)
  refine (shapeCast_apply _ h3 (ValueIdx.ix2 (0 : Fin 1) (0 : Fin 1)) (ValueIdx.ix1 (0 : Fin 1)) (by
    rw [Shape.rowMajor_val_one, Shape.rowMajor_val_two]; rfl)).trans ?_
  refine (Ideal.multiReduction_add_single _ _ hred hφ hacc (ValueIdx.ix1 (0 : Fin 1))).trans ?_
  refine Finset.sum_congr rfl fun (d : Fin 256) _ => ?_
  have hl : hred.lift (ValueIdx.ix1 (0 : Fin 1)) d = ValueIdx.ix2 (0 : Fin 1) d := by
    funext a; refine Fin.ext ?_
    match a with
    | ⟨0, _⟩ => rfl
    | ⟨1, _⟩ => rfl
  have e : subf (F := Ideal) (shapeCast S1x256 x0 h2) (shapeCast S1x256 x1 h2) (ValueIdx.ix2 (0 : Fin 1) d)
      = x0 (ValueIdx.ix3 (0 : Fin 1) (0 : Fin 1) d) - x1 (ValueIdx.ix3 (0 : Fin 1) (0 : Fin 1) d) :=
    (ValueIdx.subf_apply _ _ _).trans (congrArg₂ (· - ·) (flat_at x0 h2 d) (flat_at x1 h2 d))
  refine (congrArg _ hl).trans ?_
  exact (ValueIdx.mulf_apply _ _ _).trans (congrArg₂ (· * ·) e e)

/-- THE UPDATE at its one index: what the accumulator held plus the pair's hinge, the larger of 0 and one half minus the
    pair's distance. -/
theorem pay2_at (x0 x1 : Vec Ideal S1x1x256 .f32) (xo : Vec Ideal S1x1 .f32) :
    k15_pay2 (F := Ideal) x0 x1 xo (ValueIdx.ix2 (0 : Fin 1) (0 : Fin 1))
      = xo (ValueIdx.ix2 (0 : Fin 1) (0 : Fin 1))
        + max 0 (Ideal.ofBits .f32 0x3F000000#32
          - Ideal.sqrt (∑ d : Fin 256, (x0 (ValueIdx.ix3 (0 : Fin 1) (0 : Fin 1) d) - x1 (ValueIdx.ix3 (0 : Fin 1) (0 : Fin 1) d))
            * (x0 (ValueIdx.ix3 (0 : Fin 1) (0 : Fin 1) d) - x1 (ValueIdx.ix3 (0 : Fin 1) (0 : Fin 1) d)))) := by
  unfold k15_pay2
  refine (ValueIdx.addf_apply _ _ _).trans ?_
  refine congrArg₂ (· + ·) (congrFun (shapeCast_self xo _) _) ?_
  refine (ValueIdx.maximumf_apply _ _ _).trans ?_
  refine congrArg₂ max Ideal.ofBits_zero_f32 ?_
  refine (ValueIdx.subf_apply _ _ _).trans ?_
  exact congrArg (Ideal.ofBits .f32 0x3F000000#32 - ·) (dist_at x0 x1 _ _ _ _ _)

end Payload

section Blocks
variable {F : FTy → Type} [FloatOps F]
variable (V : (c : Dev nD) → (b : Ref sig .tc) → Buf (Elt F) ((c : Thread nD τ).loc b))

/-- The two index tables at their literal type. -/
abbrev tabA : IVec S25000 32 := tbl V 0
abbrev tabB : IVec S25000 32 := tbl V 1

/-- The index word of pair n in the first table, and in the second; the zero word past the tables' end. -/
def wordA (n : ℕ) : BitVec 32 := if h : n < 25000 then tabA V (ValueIdx.ix1 ⟨n, h⟩) else 0#32
def wordB (n : ℕ) : BitVec 32 := if h : n < 25000 then tabB V (ValueIdx.ix1 ⟨n, h⟩) else 0#32
theorem wordA_of_lt {n : ℕ} (h : n < 25000) : wordA V n = tabA V (ValueIdx.ix1 ⟨n, h⟩) := dif_pos h
theorem wordB_of_lt {n : ℕ} (h : n < 25000) : wordB V n = tabB V (ValueIdx.ix1 ⟨n, h⟩) := dif_pos h

/-- A row window's block index at a point, the tables' contents a variable. -/
theorem index_0 (a : (pcfg15 (F := F)).Adm) (t : Fin (cfg15 a).N) :
    ((cfg15 a).win 0).index t = cc15_transform_0 Gen.k15_off1_inb Gen.numel1_S1 a.1 (grid15.coords t) := rfl
theorem index_1 (a : (pcfg15 (F := F)).Adm) (t : Fin (cfg15 a).N) :
    ((cfg15 a).win 1).index t = cc15_transform_1 Gen.k15_off1_inb Gen.numel1_S1 a.1 (grid15.coords t) := rfl

/-- The table entry an index map reads at point t is entry t. -/
theorem tix (t : Fin grid15.N) (ht : t.val < 25000) (inb : ∀ a, (![(Scalar.indexCast (BitVec.ofNat 32 ((grid15.coords t) 0).val)).toNat] : Fin 1 → Nat) a + S1.size a ≤ S25000.size a)
    (h1 : 0 < S1.numel) :
    (Rect.unit (s := S25000) ![(Scalar.indexCast (BitVec.ofNat 32 ((grid15.coords t) 0).val)).toNat] S1.size inb).emb (Shape.Idx.first h1)
      = ValueIdx.ix1 ⟨t.val, ht⟩ := by
  funext b
  refine Fin.ext ?_
  match b with
  | ⟨0, _⟩ =>
    show (BitVec.ofNat 32 ((grid15.coords t) 0).val).toNat + 1 * 0 = t.val
    rw [coords_val t, BitVec.toNat_ofNat, Nat.mod_eq_of_lt (by omega)]
    omega

/-- The first row window's block index at point t: the first table's word on the row axis, zero on the others. -/
theorem transform_0_eq (pf : pre15.Contents (Elt F)) (t : Fin grid15.N) (ht : t.val < 25000) :
    cc15_transform_0 Gen.k15_off1_inb Gen.numel1_S1 pf (grid15.coords t)
      = ![BitVec.toNat (pf 0 (ValueIdx.ix1 ⟨t.val, ht⟩)), 0, 0] := by
  funext a
  match a with
  | ⟨0, _⟩ =>
    show BitVec.toNat (pf 0 _) = BitVec.toNat (pf 0 _)
    exact congrArg (fun x => BitVec.toNat (pf 0 x)) (tix t ht _ _)
  | ⟨1, _⟩ => rfl
  | ⟨2, _⟩ => rfl

/-- The second row window's likewise, with the second table's word. -/
theorem transform_1_eq (pf : pre15.Contents (Elt F)) (t : Fin grid15.N) (ht : t.val < 25000) :
    cc15_transform_1 Gen.k15_off1_inb Gen.numel1_S1 pf (grid15.coords t)
      = ![BitVec.toNat (pf 1 (ValueIdx.ix1 ⟨t.val, ht⟩)), 0, 0] := by
  funext a
  match a with
  | ⟨0, _⟩ =>
    show BitVec.toNat (pf 1 _) = BitVec.toNat (pf 1 _)
    exact congrArg (fun x => BitVec.toNat (pf 1 x)) (tix t ht _ _)
  | ⟨1, _⟩ => rfl
  | ⟨2, _⟩ => rfl

/-- A block of the first row window read at an index of the array of rows whose coordinates are block index times block
    size plus the coordinate inside the block. -/
theorem iblk0_apply (hO : Ok V) (c : Dev nD) (t : Fin (cfgM V hO).N) (y : S1x1x256.Idx) (j : S100000x1x256.Idx)
    (hj : ∀ a, (j a).val = ((cfgM V hO).win 0).index t a * S1x1x256.size a + (y a).val) :
    iblk V hO c 0 t y = V c main_v0 j := by
  show V c main_v0 ((((cfgM V hO).win 0).blk t).view.emb y) = V c main_v0 j
  refine congrArg (V c main_v0) (funext fun a => Fin.ext ?_)
  rw [hj a]
  exact ((cfgM V hO).win 0).rect_emb_val t y a

/-- The same for the second row window. -/
theorem iblk1_apply (hO : Ok V) (c : Dev nD) (t : Fin (cfgM V hO).N) (y : S1x1x256.Idx) (j : S100000x1x256.Idx)
    (hj : ∀ a, (j a).val = ((cfgM V hO).win 1).index t a * S1x1x256.size a + (y a).val) :
    iblk V hO c 1 t y = V c main_v0 j := by
  show V c main_v0 ((((cfgM V hO).win 1).blk t).view.emb y) = V c main_v0 j
  refine congrArg (V c main_v0) (funext fun a => Fin.ext ?_)
  rw [hj a]
  exact ((cfgM V hO).win 1).rect_emb_val t y a

/-- Every row the first table names lies inside the array of rows. -/
theorem wordA_lt (hO : Ok V) (t : Fin grid15.N) : (wordA V t.val).toNat < 100000 := by
  have ht : t.val < 25000 := lt_of_lt_of_eq t.isLt N_15
  obtain ⟨h, -⟩ := hO.1 (grid15.coords t)
  have h0 := h 0
  rw [transform_0_eq (tbl V) t ht] at h0
  rw [wordA_of_lt V ht]
  have h0' : ((tabA V (ValueIdx.ix1 ⟨t.val, ht⟩)).toNat + 1) * 1 ≤ 100000 := h0
  omega

/-- Every row the second table names lies inside the array of rows. -/
theorem wordB_lt (hO : Ok V) (t : Fin grid15.N) : (wordB V t.val).toNat < 100000 := by
  have ht : t.val < 25000 := lt_of_lt_of_eq t.isLt N_15
  obtain ⟨h, -⟩ := hO.2 (grid15.coords t)
  have h0 := h 0
  rw [transform_1_eq (tbl V) t ht] at h0
  rw [wordB_of_lt V ht]
  have h0' : ((tabB V (ValueIdx.ix1 ⟨t.val, ht⟩)).toNat + 1) * 1 ≤ 100000 := h0
  omega

end Blocks

section Rows
variable (V : (c : Dev nD) → (b : Ref sig .tc) → Buf (Elt Ideal) ((c : Thread nD τ).loc b))

/-- Entry d of row a of the array of rows; the zero row from 100000 on. -/
def rowOf (X : FVec Ideal S100000x1x256 .f32) (a : ℕ) (d : Fin 256) : EReal :=
  if ha : a < 100000 then X (ValueIdx.ix3 ⟨a, ha⟩ (0 : Fin 1) d) else 0

/-- The two row windows' blocks at point t, at their literal type. -/
abbrev blkA (hO : Ok V) (c : Dev nD) (t : Fin (cfgM V hO).N) : FVec Ideal S1x1x256 .f32 := iblk V hO c 0 t
abbrev blkB (hO : Ok V) (c : Dev nD) (t : Fin (cfgM V hO).N) : FVec Ideal S1x1x256 .f32 := iblk V hO c 1 t

/-- THE FIRST ROW WINDOW'S BLOCK at point t is the row the first table's word t names. -/
theorem iblk0_at (hO : Ok V) (c : Dev nD) (t : Fin (cfgM V hO).N) (d : Fin 256) :
    blkA V hO c t (ValueIdx.ix3 (0 : Fin 1) (0 : Fin 1) d) = rowOf (V c main_v0) (wordA V t.val).toNat d := by
  have ht : t.val < 25000 := lt_of_lt_of_eq t.isLt N_15
  have hlt := wordA_lt V hO t
  unfold rowOf
  rw [dif_pos hlt]
  refine iblk0_apply V hO c t (ValueIdx.ix3 (0 : Fin 1) (0 : Fin 1) d) (ValueIdx.ix3 ⟨(wordA V t.val).toNat, hlt⟩ (0 : Fin 1) d) fun a => ?_
  rw [index_0 (adm V hO) t, transform_0_eq (adm V hO).1 t ht]
  match a with
  | ⟨0, _⟩ =>
    have e : (wordA V t.val).toNat = (tabA V (ValueIdx.ix1 ⟨t.val, ht⟩)).toNat := congrArg BitVec.toNat (wordA_of_lt V ht)
    show (wordA V t.val).toNat = (tabA V (ValueIdx.ix1 ⟨t.val, ht⟩)).toNat * 1 + 0
    omega
  | ⟨1, _⟩ => rfl
  | ⟨2, _⟩ => show d.val = 0 * 256 + d.val; omega

/-- THE SECOND ROW WINDOW'S BLOCK at point t is the row the second table's word t names. -/
theorem iblk1_at (hO : Ok V) (c : Dev nD) (t : Fin (cfgM V hO).N) (d : Fin 256) :
    blkB V hO c t (ValueIdx.ix3 (0 : Fin 1) (0 : Fin 1) d) = rowOf (V c main_v0) (wordB V t.val).toNat d := by
  have ht : t.val < 25000 := lt_of_lt_of_eq t.isLt N_15
  have hlt := wordB_lt V hO t
  unfold rowOf
  rw [dif_pos hlt]
  refine iblk1_apply V hO c t (ValueIdx.ix3 (0 : Fin 1) (0 : Fin 1) d) (ValueIdx.ix3 ⟨(wordB V t.val).toNat, hlt⟩ (0 : Fin 1) d) fun a => ?_
  rw [index_1 (adm V hO) t, transform_1_eq (adm V hO).1 t ht]
  match a with
  | ⟨0, _⟩ =>
    have e : (wordB V t.val).toNat = (tabB V (ValueIdx.ix1 ⟨t.val, ht⟩)).toNat := congrArg BitVec.toNat (wordB_of_lt V ht)
    show (wordB V t.val).toNat = (tabB V (ValueIdx.ix1 ⟨t.val, ht⟩)).toNat * 1 + 0
    omega
  | ⟨1, _⟩ => rfl
  | ⟨2, _⟩ => show d.val = 0 * 256 + d.val; omega

end Rows

section Steps
variable {F : FTy → Type} [FloatOps F]
variable (V : (c : Dev nD) → (b : Ref sig .tc) → Buf (Elt F) ((c : Thread nD τ).loc b))

/-- At the first point the accumulator ends at the update of the reset value by the two row blocks. -/
theorem accAt_first_vec (hO : Ok V) (c : Dev nD) (t : Fin (cfgM V hO).N) (h0 : t.val = 0) :
    accAt V hO c t.val t.isLt = k15_pay2 (iblk V hO c 0 t) (iblk V hO c 1 t) (k15_pay1 (F := F)) :=
  (accAt_first V hO c t h0).trans
    (outFirst_eq (F := F) c (grid15.coords t) (ms0 V hO t) (hs0 V hO t) (ms1 V hO t) (hs1 V hO t) (ms2 V hO t) (hs2 V hO t)
      ((hcond t).mpr h0) (iblk V hO c 0 t) (iblk V hO c 1 t))

/-- At a later point it ends at the update of what the point before left. -/
theorem accAt_later_vec (hO : Ok V) (c : Dev nD) (t : Fin (cfgM V hO).N) (h0 : ¬t.val = 0) :
    accAt V hO c t.val t.isLt = k15_pay2 (iblk V hO c 0 t) (iblk V hO c 1 t)
      (accAt V hO c (t.val - 1) (Nat.lt_of_le_of_lt (Nat.sub_le _ _) t.isLt)) :=
  (accAt_later V hO c t h0).trans
    (outLater_eq (F := F) c (grid15.coords t) (ms0 V hO t) (hs0 V hO t) (ms1 V hO t) (hs1 V hO t) (ms2 V hO t) (hs2 V hO t)
      (fun h => h0 ((hcond t).mp h)) (iblk V hO c 0 t) (iblk V hO c 1 t)
      (accAt V hO c (t.val - 1) (Nat.lt_of_le_of_lt (Nat.sub_le _ _) t.isLt)))

end Steps

section Total
variable (V : (c : Dev nD) → (b : Ref sig .tc) → Buf (Elt Ideal) ((c : Thread nD τ).loc b))

/-- What pair n adds: the hinge of the distance between the two rows its table words name. -/
def termAt (c : Dev nD) (n : ℕ) : EReal :=
  max 0 (Ideal.ofBits .f32 0x3F000000#32 - Ideal.sqrt (∑ d : Fin 256,
    (rowOf (V c main_v0) (wordA V n).toNat d - rowOf (V c main_v0) (wordB V n).toNat d)
      * (rowOf (V c main_v0) (wordA V n).toNat d - rowOf (V c main_v0) (wordB V n).toNat d)))

/-- The pair's term from the two row blocks at point t. -/
theorem term_of_blocks (hO : Ok V) (c : Dev nD) (t : Fin (cfgM V hO).N) :
    max 0 (Ideal.ofBits .f32 0x3F000000#32 - Ideal.sqrt (∑ d : Fin 256,
        (blkA V hO c t (ValueIdx.ix3 (0 : Fin 1) (0 : Fin 1) d) - blkB V hO c t (ValueIdx.ix3 (0 : Fin 1) (0 : Fin 1) d))
          * (blkA V hO c t (ValueIdx.ix3 (0 : Fin 1) (0 : Fin 1) d) - blkB V hO c t (ValueIdx.ix3 (0 : Fin 1) (0 : Fin 1) d))))
      = termAt V c t.val :=
  congrArg (fun s => max 0 (Ideal.ofBits .f32 0x3F000000#32 - Ideal.sqrt s)) (Finset.sum_congr rfl fun d _ =>
    (fun e => congrArg₂ (· * ·) e e) (congrArg₂ (· - ·) (iblk0_at V hO c t d) (iblk1_at V hO c t d)))

/-- The running total after point n, at its literal type. -/
abbrev accv (hO : Ok V) (c : Dev nD) (n : ℕ) (hn : n < (cfgM V hO).N) : FVec Ideal S1x1 .f32 := accAt V hO c n hn

/-- At the first point the accumulator ends at the first pair's term. -/
theorem accAt_first_at (hO : Ok V) (c : Dev nD) (t : Fin (cfgM V hO).N) (h0 : t.val = 0) :
    accv V hO c t.val t.isLt (ValueIdx.ix2 (0 : Fin 1) (0 : Fin 1)) = termAt V c t.val := by
  refine (congrFun (accAt_first_vec V hO c t h0) (ValueIdx.ix2 (0 : Fin 1) (0 : Fin 1))).trans ?_
  refine (pay2_at (blkA V hO c t) (blkB V hO c t) (k15_pay1 (F := Ideal))).trans ?_
  rw [pay1_at, zero_add]
  exact term_of_blocks V hO c t

/-- At a later point it ends at what the point before left plus the pair's term. -/
theorem accAt_later_at (hO : Ok V) (c : Dev nD) (t : Fin (cfgM V hO).N) (h0 : ¬t.val = 0) :
    accv V hO c t.val t.isLt (ValueIdx.ix2 (0 : Fin 1) (0 : Fin 1))
      = accv V hO c (t.val - 1) (Nat.lt_of_le_of_lt (Nat.sub_le _ _) t.isLt) (ValueIdx.ix2 (0 : Fin 1) (0 : Fin 1))
        + termAt V c t.val := by
  refine (congrFun (accAt_later_vec V hO c t h0) (ValueIdx.ix2 (0 : Fin 1) (0 : Fin 1))).trans ?_
  refine (pay2_at (blkA V hO c t) (blkB V hO c t)
    (accv V hO c (t.val - 1) (Nat.lt_of_le_of_lt (Nat.sub_le _ _) t.isLt))).trans ?_
  exact congrArg (_ + ·) (term_of_blocks V hO c t)

/-- THE RUNNING TOTAL IN CLOSED FORM: after point n the accumulator holds the sum of the terms of pairs 0 … n. -/
theorem accAt_eq (hO : Ok V) (c : Dev nD) : ∀ (n : ℕ) (hn : n < (cfgM V hO).N),
    accv V hO c n hn (ValueIdx.ix2 (0 : Fin 1) (0 : Fin 1)) = ∑ t ∈ Finset.range (n + 1), termAt V c t
  | 0, hn => by
    rw [Finset.sum_range_one]
    exact accAt_first_at V hO c ⟨0, hn⟩ rfl
  | n + 1, hn => by
    rw [Finset.sum_range_succ, ← accAt_eq hO c n (Nat.lt_of_succ_lt hn)]
    exact accAt_later_at V hO c ⟨n + 1, hn⟩ (Nat.succ_ne_zero n)

end Total

section Result
variable {F : FTy → Type} [FloatOps F]
variable (V : (c : Dev nD) → (b : Ref sig .tc) → Buf (Elt F) ((c : Thread nD τ).loc b))
/-- The last point of the grid. -/
theorem hlast (hO : Ok V) : 24999 < (cfgM V hO).N := by
  have hN : (cfgM V hO).N = 25000 := N_15
  omega
/-- The accumulator's window is written back at the last point, -/
theorem flush_last (a : (pcfg15 (F := F)).Adm) (h : 24999 < (cfg15 a).N) : ((cfg15 a).win 2).flush ⟨24999, h⟩ = true := by
  unfold Pipeline.Window.flush
  rw [Bool.and_eq_true]
  refine ⟨rfl, ?_⟩
  rw [Bool.or_eq_true]
  left
  exact decide_eq_true (show 24999 + 1 = grid15.N from N_15.symm)
/-- and only there. -/
theorem eq_last_of_flush (a : (pcfg15 (F := F)).Adm) (t : Fin (cfg15 a).N) (hf : ((cfg15 a).win 2).flush t = true) : t.val = 24999 := by
  have hN : (cfg15 a).N = 25000 := N_15
  by_contra hne
  have hlt : t.val + 1 < (cfg15 a).N := by have := t.isLt; omega
  rw [flush_2 a t hlt] at hf
  exact Bool.false_ne_true hf
/-- The accumulator's block index is zero on both axes, at every point. -/
theorem index_2 (a : (pcfg15 (F := F)).Adm) (t : Fin (cfg15 a).N) : ((cfg15 a).win 2).index t = ![0, 0] := rfl

/-- The accumulator's block is moved whole: its cut is itself. -/
theorem cut_2 (a : (pcfg15 (F := F)).Adm) (i : grid15.Coords) (X : Vec F S1x1 .f32) : ((cfg15 a).win 2).cut i X = X := rfl

/-- The result array read through its one block is the array. -/
theorem read_blk_2 (a : (pcfg15 (F := F)).Adm) (t : Fin (cfg15 a).N) (G : Vec F S1x1 .f32) :
    (((cfg15 a).win 2).blk t).view.read (Elt F) G = G := by
  refine funext fun (y : S1x1.Idx) => ?_
  show G ((((cfg15 a).win 2).blk t).view.emb y) = G y
  refine congrArg G (funext fun b => Fin.ext ?_)
  refine (((cfg15 a).win 2).rect_emb_val t y b).trans ?_
  rw [index_2 a t]
  match b with
  | ⟨0, _⟩ => show 0 * 1 + (y 0).val = (y 0).val; omega
  | ⟨1, _⟩ => show 0 * 1 + (y 1).val = (y 1).val; omega

/-- The running total depends on the point only through its number. -/
theorem accAt_congr (hO : Ok V) (c : Dev nD) {n m : ℕ} (h : n = m) (hn : n < (cfgM V hO).N) (hm : m < (cfgM V hO).N) :
    accAt V hO c n hn = accAt V hO c m hm := by
  subst h; rfl

/-- What the one write-back writes is the running total after the last point, read through the result array's one block. -/
theorem flushed_2 (hO : Ok V) (c : Dev nD) (t : Fin (cfgM V hO).N) (hf : ((cfgM V hO).win 2).flush t = true) :
    (dat V hO c).flushed 2 t = (((cfgM V hO).win 2).blk t).view.read (Elt F) (accAt V hO c 24999 (hlast V hO)) := by
  have h3 : t.val = 24999 := eq_last_of_flush (adm V hO) t hf
  refine Eq.trans ?_ (read_blk_2 (adm V hO) t (accAt V hO c 24999 (hlast V hO))).symm
  show ((cfgM V hO).win 2).cut (grid15.coords t) ((dat V hO c).after 2 t) = accAt V hO c 24999 (hlast V hO)
  rw [after_2]
  exact (cut_2 (adm V hO) (grid15.coords t) (accAt V hO c t.val t.isLt)).trans (accAt_congr V hO c h3 t.isLt (hlast V hO))

/-- Every index of the result array lies in the block written back at the last point. -/
theorem mem_last (a : (pcfg15 (F := F)).Adm) (h : 24999 < (cfg15 a).N) (i : S1x1.Idx) :
    i ∈ (((cfg15 a).win 2).rect ⟨24999, h⟩).set := by
  refine Rect.mem_set_unit.mpr fun b => ?_
  have h0 : (i 0 : Nat) < 1 := (i 0).isLt
  have h1 : (i 1 : Nat) < 1 := (i 1).isLt
  match b with
  | ⟨0, _⟩ =>
    show 0 * 1 ≤ (i 0 : Nat) ∧ (i 0 : Nat) < 0 * 1 + 1
    omega
  | ⟨1, _⟩ =>
    show 0 * 1 ≤ (i 1 : Nat) ∧ (i 1 : Nat) < 0 * 1 + 1
    omega

/-- THE RESULT ARRAY after the region holds the running total after the last point. -/
theorem arrAt_2 (hO : Ok V) (c : Dev nD) : (dat V hO c).arrAt 2 (cfgM V hO).N = accAt V hO c 24999 (hlast V hO) :=
  (dat V hO c).arrAt_eq_of_cover 2 (accAt V hO c 24999 (hlast V hO)) (flushed_2 V hO c) fun i =>
    ⟨⟨24999, hlast V hO⟩, flush_last (adm V hO) (hlast V hO),
      (congrArg (fun s => i ∈ s) (View.set_slice_whole main_v86 (((cfgM V hO).win 2).rect ⟨24999, hlast V hO⟩))).mpr
        (mem_last (adm V hO) (hlast V hO) i)⟩

end Result

end Cert.KernelIdeal.Call15

end
-- ==== Proof.ChunkSum.lean ====
import Mathlib.Algebra.BigOperators.Group.Finset.Basic
import Mathlib.Algebra.BigOperators.Fin

namespace Cert.ChunkSum

open Finset

variable {M : Type*} [AddCommMonoid M]

/-- A sum over 200000 consecutive terms is the sum of its eight consecutive chunks of 25000, added in order from zero. -/
theorem eight (f : ℕ → M) :
    ((((((((0 + ∑ t ∈ range 25000, f (25000 * 0 + t)) + ∑ t ∈ range 25000, f (25000 * 1 + t)) + ∑ t ∈ range 25000, f (25000 * 2 + t))
      + ∑ t ∈ range 25000, f (25000 * 3 + t)) + ∑ t ∈ range 25000, f (25000 * 4 + t)) + ∑ t ∈ range 25000, f (25000 * 5 + t))
      + ∑ t ∈ range 25000, f (25000 * 6 + t)) + ∑ t ∈ range 25000, f (25000 * 7 + t)) = ∑ k ∈ range 200000, f k := by
  have h (n : ℕ) : ∑ k ∈ range (n + 25000), f k = ∑ k ∈ range n, f k + ∑ t ∈ range 25000, f (n + t) := sum_range_add f n 25000
  rw [show (200000 : ℕ) = 175000 + 25000 from rfl, h, show (175000 : ℕ) = 150000 + 25000 from rfl, h,
    show (150000 : ℕ) = 125000 + 25000 from rfl, h, show (125000 : ℕ) = 100000 + 25000 from rfl, h,
    show (100000 : ℕ) = 75000 + 25000 from rfl, h, show (75000 : ℕ) = 50000 + 25000 from rfl, h,
    show (50000 : ℕ) = 25000 + 25000 from rfl, h, show (25000 : ℕ) = 0 + 25000 from rfl, h, sum_range_zero]

/-- A sum over `Fin n` as a sum over `range n` of a total extension. -/
theorem fin_range (n : ℕ) (g : Fin n → M) :
    ∑ k : Fin n, g k = ∑ k ∈ range n, (if hk : k < n then g ⟨k, hk⟩ else 0) := by
  rw [← Fin.sum_univ_eq_sum_range (fun k => if hk : k < n then g ⟨k, hk⟩ else 0) n]
  exact Finset.sum_congr rfl fun k _ => by rw [dif_pos k.isLt]

end Cert.ChunkSum
-- ==== Proof.KernelTotal.lean ====
import proofs.«406163_j35201551958720_3_alg».proof.Proof.ChainTotal
import proofs.«406163_j35201551958720_3_alg».proof.Proof.Call0Value
import proofs.«406163_j35201551958720_3_alg».proof.Proof.Call1Value
import proofs.«406163_j35201551958720_3_alg».proof.Proof.Call2Value
import proofs.«406163_j35201551958720_3_alg».proof.Proof.Call3Value
import proofs.«406163_j35201551958720_3_alg».proof.Proof.Call4Value
import proofs.«406163_j35201551958720_3_alg».proof.Proof.Call5Value
import proofs.«406163_j35201551958720_3_alg».proof.Proof.Call6Value
import proofs.«406163_j35201551958720_3_alg».proof.Proof.Call7Value
import proofs.«406163_j35201551958720_3_alg».proof.Proof.Call8Value
import proofs.«406163_j35201551958720_3_alg».proof.Proof.Call9Value
import proofs.«406163_j35201551958720_3_alg».proof.Proof.Call10Value
import proofs.«406163_j35201551958720_3_alg».proof.Proof.Call11Value
import proofs.«406163_j35201551958720_3_alg».proof.Proof.Call12Value
import proofs.«406163_j35201551958720_3_alg».proof.Proof.Call13Value
import proofs.«406163_j35201551958720_3_alg».proof.Proof.Call14Value
import proofs.«406163_j35201551958720_3_alg».proof.Proof.Call15Value
import proofs.«406163_j35201551958720_3_alg».proof.Proof.PairTotal
import proofs.«406163_j35201551958720_3_alg».proof.Proof.ChunkSum
import Idealize.ShloMosaic.PureOps.Ideal
import Idealize.ShloMosaic.PureOps.Ideal.Laws
import Idealize.ShloMosaic.Lib.ValueIdx

set_option maxRecDepth 16384

noncomputable section

open scoped BigOperators

namespace Cert.KernelIdeal.KernelTotal

open Cert.KernelIdeal Cert.KernelIdeal.Gen
open Idealize.ShloMosaic Idealize.ShloMosaic.TcCoe Idealize.SL.Sem

/-! # The kernel's result is the pair loss

Each call's result is the sum of its chunk's 25000 terms; a term is the distance (the hinge) of the two rows its pair
names; the eight chunks of a list make up the list; so the two running sums are the two sums of the loss. -/

section Core

variable (X : FVec Ideal ⟨3, ![100000, 1, 256]⟩ .f32) (H : Vec Ideal ⟨2, ![100000, 256]⟩ .f32)

/-- A row of the array of rows with a unit middle axis, read at any natural number, is the table's row there. -/
theorem rowOf_eq (hX : ∀ (r : Fin 100000) (d : Fin 256), X (ValueIdx.ix3 r 0 d) = H (ValueIdx.ix2 r d)) (a : ℕ) (d : Fin 256) :
    (if ha : a < 100000 then X (ValueIdx.ix3 ⟨a, ha⟩ (0 : Fin 1) d) else 0) = PairTotal.row H a d := by
  unfold PairTotal.row
  by_cases ha : a < 100000
  · rw [dif_pos ha, dif_pos ha]; exact hX ⟨a, ha⟩ d
  · rw [dif_neg ha, dif_neg ha]

/-- The distance of two rows of the array of rows is the distance of the table's rows. -/
theorem dist_of_rows (hX : ∀ (r : Fin 100000) (d : Fin 256), X (ValueIdx.ix3 r 0 d) = H (ValueIdx.ix2 r d)) (a b : ℕ) :
    Ideal.sqrt (∑ d : Fin 256,
        ((if ha : a < 100000 then X (ValueIdx.ix3 ⟨a, ha⟩ (0 : Fin 1) d) else 0) - (if hb : b < 100000 then X (ValueIdx.ix3 ⟨b, hb⟩ (0 : Fin 1) d) else 0))
          * ((if ha : a < 100000 then X (ValueIdx.ix3 ⟨a, ha⟩ (0 : Fin 1) d) else 0) - (if hb : b < 100000 then X (ValueIdx.ix3 ⟨b, hb⟩ (0 : Fin 1) d) else 0)))
      = PairTotal.dist H a b := by
  unfold PairTotal.dist
  exact congrArg Ideal.sqrt (Finset.sum_congr rfl fun d _ => by rw [rowOf_eq X H hX a d, rowOf_eq X H hX b d])

/-- The hinge of two rows of the array of rows is the hinge of the table's rows. -/
theorem hinge_of_rows (hX : ∀ (r : Fin 100000) (d : Fin 256), X (ValueIdx.ix3 r 0 d) = H (ValueIdx.ix2 r d)) (a b : ℕ) :
    max 0 (Ideal.ofBits .f32 0x3F000000#32 - Ideal.sqrt (∑ d : Fin 256,
        ((if ha : a < 100000 then X (ValueIdx.ix3 ⟨a, ha⟩ (0 : Fin 1) d) else 0) - (if hb : b < 100000 then X (ValueIdx.ix3 ⟨b, hb⟩ (0 : Fin 1) d) else 0))
          * ((if ha : a < 100000 then X (ValueIdx.ix3 ⟨a, ha⟩ (0 : Fin 1) d) else 0) - (if hb : b < 100000 then X (ValueIdx.ix3 ⟨b, hb⟩ (0 : Fin 1) d) else 0))))
      = PairTotal.hinge H a b := by
  unfold PairTotal.hinge
  rw [dist_of_rows X H hX a b]

end Core

section Lists

variable (H : Vec Ideal ⟨2, ![100000, 256]⟩ .f32) (P : Vec Ideal ⟨2, ![200000, 2]⟩ .i32)

/-- Pair k's distance. -/
def gdist (k : Fin 200000) : EReal := PairTotal.dist H (P (ValueIdx.ix2 k 0)).toNat (P (ValueIdx.ix2 k 1)).toNat
/-- Pair k's hinge. -/
def ghinge (k : Fin 200000) : EReal := PairTotal.hinge H (P (ValueIdx.ix2 k 0)).toNat (P (ValueIdx.ix2 k 1)).toNat
/-- Pair k's distance at any natural number: zero past the list's end. -/
def fdist (k : ℕ) : EReal := if hk : k < 200000 then gdist H P ⟨k, hk⟩ else 0
/-- Pair k's hinge at any natural number: zero past the list's end. -/
def fhinge (k : ℕ) : EReal := if hk : k < 200000 then ghinge H P ⟨k, hk⟩ else 0

theorem fdist_of_lt {k : ℕ} (hk : k < 200000) : fdist H P k = PairTotal.dist H (P (ValueIdx.ix2 ⟨k, hk⟩ 0)).toNat (P (ValueIdx.ix2 ⟨k, hk⟩ 1)).toNat := dif_pos hk
theorem fhinge_of_lt {k : ℕ} (hk : k < 200000) : fhinge H P k = PairTotal.hinge H (P (ValueIdx.ix2 ⟨k, hk⟩ 0)).toNat (P (ValueIdx.ix2 ⟨k, hk⟩ 1)).toNat := dif_pos hk

/-- The loss from the two lists' chunk sums. -/
theorem total_of_chunks (N : Vec Ideal ⟨2, ![200000, 2]⟩ .i32) :
    (∑ k ∈ Finset.range 200000, fdist H P k) + (∑ k ∈ Finset.range 200000, fhinge H N k) = PairTotal.total H P N :=
  (congrArg₂ (· + ·) (ChunkSum.fin_range 200000 (gdist H P)).symm (ChunkSum.fin_range 200000 (ghinge H N)).symm)

end Lists

variable (m : (ℓ : Loc nD τ sig) → Buf (Elt Ideal) ℓ)

/-! ## Call 0 -/

/-- The term call 0 adds at point t is the distance of pair 0 + t of the first list. -/
theorem term0 (h : Chain.InRange m) (c : Dev nD) (t : ℕ) (ht : t < 25000) :
    Call0.termAt (Call0.Vin (Chain.W1 m)) c t = fdist (m ((c.tc : Thread nD τ).loc main_arg0)) (m ((c.tc : Thread nD τ).loc main_arg1)) (25000 * 0 + t) := by
  have eA : Call0.wordA (Call0.Vin (Chain.W1 m)) t = m ((c.tc : Thread nD τ).loc main_arg1) (ValueIdx.ix2 ⟨25000 * 0 + t, by omega⟩ 0) :=
    (Call0.wordA_of_lt _ ht).trans (Chain.tbl0_A m c ⟨t, ht⟩)
  have eB : Call0.wordB (Call0.Vin (Chain.W1 m)) t = m ((c.tc : Thread nD τ).loc main_arg1) (ValueIdx.ix2 ⟨25000 * 0 + t, by omega⟩ 1) :=
    (Call0.wordB_of_lt _ ht).trans (Chain.tbl0_B m c ⟨t, ht⟩)
  rw [fdist_of_lt _ _ (show 25000 * 0 + t < 200000 by omega)]
  unfold Call0.termAt
  rw [eA, eB]
  exact dist_of_rows _ _ (fun r d => Chain.rows0 m c r d) _ _

/-- Call 0's result is the sum of its chunk's terms. -/
theorem res0_eq (h : Chain.InRange m) (c : Dev nD) :
    Chain.res0 m h c = ∑ t ∈ Finset.range 25000, fdist (m ((c.tc : Thread nD τ).loc main_arg0)) (m ((c.tc : Thread nD τ).loc main_arg1)) (25000 * 0 + t) := by
  refine (congrFun (Chain.W2_res m h c) (ValueIdx.ix2 0 0)).trans ?_
  refine (congrFun (Call0.arrAt_2 _ (Chain.ok0 m h) c) (ValueIdx.ix2 0 0)).trans ?_
  refine (Call0.accAt_eq _ (Chain.ok0 m h) c 24999 (Call0.hlast _ (Chain.ok0 m h))).trans ?_
  exact Finset.sum_congr rfl fun t ht => term0 m h c t (Finset.mem_range.mp ht)

/-! ## Call 1 -/

/-- The term call 1 adds at point t is the distance of pair 25000 + t of the first list. -/
theorem term1 (h : Chain.InRange m) (c : Dev nD) (t : ℕ) (ht : t < 25000) :
    Call1.termAt (Call1.Vin (Chain.W3 m h)) c t = fdist (m ((c.tc : Thread nD τ).loc main_arg0)) (m ((c.tc : Thread nD τ).loc main_arg1)) (25000 * 1 + t) := by
  have eA : Call1.wordA (Call1.Vin (Chain.W3 m h)) t = m ((c.tc : Thread nD τ).loc main_arg1) (ValueIdx.ix2 ⟨25000 * 1 + t, by omega⟩ 0) :=
    (Call1.wordA_of_lt _ ht).trans (Chain.tbl1_A m h c ⟨t, ht⟩)
  have eB : Call1.wordB (Call1.Vin (Chain.W3 m h)) t = m ((c.tc : Thread nD τ).loc main_arg1) (ValueIdx.ix2 ⟨25000 * 1 + t, by omega⟩ 1) :=
    (Call1.wordB_of_lt _ ht).trans (Chain.tbl1_B m h c ⟨t, ht⟩)
  rw [fdist_of_lt _ _ (show 25000 * 1 + t < 200000 by omega)]
  unfold Call1.termAt
  rw [eA, eB]
  exact dist_of_rows _ _ (fun r d => Chain.rows1 m h c r d) _ _

/-- Call 1's result is the sum of its chunk's terms. -/
theorem res1_eq (h : Chain.InRange m) (c : Dev nD) :
    Chain.res1 m h c = ∑ t ∈ Finset.range 25000, fdist (m ((c.tc : Thread nD τ).loc main_arg0)) (m ((c.tc : Thread nD τ).loc main_arg1)) (25000 * 1 + t) := by
  refine (congrFun (Chain.W4_res m h c) (ValueIdx.ix2 0 0)).trans ?_
  refine (congrFun (Call1.arrAt_2 _ (Chain.ok1 m h) c) (ValueIdx.ix2 0 0)).trans ?_
  refine (Call1.accAt_eq _ (Chain.ok1 m h) c 24999 (Call1.hlast _ (Chain.ok1 m h))).trans ?_
  exact Finset.sum_congr rfl fun t ht => term1 m h c t (Finset.mem_range.mp ht)

/-! ## Call 2 -/

/-- The term call 2 adds at point t is the distance of pair 50000 + t of the first list. -/
theorem term2 (h : Chain.InRange m) (c : Dev nD) (t : ℕ) (ht : t < 25000) :
    Call2.termAt (Call2.Vin (Chain.W5 m h)) c t = fdist (m ((c.tc : Thread nD τ).loc main_arg0)) (m ((c.tc : Thread nD τ).loc main_arg1)) (25000 * 2 + t) := by
  have eA : Call2.wordA (Call2.Vin (Chain.W5 m h)) t = m ((c.tc : Thread nD τ).loc main_arg1) (ValueIdx.ix2 ⟨25000 * 2 + t, by omega⟩ 0) :=
    (Call2.wordA_of_lt _ ht).trans (Chain.tbl2_A m h c ⟨t, ht⟩)
  have eB : Call2.wordB (Call2.Vin (Chain.W5 m h)) t = m ((c.tc : Thread nD τ).loc main_arg1) (ValueIdx.ix2 ⟨25000 * 2 + t, by omega⟩ 1) :=
    (Call2.wordB_of_lt _ ht).trans (Chain.tbl2_B m h c ⟨t, ht⟩)
  rw [fdist_of_lt _ _ (show 25000 * 2 + t < 200000 by omega)]
  unfold Call2.termAt
  rw [eA, eB]
  exact dist_of_rows _ _ (fun r d => Chain.rows2 m h c r d) _ _

/-- Call 2's result is the sum of its chunk's terms. -/
theorem res2_eq (h : Chain.InRange m) (c : Dev nD) :
    Chain.res2 m h c = ∑ t ∈ Finset.range 25000, fdist (m ((c.tc : Thread nD τ).loc main_arg0)) (m ((c.tc : Thread nD τ).loc main_arg1)) (25000 * 2 + t) := by
  refine (congrFun (Chain.W6_res m h c) (ValueIdx.ix2 0 0)).trans ?_
  refine (congrFun (Call2.arrAt_2 _ (Chain.ok2 m h) c) (ValueIdx.ix2 0 0)).trans ?_
  refine (Call2.accAt_eq _ (Chain.ok2 m h) c 24999 (Call2.hlast _ (Chain.ok2 m h))).trans ?_
  exact Finset.sum_congr rfl fun t ht => term2 m h c t (Finset.mem_range.mp ht)

/-! ## Call 3 -/

/-- The term call 3 adds at point t is the distance of pair 75000 + t of the first list. -/
theorem term3 (h : Chain.InRange m) (c : Dev nD) (t : ℕ) (ht : t < 25000) :
    Call3.termAt (Call3.Vin (Chain.W7 m h)) c t = fdist (m ((c.tc : Thread nD τ).loc main_arg0)) (m ((c.tc : Thread nD τ).loc main_arg1)) (25000 * 3 + t) := by
  have eA : Call3.wordA (Call3.Vin (Chain.W7 m h)) t = m ((c.tc : Thread nD τ).loc main_arg1) (ValueIdx.ix2 ⟨25000 * 3 + t, by omega⟩ 0) :=
    (Call3.wordA_of_lt _ ht).trans (Chain.tbl3_A m h c ⟨t, ht⟩)
  have eB : Call3.wordB (Call3.Vin (Chain.W7 m h)) t = m ((c.tc : Thread nD τ).loc main_arg1) (ValueIdx.ix2 ⟨25000 * 3 + t, by omega⟩ 1) :=
    (Call3.wordB_of_lt _ ht).trans (Chain.tbl3_B m h c ⟨t, ht⟩)
  rw [fdist_of_lt _ _ (show 25000 * 3 + t < 200000 by omega)]
  unfold Call3.termAt
  rw [eA, eB]
  exact dist_of_rows _ _ (fun r d => Chain.rows3 m h c r d) _ _

/-- Call 3's result is the sum of its chunk's terms. -/
theorem res3_eq (h : Chain.InRange m) (c : Dev nD) :
    Chain.res3 m h c = ∑ t ∈ Finset.range 25000, fdist (m ((c.tc : Thread nD τ).loc main_arg0)) (m ((c.tc : Thread nD τ).loc main_arg1)) (25000 * 3 + t) := by
  refine (congrFun (Chain.W8_res m h c) (ValueIdx.ix2 0 0)).trans ?_
  refine (congrFun (Call3.arrAt_2 _ (Chain.ok3 m h) c) (ValueIdx.ix2 0 0)).trans ?_
  refine (Call3.accAt_eq _ (Chain.ok3 m h) c 24999 (Call3.hlast _ (Chain.ok3 m h))).trans ?_
  exact Finset.sum_congr rfl fun t ht => term3 m h c t (Finset.mem_range.mp ht)

/-! ## Call 4 -/

/-- The term call 4 adds at point t is the distance of pair 100000 + t of the first list. -/
theorem term4 (h : Chain.InRange m) (c : Dev nD) (t : ℕ) (ht : t < 25000) :
    Call4.termAt (Call4.Vin (Chain.W9 m h)) c t = fdist (m ((c.tc : Thread nD τ).loc main_arg0)) (m ((c.tc : Thread nD τ).loc main_arg1)) (25000 * 4 + t) := by
  have eA : Call4.wordA (Call4.Vin (Chain.W9 m h)) t = m ((c.tc : Thread nD τ).loc main_arg1) (ValueIdx.ix2 ⟨25000 * 4 + t, by omega⟩ 0) :=
    (Call4.wordA_of_lt _ ht).trans (Chain.tbl4_A m h c ⟨t, ht⟩)
  have eB : Call4.wordB (Call4.Vin (Chain.W9 m h)) t = m ((c.tc : Thread nD τ).loc main_arg1) (ValueIdx.ix2 ⟨25000 * 4 + t, by omega⟩ 1) :=
    (Call4.wordB_of_lt _ ht).trans (Chain.tbl4_B m h c ⟨t, ht⟩)
  rw [fdist_of_lt _ _ (show 25000 * 4 + t < 200000 by omega)]
  unfold Call4.termAt
  rw [eA, eB]
  exact dist_of_rows _ _ (fun r d => Chain.rows4 m h c r d) _ _

/-- Call 4's result is the sum of its chunk's terms. -/
theorem res4_eq (h : Chain.InRange m) (c : Dev nD) :
    Chain.res4 m h c = ∑ t ∈ Finset.range 25000, fdist (m ((c.tc : Thread nD τ).loc main_arg0)) (m ((c.tc : Thread nD τ).loc main_arg1)) (25000 * 4 + t) := by
  refine (congrFun (Chain.W10_res m h c) (ValueIdx.ix2 0 0)).trans ?_
  refine (congrFun (Call4.arrAt_2 _ (Chain.ok4 m h) c) (ValueIdx.ix2 0 0)).trans ?_
  refine (Call4.accAt_eq _ (Chain.ok4 m h) c 24999 (Call4.hlast _ (Chain.ok4 m h))).trans ?_
  exact Finset.sum_congr rfl fun t ht => term4 m h c t (Finset.mem_range.mp ht)

/-! ## Call 5 -/

/-- The term call 5 adds at point t is the distance of pair 125000 + t of the first list. -/
theorem term5 (h : Chain.InRange m) (c : Dev nD) (t : ℕ) (ht : t < 25000) :
    Call5.termAt (Call5.Vin (Chain.W11 m h)) c t = fdist (m ((c.tc : Thread nD τ).loc main_arg0)) (m ((c.tc : Thread nD τ).loc main_arg1)) (25000 * 5 + t) := by
  have eA : Call5.wordA (Call5.Vin (Chain.W11 m h)) t = m ((c.tc : Thread nD τ).loc main_arg1) (ValueIdx.ix2 ⟨25000 * 5 + t, by omega⟩ 0) :=
    (Call5.wordA_of_lt _ ht).trans (Chain.tbl5_A m h c ⟨t, ht⟩)
  have eB : Call5.wordB (Call5.Vin (Chain.W11 m h)) t = m ((c.tc : Thread nD τ).loc main_arg1) (ValueIdx.ix2 ⟨25000 * 5 + t, by omega⟩ 1) :=
    (Call5.wordB_of_lt _ ht).trans (Chain.tbl5_B m h c ⟨t, ht⟩)
  rw [fdist_of_lt _ _ (show 25000 * 5 + t < 200000 by omega)]
  unfold Call5.termAt
  rw [eA, eB]
  exact dist_of_rows _ _ (fun r d => Chain.rows5 m h c r d) _ _

/-- Call 5's result is the sum of its chunk's terms. -/
theorem res5_eq (h : Chain.InRange m) (c : Dev nD) :
    Chain.res5 m h c = ∑ t ∈ Finset.range 25000, fdist (m ((c.tc : Thread nD τ).loc main_arg0)) (m ((c.tc : Thread nD τ).loc main_arg1)) (25000 * 5 + t) := by
  refine (congrFun (Chain.W12_res m h c) (ValueIdx.ix2 0 0)).trans ?_
  refine (congrFun (Call5.arrAt_2 _ (Chain.ok5 m h) c) (ValueIdx.ix2 0 0)).trans ?_
  refine (Call5.accAt_eq _ (Chain.ok5 m h) c 24999 (Call5.hlast _ (Chain.ok5 m h))).trans ?_
  exact Finset.sum_congr rfl fun t ht => term5 m h c t (Finset.mem_range.mp ht)

/-! ## Call 6 -/

/-- The term call 6 adds at point t is the distance of pair 150000 + t of the first list. -/
theorem term6 (h : Chain.InRange m) (c : Dev nD) (t : ℕ) (ht : t < 25000) :
    Call6.termAt (Call6.Vin (Chain.W13 m h)) c t = fdist (m ((c.tc : Thread nD τ).loc main_arg0)) (m ((c.tc : Thread nD τ).loc main_arg1)) (25000 * 6 + t) := by
  have eA : Call6.wordA (Call6.Vin (Chain.W13 m h)) t = m ((c.tc : Thread nD τ).loc main_arg1) (ValueIdx.ix2 ⟨25000 * 6 + t, by omega⟩ 0) :=
    (Call6.wordA_of_lt _ ht).trans (Chain.tbl6_A m h c ⟨t, ht⟩)
  have eB : Call6.wordB (Call6.Vin (Chain.W13 m h)) t = m ((c.tc : Thread nD τ).loc main_arg1) (ValueIdx.ix2 ⟨25000 * 6 + t, by omega⟩ 1) :=
    (Call6.wordB_of_lt _ ht).trans (Chain.tbl6_B m h c ⟨t, ht⟩)
  rw [fdist_of_lt _ _ (show 25000 * 6 + t < 200000 by omega)]
  unfold Call6.termAt
  rw [eA, eB]
  exact dist_of_rows _ _ (fun r d => Chain.rows6 m h c r d) _ _

/-- Call 6's result is the sum of its chunk's terms. -/
theorem res6_eq (h : Chain.InRange m) (c : Dev nD) :
    Chain.res6 m h c = ∑ t ∈ Finset.range 25000, fdist (m ((c.tc : Thread nD τ).loc main_arg0)) (m ((c.tc : Thread nD τ).loc main_arg1)) (25000 * 6 + t) := by
  refine (congrFun (Chain.W14_res m h c) (ValueIdx.ix2 0 0)).trans ?_
  refine (congrFun (Call6.arrAt_2 _ (Chain.ok6 m h) c) (ValueIdx.ix2 0 0)).trans ?_
  refine (Call6.accAt_eq _ (Chain.ok6 m h) c 24999 (Call6.hlast _ (Chain.ok6 m h))).trans ?_
  exact Finset.sum_congr rfl fun t ht => term6 m h c t (Finset.mem_range.mp ht)

/-! ## Call 7 -/

/-- The term call 7 adds at point t is the distance of pair 175000 + t of the first list. -/
theorem term7 (h : Chain.InRange m) (c : Dev nD) (t : ℕ) (ht : t < 25000) :
    Call7.termAt (Call7.Vin (Chain.W15 m h)) c t = fdist (m ((c.tc : Thread nD τ).loc main_arg0)) (m ((c.tc : Thread nD τ).loc main_arg1)) (25000 * 7 + t) := by
  have eA : Call7.wordA (Call7.Vin (Chain.W15 m h)) t = m ((c.tc : Thread nD τ).loc main_arg1) (ValueIdx.ix2 ⟨25000 * 7 + t, by omega⟩ 0) :=
    (Call7.wordA_of_lt _ ht).trans (Chain.tbl7_A m h c ⟨t, ht⟩)
  have eB : Call7.wordB (Call7.Vin (Chain.W15 m h)) t = m ((c.tc : Thread nD τ).loc main_arg1) (ValueIdx.ix2 ⟨25000 * 7 + t, by omega⟩ 1) :=
    (Call7.wordB_of_lt _ ht).trans (Chain.tbl7_B m h c ⟨t, ht⟩)
  rw [fdist_of_lt _ _ (show 25000 * 7 + t < 200000 by omega)]
  unfold Call7.termAt
  rw [eA, eB]
  exact dist_of_rows _ _ (fun r d => Chain.rows7 m h c r d) _ _

/-- Call 7's result is the sum of its chunk's terms. -/
theorem res7_eq (h : Chain.InRange m) (c : Dev nD) :
    Chain.res7 m h c = ∑ t ∈ Finset.range 25000, fdist (m ((c.tc : Thread nD τ).loc main_arg0)) (m ((c.tc : Thread nD τ).loc main_arg1)) (25000 * 7 + t) := by
  refine (congrFun (Chain.W16_res m h c) (ValueIdx.ix2 0 0)).trans ?_
  refine (congrFun (Call7.arrAt_2 _ (Chain.ok7 m h) c) (ValueIdx.ix2 0 0)).trans ?_
  refine (Call7.accAt_eq _ (Chain.ok7 m h) c 24999 (Call7.hlast _ (Chain.ok7 m h))).trans ?_
  exact Finset.sum_congr rfl fun t ht => term7 m h c t (Finset.mem_range.mp ht)

/-! ## Call 8 -/

/-- The term call 8 adds at point t is the hinge of pair 0 + t of the second list. -/
theorem term8 (h : Chain.InRange m) (c : Dev nD) (t : ℕ) (ht : t < 25000) :
    Call8.termAt (Call8.Vin (Chain.W17 m h)) c t = fhinge (m ((c.tc : Thread nD τ).loc main_arg0)) (m ((c.tc : Thread nD τ).loc main_arg2)) (25000 * 0 + t) := by
  have eA : Call8.wordA (Call8.Vin (Chain.W17 m h)) t = m ((c.tc : Thread nD τ).loc main_arg2) (ValueIdx.ix2 ⟨25000 * 0 + t, by omega⟩ 0) :=
    (Call8.wordA_of_lt _ ht).trans (Chain.tbl8_A m h c ⟨t, ht⟩)
  have eB : Call8.wordB (Call8.Vin (Chain.W17 m h)) t = m ((c.tc : Thread nD τ).loc main_arg2) (ValueIdx.ix2 ⟨25000 * 0 + t, by omega⟩ 1) :=
    (Call8.wordB_of_lt _ ht).trans (Chain.tbl8_B m h c ⟨t, ht⟩)
  rw [fhinge_of_lt _ _ (show 25000 * 0 + t < 200000 by omega)]
  unfold Call8.termAt
  rw [eA, eB]
  exact hinge_of_rows _ _ (fun r d => Chain.rows8 m h c r d) _ _

/-- Call 8's result is the sum of its chunk's terms. -/
theorem res8_eq (h : Chain.InRange m) (c : Dev nD) :
    Chain.res8 m h c = ∑ t ∈ Finset.range 25000, fhinge (m ((c.tc : Thread nD τ).loc main_arg0)) (m ((c.tc : Thread nD τ).loc main_arg2)) (25000 * 0 + t) := by
  refine (congrFun (Chain.W18_res m h c) (ValueIdx.ix2 0 0)).trans ?_
  refine (congrFun (Call8.arrAt_2 _ (Chain.ok8 m h) c) (ValueIdx.ix2 0 0)).trans ?_
  refine (Call8.accAt_eq _ (Chain.ok8 m h) c 24999 (Call8.hlast _ (Chain.ok8 m h))).trans ?_
  exact Finset.sum_congr rfl fun t ht => term8 m h c t (Finset.mem_range.mp ht)

/-! ## Call 9 -/

/-- The term call 9 adds at point t is the hinge of pair 25000 + t of the second list. -/
theorem term9 (h : Chain.InRange m) (c : Dev nD) (t : ℕ) (ht : t < 25000) :
    Call9.termAt (Call9.Vin (Chain.W19 m h)) c t = fhinge (m ((c.tc : Thread nD τ).loc main_arg0)) (m ((c.tc : Thread nD τ).loc main_arg2)) (25000 * 1 + t) := by
  have eA : Call9.wordA (Call9.Vin (Chain.W19 m h)) t = m ((c.tc : Thread nD τ).loc main_arg2) (ValueIdx.ix2 ⟨25000 * 1 + t, by omega⟩ 0) :=
    (Call9.wordA_of_lt _ ht).trans (Chain.tbl9_A m h c ⟨t, ht⟩)
  have eB : Call9.wordB (Call9.Vin (Chain.W19 m h)) t = m ((c.tc : Thread nD τ).loc main_arg2) (ValueIdx.ix2 ⟨25000 * 1 + t, by omega⟩ 1) :=
    (Call9.wordB_of_lt _ ht).trans (Chain.tbl9_B m h c ⟨t, ht⟩)
  rw [fhinge_of_lt _ _ (show 25000 * 1 + t < 200000 by omega)]
  unfold Call9.termAt
  rw [eA, eB]
  exact hinge_of_rows _ _ (fun r d => Chain.rows9 m h c r d) _ _

/-- Call 9's result is the sum of its chunk's terms. -/
theorem res9_eq (h : Chain.InRange m) (c : Dev nD) :
    Chain.res9 m h c = ∑ t ∈ Finset.range 25000, fhinge (m ((c.tc : Thread nD τ).loc main_arg0)) (m ((c.tc : Thread nD τ).loc main_arg2)) (25000 * 1 + t) := by
  refine (congrFun (Chain.W20_res m h c) (ValueIdx.ix2 0 0)).trans ?_
  refine (congrFun (Call9.arrAt_2 _ (Chain.ok9 m h) c) (ValueIdx.ix2 0 0)).trans ?_
  refine (Call9.accAt_eq _ (Chain.ok9 m h) c 24999 (Call9.hlast _ (Chain.ok9 m h))).trans ?_
  exact Finset.sum_congr rfl fun t ht => term9 m h c t (Finset.mem_range.mp ht)

/-! ## Call 10 -/

/-- The term call 10 adds at point t is the hinge of pair 50000 + t of the second list. -/
theorem term10 (h : Chain.InRange m) (c : Dev nD) (t : ℕ) (ht : t < 25000) :
    Call10.termAt (Call10.Vin (Chain.W21 m h)) c t = fhinge (m ((c.tc : Thread nD τ).loc main_arg0)) (m ((c.tc : Thread nD τ).loc main_arg2)) (25000 * 2 + t) := by
  have eA : Call10.wordA (Call10.Vin (Chain.W21 m h)) t = m ((c.tc : Thread nD τ).loc main_arg2) (ValueIdx.ix2 ⟨25000 * 2 + t, by omega⟩ 0) :=
    (Call10.wordA_of_lt _ ht).trans (Chain.tbl10_A m h c ⟨t, ht⟩)
  have eB : Call10.wordB (Call10.Vin (Chain.W21 m h)) t = m ((c.tc : Thread nD τ).loc main_arg2) (ValueIdx.ix2 ⟨25000 * 2 + t, by omega⟩ 1) :=
    (Call10.wordB_of_lt _ ht).trans (Chain.tbl10_B m h c ⟨t, ht⟩)
  rw [fhinge_of_lt _ _ (show 25000 * 2 + t < 200000 by omega)]
  unfold Call10.termAt
  rw [eA, eB]
  exact hinge_of_rows _ _ (fun r d => Chain.rows10 m h c r d) _ _

/-- Call 10's result is the sum of its chunk's terms. -/
theorem res10_eq (h : Chain.InRange m) (c : Dev nD) :
    Chain.res10 m h c = ∑ t ∈ Finset.range 25000, fhinge (m ((c.tc : Thread nD τ).loc main_arg0)) (m ((c.tc : Thread nD τ).loc main_arg2)) (25000 * 2 + t) := by
  refine (congrFun (Chain.W22_res m h c) (ValueIdx.ix2 0 0)).trans ?_
  refine (congrFun (Call10.arrAt_2 _ (Chain.ok10 m h) c) (ValueIdx.ix2 0 0)).trans ?_
  refine (Call10.accAt_eq _ (Chain.ok10 m h) c 24999 (Call10.hlast _ (Chain.ok10 m h))).trans ?_
  exact Finset.sum_congr rfl fun t ht => term10 m h c t (Finset.mem_range.mp ht)

/-! ## Call 11 -/

/-- The term call 11 adds at point t is the hinge of pair 75000 + t of the second list. -/
theorem term11 (h : Chain.InRange m) (c : Dev nD) (t : ℕ) (ht : t < 25000) :
    Call11.termAt (Call11.Vin (Chain.W23 m h)) c t = fhinge (m ((c.tc : Thread nD τ).loc main_arg0)) (m ((c.tc : Thread nD τ).loc main_arg2)) (25000 * 3 + t) := by
  have eA : Call11.wordA (Call11.Vin (Chain.W23 m h)) t = m ((c.tc : Thread nD τ).loc main_arg2) (ValueIdx.ix2 ⟨25000 * 3 + t, by omega⟩ 0) :=
    (Call11.wordA_of_lt _ ht).trans (Chain.tbl11_A m h c ⟨t, ht⟩)
  have eB : Call11.wordB (Call11.Vin (Chain.W23 m h)) t = m ((c.tc : Thread nD τ).loc main_arg2) (ValueIdx.ix2 ⟨25000 * 3 + t, by omega⟩ 1) :=
    (Call11.wordB_of_lt _ ht).trans (Chain.tbl11_B m h c ⟨t, ht⟩)
  rw [fhinge_of_lt _ _ (show 25000 * 3 + t < 200000 by omega)]
  unfold Call11.termAt
  rw [eA, eB]
  exact hinge_of_rows _ _ (fun r d => Chain.rows11 m h c r d) _ _

/-- Call 11's result is the sum of its chunk's terms. -/
theorem res11_eq (h : Chain.InRange m) (c : Dev nD) :
    Chain.res11 m h c = ∑ t ∈ Finset.range 25000, fhinge (m ((c.tc : Thread nD τ).loc main_arg0)) (m ((c.tc : Thread nD τ).loc main_arg2)) (25000 * 3 + t) := by
  refine (congrFun (Chain.W24_res m h c) (ValueIdx.ix2 0 0)).trans ?_
  refine (congrFun (Call11.arrAt_2 _ (Chain.ok11 m h) c) (ValueIdx.ix2 0 0)).trans ?_
  refine (Call11.accAt_eq _ (Chain.ok11 m h) c 24999 (Call11.hlast _ (Chain.ok11 m h))).trans ?_
  exact Finset.sum_congr rfl fun t ht => term11 m h c t (Finset.mem_range.mp ht)

/-! ## Call 12 -/

/-- The term call 12 adds at point t is the hinge of pair 100000 + t of the second list. -/
theorem term12 (h : Chain.InRange m) (c : Dev nD) (t : ℕ) (ht : t < 25000) :
    Call12.termAt (Call12.Vin (Chain.W25 m h)) c t = fhinge (m ((c.tc : Thread nD τ).loc main_arg0)) (m ((c.tc : Thread nD τ).loc main_arg2)) (25000 * 4 + t) := by
  have eA : Call12.wordA (Call12.Vin (Chain.W25 m h)) t = m ((c.tc : Thread nD τ).loc main_arg2) (ValueIdx.ix2 ⟨25000 * 4 + t, by omega⟩ 0) :=
    (Call12.wordA_of_lt _ ht).trans (Chain.tbl12_A m h c ⟨t, ht⟩)
  have eB : Call12.wordB (Call12.Vin (Chain.W25 m h)) t = m ((c.tc : Thread nD τ).loc main_arg2) (ValueIdx.ix2 ⟨25000 * 4 + t, by omega⟩ 1) :=
    (Call12.wordB_of_lt _ ht).trans (Chain.tbl12_B m h c ⟨t, ht⟩)
  rw [fhinge_of_lt _ _ (show 25000 * 4 + t < 200000 by omega)]
  unfold Call12.termAt
  rw [eA, eB]
  exact hinge_of_rows _ _ (fun r d => Chain.rows12 m h c r d) _ _

/-- Call 12's result is the sum of its chunk's terms. -/
theorem res12_eq (h : Chain.InRange m) (c : Dev nD) :
    Chain.res12 m h c = ∑ t ∈ Finset.range 25000, fhinge (m ((c.tc : Thread nD τ).loc main_arg0)) (m ((c.tc : Thread nD τ).loc main_arg2)) (25000 * 4 + t) := by
  refine (congrFun (Chain.W26_res m h c) (ValueIdx.ix2 0 0)).trans ?_
  refine (congrFun (Call12.arrAt_2 _ (Chain.ok12 m h) c) (ValueIdx.ix2 0 0)).trans ?_
  refine (Call12.accAt_eq _ (Chain.ok12 m h) c 24999 (Call12.hlast _ (Chain.ok12 m h))).trans ?_
  exact Finset.sum_congr rfl fun t ht => term12 m h c t (Finset.mem_range.mp ht)

/-! ## Call 13 -/

/-- The term call 13 adds at point t is the hinge of pair 125000 + t of the second list. -/
theorem term13 (h : Chain.InRange m) (c : Dev nD) (t : ℕ) (ht : t < 25000) :
    Call13.termAt (Call13.Vin (Chain.W27 m h)) c t = fhinge (m ((c.tc : Thread nD τ).loc main_arg0)) (m ((c.tc : Thread nD τ).loc main_arg2)) (25000 * 5 + t) := by
  have eA : Call13.wordA (Call13.Vin (Chain.W27 m h)) t = m ((c.tc : Thread nD τ).loc main_arg2) (ValueIdx.ix2 ⟨25000 * 5 + t, by omega⟩ 0) :=
    (Call13.wordA_of_lt _ ht).trans (Chain.tbl13_A m h c ⟨t, ht⟩)
  have eB : Call13.wordB (Call13.Vin (Chain.W27 m h)) t = m ((c.tc : Thread nD τ).loc main_arg2) (ValueIdx.ix2 ⟨25000 * 5 + t, by omega⟩ 1) :=
    (Call13.wordB_of_lt _ ht).trans (Chain.tbl13_B m h c ⟨t, ht⟩)
  rw [fhinge_of_lt _ _ (show 25000 * 5 + t < 200000 by omega)]
  unfold Call13.termAt
  rw [eA, eB]
  exact hinge_of_rows _ _ (fun r d => Chain.rows13 m h c r d) _ _

/-- Call 13's result is the sum of its chunk's terms. -/
theorem res13_eq (h : Chain.InRange m) (c : Dev nD) :
    Chain.res13 m h c = ∑ t ∈ Finset.range 25000, fhinge (m ((c.tc : Thread nD τ).loc main_arg0)) (m ((c.tc : Thread nD τ).loc main_arg2)) (25000 * 5 + t) := by
  refine (congrFun (Chain.W28_res m h c) (ValueIdx.ix2 0 0)).trans ?_
  refine (congrFun (Call13.arrAt_2 _ (Chain.ok13 m h) c) (ValueIdx.ix2 0 0)).trans ?_
  refine (Call13.accAt_eq _ (Chain.ok13 m h) c 24999 (Call13.hlast _ (Chain.ok13 m h))).trans ?_
  exact Finset.sum_congr rfl fun t ht => term13 m h c t (Finset.mem_range.mp ht)

/-! ## Call 14 -/

/-- The term call 14 adds at point t is the hinge of pair 150000 + t of the second list. -/
theorem term14 (h : Chain.InRange m) (c : Dev nD) (t : ℕ) (ht : t < 25000) :
    Call14.termAt (Call14.Vin (Chain.W29 m h)) c t = fhinge (m ((c.tc : Thread nD τ).loc main_arg0)) (m ((c.tc : Thread nD τ).loc main_arg2)) (25000 * 6 + t) := by
  have eA : Call14.wordA (Call14.Vin (Chain.W29 m h)) t = m ((c.tc : Thread nD τ).loc main_arg2) (ValueIdx.ix2 ⟨25000 * 6 + t, by omega⟩ 0) :=
    (Call14.wordA_of_lt _ ht).trans (Chain.tbl14_A m h c ⟨t, ht⟩)
  have eB : Call14.wordB (Call14.Vin (Chain.W29 m h)) t = m ((c.tc : Thread nD τ).loc main_arg2) (ValueIdx.ix2 ⟨25000 * 6 + t, by omega⟩ 1) :=
    (Call14.wordB_of_lt _ ht).trans (Chain.tbl14_B m h c ⟨t, ht⟩)
  rw [fhinge_of_lt _ _ (show 25000 * 6 + t < 200000 by omega)]
  unfold Call14.termAt
  rw [eA, eB]
  exact hinge_of_rows _ _ (fun r d => Chain.rows14 m h c r d) _ _

/-- Call 14's result is the sum of its chunk's terms. -/
theorem res14_eq (h : Chain.InRange m) (c : Dev nD) :
    Chain.res14 m h c = ∑ t ∈ Finset.range 25000, fhinge (m ((c.tc : Thread nD τ).loc main_arg0)) (m ((c.tc : Thread nD τ).loc main_arg2)) (25000 * 6 + t) := by
  refine (congrFun (Chain.W30_res m h c) (ValueIdx.ix2 0 0)).trans ?_
  refine (congrFun (Call14.arrAt_2 _ (Chain.ok14 m h) c) (ValueIdx.ix2 0 0)).trans ?_
  refine (Call14.accAt_eq _ (Chain.ok14 m h) c 24999 (Call14.hlast _ (Chain.ok14 m h))).trans ?_
  exact Finset.sum_congr rfl fun t ht => term14 m h c t (Finset.mem_range.mp ht)

/-! ## Call 15 -/

/-- The term call 15 adds at point t is the hinge of pair 175000 + t of the second list. -/
theorem term15 (h : Chain.InRange m) (c : Dev nD) (t : ℕ) (ht : t < 25000) :
    Call15.termAt (Call15.Vin (Chain.W31 m h)) c t = fhinge (m ((c.tc : Thread nD τ).loc main_arg0)) (m ((c.tc : Thread nD τ).loc main_arg2)) (25000 * 7 + t) := by
  have eA : Call15.wordA (Call15.Vin (Chain.W31 m h)) t = m ((c.tc : Thread nD τ).loc main_arg2) (ValueIdx.ix2 ⟨25000 * 7 + t, by omega⟩ 0) :=
    (Call15.wordA_of_lt _ ht).trans (Chain.tbl15_A m h c ⟨t, ht⟩)
  have eB : Call15.wordB (Call15.Vin (Chain.W31 m h)) t = m ((c.tc : Thread nD τ).loc main_arg2) (ValueIdx.ix2 ⟨25000 * 7 + t, by omega⟩ 1) :=
    (Call15.wordB_of_lt _ ht).trans (Chain.tbl15_B m h c ⟨t, ht⟩)
  rw [fhinge_of_lt _ _ (show 25000 * 7 + t < 200000 by omega)]
  unfold Call15.termAt
  rw [eA, eB]
  exact hinge_of_rows _ _ (fun r d => Chain.rows15 m h c r d) _ _

/-- Call 15's result is the sum of its chunk's terms. -/
theorem res15_eq (h : Chain.InRange m) (c : Dev nD) :
    Chain.res15 m h c = ∑ t ∈ Finset.range 25000, fhinge (m ((c.tc : Thread nD τ).loc main_arg0)) (m ((c.tc : Thread nD τ).loc main_arg2)) (25000 * 7 + t) := by
  refine (congrFun (Chain.W32_res m h c) (ValueIdx.ix2 0 0)).trans ?_
  refine (congrFun (Call15.arrAt_2 _ (Chain.ok15 m h) c) (ValueIdx.ix2 0 0)).trans ?_
  refine (Call15.accAt_eq _ (Chain.ok15 m h) c 24999 (Call15.hlast _ (Chain.ok15 m h))).trans ?_
  exact Finset.sum_congr rfl fun t ht => term15 m h c t (Finset.mem_range.mp ht)

/-! ## The whole -/

/-- THE KERNEL'S RESULT is the pair loss of the three arguments. -/
theorem result (h : Chain.InRange m) (c : Dev nD) :
    Chain.W33 m h c main_v89 = fun _ => PairTotal.total (m ((c.tc : Thread nD τ).loc main_arg0)) (m ((c.tc : Thread nD τ).loc main_arg1)) (m ((c.tc : Thread nD τ).loc main_arg2)) := by
  funext j
  obtain rfl : j = ValueIdx.ix0 := ValueIdx.eq_ix0 j
  rw [ChainTotal.result m h c, res0_eq m h c, res1_eq m h c, res2_eq m h c, res3_eq m h c, res4_eq m h c, res5_eq m h c, res6_eq m h c, res7_eq m h c,
    res8_eq m h c, res9_eq m h c, res10_eq m h c, res11_eq m h c, res12_eq m h c, res13_eq m h c, res14_eq m h c, res15_eq m h c,
    ChunkSum.eight (fdist (m ((c.tc : Thread nD τ).loc main_arg0)) (m ((c.tc : Thread nD τ).loc main_arg1))),
    ChunkSum.eight (fhinge (m ((c.tc : Thread nD τ).loc main_arg0)) (m ((c.tc : Thread nD τ).loc main_arg2)))]
  exact total_of_chunks _ _ _

end Cert.KernelIdeal.KernelTotal

end
-- ==== Proof.lean ====
/- The two programs compute one pair loss. For every pair of row indices (a, b) in `pos` the distance between rows a and b
   of `h`, and for every pair in `neg` the hinge max(0, 1/2 − distance), all added up.
   The kernel walks the 200000 pairs of each index array in eight calls of 25000 grid points, one pair a point: the point's
   two rows are fetched through index tables (the call's slices of the two index columns), their distance (or hinge) is
   added to a one-entry accumulator that the first point resets; the host adds the sixteen call results in order. The
   reference gathers all rows at once and sums. Over the extended reals addition is commutative and associative, so the
   sixteen partial sums added in order are the reference's two sums; every index naming a row (the precondition's second
   and third conjuncts) makes every fetched block lie inside the array, and makes the reference's wrap of negative indices
   and its clamping of the gather's start the identity.
   Each program's frame: the kernel's runs by the region rule at every call (the body's two control cases run
   symbolically, the accumulator carried from point to point), the calls chained through the host stretches; the reference's
   is its run, the result dropped. -/
import proofs.«406163_j35201551958720_3_alg».proof.Defs
import proofs.«406163_j35201551958720_3_alg».proof.Proof.Gen.Kernel
import proofs.«406163_j35201551958720_3_alg».proof.Proof.Gen.KernelIdeal
import proofs.«406163_j35201551958720_3_alg».proof.Proof.Gen.ReferenceIdeal
import proofs.«406163_j35201551958720_3_alg».proof.Proof.Gen.Pre_finite_inputs
import proofs.«406163_j35201551958720_3_alg».proof.Proof.Gen.ReferenceIdeal.Run
import proofs.«406163_j35201551958720_3_alg».proof.Proof.Whole
import proofs.«406163_j35201551958720_3_alg».proof.Proof.WordWhole
import proofs.«406163_j35201551958720_3_alg».proof.Proof.PreToRange
import proofs.«406163_j35201551958720_3_alg».proof.Proof.WordPreToRange
import proofs.«406163_j35201551958720_3_alg».proof.Proof.RefTotal
import proofs.«406163_j35201551958720_3_alg».proof.Proof.KernelTotal
import Idealize.ShloMosaic.Adequacy
import Idealize.ShloMosaic.Init

noncomputable section

namespace Cert.Proof

open Idealize.ShloMosaic Idealize.SL.Sem

/-- The word-level kernel runs and keeps its arguments. -/
theorem frame_p : Cert.frame_Kernel (hKernel := Cert.Kernel.Gen.facts) (hPre_finite_inputs := Cert.Pre_finite_inputs.Gen.facts) := fun m ρ hpre =>
  (θ_run (Cert.Kernel.defs (F := Bits)) _ _).mono (fun r hr c => ⟨(hr c).1, (hr c).2.1, (hr c).2.2.1⟩)
    (Cert.Kernel.Whole.run (F := Bits) m (Cert.Kernel.Chain.inRange_of_pre m hpre) ρ)

/-- The idealized kernel runs and keeps its arguments. -/
theorem frame_pi : Cert.frame_KernelIdeal (hKernelIdeal := Cert.KernelIdeal.Gen.facts) (hPre_finite_inputs := Cert.Pre_finite_inputs.Gen.facts) := fun m ρ hpre =>
  (θ_run (Cert.KernelIdeal.defs (F := Ideal)) _ _).mono (fun r hr c => ⟨(hr c).1, (hr c).2.1, (hr c).2.2.1⟩)
    (Cert.KernelIdeal.Whole.run (F := Ideal) m (Cert.KernelIdeal.Chain.inRange_of_pre m hpre) ρ)

/-- The reference runs and keeps its arguments: its run, the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.Value.run (F := Ideal) m ρ)

/-- Both idealized programs end at the pair total of their common arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hR := Cert.KernelIdeal.Chain.inRange_of_pre m hpre
  refine ⟨fun c => fun _ => Cert.PairTotal.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run (Cert.KernelIdeal.defs (F := Ideal)) _ _).mono (fun r hr c => ?_) (Cert.KernelIdeal.Whole.run (F := Ideal) m hR ρ)
    obtain ⟨h0, h1, h2, h3⟩ := hr c
    exact ⟨h3.trans (Cert.KernelIdeal.KernelTotal.result m hR c), h0, h1, h2⟩
  · refine (θ_run Cert.ReferenceIdeal.defs _ _).mono (fun r hr c => ?_) (Cert.ReferenceIdeal.Value.run (F := Ideal) m' ρ')
    obtain ⟨h0, h1, h2, h3⟩ := hr c
    refine ⟨h0.trans ?_, h1, h2, h3⟩
    rw [Cert.ReferenceIdeal.RefValue.res_eq_total m' c
      (by rw [(hagree c).2.1]; exact Cert.PreRange.pos_toInt _ _ _ (hpre c))
      (by rw [(hagree c).2.2]; exact Cert.PreRange.neg_toInt _ _ _ (hpre c)),
      (hagree c).1, (hagree c).2.1, (hagree c).2.2]
    rfl

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
